-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v365)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v365) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v570) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x9 : Shape := ⟨2, ![50000, 9]⟩
abbrev S2x800000 : Shape := ⟨2, ![2, 800000]⟩
abbrev S800000x3 : Shape := ⟨2, ![800000, 3]⟩
abbrev S50000 : Shape := ⟨1, ![50000]⟩
abbrev S9x128x100 : Shape := ⟨3, ![9, 128, 100]⟩
abbrev S3x16x100 : Shape := ⟨3, ![3, 16, 100]⟩
abbrev S5 : Shape := ⟨1, ![5]⟩
abbrev S5x100x200 : Shape := ⟨3, ![5, 100, 200]⟩
abbrev S5x200 : Shape := ⟨2, ![5, 200]⟩
abbrev S5x200x100 : Shape := ⟨3, ![5, 200, 100]⟩
abbrev S5x100 : Shape := ⟨2, ![5, 100]⟩
abbrev S100x2 : Shape := ⟨2, ![100, 2]⟩
abbrev S2 : Shape := ⟨1, ![2]⟩
abbrev S_ : Shape := ⟨0, ![]⟩

class Facts : Prop where
  bcast_S_S9x128x100 : S_.BroadcastsInDim S9x128x100 (![] : Fin 0 → Fin S9x128x100.rank)
  reducesTo_S9x128x100_S_d0_1_2 : S9x128x100.ReducesTo [0, 1, 2] S_
  h_S_ : 0 < S_.numel
  bcast_S_S3x16x100 : S_.BroadcastsInDim S3x16x100 (![] : Fin 0 → Fin S3x16x100.rank)
  reducesTo_S3x16x100_S_d0_1_2 : S3x16x100.ReducesTo [0, 1, 2] S_
  bcast_S_S5 : S_.BroadcastsInDim S5 (![] : Fin 0 → Fin S5.rank)
  reducesTo_S5_S_d0 : S5.ReducesTo [0] S_
  bcast_S_S5x100x200 : S_.BroadcastsInDim S5x100x200 (![] : Fin 0 → Fin S5x100x200.rank)
  reducesTo_S5x100x200_S_d0_1_2 : S5x100x200.ReducesTo [0, 1, 2] S_
  bcast_S_S5x200 : S_.BroadcastsInDim S5x200 (![] : Fin 0 → Fin S5x200.rank)
  reducesTo_S5x200_S_d0_1 : S5x200.ReducesTo [0, 1] S_
  bcast_S_S5x200x100 : S_.BroadcastsInDim S5x200x100 (![] : Fin 0 → Fin S5x200x100.rank)
  reducesTo_S5x200x100_S_d0_1_2 : S5x200x100.ReducesTo [0, 1, 2] S_
  bcast_S_S5x100 : S_.BroadcastsInDim S5x100 (![] : Fin 0 → Fin S5x100.rank)
  reducesTo_S5x100_S_d0_1 : S5x100.ReducesTo [0, 1] S_
  bcast_S_S100x2 : S_.BroadcastsInDim S100x2 (![] : Fin 0 → Fin S100x2.rank)
  reducesTo_S100x2_S_d0_1 : S100x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg15 : FVec F S100x2 .f32) (main_arg16 : FVec F S2 .f32) (main_v48 : IVec S_ 1) (main_v49 : FVec F S5x100 .f32) (main_v50 : FVec F S5x100 .f32) : IVec S_ 1 :=
  let main_v51 : IVec S5x100 1 := cmpf .olt main_v49 main_v50
  let main_c_19 : IVec S_ 1 := constantI S_ 1 1#1
  let main_v52 : IVec S_ 1 := (fun x v => Host.reduce IntOp.andi x v reducesTo_S5x100_S_d0_1 h_S_) main_v51 main_c_19
  let main_v53 : IVec S_ 1 := andi main_v48 main_v52
  let main_v54 : FVec F S100x2 .f32 := Host.absf main_arg15
  let main_cst_20 : FVec F S_ .f32 := constant S_ .f32 0x7F800000#32
  let main_v55 : FVec F S100x2 .f32 := broadcastInDim S100x2 ![] bcast_S_S100x2 main_cst_20
  let main_v56 : IVec S100x2 1 := cmpf .olt main_v54 main_v55
  let main_c_21 : IVec S_ 1 := constantI S_ 1 1#1
  let main_v57 : IVec S_ 1 := (fun x v => Host.reduce IntOp.andi x v reducesTo_S100x2_S_d0_1 h_S_) main_v56 main_c_21
  let main_v58 : IVec S_ 1 := andi main_v53 main_v57
  let main_v59 : FVec F S2 .f32 := Host.absf main_arg16
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg11 : FVec F S5x200x100 .f32) (main_arg12 : FVec F S5x100 .f32) (main_arg13 : FVec F S5x100 .f32) (main_arg14 : FVec F S5x100 .f32) (main_arg15 : FVec F S100x2 .f32) (main_arg16 : FVec F S2 .f32) (main_v33 : IVec S_ 1) : IVec S_ 1 :=
  let main_v34 : FVec F S5x200x100 .f32 := Host.absf main_arg11
  let main_cst_12 : FVec F S_ .f32 := constant S_ .f32 0x7F800000#32
  let main_v35 : FVec F S5x200x100 .f32 := broadcastInDim S5x200x100 ![] bcast_S_S5x200x100 main_cst_12
  let main_v36 : IVec S5x200x100 1 := cmpf .olt main_v34 main_v35
  let main_c_13 : IVec S_ 1 := constantI S_ 1 1#1
  let main_v37 : IVec S_ 1 := (fun x v => Host.reduce IntOp.andi x v reducesTo_S5x200x100_S_d0_1_2 h_S_) main_v36 main_c_13
  let main_v38 : IVec S_ 1 := andi main_v33 main_v37
  let main_v39 : FVec F S5x100 .f32 := Host.absf main_arg12
  let main_cst_14 : FVec F S_ .f32 := constant S_ .f32 0x7F800000#32
  let main_v40 : FVec F S5x100 .f32 := broadcastInDim S5x100 ![] bcast_S_S5x100 main_cst_14
  let main_v41 : IVec S5x100 1 := cmpf .olt main_v39 main_v40
  let main_c_15 : IVec S_ 1 := constantI S_ 1 1#1
  let main_v42 : IVec S_ 1 := (fun x v => Host.reduce IntOp.andi x v reducesTo_S5x100_S_d0_1 h_S_) main_v41 main_c_15
  let main_v43 : IVec S_ 1 := andi main_v38 main_v42
  let main_v44 : FVec F S5x100 .f32 := Host.absf main_arg13
  let main_cst_16 : FVec F S_ .f32 := constant S_ .f32 0x7F800000#32
  let main_v45 : FVec F S5x100 .f32 := broadcastInDim S5x100 ![] bcast_S_S5x100 main_cst_16
  let main_v46 : IVec S5x100 1 := cmpf .olt main_v44 main_v45
  let main_c_17 : IVec S_ 1 := constantI S_ 1 1#1
  let main_v47 : IVec S_ 1 := (fun x v => Host.reduce IntOp.andi x v reducesTo_S5x100_S_d0_1 h_S_) main_v46 main_c_17
  let main_v48 : IVec S_ 1 := andi main_v43 main_v47
  let main_v49 : FVec F S5x100 .f32 := Host.absf main_arg14
  let main_cst_18 : FVec F S_ .f32 := constant S_ .f32 0x7F800000#32
  let main_v50 : FVec F S5x100 .f32 := broadcastInDim S5x100 ![] bcast_S_S5x100 main_cst_18
  fn_part3 (F := F) main_arg15 main_arg16 main_v48 main_v49 main_v50

def fn_part1 {F : FTy → Type} [FloatOps F] (main_arg8 : FVec F S5x200 .f32) (main_arg9 : FVec F S5x200 .f32) (main_arg10 : FVec F S5x200 .f32) (main_arg11 : FVec F S5x200x100 .f32) (main_arg12 : FVec F S5x100 .f32) (main_arg13 : FVec F S5x100 .f32) (main_arg14 : FVec F S5x100 .f32) (main_arg15 : FVec F S100x2 .f32) (main_arg16 : FVec F S2 .f32) (main_v13 : IVec S_ 1) (main_v16 : IVec S5x100x200 1) : IVec S_ 1 :=
  let main_c_5 : IVec S_ 1 := constantI S_ 1 1#1
  let main_v17 : IVec S_ 1 := (fun x v => Host.reduce IntOp.andi x v reducesTo_S5x100x200_S_d0_1_2 h_S_) main_v16 main_c_5
  let main_v18 : IVec S_ 1 := andi main_v13 main_v17
  let main_v19 : FVec F S5x200 .f32 := Host.absf main_arg8
  let main_cst_6 : FVec F S_ .f32 := constant S_ .f32 0x7F800000#32
  let main_v20 : FVec F S5x200 .f32 := broadcastInDim S5x200 ![] bcast_S_S5x200 main_cst_6
  let main_v21 : IVec S5x200 1 := cmpf .olt main_v19 main_v20
  let main_c_7 : IVec S_ 1 := constantI S_ 1 1#1
  let main_v22 : IVec S_ 1 := (fun x v => Host.reduce IntOp.andi x v reducesTo_S5x200_S_d0_1 h_S_) main_v21 main_c_7
  let main_v23 : IVec S_ 1 := andi main_v18 main_v22
  let main_v24 : FVec F S5x200 .f32 := Host.absf main_arg9
  let main_cst_8 : FVec F S_ .f32 := constant S_ .f32 0x7F800000#32
  let main_v25 : FVec F S5x200 .f32 := broadcastInDim S5x200 ![] bcast_S_S5x200 main_cst_8
  let main_v26 : IVec S5x200 1 := cmpf .olt main_v24 main_v25
  let main_c_9 : IVec S_ 1 := constantI S_ 1 1#1
  let main_v27 : IVec S_ 1 := (fun x v => Host.reduce IntOp.andi x v reducesTo_S5x200_S_d0_1 h_S_) main_v26 main_c_9
  let main_v28 : IVec S_ 1 := andi main_v23 main_v27
  let main_v29 : FVec F S5x200 .f32 := Host.absf main_arg10
  let main_cst_10 : FVec F S_ .f32 := constant S_ .f32 0x7F800000#32
  let main_v30 : FVec F S5x200 .f32 := broadcastInDim S5x200 ![] bcast_S_S5x200 main_cst_10
  let main_v31 : IVec S5x200 1 := cmpf .olt main_v29 main_v30
  let main_c_11 : IVec S_ 1 := constantI S_ 1 1#1
  let main_v32 : IVec S_ 1 := (fun x v => Host.reduce IntOp.andi x v reducesTo_S5x200_S_d0_1 h_S_) main_v31 main_c_11
  let main_v33 : IVec S_ 1 := andi main_v28 main_v32
  fn_part2 (F := F) main_arg11 main_arg12 main_arg13 main_arg14 main_arg15 main_arg16 main_v33

def fn {F : FTy → Type} [FloatOps F] (main_arg0 : IVec S50000x9 32) (main_arg1 : IVec S2x800000 32) (main_arg2 : IVec S800000x3 32) (main_arg3 : IVec S50000 32) (main_arg4 : FVec F S9x128x100 .f32) (main_arg5 : FVec F S3x16x100 .f32) (main_arg6 : FVec F S5 .f32) (main_arg7 : FVec F S5x100x200 .f32) (main_arg8 : FVec F S5x200 .f32) (main_arg9 : FVec F S5x200 .f32) (main_arg10 : FVec F S5x200 .f32) (main_arg11 : FVec F S5x200x100 .f32) (main_arg12 : FVec F S5x100 .f32) (main_arg13 : FVec F S5x100 .f32) (main_arg14 : FVec F S5x100 .f32) (main_arg15 : FVec F S100x2 .f32) (main_arg16 : FVec F S2 .f32) : IVec S_ 1 :=
  let main_v0 : FVec F S9x128x100 .f32 := Host.absf main_arg4
  let main_cst : FVec F S_ .f32 := constant S_ .f32 0x7F800000#32
  let main_v1 : FVec F S9x128x100 .f32 := broadcastInDim S9x128x100 ![] bcast_S_S9x128x100 main_cst
  let main_v2 : IVec S9x128x100 1 := cmpf .olt main_v0 main_v1
  let main_c : IVec S_ 1 := constantI S_ 1 1#1
  let main_v3 : IVec S_ 1 := (fun x v => Host.reduce IntOp.andi x v reducesTo_S9x128x100_S_d0_1_2 h_S_) main_v2 main_c
  let main_v4 : FVec F S3x16x100 .f32 := Host.absf main_arg5
  let main_cst_0 : FVec F S_ .f32 := constant S_ .f32 0x7F800000#32
  let main_v5 : FVec F S3x16x100 .f32 := broadcastInDim S3x16x100 ![] bcast_S_S3x16x100 main_cst_0
  let main_v6 : IVec S3x16x100 1 := cmpf .olt main_v4 main_v5
  let main_c_1 : IVec S_ 1 := constantI S_ 1 1#1
  let main_v7 : IVec S_ 1 := (fun x v => Host.reduce IntOp.andi x v reducesTo_S3x16x100_S_d0_1_2 h_S_) main_v6 main_c_1
  let main_v8 : IVec S_ 1 := andi main_v3 main_v7
  let main_v9 : FVec F S5 .f32 := Host.absf main_arg6
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  let main_v14 : FVec F S5x100x200 .f32 := Host.absf main_arg7
  let main_cst_4 : FVec F S_ .f32 := constant S_ .f32 0x7F800000#32
  let main_v15 : FVec F S5x100x200 .f32 := broadcastInDim S5x100x200 ![] bcast_S_S5x100x200 main_cst_4
  let main_v16 : IVec S5x100x200 1 := cmpf .olt main_v14 main_v15
  fn_part1 (F := F) main_arg8 main_arg9 main_arg10 main_arg11 main_arg12 main_arg13 main_arg14 main_arg15 main_arg16 main_v13 main_v16
-- ==== Kernel.lean ====
abbrev S50000x9 : Shape := ⟨2, ![50000, 9]⟩
abbrev S2x800000 : Shape := ⟨2, ![2, 800000]⟩
abbrev S800000x3 : Shape := ⟨2, ![800000, 3]⟩
abbrev S50000 : Shape := ⟨1, ![50000]⟩
abbrev S9x128x100 : Shape := ⟨3, ![9, 128, 100]⟩
abbrev S3x16x100 : Shape := ⟨3, ![3, 16, 100]⟩
abbrev S5 : Shape := ⟨1, ![5]⟩
abbrev S5x100x200 : Shape := ⟨3, ![5, 100, 200]⟩
abbrev S5x200 : Shape := ⟨2, ![5, 200]⟩
abbrev S5x200x100 : Shape := ⟨3, ![5, 200, 100]⟩
abbrev S5x100 : Shape := ⟨2, ![5, 100]⟩
abbrev S100x2 : Shape := ⟨2, ![100, 2]⟩
abbrev S2 : Shape := ⟨1, ![2]⟩
abbrev S_ : Shape := ⟨0, ![]⟩
abbrev S50000x100 : Shape := ⟨2, ![50000, 100]⟩
abbrev S1x128x100 : Shape := ⟨3, ![1, 128, 100]⟩
abbrev S128x100 : Shape := ⟨2, ![128, 100]⟩
abbrev S50000x1 : Shape := ⟨2, ![50000, 1]⟩
abbrev S800000x100 : Shape := ⟨2, ![800000, 100]⟩
abbrev S1x16x100 : Shape := ⟨3, ![1, 16, 100]⟩
abbrev S16x100 : Shape := ⟨2, ![16, 100]⟩
abbrev S800000x1 : Shape := ⟨2, ![800000, 1]⟩
abbrev S800000 : Shape := ⟨1, ![800000]⟩
abbrev S1x800000 : Shape := ⟨2, ![1, 800000]⟩
abbrev S1 : Shape := ⟨1, ![1]⟩
abbrev S1x100x200 : Shape := ⟨3, ![1, 100, 200]⟩
abbrev S100x200 : Shape := ⟨2, ![100, 200]⟩
abbrev S1x200 : Shape := ⟨2, ![1, 200]⟩
abbrev S50000x200 : Shape := ⟨2, ![50000, 200]⟩
abbrev S5000x100 : Shape := ⟨2, ![5000, 100]⟩
abbrev S5000x200 : Shape := ⟨2, ![5000, 200]⟩
abbrev S200 : Shape := ⟨1, ![200]⟩
abbrev S1x200x100 : Shape := ⟨3, ![1, 200, 100]⟩
abbrev S200x100 : Shape := ⟨2, ![200, 100]⟩
abbrev S1x100 : Shape := ⟨2, ![1, 100]⟩
abbrev S100 : Shape := ⟨1, ![100]⟩
abbrev S512x100 : Shape := ⟨2, ![512, 100]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 683
  | .vmem => 120
  | .smem => 0
  | _ => 0

abbrev hbmTy0_0 (i : Nat) : BufTy := match i % 128 with
  | 0 => ⟨S50000x9, .i32⟩
  | 1 => ⟨S2x800000, .i32⟩
  | 2 => ⟨S800000x3, .i32⟩
  | 3 => ⟨S50000, .i32⟩
  | 4 => ⟨S9x128x100, .f32⟩
  | 5 => ⟨S3x16x100, .f32⟩
  | 6 => ⟨S5, .f32⟩
  | 7 => ⟨S5x100x200, .f32⟩
  | 8 => ⟨S5x200, .f32⟩
  | 9 => ⟨S5x200, .f32⟩
  | 10 => ⟨S5x200, .f32⟩
  | 11 => ⟨S5x200x100, .f32⟩
  | 12 => ⟨S5x100, .f32⟩
  | 13 => ⟨S5x100, .f32⟩
  | 14 => ⟨S5x100, .f32⟩
  | 15 => ⟨S100x2, .f32⟩
  | 16 => ⟨S2, .f32⟩
  | 17 => ⟨S_, .f32⟩
  | 18 => ⟨S50000x100, .f32⟩
  | 19 => ⟨S1x128x100, .f32⟩
  | 20 => ⟨S128x100, .f32⟩
  | 21 => ⟨S50000x1, .i32⟩
  | 22 => ⟨S50000, .i32⟩
  | 23 => ⟨S_, .i32⟩
  | 24 => ⟨S50000, .i32⟩
  | 25 => ⟨S50000, .i1⟩
  | 26 => ⟨S_, .i32⟩
  | 27 => ⟨S50000, .i32⟩
  | 28 => ⟨S50000, .i32⟩
  | 29 => ⟨S50000, .i32⟩
  | 30 => ⟨S50000x1, .i32⟩
  | 31 => ⟨S50000x100, .f32⟩
  | 32 => ⟨S50000x100, .f32⟩
  | 33 => ⟨S1x128x100, .f32⟩
  | 34 => ⟨S128x100, .f32⟩
  | 35 => ⟨S50000x1, .i32⟩
  | 36 => ⟨S50000, .i32⟩
  | 37 => ⟨S_, .i32⟩
  | 38 => ⟨S50000, .i32⟩
  | 39 => ⟨S50000, .i1⟩
  | 40 => ⟨S_, .i32⟩
  | 41 => ⟨S50000, .i32⟩
  | 42 => ⟨S50000, .i32⟩
  | 43 => ⟨S50000, .i32⟩
  | 44 => ⟨S50000x1, .i32⟩
  | 45 => ⟨S50000x100, .f32⟩
  | 46 => ⟨S50000x100, .f32⟩
  | 47 => ⟨S1x128x100, .f32⟩
  | 48 => ⟨S128x100, .f32⟩
  | 49 => ⟨S50000x1, .i32⟩
  | 50 => ⟨S50000, .i32⟩
  | 51 => ⟨S_, .i32⟩
  | 52 => ⟨S50000, .i32⟩
  | 53 => ⟨S50000, .i1⟩
  | 54 => ⟨S_, .i32⟩
  | 55 => ⟨S50000, .i32⟩
  | 56 => ⟨S50000, .i32⟩
  | 57 => ⟨S50000, .i32⟩
  | 58 => ⟨S50000x1, .i32⟩
  | 59 => ⟨S50000x100, .f32⟩
  | 60 => ⟨S50000x100, .f32⟩
  | 61 => ⟨S1x128x100, .f32⟩
  | 62 => ⟨S128x100, .f32⟩
  | 63 => ⟨S50000x1, .i32⟩
  | 64 => ⟨S50000, .i32⟩
  | 65 => ⟨S_, .i32⟩
  | 66 => ⟨S50000, .i32⟩
  | 67 => ⟨S50000, .i1⟩
  | 68 => ⟨S_, .i32⟩
  | 69 => ⟨S50000, .i32⟩
  | 70 => ⟨S50000, .i32⟩
  | 71 => ⟨S50000, .i32⟩
  | 72 => ⟨S50000x1, .i32⟩
  | 73 => ⟨S50000x100, .f32⟩
  | 74 => ⟨S50000x100, .f32⟩
  | 75 => ⟨S1x128x100, .f32⟩
  | 76 => ⟨S128x100, .f32⟩
  | 77 => ⟨S50000x1, .i32⟩
  | 78 => ⟨S50000, .i32⟩
  | 79 => ⟨S_, .i32⟩
  | 80 => ⟨S50000, .i32⟩
  | 81 => ⟨S50000, .i1⟩
  | 82 => ⟨S_, .i32⟩
  | 83 => ⟨S50000, .i32⟩
  | 84 => ⟨S50000, .i32⟩
  | 85 => ⟨S50000, .i32⟩
  | 86 => ⟨S50000x1, .i32⟩
  | 87 => ⟨S50000x100, .f32⟩
  | 88 => ⟨S50000x100, .f32⟩
  | 89 => ⟨S1x128x100, .f32⟩
  | 90 => ⟨S128x100, .f32⟩
  | 91 => ⟨S50000x1, .i32⟩
  | 92 => ⟨S50000, .i32⟩
  | 93 => ⟨S_, .i32⟩
  | 94 => ⟨S50000, .i32⟩
  | 95 => ⟨S50000, .i1⟩
  | 96 => ⟨S_, .i32⟩
  | 97 => ⟨S50000, .i32⟩
  | 98 => ⟨S50000, .i32⟩
  | 99 => ⟨S50000, .i32⟩
  | 100 => ⟨S50000x1, .i32⟩
  | 101 => ⟨S50000x100, .f32⟩
  | 102 => ⟨S50000x100, .f32⟩
  | 103 => ⟨S1x128x100, .f32⟩
  | 104 => ⟨S128x100, .f32⟩
  | 105 => ⟨S50000x1, .i32⟩
  | 106 => ⟨S50000, .i32⟩
  | 107 => ⟨S_, .i32⟩
  | 108 => ⟨S50000, .i32⟩
  | 109 => ⟨S50000, .i1⟩
  | 110 => ⟨S_, .i32⟩
  | 111 => ⟨S50000, .i32⟩
  | 112 => ⟨S50000, .i32⟩
  | 113 => ⟨S50000, .i32⟩
  | 114 => ⟨S50000x1, .i32⟩
  | 115 => ⟨S50000x100, .f32⟩
  | 116 => ⟨S50000x100, .f32⟩
  | 117 => ⟨S1x128x100, .f32⟩
  | 118 => ⟨S128x100, .f32⟩
  | 119 => ⟨S50000x1, .i32⟩
  | 120 => ⟨S50000, .i32⟩
  | 121 => ⟨S_, .i32⟩
  | 122 => ⟨S50000, .i32⟩
  | 123 => ⟨S50000, .i1⟩
  | 124 => ⟨S_, .i32⟩
  | 125 => ⟨S50000, .i32⟩
  | 126 => ⟨S50000, .i32⟩
  | 127 => ⟨S50000, .i32⟩
  | _ => ⟨S50000x9, .i32⟩

abbrev hbmTy0_1 (i : Nat) : BufTy := match i % 128 with
  | 0 => ⟨S50000x1, .i32⟩
  | 1 => ⟨S50000x100, .f32⟩
  | 2 => ⟨S50000x100, .f32⟩
  | 3 => ⟨S1x128x100, .f32⟩
  | 4 => ⟨S128x100, .f32⟩
  | 5 => ⟨S50000x1, .i32⟩
  | 6 => ⟨S50000, .i32⟩
  | 7 => ⟨S_, .i32⟩
  | 8 => ⟨S50000, .i32⟩
  | 9 => ⟨S50000, .i1⟩
  | 10 => ⟨S_, .i32⟩
  | 11 => ⟨S50000, .i32⟩
  | 12 => ⟨S50000, .i32⟩
  | 13 => ⟨S50000, .i32⟩
  | 14 => ⟨S50000x1, .i32⟩
  | 15 => ⟨S50000x100, .f32⟩
  | 16 => ⟨S50000x100, .f32⟩
  | 17 => ⟨S_, .f32⟩
  | 18 => ⟨S800000x100, .f32⟩
  | 19 => ⟨S1x16x100, .f32⟩
  | 20 => ⟨S16x100, .f32⟩
  | 21 => ⟨S800000x1, .i32⟩
  | 22 => ⟨S800000, .i32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x100, .f32⟩
  | 32 => ⟨S800000x100, .f32⟩
  | 33 => ⟨S1x16x100, .f32⟩
  | 34 => ⟨S16x100, .f32⟩
  | 35 => ⟨S800000x1, .i32⟩
  | 36 => ⟨S800000, .i32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x100, .f32⟩
  | 46 => ⟨S800000x100, .f32⟩
  | 47 => ⟨S1x16x100, .f32⟩
  | 48 => ⟨S16x100, .f32⟩
  | 49 => ⟨S800000x1, .i32⟩
  | 50 => ⟨S800000, .i32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x100, .f32⟩
  | 60 => ⟨S800000x100, .f32⟩
  | 61 => ⟨S1x800000, .i32⟩
  | 62 => ⟨S800000, .i32⟩
  | 63 => ⟨S1x800000, .i32⟩
  | 64 => ⟨S800000, .i32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x100, .f32⟩
  | 74 => ⟨S800000x100, .f32⟩
  | 75 => ⟨S_, .f32⟩
  | 76 => ⟨S50000x100, .f32⟩
  | 77 => ⟨S800000x1, .i32⟩
  | 78 => ⟨S50000x100, .f32⟩
  | 79 => ⟨S1, .f32⟩
  | 80 => ⟨S_, .f32⟩
  | 81 => ⟨S_, .f32⟩
  | 82 => ⟨S_, .f32⟩
  | 83 => ⟨S50000x100, .f32⟩
  | 84 => ⟨S50000x100, .f32⟩
  | 85 => ⟨S50000x100, .f32⟩
  | 86 => ⟨S1x100x200, .f32⟩
  | 87 => ⟨S100x200, .f32⟩
  | 88 => ⟨S1x200, .f32⟩
  | 89 => ⟨S50000x200, .f32⟩
  | 90 => ⟨S_, .f32⟩
  | 91 => ⟨S200, .f32⟩
  | 92 => ⟨S1x200, .f32⟩
  | 93 => ⟨S_, .f32⟩
  | 94 => ⟨S1x200, .f32⟩
  | 95 => ⟨S1x200, .f32⟩
  | 96 => ⟨S_, .i32⟩
  | 97 => ⟨S_, .f32⟩
  | 98 => ⟨S200, .f32⟩
  | 99 => ⟨S1x200, .f32⟩
  | 100 => ⟨S_, .f32⟩
  | 101 => ⟨S1x200, .f32⟩
  | 102 => ⟨S1x200, .f32⟩
  | 103 => ⟨S50000x200, .f32⟩
  | 104 => ⟨S50000x200, .f32⟩
  | 105 => ⟨S50000x200, .f32⟩
  | 106 => ⟨S_, .f32⟩
  | 107 => ⟨S_, .f32⟩
  | 108 => ⟨S_, .f32⟩
  | 109 => ⟨S_, .f32⟩
  | 110 => ⟨S200, .f32⟩
  | 111 => ⟨S1x200, .f32⟩
  | 112 => ⟨S1x200, .f32⟩
  | 113 => ⟨S1x200, .f32⟩
  | 114 => ⟨S_, .f32⟩
  | 115 => ⟨S_, .i1⟩
  | 116 => ⟨S_, .f32⟩
  | 117 => ⟨S_, .f32⟩
  | 118 => ⟨S1x200, .f32⟩
  | 119 => ⟨S1x200, .f32⟩
  | 120 => ⟨S1x200, .f32⟩
  | 121 => ⟨S1x200, .f32⟩
  | 122 => ⟨S1x200x100, .f32⟩
  | 123 => ⟨S200x100, .f32⟩
  | 124 => ⟨S1x100, .f32⟩
  | 125 => ⟨S50000x100, .f32⟩
  | 126 => ⟨S_, .f32⟩
  | 127 => ⟨S100, .f32⟩
  | _ => ⟨S50000x9, .i32⟩

abbrev hbmTy0_2 (i : Nat) : BufTy := match i % 128 with
  | 0 => ⟨S1x100, .f32⟩
  | 1 => ⟨S_, .f32⟩
  | 2 => ⟨S1x100, .f32⟩
  | 3 => ⟨S1x100, .f32⟩
  | 4 => ⟨S_, .i32⟩
  | 5 => ⟨S_, .f32⟩
  | 6 => ⟨S100, .f32⟩
  | 7 => ⟨S1x100, .f32⟩
  | 8 => ⟨S_, .f32⟩
  | 9 => ⟨S1x100, .f32⟩
  | 10 => ⟨S1x100, .f32⟩
  | 11 => ⟨S50000x100, .f32⟩
  | 12 => ⟨S50000x100, .f32⟩
  | 13 => ⟨S50000x100, .f32⟩
  | 14 => ⟨S_, .f32⟩
  | 15 => ⟨S_, .f32⟩
  | 16 => ⟨S_, .f32⟩
  | 17 => ⟨S_, .f32⟩
  | 18 => ⟨S100, .f32⟩
  | 19 => ⟨S1x100, .f32⟩
  | 20 => ⟨S1x100, .f32⟩
  | 21 => ⟨S1x100, .f32⟩
  | 22 => ⟨S_, .f32⟩
  | 23 => ⟨S_, .i1⟩
  | 24 => ⟨S_, .f32⟩
  | 25 => ⟨S_, .f32⟩
  | 26 => ⟨S1x100, .f32⟩
  | 27 => ⟨S1x100, .f32⟩
  | 28 => ⟨S1x100, .f32⟩
  | 29 => ⟨S1x100, .f32⟩
  | 30 => ⟨S50000x100, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x100, .f32⟩
  | 40 => ⟨S800000x100, .f32⟩
  | 41 => ⟨S_, .f32⟩
  | 42 => ⟨S50000x100, .f32⟩
  | 43 => ⟨S800000x1, .i32⟩
  | 44 => ⟨S50000x100, .f32⟩
  | 45 => ⟨S1, .f32⟩
  | 46 => ⟨S_, .f32⟩
  | 47 => ⟨S_, .f32⟩
  | 48 => ⟨S_, .f32⟩
  | 49 => ⟨S50000x100, .f32⟩
  | 50 => ⟨S50000x100, .f32⟩
  | 51 => ⟨S50000x100, .f32⟩
  | 52 => ⟨S1x100x200, .f32⟩
  | 53 => ⟨S100x200, .f32⟩
  | 54 => ⟨S1x200, .f32⟩
  | 55 => ⟨S50000x200, .f32⟩
  | 56 => ⟨S_, .f32⟩
  | 57 => ⟨S200, .f32⟩
  | 58 => ⟨S1x200, .f32⟩
  | 59 => ⟨S_, .f32⟩
  | 60 => ⟨S1x200, .f32⟩
  | 61 => ⟨S1x200, .f32⟩
  | 62 => ⟨S_, .i32⟩
  | 63 => ⟨S_, .f32⟩
  | 64 => ⟨S200, .f32⟩
  | 65 => ⟨S1x200, .f32⟩
  | 66 => ⟨S_, .f32⟩
  | 67 => ⟨S1x200, .f32⟩
  | 68 => ⟨S1x200, .f32⟩
  | 69 => ⟨S50000x200, .f32⟩
  | 70 => ⟨S50000x200, .f32⟩
  | 71 => ⟨S50000x200, .f32⟩
  | 72 => ⟨S_, .f32⟩
  | 73 => ⟨S_, .f32⟩
  | 74 => ⟨S_, .f32⟩
  | 75 => ⟨S_, .f32⟩
  | 76 => ⟨S200, .f32⟩
  | 77 => ⟨S1x200, .f32⟩
  | 78 => ⟨S1x200, .f32⟩
  | 79 => ⟨S1x200, .f32⟩
  | 80 => ⟨S_, .f32⟩
  | 81 => ⟨S_, .i1⟩
  | 82 => ⟨S_, .f32⟩
  | 83 => ⟨S_, .f32⟩
  | 84 => ⟨S1x200, .f32⟩
  | 85 => ⟨S1x200, .f32⟩
  | 86 => ⟨S1x200, .f32⟩
  | 87 => ⟨S1x200, .f32⟩
  | 88 => ⟨S1x200x100, .f32⟩
  | 89 => ⟨S200x100, .f32⟩
  | 90 => ⟨S1x100, .f32⟩
  | 91 => ⟨S50000x100, .f32⟩
  | 92 => ⟨S_, .f32⟩
  | 93 => ⟨S100, .f32⟩
  | 94 => ⟨S1x100, .f32⟩
  | 95 => ⟨S_, .f32⟩
  | 96 => ⟨S1x100, .f32⟩
  | 97 => ⟨S1x100, .f32⟩
  | 98 => ⟨S_, .i32⟩
  | 99 => ⟨S_, .f32⟩
  | 100 => ⟨S100, .f32⟩
  | 101 => ⟨S1x100, .f32⟩
  | 102 => ⟨S_, .f32⟩
  | 103 => ⟨S1x100, .f32⟩
  | 104 => ⟨S1x100, .f32⟩
  | 105 => ⟨S50000x100, .f32⟩
  | 106 => ⟨S50000x100, .f32⟩
  | 107 => ⟨S50000x100, .f32⟩
  | 108 => ⟨S_, .f32⟩
  | 109 => ⟨S_, .f32⟩
  | 110 => ⟨S_, .f32⟩
  | 111 => ⟨S_, .f32⟩
  | 112 => ⟨S100, .f32⟩
  | 113 => ⟨S1x100, .f32⟩
  | 114 => ⟨S1x100, .f32⟩
  | 115 => ⟨S1x100, .f32⟩
  | 116 => ⟨S_, .f32⟩
  | 117 => ⟨S_, .i1⟩
  | 118 => ⟨S_, .f32⟩
  | 119 => ⟨S_, .f32⟩
  | 120 => ⟨S1x100, .f32⟩
  | 121 => ⟨S1x100, .f32⟩
  | 122 => ⟨S1x100, .f32⟩
  | 123 => ⟨S1x100, .f32⟩
  | 124 => ⟨S50000x100, .f32⟩
  | 125 => ⟨S_, .i32⟩
  | 126 => ⟨S800000, .i32⟩
  | 127 => ⟨S800000, .i1⟩
  | _ => ⟨S50000x9, .i32⟩

abbrev hbmTy0_3 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x100, .f32⟩
  | 6 => ⟨S800000x100, .f32⟩
  | 7 => ⟨S_, .f32⟩
  | 8 => ⟨S50000x100, .f32⟩
  | 9 => ⟨S800000x1, .i32⟩
  | 10 => ⟨S50000x100, .f32⟩
  | 11 => ⟨S1, .f32⟩
  | 12 => ⟨S_, .f32⟩
  | 13 => ⟨S_, .f32⟩
  | 14 => ⟨S_, .f32⟩
  | 15 => ⟨S50000x100, .f32⟩
  | 16 => ⟨S50000x100, .f32⟩
  | 17 => ⟨S50000x100, .f32⟩
  | 18 => ⟨S1x100x200, .f32⟩
  | 19 => ⟨S100x200, .f32⟩
  | 20 => ⟨S1x200, .f32⟩
  | 21 => ⟨S50000x200, .f32⟩
  | 22 => ⟨S_, .f32⟩
  | 23 => ⟨S200, .f32⟩
  | 24 => ⟨S1x200, .f32⟩
  | 25 => ⟨S_, .f32⟩
  | 26 => ⟨S1x200, .f32⟩
  | 27 => ⟨S1x200, .f32⟩
  | 28 => ⟨S_, .i32⟩
  | 29 => ⟨S_, .f32⟩
  | 30 => ⟨S200, .f32⟩
  | 31 => ⟨S1x200, .f32⟩
  | 32 => ⟨S_, .f32⟩
  | 33 => ⟨S1x200, .f32⟩
  | 34 => ⟨S1x200, .f32⟩
  | 35 => ⟨S50000x200, .f32⟩
  | 36 => ⟨S50000x200, .f32⟩
  | 37 => ⟨S50000x200, .f32⟩
  | 38 => ⟨S_, .f32⟩
  | 39 => ⟨S_, .f32⟩
  | 40 => ⟨S_, .f32⟩
  | 41 => ⟨S_, .f32⟩
  | 42 => ⟨S200, .f32⟩
  | 43 => ⟨S1x200, .f32⟩
  | 44 => ⟨S1x200, .f32⟩
  | 45 => ⟨S1x200, .f32⟩
  | 46 => ⟨S_, .f32⟩
  | 47 => ⟨S_, .i1⟩
  | 48 => ⟨S_, .f32⟩
  | 49 => ⟨S_, .f32⟩
  | 50 => ⟨S1x200, .f32⟩
  | 51 => ⟨S1x200, .f32⟩
  | 52 => ⟨S1x200, .f32⟩
  | 53 => ⟨S1x200, .f32⟩
  | 54 => ⟨S1x200x100, .f32⟩
  | 55 => ⟨S200x100, .f32⟩
  | 56 => ⟨S1x100, .f32⟩
  | 57 => ⟨S50000x100, .f32⟩
  | 58 => ⟨S_, .f32⟩
  | 59 => ⟨S100, .f32⟩
  | 60 => ⟨S1x100, .f32⟩
  | 61 => ⟨S_, .f32⟩
  | 62 => ⟨S1x100, .f32⟩
  | 63 => ⟨S1x100, .f32⟩
  | 64 => ⟨S_, .i32⟩
  | 65 => ⟨S_, .f32⟩
  | 66 => ⟨S100, .f32⟩
  | 67 => ⟨S1x100, .f32⟩
  | 68 => ⟨S_, .f32⟩
  | 69 => ⟨S1x100, .f32⟩
  | 70 => ⟨S1x100, .f32⟩
  | 71 => ⟨S50000x100, .f32⟩
  | 72 => ⟨S50000x100, .f32⟩
  | 73 => ⟨S50000x100, .f32⟩
  | 74 => ⟨S_, .f32⟩
  | 75 => ⟨S_, .f32⟩
  | 76 => ⟨S_, .f32⟩
  | 77 => ⟨S_, .f32⟩
  | 78 => ⟨S100, .f32⟩
  | 79 => ⟨S1x100, .f32⟩
  | 80 => ⟨S1x100, .f32⟩
  | 81 => ⟨S1x100, .f32⟩
  | 82 => ⟨S_, .f32⟩
  | 83 => ⟨S_, .i1⟩
  | 84 => ⟨S_, .f32⟩
  | 85 => ⟨S_, .f32⟩
  | 86 => ⟨S1x100, .f32⟩
  | 87 => ⟨S1x100, .f32⟩
  | 88 => ⟨S1x100, .f32⟩
  | 89 => ⟨S1x100, .f32⟩
  | 90 => ⟨S50000x100, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x100, .f32⟩
  | 100 => ⟨S800000x100, .f32⟩
  | 101 => ⟨S_, .f32⟩
  | 102 => ⟨S50000x100, .f32⟩
  | 103 => ⟨S800000x1, .i32⟩
  | 104 => ⟨S50000x100, .f32⟩
  | 105 => ⟨S1, .f32⟩
  | 106 => ⟨S_, .f32⟩
  | 107 => ⟨S_, .f32⟩
  | 108 => ⟨S_, .f32⟩
  | 109 => ⟨S50000x100, .f32⟩
  | 110 => ⟨S50000x100, .f32⟩
  | 111 => ⟨S50000x100, .f32⟩
  | 112 => ⟨S1x100x200, .f32⟩
  | 113 => ⟨S100x200, .f32⟩
  | 114 => ⟨S1x200, .f32⟩
  | 115 => ⟨S50000x200, .f32⟩
  | 116 => ⟨S_, .f32⟩
  | 117 => ⟨S200, .f32⟩
  | 118 => ⟨S1x200, .f32⟩
  | 119 => ⟨S_, .f32⟩
  | 120 => ⟨S1x200, .f32⟩
  | 121 => ⟨S1x200, .f32⟩
  | 122 => ⟨S_, .i32⟩
  | 123 => ⟨S_, .f32⟩
  | 124 => ⟨S200, .f32⟩
  | 125 => ⟨S1x200, .f32⟩
  | 126 => ⟨S_, .f32⟩
  | 127 => ⟨S1x200, .f32⟩
  | _ => ⟨S50000x9, .i32⟩

abbrev hbmTy0_4 (i : Nat) : BufTy := match i % 128 with
  | 0 => ⟨S1x200, .f32⟩
  | 1 => ⟨S50000x200, .f32⟩
  | 2 => ⟨S50000x200, .f32⟩
  | 3 => ⟨S50000x200, .f32⟩
  | 4 => ⟨S_, .f32⟩
  | 5 => ⟨S_, .f32⟩
  | 6 => ⟨S_, .f32⟩
  | 7 => ⟨S_, .f32⟩
  | 8 => ⟨S200, .f32⟩
  | 9 => ⟨S1x200, .f32⟩
  | 10 => ⟨S1x200, .f32⟩
  | 11 => ⟨S1x200, .f32⟩
  | 12 => ⟨S_, .f32⟩
  | 13 => ⟨S_, .i1⟩
  | 14 => ⟨S_, .f32⟩
  | 15 => ⟨S_, .f32⟩
  | 16 => ⟨S1x200, .f32⟩
  | 17 => ⟨S1x200, .f32⟩
  | 18 => ⟨S1x200, .f32⟩
  | 19 => ⟨S1x200, .f32⟩
  | 20 => ⟨S1x200x100, .f32⟩
  | 21 => ⟨S200x100, .f32⟩
  | 22 => ⟨S1x100, .f32⟩
  | 23 => ⟨S50000x100, .f32⟩
  | 24 => ⟨S_, .f32⟩
  | 25 => ⟨S100, .f32⟩
  | 26 => ⟨S1x100, .f32⟩
  | 27 => ⟨S_, .f32⟩
  | 28 => ⟨S1x100, .f32⟩
  | 29 => ⟨S1x100, .f32⟩
  | 30 => ⟨S_, .i32⟩
  | 31 => ⟨S_, .f32⟩
  | 32 => ⟨S100, .f32⟩
  | 33 => ⟨S1x100, .f32⟩
  | 34 => ⟨S_, .f32⟩
  | 35 => ⟨S1x100, .f32⟩
  | 36 => ⟨S1x100, .f32⟩
  | 37 => ⟨S50000x100, .f32⟩
  | 38 => ⟨S50000x100, .f32⟩
  | 39 => ⟨S50000x100, .f32⟩
  | 40 => ⟨S_, .f32⟩
  | 41 => ⟨S_, .f32⟩
  | 42 => ⟨S_, .f32⟩
  | 43 => ⟨S_, .f32⟩
  | 44 => ⟨S100, .f32⟩
  | 45 => ⟨S1x100, .f32⟩
  | 46 => ⟨S1x100, .f32⟩
  | 47 => ⟨S1x100, .f32⟩
  | 48 => ⟨S_, .f32⟩
  | 49 => ⟨S_, .i1⟩
  | 50 => ⟨S_, .f32⟩
  | 51 => ⟨S_, .f32⟩
  | 52 => ⟨S1x100, .f32⟩
  | 53 => ⟨S1x100, .f32⟩
  | 54 => ⟨S1x100, .f32⟩
  | 55 => ⟨S1x100, .f32⟩
  | 56 => ⟨S50000x100, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x100, .f32⟩
  | 66 => ⟨S800000x100, .f32⟩
  | 67 => ⟨S_, .f32⟩
  | 68 => ⟨S50000x100, .f32⟩
  | 69 => ⟨S800000x1, .i32⟩
  | 70 => ⟨S50000x100, .f32⟩
  | 71 => ⟨S1, .f32⟩
  | 72 => ⟨S_, .f32⟩
  | 73 => ⟨S_, .f32⟩
  | 74 => ⟨S_, .f32⟩
  | 75 => ⟨S50000x100, .f32⟩
  | 76 => ⟨S50000x100, .f32⟩
  | 77 => ⟨S50000x100, .f32⟩
  | 78 => ⟨S1x100x200, .f32⟩
  | 79 => ⟨S100x200, .f32⟩
  | 80 => ⟨S1x200, .f32⟩
  | 81 => ⟨S50000x200, .f32⟩
  | 82 => ⟨S_, .f32⟩
  | 83 => ⟨S200, .f32⟩
  | 84 => ⟨S1x200, .f32⟩
  | 85 => ⟨S_, .f32⟩
  | 86 => ⟨S1x200, .f32⟩
  | 87 => ⟨S1x200, .f32⟩
  | 88 => ⟨S_, .i32⟩
  | 89 => ⟨S_, .f32⟩
  | 90 => ⟨S200, .f32⟩
  | 91 => ⟨S1x200, .f32⟩
  | 92 => ⟨S_, .f32⟩
  | 93 => ⟨S1x200, .f32⟩
  | 94 => ⟨S1x200, .f32⟩
  | 95 => ⟨S50000x200, .f32⟩
  | 96 => ⟨S50000x200, .f32⟩
  | 97 => ⟨S50000x200, .f32⟩
  | 98 => ⟨S_, .f32⟩
  | 99 => ⟨S_, .f32⟩
  | 100 => ⟨S_, .f32⟩
  | 101 => ⟨S_, .f32⟩
  | 102 => ⟨S200, .f32⟩
  | 103 => ⟨S1x200, .f32⟩
  | 104 => ⟨S1x200, .f32⟩
  | 105 => ⟨S1x200, .f32⟩
  | 106 => ⟨S_, .f32⟩
  | 107 => ⟨S_, .i1⟩
  | 108 => ⟨S_, .f32⟩
  | 109 => ⟨S_, .f32⟩
  | 110 => ⟨S1x200, .f32⟩
  | 111 => ⟨S1x200, .f32⟩
  | 112 => ⟨S1x200, .f32⟩
  | 113 => ⟨S1x200, .f32⟩
  | 114 => ⟨S1x200x100, .f32⟩
  | 115 => ⟨S200x100, .f32⟩
  | 116 => ⟨S1x100, .f32⟩
  | 117 => ⟨S50000x100, .f32⟩
  | 118 => ⟨S_, .f32⟩
  | 119 => ⟨S100, .f32⟩
  | 120 => ⟨S1x100, .f32⟩
  | 121 => ⟨S_, .f32⟩
  | 122 => ⟨S1x100, .f32⟩
  | 123 => ⟨S1x100, .f32⟩
  | 124 => ⟨S_, .i32⟩
  | 125 => ⟨S_, .f32⟩
  | 126 => ⟨S100, .f32⟩
  | 127 => ⟨S1x100, .f32⟩
  | _ => ⟨S50000x9, .i32⟩

abbrev hbmTy0_5 (i : Nat) : BufTy := match i % 128 with
  | 0 => ⟨S_, .f32⟩
  | 1 => ⟨S1x100, .f32⟩
  | 2 => ⟨S1x100, .f32⟩
  | 3 => ⟨S50000x100, .f32⟩
  | 4 => ⟨S50000x100, .f32⟩
  | 5 => ⟨S50000x100, .f32⟩
  | 6 => ⟨S_, .f32⟩
  | 7 => ⟨S_, .f32⟩
  | 8 => ⟨S_, .f32⟩
  | 9 => ⟨S_, .f32⟩
  | 10 => ⟨S100, .f32⟩
  | 11 => ⟨S1x100, .f32⟩
  | 12 => ⟨S1x100, .f32⟩
  | 13 => ⟨S1x100, .f32⟩
  | 14 => ⟨S_, .f32⟩
  | 15 => ⟨S_, .i1⟩
  | 16 => ⟨S_, .f32⟩
  | 17 => ⟨S_, .f32⟩
  | 18 => ⟨S1x100, .f32⟩
  | 19 => ⟨S1x100, .f32⟩
  | 20 => ⟨S1x100, .f32⟩
  | 21 => ⟨S1x100, .f32⟩
  | 22 => ⟨S50000x100, .f32⟩
  | 23 => ⟨S_, .f32⟩
  | 24 => ⟨S512x100, .f32⟩
  | 25 => ⟨S50000x1, .i32⟩
  | 26 => ⟨S512x100, .f32⟩
  | 27 => ⟨S_, .f32⟩
  | 28 => ⟨S50000, .f32⟩
  | 29 => ⟨S_, .f32⟩
  | 30 => ⟨S512, .f32⟩
  | 31 => ⟨S50000x1, .i32⟩
  | 32 => ⟨S512, .f32⟩
  | 33 => ⟨S_, .f32⟩
  | 34 => ⟨S512, .f32⟩
  | 35 => ⟨S512, .f32⟩
  | 36 => ⟨S512x1, .f32⟩
  | 37 => ⟨S512x100, .f32⟩
  | 38 => ⟨S512x100, .f32⟩
  | 39 => ⟨S512x2, .f32⟩
  | 40 => ⟨S1x2, .f32⟩
  | 41 => ⟨S512x2, .f32⟩
  | 42 => ⟨S512x2, .f32⟩
  | _ => ⟨S50000x9, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S50000x9, .i32⟩

abbrev bufTy : (tb : Table) → Fin (tcTables nBuf tb) → BufTy
  | .hbm, ⟨i, _⟩ => hbmTy i
  | .local _ .vmem, ⟨0, _⟩ => ⟨S5000x100, .f32⟩
  | .local _ .vmem, ⟨1, _⟩ => ⟨S5000x100, .f32⟩
  | .local _ .vmem, ⟨2, _⟩ => ⟨S100x200, .f32⟩
  | .local _ .vmem, ⟨3, _⟩ => ⟨S1x200, .f32⟩
  | .local _ .vmem, ⟨4, _⟩ => ⟨S5000x200, .f32⟩
  | .local _ .vmem, ⟨5, _⟩ => ⟨S5000x200, .f32⟩
  | .local _ .vmem, ⟨6, _⟩ => ⟨S5000x200, .f32⟩
  | .local _ .vmem, ⟨7, _⟩ => ⟨S5000x200, .f32⟩
  | .local _ .vmem, ⟨8, _⟩ => ⟨S1x200, .f32⟩
  | .local _ .vmem, ⟨9, _⟩ => ⟨S1x200, .f32⟩
  | .local _ .vmem, ⟨10, _⟩ => ⟨S1x200, .f32⟩
  | .local _ .vmem, ⟨11, _⟩ => ⟨S1x200, .f32⟩
  | .local _ .vmem, ⟨12, _⟩ => ⟨S200x100, .f32⟩
  | .local _ .vmem, ⟨13, _⟩ => ⟨S1x100, .f32⟩
  | .local _ .vmem, ⟨14, _⟩ => ⟨S5000x100, .f32⟩
  | .local _ .vmem, ⟨15, _⟩ => ⟨S5000x100, .f32⟩
  | .local _ .vmem, ⟨16, _⟩ => ⟨S5000x100, .f32⟩
  | .local _ .vmem, ⟨17, _⟩ => ⟨S5000x100, .f32⟩
  | .local _ .vmem, ⟨18, _⟩ => ⟨S1x100, .f32⟩
  | .local _ .vmem, ⟨19, _⟩ => ⟨S1x100, .f32⟩
  | .local _ .vmem, ⟨20, _⟩ => ⟨S1x100, .f32⟩
  | .local _ .vmem, ⟨21, _⟩ => ⟨S1x100, .f32⟩
  | .local _ .vmem, ⟨22, _⟩ => ⟨S5000x100, .f32⟩
  | .local _ .vmem, ⟨23, _⟩ => ⟨S5000x100, .f32⟩
  | .local _ .vmem, ⟨24, _⟩ => ⟨S5000x100, .f32⟩
  | .local _ .vmem, ⟨25, _⟩ => ⟨S5000x100, .f32⟩
  | .local _ .vmem, ⟨26, _⟩ => ⟨S100x200, .f32⟩
  | .local _ .vmem, ⟨27, _⟩ => ⟨S1x200, .f32⟩
  | .local _ .vmem, ⟨28, _⟩ => ⟨S5000x200, .f32⟩
  | .local _ .vmem, ⟨29, _⟩ => ⟨S5000x200, .f32⟩
  | .local _ .vmem, ⟨30, _⟩ => ⟨S5000x200, .f32⟩
  | .local _ .vmem, ⟨31, _⟩ => ⟨S5000x200, .f32⟩
  | .local _ .vmem, ⟨32, _⟩ => ⟨S1x200, .f32⟩
  | .local _ .vmem, ⟨33, _⟩ => ⟨S1x200, .f32⟩
  | .local _ .vmem, ⟨34, _⟩ => ⟨S1x200, .f32⟩
  | .local _ .vmem, ⟨35, _⟩ => ⟨S1x200, .f32⟩
  | .local _ .vmem, ⟨36, _⟩ => ⟨S200x100, .f32⟩
  | .local _ .vmem, ⟨37, _⟩ => ⟨S1x100, .f32⟩
  | .local _ .vmem, ⟨38, _⟩ => ⟨S5000x100, .f32⟩
  | .local _ .vmem, ⟨39, _⟩ => ⟨S5000x100, .f32⟩
  | .local _ .vmem, ⟨40, _⟩ => ⟨S5000x100, .f32⟩
  | .local _ .vmem, ⟨41, _⟩ => ⟨S5000x100, .f32⟩
  | .local _ .vmem, ⟨42, _⟩ => ⟨S1x100, .f32⟩
  | .local _ .vmem, ⟨43, _⟩ => ⟨S1x100, .f32⟩
  | .local _ .vmem, ⟨44, _⟩ => ⟨S1x100, .f32⟩
  | .local _ .vmem, ⟨45, _⟩ => ⟨S1x100, .f32⟩
  | .local _ .vmem, ⟨46, _⟩ => ⟨S5000x100, .f32⟩
  | .local _ .vmem, ⟨47, _⟩ => ⟨S5000x100, .f32⟩
  | .local _ .vmem, ⟨48, _⟩ => ⟨S5000x100, .f32⟩
  | .local _ .vmem, ⟨49, _⟩ => ⟨S5000x100, .f32⟩
  | .local _ .vmem, ⟨50, _⟩ => ⟨S100x200, .f32⟩
  | .local _ .vmem, ⟨51, _⟩ => ⟨S1x200, .f32⟩
  | .local _ .vmem, ⟨52, _⟩ => ⟨S5000x200, .f32⟩
  | .local _ .vmem, ⟨53, _⟩ => ⟨S5000x200, .f32⟩
  | .local _ .vmem, ⟨54, _⟩ => ⟨S5000x200, .f32⟩
  | .local _ .vmem, ⟨55, _⟩ => ⟨S5000x200, .f32⟩
  | .local _ .vmem, ⟨56, _⟩ => ⟨S1x200, .f32⟩
  | .local _ .vmem, ⟨57, _⟩ => ⟨S1x200, .f32⟩
  | .local _ .vmem, ⟨58, _⟩ => ⟨S1x200, .f32⟩
  | .local _ .vmem, ⟨59, _⟩ => ⟨S1x200, .f32⟩
  | .local _ .vmem, ⟨60, _⟩ => ⟨S200x100, .f32⟩
  | .local _ .vmem, ⟨61, _⟩ => ⟨S1x100, .f32⟩
  | .local _ .vmem, ⟨62, _⟩ => ⟨S5000x100, .f32⟩
  | .local _ .vmem, ⟨63, _⟩ => ⟨S5000x100, .f32⟩
  | .local _ .vmem, ⟨64, _⟩ => ⟨S5000x100, .f32⟩
  | .local _ .vmem, ⟨65, _⟩ => ⟨S5000x100, .f32⟩
  | .local _ .vmem, ⟨66, _⟩ => ⟨S1x100, .f32⟩
  | .local _ .vmem, ⟨67, _⟩ => ⟨S1x100, .f32⟩
  | .local _ .vmem, ⟨68, _⟩ => ⟨S1x100, .f32⟩
  | .local _ .vmem, ⟨69, _⟩ => ⟨S1x100, .f32⟩
  | .local _ .vmem, ⟨70, _⟩ => ⟨S5000x100, .f32⟩
  | .local _ .vmem, ⟨71, _⟩ => ⟨S5000x100, .f32⟩
  | .local _ .vmem, ⟨72, _⟩ => ⟨S5000x100, .f32⟩
  | .local _ .vmem, ⟨73, _⟩ => ⟨S5000x100, .f32⟩
  | .local _ .vmem, ⟨74, _⟩ => ⟨S100x200, .f32⟩
  | .local _ .vmem, ⟨75, _⟩ => ⟨S1x200, .f32⟩
  | .local _ .vmem, ⟨76, _⟩ => ⟨S5000x200, .f32⟩
  | .local _ .vmem, ⟨77, _⟩ => ⟨S5000x200, .f32⟩
  | .local _ .vmem, ⟨78, _⟩ => ⟨S5000x200, .f32⟩
  | .local _ .vmem, ⟨79, _⟩ => ⟨S5000x200, .f32⟩
  | .local _ .vmem, ⟨80, _⟩ => ⟨S1x200, .f32⟩
  | .local _ .vmem, ⟨81, _⟩ => ⟨S1x200, .f32⟩
  | .local _ .vmem, ⟨82, _⟩ => ⟨S1x200, .f32⟩
  | .local _ .vmem, ⟨83, _⟩ => ⟨S1x200, .f32⟩
  | .local _ .vmem, ⟨84, _⟩ => ⟨S200x100, .f32⟩
  | .local _ .vmem, ⟨85, _⟩ => ⟨S1x100, .f32⟩
  | .local _ .vmem, ⟨86, _⟩ => ⟨S5000x100, .f32⟩
  | .local _ .vmem, ⟨87, _⟩ => ⟨S5000x100, .f32⟩
  | .local _ .vmem, ⟨88, _⟩ => ⟨S5000x100, .f32⟩
  | .local _ .vmem, ⟨89, _⟩ => ⟨S5000x100, .f32⟩
  | .local _ .vmem, ⟨90, _⟩ => ⟨S1x100, .f32⟩
  | .local _ .vmem, ⟨91, _⟩ => ⟨S1x100, .f32⟩
  | .local _ .vmem, ⟨92, _⟩ => ⟨S1x100, .f32⟩
  | .local _ .vmem, ⟨93, _⟩ => ⟨S1x100, .f32⟩
  | .local _ .vmem, ⟨94, _⟩ => ⟨S5000x100, .f32⟩
  | .local _ .vmem, ⟨95, _⟩ => ⟨S5000x100, .f32⟩
  | .local _ .vmem, ⟨96, _⟩ => ⟨S5000x100, .f32⟩
  | .local _ .vmem, ⟨97, _⟩ => ⟨S5000x100, .f32⟩
  | .local _ .vmem, ⟨98, _⟩ => ⟨S100x200, .f32⟩
  | .local _ .vmem, ⟨99, _⟩ => ⟨S1x200, .f32⟩
  | .local _ .vmem, ⟨100, _⟩ => ⟨S5000x200, .f32⟩
  | .local _ .vmem, ⟨101, _⟩ => ⟨S5000x200, .f32⟩
  | .local _ .vmem, ⟨102, _⟩ => ⟨S5000x200, .f32⟩
  | .local _ .vmem, ⟨103, _⟩ => ⟨S5000x200, .f32⟩
  | .local _ .vmem, ⟨104, _⟩ => ⟨S1x200, .f32⟩
  | .local _ .vmem, ⟨105, _⟩ => ⟨S1x200, .f32⟩
  | .local _ .vmem, ⟨106, _⟩ => ⟨S1x200, .f32⟩
  | .local _ .vmem, ⟨107, _⟩ => ⟨S1x200, .f32⟩
  | .local _ .vmem, ⟨108, _⟩ => ⟨S200x100, .f32⟩
  | .local _ .vmem, ⟨109, _⟩ => ⟨S1x100, .f32⟩
  | .local _ .vmem, ⟨110, _⟩ => ⟨S5000x100, .f32⟩
  | .local _ .vmem, ⟨111, _⟩ => ⟨S5000x100, .f32⟩
  | .local _ .vmem, ⟨112, _⟩ => ⟨S5000x100, .f32⟩
  | .local _ .vmem, ⟨113, _⟩ => ⟨S5000x100, .f32⟩
  | .local _ .vmem, ⟨114, _⟩ => ⟨S1x100, .f32⟩
  | .local _ .vmem, ⟨115, _⟩ => ⟨S1x100, .f32⟩
  | .local _ .vmem, ⟨116, _⟩ => ⟨S1x100, .f32⟩
  | .local _ .vmem, ⟨117, _⟩ => ⟨S1x100, .f32⟩
  | .local _ .vmem, ⟨118, _⟩ => ⟨S5000x100, .f32⟩
  | .local _ .vmem, ⟨119, _⟩ => ⟨S5000x100, .f32⟩
  | _, _ => ⟨S50000x9, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | _, _ => false

abbrev semScoped : Fin 0 → Bool
  | ⟨_, h⟩ => absurd h (Nat.not_lt_zero _)

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  ofTc nBuf bufTy 0 120 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_1 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_3 : Ref sig .tc := ⟨.hbm, 51, rfl⟩
abbrev main_v29 : Ref sig .tc := ⟨.hbm, 52, rfl⟩
abbrev main_v30 : Ref sig .tc := ⟨.hbm, 53, rfl⟩
abbrev main_c_4 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_5 : Ref sig .tc := ⟨.hbm, 65, rfl⟩
abbrev main_v41 : Ref sig .tc := ⟨.hbm, 66, rfl⟩
abbrev main_v42 : Ref sig .tc := ⟨.hbm, 67, rfl⟩
abbrev main_c_6 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_7 : Ref sig .tc := ⟨.hbm, 79, rfl⟩
abbrev main_v53 : Ref sig .tc := ⟨.hbm, 80, rfl⟩
abbrev main_v54 : Ref sig .tc := ⟨.hbm, 81, rfl⟩
abbrev main_c_8 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_9 : Ref sig .tc := ⟨.hbm, 93, rfl⟩
abbrev main_v65 : Ref sig .tc := ⟨.hbm, 94, rfl⟩
abbrev main_v66 : Ref sig .tc := ⟨.hbm, 95, rfl⟩
abbrev main_c_10 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_11 : Ref sig .tc := ⟨.hbm, 107, rfl⟩
abbrev main_v77 : Ref sig .tc := ⟨.hbm, 108, rfl⟩
abbrev main_v78 : Ref sig .tc := ⟨.hbm, 109, rfl⟩
abbrev main_c_12 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_c_13 : Ref sig .tc := ⟨.hbm, 121, rfl⟩
abbrev main_v89 : Ref sig .tc := ⟨.hbm, 122, rfl⟩
abbrev main_v90 : Ref sig .tc := ⟨.hbm, 123, rfl⟩
abbrev main_c_14 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_c_15 : Ref sig .tc := ⟨.hbm, 135, rfl⟩
abbrev main_v101 : Ref sig .tc := ⟨.hbm, 136, rfl⟩
abbrev main_v102 : Ref sig .tc := ⟨.hbm, 137, rfl⟩
abbrev main_c_16 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_17 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_c_18 : Ref sig .tc := ⟨.hbm, 151, rfl⟩
abbrev main_v114 : Ref sig .tc := ⟨.hbm, 152, rfl⟩
abbrev main_v115 : Ref sig .tc := ⟨.hbm, 153, rfl⟩
abbrev main_c_19 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_c_20 : Ref sig .tc := ⟨.hbm, 165, rfl⟩
abbrev main_v126 : Ref sig .tc := ⟨.hbm, 166, rfl⟩
abbrev main_v127 : Ref sig .tc := ⟨.hbm, 167, rfl⟩
abbrev main_c_21 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_c_22 : Ref sig .tc := ⟨.hbm, 179, rfl⟩
abbrev main_v138 : Ref sig .tc := ⟨.hbm, 180, rfl⟩
abbrev main_v139 : Ref sig .tc := ⟨.hbm, 181, rfl⟩
abbrev main_c_23 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_c_24 : Ref sig .tc := ⟨.hbm, 193, rfl⟩
abbrev main_v150 : Ref sig .tc := ⟨.hbm, 194, rfl⟩
abbrev main_v151 : Ref sig .tc := ⟨.hbm, 195, rfl⟩
abbrev main_c_25 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_cst_26 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_cst_27 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_cst_28 : Ref sig .tc := ⟨.hbm, 218, rfl⟩
abbrev main_v171 : Ref sig .tc := ⟨.hbm, 219, rfl⟩
abbrev main_v172 : Ref sig .tc := ⟨.hbm, 220, rfl⟩
abbrev main_cst_29 : Ref sig .tc := ⟨.hbm, 221, rfl⟩
abbrev main_v173 : Ref sig .tc := ⟨.hbm, 222, rfl⟩
abbrev main_v174 : Ref sig .tc := ⟨.hbm, 223, rfl⟩
abbrev main_c_30 : Ref sig .tc := ⟨.hbm, 224, rfl⟩
abbrev main_call0_cst : Ref sig .tc := ⟨.hbm, 225, rfl⟩
abbrev main_call0_v0 : Ref sig .tc := ⟨.hbm, 226, rfl⟩
abbrev main_call0_v1 : Ref sig .tc := ⟨.hbm, 227, rfl⟩
abbrev main_call0_cst_0 : Ref sig .tc := ⟨.hbm, 228, rfl⟩
abbrev main_call0_v2 : Ref sig .tc := ⟨.hbm, 229, rfl⟩
abbrev main_call0_v3 : Ref sig .tc := ⟨.hbm, 230, rfl⟩
abbrev main_call0_v4 : Ref sig .tc := ⟨.hbm, 231, rfl⟩
abbrev main_call0_v5 : Ref sig .tc := ⟨.hbm, 232, rfl⟩
abbrev main_call0_v6 : Ref sig .tc := ⟨.hbm, 233, rfl⟩
abbrev main_call0_v7 : Ref sig .tc := ⟨.hbm, 234, rfl⟩
abbrev main_call0_cst_1 : Ref sig .tc := ⟨.hbm, 235, rfl⟩
abbrev main_call0_v8 : Ref sig .tc := ⟨.hbm, 236, rfl⟩
abbrev main_call0_cst_2 : Ref sig .tc := ⟨.hbm, 237, rfl⟩
abbrev main_call0_v9 : Ref sig .tc := ⟨.hbm, 238, rfl⟩
abbrev main_call0_v10 : Ref sig .tc := ⟨.hbm, 239, rfl⟩
abbrev main_call0_v11 : Ref sig .tc := ⟨.hbm, 240, rfl⟩
abbrev main_call0_v12 : Ref sig .tc := ⟨.hbm, 241, rfl⟩
abbrev main_call0_cst_3 : Ref sig .tc := ⟨.hbm, 242, rfl⟩
abbrev main_call0_v13 : Ref sig .tc := ⟨.hbm, 243, rfl⟩
abbrev main_call0_cst_4 : Ref sig .tc := ⟨.hbm, 244, rfl⟩
abbrev main_call0_call0_v0 : Ref sig .tc := ⟨.hbm, 245, rfl⟩
abbrev main_call0_call0_v1 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_cst_31 : Ref sig .tc := ⟨.hbm, 254, rfl⟩
abbrev main_v182 : Ref sig .tc := ⟨.hbm, 255, rfl⟩
abbrev main_v183 : Ref sig .tc := ⟨.hbm, 256, rfl⟩
abbrev main_cst_32 : Ref sig .tc := ⟨.hbm, 257, rfl⟩
abbrev main_v184 : Ref sig .tc := ⟨.hbm, 258, rfl⟩
abbrev main_v185 : Ref sig .tc := ⟨.hbm, 259, rfl⟩
abbrev main_c_33 : Ref sig .tc := ⟨.hbm, 260, rfl⟩
abbrev main_call1_cst : Ref sig .tc := ⟨.hbm, 261, rfl⟩
abbrev main_call1_v0 : Ref sig .tc := ⟨.hbm, 262, rfl⟩
abbrev main_call1_v1 : Ref sig .tc := ⟨.hbm, 263, rfl⟩
abbrev main_call1_cst_0 : Ref sig .tc := ⟨.hbm, 264, rfl⟩
abbrev main_call1_v2 : Ref sig .tc := ⟨.hbm, 265, rfl⟩
abbrev main_call1_v3 : Ref sig .tc := ⟨.hbm, 266, rfl⟩
abbrev main_call1_v4 : Ref sig .tc := ⟨.hbm, 267, rfl⟩
abbrev main_call1_v5 : Ref sig .tc := ⟨.hbm, 268, rfl⟩
abbrev main_call1_v6 : Ref sig .tc := ⟨.hbm, 269, rfl⟩
abbrev main_call1_v7 : Ref sig .tc := ⟨.hbm, 270, rfl⟩
abbrev main_call1_cst_1 : Ref sig .tc := ⟨.hbm, 271, rfl⟩
abbrev main_call1_v8 : Ref sig .tc := ⟨.hbm, 272, rfl⟩
abbrev main_call1_cst_2 : Ref sig .tc := ⟨.hbm, 273, rfl⟩
abbrev main_call1_v9 : Ref sig .tc := ⟨.hbm, 274, rfl⟩
abbrev main_call1_v10 : Ref sig .tc := ⟨.hbm, 275, rfl⟩
abbrev main_call1_v11 : Ref sig .tc := ⟨.hbm, 276, rfl⟩
abbrev main_call1_v12 : Ref sig .tc := ⟨.hbm, 277, rfl⟩
abbrev main_call1_cst_3 : Ref sig .tc := ⟨.hbm, 278, rfl⟩
abbrev main_call1_v13 : Ref sig .tc := ⟨.hbm, 279, rfl⟩
abbrev main_call1_cst_4 : Ref sig .tc := ⟨.hbm, 280, rfl⟩
abbrev main_call1_call0_v0 : Ref sig .tc := ⟨.hbm, 281, rfl⟩
abbrev main_call1_call0_v1 : Ref sig .tc := ⟨.hbm, 282, rfl⟩
abbrev main_v186 : Ref sig .tc := ⟨.hbm, 283, rfl⟩
abbrev main_v187 : Ref sig .tc := ⟨.hbm, 284, rfl⟩
abbrev main_v188 : Ref sig .tc := ⟨.hbm, 285, rfl⟩
abbrev main_v189 : Ref sig .tc := ⟨.hbm, 286, rfl⟩
abbrev main_c_34 : Ref sig .tc := ⟨.hbm, 287, rfl⟩
abbrev main_v190 : Ref sig .tc := ⟨.hbm, 288, rfl⟩
abbrev main_v191 : Ref sig .tc := ⟨.hbm, 289, rfl⟩
abbrev main_c_35 : Ref sig .tc := ⟨.hbm, 290, rfl⟩
abbrev main_v192 : Ref sig .tc := ⟨.hbm, 291, rfl⟩
abbrev main_v193 : Ref sig .tc := ⟨.hbm, 292, rfl⟩
abbrev main_v194 : Ref sig .tc := ⟨.hbm, 293, rfl⟩
abbrev main_v195 : Ref sig .tc := ⟨.hbm, 294, rfl⟩
abbrev main_v196 : Ref sig .tc := ⟨.hbm, 295, rfl⟩
abbrev main_v197 : Ref sig .tc := ⟨.hbm, 296, rfl⟩
abbrev main_cst_36 : Ref sig .tc := ⟨.hbm, 297, rfl⟩
abbrev main_v198 : Ref sig .tc := ⟨.hbm, 298, rfl⟩
abbrev main_v199 : Ref sig .tc := ⟨.hbm, 299, rfl⟩
abbrev main_v200 : Ref sig .tc := ⟨.hbm, 300, rfl⟩
abbrev main_v201 : Ref sig .tc := ⟨.hbm, 301, rfl⟩
abbrev main_v202 : Ref sig .tc := ⟨.hbm, 302, rfl⟩
abbrev main_cst_37 : Ref sig .tc := ⟨.hbm, 303, rfl⟩
abbrev main_v203 : Ref sig .tc := ⟨.hbm, 304, rfl⟩
abbrev main_v204 : Ref sig .tc := ⟨.hbm, 305, rfl⟩
abbrev main_v205 : Ref sig .tc := ⟨.hbm, 306, rfl⟩
abbrev main_v206 : Ref sig .tc := ⟨.hbm, 307, rfl⟩
abbrev main_v207 : Ref sig .tc := ⟨.hbm, 308, rfl⟩
abbrev main_v208 : Ref sig .tc := ⟨.hbm, 309, rfl⟩
abbrev main_v209 : Ref sig .tc := ⟨.hbm, 310, rfl⟩
abbrev main_v210 : Ref sig .tc := ⟨.hbm, 311, rfl⟩
abbrev main_cst_38 : Ref sig .tc := ⟨.hbm, 312, rfl⟩
abbrev main_v211 : Ref sig .tc := ⟨.hbm, 313, rfl⟩
abbrev main_v212 : Ref sig .tc := ⟨.hbm, 314, rfl⟩
abbrev main_cst_39 : Ref sig .tc := ⟨.hbm, 315, rfl⟩
abbrev main_v213 : Ref sig .tc := ⟨.hbm, 316, rfl⟩
abbrev main_v214 : Ref sig .tc := ⟨.hbm, 317, rfl⟩
abbrev main_c_40 : Ref sig .tc := ⟨.hbm, 318, rfl⟩
abbrev main_call2_cst : Ref sig .tc := ⟨.hbm, 319, rfl⟩
abbrev main_call2_v0 : Ref sig .tc := ⟨.hbm, 320, rfl⟩
abbrev main_call2_v1 : Ref sig .tc := ⟨.hbm, 321, rfl⟩
abbrev main_call2_cst_0 : Ref sig .tc := ⟨.hbm, 322, rfl⟩
abbrev main_call2_v2 : Ref sig .tc := ⟨.hbm, 323, rfl⟩
abbrev main_call2_v3 : Ref sig .tc := ⟨.hbm, 324, rfl⟩
abbrev main_call2_v4 : Ref sig .tc := ⟨.hbm, 325, rfl⟩
abbrev main_call2_v5 : Ref sig .tc := ⟨.hbm, 326, rfl⟩
abbrev main_call2_v6 : Ref sig .tc := ⟨.hbm, 327, rfl⟩
abbrev main_call2_v7 : Ref sig .tc := ⟨.hbm, 328, rfl⟩
abbrev main_call2_cst_1 : Ref sig .tc := ⟨.hbm, 329, rfl⟩
abbrev main_call2_v8 : Ref sig .tc := ⟨.hbm, 330, rfl⟩
abbrev main_call2_cst_2 : Ref sig .tc := ⟨.hbm, 331, rfl⟩
abbrev main_call2_v9 : Ref sig .tc := ⟨.hbm, 332, rfl⟩
abbrev main_call2_v10 : Ref sig .tc := ⟨.hbm, 333, rfl⟩
abbrev main_call2_v11 : Ref sig .tc := ⟨.hbm, 334, rfl⟩
abbrev main_call2_v12 : Ref sig .tc := ⟨.hbm, 335, rfl⟩
abbrev main_call2_cst_3 : Ref sig .tc := ⟨.hbm, 336, rfl⟩
abbrev main_call2_v13 : Ref sig .tc := ⟨.hbm, 337, rfl⟩
abbrev main_call2_cst_4 : Ref sig .tc := ⟨.hbm, 338, rfl⟩
abbrev main_call2_call0_v0 : Ref sig .tc := ⟨.hbm, 339, rfl⟩
abbrev main_call2_call0_v1 : Ref sig .tc := ⟨.hbm, 340, rfl⟩
abbrev main_v215 : Ref sig .tc := ⟨.hbm, 341, rfl⟩
abbrev main_v216 : Ref sig .tc := ⟨.hbm, 342, rfl⟩
abbrev main_v217 : Ref sig .tc := ⟨.hbm, 343, rfl⟩
abbrev main_v218 : Ref sig .tc := ⟨.hbm, 344, rfl⟩
abbrev main_v219 : Ref sig .tc := ⟨.hbm, 345, rfl⟩
abbrev main_v220 : Ref sig .tc := ⟨.hbm, 346, rfl⟩
abbrev main_v221 : Ref sig .tc := ⟨.hbm, 347, rfl⟩
abbrev main_cst_41 : Ref sig .tc := ⟨.hbm, 348, rfl⟩
abbrev main_v222 : Ref sig .tc := ⟨.hbm, 349, rfl⟩
abbrev main_v223 : Ref sig .tc := ⟨.hbm, 350, rfl⟩
abbrev main_cst_42 : Ref sig .tc := ⟨.hbm, 351, rfl⟩
abbrev main_v224 : Ref sig .tc := ⟨.hbm, 352, rfl⟩
abbrev main_v225 : Ref sig .tc := ⟨.hbm, 353, rfl⟩
abbrev main_c_43 : Ref sig .tc := ⟨.hbm, 354, rfl⟩
abbrev main_call3_cst : Ref sig .tc := ⟨.hbm, 355, rfl⟩
abbrev main_call3_v0 : Ref sig .tc := ⟨.hbm, 356, rfl⟩
abbrev main_call3_v1 : Ref sig .tc := ⟨.hbm, 357, rfl⟩
abbrev main_call3_cst_0 : Ref sig .tc := ⟨.hbm, 358, rfl⟩
abbrev main_call3_v2 : Ref sig .tc := ⟨.hbm, 359, rfl⟩
abbrev main_call3_v3 : Ref sig .tc := ⟨.hbm, 360, rfl⟩
abbrev main_call3_v4 : Ref sig .tc := ⟨.hbm, 361, rfl⟩
abbrev main_call3_v5 : Ref sig .tc := ⟨.hbm, 362, rfl⟩
abbrev main_call3_v6 : Ref sig .tc := ⟨.hbm, 363, rfl⟩
abbrev main_call3_v7 : Ref sig .tc := ⟨.hbm, 364, rfl⟩
abbrev main_call3_cst_1 : Ref sig .tc := ⟨.hbm, 365, rfl⟩
abbrev main_call3_v8 : Ref sig .tc := ⟨.hbm, 366, rfl⟩
abbrev main_call3_cst_2 : Ref sig .tc := ⟨.hbm, 367, rfl⟩
abbrev main_call3_v9 : Ref sig .tc := ⟨.hbm, 368, rfl⟩
abbrev main_call3_v10 : Ref sig .tc := ⟨.hbm, 369, rfl⟩
abbrev main_call3_v11 : Ref sig .tc := ⟨.hbm, 370, rfl⟩
abbrev main_call3_v12 : Ref sig .tc := ⟨.hbm, 371, rfl⟩
abbrev main_call3_cst_3 : Ref sig .tc := ⟨.hbm, 372, rfl⟩
abbrev main_call3_v13 : Ref sig .tc := ⟨.hbm, 373, rfl⟩
abbrev main_call3_cst_4 : Ref sig .tc := ⟨.hbm, 374, rfl⟩
abbrev main_call3_call0_v0 : Ref sig .tc := ⟨.hbm, 375, rfl⟩
abbrev main_call3_call0_v1 : Ref sig .tc := ⟨.hbm, 376, rfl⟩
abbrev main_v226 : Ref sig .tc := ⟨.hbm, 377, rfl⟩
abbrev main_v227 : Ref sig .tc := ⟨.hbm, 378, rfl⟩
abbrev main_v228 : Ref sig .tc := ⟨.hbm, 379, rfl⟩
abbrev main_v229 : Ref sig .tc := ⟨.hbm, 380, rfl⟩
abbrev main_c_44 : Ref sig .tc := ⟨.hbm, 381, rfl⟩
abbrev main_v230 : Ref sig .tc := ⟨.hbm, 382, rfl⟩
abbrev main_v231 : Ref sig .tc := ⟨.hbm, 383, rfl⟩
abbrev main_c_45 : Ref sig .tc := ⟨.hbm, 384, rfl⟩
abbrev main_v232 : Ref sig .tc := ⟨.hbm, 385, rfl⟩
abbrev main_v233 : Ref sig .tc := ⟨.hbm, 386, rfl⟩
abbrev main_v234 : Ref sig .tc := ⟨.hbm, 387, rfl⟩
abbrev main_v235 : Ref sig .tc := ⟨.hbm, 388, rfl⟩
abbrev main_v236 : Ref sig .tc := ⟨.hbm, 389, rfl⟩
abbrev main_v237 : Ref sig .tc := ⟨.hbm, 390, rfl⟩
abbrev main_cst_46 : Ref sig .tc := ⟨.hbm, 391, rfl⟩
abbrev main_v238 : Ref sig .tc := ⟨.hbm, 392, rfl⟩
abbrev main_v239 : Ref sig .tc := ⟨.hbm, 393, rfl⟩
abbrev main_v240 : Ref sig .tc := ⟨.hbm, 394, rfl⟩
abbrev main_v241 : Ref sig .tc := ⟨.hbm, 395, rfl⟩
abbrev main_v242 : Ref sig .tc := ⟨.hbm, 396, rfl⟩
abbrev main_cst_47 : Ref sig .tc := ⟨.hbm, 397, rfl⟩
abbrev main_v243 : Ref sig .tc := ⟨.hbm, 398, rfl⟩
abbrev main_v244 : Ref sig .tc := ⟨.hbm, 399, rfl⟩
abbrev main_v245 : Ref sig .tc := ⟨.hbm, 400, rfl⟩
abbrev main_v246 : Ref sig .tc := ⟨.hbm, 401, rfl⟩
abbrev main_v247 : Ref sig .tc := ⟨.hbm, 402, rfl⟩
abbrev main_v248 : Ref sig .tc := ⟨.hbm, 403, rfl⟩
abbrev main_v249 : Ref sig .tc := ⟨.hbm, 404, rfl⟩
abbrev main_v250 : Ref sig .tc := ⟨.hbm, 405, rfl⟩
abbrev main_cst_48 : Ref sig .tc := ⟨.hbm, 406, rfl⟩
abbrev main_v251 : Ref sig .tc := ⟨.hbm, 407, rfl⟩
abbrev main_v252 : Ref sig .tc := ⟨.hbm, 408, rfl⟩
abbrev main_cst_49 : Ref sig .tc := ⟨.hbm, 409, rfl⟩
abbrev main_v253 : Ref sig .tc := ⟨.hbm, 410, rfl⟩
abbrev main_v254 : Ref sig .tc := ⟨.hbm, 411, rfl⟩
abbrev main_c_50 : Ref sig .tc := ⟨.hbm, 412, rfl⟩
abbrev main_call4_cst : Ref sig .tc := ⟨.hbm, 413, rfl⟩
abbrev main_call4_v0 : Ref sig .tc := ⟨.hbm, 414, rfl⟩
abbrev main_call4_v1 : Ref sig .tc := ⟨.hbm, 415, rfl⟩
abbrev main_call4_cst_0 : Ref sig .tc := ⟨.hbm, 416, rfl⟩
abbrev main_call4_v2 : Ref sig .tc := ⟨.hbm, 417, rfl⟩
abbrev main_call4_v3 : Ref sig .tc := ⟨.hbm, 418, rfl⟩
abbrev main_call4_v4 : Ref sig .tc := ⟨.hbm, 419, rfl⟩
abbrev main_call4_v5 : Ref sig .tc := ⟨.hbm, 420, rfl⟩
abbrev main_call4_v6 : Ref sig .tc := ⟨.hbm, 421, rfl⟩
abbrev main_call4_v7 : Ref sig .tc := ⟨.hbm, 422, rfl⟩
abbrev main_call4_cst_1 : Ref sig .tc := ⟨.hbm, 423, rfl⟩
abbrev main_call4_v8 : Ref sig .tc := ⟨.hbm, 424, rfl⟩
abbrev main_call4_cst_2 : Ref sig .tc := ⟨.hbm, 425, rfl⟩
abbrev main_call4_v9 : Ref sig .tc := ⟨.hbm, 426, rfl⟩
abbrev main_call4_v10 : Ref sig .tc := ⟨.hbm, 427, rfl⟩
abbrev main_call4_v11 : Ref sig .tc := ⟨.hbm, 428, rfl⟩
abbrev main_call4_v12 : Ref sig .tc := ⟨.hbm, 429, rfl⟩
abbrev main_call4_cst_3 : Ref sig .tc := ⟨.hbm, 430, rfl⟩
abbrev main_call4_v13 : Ref sig .tc := ⟨.hbm, 431, rfl⟩
abbrev main_call4_cst_4 : Ref sig .tc := ⟨.hbm, 432, rfl⟩
abbrev main_call4_call0_v0 : Ref sig .tc := ⟨.hbm, 433, rfl⟩
abbrev main_call4_call0_v1 : Ref sig .tc := ⟨.hbm, 434, rfl⟩
abbrev main_v255 : Ref sig .tc := ⟨.hbm, 435, rfl⟩
abbrev main_v256 : Ref sig .tc := ⟨.hbm, 436, rfl⟩
abbrev main_v257 : Ref sig .tc := ⟨.hbm, 437, rfl⟩
abbrev main_v258 : Ref sig .tc := ⟨.hbm, 438, rfl⟩
abbrev main_v259 : Ref sig .tc := ⟨.hbm, 439, rfl⟩
abbrev main_v260 : Ref sig .tc := ⟨.hbm, 440, rfl⟩
abbrev main_v261 : Ref sig .tc := ⟨.hbm, 441, rfl⟩
abbrev main_cst_51 : Ref sig .tc := ⟨.hbm, 442, rfl⟩
abbrev main_v262 : Ref sig .tc := ⟨.hbm, 443, rfl⟩
abbrev main_v263 : Ref sig .tc := ⟨.hbm, 444, rfl⟩
abbrev main_cst_52 : Ref sig .tc := ⟨.hbm, 445, rfl⟩
abbrev main_v264 : Ref sig .tc := ⟨.hbm, 446, rfl⟩
abbrev main_v265 : Ref sig .tc := ⟨.hbm, 447, rfl⟩
abbrev main_c_53 : Ref sig .tc := ⟨.hbm, 448, rfl⟩
abbrev main_call5_cst : Ref sig .tc := ⟨.hbm, 449, rfl⟩
abbrev main_call5_v0 : Ref sig .tc := ⟨.hbm, 450, rfl⟩
abbrev main_call5_v1 : Ref sig .tc := ⟨.hbm, 451, rfl⟩
abbrev main_call5_cst_0 : Ref sig .tc := ⟨.hbm, 452, rfl⟩
abbrev main_call5_v2 : Ref sig .tc := ⟨.hbm, 453, rfl⟩
abbrev main_call5_v3 : Ref sig .tc := ⟨.hbm, 454, rfl⟩
abbrev main_call5_v4 : Ref sig .tc := ⟨.hbm, 455, rfl⟩
abbrev main_call5_v5 : Ref sig .tc := ⟨.hbm, 456, rfl⟩
abbrev main_call5_v6 : Ref sig .tc := ⟨.hbm, 457, rfl⟩
abbrev main_call5_v7 : Ref sig .tc := ⟨.hbm, 458, rfl⟩
abbrev main_call5_cst_1 : Ref sig .tc := ⟨.hbm, 459, rfl⟩
abbrev main_call5_v8 : Ref sig .tc := ⟨.hbm, 460, rfl⟩
abbrev main_call5_cst_2 : Ref sig .tc := ⟨.hbm, 461, rfl⟩
abbrev main_call5_v9 : Ref sig .tc := ⟨.hbm, 462, rfl⟩
abbrev main_call5_v10 : Ref sig .tc := ⟨.hbm, 463, rfl⟩
abbrev main_call5_v11 : Ref sig .tc := ⟨.hbm, 464, rfl⟩
abbrev main_call5_v12 : Ref sig .tc := ⟨.hbm, 465, rfl⟩
abbrev main_call5_cst_3 : Ref sig .tc := ⟨.hbm, 466, rfl⟩
abbrev main_call5_v13 : Ref sig .tc := ⟨.hbm, 467, rfl⟩
abbrev main_call5_cst_4 : Ref sig .tc := ⟨.hbm, 468, rfl⟩
abbrev main_call5_call0_v0 : Ref sig .tc := ⟨.hbm, 469, rfl⟩
abbrev main_call5_call0_v1 : Ref sig .tc := ⟨.hbm, 470, rfl⟩
abbrev main_v266 : Ref sig .tc := ⟨.hbm, 471, rfl⟩
abbrev main_v267 : Ref sig .tc := ⟨.hbm, 472, rfl⟩
abbrev main_v268 : Ref sig .tc := ⟨.hbm, 473, rfl⟩
abbrev main_v269 : Ref sig .tc := ⟨.hbm, 474, rfl⟩
abbrev main_c_54 : Ref sig .tc := ⟨.hbm, 475, rfl⟩
abbrev main_v270 : Ref sig .tc := ⟨.hbm, 476, rfl⟩
abbrev main_v271 : Ref sig .tc := ⟨.hbm, 477, rfl⟩
abbrev main_c_55 : Ref sig .tc := ⟨.hbm, 478, rfl⟩
abbrev main_v272 : Ref sig .tc := ⟨.hbm, 479, rfl⟩
abbrev main_v273 : Ref sig .tc := ⟨.hbm, 480, rfl⟩
abbrev main_v274 : Ref sig .tc := ⟨.hbm, 481, rfl⟩
abbrev main_v275 : Ref sig .tc := ⟨.hbm, 482, rfl⟩
abbrev main_v276 : Ref sig .tc := ⟨.hbm, 483, rfl⟩
abbrev main_v277 : Ref sig .tc := ⟨.hbm, 484, rfl⟩
abbrev main_cst_56 : Ref sig .tc := ⟨.hbm, 485, rfl⟩
abbrev main_v278 : Ref sig .tc := ⟨.hbm, 486, rfl⟩
abbrev main_v279 : Ref sig .tc := ⟨.hbm, 487, rfl⟩
abbrev main_v280 : Ref sig .tc := ⟨.hbm, 488, rfl⟩
abbrev main_v281 : Ref sig .tc := ⟨.hbm, 489, rfl⟩
abbrev main_v282 : Ref sig .tc := ⟨.hbm, 490, rfl⟩
abbrev main_cst_57 : Ref sig .tc := ⟨.hbm, 491, rfl⟩
abbrev main_v283 : Ref sig .tc := ⟨.hbm, 492, rfl⟩
abbrev main_v284 : Ref sig .tc := ⟨.hbm, 493, rfl⟩
abbrev main_v285 : Ref sig .tc := ⟨.hbm, 494, rfl⟩
abbrev main_v286 : Ref sig .tc := ⟨.hbm, 495, rfl⟩
abbrev main_v287 : Ref sig .tc := ⟨.hbm, 496, rfl⟩
abbrev main_v288 : Ref sig .tc := ⟨.hbm, 497, rfl⟩
abbrev main_v289 : Ref sig .tc := ⟨.hbm, 498, rfl⟩
abbrev main_v290 : Ref sig .tc := ⟨.hbm, 499, rfl⟩
abbrev main_cst_58 : Ref sig .tc := ⟨.hbm, 500, rfl⟩
abbrev main_v291 : Ref sig .tc := ⟨.hbm, 501, rfl⟩
abbrev main_v292 : Ref sig .tc := ⟨.hbm, 502, rfl⟩
abbrev main_cst_59 : Ref sig .tc := ⟨.hbm, 503, rfl⟩
abbrev main_v293 : Ref sig .tc := ⟨.hbm, 504, rfl⟩
abbrev main_v294 : Ref sig .tc := ⟨.hbm, 505, rfl⟩
abbrev main_c_60 : Ref sig .tc := ⟨.hbm, 506, rfl⟩
abbrev main_call6_cst : Ref sig .tc := ⟨.hbm, 507, rfl⟩
abbrev main_call6_v0 : Ref sig .tc := ⟨.hbm, 508, rfl⟩
abbrev main_call6_v1 : Ref sig .tc := ⟨.hbm, 509, rfl⟩
abbrev main_call6_cst_0 : Ref sig .tc := ⟨.hbm, 510, rfl⟩
abbrev main_call6_v2 : Ref sig .tc := ⟨.hbm, 511, rfl⟩
abbrev main_call6_v3 : Ref sig .tc := ⟨.hbm, 512, rfl⟩
abbrev main_call6_v4 : Ref sig .tc := ⟨.hbm, 513, rfl⟩
abbrev main_call6_v5 : Ref sig .tc := ⟨.hbm, 514, rfl⟩
abbrev main_call6_v6 : Ref sig .tc := ⟨.hbm, 515, rfl⟩
abbrev main_call6_v7 : Ref sig .tc := ⟨.hbm, 516, rfl⟩
abbrev main_call6_cst_1 : Ref sig .tc := ⟨.hbm, 517, rfl⟩
abbrev main_call6_v8 : Ref sig .tc := ⟨.hbm, 518, rfl⟩
abbrev main_call6_cst_2 : Ref sig .tc := ⟨.hbm, 519, rfl⟩
abbrev main_call6_v9 : Ref sig .tc := ⟨.hbm, 520, rfl⟩
abbrev main_call6_v10 : Ref sig .tc := ⟨.hbm, 521, rfl⟩
abbrev main_call6_v11 : Ref sig .tc := ⟨.hbm, 522, rfl⟩
abbrev main_call6_v12 : Ref sig .tc := ⟨.hbm, 523, rfl⟩
abbrev main_call6_cst_3 : Ref sig .tc := ⟨.hbm, 524, rfl⟩
abbrev main_call6_v13 : Ref sig .tc := ⟨.hbm, 525, rfl⟩
abbrev main_call6_cst_4 : Ref sig .tc := ⟨.hbm, 526, rfl⟩
abbrev main_call6_call0_v0 : Ref sig .tc := ⟨.hbm, 527, rfl⟩
abbrev main_call6_call0_v1 : Ref sig .tc := ⟨.hbm, 528, rfl⟩
abbrev main_v295 : Ref sig .tc := ⟨.hbm, 529, rfl⟩
abbrev main_v296 : Ref sig .tc := ⟨.hbm, 530, rfl⟩
abbrev main_v297 : Ref sig .tc := ⟨.hbm, 531, rfl⟩
abbrev main_v298 : Ref sig .tc := ⟨.hbm, 532, rfl⟩
abbrev main_v299 : Ref sig .tc := ⟨.hbm, 533, rfl⟩
abbrev main_v300 : Ref sig .tc := ⟨.hbm, 534, rfl⟩
abbrev main_v301 : Ref sig .tc := ⟨.hbm, 535, rfl⟩
abbrev main_cst_61 : Ref sig .tc := ⟨.hbm, 536, rfl⟩
abbrev main_v302 : Ref sig .tc := ⟨.hbm, 537, rfl⟩
abbrev main_v303 : Ref sig .tc := ⟨.hbm, 538, rfl⟩
abbrev main_cst_62 : Ref sig .tc := ⟨.hbm, 539, rfl⟩
abbrev main_v304 : Ref sig .tc := ⟨.hbm, 540, rfl⟩
abbrev main_v305 : Ref sig .tc := ⟨.hbm, 541, rfl⟩
abbrev main_c_63 : Ref sig .tc := ⟨.hbm, 542, rfl⟩
abbrev main_call7_cst : Ref sig .tc := ⟨.hbm, 543, rfl⟩
abbrev main_call7_v0 : Ref sig .tc := ⟨.hbm, 544, rfl⟩
abbrev main_call7_v1 : Ref sig .tc := ⟨.hbm, 545, rfl⟩
abbrev main_call7_cst_0 : Ref sig .tc := ⟨.hbm, 546, rfl⟩
abbrev main_call7_v2 : Ref sig .tc := ⟨.hbm, 547, rfl⟩
abbrev main_call7_v3 : Ref sig .tc := ⟨.hbm, 548, rfl⟩
abbrev main_call7_v4 : Ref sig .tc := ⟨.hbm, 549, rfl⟩
abbrev main_call7_v5 : Ref sig .tc := ⟨.hbm, 550, rfl⟩
abbrev main_call7_v6 : Ref sig .tc := ⟨.hbm, 551, rfl⟩
abbrev main_call7_v7 : Ref sig .tc := ⟨.hbm, 552, rfl⟩
abbrev main_call7_cst_1 : Ref sig .tc := ⟨.hbm, 553, rfl⟩
abbrev main_call7_v8 : Ref sig .tc := ⟨.hbm, 554, rfl⟩
abbrev main_call7_cst_2 : Ref sig .tc := ⟨.hbm, 555, rfl⟩
abbrev main_call7_v9 : Ref sig .tc := ⟨.hbm, 556, rfl⟩
abbrev main_call7_v10 : Ref sig .tc := ⟨.hbm, 557, rfl⟩
abbrev main_call7_v11 : Ref sig .tc := ⟨.hbm, 558, rfl⟩
abbrev main_call7_v12 : Ref sig .tc := ⟨.hbm, 559, rfl⟩
abbrev main_call7_cst_3 : Ref sig .tc := ⟨.hbm, 560, rfl⟩
abbrev main_call7_v13 : Ref sig .tc := ⟨.hbm, 561, rfl⟩
abbrev main_call7_cst_4 : Ref sig .tc := ⟨.hbm, 562, rfl⟩
abbrev main_call7_call0_v0 : Ref sig .tc := ⟨.hbm, 563, rfl⟩
abbrev main_call7_call0_v1 : Ref sig .tc := ⟨.hbm, 564, rfl⟩
abbrev main_v306 : Ref sig .tc := ⟨.hbm, 565, rfl⟩
abbrev main_v307 : Ref sig .tc := ⟨.hbm, 566, rfl⟩
abbrev main_v308 : Ref sig .tc := ⟨.hbm, 567, rfl⟩
abbrev main_v309 : Ref sig .tc := ⟨.hbm, 568, rfl⟩
abbrev main_c_64 : Ref sig .tc := ⟨.hbm, 569, rfl⟩
abbrev main_v310 : Ref sig .tc := ⟨.hbm, 570, rfl⟩
abbrev main_v311 : Ref sig .tc := ⟨.hbm, 571, rfl⟩
abbrev main_c_65 : Ref sig .tc := ⟨.hbm, 572, rfl⟩
abbrev main_v312 : Ref sig .tc := ⟨.hbm, 573, rfl⟩
abbrev main_v313 : Ref sig .tc := ⟨.hbm, 574, rfl⟩
abbrev main_v314 : Ref sig .tc := ⟨.hbm, 575, rfl⟩
abbrev main_v315 : Ref sig .tc := ⟨.hbm, 576, rfl⟩
abbrev main_v316 : Ref sig .tc := ⟨.hbm, 577, rfl⟩
abbrev main_v317 : Ref sig .tc := ⟨.hbm, 578, rfl⟩
abbrev main_cst_66 : Ref sig .tc := ⟨.hbm, 579, rfl⟩
abbrev main_v318 : Ref sig .tc := ⟨.hbm, 580, rfl⟩
abbrev main_v319 : Ref sig .tc := ⟨.hbm, 581, rfl⟩
abbrev main_v320 : Ref sig .tc := ⟨.hbm, 582, rfl⟩
abbrev main_v321 : Ref sig .tc := ⟨.hbm, 583, rfl⟩
abbrev main_v322 : Ref sig .tc := ⟨.hbm, 584, rfl⟩
abbrev main_cst_67 : Ref sig .tc := ⟨.hbm, 585, rfl⟩
abbrev main_v323 : Ref sig .tc := ⟨.hbm, 586, rfl⟩
abbrev main_v324 : Ref sig .tc := ⟨.hbm, 587, rfl⟩
abbrev main_v325 : Ref sig .tc := ⟨.hbm, 588, rfl⟩
abbrev main_v326 : Ref sig .tc := ⟨.hbm, 589, rfl⟩
abbrev main_v327 : Ref sig .tc := ⟨.hbm, 590, rfl⟩
abbrev main_v328 : Ref sig .tc := ⟨.hbm, 591, rfl⟩
abbrev main_v329 : Ref sig .tc := ⟨.hbm, 592, rfl⟩
abbrev main_v330 : Ref sig .tc := ⟨.hbm, 593, rfl⟩
abbrev main_cst_68 : Ref sig .tc := ⟨.hbm, 594, rfl⟩
abbrev main_v331 : Ref sig .tc := ⟨.hbm, 595, rfl⟩
abbrev main_v332 : Ref sig .tc := ⟨.hbm, 596, rfl⟩
abbrev main_cst_69 : Ref sig .tc := ⟨.hbm, 597, rfl⟩
abbrev main_v333 : Ref sig .tc := ⟨.hbm, 598, rfl⟩
abbrev main_v334 : Ref sig .tc := ⟨.hbm, 599, rfl⟩
abbrev main_c_70 : Ref sig .tc := ⟨.hbm, 600, rfl⟩
abbrev main_call8_cst : Ref sig .tc := ⟨.hbm, 601, rfl⟩
abbrev main_call8_v0 : Ref sig .tc := ⟨.hbm, 602, rfl⟩
abbrev main_call8_v1 : Ref sig .tc := ⟨.hbm, 603, rfl⟩
abbrev main_call8_cst_0 : Ref sig .tc := ⟨.hbm, 604, rfl⟩
abbrev main_call8_v2 : Ref sig .tc := ⟨.hbm, 605, rfl⟩
abbrev main_call8_v3 : Ref sig .tc := ⟨.hbm, 606, rfl⟩
abbrev main_call8_v4 : Ref sig .tc := ⟨.hbm, 607, rfl⟩
abbrev main_call8_v5 : Ref sig .tc := ⟨.hbm, 608, rfl⟩
abbrev main_call8_v6 : Ref sig .tc := ⟨.hbm, 609, rfl⟩
abbrev main_call8_v7 : Ref sig .tc := ⟨.hbm, 610, rfl⟩
abbrev main_call8_cst_1 : Ref sig .tc := ⟨.hbm, 611, rfl⟩
abbrev main_call8_v8 : Ref sig .tc := ⟨.hbm, 612, rfl⟩
abbrev main_call8_cst_2 : Ref sig .tc := ⟨.hbm, 613, rfl⟩
abbrev main_call8_v9 : Ref sig .tc := ⟨.hbm, 614, rfl⟩
abbrev main_call8_v10 : Ref sig .tc := ⟨.hbm, 615, rfl⟩
abbrev main_call8_v11 : Ref sig .tc := ⟨.hbm, 616, rfl⟩
abbrev main_call8_v12 : Ref sig .tc := ⟨.hbm, 617, rfl⟩
abbrev main_call8_cst_3 : Ref sig .tc := ⟨.hbm, 618, rfl⟩
abbrev main_call8_v13 : Ref sig .tc := ⟨.hbm, 619, rfl⟩
abbrev main_call8_cst_4 : Ref sig .tc := ⟨.hbm, 620, rfl⟩
abbrev main_call8_call0_v0 : Ref sig .tc := ⟨.hbm, 621, rfl⟩
abbrev main_call8_call0_v1 : Ref sig .tc := ⟨.hbm, 622, rfl⟩
abbrev main_v335 : Ref sig .tc := ⟨.hbm, 623, rfl⟩
abbrev main_v336 : Ref sig .tc := ⟨.hbm, 624, rfl⟩
abbrev main_v337 : Ref sig .tc := ⟨.hbm, 625, rfl⟩
abbrev main_v338 : Ref sig .tc := ⟨.hbm, 626, rfl⟩
abbrev main_v339 : Ref sig .tc := ⟨.hbm, 627, rfl⟩
abbrev main_v340 : Ref sig .tc := ⟨.hbm, 628, rfl⟩
abbrev main_v341 : Ref sig .tc := ⟨.hbm, 629, rfl⟩
abbrev main_cst_71 : Ref sig .tc := ⟨.hbm, 630, rfl⟩
abbrev main_v342 : Ref sig .tc := ⟨.hbm, 631, rfl⟩
abbrev main_v343 : Ref sig .tc := ⟨.hbm, 632, rfl⟩
abbrev main_cst_72 : Ref sig .tc := ⟨.hbm, 633, rfl⟩
abbrev main_v344 : Ref sig .tc := ⟨.hbm, 634, rfl⟩
abbrev main_v345 : Ref sig .tc := ⟨.hbm, 635, rfl⟩
abbrev main_c_73 : Ref sig .tc := ⟨.hbm, 636, rfl⟩
abbrev main_call9_cst : Ref sig .tc := ⟨.hbm, 637, rfl⟩
abbrev main_call9_v0 : Ref sig .tc := ⟨.hbm, 638, rfl⟩
abbrev main_call9_v1 : Ref sig .tc := ⟨.hbm, 639, rfl⟩
abbrev main_call9_cst_0 : Ref sig .tc := ⟨.hbm, 640, rfl⟩
abbrev main_call9_v2 : Ref sig .tc := ⟨.hbm, 641, rfl⟩
abbrev main_call9_v3 : Ref sig .tc := ⟨.hbm, 642, rfl⟩
abbrev main_call9_v4 : Ref sig .tc := ⟨.hbm, 643, rfl⟩
abbrev main_call9_v5 : Ref sig .tc := ⟨.hbm, 644, rfl⟩
abbrev main_call9_v6 : Ref sig .tc := ⟨.hbm, 645, rfl⟩
abbrev main_call9_v7 : Ref sig .tc := ⟨.hbm, 646, rfl⟩
abbrev main_call9_cst_1 : Ref sig .tc := ⟨.hbm, 647, rfl⟩
abbrev main_call9_v8 : Ref sig .tc := ⟨.hbm, 648, rfl⟩
abbrev main_call9_cst_2 : Ref sig .tc := ⟨.hbm, 649, rfl⟩
abbrev main_call9_v9 : Ref sig .tc := ⟨.hbm, 650, rfl⟩
abbrev main_call9_v10 : Ref sig .tc := ⟨.hbm, 651, rfl⟩
abbrev main_call9_v11 : Ref sig .tc := ⟨.hbm, 652, rfl⟩
abbrev main_call9_v12 : Ref sig .tc := ⟨.hbm, 653, rfl⟩
abbrev main_call9_cst_3 : Ref sig .tc := ⟨.hbm, 654, rfl⟩
abbrev main_call9_v13 : Ref sig .tc := ⟨.hbm, 655, rfl⟩
abbrev main_call9_cst_4 : Ref sig .tc := ⟨.hbm, 656, rfl⟩
abbrev main_call9_call0_v0 : Ref sig .tc := ⟨.hbm, 657, rfl⟩
abbrev main_call9_call0_v1 : Ref sig .tc := ⟨.hbm, 658, rfl⟩
abbrev main_v346 : Ref sig .tc := ⟨.hbm, 659, rfl⟩
abbrev main_v347 : Ref sig .tc := ⟨.hbm, 660, rfl⟩
abbrev main_v348 : Ref sig .tc := ⟨.hbm, 661, rfl⟩
abbrev main_v349 : Ref sig .tc := ⟨.hbm, 662, rfl⟩
abbrev main_cst_74 : Ref sig .tc := ⟨.hbm, 663, rfl⟩
abbrev main_v350 : Ref sig .tc := ⟨.hbm, 664, rfl⟩
abbrev main_v351 : Ref sig .tc := ⟨.hbm, 665, rfl⟩
abbrev main_v352 : Ref sig .tc := ⟨.hbm, 666, rfl⟩
abbrev main_cst_75 : Ref sig .tc := ⟨.hbm, 667, rfl⟩
abbrev main_v353 : Ref sig .tc := ⟨.hbm, 668, rfl⟩
abbrev main_cst_76 : Ref sig .tc := ⟨.hbm, 669, rfl⟩
abbrev main_v354 : Ref sig .tc := ⟨.hbm, 670, rfl⟩
abbrev main_v355 : Ref sig .tc := ⟨.hbm, 671, rfl⟩
abbrev main_v356 : Ref sig .tc := ⟨.hbm, 672, rfl⟩
abbrev main_cst_77 : Ref sig .tc := ⟨.hbm, 673, rfl⟩
abbrev main_v357 : Ref sig .tc := ⟨.hbm, 674, rfl⟩
abbrev main_v358 : Ref sig .tc := ⟨.hbm, 675, rfl⟩
abbrev main_v359 : Ref sig .tc := ⟨.hbm, 676, rfl⟩
abbrev main_v360 : Ref sig .tc := ⟨.hbm, 677, rfl⟩
abbrev main_v361 : Ref sig .tc := ⟨.hbm, 678, rfl⟩
abbrev main_v362 : Ref sig .tc := ⟨.hbm, 679, rfl⟩
abbrev main_v363 : Ref sig .tc := ⟨.hbm, 680, rfl⟩
abbrev main_v364 : Ref sig .tc := ⟨.hbm, 681, rfl⟩
abbrev main_v365 : Ref sig .tc := ⟨.hbm, 682, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg6_0 : Ref sig .tc := ⟨.vmem, 37, rfl⟩
abbrev cc4_stg7_0 : Ref sig .tc := ⟨.vmem, 38, rfl⟩
abbrev cc4_stg7_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg3_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg2_0 : Ref sig .tc := ⟨.vmem, 57, rfl⟩
abbrev cc7_stg3_0 : Ref sig .tc := ⟨.vmem, 58, rfl⟩
abbrev cc7_stg4_0 : Ref sig .tc := ⟨.vmem, 59, rfl⟩
abbrev cc7_stg5_0 : Ref sig .tc := ⟨.vmem, 60, rfl⟩
abbrev cc7_stg6_0 : Ref sig .tc := ⟨.vmem, 61, rfl⟩
abbrev cc7_stg7_0 : Ref sig .tc := ⟨.vmem, 62, rfl⟩
abbrev cc7_stg7_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg3_0 : Ref sig .tc := ⟨.vmem, 68, rfl⟩
abbrev cc8_stg4_0 : Ref sig .tc := ⟨.vmem, 69, rfl⟩
abbrev cc8_stg5_0 : Ref sig .tc := ⟨.vmem, 70, rfl⟩
abbrev cc8_stg5_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg2_0 : Ref sig .tc := ⟨.vmem, 75, rfl⟩
abbrev cc9_stg3_0 : Ref sig .tc := ⟨.vmem, 76, rfl⟩
abbrev cc9_stg3_1 : Ref sig .tc := ⟨.vmem, 77, rfl⟩
abbrev cc10_stg0_0 : Ref sig .tc := ⟨.vmem, 78, rfl⟩
abbrev cc10_stg0_1 : Ref sig .tc := ⟨.vmem, 79, rfl⟩
abbrev cc10_stg1_0 : Ref sig .tc := ⟨.vmem, 80, rfl⟩
abbrev cc10_stg2_0 : Ref sig .tc := ⟨.vmem, 81, rfl⟩
abbrev cc10_stg3_0 : Ref sig .tc := ⟨.vmem, 82, rfl⟩
abbrev cc10_stg4_0 : Ref sig .tc := ⟨.vmem, 83, rfl⟩
abbrev cc10_stg5_0 : Ref sig .tc := ⟨.vmem, 84, rfl⟩
abbrev cc10_stg6_0 : Ref sig .tc := ⟨.vmem, 85, rfl⟩
abbrev cc10_stg7_0 : Ref sig .tc := ⟨.vmem, 86, rfl⟩
abbrev cc10_stg7_1 : Ref sig .tc := ⟨.vmem, 87, rfl⟩
abbrev cc11_stg0_0 : Ref sig .tc := ⟨.vmem, 88, rfl⟩
abbrev cc11_stg0_1 : Ref sig .tc := ⟨.vmem, 89, rfl⟩
abbrev cc11_stg1_0 : Ref sig .tc := ⟨.vmem, 90, rfl⟩
abbrev cc11_stg2_0 : Ref sig .tc := ⟨.vmem, 91, rfl⟩
abbrev cc11_stg3_0 : Ref sig .tc := ⟨.vmem, 92, rfl⟩
abbrev cc11_stg4_0 : Ref sig .tc := ⟨.vmem, 93, rfl⟩
abbrev cc11_stg5_0 : Ref sig .tc := ⟨.vmem, 94, rfl⟩
abbrev cc11_stg5_1 : Ref sig .tc := ⟨.vmem, 95, rfl⟩
abbrev cc12_stg0_0 : Ref sig .tc := ⟨.vmem, 96, rfl⟩
abbrev cc12_stg0_1 : Ref sig .tc := ⟨.vmem, 97, rfl⟩
abbrev cc12_stg1_0 : Ref sig .tc := ⟨.vmem, 98, rfl⟩
abbrev cc12_stg2_0 : Ref sig .tc := ⟨.vmem, 99, rfl⟩
abbrev cc12_stg3_0 : Ref sig .tc := ⟨.vmem, 100, rfl⟩
abbrev cc12_stg3_1 : Ref sig .tc := ⟨.vmem, 101, rfl⟩
abbrev cc13_stg0_0 : Ref sig .tc := ⟨.vmem, 102, rfl⟩
abbrev cc13_stg0_1 : Ref sig .tc := ⟨.vmem, 103, rfl⟩
abbrev cc13_stg1_0 : Ref sig .tc := ⟨.vmem, 104, rfl⟩
abbrev cc13_stg2_0 : Ref sig .tc := ⟨.vmem, 105, rfl⟩
abbrev cc13_stg3_0 : Ref sig .tc := ⟨.vmem, 106, rfl⟩
abbrev cc13_stg4_0 : Ref sig .tc := ⟨.vmem, 107, rfl⟩
abbrev cc13_stg5_0 : Ref sig .tc := ⟨.vmem, 108, rfl⟩
abbrev cc13_stg6_0 : Ref sig .tc := ⟨.vmem, 109, rfl⟩
abbrev cc13_stg7_0 : Ref sig .tc := ⟨.vmem, 110, rfl⟩
abbrev cc13_stg7_1 : Ref sig .tc := ⟨.vmem, 111, rfl⟩
abbrev cc14_stg0_0 : Ref sig .tc := ⟨.vmem, 112, rfl⟩
abbrev cc14_stg0_1 : Ref sig .tc := ⟨.vmem, 113, rfl⟩
abbrev cc14_stg1_0 : Ref sig .tc := ⟨.vmem, 114, rfl⟩
abbrev cc14_stg2_0 : Ref sig .tc := ⟨.vmem, 115, rfl⟩
abbrev cc14_stg3_0 : Ref sig .tc := ⟨.vmem, 116, rfl⟩
abbrev cc14_stg4_0 : Ref sig .tc := ⟨.vmem, 117, rfl⟩
abbrev cc14_stg5_0 : Ref sig .tc := ⟨.vmem, 118, rfl⟩
abbrev cc14_stg5_1 : Ref sig .tc := ⟨.vmem, 119, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem5_0 : DmaSem sig := 36
abbrev cc4_sem6_0 : DmaSem sig := 37
abbrev cc4_sem7_0 : DmaSem sig := 38
abbrev cc4_sem7_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem3_1 : DmaSem sig := 53
abbrev cc7_sem0_0 : DmaSem sig := 54
abbrev cc7_sem0_1 : DmaSem sig := 55
abbrev cc7_sem1_0 : DmaSem sig := 56
abbrev cc7_sem2_0 : DmaSem sig := 57
abbrev cc7_sem3_0 : DmaSem sig := 58
abbrev cc7_sem4_0 : DmaSem sig := 59
abbrev cc7_sem5_0 : DmaSem sig := 60
abbrev cc7_sem6_0 : DmaSem sig := 61
abbrev cc7_sem7_0 : DmaSem sig := 62
abbrev cc7_sem7_1 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem3_0 : DmaSem sig := 68
abbrev cc8_sem4_0 : DmaSem sig := 69
abbrev cc8_sem5_0 : DmaSem sig := 70
abbrev cc8_sem5_1 : DmaSem sig := 71
abbrev cc9_sem0_0 : DmaSem sig := 72
abbrev cc9_sem0_1 : DmaSem sig := 73
abbrev cc9_sem1_0 : DmaSem sig := 74
abbrev cc9_sem2_0 : DmaSem sig := 75
abbrev cc9_sem3_0 : DmaSem sig := 76
abbrev cc9_sem3_1 : DmaSem sig := 77
abbrev cc10_sem0_0 : DmaSem sig := 78
abbrev cc10_sem0_1 : DmaSem sig := 79
abbrev cc10_sem1_0 : DmaSem sig := 80
abbrev cc10_sem2_0 : DmaSem sig := 81
abbrev cc10_sem3_0 : DmaSem sig := 82
abbrev cc10_sem4_0 : DmaSem sig := 83
abbrev cc10_sem5_0 : DmaSem sig := 84
abbrev cc10_sem6_0 : DmaSem sig := 85
abbrev cc10_sem7_0 : DmaSem sig := 86
abbrev cc10_sem7_1 : DmaSem sig := 87
abbrev cc11_sem0_0 : DmaSem sig := 88
abbrev cc11_sem0_1 : DmaSem sig := 89
abbrev cc11_sem1_0 : DmaSem sig := 90
abbrev cc11_sem2_0 : DmaSem sig := 91
abbrev cc11_sem3_0 : DmaSem sig := 92
abbrev cc11_sem4_0 : DmaSem sig := 93
abbrev cc11_sem5_0 : DmaSem sig := 94
abbrev cc11_sem5_1 : DmaSem sig := 95
abbrev cc12_sem0_0 : DmaSem sig := 96
abbrev cc12_sem0_1 : DmaSem sig := 97
abbrev cc12_sem1_0 : DmaSem sig := 98
abbrev cc12_sem2_0 : DmaSem sig := 99
abbrev cc12_sem3_0 : DmaSem sig := 100
abbrev cc12_sem3_1 : DmaSem sig := 101
abbrev cc13_sem0_0 : DmaSem sig := 102
abbrev cc13_sem0_1 : DmaSem sig := 103
abbrev cc13_sem1_0 : DmaSem sig := 104
abbrev cc13_sem2_0 : DmaSem sig := 105
abbrev cc13_sem3_0 : DmaSem sig := 106
abbrev cc13_sem4_0 : DmaSem sig := 107
abbrev cc13_sem5_0 : DmaSem sig := 108
abbrev cc13_sem6_0 : DmaSem sig := 109
abbrev cc13_sem7_0 : DmaSem sig := 110
abbrev cc13_sem7_1 : DmaSem sig := 111
abbrev cc14_sem0_0 : DmaSem sig := 112
abbrev cc14_sem0_1 : DmaSem sig := 113
abbrev cc14_sem1_0 : DmaSem sig := 114
abbrev cc14_sem2_0 : DmaSem sig := 115
abbrev cc14_sem3_0 : DmaSem sig := 116
abbrev cc14_sem4_0 : DmaSem sig := 117
abbrev cc14_sem5_0 : DmaSem sig := 118
abbrev cc14_sem5_1 : DmaSem sig := 119

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x200 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x200 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x200 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x200 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S200x100 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x100 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x100 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x100 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x100 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x100 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x100 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x100 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x100 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x100 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S100x200 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x200 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x200 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x200 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x200 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x200 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x200 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x200 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S200x100 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x100 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x100 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x100 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x100 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x100 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x100 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x100 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x100 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x100 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S100x200 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x200 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x200 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x200 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x200 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x200 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x200 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x200 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S200x100 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x100 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S5000x100 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x100 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x100 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x100 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x100 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x100 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x100 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x100 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S100x200 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x200 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x200 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x200 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x200 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x200 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x200 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x200 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S200x100 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x100 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S5000x100 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x100 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x100 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x100 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x100 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x100 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x100 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x100 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S100x200 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x200 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S5000x200 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_7 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x200 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x200 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x200 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x200 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x200 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S200x100 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 1 → Memref sig .tc .vmem S1x100 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

abbrev stage13_7 : Fin 2 → Memref sig .tc .vmem S5000x100 .f32 := fun | 0 => Memref.whole cc13_stg7_0 | 1 => Memref.whole cc13_stg7_1 | ⟨_ + 2, h⟩ => absurd h (Nat.not_lt.2 (Nat.le_add_left _ _))
abbrev sem13_7 : Fin 2 → DmaSem sig := fun | 0 => cc13_sem7_0 | 1 => cc13_sem7_1 | ⟨_ + 2, h⟩ => absurd h (Nat.not_lt.2 (Nat.le_add_left _ _))
abbrev reads13_7 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x100 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x100 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x100 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x100 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x100 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S5000x100 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

class Facts₀ : Prop where
  bcast_S_S50000x100 : S_.BroadcastsInDim S50000x100 (![] : Fin 0 → Fin S50000x100.rank)
  slices_S9x128x100_S1x128x100_0_0_0 : S9x128x100.Slices ![0, 0, 0] S1x128x100
  shapeCasts_S1x128x100_S128x100 : S1x128x100.ShapeCasts S128x100
  slices_S50000x9_S50000x1_0_0 : S50000x9.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S9x128x100_S1x128x100_1_0_0 : S9x128x100.Slices ![1, 0, 0] S1x128x100
  slices_S50000x9_S50000x1_0_1 : S50000x9.Slices ![0, 1] S50000x1
  slices_S9x128x100_S1x128x100_2_0_0 : S9x128x100.Slices ![2, 0, 0] S1x128x100
  slices_S50000x9_S50000x1_0_2 : S50000x9.Slices ![0, 2] S50000x1
  slices_S9x128x100_S1x128x100_3_0_0 : S9x128x100.Slices ![3, 0, 0] S1x128x100
  slices_S50000x9_S50000x1_0_3 : S50000x9.Slices ![0, 3] S50000x1
  slices_S9x128x100_S1x128x100_4_0_0 : S9x128x100.Slices ![4, 0, 0] S1x128x100
  slices_S50000x9_S50000x1_0_4 : S50000x9.Slices ![0, 4] S50000x1
  slices_S9x128x100_S1x128x100_5_0_0 : S9x128x100.Slices ![5, 0, 0] S1x128x100
  slices_S50000x9_S50000x1_0_5 : S50000x9.Slices ![0, 5] S50000x1
  slices_S9x128x100_S1x128x100_6_0_0 : S9x128x100.Slices ![6, 0, 0] S1x128x100
  slices_S50000x9_S50000x1_0_6 : S50000x9.Slices ![0, 6] S50000x1
  slices_S9x128x100_S1x128x100_7_0_0 : S9x128x100.Slices ![7, 0, 0] S1x128x100
  slices_S50000x9_S50000x1_0_7 : S50000x9.Slices ![0, 7] S50000x1
  slices_S9x128x100_S1x128x100_8_0_0 : S9x128x100.Slices ![8, 0, 0] S1x128x100
  slices_S50000x9_S50000x1_0_8 : S50000x9.Slices ![0, 8] S50000x1
  bcast_S_S800000x100 : S_.BroadcastsInDim S800000x100 (![] : Fin 0 → Fin S800000x100.rank)
  slices_S3x16x100_S1x16x100_0_0_0 : S3x16x100.Slices ![0, 0, 0] S1x16x100
  shapeCasts_S1x16x100_S16x100 : S1x16x100.ShapeCasts S16x100
  slices_S800000x3_S800000x1_0_0 : S800000x3.Slices ![0, 0] S800000x1
  shapeCasts_S800000x1_S800000 : S800000x1.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S3x16x100_S1x16x100_1_0_0 : S3x16x100.Slices ![1, 0, 0] S1x16x100
  slices_S800000x3_S800000x1_0_1 : S800000x3.Slices ![0, 1] S800000x1
  slices_S3x16x100_S1x16x100_2_0_0 : S3x16x100.Slices ![2, 0, 0] S1x16x100
  slices_S800000x3_S800000x1_0_2 : S800000x3.Slices ![0, 2] S800000x1
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S5_S1_0 : S5.Slices ![0] S1
  shapeCasts_S1_S_ : S1.ShapeCasts S_
  slices_S5x100x200_S1x100x200_0_0_0 : S5x100x200.Slices ![0, 0, 0] S1x100x200
  shapeCasts_S1x100x200_S100x200 : S1x100x200.ShapeCasts S100x200
  slices_S5x200_S1x200_0_0 : S5x200.Slices ![0, 0] S1x200
  inb_S5000x100_S5000x100_0_0 : ∀ a, (![0, 0] : Fin 2 → Nat) a + S5000x100.size a ≤ S5000x100.size a
  h_S5000x100 : 0 < S5000x100.numel
  shapeCasts_S5000x100_S5000x100 : S5000x100.ShapeCasts S5000x100
  bitsLt_bf16_f32 : FTy.bits .bf16 < FTy.bits .f32
  inb_S100x200_S100x200_0_0 : ∀ a, (![0, 0] : Fin 2 → Nat) a + S100x200.size a ≤ S100x200.size a
  h_S100x200 : 0 < S100x200.numel
  shapeCasts_S100x200_S100x200 : S100x200.ShapeCasts S100x200
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S5000x200 : S1x200.Broadcasts S5000x200
  inb_S5000x200_S5000x200_0_0 : ∀ a, (![0, 0] : Fin 2 → Nat) a + S5000x200.size a ≤ S5000x200.size a
  h_S5000x200 : 0 < S5000x200.numel
  reducesTo_S50000x200_S200_d0 : S50000x200.ReducesTo [0] S200
  h_S_ : 0 < S_.numel
  bcast_S200_S1x200_1 : S200.BroadcastsInDim S1x200 (![1] : Fin 1 → Fin S1x200.rank)
  bcast_S_S1x200 : S_.BroadcastsInDim S1x200 (![] : Fin 0 → Fin S1x200.rank)
  bcast_S1x200_S50000x200_0_1 : S1x200.BroadcastsInDim S50000x200 (![0, 1] : Fin 2 → Fin S50000x200.rank)
  slices_S5x200x100_S1x200x100_0_0_0 : S5x200x100.Slices ![0, 0, 0] S1x200x100
  shapeCasts_S1x200x100_S200x100 : S1x200x100.ShapeCasts S200x100
  slices_S5x100_S1x100_0_0 : S5x100.Slices ![0, 0] S1x100
  shapeCasts_S5000x200_S5000x200 : S5000x200.ShapeCasts S5000x200
  inb_S200x100_S200x100_0_0 : ∀ a, (![0, 0] : Fin 2 → Nat) a + S200x100.size a ≤ S200x100.size a
  h_S200x100 : 0 < S200x100.numel
  shapeCasts_S200x100_S200x100 : S200x100.ShapeCasts S200x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S5000x100 : S1x100.Broadcasts S5000x100
  reducesTo_S50000x100_S100_d0 : S50000x100.ReducesTo [0] S100
  bcast_S100_S1x100_1 : S100.BroadcastsInDim S1x100 (![1] : Fin 1 → Fin S1x100.rank)
  bcast_S_S1x100 : S_.BroadcastsInDim S1x100 (![] : Fin 0 → Fin S1x100.rank)
  bcast_S1x100_S50000x100_0_1 : S1x100.BroadcastsInDim S50000x100 (![0, 1] : Fin 2 → Fin S50000x100.rank)
  slices_S5_S1_1 : S5.Slices ![1] S1
  slices_S5x100x200_S1x100x200_1_0_0 : S5x100x200.Slices ![1, 0, 0] S1x100x200
  slices_S5x200_S1x200_1_0 : S5x200.Slices ![1, 0] S1x200
  slices_S5x200x100_S1x200x100_1_0_0 : S5x200x100.Slices ![1, 0, 0] S1x200x100
  slices_S5x100_S1x100_1_0 : S5x100.Slices ![1, 0] S1x100
  slices_S5_S1_2 : S5.Slices ![2] S1
  slices_S5x100x200_S1x100x200_2_0_0 : S5x100x200.Slices ![2, 0, 0] S1x100x200
  slices_S5x200_S1x200_2_0 : S5x200.Slices ![2, 0] S1x200
  slices_S5x200x100_S1x200x100_2_0_0 : S5x200x100.Slices ![2, 0, 0] S1x200x100
  slices_S5x100_S1x100_2_0 : S5x100.Slices ![2, 0] S1x100
  slices_S5_S1_3 : S5.Slices ![3] S1
  slices_S5x100x200_S1x100x200_3_0_0 : S5x100x200.Slices ![3, 0, 0] S1x100x200
  slices_S5x200_S1x200_3_0 : S5x200.Slices ![3, 0] S1x200
  slices_S5x200x100_S1x200x100_3_0_0 : S5x200x100.Slices ![3, 0, 0] S1x200x100
  slices_S5x100_S1x100_3_0 : S5x100.Slices ![3, 0] S1x100
  slices_S5_S1_4 : S5.Slices ![4] S1
  slices_S5x100x200_S1x100x200_4_0_0 : S5x100x200.Slices ![4, 0, 0] S1x100x200
  slices_S5x200_S1x200_4_0 : S5x200.Slices ![4, 0] S1x200
  slices_S5x200x100_S1x200x100_4_0_0 : S5x200x100.Slices ![4, 0, 0] S1x200x100
  slices_S5x100_S1x100_4_0 : S5x100.Slices ![4, 0] S1x100
  bcast_S_S512x100 : S_.BroadcastsInDim S512x100 (![] : Fin 0 → Fin S512x100.rank)
  bcast_S_S512 : S_.BroadcastsInDim S512 (![] : Fin 0 → Fin S512.rank)
  bcast_S512_S512x1_0 : S512.BroadcastsInDim S512x1 (![0] : Fin 1 → Fin S512x1.rank)
  bcast_S512x1_S512x100_0_1 : S512x1.BroadcastsInDim S512x100 (![0, 1] : Fin 2 → Fin S512x100.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  gather_S128x100_S50000x1_S50000x100_1_0_n_n_0_1_1100_wf : GatherDims.WF S128x100 S50000x1 S50000x100 [1] [0] [] [0] [] 1 ![1, 100]
  gather_S16x100_S800000x1_S800000x100_1_0_n_n_0_1_1100_wf : GatherDims.WF S16x100 S800000x1 S800000x100 [1] [0] [] [0] [] 1 ![1, 100]
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  dot_S5000x100_S100x200_S5000x200_1_0_0_1_n_n_wf : DotDims.WF S5000x100 S100x200 S5000x200 [1] [0] [0] [1] [] []
  dot_S5000x200_S200x100_S5000x100_1_0_0_1_n_n_wf : DotDims.WF S5000x200 S200x100 S5000x100 [1] [0] [0] [1] [] []
  scatter_S512x100_S50000x1_S50000x100_1_0_0_1_wf : ScatterDims.WF S512x100 S50000x1 S50000x100 [1] [0] [0] 1
  scatter_S512_S50000x1_S50000_n_0_0_1_wf : ScatterDims.WF S512 S50000x1 S50000 [] [0] [0] 1
  dot_S512x100_S100x2_S512x2_1_0_0_1_n_n_wf : DotDims.WF S512x100 S100x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x100.size a ≤ S50000x100.size a
  hwx0_0 : ∀ i : grid0.Coords, EltTy.bits .f32 = 32 ∨ (Rect.block (s := S50000x100) S5000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x200.size a ≤ S100x200.size a
  hwx0_1 : ∀ i : grid0.Coords, EltTy.bits .f32 = 32 ∨ (Rect.block (s := S100x200) S100x200.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x200.size a ≤ S1x200.size a
  hwx0_2 : ∀ i : grid0.Coords, EltTy.bits .f32 = 32 ∨ (Rect.block (s := S1x200) S1x200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x200.size a ≤ S50000x200.size a
  hwx0_3 : ∀ i : grid0.Coords, EltTy.bits .f32 = 32 ∨ (Rect.block (s := S50000x200) S5000x200.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x200.size a ≤ S50000x200.size a
  hwx1_0 : ∀ i : grid1.Coords, EltTy.bits .f32 = 32 ∨ (Rect.block (s := S50000x200) S5000x200.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x200.size a ≤ S1x200.size a
  hwx1_1 : ∀ i : grid1.Coords, EltTy.bits .f32 = 32 ∨ (Rect.block (s := S1x200) S1x200.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x200.size a ≤ S1x200.size a
  hwx1_2 : ∀ i : grid1.Coords, EltTy.bits .f32 = 32 ∨ (Rect.block (s := S1x200) S1x200.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x200.size a ≤ S1x200.size a
  hwx1_3 : ∀ i : grid1.Coords, EltTy.bits .f32 = 32 ∨ (Rect.block (s := S1x200) S1x200.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x200.size a ≤ S1x200.size a
  hwx1_4 : ∀ i : grid1.Coords, EltTy.bits .f32 = 32 ∨ (Rect.block (s := S1x200) S1x200.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S200x100.size a ≤ S200x100.size a
  hwx1_5 : ∀ i : grid1.Coords, EltTy.bits .f32 = 32 ∨ (Rect.block (s := S200x100) S200x100.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x100.size a ≤ S1x100.size a
  hwx1_6 : ∀ i : grid1.Coords, EltTy.bits .f32 = 32 ∨ (Rect.block (s := S1x100) S1x100.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x100.size a ≤ S50000x100.size a
  hwx1_7 : ∀ i : grid1.Coords, EltTy.bits .f32 = 32 ∨ (Rect.block (s := S50000x100) S5000x100.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x100.size a ≤ S50000x100.size a
  hwx2_0 : ∀ i : grid2.Coords, EltTy.bits .f32 = 32 ∨ (Rect.block (s := S50000x100) S5000x100.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x100.size a ≤ S1x100.size a
  hwx2_1 : ∀ i : grid2.Coords, EltTy.bits .f32 = 32 ∨ (Rect.block (s := S1x100) S1x100.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x100.size a ≤ S1x100.size a
  hwx2_2 : ∀ i : grid2.Coords, EltTy.bits .f32 = 32 ∨ (Rect.block (s := S1x100) S1x100.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x100.size a ≤ S1x100.size a
  hwx2_3 : ∀ i : grid2.Coords, EltTy.bits .f32 = 32 ∨ (Rect.block (s := S1x100) S1x100.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x100.size a ≤ S1x100.size a
  hwx2_4 : ∀ i : grid2.Coords, EltTy.bits .f32 = 32 ∨ (Rect.block (s := S1x100) S1x100.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x100.size a ≤ S50000x100.size a
  hwx2_5 : ∀ i : grid2.Coords, EltTy.bits .f32 = 32 ∨ (Rect.block (s := S50000x100) S5000x100.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x100.size a ≤ S50000x100.size a
  hwx3_0 : ∀ i : grid3.Coords, EltTy.bits .f32 = 32 ∨ (Rect.block (s := S50000x100) S5000x100.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S100x200.size a ≤ S100x200.size a
  hwx3_1 : ∀ i : grid3.Coords, EltTy.bits .f32 = 32 ∨ (Rect.block (s := S100x200) S100x200.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x200.size a ≤ S1x200.size a
  hwx3_2 : ∀ i : grid3.Coords, EltTy.bits .f32 = 32 ∨ (Rect.block (s := S1x200) S1x200.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x200.size a ≤ S50000x200.size a
  hwx3_3 : ∀ i : grid3.Coords, EltTy.bits .f32 = 32 ∨ (Rect.block (s := S50000x200) S5000x200.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x200.size a ≤ S50000x200.size a
  hwx4_0 : ∀ i : grid4.Coords, EltTy.bits .f32 = 32 ∨ (Rect.block (s := S50000x200) S5000x200.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x200.size a ≤ S1x200.size a
  hwx4_1 : ∀ i : grid4.Coords, EltTy.bits .f32 = 32 ∨ (Rect.block (s := S1x200) S1x200.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x200.size a ≤ S1x200.size a
  hwx4_2 : ∀ i : grid4.Coords, EltTy.bits .f32 = 32 ∨ (Rect.block (s := S1x200) S1x200.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x200.size a ≤ S1x200.size a
  hwx4_3 : ∀ i : grid4.Coords, EltTy.bits .f32 = 32 ∨ (Rect.block (s := S1x200) S1x200.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x200.size a ≤ S1x200.size a
  hwx4_4 : ∀ i : grid4.Coords, EltTy.bits .f32 = 32 ∨ (Rect.block (s := S1x200) S1x200.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S200x100.size a ≤ S200x100.size a
  hwx4_5 : ∀ i : grid4.Coords, EltTy.bits .f32 = 32 ∨ (Rect.block (s := S200x100) S200x100.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x100.size a ≤ S1x100.size a
  hwx4_6 : ∀ i : grid4.Coords, EltTy.bits .f32 = 32 ∨ (Rect.block (s := S1x100) S1x100.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x100.size a ≤ S50000x100.size a
  hwx4_7 : ∀ i : grid4.Coords, EltTy.bits .f32 = 32 ∨ (Rect.block (s := S50000x100) S5000x100.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x100.size a ≤ S50000x100.size a
  hwx5_0 : ∀ i : grid5.Coords, EltTy.bits .f32 = 32 ∨ (Rect.block (s := S50000x100) S5000x100.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x100.size a ≤ S1x100.size a
  hwx5_1 : ∀ i : grid5.Coords, EltTy.bits .f32 = 32 ∨ (Rect.block (s := S1x100) S1x100.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x100.size a ≤ S1x100.size a
  hwx5_2 : ∀ i : grid5.Coords, EltTy.bits .f32 = 32 ∨ (Rect.block (s := S1x100) S1x100.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x100.size a ≤ S1x100.size a
  hwx5_3 : ∀ i : grid5.Coords, EltTy.bits .f32 = 32 ∨ (Rect.block (s := S1x100) S1x100.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x100.size a ≤ S1x100.size a
  hwx5_4 : ∀ i : grid5.Coords, EltTy.bits .f32 = 32 ∨ (Rect.block (s := S1x100) S1x100.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x100.size a ≤ S50000x100.size a
  hwx5_5 : ∀ i : grid5.Coords, EltTy.bits .f32 = 32 ∨ (Rect.block (s := S50000x100) S5000x100.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x100.size a ≤ S50000x100.size a
  hwx6_0 : ∀ i : grid6.Coords, EltTy.bits .f32 = 32 ∨ (Rect.block (s := S50000x100) S5000x100.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S100x200.size a ≤ S100x200.size a
  hwx6_1 : ∀ i : grid6.Coords, EltTy.bits .f32 = 32 ∨ (Rect.block (s := S100x200) S100x200.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x200.size a ≤ S1x200.size a
  hwx6_2 : ∀ i : grid6.Coords, EltTy.bits .f32 = 32 ∨ (Rect.block (s := S1x200) S1x200.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x200.size a ≤ S50000x200.size a
  hwx6_3 : ∀ i : grid6.Coords, EltTy.bits .f32 = 32 ∨ (Rect.block (s := S50000x200) S5000x200.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x200.size a ≤ S50000x200.size a
  hwx7_0 : ∀ i : grid7.Coords, EltTy.bits .f32 = 32 ∨ (Rect.block (s := S50000x200) S5000x200.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x200.size a ≤ S1x200.size a
  hwx7_1 : ∀ i : grid7.Coords, EltTy.bits .f32 = 32 ∨ (Rect.block (s := S1x200) S1x200.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x200.size a ≤ S1x200.size a
  hwx7_2 : ∀ i : grid7.Coords, EltTy.bits .f32 = 32 ∨ (Rect.block (s := S1x200) S1x200.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x200.size a ≤ S1x200.size a
  hwx7_3 : ∀ i : grid7.Coords, EltTy.bits .f32 = 32 ∨ (Rect.block (s := S1x200) S1x200.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x200.size a ≤ S1x200.size a
  hwx7_4 : ∀ i : grid7.Coords, EltTy.bits .f32 = 32 ∨ (Rect.block (s := S1x200) S1x200.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S200x100.size a ≤ S200x100.size a
  hwx7_5 : ∀ i : grid7.Coords, EltTy.bits .f32 = 32 ∨ (Rect.block (s := S200x100) S200x100.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x100.size a ≤ S1x100.size a
  hwx7_6 : ∀ i : grid7.Coords, EltTy.bits .f32 = 32 ∨ (Rect.block (s := S1x100) S1x100.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x100.size a ≤ S50000x100.size a
  hwx7_7 : ∀ i : grid7.Coords, EltTy.bits .f32 = 32 ∨ (Rect.block (s := S50000x100) S5000x100.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x100.size a ≤ S50000x100.size a
  hwx8_0 : ∀ i : grid8.Coords, EltTy.bits .f32 = 32 ∨ (Rect.block (s := S50000x100) S5000x100.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x100.size a ≤ S1x100.size a
  hwx8_1 : ∀ i : grid8.Coords, EltTy.bits .f32 = 32 ∨ (Rect.block (s := S1x100) S1x100.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x100.size a ≤ S1x100.size a
  hwx8_2 : ∀ i : grid8.Coords, EltTy.bits .f32 = 32 ∨ (Rect.block (s := S1x100) S1x100.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x100.size a ≤ S1x100.size a
  hwx8_3 : ∀ i : grid8.Coords, EltTy.bits .f32 = 32 ∨ (Rect.block (s := S1x100) S1x100.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x100.size a ≤ S1x100.size a
  hwx8_4 : ∀ i : grid8.Coords, EltTy.bits .f32 = 32 ∨ (Rect.block (s := S1x100) S1x100.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x100.size a ≤ S50000x100.size a
  hwx8_5 : ∀ i : grid8.Coords, EltTy.bits .f32 = 32 ∨ (Rect.block (s := S50000x100) S5000x100.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x100.size a ≤ S50000x100.size a
  hwx9_0 : ∀ i : grid9.Coords, EltTy.bits .f32 = 32 ∨ (Rect.block (s := S50000x100) S5000x100.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S100x200.size a ≤ S100x200.size a
  hwx9_1 : ∀ i : grid9.Coords, EltTy.bits .f32 = 32 ∨ (Rect.block (s := S100x200) S100x200.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x200.size a ≤ S1x200.size a
  hwx9_2 : ∀ i : grid9.Coords, EltTy.bits .f32 = 32 ∨ (Rect.block (s := S1x200) S1x200.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x200.size a ≤ S50000x200.size a
  hwx9_3 : ∀ i : grid9.Coords, EltTy.bits .f32 = 32 ∨ (Rect.block (s := S50000x200) S5000x200.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x200.size a ≤ S50000x200.size a
  hwx10_0 : ∀ i : grid10.Coords, EltTy.bits .f32 = 32 ∨ (Rect.block (s := S50000x200) S5000x200.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x200.size a ≤ S1x200.size a
  hwx10_1 : ∀ i : grid10.Coords, EltTy.bits .f32 = 32 ∨ (Rect.block (s := S1x200) S1x200.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x200.size a ≤ S1x200.size a
  hwx10_2 : ∀ i : grid10.Coords, EltTy.bits .f32 = 32 ∨ (Rect.block (s := S1x200) S1x200.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x200.size a ≤ S1x200.size a
  hwx10_3 : ∀ i : grid10.Coords, EltTy.bits .f32 = 32 ∨ (Rect.block (s := S1x200) S1x200.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x200.size a ≤ S1x200.size a
  hwx10_4 : ∀ i : grid10.Coords, EltTy.bits .f32 = 32 ∨ (Rect.block (s := S1x200) S1x200.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S200x100.size a ≤ S200x100.size a
  hwx10_5 : ∀ i : grid10.Coords, EltTy.bits .f32 = 32 ∨ (Rect.block (s := S200x100) S200x100.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x100.size a ≤ S1x100.size a
  hwx10_6 : ∀ i : grid10.Coords, EltTy.bits .f32 = 32 ∨ (Rect.block (s := S1x100) S1x100.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S5000x100.size a ≤ S50000x100.size a
  hwx10_7 : ∀ i : grid10.Coords, EltTy.bits .f32 = 32 ∨ (Rect.block (s := S50000x100) S5000x100.size (cc10_transform_7 i) (hinb10_7 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x100.size a ≤ S50000x100.size a
  hwx11_0 : ∀ i : grid11.Coords, EltTy.bits .f32 = 32 ∨ (Rect.block (s := S50000x100) S5000x100.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x100.size a ≤ S1x100.size a
  hwx11_1 : ∀ i : grid11.Coords, EltTy.bits .f32 = 32 ∨ (Rect.block (s := S1x100) S1x100.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x100.size a ≤ S1x100.size a
  hwx11_2 : ∀ i : grid11.Coords, EltTy.bits .f32 = 32 ∨ (Rect.block (s := S1x100) S1x100.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x100.size a ≤ S1x100.size a
  hwx11_3 : ∀ i : grid11.Coords, EltTy.bits .f32 = 32 ∨ (Rect.block (s := S1x100) S1x100.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x100.size a ≤ S1x100.size a
  hwx11_4 : ∀ i : grid11.Coords, EltTy.bits .f32 = 32 ∨ (Rect.block (s := S1x100) S1x100.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x100.size a ≤ S50000x100.size a
  hwx11_5 : ∀ i : grid11.Coords, EltTy.bits .f32 = 32 ∨ (Rect.block (s := S50000x100) S5000x100.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x100.size a ≤ S50000x100.size a
  hwx12_0 : ∀ i : grid12.Coords, EltTy.bits .f32 = 32 ∨ (Rect.block (s := S50000x100) S5000x100.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S100x200.size a ≤ S100x200.size a
  hwx12_1 : ∀ i : grid12.Coords, EltTy.bits .f32 = 32 ∨ (Rect.block (s := S100x200) S100x200.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x200.size a ≤ S1x200.size a
  hwx12_2 : ∀ i : grid12.Coords, EltTy.bits .f32 = 32 ∨ (Rect.block (s := S1x200) S1x200.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S5000x200.size a ≤ S50000x200.size a
  hwx12_3 : ∀ i : grid12.Coords, EltTy.bits .f32 = 32 ∨ (Rect.block (s := S50000x200) S5000x200.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x200.size a ≤ S50000x200.size a
  hwx13_0 : ∀ i : grid13.Coords, EltTy.bits .f32 = 32 ∨ (Rect.block (s := S50000x200) S5000x200.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x200.size a ≤ S1x200.size a
  hwx13_1 : ∀ i : grid13.Coords, EltTy.bits .f32 = 32 ∨ (Rect.block (s := S1x200) S1x200.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x200.size a ≤ S1x200.size a
  hwx13_2 : ∀ i : grid13.Coords, EltTy.bits .f32 = 32 ∨ (Rect.block (s := S1x200) S1x200.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x200.size a ≤ S1x200.size a
  hwx13_3 : ∀ i : grid13.Coords, EltTy.bits .f32 = 32 ∨ (Rect.block (s := S1x200) S1x200.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x200.size a ≤ S1x200.size a
  hwx13_4 : ∀ i : grid13.Coords, EltTy.bits .f32 = 32 ∨ (Rect.block (s := S1x200) S1x200.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S200x100.size a ≤ S200x100.size a
  hwx13_5 : ∀ i : grid13.Coords, EltTy.bits .f32 = 32 ∨ (Rect.block (s := S200x100) S200x100.size (cc13_transform_5 i) (hinb13_5 i)).WholeWords (EltTy.packing .f32)
  hstage13_6 : ∀ j, (stage13_6 j).IsWhole
  nbuf13_6 : grid13.bufCount reads13_6 true = 1
  hreads13_6 : ∀ i i' : grid13.Coords, (∀ a, reads13_6 a = true → i a = i' a) → cc13_transform_6 i = cc13_transform_6 i'
  hinb13_6 : ∀ (i : grid13.Coords) a, (cc13_transform_6 i a + 1) * S1x100.size a ≤ S1x100.size a
  hwx13_6 : ∀ i : grid13.Coords, EltTy.bits .f32 = 32 ∨ (Rect.block (s := S1x100) S1x100.size (cc13_transform_6 i) (hinb13_6 i)).WholeWords (EltTy.packing .f32)
  hstage13_7 : ∀ j, (stage13_7 j).IsWhole
  nbuf13_7 : grid13.bufCount reads13_7 false = 2
  hreads13_7 : ∀ i i' : grid13.Coords, (∀ a, reads13_7 a = true → i a = i' a) → cc13_transform_7 i = cc13_transform_7 i'
  hinb13_7 : ∀ (i : grid13.Coords) a, (cc13_transform_7 i a + 1) * S5000x100.size a ≤ S50000x100.size a
  hwx13_7 : ∀ i : grid13.Coords, EltTy.bits .f32 = 32 ∨ (Rect.block (s := S50000x100) S5000x100.size (cc13_transform_7 i) (hinb13_7 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x100.size a ≤ S50000x100.size a
  hwx14_0 : ∀ i : grid14.Coords, EltTy.bits .f32 = 32 ∨ (Rect.block (s := S50000x100) S5000x100.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x100.size a ≤ S1x100.size a
  hwx14_1 : ∀ i : grid14.Coords, EltTy.bits .f32 = 32 ∨ (Rect.block (s := S1x100) S1x100.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x100.size a ≤ S1x100.size a
  hwx14_2 : ∀ i : grid14.Coords, EltTy.bits .f32 = 32 ∨ (Rect.block (s := S1x100) S1x100.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x100.size a ≤ S1x100.size a
  hwx14_3 : ∀ i : grid14.Coords, EltTy.bits .f32 = 32 ∨ (Rect.block (s := S1x100) S1x100.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x100.size a ≤ S1x100.size a
  hwx14_4 : ∀ i : grid14.Coords, EltTy.bits .f32 = 32 ∨ (Rect.block (s := S1x100) S1x100.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S5000x100.size a ≤ S50000x100.size a
  hwx14_5 : ∀ i : grid14.Coords, EltTy.bits .f32 = 32 ∨ (Rect.block (s := S50000x100) S5000x100.size (cc14_transform_5 i) (hinb14_5 i)).WholeWords (EltTy.packing .f32)

variable [Facts₀]

def gather_S128x100_S50000x1_S50000x100_1_0_n_n_0_1_1100 : GatherDims S128x100 S50000x1 S50000x100 where
  offsetDims := [1]
  collapsedSliceDims := [0]
  operandBatchingDims := []
  startIndicesBatchingDims := []
  startIndexMap := [0]
  indexVectorDim := 1
  sliceSizes := ![1, 100]
  wf := gather_S128x100_S50000x1_S50000x100_1_0_n_n_0_1_1100_wf
def gather_S16x100_S800000x1_S800000x100_1_0_n_n_0_1_1100 : GatherDims S16x100 S800000x1 S800000x100 where
  offsetDims := [1]
  collapsedSliceDims := [0]
  operandBatchingDims := []
  startIndicesBatchingDims := []
  startIndexMap := [0]
  indexVectorDim := 1
  sliceSizes := ![1, 100]
  wf := gather_S16x100_S800000x1_S800000x100_1_0_n_n_0_1_1100_wf
def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def dot_S5000x100_S100x200_S5000x200_1_0_0_1_n_n : DotDims S5000x100 S100x200 S5000x200 where
  lhsContracting := [1]
  rhsContracting := [0]
  lhsNonContracting := [0]
  rhsNonContracting := [1]
  lhsBatch := []
  rhsBatch := []
  wf := dot_S5000x100_S100x200_S5000x200_1_0_0_1_n_n_wf
def dot_S5000x200_S200x100_S5000x100_1_0_0_1_n_n : DotDims S5000x200 S200x100 S5000x100 where
  lhsContracting := [1]
  rhsContracting := [0]
  lhsNonContracting := [0]
  rhsNonContracting := [1]
  lhsBatch := []
  rhsBatch := []
  wf := dot_S5000x200_S200x100_S5000x100_1_0_0_1_n_n_wf
def scatter_S512x100_S50000x1_S50000x100_1_0_0_1 : ScatterDims S512x100 S50000x1 S50000x100 where
  updateWindowDims := [1]
  insertedWindowDims := [0]
  scatterDimsToOperandDims := [0]
  indexVectorDim := 1
  wf := scatter_S512x100_S50000x1_S50000x100_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x100_S100x2_S512x2_1_0_0_1_n_n : DotDims S512x100 S100x2 S512x2 where
  lhsContracting := [1]
  rhsContracting := [0]
  lhsNonContracting := [0]
  rhsNonContracting := [1]
  lhsBatch := []
  rhsBatch := []
  wf := dot_S512x100_S100x2_S512x2_1_0_0_1_n_n_wf

abbrev win0_0 : Pipeline.Window sig grid0 :=
  Pipeline.Window.ofSpec (Memref.whole main_v166) S5000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v168) S100x200.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v169) S1x200.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v170) S5000x200.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v170) S5000x200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v174) S1x200.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v175) S1x200.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v176) S1x200.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v177) S1x200.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v179) S200x100.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v180) S1x100.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v181) S5000x100.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v181) S5000x100.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v185) S1x100.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v186) S1x100.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v187) S1x100.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v188) S1x100.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v189) S5000x100.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v206) S5000x100.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v208) S100x200.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v209) S1x200.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v210) S5000x200.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v210) S5000x200.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v214) S1x200.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v215) S1x200.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v216) S1x200.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v217) S1x200.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v219) S200x100.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v220) S1x100.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v221) S5000x100.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v221) S5000x100.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v225) S1x100.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v226) S1x100.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v227) S1x100.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v228) S1x100.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v229) S5000x100.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v246) S5000x100.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v248) S100x200.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v249) S1x200.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v250) S5000x200.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v250) S5000x200.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v254) S1x200.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v255) S1x200.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v256) S1x200.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v257) S1x200.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v259) S200x100.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v260) S1x100.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v261) S5000x100.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v261) S5000x100.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v265) S1x100.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v266) S1x100.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v267) S1x100.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v268) S1x100.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v269) S5000x100.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v286) S5000x100.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v288) S100x200.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v289) S1x200.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v290) S5000x200.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v290) S5000x200.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v294) S1x200.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v295) S1x200.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v296) S1x200.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v297) S1x200.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v299) S200x100.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v300) S1x100.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v301) S5000x100.size cc10_transform_7 reads10_7 true false 2 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

abbrev win11_0 : Pipeline.Window sig grid11 :=
  Pipeline.Window.ofSpec (Memref.whole main_v301) S5000x100.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v305) S1x100.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v306) S1x100.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v307) S1x100.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v308) S1x100.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v309) S5000x100.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v326) S5000x100.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v328) S100x200.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v329) S1x200.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v330) S5000x200.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v330) S5000x200.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v334) S1x200.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v335) S1x200.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v336) S1x200.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v337) S1x200.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v339) S200x100.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v340) S1x100.size cc13_transform_6 reads13_6 false true 1 stage13_6 sem13_6
    hrank13 hreads13_6 hinb13_6 nbuf13_6 (Memref.isWhole_whole _) hwx13_6 hstage13_6

abbrev win13_7 : Pipeline.Window sig grid13 :=
  Pipeline.Window.ofSpec (Memref.whole main_v341) S5000x100.size cc13_transform_7 reads13_7 true false 2 stage13_7 sem13_7
    hrank13 hreads13_7 hinb13_7 nbuf13_7 (Memref.isWhole_whole _) hwx13_7 hstage13_7

abbrev win13 : Fin 8 → Pipeline.Window sig grid13 := fun | 0 => win13_0 | 1 => win13_1 | 2 => win13_2 | 3 => win13_3 | 4 => win13_4 | 5 => win13_5 | 6 => win13_6 | 7 => win13_7 | ⟨_ + 8, h⟩ => absurd h (Nat.not_lt.2 (Nat.le_add_left _ _))
abbrev spec13 : Fin 8 → Pipeline.WinSpec sig grid13.rank := fun w => (win13 w).toWinSpec

abbrev win14_0 : Pipeline.Window sig grid14 :=
  Pipeline.Window.ofSpec (Memref.whole main_v341) S5000x100.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v345) S1x100.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v346) S1x100.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v347) S1x100.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v348) S1x100.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v349) S5000x100.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

class Facts : Prop extends Facts₀ where

variable [Facts]
-- ==== ReferenceIdeal.lean ====
abbrev S50000x9 : Shape := ⟨2, ![50000, 9]⟩
abbrev S2x800000 : Shape := ⟨2, ![2, 800000]⟩
abbrev S800000x3 : Shape := ⟨2, ![800000, 3]⟩
abbrev S50000 : Shape := ⟨1, ![50000]⟩
abbrev S9x128x100 : Shape := ⟨3, ![9, 128, 100]⟩
abbrev S3x16x100 : Shape := ⟨3, ![3, 16, 100]⟩
abbrev S5 : Shape := ⟨1, ![5]⟩
abbrev S5x100x200 : Shape := ⟨3, ![5, 100, 200]⟩
abbrev S5x200 : Shape := ⟨2, ![5, 200]⟩
abbrev S5x200x100 : Shape := ⟨3, ![5, 200, 100]⟩
abbrev S5x100 : Shape := ⟨2, ![5, 100]⟩
abbrev S100x2 : Shape := ⟨2, ![100, 2]⟩
abbrev S2 : Shape := ⟨1, ![2]⟩
abbrev S1x128x100 : Shape := ⟨3, ![1, 128, 100]⟩
abbrev S128x100 : Shape := ⟨2, ![128, 100]⟩
abbrev S50000x1 : Shape := ⟨2, ![50000, 1]⟩
abbrev S_ : Shape := ⟨0, ![]⟩
abbrev S50000x100 : Shape := ⟨2, ![50000, 100]⟩
abbrev S1x16x100 : Shape := ⟨3, ![1, 16, 100]⟩
abbrev S16x100 : Shape := ⟨2, ![16, 100]⟩
abbrev S800000x1 : Shape := ⟨2, ![800000, 1]⟩
abbrev S800000 : Shape := ⟨1, ![800000]⟩
abbrev S800000x100 : Shape := ⟨2, ![800000, 100]⟩
abbrev S1x800000 : Shape := ⟨2, ![1, 800000]⟩
abbrev S1 : Shape := ⟨1, ![1]⟩
abbrev S1x100x200 : Shape := ⟨3, ![1, 100, 200]⟩
abbrev S100x200 : Shape := ⟨2, ![100, 200]⟩
abbrev S50000x200 : Shape := ⟨2, ![50000, 200]⟩
abbrev S1x200 : Shape := ⟨2, ![1, 200]⟩
abbrev S200 : Shape := ⟨1, ![200]⟩
abbrev S1x200x100 : Shape := ⟨3, ![1, 200, 100]⟩
abbrev S200x100 : Shape := ⟨2, ![200, 100]⟩
abbrev S1x100 : Shape := ⟨2, ![1, 100]⟩
abbrev S100 : Shape := ⟨1, ![100]⟩
abbrev S512x100 : Shape := ⟨2, ![512, 100]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 908
  | .vmem => 0
  | .smem => 0
  | _ => 0

abbrev hbmTy0_0 (i : Nat) : BufTy := match i % 128 with
  | 0 => ⟨S50000x9, .i32⟩
  | 1 => ⟨S2x800000, .i32⟩
  | 2 => ⟨S800000x3, .i32⟩
  | 3 => ⟨S50000, .i32⟩
  | 4 => ⟨S9x128x100, .f32⟩
  | 5 => ⟨S3x16x100, .f32⟩
  | 6 => ⟨S5, .f32⟩
  | 7 => ⟨S5x100x200, .f32⟩
  | 8 => ⟨S5x200, .f32⟩
  | 9 => ⟨S5x200, .f32⟩
  | 10 => ⟨S5x200, .f32⟩
  | 11 => ⟨S5x200x100, .f32⟩
  | 12 => ⟨S5x100, .f32⟩
  | 13 => ⟨S5x100, .f32⟩
  | 14 => ⟨S5x100, .f32⟩
  | 15 => ⟨S100x2, .f32⟩
  | 16 => ⟨S2, .f32⟩
  | 17 => ⟨S1x128x100, .f32⟩
  | 18 => ⟨S128x100, .f32⟩
  | 19 => ⟨S50000x1, .i32⟩
  | 20 => ⟨S50000, .i32⟩
  | 21 => ⟨S_, .i32⟩
  | 22 => ⟨S50000, .i32⟩
  | 23 => ⟨S50000, .i1⟩
  | 24 => ⟨S_, .i32⟩
  | 25 => ⟨S50000, .i32⟩
  | 26 => ⟨S50000, .i32⟩
  | 27 => ⟨S50000, .i32⟩
  | 28 => ⟨S50000x1, .i32⟩
  | 29 => ⟨S50000x100, .f32⟩
  | 30 => ⟨S_, .f32⟩
  | 31 => ⟨S50000x100, .f32⟩
  | 32 => ⟨S50000x100, .f32⟩
  | 33 => ⟨S1x128x100, .f32⟩
  | 34 => ⟨S128x100, .f32⟩
  | 35 => ⟨S50000x1, .i32⟩
  | 36 => ⟨S50000, .i32⟩
  | 37 => ⟨S_, .i32⟩
  | 38 => ⟨S50000, .i32⟩
  | 39 => ⟨S50000, .i1⟩
  | 40 => ⟨S_, .i32⟩
  | 41 => ⟨S50000, .i32⟩
  | 42 => ⟨S50000, .i32⟩
  | 43 => ⟨S50000, .i32⟩
  | 44 => ⟨S50000x1, .i32⟩
  | 45 => ⟨S50000x100, .f32⟩
  | 46 => ⟨S50000x100, .f32⟩
  | 47 => ⟨S1x128x100, .f32⟩
  | 48 => ⟨S128x100, .f32⟩
  | 49 => ⟨S50000x1, .i32⟩
  | 50 => ⟨S50000, .i32⟩
  | 51 => ⟨S_, .i32⟩
  | 52 => ⟨S50000, .i32⟩
  | 53 => ⟨S50000, .i1⟩
  | 54 => ⟨S_, .i32⟩
  | 55 => ⟨S50000, .i32⟩
  | 56 => ⟨S50000, .i32⟩
  | 57 => ⟨S50000, .i32⟩
  | 58 => ⟨S50000x1, .i32⟩
  | 59 => ⟨S50000x100, .f32⟩
  | 60 => ⟨S50000x100, .f32⟩
  | 61 => ⟨S1x128x100, .f32⟩
  | 62 => ⟨S128x100, .f32⟩
  | 63 => ⟨S50000x1, .i32⟩
  | 64 => ⟨S50000, .i32⟩
  | 65 => ⟨S_, .i32⟩
  | 66 => ⟨S50000, .i32⟩
  | 67 => ⟨S50000, .i1⟩
  | 68 => ⟨S_, .i32⟩
  | 69 => ⟨S50000, .i32⟩
  | 70 => ⟨S50000, .i32⟩
  | 71 => ⟨S50000, .i32⟩
  | 72 => ⟨S50000x1, .i32⟩
  | 73 => ⟨S50000x100, .f32⟩
  | 74 => ⟨S50000x100, .f32⟩
  | 75 => ⟨S1x128x100, .f32⟩
  | 76 => ⟨S128x100, .f32⟩
  | 77 => ⟨S50000x1, .i32⟩
  | 78 => ⟨S50000, .i32⟩
  | 79 => ⟨S_, .i32⟩
  | 80 => ⟨S50000, .i32⟩
  | 81 => ⟨S50000, .i1⟩
  | 82 => ⟨S_, .i32⟩
  | 83 => ⟨S50000, .i32⟩
  | 84 => ⟨S50000, .i32⟩
  | 85 => ⟨S50000, .i32⟩
  | 86 => ⟨S50000x1, .i32⟩
  | 87 => ⟨S50000x100, .f32⟩
  | 88 => ⟨S50000x100, .f32⟩
  | 89 => ⟨S1x128x100, .f32⟩
  | 90 => ⟨S128x100, .f32⟩
  | 91 => ⟨S50000x1, .i32⟩
  | 92 => ⟨S50000, .i32⟩
  | 93 => ⟨S_, .i32⟩
  | 94 => ⟨S50000, .i32⟩
  | 95 => ⟨S50000, .i1⟩
  | 96 => ⟨S_, .i32⟩
  | 97 => ⟨S50000, .i32⟩
  | 98 => ⟨S50000, .i32⟩
  | 99 => ⟨S50000, .i32⟩
  | 100 => ⟨S50000x1, .i32⟩
  | 101 => ⟨S50000x100, .f32⟩
  | 102 => ⟨S50000x100, .f32⟩
  | 103 => ⟨S1x128x100, .f32⟩
  | 104 => ⟨S128x100, .f32⟩
  | 105 => ⟨S50000x1, .i32⟩
  | 106 => ⟨S50000, .i32⟩
  | 107 => ⟨S_, .i32⟩
  | 108 => ⟨S50000, .i32⟩
  | 109 => ⟨S50000, .i1⟩
  | 110 => ⟨S_, .i32⟩
  | 111 => ⟨S50000, .i32⟩
  | 112 => ⟨S50000, .i32⟩
  | 113 => ⟨S50000, .i32⟩
  | 114 => ⟨S50000x1, .i32⟩
  | 115 => ⟨S50000x100, .f32⟩
  | 116 => ⟨S50000x100, .f32⟩
  | 117 => ⟨S1x128x100, .f32⟩
  | 118 => ⟨S128x100, .f32⟩
  | 119 => ⟨S50000x1, .i32⟩
  | 120 => ⟨S50000, .i32⟩
  | 121 => ⟨S_, .i32⟩
  | 122 => ⟨S50000, .i32⟩
  | 123 => ⟨S50000, .i1⟩
  | 124 => ⟨S_, .i32⟩
  | 125 => ⟨S50000, .i32⟩
  | 126 => ⟨S50000, .i32⟩
  | 127 => ⟨S50000, .i32⟩
  | _ => ⟨S50000x9, .i32⟩

abbrev hbmTy0_1 (i : Nat) : BufTy := match i % 128 with
  | 0 => ⟨S50000x1, .i32⟩
  | 1 => ⟨S50000x100, .f32⟩
  | 2 => ⟨S50000x100, .f32⟩
  | 3 => ⟨S1x128x100, .f32⟩
  | 4 => ⟨S128x100, .f32⟩
  | 5 => ⟨S50000x1, .i32⟩
  | 6 => ⟨S50000, .i32⟩
  | 7 => ⟨S_, .i32⟩
  | 8 => ⟨S50000, .i32⟩
  | 9 => ⟨S50000, .i1⟩
  | 10 => ⟨S_, .i32⟩
  | 11 => ⟨S50000, .i32⟩
  | 12 => ⟨S50000, .i32⟩
  | 13 => ⟨S50000, .i32⟩
  | 14 => ⟨S50000x1, .i32⟩
  | 15 => ⟨S50000x100, .f32⟩
  | 16 => ⟨S50000x100, .f32⟩
  | 17 => ⟨S1x16x100, .f32⟩
  | 18 => ⟨S16x100, .f32⟩
  | 19 => ⟨S800000x1, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x100, .f32⟩
  | 30 => ⟨S_, .f32⟩
  | 31 => ⟨S800000x100, .f32⟩
  | 32 => ⟨S800000x100, .f32⟩
  | 33 => ⟨S1x16x100, .f32⟩
  | 34 => ⟨S16x100, .f32⟩
  | 35 => ⟨S800000x1, .i32⟩
  | 36 => ⟨S800000, .i32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x100, .f32⟩
  | 46 => ⟨S800000x100, .f32⟩
  | 47 => ⟨S1x16x100, .f32⟩
  | 48 => ⟨S16x100, .f32⟩
  | 49 => ⟨S800000x1, .i32⟩
  | 50 => ⟨S800000, .i32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x100, .f32⟩
  | 60 => ⟨S800000x100, .f32⟩
  | 61 => ⟨S1x800000, .i32⟩
  | 62 => ⟨S800000, .i32⟩
  | 63 => ⟨S1x800000, .i32⟩
  | 64 => ⟨S800000, .i32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x100, .f32⟩
  | 74 => ⟨S800000x100, .f32⟩
  | 75 => ⟨S_, .f32⟩
  | 76 => ⟨S50000x100, .f32⟩
  | 77 => ⟨S800000x1, .i32⟩
  | 78 => ⟨S50000x100, .f32⟩
  | 79 => ⟨S1, .f32⟩
  | 80 => ⟨S_, .f32⟩
  | 81 => ⟨S_, .f32⟩
  | 82 => ⟨S_, .f32⟩
  | 83 => ⟨S50000x100, .f32⟩
  | 84 => ⟨S50000x100, .f32⟩
  | 85 => ⟨S50000x100, .f32⟩
  | 86 => ⟨S1x100x200, .f32⟩
  | 87 => ⟨S100x200, .f32⟩
  | 88 => ⟨S50000x200, .f32⟩
  | 89 => ⟨S1x200, .f32⟩
  | 90 => ⟨S200, .f32⟩
  | 91 => ⟨S1x200, .f32⟩
  | 92 => ⟨S50000x200, .f32⟩
  | 93 => ⟨S50000x200, .f32⟩
  | 94 => ⟨S1x200, .f32⟩
  | 95 => ⟨S200, .f32⟩
  | 96 => ⟨S1x200, .f32⟩
  | 97 => ⟨S200, .f32⟩
  | 98 => ⟨S_, .f32⟩
  | 99 => ⟨S200, .f32⟩
  | 100 => ⟨S_, .f32⟩
  | 101 => ⟨S200, .f32⟩
  | 102 => ⟨S200, .f32⟩
  | 103 => ⟨S_, .i32⟩
  | 104 => ⟨S_, .f32⟩
  | 105 => ⟨S200, .f32⟩
  | 106 => ⟨S1x200, .f32⟩
  | 107 => ⟨S_, .f32⟩
  | 108 => ⟨S1x200, .f32⟩
  | 109 => ⟨S1x200, .f32⟩
  | 110 => ⟨S50000x200, .f32⟩
  | 111 => ⟨S50000x200, .f32⟩
  | 112 => ⟨S50000x200, .f32⟩
  | 113 => ⟨S_, .f32⟩
  | 114 => ⟨S_, .f32⟩
  | 115 => ⟨S_, .f32⟩
  | 116 => ⟨S_, .f32⟩
  | 117 => ⟨S200, .f32⟩
  | 118 => ⟨S200, .f32⟩
  | 119 => ⟨S200, .f32⟩
  | 120 => ⟨S_, .f32⟩
  | 121 => ⟨S_, .i1⟩
  | 122 => ⟨S_, .f32⟩
  | 123 => ⟨S_, .f32⟩
  | 124 => ⟨S200, .f32⟩
  | 125 => ⟨S200, .f32⟩
  | 126 => ⟨S1x200, .f32⟩
  | 127 => ⟨S50000x200, .f32⟩
  | _ => ⟨S50000x9, .i32⟩

abbrev hbmTy0_2 (i : Nat) : BufTy := match i % 128 with
  | 0 => ⟨S50000x200, .f32⟩
  | 1 => ⟨S_, .f32⟩
  | 2 => ⟨S200, .f32⟩
  | 3 => ⟨S200, .f32⟩
  | 4 => ⟨S200, .f32⟩
  | 5 => ⟨S1x200, .f32⟩
  | 6 => ⟨S50000x200, .f32⟩
  | 7 => ⟨S50000x200, .f32⟩
  | 8 => ⟨S1x200, .f32⟩
  | 9 => ⟨S50000x200, .f32⟩
  | 10 => ⟨S50000x200, .f32⟩
  | 11 => ⟨S1x200, .f32⟩
  | 12 => ⟨S50000x200, .f32⟩
  | 13 => ⟨S50000x200, .f32⟩
  | 14 => ⟨S_, .f32⟩
  | 15 => ⟨S50000x200, .f32⟩
  | 16 => ⟨S50000x200, .f32⟩
  | 17 => ⟨S1x200x100, .f32⟩
  | 18 => ⟨S200x100, .f32⟩
  | 19 => ⟨S50000x100, .f32⟩
  | 20 => ⟨S1x100, .f32⟩
  | 21 => ⟨S100, .f32⟩
  | 22 => ⟨S1x100, .f32⟩
  | 23 => ⟨S50000x100, .f32⟩
  | 24 => ⟨S50000x100, .f32⟩
  | 25 => ⟨S1x100, .f32⟩
  | 26 => ⟨S100, .f32⟩
  | 27 => ⟨S1x100, .f32⟩
  | 28 => ⟨S100, .f32⟩
  | 29 => ⟨S_, .f32⟩
  | 30 => ⟨S100, .f32⟩
  | 31 => ⟨S_, .f32⟩
  | 32 => ⟨S100, .f32⟩
  | 33 => ⟨S100, .f32⟩
  | 34 => ⟨S_, .i32⟩
  | 35 => ⟨S_, .f32⟩
  | 36 => ⟨S100, .f32⟩
  | 37 => ⟨S1x100, .f32⟩
  | 38 => ⟨S_, .f32⟩
  | 39 => ⟨S1x100, .f32⟩
  | 40 => ⟨S1x100, .f32⟩
  | 41 => ⟨S50000x100, .f32⟩
  | 42 => ⟨S50000x100, .f32⟩
  | 43 => ⟨S50000x100, .f32⟩
  | 44 => ⟨S_, .f32⟩
  | 45 => ⟨S_, .f32⟩
  | 46 => ⟨S_, .f32⟩
  | 47 => ⟨S_, .f32⟩
  | 48 => ⟨S100, .f32⟩
  | 49 => ⟨S100, .f32⟩
  | 50 => ⟨S100, .f32⟩
  | 51 => ⟨S_, .f32⟩
  | 52 => ⟨S_, .i1⟩
  | 53 => ⟨S_, .f32⟩
  | 54 => ⟨S_, .f32⟩
  | 55 => ⟨S100, .f32⟩
  | 56 => ⟨S100, .f32⟩
  | 57 => ⟨S1x100, .f32⟩
  | 58 => ⟨S50000x100, .f32⟩
  | 59 => ⟨S50000x100, .f32⟩
  | 60 => ⟨S_, .f32⟩
  | 61 => ⟨S100, .f32⟩
  | 62 => ⟨S100, .f32⟩
  | 63 => ⟨S100, .f32⟩
  | 64 => ⟨S1x100, .f32⟩
  | 65 => ⟨S50000x100, .f32⟩
  | 66 => ⟨S50000x100, .f32⟩
  | 67 => ⟨S1x100, .f32⟩
  | 68 => ⟨S50000x100, .f32⟩
  | 69 => ⟨S50000x100, .f32⟩
  | 70 => ⟨S1x100, .f32⟩
  | 71 => ⟨S50000x100, .f32⟩
  | 72 => ⟨S50000x100, .f32⟩
  | 73 => ⟨S_, .f32⟩
  | 74 => ⟨S50000x100, .f32⟩
  | 75 => ⟨S50000x100, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x100, .f32⟩
  | 85 => ⟨S800000x100, .f32⟩
  | 86 => ⟨S_, .f32⟩
  | 87 => ⟨S50000x100, .f32⟩
  | 88 => ⟨S800000x1, .i32⟩
  | 89 => ⟨S50000x100, .f32⟩
  | 90 => ⟨S1, .f32⟩
  | 91 => ⟨S_, .f32⟩
  | 92 => ⟨S_, .f32⟩
  | 93 => ⟨S_, .f32⟩
  | 94 => ⟨S50000x100, .f32⟩
  | 95 => ⟨S50000x100, .f32⟩
  | 96 => ⟨S50000x100, .f32⟩
  | 97 => ⟨S1x100x200, .f32⟩
  | 98 => ⟨S100x200, .f32⟩
  | 99 => ⟨S50000x200, .f32⟩
  | 100 => ⟨S1x200, .f32⟩
  | 101 => ⟨S200, .f32⟩
  | 102 => ⟨S1x200, .f32⟩
  | 103 => ⟨S50000x200, .f32⟩
  | 104 => ⟨S50000x200, .f32⟩
  | 105 => ⟨S1x200, .f32⟩
  | 106 => ⟨S200, .f32⟩
  | 107 => ⟨S1x200, .f32⟩
  | 108 => ⟨S200, .f32⟩
  | 109 => ⟨S_, .f32⟩
  | 110 => ⟨S200, .f32⟩
  | 111 => ⟨S_, .f32⟩
  | 112 => ⟨S200, .f32⟩
  | 113 => ⟨S200, .f32⟩
  | 114 => ⟨S_, .i32⟩
  | 115 => ⟨S_, .f32⟩
  | 116 => ⟨S200, .f32⟩
  | 117 => ⟨S1x200, .f32⟩
  | 118 => ⟨S_, .f32⟩
  | 119 => ⟨S1x200, .f32⟩
  | 120 => ⟨S1x200, .f32⟩
  | 121 => ⟨S50000x200, .f32⟩
  | 122 => ⟨S50000x200, .f32⟩
  | 123 => ⟨S50000x200, .f32⟩
  | 124 => ⟨S_, .f32⟩
  | 125 => ⟨S_, .f32⟩
  | 126 => ⟨S_, .f32⟩
  | 127 => ⟨S_, .f32⟩
  | _ => ⟨S50000x9, .i32⟩

abbrev hbmTy0_3 (i : Nat) : BufTy := match i % 128 with
  | 0 => ⟨S200, .f32⟩
  | 1 => ⟨S200, .f32⟩
  | 2 => ⟨S200, .f32⟩
  | 3 => ⟨S_, .f32⟩
  | 4 => ⟨S_, .i1⟩
  | 5 => ⟨S_, .f32⟩
  | 6 => ⟨S_, .f32⟩
  | 7 => ⟨S200, .f32⟩
  | 8 => ⟨S200, .f32⟩
  | 9 => ⟨S1x200, .f32⟩
  | 10 => ⟨S50000x200, .f32⟩
  | 11 => ⟨S50000x200, .f32⟩
  | 12 => ⟨S_, .f32⟩
  | 13 => ⟨S200, .f32⟩
  | 14 => ⟨S200, .f32⟩
  | 15 => ⟨S200, .f32⟩
  | 16 => ⟨S1x200, .f32⟩
  | 17 => ⟨S50000x200, .f32⟩
  | 18 => ⟨S50000x200, .f32⟩
  | 19 => ⟨S1x200, .f32⟩
  | 20 => ⟨S50000x200, .f32⟩
  | 21 => ⟨S50000x200, .f32⟩
  | 22 => ⟨S1x200, .f32⟩
  | 23 => ⟨S50000x200, .f32⟩
  | 24 => ⟨S50000x200, .f32⟩
  | 25 => ⟨S_, .f32⟩
  | 26 => ⟨S50000x200, .f32⟩
  | 27 => ⟨S50000x200, .f32⟩
  | 28 => ⟨S1x200x100, .f32⟩
  | 29 => ⟨S200x100, .f32⟩
  | 30 => ⟨S50000x100, .f32⟩
  | 31 => ⟨S1x100, .f32⟩
  | 32 => ⟨S100, .f32⟩
  | 33 => ⟨S1x100, .f32⟩
  | 34 => ⟨S50000x100, .f32⟩
  | 35 => ⟨S50000x100, .f32⟩
  | 36 => ⟨S1x100, .f32⟩
  | 37 => ⟨S100, .f32⟩
  | 38 => ⟨S1x100, .f32⟩
  | 39 => ⟨S100, .f32⟩
  | 40 => ⟨S_, .f32⟩
  | 41 => ⟨S100, .f32⟩
  | 42 => ⟨S_, .f32⟩
  | 43 => ⟨S100, .f32⟩
  | 44 => ⟨S100, .f32⟩
  | 45 => ⟨S_, .i32⟩
  | 46 => ⟨S_, .f32⟩
  | 47 => ⟨S100, .f32⟩
  | 48 => ⟨S1x100, .f32⟩
  | 49 => ⟨S_, .f32⟩
  | 50 => ⟨S1x100, .f32⟩
  | 51 => ⟨S1x100, .f32⟩
  | 52 => ⟨S50000x100, .f32⟩
  | 53 => ⟨S50000x100, .f32⟩
  | 54 => ⟨S50000x100, .f32⟩
  | 55 => ⟨S_, .f32⟩
  | 56 => ⟨S_, .f32⟩
  | 57 => ⟨S_, .f32⟩
  | 58 => ⟨S_, .f32⟩
  | 59 => ⟨S100, .f32⟩
  | 60 => ⟨S100, .f32⟩
  | 61 => ⟨S100, .f32⟩
  | 62 => ⟨S_, .f32⟩
  | 63 => ⟨S_, .i1⟩
  | 64 => ⟨S_, .f32⟩
  | 65 => ⟨S_, .f32⟩
  | 66 => ⟨S100, .f32⟩
  | 67 => ⟨S100, .f32⟩
  | 68 => ⟨S1x100, .f32⟩
  | 69 => ⟨S50000x100, .f32⟩
  | 70 => ⟨S50000x100, .f32⟩
  | 71 => ⟨S_, .f32⟩
  | 72 => ⟨S100, .f32⟩
  | 73 => ⟨S100, .f32⟩
  | 74 => ⟨S100, .f32⟩
  | 75 => ⟨S1x100, .f32⟩
  | 76 => ⟨S50000x100, .f32⟩
  | 77 => ⟨S50000x100, .f32⟩
  | 78 => ⟨S1x100, .f32⟩
  | 79 => ⟨S50000x100, .f32⟩
  | 80 => ⟨S50000x100, .f32⟩
  | 81 => ⟨S1x100, .f32⟩
  | 82 => ⟨S50000x100, .f32⟩
  | 83 => ⟨S50000x100, .f32⟩
  | 84 => ⟨S_, .f32⟩
  | 85 => ⟨S50000x100, .f32⟩
  | 86 => ⟨S50000x100, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x100, .f32⟩
  | 96 => ⟨S800000x100, .f32⟩
  | 97 => ⟨S_, .f32⟩
  | 98 => ⟨S50000x100, .f32⟩
  | 99 => ⟨S800000x1, .i32⟩
  | 100 => ⟨S50000x100, .f32⟩
  | 101 => ⟨S1, .f32⟩
  | 102 => ⟨S_, .f32⟩
  | 103 => ⟨S_, .f32⟩
  | 104 => ⟨S_, .f32⟩
  | 105 => ⟨S50000x100, .f32⟩
  | 106 => ⟨S50000x100, .f32⟩
  | 107 => ⟨S50000x100, .f32⟩
  | 108 => ⟨S1x100x200, .f32⟩
  | 109 => ⟨S100x200, .f32⟩
  | 110 => ⟨S50000x200, .f32⟩
  | 111 => ⟨S1x200, .f32⟩
  | 112 => ⟨S200, .f32⟩
  | 113 => ⟨S1x200, .f32⟩
  | 114 => ⟨S50000x200, .f32⟩
  | 115 => ⟨S50000x200, .f32⟩
  | 116 => ⟨S1x200, .f32⟩
  | 117 => ⟨S200, .f32⟩
  | 118 => ⟨S1x200, .f32⟩
  | 119 => ⟨S200, .f32⟩
  | 120 => ⟨S_, .f32⟩
  | 121 => ⟨S200, .f32⟩
  | 122 => ⟨S_, .f32⟩
  | 123 => ⟨S200, .f32⟩
  | 124 => ⟨S200, .f32⟩
  | 125 => ⟨S_, .i32⟩
  | 126 => ⟨S_, .f32⟩
  | 127 => ⟨S200, .f32⟩
  | _ => ⟨S50000x9, .i32⟩

abbrev hbmTy0_4 (i : Nat) : BufTy := match i % 128 with
  | 0 => ⟨S1x200, .f32⟩
  | 1 => ⟨S_, .f32⟩
  | 2 => ⟨S1x200, .f32⟩
  | 3 => ⟨S1x200, .f32⟩
  | 4 => ⟨S50000x200, .f32⟩
  | 5 => ⟨S50000x200, .f32⟩
  | 6 => ⟨S50000x200, .f32⟩
  | 7 => ⟨S_, .f32⟩
  | 8 => ⟨S_, .f32⟩
  | 9 => ⟨S_, .f32⟩
  | 10 => ⟨S_, .f32⟩
  | 11 => ⟨S200, .f32⟩
  | 12 => ⟨S200, .f32⟩
  | 13 => ⟨S200, .f32⟩
  | 14 => ⟨S_, .f32⟩
  | 15 => ⟨S_, .i1⟩
  | 16 => ⟨S_, .f32⟩
  | 17 => ⟨S_, .f32⟩
  | 18 => ⟨S200, .f32⟩
  | 19 => ⟨S200, .f32⟩
  | 20 => ⟨S1x200, .f32⟩
  | 21 => ⟨S50000x200, .f32⟩
  | 22 => ⟨S50000x200, .f32⟩
  | 23 => ⟨S_, .f32⟩
  | 24 => ⟨S200, .f32⟩
  | 25 => ⟨S200, .f32⟩
  | 26 => ⟨S200, .f32⟩
  | 27 => ⟨S1x200, .f32⟩
  | 28 => ⟨S50000x200, .f32⟩
  | 29 => ⟨S50000x200, .f32⟩
  | 30 => ⟨S1x200, .f32⟩
  | 31 => ⟨S50000x200, .f32⟩
  | 32 => ⟨S50000x200, .f32⟩
  | 33 => ⟨S1x200, .f32⟩
  | 34 => ⟨S50000x200, .f32⟩
  | 35 => ⟨S50000x200, .f32⟩
  | 36 => ⟨S_, .f32⟩
  | 37 => ⟨S50000x200, .f32⟩
  | 38 => ⟨S50000x200, .f32⟩
  | 39 => ⟨S1x200x100, .f32⟩
  | 40 => ⟨S200x100, .f32⟩
  | 41 => ⟨S50000x100, .f32⟩
  | 42 => ⟨S1x100, .f32⟩
  | 43 => ⟨S100, .f32⟩
  | 44 => ⟨S1x100, .f32⟩
  | 45 => ⟨S50000x100, .f32⟩
  | 46 => ⟨S50000x100, .f32⟩
  | 47 => ⟨S1x100, .f32⟩
  | 48 => ⟨S100, .f32⟩
  | 49 => ⟨S1x100, .f32⟩
  | 50 => ⟨S100, .f32⟩
  | 51 => ⟨S_, .f32⟩
  | 52 => ⟨S100, .f32⟩
  | 53 => ⟨S_, .f32⟩
  | 54 => ⟨S100, .f32⟩
  | 55 => ⟨S100, .f32⟩
  | 56 => ⟨S_, .i32⟩
  | 57 => ⟨S_, .f32⟩
  | 58 => ⟨S100, .f32⟩
  | 59 => ⟨S1x100, .f32⟩
  | 60 => ⟨S_, .f32⟩
  | 61 => ⟨S1x100, .f32⟩
  | 62 => ⟨S1x100, .f32⟩
  | 63 => ⟨S50000x100, .f32⟩
  | 64 => ⟨S50000x100, .f32⟩
  | 65 => ⟨S50000x100, .f32⟩
  | 66 => ⟨S_, .f32⟩
  | 67 => ⟨S_, .f32⟩
  | 68 => ⟨S_, .f32⟩
  | 69 => ⟨S_, .f32⟩
  | 70 => ⟨S100, .f32⟩
  | 71 => ⟨S100, .f32⟩
  | 72 => ⟨S100, .f32⟩
  | 73 => ⟨S_, .f32⟩
  | 74 => ⟨S_, .i1⟩
  | 75 => ⟨S_, .f32⟩
  | 76 => ⟨S_, .f32⟩
  | 77 => ⟨S100, .f32⟩
  | 78 => ⟨S100, .f32⟩
  | 79 => ⟨S1x100, .f32⟩
  | 80 => ⟨S50000x100, .f32⟩
  | 81 => ⟨S50000x100, .f32⟩
  | 82 => ⟨S_, .f32⟩
  | 83 => ⟨S100, .f32⟩
  | 84 => ⟨S100, .f32⟩
  | 85 => ⟨S100, .f32⟩
  | 86 => ⟨S1x100, .f32⟩
  | 87 => ⟨S50000x100, .f32⟩
  | 88 => ⟨S50000x100, .f32⟩
  | 89 => ⟨S1x100, .f32⟩
  | 90 => ⟨S50000x100, .f32⟩
  | 91 => ⟨S50000x100, .f32⟩
  | 92 => ⟨S1x100, .f32⟩
  | 93 => ⟨S50000x100, .f32⟩
  | 94 => ⟨S50000x100, .f32⟩
  | 95 => ⟨S_, .f32⟩
  | 96 => ⟨S50000x100, .f32⟩
  | 97 => ⟨S50000x100, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x100, .f32⟩
  | 107 => ⟨S800000x100, .f32⟩
  | 108 => ⟨S_, .f32⟩
  | 109 => ⟨S50000x100, .f32⟩
  | 110 => ⟨S800000x1, .i32⟩
  | 111 => ⟨S50000x100, .f32⟩
  | 112 => ⟨S1, .f32⟩
  | 113 => ⟨S_, .f32⟩
  | 114 => ⟨S_, .f32⟩
  | 115 => ⟨S_, .f32⟩
  | 116 => ⟨S50000x100, .f32⟩
  | 117 => ⟨S50000x100, .f32⟩
  | 118 => ⟨S50000x100, .f32⟩
  | 119 => ⟨S1x100x200, .f32⟩
  | 120 => ⟨S100x200, .f32⟩
  | 121 => ⟨S50000x200, .f32⟩
  | 122 => ⟨S1x200, .f32⟩
  | 123 => ⟨S200, .f32⟩
  | 124 => ⟨S1x200, .f32⟩
  | 125 => ⟨S50000x200, .f32⟩
  | 126 => ⟨S50000x200, .f32⟩
  | 127 => ⟨S1x200, .f32⟩
  | _ => ⟨S50000x9, .i32⟩

abbrev hbmTy0_5 (i : Nat) : BufTy := match i % 128 with
  | 0 => ⟨S200, .f32⟩
  | 1 => ⟨S1x200, .f32⟩
  | 2 => ⟨S200, .f32⟩
  | 3 => ⟨S_, .f32⟩
  | 4 => ⟨S200, .f32⟩
  | 5 => ⟨S_, .f32⟩
  | 6 => ⟨S200, .f32⟩
  | 7 => ⟨S200, .f32⟩
  | 8 => ⟨S_, .i32⟩
  | 9 => ⟨S_, .f32⟩
  | 10 => ⟨S200, .f32⟩
  | 11 => ⟨S1x200, .f32⟩
  | 12 => ⟨S_, .f32⟩
  | 13 => ⟨S1x200, .f32⟩
  | 14 => ⟨S1x200, .f32⟩
  | 15 => ⟨S50000x200, .f32⟩
  | 16 => ⟨S50000x200, .f32⟩
  | 17 => ⟨S50000x200, .f32⟩
  | 18 => ⟨S_, .f32⟩
  | 19 => ⟨S_, .f32⟩
  | 20 => ⟨S_, .f32⟩
  | 21 => ⟨S_, .f32⟩
  | 22 => ⟨S200, .f32⟩
  | 23 => ⟨S200, .f32⟩
  | 24 => ⟨S200, .f32⟩
  | 25 => ⟨S_, .f32⟩
  | 26 => ⟨S_, .i1⟩
  | 27 => ⟨S_, .f32⟩
  | 28 => ⟨S_, .f32⟩
  | 29 => ⟨S200, .f32⟩
  | 30 => ⟨S200, .f32⟩
  | 31 => ⟨S1x200, .f32⟩
  | 32 => ⟨S50000x200, .f32⟩
  | 33 => ⟨S50000x200, .f32⟩
  | 34 => ⟨S_, .f32⟩
  | 35 => ⟨S200, .f32⟩
  | 36 => ⟨S200, .f32⟩
  | 37 => ⟨S200, .f32⟩
  | 38 => ⟨S1x200, .f32⟩
  | 39 => ⟨S50000x200, .f32⟩
  | 40 => ⟨S50000x200, .f32⟩
  | 41 => ⟨S1x200, .f32⟩
  | 42 => ⟨S50000x200, .f32⟩
  | 43 => ⟨S50000x200, .f32⟩
  | 44 => ⟨S1x200, .f32⟩
  | 45 => ⟨S50000x200, .f32⟩
  | 46 => ⟨S50000x200, .f32⟩
  | 47 => ⟨S_, .f32⟩
  | 48 => ⟨S50000x200, .f32⟩
  | 49 => ⟨S50000x200, .f32⟩
  | 50 => ⟨S1x200x100, .f32⟩
  | 51 => ⟨S200x100, .f32⟩
  | 52 => ⟨S50000x100, .f32⟩
  | 53 => ⟨S1x100, .f32⟩
  | 54 => ⟨S100, .f32⟩
  | 55 => ⟨S1x100, .f32⟩
  | 56 => ⟨S50000x100, .f32⟩
  | 57 => ⟨S50000x100, .f32⟩
  | 58 => ⟨S1x100, .f32⟩
  | 59 => ⟨S100, .f32⟩
  | 60 => ⟨S1x100, .f32⟩
  | 61 => ⟨S100, .f32⟩
  | 62 => ⟨S_, .f32⟩
  | 63 => ⟨S100, .f32⟩
  | 64 => ⟨S_, .f32⟩
  | 65 => ⟨S100, .f32⟩
  | 66 => ⟨S100, .f32⟩
  | 67 => ⟨S_, .i32⟩
  | 68 => ⟨S_, .f32⟩
  | 69 => ⟨S100, .f32⟩
  | 70 => ⟨S1x100, .f32⟩
  | 71 => ⟨S_, .f32⟩
  | 72 => ⟨S1x100, .f32⟩
  | 73 => ⟨S1x100, .f32⟩
  | 74 => ⟨S50000x100, .f32⟩
  | 75 => ⟨S50000x100, .f32⟩
  | 76 => ⟨S50000x100, .f32⟩
  | 77 => ⟨S_, .f32⟩
  | 78 => ⟨S_, .f32⟩
  | 79 => ⟨S_, .f32⟩
  | 80 => ⟨S_, .f32⟩
  | 81 => ⟨S100, .f32⟩
  | 82 => ⟨S100, .f32⟩
  | 83 => ⟨S100, .f32⟩
  | 84 => ⟨S_, .f32⟩
  | 85 => ⟨S_, .i1⟩
  | 86 => ⟨S_, .f32⟩
  | 87 => ⟨S_, .f32⟩
  | 88 => ⟨S100, .f32⟩
  | 89 => ⟨S100, .f32⟩
  | 90 => ⟨S1x100, .f32⟩
  | 91 => ⟨S50000x100, .f32⟩
  | 92 => ⟨S50000x100, .f32⟩
  | 93 => ⟨S_, .f32⟩
  | 94 => ⟨S100, .f32⟩
  | 95 => ⟨S100, .f32⟩
  | 96 => ⟨S100, .f32⟩
  | 97 => ⟨S1x100, .f32⟩
  | 98 => ⟨S50000x100, .f32⟩
  | 99 => ⟨S50000x100, .f32⟩
  | 100 => ⟨S1x100, .f32⟩
  | 101 => ⟨S50000x100, .f32⟩
  | 102 => ⟨S50000x100, .f32⟩
  | 103 => ⟨S1x100, .f32⟩
  | 104 => ⟨S50000x100, .f32⟩
  | 105 => ⟨S50000x100, .f32⟩
  | 106 => ⟨S_, .f32⟩
  | 107 => ⟨S50000x100, .f32⟩
  | 108 => ⟨S50000x100, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x100, .f32⟩
  | 118 => ⟨S800000x100, .f32⟩
  | 119 => ⟨S_, .f32⟩
  | 120 => ⟨S50000x100, .f32⟩
  | 121 => ⟨S800000x1, .i32⟩
  | 122 => ⟨S50000x100, .f32⟩
  | 123 => ⟨S1, .f32⟩
  | 124 => ⟨S_, .f32⟩
  | 125 => ⟨S_, .f32⟩
  | 126 => ⟨S_, .f32⟩
  | 127 => ⟨S50000x100, .f32⟩
  | _ => ⟨S50000x9, .i32⟩

abbrev hbmTy0_6 (i : Nat) : BufTy := match i % 128 with
  | 0 => ⟨S50000x100, .f32⟩
  | 1 => ⟨S50000x100, .f32⟩
  | 2 => ⟨S1x100x200, .f32⟩
  | 3 => ⟨S100x200, .f32⟩
  | 4 => ⟨S50000x200, .f32⟩
  | 5 => ⟨S1x200, .f32⟩
  | 6 => ⟨S200, .f32⟩
  | 7 => ⟨S1x200, .f32⟩
  | 8 => ⟨S50000x200, .f32⟩
  | 9 => ⟨S50000x200, .f32⟩
  | 10 => ⟨S1x200, .f32⟩
  | 11 => ⟨S200, .f32⟩
  | 12 => ⟨S1x200, .f32⟩
  | 13 => ⟨S200, .f32⟩
  | 14 => ⟨S_, .f32⟩
  | 15 => ⟨S200, .f32⟩
  | 16 => ⟨S_, .f32⟩
  | 17 => ⟨S200, .f32⟩
  | 18 => ⟨S200, .f32⟩
  | 19 => ⟨S_, .i32⟩
  | 20 => ⟨S_, .f32⟩
  | 21 => ⟨S200, .f32⟩
  | 22 => ⟨S1x200, .f32⟩
  | 23 => ⟨S_, .f32⟩
  | 24 => ⟨S1x200, .f32⟩
  | 25 => ⟨S1x200, .f32⟩
  | 26 => ⟨S50000x200, .f32⟩
  | 27 => ⟨S50000x200, .f32⟩
  | 28 => ⟨S50000x200, .f32⟩
  | 29 => ⟨S_, .f32⟩
  | 30 => ⟨S_, .f32⟩
  | 31 => ⟨S_, .f32⟩
  | 32 => ⟨S_, .f32⟩
  | 33 => ⟨S200, .f32⟩
  | 34 => ⟨S200, .f32⟩
  | 35 => ⟨S200, .f32⟩
  | 36 => ⟨S_, .f32⟩
  | 37 => ⟨S_, .i1⟩
  | 38 => ⟨S_, .f32⟩
  | 39 => ⟨S_, .f32⟩
  | 40 => ⟨S200, .f32⟩
  | 41 => ⟨S200, .f32⟩
  | 42 => ⟨S1x200, .f32⟩
  | 43 => ⟨S50000x200, .f32⟩
  | 44 => ⟨S50000x200, .f32⟩
  | 45 => ⟨S_, .f32⟩
  | 46 => ⟨S200, .f32⟩
  | 47 => ⟨S200, .f32⟩
  | 48 => ⟨S200, .f32⟩
  | 49 => ⟨S1x200, .f32⟩
  | 50 => ⟨S50000x200, .f32⟩
  | 51 => ⟨S50000x200, .f32⟩
  | 52 => ⟨S1x200, .f32⟩
  | 53 => ⟨S50000x200, .f32⟩
  | 54 => ⟨S50000x200, .f32⟩
  | 55 => ⟨S1x200, .f32⟩
  | 56 => ⟨S50000x200, .f32⟩
  | 57 => ⟨S50000x200, .f32⟩
  | 58 => ⟨S_, .f32⟩
  | 59 => ⟨S50000x200, .f32⟩
  | 60 => ⟨S50000x200, .f32⟩
  | 61 => ⟨S1x200x100, .f32⟩
  | 62 => ⟨S200x100, .f32⟩
  | 63 => ⟨S50000x100, .f32⟩
  | 64 => ⟨S1x100, .f32⟩
  | 65 => ⟨S100, .f32⟩
  | 66 => ⟨S1x100, .f32⟩
  | 67 => ⟨S50000x100, .f32⟩
  | 68 => ⟨S50000x100, .f32⟩
  | 69 => ⟨S1x100, .f32⟩
  | 70 => ⟨S100, .f32⟩
  | 71 => ⟨S1x100, .f32⟩
  | 72 => ⟨S100, .f32⟩
  | 73 => ⟨S_, .f32⟩
  | 74 => ⟨S100, .f32⟩
  | 75 => ⟨S_, .f32⟩
  | 76 => ⟨S100, .f32⟩
  | 77 => ⟨S100, .f32⟩
  | 78 => ⟨S_, .i32⟩
  | 79 => ⟨S_, .f32⟩
  | 80 => ⟨S100, .f32⟩
  | 81 => ⟨S1x100, .f32⟩
  | 82 => ⟨S_, .f32⟩
  | 83 => ⟨S1x100, .f32⟩
  | 84 => ⟨S1x100, .f32⟩
  | 85 => ⟨S50000x100, .f32⟩
  | 86 => ⟨S50000x100, .f32⟩
  | 87 => ⟨S50000x100, .f32⟩
  | 88 => ⟨S_, .f32⟩
  | 89 => ⟨S_, .f32⟩
  | 90 => ⟨S_, .f32⟩
  | 91 => ⟨S_, .f32⟩
  | 92 => ⟨S100, .f32⟩
  | 93 => ⟨S100, .f32⟩
  | 94 => ⟨S100, .f32⟩
  | 95 => ⟨S_, .f32⟩
  | 96 => ⟨S_, .i1⟩
  | 97 => ⟨S_, .f32⟩
  | 98 => ⟨S_, .f32⟩
  | 99 => ⟨S100, .f32⟩
  | 100 => ⟨S100, .f32⟩
  | 101 => ⟨S1x100, .f32⟩
  | 102 => ⟨S50000x100, .f32⟩
  | 103 => ⟨S50000x100, .f32⟩
  | 104 => ⟨S_, .f32⟩
  | 105 => ⟨S100, .f32⟩
  | 106 => ⟨S100, .f32⟩
  | 107 => ⟨S100, .f32⟩
  | 108 => ⟨S1x100, .f32⟩
  | 109 => ⟨S50000x100, .f32⟩
  | 110 => ⟨S50000x100, .f32⟩
  | 111 => ⟨S1x100, .f32⟩
  | 112 => ⟨S50000x100, .f32⟩
  | 113 => ⟨S50000x100, .f32⟩
  | 114 => ⟨S1x100, .f32⟩
  | 115 => ⟨S50000x100, .f32⟩
  | 116 => ⟨S50000x100, .f32⟩
  | 117 => ⟨S_, .f32⟩
  | 118 => ⟨S50000x100, .f32⟩
  | 119 => ⟨S50000x100, .f32⟩
  | 120 => ⟨S_, .f32⟩
  | 121 => ⟨S512x100, .f32⟩
  | 122 => ⟨S50000x1, .i32⟩
  | 123 => ⟨S512x100, .f32⟩
  | 124 => ⟨S_, .f32⟩
  | 125 => ⟨S50000, .f32⟩
  | 126 => ⟨S_, .f32⟩
  | 127 => ⟨S512, .f32⟩
  | _ => ⟨S50000x9, .i32⟩

abbrev hbmTy0_7 (i : Nat) : BufTy := match i % 128 with
  | 0 => ⟨S50000x1, .i32⟩
  | 1 => ⟨S512, .f32⟩
  | 2 => ⟨S_, .f32⟩
  | 3 => ⟨S512, .f32⟩
  | 4 => ⟨S512, .f32⟩
  | 5 => ⟨S512x1, .f32⟩
  | 6 => ⟨S512x100, .f32⟩
  | 7 => ⟨S512x100, .f32⟩
  | 8 => ⟨S512x2, .f32⟩
  | 9 => ⟨S1x2, .f32⟩
  | 10 => ⟨S512x2, .f32⟩
  | 11 => ⟨S512x2, .f32⟩
  | _ => ⟨S50000x9, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S50000x9, .i32⟩

abbrev bufTy : (tb : Table) → Fin (tcTables nBuf tb) → BufTy
  | .hbm, ⟨i, _⟩ => hbmTy i
  | _, _ => ⟨S50000x9, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_1 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_3 : Ref sig .tc := ⟨.hbm, 51, rfl⟩
abbrev main_v29 : Ref sig .tc := ⟨.hbm, 52, rfl⟩
abbrev main_v30 : Ref sig .tc := ⟨.hbm, 53, rfl⟩
abbrev main_c_4 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_5 : Ref sig .tc := ⟨.hbm, 65, rfl⟩
abbrev main_v41 : Ref sig .tc := ⟨.hbm, 66, rfl⟩
abbrev main_v42 : Ref sig .tc := ⟨.hbm, 67, rfl⟩
abbrev main_c_6 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_7 : Ref sig .tc := ⟨.hbm, 79, rfl⟩
abbrev main_v53 : Ref sig .tc := ⟨.hbm, 80, rfl⟩
abbrev main_v54 : Ref sig .tc := ⟨.hbm, 81, rfl⟩
abbrev main_c_8 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_9 : Ref sig .tc := ⟨.hbm, 93, rfl⟩
abbrev main_v65 : Ref sig .tc := ⟨.hbm, 94, rfl⟩
abbrev main_v66 : Ref sig .tc := ⟨.hbm, 95, rfl⟩
abbrev main_c_10 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_11 : Ref sig .tc := ⟨.hbm, 107, rfl⟩
abbrev main_v77 : Ref sig .tc := ⟨.hbm, 108, rfl⟩
abbrev main_v78 : Ref sig .tc := ⟨.hbm, 109, rfl⟩
abbrev main_c_12 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_c_13 : Ref sig .tc := ⟨.hbm, 121, rfl⟩
abbrev main_v89 : Ref sig .tc := ⟨.hbm, 122, rfl⟩
abbrev main_v90 : Ref sig .tc := ⟨.hbm, 123, rfl⟩
abbrev main_c_14 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_c_15 : Ref sig .tc := ⟨.hbm, 135, rfl⟩
abbrev main_v101 : Ref sig .tc := ⟨.hbm, 136, rfl⟩
abbrev main_v102 : Ref sig .tc := ⟨.hbm, 137, rfl⟩
abbrev main_c_16 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_c_17 : Ref sig .tc := ⟨.hbm, 149, rfl⟩
abbrev main_v113 : Ref sig .tc := ⟨.hbm, 150, rfl⟩
abbrev main_v114 : Ref sig .tc := ⟨.hbm, 151, rfl⟩
abbrev main_c_18 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_19 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_c_20 : Ref sig .tc := ⟨.hbm, 165, rfl⟩
abbrev main_v126 : Ref sig .tc := ⟨.hbm, 166, rfl⟩
abbrev main_v127 : Ref sig .tc := ⟨.hbm, 167, rfl⟩
abbrev main_c_21 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_c_22 : Ref sig .tc := ⟨.hbm, 179, rfl⟩
abbrev main_v138 : Ref sig .tc := ⟨.hbm, 180, rfl⟩
abbrev main_v139 : Ref sig .tc := ⟨.hbm, 181, rfl⟩
abbrev main_c_23 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_c_24 : Ref sig .tc := ⟨.hbm, 193, rfl⟩
abbrev main_v150 : Ref sig .tc := ⟨.hbm, 194, rfl⟩
abbrev main_v151 : Ref sig .tc := ⟨.hbm, 195, rfl⟩
abbrev main_c_25 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_cst_26 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_cst_27 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_cst_28 : Ref sig .tc := ⟨.hbm, 226, rfl⟩
abbrev main_v179 : Ref sig .tc := ⟨.hbm, 227, rfl⟩
abbrev main_cst_29 : Ref sig .tc := ⟨.hbm, 228, rfl⟩
abbrev main_v180 : Ref sig .tc := ⟨.hbm, 229, rfl⟩
abbrev main_v181 : Ref sig .tc := ⟨.hbm, 230, rfl⟩
abbrev main_c_30 : Ref sig .tc := ⟨.hbm, 231, rfl⟩
abbrev main_call0_cst : Ref sig .tc := ⟨.hbm, 232, rfl⟩
abbrev main_call0_v0 : Ref sig .tc := ⟨.hbm, 233, rfl⟩
abbrev main_call0_v1 : Ref sig .tc := ⟨.hbm, 234, rfl⟩
abbrev main_call0_cst_0 : Ref sig .tc := ⟨.hbm, 235, rfl⟩
abbrev main_call0_v2 : Ref sig .tc := ⟨.hbm, 236, rfl⟩
abbrev main_call0_v3 : Ref sig .tc := ⟨.hbm, 237, rfl⟩
abbrev main_call0_v4 : Ref sig .tc := ⟨.hbm, 238, rfl⟩
abbrev main_call0_v5 : Ref sig .tc := ⟨.hbm, 239, rfl⟩
abbrev main_call0_v6 : Ref sig .tc := ⟨.hbm, 240, rfl⟩
abbrev main_call0_v7 : Ref sig .tc := ⟨.hbm, 241, rfl⟩
abbrev main_call0_cst_1 : Ref sig .tc := ⟨.hbm, 242, rfl⟩
abbrev main_call0_v8 : Ref sig .tc := ⟨.hbm, 243, rfl⟩
abbrev main_call0_cst_2 : Ref sig .tc := ⟨.hbm, 244, rfl⟩
abbrev main_call0_v9 : Ref sig .tc := ⟨.hbm, 245, rfl⟩
abbrev main_call0_v10 : Ref sig .tc := ⟨.hbm, 246, rfl⟩
abbrev main_call0_v11 : Ref sig .tc := ⟨.hbm, 247, rfl⟩
abbrev main_call0_cst_3 : Ref sig .tc := ⟨.hbm, 248, rfl⟩
abbrev main_call0_v12 : Ref sig .tc := ⟨.hbm, 249, rfl⟩
abbrev main_call0_cst_4 : Ref sig .tc := ⟨.hbm, 250, rfl⟩
abbrev main_call0_call0_v0 : Ref sig .tc := ⟨.hbm, 251, rfl⟩
abbrev main_call0_call0_v1 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_cst_31 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_call1_cst : Ref sig .tc := ⟨.hbm, 270, rfl⟩
abbrev main_call1_v0 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev main_v210 : Ref sig .tc := ⟨.hbm, 284, rfl⟩
abbrev main_cst_32 : Ref sig .tc := ⟨.hbm, 285, rfl⟩
abbrev main_v211 : Ref sig .tc := ⟨.hbm, 286, rfl⟩
abbrev main_cst_33 : Ref sig .tc := ⟨.hbm, 287, rfl⟩
abbrev main_v212 : Ref sig .tc := ⟨.hbm, 288, rfl⟩
abbrev main_v213 : Ref sig .tc := ⟨.hbm, 289, rfl⟩
abbrev main_c_34 : Ref sig .tc := ⟨.hbm, 290, rfl⟩
abbrev main_call2_cst : Ref sig .tc := ⟨.hbm, 291, rfl⟩
abbrev main_call2_v0 : Ref sig .tc := ⟨.hbm, 292, rfl⟩
abbrev main_call2_v1 : Ref sig .tc := ⟨.hbm, 293, rfl⟩
abbrev main_call2_cst_0 : Ref sig .tc := ⟨.hbm, 294, rfl⟩
abbrev main_call2_v2 : Ref sig .tc := ⟨.hbm, 295, rfl⟩
abbrev main_call2_v3 : Ref sig .tc := ⟨.hbm, 296, rfl⟩
abbrev main_call2_v4 : Ref sig .tc := ⟨.hbm, 297, rfl⟩
abbrev main_call2_v5 : Ref sig .tc := ⟨.hbm, 298, rfl⟩
abbrev main_call2_v6 : Ref sig .tc := ⟨.hbm, 299, rfl⟩
abbrev main_call2_v7 : Ref sig .tc := ⟨.hbm, 300, rfl⟩
abbrev main_call2_cst_1 : Ref sig .tc := ⟨.hbm, 301, rfl⟩
abbrev main_call2_v8 : Ref sig .tc := ⟨.hbm, 302, rfl⟩
abbrev main_call2_cst_2 : Ref sig .tc := ⟨.hbm, 303, rfl⟩
abbrev main_call2_v9 : Ref sig .tc := ⟨.hbm, 304, rfl⟩
abbrev main_call2_v10 : Ref sig .tc := ⟨.hbm, 305, rfl⟩
abbrev main_call2_v11 : Ref sig .tc := ⟨.hbm, 306, rfl⟩
abbrev main_call2_cst_3 : Ref sig .tc := ⟨.hbm, 307, rfl⟩
abbrev main_call2_v12 : Ref sig .tc := ⟨.hbm, 308, rfl⟩
abbrev main_call2_cst_4 : Ref sig .tc := ⟨.hbm, 309, rfl⟩
abbrev main_call2_call0_v0 : Ref sig .tc := ⟨.hbm, 310, rfl⟩
abbrev main_call2_call0_v1 : Ref sig .tc := ⟨.hbm, 311, rfl⟩
abbrev main_v214 : Ref sig .tc := ⟨.hbm, 312, rfl⟩
abbrev main_v215 : Ref sig .tc := ⟨.hbm, 313, rfl⟩
abbrev main_v216 : Ref sig .tc := ⟨.hbm, 314, rfl⟩
abbrev main_v217 : Ref sig .tc := ⟨.hbm, 315, rfl⟩
abbrev main_cst_35 : Ref sig .tc := ⟨.hbm, 316, rfl⟩
abbrev main_v218 : Ref sig .tc := ⟨.hbm, 317, rfl⟩
abbrev main_v219 : Ref sig .tc := ⟨.hbm, 318, rfl⟩
abbrev main_v220 : Ref sig .tc := ⟨.hbm, 319, rfl⟩
abbrev main_v221 : Ref sig .tc := ⟨.hbm, 320, rfl⟩
abbrev main_v222 : Ref sig .tc := ⟨.hbm, 321, rfl⟩
abbrev main_v223 : Ref sig .tc := ⟨.hbm, 322, rfl⟩
abbrev main_v224 : Ref sig .tc := ⟨.hbm, 323, rfl⟩
abbrev main_v225 : Ref sig .tc := ⟨.hbm, 324, rfl⟩
abbrev main_v226 : Ref sig .tc := ⟨.hbm, 325, rfl⟩
abbrev main_v227 : Ref sig .tc := ⟨.hbm, 326, rfl⟩
abbrev main_v228 : Ref sig .tc := ⟨.hbm, 327, rfl⟩
abbrev main_v229 : Ref sig .tc := ⟨.hbm, 328, rfl⟩
abbrev main_call3_cst : Ref sig .tc := ⟨.hbm, 329, rfl⟩
abbrev main_call3_v0 : Ref sig .tc := ⟨.hbm, 330, rfl⟩
abbrev main_v230 : Ref sig .tc := ⟨.hbm, 331, rfl⟩
abbrev main_c_36 : Ref sig .tc := ⟨.hbm, 332, rfl⟩
abbrev main_v231 : Ref sig .tc := ⟨.hbm, 333, rfl⟩
abbrev main_v232 : Ref sig .tc := ⟨.hbm, 334, rfl⟩
abbrev main_c_37 : Ref sig .tc := ⟨.hbm, 335, rfl⟩
abbrev main_v233 : Ref sig .tc := ⟨.hbm, 336, rfl⟩
abbrev main_v234 : Ref sig .tc := ⟨.hbm, 337, rfl⟩
abbrev main_v235 : Ref sig .tc := ⟨.hbm, 338, rfl⟩
abbrev main_v236 : Ref sig .tc := ⟨.hbm, 339, rfl⟩
abbrev main_v237 : Ref sig .tc := ⟨.hbm, 340, rfl⟩
abbrev main_v238 : Ref sig .tc := ⟨.hbm, 341, rfl⟩
abbrev main_cst_38 : Ref sig .tc := ⟨.hbm, 342, rfl⟩
abbrev main_v239 : Ref sig .tc := ⟨.hbm, 343, rfl⟩
abbrev main_v240 : Ref sig .tc := ⟨.hbm, 344, rfl⟩
abbrev main_v241 : Ref sig .tc := ⟨.hbm, 345, rfl⟩
abbrev main_v242 : Ref sig .tc := ⟨.hbm, 346, rfl⟩
abbrev main_v243 : Ref sig .tc := ⟨.hbm, 347, rfl⟩
abbrev main_cst_39 : Ref sig .tc := ⟨.hbm, 348, rfl⟩
abbrev main_v244 : Ref sig .tc := ⟨.hbm, 349, rfl⟩
abbrev main_v245 : Ref sig .tc := ⟨.hbm, 350, rfl⟩
abbrev main_v246 : Ref sig .tc := ⟨.hbm, 351, rfl⟩
abbrev main_v247 : Ref sig .tc := ⟨.hbm, 352, rfl⟩
abbrev main_v248 : Ref sig .tc := ⟨.hbm, 353, rfl⟩
abbrev main_v249 : Ref sig .tc := ⟨.hbm, 354, rfl⟩
abbrev main_v250 : Ref sig .tc := ⟨.hbm, 355, rfl⟩
abbrev main_v251 : Ref sig .tc := ⟨.hbm, 356, rfl⟩
abbrev main_v252 : Ref sig .tc := ⟨.hbm, 357, rfl⟩
abbrev main_v253 : Ref sig .tc := ⟨.hbm, 358, rfl⟩
abbrev main_v254 : Ref sig .tc := ⟨.hbm, 359, rfl⟩
abbrev main_v255 : Ref sig .tc := ⟨.hbm, 360, rfl⟩
abbrev main_v256 : Ref sig .tc := ⟨.hbm, 361, rfl⟩
abbrev main_v257 : Ref sig .tc := ⟨.hbm, 362, rfl⟩
abbrev main_v258 : Ref sig .tc := ⟨.hbm, 363, rfl⟩
abbrev main_v259 : Ref sig .tc := ⟨.hbm, 364, rfl⟩
abbrev main_cst_40 : Ref sig .tc := ⟨.hbm, 365, rfl⟩
abbrev main_v260 : Ref sig .tc := ⟨.hbm, 366, rfl⟩
abbrev main_cst_41 : Ref sig .tc := ⟨.hbm, 367, rfl⟩
abbrev main_v261 : Ref sig .tc := ⟨.hbm, 368, rfl⟩
abbrev main_v262 : Ref sig .tc := ⟨.hbm, 369, rfl⟩
abbrev main_c_42 : Ref sig .tc := ⟨.hbm, 370, rfl⟩
abbrev main_call4_cst : Ref sig .tc := ⟨.hbm, 371, rfl⟩
abbrev main_call4_v0 : Ref sig .tc := ⟨.hbm, 372, rfl⟩
abbrev main_call4_v1 : Ref sig .tc := ⟨.hbm, 373, rfl⟩
abbrev main_call4_cst_0 : Ref sig .tc := ⟨.hbm, 374, rfl⟩
abbrev main_call4_v2 : Ref sig .tc := ⟨.hbm, 375, rfl⟩
abbrev main_call4_v3 : Ref sig .tc := ⟨.hbm, 376, rfl⟩
abbrev main_call4_v4 : Ref sig .tc := ⟨.hbm, 377, rfl⟩
abbrev main_call4_v5 : Ref sig .tc := ⟨.hbm, 378, rfl⟩
abbrev main_call4_v6 : Ref sig .tc := ⟨.hbm, 379, rfl⟩
abbrev main_call4_v7 : Ref sig .tc := ⟨.hbm, 380, rfl⟩
abbrev main_call4_cst_1 : Ref sig .tc := ⟨.hbm, 381, rfl⟩
abbrev main_call4_v8 : Ref sig .tc := ⟨.hbm, 382, rfl⟩
abbrev main_call4_cst_2 : Ref sig .tc := ⟨.hbm, 383, rfl⟩
abbrev main_call4_v9 : Ref sig .tc := ⟨.hbm, 384, rfl⟩
abbrev main_call4_v10 : Ref sig .tc := ⟨.hbm, 385, rfl⟩
abbrev main_call4_v11 : Ref sig .tc := ⟨.hbm, 386, rfl⟩
abbrev main_call4_cst_3 : Ref sig .tc := ⟨.hbm, 387, rfl⟩
abbrev main_call4_v12 : Ref sig .tc := ⟨.hbm, 388, rfl⟩
abbrev main_call4_cst_4 : Ref sig .tc := ⟨.hbm, 389, rfl⟩
abbrev main_call4_call0_v0 : Ref sig .tc := ⟨.hbm, 390, rfl⟩
abbrev main_call4_call0_v1 : Ref sig .tc := ⟨.hbm, 391, rfl⟩
abbrev main_v263 : Ref sig .tc := ⟨.hbm, 392, rfl⟩
abbrev main_v264 : Ref sig .tc := ⟨.hbm, 393, rfl⟩
abbrev main_v265 : Ref sig .tc := ⟨.hbm, 394, rfl⟩
abbrev main_v266 : Ref sig .tc := ⟨.hbm, 395, rfl⟩
abbrev main_cst_43 : Ref sig .tc := ⟨.hbm, 396, rfl⟩
abbrev main_v267 : Ref sig .tc := ⟨.hbm, 397, rfl⟩
abbrev main_v268 : Ref sig .tc := ⟨.hbm, 398, rfl⟩
abbrev main_v269 : Ref sig .tc := ⟨.hbm, 399, rfl⟩
abbrev main_v270 : Ref sig .tc := ⟨.hbm, 400, rfl⟩
abbrev main_v271 : Ref sig .tc := ⟨.hbm, 401, rfl⟩
abbrev main_v272 : Ref sig .tc := ⟨.hbm, 402, rfl⟩
abbrev main_v273 : Ref sig .tc := ⟨.hbm, 403, rfl⟩
abbrev main_v274 : Ref sig .tc := ⟨.hbm, 404, rfl⟩
abbrev main_v275 : Ref sig .tc := ⟨.hbm, 405, rfl⟩
abbrev main_v276 : Ref sig .tc := ⟨.hbm, 406, rfl⟩
abbrev main_v277 : Ref sig .tc := ⟨.hbm, 407, rfl⟩
abbrev main_v278 : Ref sig .tc := ⟨.hbm, 408, rfl⟩
abbrev main_call5_cst : Ref sig .tc := ⟨.hbm, 409, rfl⟩
abbrev main_call5_v0 : Ref sig .tc := ⟨.hbm, 410, rfl⟩
abbrev main_v279 : Ref sig .tc := ⟨.hbm, 411, rfl⟩
abbrev main_v280 : Ref sig .tc := ⟨.hbm, 412, rfl⟩
abbrev main_v281 : Ref sig .tc := ⟨.hbm, 413, rfl⟩
abbrev main_v282 : Ref sig .tc := ⟨.hbm, 414, rfl⟩
abbrev main_v283 : Ref sig .tc := ⟨.hbm, 415, rfl⟩
abbrev main_v284 : Ref sig .tc := ⟨.hbm, 416, rfl⟩
abbrev main_v285 : Ref sig .tc := ⟨.hbm, 417, rfl⟩
abbrev main_v286 : Ref sig .tc := ⟨.hbm, 418, rfl⟩
abbrev main_v287 : Ref sig .tc := ⟨.hbm, 419, rfl⟩
abbrev main_v288 : Ref sig .tc := ⟨.hbm, 420, rfl⟩
abbrev main_v289 : Ref sig .tc := ⟨.hbm, 421, rfl⟩
abbrev main_v290 : Ref sig .tc := ⟨.hbm, 422, rfl⟩
abbrev main_v291 : Ref sig .tc := ⟨.hbm, 423, rfl⟩
abbrev main_cst_44 : Ref sig .tc := ⟨.hbm, 424, rfl⟩
abbrev main_v292 : Ref sig .tc := ⟨.hbm, 425, rfl⟩
abbrev main_cst_45 : Ref sig .tc := ⟨.hbm, 426, rfl⟩
abbrev main_v293 : Ref sig .tc := ⟨.hbm, 427, rfl⟩
abbrev main_v294 : Ref sig .tc := ⟨.hbm, 428, rfl⟩
abbrev main_c_46 : Ref sig .tc := ⟨.hbm, 429, rfl⟩
abbrev main_call6_cst : Ref sig .tc := ⟨.hbm, 430, rfl⟩
abbrev main_call6_v0 : Ref sig .tc := ⟨.hbm, 431, rfl⟩
abbrev main_call6_v1 : Ref sig .tc := ⟨.hbm, 432, rfl⟩
abbrev main_call6_cst_0 : Ref sig .tc := ⟨.hbm, 433, rfl⟩
abbrev main_call6_v2 : Ref sig .tc := ⟨.hbm, 434, rfl⟩
abbrev main_call6_v3 : Ref sig .tc := ⟨.hbm, 435, rfl⟩
abbrev main_call6_v4 : Ref sig .tc := ⟨.hbm, 436, rfl⟩
abbrev main_call6_v5 : Ref sig .tc := ⟨.hbm, 437, rfl⟩
abbrev main_call6_v6 : Ref sig .tc := ⟨.hbm, 438, rfl⟩
abbrev main_call6_v7 : Ref sig .tc := ⟨.hbm, 439, rfl⟩
abbrev main_call6_cst_1 : Ref sig .tc := ⟨.hbm, 440, rfl⟩
abbrev main_call6_v8 : Ref sig .tc := ⟨.hbm, 441, rfl⟩
abbrev main_call6_cst_2 : Ref sig .tc := ⟨.hbm, 442, rfl⟩
abbrev main_call6_v9 : Ref sig .tc := ⟨.hbm, 443, rfl⟩
abbrev main_call6_v10 : Ref sig .tc := ⟨.hbm, 444, rfl⟩
abbrev main_call6_v11 : Ref sig .tc := ⟨.hbm, 445, rfl⟩
abbrev main_call6_cst_3 : Ref sig .tc := ⟨.hbm, 446, rfl⟩
abbrev main_call6_v12 : Ref sig .tc := ⟨.hbm, 447, rfl⟩
abbrev main_call6_cst_4 : Ref sig .tc := ⟨.hbm, 448, rfl⟩
abbrev main_call6_call0_v0 : Ref sig .tc := ⟨.hbm, 449, rfl⟩
abbrev main_call6_call0_v1 : Ref sig .tc := ⟨.hbm, 450, rfl⟩
abbrev main_v295 : Ref sig .tc := ⟨.hbm, 451, rfl⟩
abbrev main_v296 : Ref sig .tc := ⟨.hbm, 452, rfl⟩
abbrev main_v297 : Ref sig .tc := ⟨.hbm, 453, rfl⟩
abbrev main_v298 : Ref sig .tc := ⟨.hbm, 454, rfl⟩
abbrev main_cst_47 : Ref sig .tc := ⟨.hbm, 455, rfl⟩
abbrev main_v299 : Ref sig .tc := ⟨.hbm, 456, rfl⟩
abbrev main_v300 : Ref sig .tc := ⟨.hbm, 457, rfl⟩
abbrev main_v301 : Ref sig .tc := ⟨.hbm, 458, rfl⟩
abbrev main_v302 : Ref sig .tc := ⟨.hbm, 459, rfl⟩
abbrev main_v303 : Ref sig .tc := ⟨.hbm, 460, rfl⟩
abbrev main_v304 : Ref sig .tc := ⟨.hbm, 461, rfl⟩
abbrev main_v305 : Ref sig .tc := ⟨.hbm, 462, rfl⟩
abbrev main_v306 : Ref sig .tc := ⟨.hbm, 463, rfl⟩
abbrev main_v307 : Ref sig .tc := ⟨.hbm, 464, rfl⟩
abbrev main_v308 : Ref sig .tc := ⟨.hbm, 465, rfl⟩
abbrev main_v309 : Ref sig .tc := ⟨.hbm, 466, rfl⟩
abbrev main_v310 : Ref sig .tc := ⟨.hbm, 467, rfl⟩
abbrev main_call7_cst : Ref sig .tc := ⟨.hbm, 468, rfl⟩
abbrev main_call7_v0 : Ref sig .tc := ⟨.hbm, 469, rfl⟩
abbrev main_v311 : Ref sig .tc := ⟨.hbm, 470, rfl⟩
abbrev main_c_48 : Ref sig .tc := ⟨.hbm, 471, rfl⟩
abbrev main_v312 : Ref sig .tc := ⟨.hbm, 472, rfl⟩
abbrev main_v313 : Ref sig .tc := ⟨.hbm, 473, rfl⟩
abbrev main_c_49 : Ref sig .tc := ⟨.hbm, 474, rfl⟩
abbrev main_v314 : Ref sig .tc := ⟨.hbm, 475, rfl⟩
abbrev main_v315 : Ref sig .tc := ⟨.hbm, 476, rfl⟩
abbrev main_v316 : Ref sig .tc := ⟨.hbm, 477, rfl⟩
abbrev main_v317 : Ref sig .tc := ⟨.hbm, 478, rfl⟩
abbrev main_v318 : Ref sig .tc := ⟨.hbm, 479, rfl⟩
abbrev main_v319 : Ref sig .tc := ⟨.hbm, 480, rfl⟩
abbrev main_cst_50 : Ref sig .tc := ⟨.hbm, 481, rfl⟩
abbrev main_v320 : Ref sig .tc := ⟨.hbm, 482, rfl⟩
abbrev main_v321 : Ref sig .tc := ⟨.hbm, 483, rfl⟩
abbrev main_v322 : Ref sig .tc := ⟨.hbm, 484, rfl⟩
abbrev main_v323 : Ref sig .tc := ⟨.hbm, 485, rfl⟩
abbrev main_v324 : Ref sig .tc := ⟨.hbm, 486, rfl⟩
abbrev main_cst_51 : Ref sig .tc := ⟨.hbm, 487, rfl⟩
abbrev main_v325 : Ref sig .tc := ⟨.hbm, 488, rfl⟩
abbrev main_v326 : Ref sig .tc := ⟨.hbm, 489, rfl⟩
abbrev main_v327 : Ref sig .tc := ⟨.hbm, 490, rfl⟩
abbrev main_v328 : Ref sig .tc := ⟨.hbm, 491, rfl⟩
abbrev main_v329 : Ref sig .tc := ⟨.hbm, 492, rfl⟩
abbrev main_v330 : Ref sig .tc := ⟨.hbm, 493, rfl⟩
abbrev main_v331 : Ref sig .tc := ⟨.hbm, 494, rfl⟩
abbrev main_v332 : Ref sig .tc := ⟨.hbm, 495, rfl⟩
abbrev main_v333 : Ref sig .tc := ⟨.hbm, 496, rfl⟩
abbrev main_v334 : Ref sig .tc := ⟨.hbm, 497, rfl⟩
abbrev main_v335 : Ref sig .tc := ⟨.hbm, 498, rfl⟩
abbrev main_v336 : Ref sig .tc := ⟨.hbm, 499, rfl⟩
abbrev main_v337 : Ref sig .tc := ⟨.hbm, 500, rfl⟩
abbrev main_v338 : Ref sig .tc := ⟨.hbm, 501, rfl⟩
abbrev main_v339 : Ref sig .tc := ⟨.hbm, 502, rfl⟩
abbrev main_v340 : Ref sig .tc := ⟨.hbm, 503, rfl⟩
abbrev main_cst_52 : Ref sig .tc := ⟨.hbm, 504, rfl⟩
abbrev main_v341 : Ref sig .tc := ⟨.hbm, 505, rfl⟩
abbrev main_cst_53 : Ref sig .tc := ⟨.hbm, 506, rfl⟩
abbrev main_v342 : Ref sig .tc := ⟨.hbm, 507, rfl⟩
abbrev main_v343 : Ref sig .tc := ⟨.hbm, 508, rfl⟩
abbrev main_c_54 : Ref sig .tc := ⟨.hbm, 509, rfl⟩
abbrev main_call8_cst : Ref sig .tc := ⟨.hbm, 510, rfl⟩
abbrev main_call8_v0 : Ref sig .tc := ⟨.hbm, 511, rfl⟩
abbrev main_call8_v1 : Ref sig .tc := ⟨.hbm, 512, rfl⟩
abbrev main_call8_cst_0 : Ref sig .tc := ⟨.hbm, 513, rfl⟩
abbrev main_call8_v2 : Ref sig .tc := ⟨.hbm, 514, rfl⟩
abbrev main_call8_v3 : Ref sig .tc := ⟨.hbm, 515, rfl⟩
abbrev main_call8_v4 : Ref sig .tc := ⟨.hbm, 516, rfl⟩
abbrev main_call8_v5 : Ref sig .tc := ⟨.hbm, 517, rfl⟩
abbrev main_call8_v6 : Ref sig .tc := ⟨.hbm, 518, rfl⟩
abbrev main_call8_v7 : Ref sig .tc := ⟨.hbm, 519, rfl⟩
abbrev main_call8_cst_1 : Ref sig .tc := ⟨.hbm, 520, rfl⟩
abbrev main_call8_v8 : Ref sig .tc := ⟨.hbm, 521, rfl⟩
abbrev main_call8_cst_2 : Ref sig .tc := ⟨.hbm, 522, rfl⟩
abbrev main_call8_v9 : Ref sig .tc := ⟨.hbm, 523, rfl⟩
abbrev main_call8_v10 : Ref sig .tc := ⟨.hbm, 524, rfl⟩
abbrev main_call8_v11 : Ref sig .tc := ⟨.hbm, 525, rfl⟩
abbrev main_call8_cst_3 : Ref sig .tc := ⟨.hbm, 526, rfl⟩
abbrev main_call8_v12 : Ref sig .tc := ⟨.hbm, 527, rfl⟩
abbrev main_call8_cst_4 : Ref sig .tc := ⟨.hbm, 528, rfl⟩
abbrev main_call8_call0_v0 : Ref sig .tc := ⟨.hbm, 529, rfl⟩
abbrev main_call8_call0_v1 : Ref sig .tc := ⟨.hbm, 530, rfl⟩
abbrev main_v344 : Ref sig .tc := ⟨.hbm, 531, rfl⟩
abbrev main_v345 : Ref sig .tc := ⟨.hbm, 532, rfl⟩
abbrev main_v346 : Ref sig .tc := ⟨.hbm, 533, rfl⟩
abbrev main_v347 : Ref sig .tc := ⟨.hbm, 534, rfl⟩
abbrev main_cst_55 : Ref sig .tc := ⟨.hbm, 535, rfl⟩
abbrev main_v348 : Ref sig .tc := ⟨.hbm, 536, rfl⟩
abbrev main_v349 : Ref sig .tc := ⟨.hbm, 537, rfl⟩
abbrev main_v350 : Ref sig .tc := ⟨.hbm, 538, rfl⟩
abbrev main_v351 : Ref sig .tc := ⟨.hbm, 539, rfl⟩
abbrev main_v352 : Ref sig .tc := ⟨.hbm, 540, rfl⟩
abbrev main_v353 : Ref sig .tc := ⟨.hbm, 541, rfl⟩
abbrev main_v354 : Ref sig .tc := ⟨.hbm, 542, rfl⟩
abbrev main_v355 : Ref sig .tc := ⟨.hbm, 543, rfl⟩
abbrev main_v356 : Ref sig .tc := ⟨.hbm, 544, rfl⟩
abbrev main_v357 : Ref sig .tc := ⟨.hbm, 545, rfl⟩
abbrev main_v358 : Ref sig .tc := ⟨.hbm, 546, rfl⟩
abbrev main_v359 : Ref sig .tc := ⟨.hbm, 547, rfl⟩
abbrev main_call9_cst : Ref sig .tc := ⟨.hbm, 548, rfl⟩
abbrev main_call9_v0 : Ref sig .tc := ⟨.hbm, 549, rfl⟩
abbrev main_v360 : Ref sig .tc := ⟨.hbm, 550, rfl⟩
abbrev main_v361 : Ref sig .tc := ⟨.hbm, 551, rfl⟩
abbrev main_v362 : Ref sig .tc := ⟨.hbm, 552, rfl⟩
abbrev main_v363 : Ref sig .tc := ⟨.hbm, 553, rfl⟩
abbrev main_v364 : Ref sig .tc := ⟨.hbm, 554, rfl⟩
abbrev main_v365 : Ref sig .tc := ⟨.hbm, 555, rfl⟩
abbrev main_v366 : Ref sig .tc := ⟨.hbm, 556, rfl⟩
abbrev main_v367 : Ref sig .tc := ⟨.hbm, 557, rfl⟩
abbrev main_v368 : Ref sig .tc := ⟨.hbm, 558, rfl⟩
abbrev main_v369 : Ref sig .tc := ⟨.hbm, 559, rfl⟩
abbrev main_v370 : Ref sig .tc := ⟨.hbm, 560, rfl⟩
abbrev main_v371 : Ref sig .tc := ⟨.hbm, 561, rfl⟩
abbrev main_v372 : Ref sig .tc := ⟨.hbm, 562, rfl⟩
abbrev main_cst_56 : Ref sig .tc := ⟨.hbm, 563, rfl⟩
abbrev main_v373 : Ref sig .tc := ⟨.hbm, 564, rfl⟩
abbrev main_cst_57 : Ref sig .tc := ⟨.hbm, 565, rfl⟩
abbrev main_v374 : Ref sig .tc := ⟨.hbm, 566, rfl⟩
abbrev main_v375 : Ref sig .tc := ⟨.hbm, 567, rfl⟩
abbrev main_c_58 : Ref sig .tc := ⟨.hbm, 568, rfl⟩
abbrev main_call10_cst : Ref sig .tc := ⟨.hbm, 569, rfl⟩
abbrev main_call10_v0 : Ref sig .tc := ⟨.hbm, 570, rfl⟩
abbrev main_call10_v1 : Ref sig .tc := ⟨.hbm, 571, rfl⟩
abbrev main_call10_cst_0 : Ref sig .tc := ⟨.hbm, 572, rfl⟩
abbrev main_call10_v2 : Ref sig .tc := ⟨.hbm, 573, rfl⟩
abbrev main_call10_v3 : Ref sig .tc := ⟨.hbm, 574, rfl⟩
abbrev main_call10_v4 : Ref sig .tc := ⟨.hbm, 575, rfl⟩
abbrev main_call10_v5 : Ref sig .tc := ⟨.hbm, 576, rfl⟩
abbrev main_call10_v6 : Ref sig .tc := ⟨.hbm, 577, rfl⟩
abbrev main_call10_v7 : Ref sig .tc := ⟨.hbm, 578, rfl⟩
abbrev main_call10_cst_1 : Ref sig .tc := ⟨.hbm, 579, rfl⟩
abbrev main_call10_v8 : Ref sig .tc := ⟨.hbm, 580, rfl⟩
abbrev main_call10_cst_2 : Ref sig .tc := ⟨.hbm, 581, rfl⟩
abbrev main_call10_v9 : Ref sig .tc := ⟨.hbm, 582, rfl⟩
abbrev main_call10_v10 : Ref sig .tc := ⟨.hbm, 583, rfl⟩
abbrev main_call10_v11 : Ref sig .tc := ⟨.hbm, 584, rfl⟩
abbrev main_call10_cst_3 : Ref sig .tc := ⟨.hbm, 585, rfl⟩
abbrev main_call10_v12 : Ref sig .tc := ⟨.hbm, 586, rfl⟩
abbrev main_call10_cst_4 : Ref sig .tc := ⟨.hbm, 587, rfl⟩
abbrev main_call10_call0_v0 : Ref sig .tc := ⟨.hbm, 588, rfl⟩
abbrev main_call10_call0_v1 : Ref sig .tc := ⟨.hbm, 589, rfl⟩
abbrev main_v376 : Ref sig .tc := ⟨.hbm, 590, rfl⟩
abbrev main_v377 : Ref sig .tc := ⟨.hbm, 591, rfl⟩
abbrev main_v378 : Ref sig .tc := ⟨.hbm, 592, rfl⟩
abbrev main_v379 : Ref sig .tc := ⟨.hbm, 593, rfl⟩
abbrev main_cst_59 : Ref sig .tc := ⟨.hbm, 594, rfl⟩
abbrev main_v380 : Ref sig .tc := ⟨.hbm, 595, rfl⟩
abbrev main_v381 : Ref sig .tc := ⟨.hbm, 596, rfl⟩
abbrev main_v382 : Ref sig .tc := ⟨.hbm, 597, rfl⟩
abbrev main_v383 : Ref sig .tc := ⟨.hbm, 598, rfl⟩
abbrev main_v384 : Ref sig .tc := ⟨.hbm, 599, rfl⟩
abbrev main_v385 : Ref sig .tc := ⟨.hbm, 600, rfl⟩
abbrev main_v386 : Ref sig .tc := ⟨.hbm, 601, rfl⟩
abbrev main_v387 : Ref sig .tc := ⟨.hbm, 602, rfl⟩
abbrev main_v388 : Ref sig .tc := ⟨.hbm, 603, rfl⟩
abbrev main_v389 : Ref sig .tc := ⟨.hbm, 604, rfl⟩
abbrev main_v390 : Ref sig .tc := ⟨.hbm, 605, rfl⟩
abbrev main_v391 : Ref sig .tc := ⟨.hbm, 606, rfl⟩
abbrev main_call11_cst : Ref sig .tc := ⟨.hbm, 607, rfl⟩
abbrev main_call11_v0 : Ref sig .tc := ⟨.hbm, 608, rfl⟩
abbrev main_v392 : Ref sig .tc := ⟨.hbm, 609, rfl⟩
abbrev main_c_60 : Ref sig .tc := ⟨.hbm, 610, rfl⟩
abbrev main_v393 : Ref sig .tc := ⟨.hbm, 611, rfl⟩
abbrev main_v394 : Ref sig .tc := ⟨.hbm, 612, rfl⟩
abbrev main_c_61 : Ref sig .tc := ⟨.hbm, 613, rfl⟩
abbrev main_v395 : Ref sig .tc := ⟨.hbm, 614, rfl⟩
abbrev main_v396 : Ref sig .tc := ⟨.hbm, 615, rfl⟩
abbrev main_v397 : Ref sig .tc := ⟨.hbm, 616, rfl⟩
abbrev main_v398 : Ref sig .tc := ⟨.hbm, 617, rfl⟩
abbrev main_v399 : Ref sig .tc := ⟨.hbm, 618, rfl⟩
abbrev main_v400 : Ref sig .tc := ⟨.hbm, 619, rfl⟩
abbrev main_cst_62 : Ref sig .tc := ⟨.hbm, 620, rfl⟩
abbrev main_v401 : Ref sig .tc := ⟨.hbm, 621, rfl⟩
abbrev main_v402 : Ref sig .tc := ⟨.hbm, 622, rfl⟩
abbrev main_v403 : Ref sig .tc := ⟨.hbm, 623, rfl⟩
abbrev main_v404 : Ref sig .tc := ⟨.hbm, 624, rfl⟩
abbrev main_v405 : Ref sig .tc := ⟨.hbm, 625, rfl⟩
abbrev main_cst_63 : Ref sig .tc := ⟨.hbm, 626, rfl⟩
abbrev main_v406 : Ref sig .tc := ⟨.hbm, 627, rfl⟩
abbrev main_v407 : Ref sig .tc := ⟨.hbm, 628, rfl⟩
abbrev main_v408 : Ref sig .tc := ⟨.hbm, 629, rfl⟩
abbrev main_v409 : Ref sig .tc := ⟨.hbm, 630, rfl⟩
abbrev main_v410 : Ref sig .tc := ⟨.hbm, 631, rfl⟩
abbrev main_v411 : Ref sig .tc := ⟨.hbm, 632, rfl⟩
abbrev main_v412 : Ref sig .tc := ⟨.hbm, 633, rfl⟩
abbrev main_v413 : Ref sig .tc := ⟨.hbm, 634, rfl⟩
abbrev main_v414 : Ref sig .tc := ⟨.hbm, 635, rfl⟩
abbrev main_v415 : Ref sig .tc := ⟨.hbm, 636, rfl⟩
abbrev main_v416 : Ref sig .tc := ⟨.hbm, 637, rfl⟩
abbrev main_v417 : Ref sig .tc := ⟨.hbm, 638, rfl⟩
abbrev main_v418 : Ref sig .tc := ⟨.hbm, 639, rfl⟩
abbrev main_v419 : Ref sig .tc := ⟨.hbm, 640, rfl⟩
abbrev main_v420 : Ref sig .tc := ⟨.hbm, 641, rfl⟩
abbrev main_v421 : Ref sig .tc := ⟨.hbm, 642, rfl⟩
abbrev main_cst_64 : Ref sig .tc := ⟨.hbm, 643, rfl⟩
abbrev main_v422 : Ref sig .tc := ⟨.hbm, 644, rfl⟩
abbrev main_cst_65 : Ref sig .tc := ⟨.hbm, 645, rfl⟩
abbrev main_v423 : Ref sig .tc := ⟨.hbm, 646, rfl⟩
abbrev main_v424 : Ref sig .tc := ⟨.hbm, 647, rfl⟩
abbrev main_c_66 : Ref sig .tc := ⟨.hbm, 648, rfl⟩
abbrev main_call12_cst : Ref sig .tc := ⟨.hbm, 649, rfl⟩
abbrev main_call12_v0 : Ref sig .tc := ⟨.hbm, 650, rfl⟩
abbrev main_call12_v1 : Ref sig .tc := ⟨.hbm, 651, rfl⟩
abbrev main_call12_cst_0 : Ref sig .tc := ⟨.hbm, 652, rfl⟩
abbrev main_call12_v2 : Ref sig .tc := ⟨.hbm, 653, rfl⟩
abbrev main_call12_v3 : Ref sig .tc := ⟨.hbm, 654, rfl⟩
abbrev main_call12_v4 : Ref sig .tc := ⟨.hbm, 655, rfl⟩
abbrev main_call12_v5 : Ref sig .tc := ⟨.hbm, 656, rfl⟩
abbrev main_call12_v6 : Ref sig .tc := ⟨.hbm, 657, rfl⟩
abbrev main_call12_v7 : Ref sig .tc := ⟨.hbm, 658, rfl⟩
abbrev main_call12_cst_1 : Ref sig .tc := ⟨.hbm, 659, rfl⟩
abbrev main_call12_v8 : Ref sig .tc := ⟨.hbm, 660, rfl⟩
abbrev main_call12_cst_2 : Ref sig .tc := ⟨.hbm, 661, rfl⟩
abbrev main_call12_v9 : Ref sig .tc := ⟨.hbm, 662, rfl⟩
abbrev main_call12_v10 : Ref sig .tc := ⟨.hbm, 663, rfl⟩
abbrev main_call12_v11 : Ref sig .tc := ⟨.hbm, 664, rfl⟩
abbrev main_call12_cst_3 : Ref sig .tc := ⟨.hbm, 665, rfl⟩
abbrev main_call12_v12 : Ref sig .tc := ⟨.hbm, 666, rfl⟩
abbrev main_call12_cst_4 : Ref sig .tc := ⟨.hbm, 667, rfl⟩
abbrev main_call12_call0_v0 : Ref sig .tc := ⟨.hbm, 668, rfl⟩
abbrev main_call12_call0_v1 : Ref sig .tc := ⟨.hbm, 669, rfl⟩
abbrev main_v425 : Ref sig .tc := ⟨.hbm, 670, rfl⟩
abbrev main_v426 : Ref sig .tc := ⟨.hbm, 671, rfl⟩
abbrev main_v427 : Ref sig .tc := ⟨.hbm, 672, rfl⟩
abbrev main_v428 : Ref sig .tc := ⟨.hbm, 673, rfl⟩
abbrev main_cst_67 : Ref sig .tc := ⟨.hbm, 674, rfl⟩
abbrev main_v429 : Ref sig .tc := ⟨.hbm, 675, rfl⟩
abbrev main_v430 : Ref sig .tc := ⟨.hbm, 676, rfl⟩
abbrev main_v431 : Ref sig .tc := ⟨.hbm, 677, rfl⟩
abbrev main_v432 : Ref sig .tc := ⟨.hbm, 678, rfl⟩
abbrev main_v433 : Ref sig .tc := ⟨.hbm, 679, rfl⟩
abbrev main_v434 : Ref sig .tc := ⟨.hbm, 680, rfl⟩
abbrev main_v435 : Ref sig .tc := ⟨.hbm, 681, rfl⟩
abbrev main_v436 : Ref sig .tc := ⟨.hbm, 682, rfl⟩
abbrev main_v437 : Ref sig .tc := ⟨.hbm, 683, rfl⟩
abbrev main_v438 : Ref sig .tc := ⟨.hbm, 684, rfl⟩
abbrev main_v439 : Ref sig .tc := ⟨.hbm, 685, rfl⟩
abbrev main_v440 : Ref sig .tc := ⟨.hbm, 686, rfl⟩
abbrev main_call13_cst : Ref sig .tc := ⟨.hbm, 687, rfl⟩
abbrev main_call13_v0 : Ref sig .tc := ⟨.hbm, 688, rfl⟩
abbrev main_v441 : Ref sig .tc := ⟨.hbm, 689, rfl⟩
abbrev main_v442 : Ref sig .tc := ⟨.hbm, 690, rfl⟩
abbrev main_v443 : Ref sig .tc := ⟨.hbm, 691, rfl⟩
abbrev main_v444 : Ref sig .tc := ⟨.hbm, 692, rfl⟩
abbrev main_v445 : Ref sig .tc := ⟨.hbm, 693, rfl⟩
abbrev main_v446 : Ref sig .tc := ⟨.hbm, 694, rfl⟩
abbrev main_v447 : Ref sig .tc := ⟨.hbm, 695, rfl⟩
abbrev main_v448 : Ref sig .tc := ⟨.hbm, 696, rfl⟩
abbrev main_v449 : Ref sig .tc := ⟨.hbm, 697, rfl⟩
abbrev main_v450 : Ref sig .tc := ⟨.hbm, 698, rfl⟩
abbrev main_v451 : Ref sig .tc := ⟨.hbm, 699, rfl⟩
abbrev main_v452 : Ref sig .tc := ⟨.hbm, 700, rfl⟩
abbrev main_v453 : Ref sig .tc := ⟨.hbm, 701, rfl⟩
abbrev main_cst_68 : Ref sig .tc := ⟨.hbm, 702, rfl⟩
abbrev main_v454 : Ref sig .tc := ⟨.hbm, 703, rfl⟩
abbrev main_cst_69 : Ref sig .tc := ⟨.hbm, 704, rfl⟩
abbrev main_v455 : Ref sig .tc := ⟨.hbm, 705, rfl⟩
abbrev main_v456 : Ref sig .tc := ⟨.hbm, 706, rfl⟩
abbrev main_c_70 : Ref sig .tc := ⟨.hbm, 707, rfl⟩
abbrev main_call14_cst : Ref sig .tc := ⟨.hbm, 708, rfl⟩
abbrev main_call14_v0 : Ref sig .tc := ⟨.hbm, 709, rfl⟩
abbrev main_call14_v1 : Ref sig .tc := ⟨.hbm, 710, rfl⟩
abbrev main_call14_cst_0 : Ref sig .tc := ⟨.hbm, 711, rfl⟩
abbrev main_call14_v2 : Ref sig .tc := ⟨.hbm, 712, rfl⟩
abbrev main_call14_v3 : Ref sig .tc := ⟨.hbm, 713, rfl⟩
abbrev main_call14_v4 : Ref sig .tc := ⟨.hbm, 714, rfl⟩
abbrev main_call14_v5 : Ref sig .tc := ⟨.hbm, 715, rfl⟩
abbrev main_call14_v6 : Ref sig .tc := ⟨.hbm, 716, rfl⟩
abbrev main_call14_v7 : Ref sig .tc := ⟨.hbm, 717, rfl⟩
abbrev main_call14_cst_1 : Ref sig .tc := ⟨.hbm, 718, rfl⟩
abbrev main_call14_v8 : Ref sig .tc := ⟨.hbm, 719, rfl⟩
abbrev main_call14_cst_2 : Ref sig .tc := ⟨.hbm, 720, rfl⟩
abbrev main_call14_v9 : Ref sig .tc := ⟨.hbm, 721, rfl⟩
abbrev main_call14_v10 : Ref sig .tc := ⟨.hbm, 722, rfl⟩
abbrev main_call14_v11 : Ref sig .tc := ⟨.hbm, 723, rfl⟩
abbrev main_call14_cst_3 : Ref sig .tc := ⟨.hbm, 724, rfl⟩
abbrev main_call14_v12 : Ref sig .tc := ⟨.hbm, 725, rfl⟩
abbrev main_call14_cst_4 : Ref sig .tc := ⟨.hbm, 726, rfl⟩
abbrev main_call14_call0_v0 : Ref sig .tc := ⟨.hbm, 727, rfl⟩
abbrev main_call14_call0_v1 : Ref sig .tc := ⟨.hbm, 728, rfl⟩
abbrev main_v457 : Ref sig .tc := ⟨.hbm, 729, rfl⟩
abbrev main_v458 : Ref sig .tc := ⟨.hbm, 730, rfl⟩
abbrev main_v459 : Ref sig .tc := ⟨.hbm, 731, rfl⟩
abbrev main_v460 : Ref sig .tc := ⟨.hbm, 732, rfl⟩
abbrev main_cst_71 : Ref sig .tc := ⟨.hbm, 733, rfl⟩
abbrev main_v461 : Ref sig .tc := ⟨.hbm, 734, rfl⟩
abbrev main_v462 : Ref sig .tc := ⟨.hbm, 735, rfl⟩
abbrev main_v463 : Ref sig .tc := ⟨.hbm, 736, rfl⟩
abbrev main_v464 : Ref sig .tc := ⟨.hbm, 737, rfl⟩
abbrev main_v465 : Ref sig .tc := ⟨.hbm, 738, rfl⟩
abbrev main_v466 : Ref sig .tc := ⟨.hbm, 739, rfl⟩
abbrev main_v467 : Ref sig .tc := ⟨.hbm, 740, rfl⟩
abbrev main_v468 : Ref sig .tc := ⟨.hbm, 741, rfl⟩
abbrev main_v469 : Ref sig .tc := ⟨.hbm, 742, rfl⟩
abbrev main_v470 : Ref sig .tc := ⟨.hbm, 743, rfl⟩
abbrev main_v471 : Ref sig .tc := ⟨.hbm, 744, rfl⟩
abbrev main_v472 : Ref sig .tc := ⟨.hbm, 745, rfl⟩
abbrev main_call15_cst : Ref sig .tc := ⟨.hbm, 746, rfl⟩
abbrev main_call15_v0 : Ref sig .tc := ⟨.hbm, 747, rfl⟩
abbrev main_v473 : Ref sig .tc := ⟨.hbm, 748, rfl⟩
abbrev main_c_72 : Ref sig .tc := ⟨.hbm, 749, rfl⟩
abbrev main_v474 : Ref sig .tc := ⟨.hbm, 750, rfl⟩
abbrev main_v475 : Ref sig .tc := ⟨.hbm, 751, rfl⟩
abbrev main_c_73 : Ref sig .tc := ⟨.hbm, 752, rfl⟩
abbrev main_v476 : Ref sig .tc := ⟨.hbm, 753, rfl⟩
abbrev main_v477 : Ref sig .tc := ⟨.hbm, 754, rfl⟩
abbrev main_v478 : Ref sig .tc := ⟨.hbm, 755, rfl⟩
abbrev main_v479 : Ref sig .tc := ⟨.hbm, 756, rfl⟩
abbrev main_v480 : Ref sig .tc := ⟨.hbm, 757, rfl⟩
abbrev main_v481 : Ref sig .tc := ⟨.hbm, 758, rfl⟩
abbrev main_cst_74 : Ref sig .tc := ⟨.hbm, 759, rfl⟩
abbrev main_v482 : Ref sig .tc := ⟨.hbm, 760, rfl⟩
abbrev main_v483 : Ref sig .tc := ⟨.hbm, 761, rfl⟩
abbrev main_v484 : Ref sig .tc := ⟨.hbm, 762, rfl⟩
abbrev main_v485 : Ref sig .tc := ⟨.hbm, 763, rfl⟩
abbrev main_v486 : Ref sig .tc := ⟨.hbm, 764, rfl⟩
abbrev main_cst_75 : Ref sig .tc := ⟨.hbm, 765, rfl⟩
abbrev main_v487 : Ref sig .tc := ⟨.hbm, 766, rfl⟩
abbrev main_v488 : Ref sig .tc := ⟨.hbm, 767, rfl⟩
abbrev main_v489 : Ref sig .tc := ⟨.hbm, 768, rfl⟩
abbrev main_v490 : Ref sig .tc := ⟨.hbm, 769, rfl⟩
abbrev main_v491 : Ref sig .tc := ⟨.hbm, 770, rfl⟩
abbrev main_v492 : Ref sig .tc := ⟨.hbm, 771, rfl⟩
abbrev main_v493 : Ref sig .tc := ⟨.hbm, 772, rfl⟩
abbrev main_v494 : Ref sig .tc := ⟨.hbm, 773, rfl⟩
abbrev main_v495 : Ref sig .tc := ⟨.hbm, 774, rfl⟩
abbrev main_v496 : Ref sig .tc := ⟨.hbm, 775, rfl⟩
abbrev main_v497 : Ref sig .tc := ⟨.hbm, 776, rfl⟩
abbrev main_v498 : Ref sig .tc := ⟨.hbm, 777, rfl⟩
abbrev main_v499 : Ref sig .tc := ⟨.hbm, 778, rfl⟩
abbrev main_v500 : Ref sig .tc := ⟨.hbm, 779, rfl⟩
abbrev main_v501 : Ref sig .tc := ⟨.hbm, 780, rfl⟩
abbrev main_v502 : Ref sig .tc := ⟨.hbm, 781, rfl⟩
abbrev main_cst_76 : Ref sig .tc := ⟨.hbm, 782, rfl⟩
abbrev main_v503 : Ref sig .tc := ⟨.hbm, 783, rfl⟩
abbrev main_cst_77 : Ref sig .tc := ⟨.hbm, 784, rfl⟩
abbrev main_v504 : Ref sig .tc := ⟨.hbm, 785, rfl⟩
abbrev main_v505 : Ref sig .tc := ⟨.hbm, 786, rfl⟩
abbrev main_c_78 : Ref sig .tc := ⟨.hbm, 787, rfl⟩
abbrev main_call16_cst : Ref sig .tc := ⟨.hbm, 788, rfl⟩
abbrev main_call16_v0 : Ref sig .tc := ⟨.hbm, 789, rfl⟩
abbrev main_call16_v1 : Ref sig .tc := ⟨.hbm, 790, rfl⟩
abbrev main_call16_cst_0 : Ref sig .tc := ⟨.hbm, 791, rfl⟩
abbrev main_call16_v2 : Ref sig .tc := ⟨.hbm, 792, rfl⟩
abbrev main_call16_v3 : Ref sig .tc := ⟨.hbm, 793, rfl⟩
abbrev main_call16_v4 : Ref sig .tc := ⟨.hbm, 794, rfl⟩
abbrev main_call16_v5 : Ref sig .tc := ⟨.hbm, 795, rfl⟩
abbrev main_call16_v6 : Ref sig .tc := ⟨.hbm, 796, rfl⟩
abbrev main_call16_v7 : Ref sig .tc := ⟨.hbm, 797, rfl⟩
abbrev main_call16_cst_1 : Ref sig .tc := ⟨.hbm, 798, rfl⟩
abbrev main_call16_v8 : Ref sig .tc := ⟨.hbm, 799, rfl⟩
abbrev main_call16_cst_2 : Ref sig .tc := ⟨.hbm, 800, rfl⟩
abbrev main_call16_v9 : Ref sig .tc := ⟨.hbm, 801, rfl⟩
abbrev main_call16_v10 : Ref sig .tc := ⟨.hbm, 802, rfl⟩
abbrev main_call16_v11 : Ref sig .tc := ⟨.hbm, 803, rfl⟩
abbrev main_call16_cst_3 : Ref sig .tc := ⟨.hbm, 804, rfl⟩
abbrev main_call16_v12 : Ref sig .tc := ⟨.hbm, 805, rfl⟩
abbrev main_call16_cst_4 : Ref sig .tc := ⟨.hbm, 806, rfl⟩
abbrev main_call16_call0_v0 : Ref sig .tc := ⟨.hbm, 807, rfl⟩
abbrev main_call16_call0_v1 : Ref sig .tc := ⟨.hbm, 808, rfl⟩
abbrev main_v506 : Ref sig .tc := ⟨.hbm, 809, rfl⟩
abbrev main_v507 : Ref sig .tc := ⟨.hbm, 810, rfl⟩
abbrev main_v508 : Ref sig .tc := ⟨.hbm, 811, rfl⟩
abbrev main_v509 : Ref sig .tc := ⟨.hbm, 812, rfl⟩
abbrev main_cst_79 : Ref sig .tc := ⟨.hbm, 813, rfl⟩
abbrev main_v510 : Ref sig .tc := ⟨.hbm, 814, rfl⟩
abbrev main_v511 : Ref sig .tc := ⟨.hbm, 815, rfl⟩
abbrev main_v512 : Ref sig .tc := ⟨.hbm, 816, rfl⟩
abbrev main_v513 : Ref sig .tc := ⟨.hbm, 817, rfl⟩
abbrev main_v514 : Ref sig .tc := ⟨.hbm, 818, rfl⟩
abbrev main_v515 : Ref sig .tc := ⟨.hbm, 819, rfl⟩
abbrev main_v516 : Ref sig .tc := ⟨.hbm, 820, rfl⟩
abbrev main_v517 : Ref sig .tc := ⟨.hbm, 821, rfl⟩
abbrev main_v518 : Ref sig .tc := ⟨.hbm, 822, rfl⟩
abbrev main_v519 : Ref sig .tc := ⟨.hbm, 823, rfl⟩
abbrev main_v520 : Ref sig .tc := ⟨.hbm, 824, rfl⟩
abbrev main_v521 : Ref sig .tc := ⟨.hbm, 825, rfl⟩
abbrev main_call17_cst : Ref sig .tc := ⟨.hbm, 826, rfl⟩
abbrev main_call17_v0 : Ref sig .tc := ⟨.hbm, 827, rfl⟩
abbrev main_v522 : Ref sig .tc := ⟨.hbm, 828, rfl⟩
abbrev main_v523 : Ref sig .tc := ⟨.hbm, 829, rfl⟩
abbrev main_v524 : Ref sig .tc := ⟨.hbm, 830, rfl⟩
abbrev main_v525 : Ref sig .tc := ⟨.hbm, 831, rfl⟩
abbrev main_v526 : Ref sig .tc := ⟨.hbm, 832, rfl⟩
abbrev main_v527 : Ref sig .tc := ⟨.hbm, 833, rfl⟩
abbrev main_v528 : Ref sig .tc := ⟨.hbm, 834, rfl⟩
abbrev main_v529 : Ref sig .tc := ⟨.hbm, 835, rfl⟩
abbrev main_v530 : Ref sig .tc := ⟨.hbm, 836, rfl⟩
abbrev main_v531 : Ref sig .tc := ⟨.hbm, 837, rfl⟩
abbrev main_v532 : Ref sig .tc := ⟨.hbm, 838, rfl⟩
abbrev main_v533 : Ref sig .tc := ⟨.hbm, 839, rfl⟩
abbrev main_v534 : Ref sig .tc := ⟨.hbm, 840, rfl⟩
abbrev main_cst_80 : Ref sig .tc := ⟨.hbm, 841, rfl⟩
abbrev main_v535 : Ref sig .tc := ⟨.hbm, 842, rfl⟩
abbrev main_cst_81 : Ref sig .tc := ⟨.hbm, 843, rfl⟩
abbrev main_v536 : Ref sig .tc := ⟨.hbm, 844, rfl⟩
abbrev main_v537 : Ref sig .tc := ⟨.hbm, 845, rfl⟩
abbrev main_c_82 : Ref sig .tc := ⟨.hbm, 846, rfl⟩
abbrev main_call18_cst : Ref sig .tc := ⟨.hbm, 847, rfl⟩
abbrev main_call18_v0 : Ref sig .tc := ⟨.hbm, 848, rfl⟩
abbrev main_call18_v1 : Ref sig .tc := ⟨.hbm, 849, rfl⟩
abbrev main_call18_cst_0 : Ref sig .tc := ⟨.hbm, 850, rfl⟩
abbrev main_call18_v2 : Ref sig .tc := ⟨.hbm, 851, rfl⟩
abbrev main_call18_v3 : Ref sig .tc := ⟨.hbm, 852, rfl⟩
abbrev main_call18_v4 : Ref sig .tc := ⟨.hbm, 853, rfl⟩
abbrev main_call18_v5 : Ref sig .tc := ⟨.hbm, 854, rfl⟩
abbrev main_call18_v6 : Ref sig .tc := ⟨.hbm, 855, rfl⟩
abbrev main_call18_v7 : Ref sig .tc := ⟨.hbm, 856, rfl⟩
abbrev main_call18_cst_1 : Ref sig .tc := ⟨.hbm, 857, rfl⟩
abbrev main_call18_v8 : Ref sig .tc := ⟨.hbm, 858, rfl⟩
abbrev main_call18_cst_2 : Ref sig .tc := ⟨.hbm, 859, rfl⟩
abbrev main_call18_v9 : Ref sig .tc := ⟨.hbm, 860, rfl⟩
abbrev main_call18_v10 : Ref sig .tc := ⟨.hbm, 861, rfl⟩
abbrev main_call18_v11 : Ref sig .tc := ⟨.hbm, 862, rfl⟩
abbrev main_call18_cst_3 : Ref sig .tc := ⟨.hbm, 863, rfl⟩
abbrev main_call18_v12 : Ref sig .tc := ⟨.hbm, 864, rfl⟩
abbrev main_call18_cst_4 : Ref sig .tc := ⟨.hbm, 865, rfl⟩
abbrev main_call18_call0_v0 : Ref sig .tc := ⟨.hbm, 866, rfl⟩
abbrev main_call18_call0_v1 : Ref sig .tc := ⟨.hbm, 867, rfl⟩
abbrev main_v538 : Ref sig .tc := ⟨.hbm, 868, rfl⟩
abbrev main_v539 : Ref sig .tc := ⟨.hbm, 869, rfl⟩
abbrev main_v540 : Ref sig .tc := ⟨.hbm, 870, rfl⟩
abbrev main_v541 : Ref sig .tc := ⟨.hbm, 871, rfl⟩
abbrev main_cst_83 : Ref sig .tc := ⟨.hbm, 872, rfl⟩
abbrev main_v542 : Ref sig .tc := ⟨.hbm, 873, rfl⟩
abbrev main_v543 : Ref sig .tc := ⟨.hbm, 874, rfl⟩
abbrev main_v544 : Ref sig .tc := ⟨.hbm, 875, rfl⟩
abbrev main_v545 : Ref sig .tc := ⟨.hbm, 876, rfl⟩
abbrev main_v546 : Ref sig .tc := ⟨.hbm, 877, rfl⟩
abbrev main_v547 : Ref sig .tc := ⟨.hbm, 878, rfl⟩
abbrev main_v548 : Ref sig .tc := ⟨.hbm, 879, rfl⟩
abbrev main_v549 : Ref sig .tc := ⟨.hbm, 880, rfl⟩
abbrev main_v550 : Ref sig .tc := ⟨.hbm, 881, rfl⟩
abbrev main_v551 : Ref sig .tc := ⟨.hbm, 882, rfl⟩
abbrev main_v552 : Ref sig .tc := ⟨.hbm, 883, rfl⟩
abbrev main_v553 : Ref sig .tc := ⟨.hbm, 884, rfl⟩
abbrev main_call19_cst : Ref sig .tc := ⟨.hbm, 885, rfl⟩
abbrev main_call19_v0 : Ref sig .tc := ⟨.hbm, 886, rfl⟩
abbrev main_v554 : Ref sig .tc := ⟨.hbm, 887, rfl⟩
abbrev main_cst_84 : Ref sig .tc := ⟨.hbm, 888, rfl⟩
abbrev main_v555 : Ref sig .tc := ⟨.hbm, 889, rfl⟩
abbrev main_v556 : Ref sig .tc := ⟨.hbm, 890, rfl⟩
abbrev main_v557 : Ref sig .tc := ⟨.hbm, 891, rfl⟩
abbrev main_cst_85 : Ref sig .tc := ⟨.hbm, 892, rfl⟩
abbrev main_v558 : Ref sig .tc := ⟨.hbm, 893, rfl⟩
abbrev main_cst_86 : Ref sig .tc := ⟨.hbm, 894, rfl⟩
abbrev main_v559 : Ref sig .tc := ⟨.hbm, 895, rfl⟩
abbrev main_v560 : Ref sig .tc := ⟨.hbm, 896, rfl⟩
abbrev main_v561 : Ref sig .tc := ⟨.hbm, 897, rfl⟩
abbrev main_cst_87 : Ref sig .tc := ⟨.hbm, 898, rfl⟩
abbrev main_v562 : Ref sig .tc := ⟨.hbm, 899, rfl⟩
abbrev main_v563 : Ref sig .tc := ⟨.hbm, 900, rfl⟩
abbrev main_v564 : Ref sig .tc := ⟨.hbm, 901, rfl⟩
abbrev main_v565 : Ref sig .tc := ⟨.hbm, 902, rfl⟩
abbrev main_v566 : Ref sig .tc := ⟨.hbm, 903, rfl⟩
abbrev main_v567 : Ref sig .tc := ⟨.hbm, 904, rfl⟩
abbrev main_v568 : Ref sig .tc := ⟨.hbm, 905, rfl⟩
abbrev main_v569 : Ref sig .tc := ⟨.hbm, 906, rfl⟩
abbrev main_v570 : Ref sig .tc := ⟨.hbm, 907, rfl⟩

abbrev nD : Nat := 1
abbrev τ : Topo := Topo.v7x

variable {F : FTy → Type} [FloatOps F]

class Facts₀ : Prop where
  slices_S9x128x100_S1x128x100_0_0_0 : S9x128x100.Slices ![0, 0, 0] S1x128x100
  shapeCasts_S1x128x100_S128x100 : S1x128x100.ShapeCasts S128x100
  slices_S50000x9_S50000x1_0_0 : S50000x9.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  bcast_S_S50000x100 : S_.BroadcastsInDim S50000x100 (![] : Fin 0 → Fin S50000x100.rank)
  slices_S9x128x100_S1x128x100_1_0_0 : S9x128x100.Slices ![1, 0, 0] S1x128x100
  slices_S50000x9_S50000x1_0_1 : S50000x9.Slices ![0, 1] S50000x1
  slices_S9x128x100_S1x128x100_2_0_0 : S9x128x100.Slices ![2, 0, 0] S1x128x100
  slices_S50000x9_S50000x1_0_2 : S50000x9.Slices ![0, 2] S50000x1
  slices_S9x128x100_S1x128x100_3_0_0 : S9x128x100.Slices ![3, 0, 0] S1x128x100
  slices_S50000x9_S50000x1_0_3 : S50000x9.Slices ![0, 3] S50000x1
  slices_S9x128x100_S1x128x100_4_0_0 : S9x128x100.Slices ![4, 0, 0] S1x128x100
  slices_S50000x9_S50000x1_0_4 : S50000x9.Slices ![0, 4] S50000x1
  slices_S9x128x100_S1x128x100_5_0_0 : S9x128x100.Slices ![5, 0, 0] S1x128x100
  slices_S50000x9_S50000x1_0_5 : S50000x9.Slices ![0, 5] S50000x1
  slices_S9x128x100_S1x128x100_6_0_0 : S9x128x100.Slices ![6, 0, 0] S1x128x100
  slices_S50000x9_S50000x1_0_6 : S50000x9.Slices ![0, 6] S50000x1
  slices_S9x128x100_S1x128x100_7_0_0 : S9x128x100.Slices ![7, 0, 0] S1x128x100
  slices_S50000x9_S50000x1_0_7 : S50000x9.Slices ![0, 7] S50000x1
  slices_S9x128x100_S1x128x100_8_0_0 : S9x128x100.Slices ![8, 0, 0] S1x128x100
  slices_S50000x9_S50000x1_0_8 : S50000x9.Slices ![0, 8] S50000x1
  slices_S3x16x100_S1x16x100_0_0_0 : S3x16x100.Slices ![0, 0, 0] S1x16x100
  shapeCasts_S1x16x100_S16x100 : S1x16x100.ShapeCasts S16x100
  slices_S800000x3_S800000x1_0_0 : S800000x3.Slices ![0, 0] S800000x1
  shapeCasts_S800000x1_S800000 : S800000x1.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x100 : S_.BroadcastsInDim S800000x100 (![] : Fin 0 → Fin S800000x100.rank)
  slices_S3x16x100_S1x16x100_1_0_0 : S3x16x100.Slices ![1, 0, 0] S1x16x100
  slices_S800000x3_S800000x1_0_1 : S800000x3.Slices ![0, 1] S800000x1
  slices_S3x16x100_S1x16x100_2_0_0 : S3x16x100.Slices ![2, 0, 0] S1x16x100
  slices_S800000x3_S800000x1_0_2 : S800000x3.Slices ![0, 2] S800000x1
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S5_S1_0 : S5.Slices ![0] S1
  shapeCasts_S1_S_ : S1.ShapeCasts S_
  slices_S5x100x200_S1x100x200_0_0_0 : S5x100x200.Slices ![0, 0, 0] S1x100x200
  shapeCasts_S1x100x200_S100x200 : S1x100x200.ShapeCasts S100x200
  slices_S5x200_S1x200_0_0 : S5x200.Slices ![0, 0] S1x200
  shapeCasts_S1x200_S200 : S1x200.ShapeCasts S200
  bcast_S200_S1x200_1 : S200.BroadcastsInDim S1x200 (![1] : Fin 1 → Fin S1x200.rank)
  bcast_S1x200_S50000x200_0_1 : S1x200.BroadcastsInDim S50000x200 (![0, 1] : Fin 2 → Fin S50000x200.rank)
  reducesTo_S50000x200_S200_d0 : S50000x200.ReducesTo [0] S200
  h_S_ : 0 < S_.numel
  bcast_S_S200 : S_.BroadcastsInDim S200 (![] : Fin 0 → Fin S200.rank)
  bcast_S_S1x200 : S_.BroadcastsInDim S1x200 (![] : Fin 0 → Fin S1x200.rank)
  bcast_S_S50000x200 : S_.BroadcastsInDim S50000x200 (![] : Fin 0 → Fin S50000x200.rank)
  slices_S5x200x100_S1x200x100_0_0_0 : S5x200x100.Slices ![0, 0, 0] S1x200x100
  shapeCasts_S1x200x100_S200x100 : S1x200x100.ShapeCasts S200x100
  slices_S5x100_S1x100_0_0 : S5x100.Slices ![0, 0] S1x100
  shapeCasts_S1x100_S100 : S1x100.ShapeCasts S100
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  reducesTo_S50000x100_S100_d0 : S50000x100.ReducesTo [0] S100
  bcast_S_S100 : S_.BroadcastsInDim S100 (![] : Fin 0 → Fin S100.rank)
  bcast_S_S1x100 : S_.BroadcastsInDim S1x100 (![] : Fin 0 → Fin S1x100.rank)
  slices_S5_S1_1 : S5.Slices ![1] S1
  slices_S5x100x200_S1x100x200_1_0_0 : S5x100x200.Slices ![1, 0, 0] S1x100x200
  slices_S5x200_S1x200_1_0 : S5x200.Slices ![1, 0] S1x200
  slices_S5x200x100_S1x200x100_1_0_0 : S5x200x100.Slices ![1, 0, 0] S1x200x100
  slices_S5x100_S1x100_1_0 : S5x100.Slices ![1, 0] S1x100
  slices_S5_S1_2 : S5.Slices ![2] S1
  slices_S5x100x200_S1x100x200_2_0_0 : S5x100x200.Slices ![2, 0, 0] S1x100x200
  slices_S5x200_S1x200_2_0 : S5x200.Slices ![2, 0] S1x200
  slices_S5x200x100_S1x200x100_2_0_0 : S5x200x100.Slices ![2, 0, 0] S1x200x100
  slices_S5x100_S1x100_2_0 : S5x100.Slices ![2, 0] S1x100
  slices_S5_S1_3 : S5.Slices ![3] S1
  slices_S5x100x200_S1x100x200_3_0_0 : S5x100x200.Slices ![3, 0, 0] S1x100x200
  slices_S5x200_S1x200_3_0 : S5x200.Slices ![3, 0] S1x200
  slices_S5x200x100_S1x200x100_3_0_0 : S5x200x100.Slices ![3, 0, 0] S1x200x100
  slices_S5x100_S1x100_3_0 : S5x100.Slices ![3, 0] S1x100
  slices_S5_S1_4 : S5.Slices ![4] S1
  slices_S5x100x200_S1x100x200_4_0_0 : S5x100x200.Slices ![4, 0, 0] S1x100x200
  slices_S5x200_S1x200_4_0 : S5x200.Slices ![4, 0] S1x200
  slices_S5x200x100_S1x200x100_4_0_0 : S5x200x100.Slices ![4, 0, 0] S1x200x100
  slices_S5x100_S1x100_4_0 : S5x100.Slices ![4, 0] S1x100
  bcast_S_S512x100 : S_.BroadcastsInDim S512x100 (![] : Fin 0 → Fin S512x100.rank)
  bcast_S_S512 : S_.BroadcastsInDim S512 (![] : Fin 0 → Fin S512.rank)
  bcast_S512_S512x1_0 : S512.BroadcastsInDim S512x1 (![0] : Fin 1 → Fin S512x1.rank)
  bcast_S512x1_S512x100_0_1 : S512x1.BroadcastsInDim S512x100 (![0, 1] : Fin 2 → Fin S512x100.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  gather_S128x100_S50000x1_S50000x100_1_0_n_n_0_1_1100_wf : GatherDims.WF S128x100 S50000x1 S50000x100 [1] [0] [] [0] [] 1 ![1, 100]
  gather_S16x100_S800000x1_S800000x100_1_0_n_n_0_1_1100_wf : GatherDims.WF S16x100 S800000x1 S800000x100 [1] [0] [] [0] [] 1 ![1, 100]
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  dot_S50000x100_S100x200_S50000x200_1_0_0_1_n_n_wf : DotDims.WF S50000x100 S100x200 S50000x200 [1] [0] [0] [1] [] []
  dot_S50000x200_S200x100_S50000x100_1_0_0_1_n_n_wf : DotDims.WF S50000x200 S200x100 S50000x100 [1] [0] [0] [1] [] []
  scatter_S512x100_S50000x1_S50000x100_1_0_0_1_wf : ScatterDims.WF S512x100 S50000x1 S50000x100 [1] [0] [0] 1
  scatter_S512_S50000x1_S50000_n_0_0_1_wf : ScatterDims.WF S512 S50000x1 S50000 [] [0] [0] 1
  dot_S512x100_S100x2_S512x2_1_0_0_1_n_n_wf : DotDims.WF S512x100 S100x2 S512x2 [1] [0] [0] [1] [] []

variable [Facts₀]

def gather_S128x100_S50000x1_S50000x100_1_0_n_n_0_1_1100 : GatherDims S128x100 S50000x1 S50000x100 where
  offsetDims := [1]
  collapsedSliceDims := [0]
  operandBatchingDims := []
  startIndicesBatchingDims := []
  startIndexMap := [0]
  indexVectorDim := 1
  sliceSizes := ![1, 100]
  wf := gather_S128x100_S50000x1_S50000x100_1_0_n_n_0_1_1100_wf
def gather_S16x100_S800000x1_S800000x100_1_0_n_n_0_1_1100 : GatherDims S16x100 S800000x1 S800000x100 where
  offsetDims := [1]
  collapsedSliceDims := [0]
  operandBatchingDims := []
  startIndicesBatchingDims := []
  startIndexMap := [0]
  indexVectorDim := 1
  sliceSizes := ![1, 100]
  wf := gather_S16x100_S800000x1_S800000x100_1_0_n_n_0_1_1100_wf
def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def dot_S50000x100_S100x200_S50000x200_1_0_0_1_n_n : DotDims S50000x100 S100x200 S50000x200 where
  lhsContracting := [1]
  rhsContracting := [0]
  lhsNonContracting := [0]
  rhsNonContracting := [1]
  lhsBatch := []
  rhsBatch := []
  wf := dot_S50000x100_S100x200_S50000x200_1_0_0_1_n_n_wf
def dot_S50000x200_S200x100_S50000x100_1_0_0_1_n_n : DotDims S50000x200 S200x100 S50000x100 where
  lhsContracting := [1]
  rhsContracting := [0]
  lhsNonContracting := [0]
  rhsNonContracting := [1]
  lhsBatch := []
  rhsBatch := []
  wf := dot_S50000x200_S200x100_S50000x100_1_0_0_1_n_n_wf
def scatter_S512x100_S50000x1_S50000x100_1_0_0_1 : ScatterDims S512x100 S50000x1 S50000x100 where
  updateWindowDims := [1]
  insertedWindowDims := [0]
  scatterDimsToOperandDims := [0]
  indexVectorDim := 1
  wf := scatter_S512x100_S50000x1_S50000x100_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x100_S100x2_S512x2_1_0_0_1_n_n : DotDims S512x100 S100x2 S512x2 where
  lhsContracting := [1]
  rhsContracting := [0]
  lhsNonContracting := [0]
  rhsNonContracting := [1]
  lhsBatch := []
  rhsBatch := []
  wf := dot_S512x100_S100x2_S512x2_1_0_0_1_n_n_wf

class Facts : Prop extends Facts₀ where

variable [Facts]
-- ==== Proof.BKeepWritten.lean ====
/-
  What the host stretches between the regions write, and which arrays the regions' windows stage — by NUMBER. The
  TensorCore's HBM buffers are numbered in the order the program introduces them: the seventeen arguments are 0 … 16,
  then every operation's result in program order. The edge features `e` (main_v145, number 188), the edge ends `src`
  (main_v147, 190) and `dst` (main_v149, 192) come out of the first stretch; every result of a LATER stretch, and every
  array a region's window stages, has a number of 193 or more. So a buffer numbered below 193 — each argument, e, src,
  dst — is written by no stretch after the first and is no window's array: number below 193 on one side, at least 193
  on the other, hence different references.
-/
import proofs.«403201_j40475771797954_1_alg».proof.Proof.Gen.Kernel.Launch
import Idealize.ShloMosaic.Lib.StableHlo.Run

set_option maxRecDepth 16384

noncomputable section

namespace Cert.Kernel.Keep

open Cert.Kernel Cert.Kernel.Gen
open Idealize.ShloMosaic Idealize.ShloMosaic.TcCoe

variable {F : FTy → Type} [FloatOps F]

/-- A reference's number among the buffers of its memory space. -/
abbrev key (r : Ref sig .tc) : ℕ := r.idx.val

/-- References whose numbers are separated by a bound are different. -/
theorem ne_of_key_lt {b y : Ref sig .tc} {T : ℕ} (hb : key b < T) (hy : T ≤ key y) : b ≠ y :=
  fun e => absurd (e ▸ hb) (Nat.not_lt.mpr hy)

/-! ## No later stretch writes a buffer numbered below 193 -/

/-- `hostOps1` (7 operations): each result is numbered 193 or more. -/
theorem keeps_hostOps1 {b : Ref sig .tc} (hb : key b < 193) : ∀ op ∈ (hostOps1 : List (HloOp τ sig (Elt F))), Proc.devRef .tc b ∉ op.writes :=
  List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps1_1` (23 operations): each result is numbered 193 or more. -/
theorem keeps_hostOps1_1 {b : Ref sig .tc} (hb : key b < 193) : ∀ op ∈ (hostOps1_1 : List (HloOp τ sig (Elt F))), Proc.devRef .tc b ∉ op.writes :=
  List.forall_iff_forall_mem.mp (by
    simp only [hostOps1_1, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps1_2` (5 operations): each result is numbered 193 or more. -/
theorem keeps_hostOps1_2 {b : Ref sig .tc} (hb : key b < 193) : ∀ op ∈ (hostOps1_2 : List (HloOp τ sig (Elt F))), Proc.devRef .tc b ∉ op.writes :=
  List.forall_iff_forall_mem.mp (by
    simp only [hostOps1_2, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps2` (7 operations): each result is numbered 193 or more. -/
theorem keeps_hostOps2 {b : Ref sig .tc} (hb : key b < 193) : ∀ op ∈ (hostOps2 : List (HloOp τ sig (Elt F))), Proc.devRef .tc b ∉ op.writes :=
  List.forall_iff_forall_mem.mp (by
    simp only [hostOps2, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps2_1` (23 operations): each result is numbered 193 or more. -/
theorem keeps_hostOps2_1 {b : Ref sig .tc} (hb : key b < 193) : ∀ op ∈ (hostOps2_1 : List (HloOp τ sig (Elt F))), Proc.devRef .tc b ∉ op.writes :=
  List.forall_iff_forall_mem.mp (by
    simp only [hostOps2_1, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps2_2` (2 operations): each result is numbered 193 or more. -/
theorem keeps_hostOps2_2 {b : Ref sig .tc} (hb : key b < 193) : ∀ op ∈ (hostOps2_2 : List (HloOp τ sig (Elt F))), Proc.devRef .tc b ∉ op.writes :=
  List.forall_iff_forall_mem.mp (by
    simp only [hostOps2_2, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps3` (24 operations): each result is numbered 193 or more. -/
theorem keeps_hostOps3 {b : Ref sig .tc} (hb : key b < 193) : ∀ op ∈ (hostOps3 : List (HloOp τ sig (Elt F))), Proc.devRef .tc b ∉ op.writes :=
  List.forall_iff_forall_mem.mp (by
    simp only [hostOps3, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps4` (7 operations): each result is numbered 193 or more. -/
theorem keeps_hostOps4 {b : Ref sig .tc} (hb : key b < 193) : ∀ op ∈ (hostOps4 : List (HloOp τ sig (Elt F))), Proc.devRef .tc b ∉ op.writes :=
  List.forall_iff_forall_mem.mp (by
    simp only [hostOps4, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps4_1` (23 operations): each result is numbered 193 or more. -/
theorem keeps_hostOps4_1 {b : Ref sig .tc} (hb : key b < 193) : ∀ op ∈ (hostOps4_1 : List (HloOp τ sig (Elt F))), Proc.devRef .tc b ∉ op.writes :=
  List.forall_iff_forall_mem.mp (by
    simp only [hostOps4_1, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps4_2` (5 operations): each result is numbered 193 or more. -/
theorem keeps_hostOps4_2 {b : Ref sig .tc} (hb : key b < 193) : ∀ op ∈ (hostOps4_2 : List (HloOp τ sig (Elt F))), Proc.devRef .tc b ∉ op.writes :=
  List.forall_iff_forall_mem.mp (by
    simp only [hostOps4_2, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps5` (7 operations): each result is numbered 193 or more. -/
theorem keeps_hostOps5 {b : Ref sig .tc} (hb : key b < 193) : ∀ op ∈ (hostOps5 : List (HloOp τ sig (Elt F))), Proc.devRef .tc b ∉ op.writes :=
  List.forall_iff_forall_mem.mp (by
    simp only [hostOps5, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps5_1` (23 operations): each result is numbered 193 or more. -/
theorem keeps_hostOps5_1 {b : Ref sig .tc} (hb : key b < 193) : ∀ op ∈ (hostOps5_1 : List (HloOp τ sig (Elt F))), Proc.devRef .tc b ∉ op.writes :=
  List.forall_iff_forall_mem.mp (by
    simp only [hostOps5_1, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps5_2` (2 operations): each result is numbered 193 or more. -/
theorem keeps_hostOps5_2 {b : Ref sig .tc} (hb : key b < 193) : ∀ op ∈ (hostOps5_2 : List (HloOp τ sig (Elt F))), Proc.devRef .tc b ∉ op.writes :=
  List.forall_iff_forall_mem.mp (by
    simp only [hostOps5_2, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps6` (24 operations): each result is numbered 193 or more. -/
theorem keeps_hostOps6 {b : Ref sig .tc} (hb : key b < 193) : ∀ op ∈ (hostOps6 : List (HloOp τ sig (Elt F))), Proc.devRef .tc b ∉ op.writes :=
  List.forall_iff_forall_mem.mp (by
    simp only [hostOps6, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps7` (7 operations): each result is numbered 193 or more. -/
theorem keeps_hostOps7 {b : Ref sig .tc} (hb : key b < 193) : ∀ op ∈ (hostOps7 : List (HloOp τ sig (Elt F))), Proc.devRef .tc b ∉ op.writes :=
  List.forall_iff_forall_mem.mp (by
    simp only [hostOps7, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps7_1` (23 operations): each result is numbered 193 or more. -/
theorem keeps_hostOps7_1 {b : Ref sig .tc} (hb : key b < 193) : ∀ op ∈ (hostOps7_1 : List (HloOp τ sig (Elt F))), Proc.devRef .tc b ∉ op.writes :=
  List.forall_iff_forall_mem.mp (by
    simp only [hostOps7_1, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps7_2` (5 operations): each result is numbered 193 or more. -/
theorem keeps_hostOps7_2 {b : Ref sig .tc} (hb : key b < 193) : ∀ op ∈ (hostOps7_2 : List (HloOp τ sig (Elt F))), Proc.devRef .tc b ∉ op.writes :=
  List.forall_iff_forall_mem.mp (by
    simp only [hostOps7_2, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps8` (7 operations): each result is numbered 193 or more. -/
theorem keeps_hostOps8 {b : Ref sig .tc} (hb : key b < 193) : ∀ op ∈ (hostOps8 : List (HloOp τ sig (Elt F))), Proc.devRef .tc b ∉ op.writes :=
  List.forall_iff_forall_mem.mp (by
    simp only [hostOps8, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps8_1` (23 operations): each result is numbered 193 or more. -/
theorem keeps_hostOps8_1 {b : Ref sig .tc} (hb : key b < 193) : ∀ op ∈ (hostOps8_1 : List (HloOp τ sig (Elt F))), Proc.devRef .tc b ∉ op.writes :=
  List.forall_iff_forall_mem.mp (by
    simp only [hostOps8_1, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps8_2` (2 operations): each result is numbered 193 or more. -/
theorem keeps_hostOps8_2 {b : Ref sig .tc} (hb : key b < 193) : ∀ op ∈ (hostOps8_2 : List (HloOp τ sig (Elt F))), Proc.devRef .tc b ∉ op.writes :=
  List.forall_iff_forall_mem.mp (by
    simp only [hostOps8_2, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps9` (24 operations): each result is numbered 193 or more. -/
theorem keeps_hostOps9 {b : Ref sig .tc} (hb : key b < 193) : ∀ op ∈ (hostOps9 : List (HloOp τ sig (Elt F))), Proc.devRef .tc b ∉ op.writes :=
  List.forall_iff_forall_mem.mp (by
    simp only [hostOps9, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps10` (7 operations): each result is numbered 193 or more. -/
theorem keeps_hostOps10 {b : Ref sig .tc} (hb : key b < 193) : ∀ op ∈ (hostOps10 : List (HloOp τ sig (Elt F))), Proc.devRef .tc b ∉ op.writes :=
  List.forall_iff_forall_mem.mp (by
    simp only [hostOps10, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps10_1` (23 operations): each result is numbered 193 or more. -/
theorem keeps_hostOps10_1 {b : Ref sig .tc} (hb : key b < 193) : ∀ op ∈ (hostOps10_1 : List (HloOp τ sig (Elt F))), Proc.devRef .tc b ∉ op.writes :=
  List.forall_iff_forall_mem.mp (by
    simp only [hostOps10_1, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps10_2` (5 operations): each result is numbered 193 or more. -/
theorem keeps_hostOps10_2 {b : Ref sig .tc} (hb : key b < 193) : ∀ op ∈ (hostOps10_2 : List (HloOp τ sig (Elt F))), Proc.devRef .tc b ∉ op.writes :=
  List.forall_iff_forall_mem.mp (by
    simp only [hostOps10_2, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps11` (7 operations): each result is numbered 193 or more. -/
theorem keeps_hostOps11 {b : Ref sig .tc} (hb : key b < 193) : ∀ op ∈ (hostOps11 : List (HloOp τ sig (Elt F))), Proc.devRef .tc b ∉ op.writes :=
  List.forall_iff_forall_mem.mp (by
    simp only [hostOps11, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps11_1` (23 operations): each result is numbered 193 or more. -/
theorem keeps_hostOps11_1 {b : Ref sig .tc} (hb : key b < 193) : ∀ op ∈ (hostOps11_1 : List (HloOp τ sig (Elt F))), Proc.devRef .tc b ∉ op.writes :=
  List.forall_iff_forall_mem.mp (by
    simp only [hostOps11_1, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps11_2` (2 operations): each result is numbered 193 or more. -/
theorem keeps_hostOps11_2 {b : Ref sig .tc} (hb : key b < 193) : ∀ op ∈ (hostOps11_2 : List (HloOp τ sig (Elt F))), Proc.devRef .tc b ∉ op.writes :=
  List.forall_iff_forall_mem.mp (by
    simp only [hostOps11_2, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps12` (24 operations): each result is numbered 193 or more. -/
theorem keeps_hostOps12 {b : Ref sig .tc} (hb : key b < 193) : ∀ op ∈ (hostOps12 : List (HloOp τ sig (Elt F))), Proc.devRef .tc b ∉ op.writes :=
  List.forall_iff_forall_mem.mp (by
    simp only [hostOps12, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps13` (7 operations): each result is numbered 193 or more. -/
theorem keeps_hostOps13 {b : Ref sig .tc} (hb : key b < 193) : ∀ op ∈ (hostOps13 : List (HloOp τ sig (Elt F))), Proc.devRef .tc b ∉ op.writes :=
  List.forall_iff_forall_mem.mp (by
    simp only [hostOps13, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps13_1` (23 operations): each result is numbered 193 or more. -/
theorem keeps_hostOps13_1 {b : Ref sig .tc} (hb : key b < 193) : ∀ op ∈ (hostOps13_1 : List (HloOp τ sig (Elt F))), Proc.devRef .tc b ∉ op.writes :=
  List.forall_iff_forall_mem.mp (by
    simp only [hostOps13_1, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps13_2` (5 operations): each result is numbered 193 or more. -/
theorem keeps_hostOps13_2 {b : Ref sig .tc} (hb : key b < 193) : ∀ op ∈ (hostOps13_2 : List (HloOp τ sig (Elt F))), Proc.devRef .tc b ∉ op.writes :=
  List.forall_iff_forall_mem.mp (by
    simp only [hostOps13_2, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps14` (7 operations): each result is numbered 193 or more. -/
theorem keeps_hostOps14 {b : Ref sig .tc} (hb : key b < 193) : ∀ op ∈ (hostOps14 : List (HloOp τ sig (Elt F))), Proc.devRef .tc b ∉ op.writes :=
  List.forall_iff_forall_mem.mp (by
    simp only [hostOps14, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps14_1` (23 operations): each result is numbered 193 or more. -/
theorem keeps_hostOps14_1 {b : Ref sig .tc} (hb : key b < 193) : ∀ op ∈ (hostOps14_1 : List (HloOp τ sig (Elt F))), Proc.devRef .tc b ∉ op.writes :=
  List.forall_iff_forall_mem.mp (by
    simp only [hostOps14_1, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps14_2` (2 operations): each result is numbered 193 or more. -/
theorem keeps_hostOps14_2 {b : Ref sig .tc} (hb : key b < 193) : ∀ op ∈ (hostOps14_2 : List (HloOp τ sig (Elt F))), Proc.devRef .tc b ∉ op.writes :=
  List.forall_iff_forall_mem.mp (by
    simp only [hostOps14_2, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps15` (20 operations): each result is numbered 193 or more. -/
theorem keeps_hostOps15 {b : Ref sig .tc} (hb : key b < 193) : ∀ op ∈ (hostOps15 : List (HloOp τ sig (Elt F))), Proc.devRef .tc b ∉ op.writes :=
  List.forall_iff_forall_mem.mp (by
    simp only [hostOps15, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))

/-! ## Every window's array is numbered 193 or more -/

theorem windows_spec0 : ∀ w, 193 ≤ key (Pipeline.arrRef spec0 w) := by decide
theorem windows_spec1 : ∀ w, 193 ≤ key (Pipeline.arrRef spec1 w) := by decide
theorem windows_spec2 : ∀ w, 193 ≤ key (Pipeline.arrRef spec2 w) := by decide
theorem windows_spec3 : ∀ w, 193 ≤ key (Pipeline.arrRef spec3 w) := by decide
theorem windows_spec4 : ∀ w, 193 ≤ key (Pipeline.arrRef spec4 w) := by decide
theorem windows_spec5 : ∀ w, 193 ≤ key (Pipeline.arrRef spec5 w) := by decide
theorem windows_spec6 : ∀ w, 193 ≤ key (Pipeline.arrRef spec6 w) := by decide
theorem windows_spec7 : ∀ w, 193 ≤ key (Pipeline.arrRef spec7 w) := by decide
theorem windows_spec8 : ∀ w, 193 ≤ key (Pipeline.arrRef spec8 w) := by decide
theorem windows_spec9 : ∀ w, 193 ≤ key (Pipeline.arrRef spec9 w) := by decide
theorem windows_spec10 : ∀ w, 193 ≤ key (Pipeline.arrRef spec10 w) := by decide
theorem windows_spec11 : ∀ w, 193 ≤ key (Pipeline.arrRef spec11 w) := by decide
theorem windows_spec12 : ∀ w, 193 ≤ key (Pipeline.arrRef spec12 w) := by decide
theorem windows_spec13 : ∀ w, 193 ≤ key (Pipeline.arrRef spec13 w) := by decide
theorem windows_spec14 : ∀ w, 193 ≤ key (Pipeline.arrRef spec14 w) := by decide

end Cert.Kernel.Keep

end
-- ==== Proof.BKeep.lean ====
/-
  After the first stretch of host operations nothing writes a buffer numbered below 193 — the seventeen arguments
  main_arg0 … main_arg16 (the stacked parameters among them), the edge features main_v145 and the edge ends main_v147,
  main_v149: a later stretch writes only its own results and a region changes only its own windows' arrays, all numbered
  193 or more. So at every later boundary of @main, the return included, each of them holds what it held at region 0's
  entry (`W1`).

  The argument is one step per boundary, composed downwards: through a stretch because none of its operations writes
  the buffer, through a region's exit because no window's array is the buffer.
-/
import proofs.«403201_j40475771797954_1_alg».proof.Proof.BFrameB
import proofs.«403201_j40475771797954_1_alg».proof.Proof.BKeepWritten

set_option maxRecDepth 16384

noncomputable section

namespace Cert.Kernel.Keep

open Cert.Kernel Cert.Kernel.Gen
open Idealize.ShloMosaic Idealize.ShloMosaic.TcCoe

variable {F : FTy → Type} [FloatOps F]

variable (m : (ℓ : Loc nD τ sig) → Buf (Elt F) ℓ) (ρ : Dev nD → PrngReg)

/-! ## Boundary by boundary down to region 0's entry -/

theorem keep2 (c : Dev nD) {b : Ref sig .tc} (hb : key b < 193) : W2 m ρ c (Proc.devRef .tc b) = W1 m ρ c (Proc.devRef .tc b) :=
  W2_of_ne m ρ c b fun w => (ne_of_key_lt hb (windows_spec0 w)).symm
theorem keep3 (c : Dev nD) {b : Ref sig .tc} (hb : key b < 193) : W3 m ρ c (Proc.devRef .tc b) = W1 m ρ c (Proc.devRef .tc b) :=
  (StableHlo.after_of_forall_not_mem (b := Proc.devRef .tc b) hostOps1 (W2 m ρ c) (keeps_hostOps1 hb)).trans (keep2 m ρ c hb)
theorem keep4 (c : Dev nD) {b : Ref sig .tc} (hb : key b < 193) : W4 m ρ c (Proc.devRef .tc b) = W1 m ρ c (Proc.devRef .tc b) :=
  (StableHlo.after_of_forall_not_mem (b := Proc.devRef .tc b) hostOps1_1 (W3 m ρ c) (keeps_hostOps1_1 hb)).trans (keep3 m ρ c hb)
theorem keep5 (c : Dev nD) {b : Ref sig .tc} (hb : key b < 193) : W5 m ρ c (Proc.devRef .tc b) = W1 m ρ c (Proc.devRef .tc b) :=
  (StableHlo.after_of_forall_not_mem (b := Proc.devRef .tc b) hostOps1_2 (W4 m ρ c) (keeps_hostOps1_2 hb)).trans (keep4 m ρ c hb)
theorem keep6 (c : Dev nD) {b : Ref sig .tc} (hb : key b < 193) : W6 m ρ c (Proc.devRef .tc b) = W1 m ρ c (Proc.devRef .tc b) :=
  (W6_of_ne m ρ c b fun w => (ne_of_key_lt hb (windows_spec1 w)).symm).trans (keep5 m ρ c hb)
theorem keep7 (c : Dev nD) {b : Ref sig .tc} (hb : key b < 193) : W7 m ρ c (Proc.devRef .tc b) = W1 m ρ c (Proc.devRef .tc b) :=
  (StableHlo.after_of_forall_not_mem (b := Proc.devRef .tc b) hostOps2 (W6 m ρ c) (keeps_hostOps2 hb)).trans (keep6 m ρ c hb)
theorem keep8 (c : Dev nD) {b : Ref sig .tc} (hb : key b < 193) : W8 m ρ c (Proc.devRef .tc b) = W1 m ρ c (Proc.devRef .tc b) :=
  (StableHlo.after_of_forall_not_mem (b := Proc.devRef .tc b) hostOps2_1 (W7 m ρ c) (keeps_hostOps2_1 hb)).trans (keep7 m ρ c hb)
theorem keep9 (c : Dev nD) {b : Ref sig .tc} (hb : key b < 193) : W9 m ρ c (Proc.devRef .tc b) = W1 m ρ c (Proc.devRef .tc b) :=
  (StableHlo.after_of_forall_not_mem (b := Proc.devRef .tc b) hostOps2_2 (W8 m ρ c) (keeps_hostOps2_2 hb)).trans (keep8 m ρ c hb)
theorem keep10 (c : Dev nD) {b : Ref sig .tc} (hb : key b < 193) : W10 m ρ c (Proc.devRef .tc b) = W1 m ρ c (Proc.devRef .tc b) :=
  (W10_of_ne m ρ c b fun w => (ne_of_key_lt hb (windows_spec2 w)).symm).trans (keep9 m ρ c hb)
theorem keep11 (c : Dev nD) {b : Ref sig .tc} (hb : key b < 193) : W11 m ρ c (Proc.devRef .tc b) = W1 m ρ c (Proc.devRef .tc b) :=
  (StableHlo.after_of_forall_not_mem (b := Proc.devRef .tc b) hostOps3 (W10 m ρ c) (keeps_hostOps3 hb)).trans (keep10 m ρ c hb)
theorem keep12 (c : Dev nD) {b : Ref sig .tc} (hb : key b < 193) : W12 m ρ c (Proc.devRef .tc b) = W1 m ρ c (Proc.devRef .tc b) :=
  (W12_of_ne m ρ c b fun w => (ne_of_key_lt hb (windows_spec3 w)).symm).trans (keep11 m ρ c hb)
theorem keep13 (c : Dev nD) {b : Ref sig .tc} (hb : key b < 193) : W13 m ρ c (Proc.devRef .tc b) = W1 m ρ c (Proc.devRef .tc b) :=
  (StableHlo.after_of_forall_not_mem (b := Proc.devRef .tc b) hostOps4 (W12 m ρ c) (keeps_hostOps4 hb)).trans (keep12 m ρ c hb)
theorem keep14 (c : Dev nD) {b : Ref sig .tc} (hb : key b < 193) : W14 m ρ c (Proc.devRef .tc b) = W1 m ρ c (Proc.devRef .tc b) :=
  (StableHlo.after_of_forall_not_mem (b := Proc.devRef .tc b) hostOps4_1 (W13 m ρ c) (keeps_hostOps4_1 hb)).trans (keep13 m ρ c hb)
theorem keep15 (c : Dev nD) {b : Ref sig .tc} (hb : key b < 193) : W15 m ρ c (Proc.devRef .tc b) = W1 m ρ c (Proc.devRef .tc b) :=
  (StableHlo.after_of_forall_not_mem (b := Proc.devRef .tc b) hostOps4_2 (W14 m ρ c) (keeps_hostOps4_2 hb)).trans (keep14 m ρ c hb)
theorem keep16 (c : Dev nD) {b : Ref sig .tc} (hb : key b < 193) : W16 m ρ c (Proc.devRef .tc b) = W1 m ρ c (Proc.devRef .tc b) :=
  (W16_of_ne m ρ c b fun w => (ne_of_key_lt hb (windows_spec4 w)).symm).trans (keep15 m ρ c hb)
theorem keep17 (c : Dev nD) {b : Ref sig .tc} (hb : key b < 193) : W17 m ρ c (Proc.devRef .tc b) = W1 m ρ c (Proc.devRef .tc b) :=
  (StableHlo.after_of_forall_not_mem (b := Proc.devRef .tc b) hostOps5 (W16 m ρ c) (keeps_hostOps5 hb)).trans (keep16 m ρ c hb)
theorem keep18 (c : Dev nD) {b : Ref sig .tc} (hb : key b < 193) : W18 m ρ c (Proc.devRef .tc b) = W1 m ρ c (Proc.devRef .tc b) :=
  (StableHlo.after_of_forall_not_mem (b := Proc.devRef .tc b) hostOps5_1 (W17 m ρ c) (keeps_hostOps5_1 hb)).trans (keep17 m ρ c hb)
theorem keep19 (c : Dev nD) {b : Ref sig .tc} (hb : key b < 193) : W19 m ρ c (Proc.devRef .tc b) = W1 m ρ c (Proc.devRef .tc b) :=
  (StableHlo.after_of_forall_not_mem (b := Proc.devRef .tc b) hostOps5_2 (W18 m ρ c) (keeps_hostOps5_2 hb)).trans (keep18 m ρ c hb)
theorem keep20 (c : Dev nD) {b : Ref sig .tc} (hb : key b < 193) : W20 m ρ c (Proc.devRef .tc b) = W1 m ρ c (Proc.devRef .tc b) :=
  (W20_of_ne m ρ c b fun w => (ne_of_key_lt hb (windows_spec5 w)).symm).trans (keep19 m ρ c hb)
theorem keep21 (c : Dev nD) {b : Ref sig .tc} (hb : key b < 193) : W21 m ρ c (Proc.devRef .tc b) = W1 m ρ c (Proc.devRef .tc b) :=
  (StableHlo.after_of_forall_not_mem (b := Proc.devRef .tc b) hostOps6 (W20 m ρ c) (keeps_hostOps6 hb)).trans (keep20 m ρ c hb)
theorem keep22 (c : Dev nD) {b : Ref sig .tc} (hb : key b < 193) : W22 m ρ c (Proc.devRef .tc b) = W1 m ρ c (Proc.devRef .tc b) :=
  (W22_of_ne m ρ c b fun w => (ne_of_key_lt hb (windows_spec6 w)).symm).trans (keep21 m ρ c hb)
theorem keep23 (c : Dev nD) {b : Ref sig .tc} (hb : key b < 193) : W23 m ρ c (Proc.devRef .tc b) = W1 m ρ c (Proc.devRef .tc b) :=
  (StableHlo.after_of_forall_not_mem (b := Proc.devRef .tc b) hostOps7 (W22 m ρ c) (keeps_hostOps7 hb)).trans (keep22 m ρ c hb)
theorem keep24 (c : Dev nD) {b : Ref sig .tc} (hb : key b < 193) : W24 m ρ c (Proc.devRef .tc b) = W1 m ρ c (Proc.devRef .tc b) :=
  (StableHlo.after_of_forall_not_mem (b := Proc.devRef .tc b) hostOps7_1 (W23 m ρ c) (keeps_hostOps7_1 hb)).trans (keep23 m ρ c hb)
theorem keep25 (c : Dev nD) {b : Ref sig .tc} (hb : key b < 193) : W25 m ρ c (Proc.devRef .tc b) = W1 m ρ c (Proc.devRef .tc b) :=
  (StableHlo.after_of_forall_not_mem (b := Proc.devRef .tc b) hostOps7_2 (W24 m ρ c) (keeps_hostOps7_2 hb)).trans (keep24 m ρ c hb)
theorem keep26 (c : Dev nD) {b : Ref sig .tc} (hb : key b < 193) : W26 m ρ c (Proc.devRef .tc b) = W1 m ρ c (Proc.devRef .tc b) :=
  (W26_of_ne m ρ c b fun w => (ne_of_key_lt hb (windows_spec7 w)).symm).trans (keep25 m ρ c hb)
theorem keep27 (c : Dev nD) {b : Ref sig .tc} (hb : key b < 193) : W27 m ρ c (Proc.devRef .tc b) = W1 m ρ c (Proc.devRef .tc b) :=
  (StableHlo.after_of_forall_not_mem (b := Proc.devRef .tc b) hostOps8 (W26 m ρ c) (keeps_hostOps8 hb)).trans (keep26 m ρ c hb)
theorem keep28 (c : Dev nD) {b : Ref sig .tc} (hb : key b < 193) : W28 m ρ c (Proc.devRef .tc b) = W1 m ρ c (Proc.devRef .tc b) :=
  (StableHlo.after_of_forall_not_mem (b := Proc.devRef .tc b) hostOps8_1 (W27 m ρ c) (keeps_hostOps8_1 hb)).trans (keep27 m ρ c hb)
theorem keep29 (c : Dev nD) {b : Ref sig .tc} (hb : key b < 193) : W29 m ρ c (Proc.devRef .tc b) = W1 m ρ c (Proc.devRef .tc b) :=
  (StableHlo.after_of_forall_not_mem (b := Proc.devRef .tc b) hostOps8_2 (W28 m ρ c) (keeps_hostOps8_2 hb)).trans (keep28 m ρ c hb)
theorem keep30 (c : Dev nD) {b : Ref sig .tc} (hb : key b < 193) : W30 m ρ c (Proc.devRef .tc b) = W1 m ρ c (Proc.devRef .tc b) :=
  (W30_of_ne m ρ c b fun w => (ne_of_key_lt hb (windows_spec8 w)).symm).trans (keep29 m ρ c hb)
theorem keep31 (c : Dev nD) {b : Ref sig .tc} (hb : key b < 193) : W31 m ρ c (Proc.devRef .tc b) = W1 m ρ c (Proc.devRef .tc b) :=
  (StableHlo.after_of_forall_not_mem (b := Proc.devRef .tc b) hostOps9 (W30 m ρ c) (keeps_hostOps9 hb)).trans (keep30 m ρ c hb)
theorem keep32 (c : Dev nD) {b : Ref sig .tc} (hb : key b < 193) : W32 m ρ c (Proc.devRef .tc b) = W1 m ρ c (Proc.devRef .tc b) :=
  (W32_of_ne m ρ c b fun w => (ne_of_key_lt hb (windows_spec9 w)).symm).trans (keep31 m ρ c hb)
theorem keep33 (c : Dev nD) {b : Ref sig .tc} (hb : key b < 193) : W33 m ρ c (Proc.devRef .tc b) = W1 m ρ c (Proc.devRef .tc b) :=
  (StableHlo.after_of_forall_not_mem (b := Proc.devRef .tc b) hostOps10 (W32 m ρ c) (keeps_hostOps10 hb)).trans (keep32 m ρ c hb)
theorem keep34 (c : Dev nD) {b : Ref sig .tc} (hb : key b < 193) : W34 m ρ c (Proc.devRef .tc b) = W1 m ρ c (Proc.devRef .tc b) :=
  (StableHlo.after_of_forall_not_mem (b := Proc.devRef .tc b) hostOps10_1 (W33 m ρ c) (keeps_hostOps10_1 hb)).trans (keep33 m ρ c hb)
theorem keep35 (c : Dev nD) {b : Ref sig .tc} (hb : key b < 193) : W35 m ρ c (Proc.devRef .tc b) = W1 m ρ c (Proc.devRef .tc b) :=
  (StableHlo.after_of_forall_not_mem (b := Proc.devRef .tc b) hostOps10_2 (W34 m ρ c) (keeps_hostOps10_2 hb)).trans (keep34 m ρ c hb)
theorem keep36 (c : Dev nD) {b : Ref sig .tc} (hb : key b < 193) : W36 m ρ c (Proc.devRef .tc b) = W1 m ρ c (Proc.devRef .tc b) :=
  (W36_of_ne m ρ c b fun w => (ne_of_key_lt hb (windows_spec10 w)).symm).trans (keep35 m ρ c hb)
theorem keep37 (c : Dev nD) {b : Ref sig .tc} (hb : key b < 193) : W37 m ρ c (Proc.devRef .tc b) = W1 m ρ c (Proc.devRef .tc b) :=
  (StableHlo.after_of_forall_not_mem (b := Proc.devRef .tc b) hostOps11 (W36 m ρ c) (keeps_hostOps11 hb)).trans (keep36 m ρ c hb)
theorem keep38 (c : Dev nD) {b : Ref sig .tc} (hb : key b < 193) : W38 m ρ c (Proc.devRef .tc b) = W1 m ρ c (Proc.devRef .tc b) :=
  (StableHlo.after_of_forall_not_mem (b := Proc.devRef .tc b) hostOps11_1 (W37 m ρ c) (keeps_hostOps11_1 hb)).trans (keep37 m ρ c hb)
theorem keep39 (c : Dev nD) {b : Ref sig .tc} (hb : key b < 193) : W39 m ρ c (Proc.devRef .tc b) = W1 m ρ c (Proc.devRef .tc b) :=
  (StableHlo.after_of_forall_not_mem (b := Proc.devRef .tc b) hostOps11_2 (W38 m ρ c) (keeps_hostOps11_2 hb)).trans (keep38 m ρ c hb)
theorem keep40 (c : Dev nD) {b : Ref sig .tc} (hb : key b < 193) : W40 m ρ c (Proc.devRef .tc b) = W1 m ρ c (Proc.devRef .tc b) :=
  (W40_of_ne m ρ c b fun w => (ne_of_key_lt hb (windows_spec11 w)).symm).trans (keep39 m ρ c hb)
theorem keep41 (c : Dev nD) {b : Ref sig .tc} (hb : key b < 193) : W41 m ρ c (Proc.devRef .tc b) = W1 m ρ c (Proc.devRef .tc b) :=
  (StableHlo.after_of_forall_not_mem (b := Proc.devRef .tc b) hostOps12 (W40 m ρ c) (keeps_hostOps12 hb)).trans (keep40 m ρ c hb)
theorem keep42 (c : Dev nD) {b : Ref sig .tc} (hb : key b < 193) : W42 m ρ c (Proc.devRef .tc b) = W1 m ρ c (Proc.devRef .tc b) :=
  (W42_of_ne m ρ c b fun w => (ne_of_key_lt hb (windows_spec12 w)).symm).trans (keep41 m ρ c hb)
theorem keep43 (c : Dev nD) {b : Ref sig .tc} (hb : key b < 193) : W43 m ρ c (Proc.devRef .tc b) = W1 m ρ c (Proc.devRef .tc b) :=
  (StableHlo.after_of_forall_not_mem (b := Proc.devRef .tc b) hostOps13 (W42 m ρ c) (keeps_hostOps13 hb)).trans (keep42 m ρ c hb)
theorem keep44 (c : Dev nD) {b : Ref sig .tc} (hb : key b < 193) : W44 m ρ c (Proc.devRef .tc b) = W1 m ρ c (Proc.devRef .tc b) :=
  (StableHlo.after_of_forall_not_mem (b := Proc.devRef .tc b) hostOps13_1 (W43 m ρ c) (keeps_hostOps13_1 hb)).trans (keep43 m ρ c hb)
theorem keep45 (c : Dev nD) {b : Ref sig .tc} (hb : key b < 193) : W45 m ρ c (Proc.devRef .tc b) = W1 m ρ c (Proc.devRef .tc b) :=
  (StableHlo.after_of_forall_not_mem (b := Proc.devRef .tc b) hostOps13_2 (W44 m ρ c) (keeps_hostOps13_2 hb)).trans (keep44 m ρ c hb)
theorem keep46 (c : Dev nD) {b : Ref sig .tc} (hb : key b < 193) : W46 m ρ c (Proc.devRef .tc b) = W1 m ρ c (Proc.devRef .tc b) :=
  (W46_of_ne m ρ c b fun w => (ne_of_key_lt hb (windows_spec13 w)).symm).trans (keep45 m ρ c hb)
theorem keep47 (c : Dev nD) {b : Ref sig .tc} (hb : key b < 193) : W47 m ρ c (Proc.devRef .tc b) = W1 m ρ c (Proc.devRef .tc b) :=
  (StableHlo.after_of_forall_not_mem (b := Proc.devRef .tc b) hostOps14 (W46 m ρ c) (keeps_hostOps14 hb)).trans (keep46 m ρ c hb)
theorem keep48 (c : Dev nD) {b : Ref sig .tc} (hb : key b < 193) : W48 m ρ c (Proc.devRef .tc b) = W1 m ρ c (Proc.devRef .tc b) :=
  (StableHlo.after_of_forall_not_mem (b := Proc.devRef .tc b) hostOps14_1 (W47 m ρ c) (keeps_hostOps14_1 hb)).trans (keep47 m ρ c hb)
theorem keep49 (c : Dev nD) {b : Ref sig .tc} (hb : key b < 193) : W49 m ρ c (Proc.devRef .tc b) = W1 m ρ c (Proc.devRef .tc b) :=
  (StableHlo.after_of_forall_not_mem (b := Proc.devRef .tc b) hostOps14_2 (W48 m ρ c) (keeps_hostOps14_2 hb)).trans (keep48 m ρ c hb)
theorem keep50 (c : Dev nD) {b : Ref sig .tc} (hb : key b < 193) : W50 m ρ c (Proc.devRef .tc b) = W1 m ρ c (Proc.devRef .tc b) :=
  (W50_of_ne m ρ c b fun w => (ne_of_key_lt hb (windows_spec14 w)).symm).trans (keep49 m ρ c hb)
theorem keep51 (c : Dev nD) {b : Ref sig .tc} (hb : key b < 193) : W51 m ρ c (Proc.devRef .tc b) = W1 m ρ c (Proc.devRef .tc b) :=
  (StableHlo.after_of_forall_not_mem (b := Proc.devRef .tc b) hostOps15 (W50 m ρ c) (keeps_hostOps15 hb)).trans (keep50 m ρ c hb)

/-! ## The instances the layers and the return read -/

theorem keep_main_v145_W10 (c : Dev nD) : W10 m ρ c (Proc.devRef .tc main_v145) = W1 m ρ c (Proc.devRef .tc main_v145) := keep10 m ρ c (by decide)
theorem keep_main_v145_W20 (c : Dev nD) : W20 m ρ c (Proc.devRef .tc main_v145) = W1 m ρ c (Proc.devRef .tc main_v145) := keep20 m ρ c (by decide)
theorem keep_main_v145_W30 (c : Dev nD) : W30 m ρ c (Proc.devRef .tc main_v145) = W1 m ρ c (Proc.devRef .tc main_v145) := keep30 m ρ c (by decide)
theorem keep_main_v145_W40 (c : Dev nD) : W40 m ρ c (Proc.devRef .tc main_v145) = W1 m ρ c (Proc.devRef .tc main_v145) := keep40 m ρ c (by decide)
theorem keep_main_v147_W10 (c : Dev nD) : W10 m ρ c (Proc.devRef .tc main_v147) = W1 m ρ c (Proc.devRef .tc main_v147) := keep10 m ρ c (by decide)
theorem keep_main_v147_W20 (c : Dev nD) : W20 m ρ c (Proc.devRef .tc main_v147) = W1 m ρ c (Proc.devRef .tc main_v147) := keep20 m ρ c (by decide)
theorem keep_main_v147_W30 (c : Dev nD) : W30 m ρ c (Proc.devRef .tc main_v147) = W1 m ρ c (Proc.devRef .tc main_v147) := keep30 m ρ c (by decide)
theorem keep_main_v147_W40 (c : Dev nD) : W40 m ρ c (Proc.devRef .tc main_v147) = W1 m ρ c (Proc.devRef .tc main_v147) := keep40 m ρ c (by decide)
theorem keep_main_v149_W10 (c : Dev nD) : W10 m ρ c (Proc.devRef .tc main_v149) = W1 m ρ c (Proc.devRef .tc main_v149) := keep10 m ρ c (by decide)
theorem keep_main_v149_W20 (c : Dev nD) : W20 m ρ c (Proc.devRef .tc main_v149) = W1 m ρ c (Proc.devRef .tc main_v149) := keep20 m ρ c (by decide)
theorem keep_main_v149_W30 (c : Dev nD) : W30 m ρ c (Proc.devRef .tc main_v149) = W1 m ρ c (Proc.devRef .tc main_v149) := keep30 m ρ c (by decide)
theorem keep_main_v149_W40 (c : Dev nD) : W40 m ρ c (Proc.devRef .tc main_v149) = W1 m ρ c (Proc.devRef .tc main_v149) := keep40 m ρ c (by decide)
theorem keep_main_arg6_W10 (c : Dev nD) : W10 m ρ c (Proc.devRef .tc main_arg6) = W1 m ρ c (Proc.devRef .tc main_arg6) := keep10 m ρ c (by decide)
theorem keep_main_arg6_W20 (c : Dev nD) : W20 m ρ c (Proc.devRef .tc main_arg6) = W1 m ρ c (Proc.devRef .tc main_arg6) := keep20 m ρ c (by decide)
theorem keep_main_arg6_W30 (c : Dev nD) : W30 m ρ c (Proc.devRef .tc main_arg6) = W1 m ρ c (Proc.devRef .tc main_arg6) := keep30 m ρ c (by decide)
theorem keep_main_arg6_W40 (c : Dev nD) : W40 m ρ c (Proc.devRef .tc main_arg6) = W1 m ρ c (Proc.devRef .tc main_arg6) := keep40 m ρ c (by decide)
theorem keep_main_arg6_W51 (c : Dev nD) : W51 m ρ c (Proc.devRef .tc main_arg6) = W1 m ρ c (Proc.devRef .tc main_arg6) := keep51 m ρ c (by decide)
theorem keep_main_arg7_W10 (c : Dev nD) : W10 m ρ c (Proc.devRef .tc main_arg7) = W1 m ρ c (Proc.devRef .tc main_arg7) := keep10 m ρ c (by decide)
theorem keep_main_arg7_W20 (c : Dev nD) : W20 m ρ c (Proc.devRef .tc main_arg7) = W1 m ρ c (Proc.devRef .tc main_arg7) := keep20 m ρ c (by decide)
theorem keep_main_arg7_W30 (c : Dev nD) : W30 m ρ c (Proc.devRef .tc main_arg7) = W1 m ρ c (Proc.devRef .tc main_arg7) := keep30 m ρ c (by decide)
theorem keep_main_arg7_W40 (c : Dev nD) : W40 m ρ c (Proc.devRef .tc main_arg7) = W1 m ρ c (Proc.devRef .tc main_arg7) := keep40 m ρ c (by decide)
theorem keep_main_arg7_W51 (c : Dev nD) : W51 m ρ c (Proc.devRef .tc main_arg7) = W1 m ρ c (Proc.devRef .tc main_arg7) := keep51 m ρ c (by decide)
theorem keep_main_arg8_W10 (c : Dev nD) : W10 m ρ c (Proc.devRef .tc main_arg8) = W1 m ρ c (Proc.devRef .tc main_arg8) := keep10 m ρ c (by decide)
theorem keep_main_arg8_W20 (c : Dev nD) : W20 m ρ c (Proc.devRef .tc main_arg8) = W1 m ρ c (Proc.devRef .tc main_arg8) := keep20 m ρ c (by decide)
theorem keep_main_arg8_W30 (c : Dev nD) : W30 m ρ c (Proc.devRef .tc main_arg8) = W1 m ρ c (Proc.devRef .tc main_arg8) := keep30 m ρ c (by decide)
theorem keep_main_arg8_W40 (c : Dev nD) : W40 m ρ c (Proc.devRef .tc main_arg8) = W1 m ρ c (Proc.devRef .tc main_arg8) := keep40 m ρ c (by decide)
theorem keep_main_arg8_W51 (c : Dev nD) : W51 m ρ c (Proc.devRef .tc main_arg8) = W1 m ρ c (Proc.devRef .tc main_arg8) := keep51 m ρ c (by decide)
theorem keep_main_arg9_W2 (c : Dev nD) : W2 m ρ c (Proc.devRef .tc main_arg9) = W1 m ρ c (Proc.devRef .tc main_arg9) := keep2 m ρ c (by decide)
theorem keep_main_arg9_W12 (c : Dev nD) : W12 m ρ c (Proc.devRef .tc main_arg9) = W1 m ρ c (Proc.devRef .tc main_arg9) := keep12 m ρ c (by decide)
theorem keep_main_arg9_W22 (c : Dev nD) : W22 m ρ c (Proc.devRef .tc main_arg9) = W1 m ρ c (Proc.devRef .tc main_arg9) := keep22 m ρ c (by decide)
theorem keep_main_arg9_W32 (c : Dev nD) : W32 m ρ c (Proc.devRef .tc main_arg9) = W1 m ρ c (Proc.devRef .tc main_arg9) := keep32 m ρ c (by decide)
theorem keep_main_arg9_W42 (c : Dev nD) : W42 m ρ c (Proc.devRef .tc main_arg9) = W1 m ρ c (Proc.devRef .tc main_arg9) := keep42 m ρ c (by decide)
theorem keep_main_arg9_W51 (c : Dev nD) : W51 m ρ c (Proc.devRef .tc main_arg9) = W1 m ρ c (Proc.devRef .tc main_arg9) := keep51 m ρ c (by decide)
theorem keep_main_arg10_W2 (c : Dev nD) : W2 m ρ c (Proc.devRef .tc main_arg10) = W1 m ρ c (Proc.devRef .tc main_arg10) := keep2 m ρ c (by decide)
theorem keep_main_arg10_W12 (c : Dev nD) : W12 m ρ c (Proc.devRef .tc main_arg10) = W1 m ρ c (Proc.devRef .tc main_arg10) := keep12 m ρ c (by decide)
theorem keep_main_arg10_W22 (c : Dev nD) : W22 m ρ c (Proc.devRef .tc main_arg10) = W1 m ρ c (Proc.devRef .tc main_arg10) := keep22 m ρ c (by decide)
theorem keep_main_arg10_W32 (c : Dev nD) : W32 m ρ c (Proc.devRef .tc main_arg10) = W1 m ρ c (Proc.devRef .tc main_arg10) := keep32 m ρ c (by decide)
theorem keep_main_arg10_W42 (c : Dev nD) : W42 m ρ c (Proc.devRef .tc main_arg10) = W1 m ρ c (Proc.devRef .tc main_arg10) := keep42 m ρ c (by decide)
theorem keep_main_arg10_W51 (c : Dev nD) : W51 m ρ c (Proc.devRef .tc main_arg10) = W1 m ρ c (Proc.devRef .tc main_arg10) := keep51 m ρ c (by decide)
theorem keep_main_arg11_W2 (c : Dev nD) : W2 m ρ c (Proc.devRef .tc main_arg11) = W1 m ρ c (Proc.devRef .tc main_arg11) := keep2 m ρ c (by decide)
theorem keep_main_arg11_W12 (c : Dev nD) : W12 m ρ c (Proc.devRef .tc main_arg11) = W1 m ρ c (Proc.devRef .tc main_arg11) := keep12 m ρ c (by decide)
theorem keep_main_arg11_W22 (c : Dev nD) : W22 m ρ c (Proc.devRef .tc main_arg11) = W1 m ρ c (Proc.devRef .tc main_arg11) := keep22 m ρ c (by decide)
theorem keep_main_arg11_W32 (c : Dev nD) : W32 m ρ c (Proc.devRef .tc main_arg11) = W1 m ρ c (Proc.devRef .tc main_arg11) := keep32 m ρ c (by decide)
theorem keep_main_arg11_W42 (c : Dev nD) : W42 m ρ c (Proc.devRef .tc main_arg11) = W1 m ρ c (Proc.devRef .tc main_arg11) := keep42 m ρ c (by decide)
theorem keep_main_arg11_W51 (c : Dev nD) : W51 m ρ c (Proc.devRef .tc main_arg11) = W1 m ρ c (Proc.devRef .tc main_arg11) := keep51 m ρ c (by decide)
theorem keep_main_arg12_W2 (c : Dev nD) : W2 m ρ c (Proc.devRef .tc main_arg12) = W1 m ρ c (Proc.devRef .tc main_arg12) := keep2 m ρ c (by decide)
theorem keep_main_arg12_W12 (c : Dev nD) : W12 m ρ c (Proc.devRef .tc main_arg12) = W1 m ρ c (Proc.devRef .tc main_arg12) := keep12 m ρ c (by decide)
theorem keep_main_arg12_W22 (c : Dev nD) : W22 m ρ c (Proc.devRef .tc main_arg12) = W1 m ρ c (Proc.devRef .tc main_arg12) := keep22 m ρ c (by decide)
theorem keep_main_arg12_W32 (c : Dev nD) : W32 m ρ c (Proc.devRef .tc main_arg12) = W1 m ρ c (Proc.devRef .tc main_arg12) := keep32 m ρ c (by decide)
theorem keep_main_arg12_W42 (c : Dev nD) : W42 m ρ c (Proc.devRef .tc main_arg12) = W1 m ρ c (Proc.devRef .tc main_arg12) := keep42 m ρ c (by decide)
theorem keep_main_arg12_W51 (c : Dev nD) : W51 m ρ c (Proc.devRef .tc main_arg12) = W1 m ρ c (Proc.devRef .tc main_arg12) := keep51 m ρ c (by decide)
theorem keep_main_arg13_W6 (c : Dev nD) : W6 m ρ c (Proc.devRef .tc main_arg13) = W1 m ρ c (Proc.devRef .tc main_arg13) := keep6 m ρ c (by decide)
theorem keep_main_arg13_W16 (c : Dev nD) : W16 m ρ c (Proc.devRef .tc main_arg13) = W1 m ρ c (Proc.devRef .tc main_arg13) := keep16 m ρ c (by decide)
theorem keep_main_arg13_W26 (c : Dev nD) : W26 m ρ c (Proc.devRef .tc main_arg13) = W1 m ρ c (Proc.devRef .tc main_arg13) := keep26 m ρ c (by decide)
theorem keep_main_arg13_W36 (c : Dev nD) : W36 m ρ c (Proc.devRef .tc main_arg13) = W1 m ρ c (Proc.devRef .tc main_arg13) := keep36 m ρ c (by decide)
theorem keep_main_arg13_W46 (c : Dev nD) : W46 m ρ c (Proc.devRef .tc main_arg13) = W1 m ρ c (Proc.devRef .tc main_arg13) := keep46 m ρ c (by decide)
theorem keep_main_arg13_W51 (c : Dev nD) : W51 m ρ c (Proc.devRef .tc main_arg13) = W1 m ρ c (Proc.devRef .tc main_arg13) := keep51 m ρ c (by decide)
theorem keep_main_arg14_W6 (c : Dev nD) : W6 m ρ c (Proc.devRef .tc main_arg14) = W1 m ρ c (Proc.devRef .tc main_arg14) := keep6 m ρ c (by decide)
theorem keep_main_arg14_W16 (c : Dev nD) : W16 m ρ c (Proc.devRef .tc main_arg14) = W1 m ρ c (Proc.devRef .tc main_arg14) := keep16 m ρ c (by decide)
theorem keep_main_arg14_W26 (c : Dev nD) : W26 m ρ c (Proc.devRef .tc main_arg14) = W1 m ρ c (Proc.devRef .tc main_arg14) := keep26 m ρ c (by decide)
theorem keep_main_arg14_W36 (c : Dev nD) : W36 m ρ c (Proc.devRef .tc main_arg14) = W1 m ρ c (Proc.devRef .tc main_arg14) := keep36 m ρ c (by decide)
theorem keep_main_arg14_W46 (c : Dev nD) : W46 m ρ c (Proc.devRef .tc main_arg14) = W1 m ρ c (Proc.devRef .tc main_arg14) := keep46 m ρ c (by decide)
theorem keep_main_arg14_W51 (c : Dev nD) : W51 m ρ c (Proc.devRef .tc main_arg14) = W1 m ρ c (Proc.devRef .tc main_arg14) := keep51 m ρ c (by decide)
theorem keep_main_arg3_W50 (c : Dev nD) : W50 m ρ c (Proc.devRef .tc main_arg3) = W1 m ρ c (Proc.devRef .tc main_arg3) := keep50 m ρ c (by decide)
theorem keep_main_arg3_W51 (c : Dev nD) : W51 m ρ c (Proc.devRef .tc main_arg3) = W1 m ρ c (Proc.devRef .tc main_arg3) := keep51 m ρ c (by decide)
theorem keep_main_arg15_W50 (c : Dev nD) : W50 m ρ c (Proc.devRef .tc main_arg15) = W1 m ρ c (Proc.devRef .tc main_arg15) := keep50 m ρ c (by decide)
theorem keep_main_arg15_W51 (c : Dev nD) : W51 m ρ c (Proc.devRef .tc main_arg15) = W1 m ρ c (Proc.devRef .tc main_arg15) := keep51 m ρ c (by decide)
theorem keep_main_arg16_W50 (c : Dev nD) : W50 m ρ c (Proc.devRef .tc main_arg16) = W1 m ρ c (Proc.devRef .tc main_arg16) := keep50 m ρ c (by decide)
theorem keep_main_arg16_W51 (c : Dev nD) : W51 m ρ c (Proc.devRef .tc main_arg16) = W1 m ρ c (Proc.devRef .tc main_arg16) := keep51 m ρ c (by decide)
theorem keep_main_arg0_W51 (c : Dev nD) : W51 m ρ c (Proc.devRef .tc main_arg0) = W1 m ρ c (Proc.devRef .tc main_arg0) := keep51 m ρ c (by decide)
theorem keep_main_arg1_W51 (c : Dev nD) : W51 m ρ c (Proc.devRef .tc main_arg1) = W1 m ρ c (Proc.devRef .tc main_arg1) := keep51 m ρ c (by decide)
theorem keep_main_arg2_W51 (c : Dev nD) : W51 m ρ c (Proc.devRef .tc main_arg2) = W1 m ρ c (Proc.devRef .tc main_arg2) := keep51 m ρ c (by decide)
theorem keep_main_arg4_W51 (c : Dev nD) : W51 m ρ c (Proc.devRef .tc main_arg4) = W1 m ρ c (Proc.devRef .tc main_arg4) := keep51 m ρ c (by decide)
theorem keep_main_arg5_W51 (c : Dev nD) : W51 m ρ c (Proc.devRef .tc main_arg5) = W1 m ρ c (Proc.devRef .tc main_arg5) := keep51 m ρ c (by decide)

end Cert.Kernel.Keep

end
-- ==== Proof.BInitArgs.lean ====
/-
  The first host stretch of the kernel's program computes new arrays only: none of its operations writes an argument
  array. Read after the stretch, from any contents `V` of the buffers before it, each of the seventeen arguments
  therefore holds what it held in `V`.
-/
import proofs.«403201_j40475771797954_1_alg».proof.Proof.Gen.Kernel.Launch
import Idealize.ShloMosaic.PureOps.Ideal

set_option maxRecDepth 16384

noncomputable section

namespace Cert.Kernel.Init

open Cert.Kernel Cert.Kernel.Gen
open Idealize.ShloMosaic Idealize.ShloMosaic.TcCoe

variable {F : FTy → Type} [FloatOps F] (V : Valuation τ sig (Elt F))

set_option maxHeartbeats 0 in
/-- Every argument array after the stretch is the argument array before it. -/
theorem args_after :
    StableHlo.after hostOps0 V (Proc.devRef .tc main_arg0) = V (Proc.devRef .tc main_arg0)
    ∧ StableHlo.after hostOps0 V (Proc.devRef .tc main_arg1) = V (Proc.devRef .tc main_arg1)
    ∧ StableHlo.after hostOps0 V (Proc.devRef .tc main_arg2) = V (Proc.devRef .tc main_arg2)
    ∧ StableHlo.after hostOps0 V (Proc.devRef .tc main_arg3) = V (Proc.devRef .tc main_arg3)
    ∧ StableHlo.after hostOps0 V (Proc.devRef .tc main_arg4) = V (Proc.devRef .tc main_arg4)
    ∧ StableHlo.after hostOps0 V (Proc.devRef .tc main_arg5) = V (Proc.devRef .tc main_arg5)
    ∧ StableHlo.after hostOps0 V (Proc.devRef .tc main_arg6) = V (Proc.devRef .tc main_arg6)
    ∧ StableHlo.after hostOps0 V (Proc.devRef .tc main_arg7) = V (Proc.devRef .tc main_arg7)
    ∧ StableHlo.after hostOps0 V (Proc.devRef .tc main_arg8) = V (Proc.devRef .tc main_arg8)
    ∧ StableHlo.after hostOps0 V (Proc.devRef .tc main_arg9) = V (Proc.devRef .tc main_arg9)
    ∧ StableHlo.after hostOps0 V (Proc.devRef .tc main_arg10) = V (Proc.devRef .tc main_arg10)
    ∧ StableHlo.after hostOps0 V (Proc.devRef .tc main_arg11) = V (Proc.devRef .tc main_arg11)
    ∧ StableHlo.after hostOps0 V (Proc.devRef .tc main_arg12) = V (Proc.devRef .tc main_arg12)
    ∧ StableHlo.after hostOps0 V (Proc.devRef .tc main_arg13) = V (Proc.devRef .tc main_arg13)
    ∧ StableHlo.after hostOps0 V (Proc.devRef .tc main_arg14) = V (Proc.devRef .tc main_arg14)
    ∧ StableHlo.after hostOps0 V (Proc.devRef .tc main_arg15) = V (Proc.devRef .tc main_arg15)
    ∧ StableHlo.after hostOps0 V (Proc.devRef .tc main_arg16) = V (Proc.devRef .tc main_arg16) := by
  after_results_simp
  all_goals simp only [and_self]

end Cert.Kernel.Init

end
-- ==== Proof.KKeepWritten.lean ====
/-
  What the host stretches between the regions write, and which arrays the regions' windows stage — by NUMBER. The
  TensorCore's HBM buffers are numbered in the order the program introduces them: the seventeen arguments are 0 … 16,
  then every operation's result in program order. The edge features `e` (main_v145, number 188), the edge ends `src`
  (main_v147, 190) and `dst` (main_v149, 192) come out of the first stretch; every result of a LATER stretch, and every
  array a region's window stages, has a number of 193 or more. So a buffer numbered below 193 — each argument, e, src,
  dst — is written by no stretch after the first and is no window's array: number below 193 on one side, at least 193
  on the other, hence different references.
-/
import proofs.«403201_j40475771797954_1_alg».proof.Proof.Gen.KernelIdeal.Launch
import Idealize.ShloMosaic.Lib.StableHlo.Run

set_option maxRecDepth 16384

noncomputable section

namespace Cert.KernelIdeal.Keep

open Cert.KernelIdeal Cert.KernelIdeal.Gen
open Idealize.ShloMosaic Idealize.ShloMosaic.TcCoe

variable {F : FTy → Type} [FloatOps F]

/-- A reference's number among the buffers of its memory space. -/
abbrev key (r : Ref sig .tc) : ℕ := r.idx.val

/-- References whose numbers are separated by a bound are different. -/
theorem ne_of_key_lt {b y : Ref sig .tc} {T : ℕ} (hb : key b < T) (hy : T ≤ key y) : b ≠ y :=
  fun e => absurd (e ▸ hb) (Nat.not_lt.mpr hy)

/-! ## No later stretch writes a buffer numbered below 193 -/

/-- `hostOps1` (7 operations): each result is numbered 193 or more. -/
theorem keeps_hostOps1 {b : Ref sig .tc} (hb : key b < 193) : ∀ op ∈ (hostOps1 : List (HloOp τ sig (Elt F))), Proc.devRef .tc b ∉ op.writes :=
  List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps1_1` (23 operations): each result is numbered 193 or more. -/
theorem keeps_hostOps1_1 {b : Ref sig .tc} (hb : key b < 193) : ∀ op ∈ (hostOps1_1 : List (HloOp τ sig (Elt F))), Proc.devRef .tc b ∉ op.writes :=
  List.forall_iff_forall_mem.mp (by
    simp only [hostOps1_1, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps1_2` (5 operations): each result is numbered 193 or more. -/
theorem keeps_hostOps1_2 {b : Ref sig .tc} (hb : key b < 193) : ∀ op ∈ (hostOps1_2 : List (HloOp τ sig (Elt F))), Proc.devRef .tc b ∉ op.writes :=
  List.forall_iff_forall_mem.mp (by
    simp only [hostOps1_2, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps2` (7 operations): each result is numbered 193 or more. -/
theorem keeps_hostOps2 {b : Ref sig .tc} (hb : key b < 193) : ∀ op ∈ (hostOps2 : List (HloOp τ sig (Elt F))), Proc.devRef .tc b ∉ op.writes :=
  List.forall_iff_forall_mem.mp (by
    simp only [hostOps2, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps2_1` (23 operations): each result is numbered 193 or more. -/
theorem keeps_hostOps2_1 {b : Ref sig .tc} (hb : key b < 193) : ∀ op ∈ (hostOps2_1 : List (HloOp τ sig (Elt F))), Proc.devRef .tc b ∉ op.writes :=
  List.forall_iff_forall_mem.mp (by
    simp only [hostOps2_1, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps2_2` (2 operations): each result is numbered 193 or more. -/
theorem keeps_hostOps2_2 {b : Ref sig .tc} (hb : key b < 193) : ∀ op ∈ (hostOps2_2 : List (HloOp τ sig (Elt F))), Proc.devRef .tc b ∉ op.writes :=
  List.forall_iff_forall_mem.mp (by
    simp only [hostOps2_2, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps3` (24 operations): each result is numbered 193 or more. -/
theorem keeps_hostOps3 {b : Ref sig .tc} (hb : key b < 193) : ∀ op ∈ (hostOps3 : List (HloOp τ sig (Elt F))), Proc.devRef .tc b ∉ op.writes :=
  List.forall_iff_forall_mem.mp (by
    simp only [hostOps3, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps4` (7 operations): each result is numbered 193 or more. -/
theorem keeps_hostOps4 {b : Ref sig .tc} (hb : key b < 193) : ∀ op ∈ (hostOps4 : List (HloOp τ sig (Elt F))), Proc.devRef .tc b ∉ op.writes :=
  List.forall_iff_forall_mem.mp (by
    simp only [hostOps4, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps4_1` (23 operations): each result is numbered 193 or more. -/
theorem keeps_hostOps4_1 {b : Ref sig .tc} (hb : key b < 193) : ∀ op ∈ (hostOps4_1 : List (HloOp τ sig (Elt F))), Proc.devRef .tc b ∉ op.writes :=
  List.forall_iff_forall_mem.mp (by
    simp only [hostOps4_1, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps4_2` (5 operations): each result is numbered 193 or more. -/
theorem keeps_hostOps4_2 {b : Ref sig .tc} (hb : key b < 193) : ∀ op ∈ (hostOps4_2 : List (HloOp τ sig (Elt F))), Proc.devRef .tc b ∉ op.writes :=
  List.forall_iff_forall_mem.mp (by
    simp only [hostOps4_2, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps5` (7 operations): each result is numbered 193 or more. -/
theorem keeps_hostOps5 {b : Ref sig .tc} (hb : key b < 193) : ∀ op ∈ (hostOps5 : List (HloOp τ sig (Elt F))), Proc.devRef .tc b ∉ op.writes :=
  List.forall_iff_forall_mem.mp (by
    simp only [hostOps5, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps5_1` (23 operations): each result is numbered 193 or more. -/
theorem keeps_hostOps5_1 {b : Ref sig .tc} (hb : key b < 193) : ∀ op ∈ (hostOps5_1 : List (HloOp τ sig (Elt F))), Proc.devRef .tc b ∉ op.writes :=
  List.forall_iff_forall_mem.mp (by
    simp only [hostOps5_1, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps5_2` (2 operations): each result is numbered 193 or more. -/
theorem keeps_hostOps5_2 {b : Ref sig .tc} (hb : key b < 193) : ∀ op ∈ (hostOps5_2 : List (HloOp τ sig (Elt F))), Proc.devRef .tc b ∉ op.writes :=
  List.forall_iff_forall_mem.mp (by
    simp only [hostOps5_2, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps6` (24 operations): each result is numbered 193 or more. -/
theorem keeps_hostOps6 {b : Ref sig .tc} (hb : key b < 193) : ∀ op ∈ (hostOps6 : List (HloOp τ sig (Elt F))), Proc.devRef .tc b ∉ op.writes :=
  List.forall_iff_forall_mem.mp (by
    simp only [hostOps6, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps7` (7 operations): each result is numbered 193 or more. -/
theorem keeps_hostOps7 {b : Ref sig .tc} (hb : key b < 193) : ∀ op ∈ (hostOps7 : List (HloOp τ sig (Elt F))), Proc.devRef .tc b ∉ op.writes :=
  List.forall_iff_forall_mem.mp (by
    simp only [hostOps7, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps7_1` (23 operations): each result is numbered 193 or more. -/
theorem keeps_hostOps7_1 {b : Ref sig .tc} (hb : key b < 193) : ∀ op ∈ (hostOps7_1 : List (HloOp τ sig (Elt F))), Proc.devRef .tc b ∉ op.writes :=
  List.forall_iff_forall_mem.mp (by
    simp only [hostOps7_1, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps7_2` (5 operations): each result is numbered 193 or more. -/
theorem keeps_hostOps7_2 {b : Ref sig .tc} (hb : key b < 193) : ∀ op ∈ (hostOps7_2 : List (HloOp τ sig (Elt F))), Proc.devRef .tc b ∉ op.writes :=
  List.forall_iff_forall_mem.mp (by
    simp only [hostOps7_2, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps8` (7 operations): each result is numbered 193 or more. -/
theorem keeps_hostOps8 {b : Ref sig .tc} (hb : key b < 193) : ∀ op ∈ (hostOps8 : List (HloOp τ sig (Elt F))), Proc.devRef .tc b ∉ op.writes :=
  List.forall_iff_forall_mem.mp (by
    simp only [hostOps8, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps8_1` (23 operations): each result is numbered 193 or more. -/
theorem keeps_hostOps8_1 {b : Ref sig .tc} (hb : key b < 193) : ∀ op ∈ (hostOps8_1 : List (HloOp τ sig (Elt F))), Proc.devRef .tc b ∉ op.writes :=
  List.forall_iff_forall_mem.mp (by
    simp only [hostOps8_1, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps8_2` (2 operations): each result is numbered 193 or more. -/
theorem keeps_hostOps8_2 {b : Ref sig .tc} (hb : key b < 193) : ∀ op ∈ (hostOps8_2 : List (HloOp τ sig (Elt F))), Proc.devRef .tc b ∉ op.writes :=
  List.forall_iff_forall_mem.mp (by
    simp only [hostOps8_2, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps9` (24 operations): each result is numbered 193 or more. -/
theorem keeps_hostOps9 {b : Ref sig .tc} (hb : key b < 193) : ∀ op ∈ (hostOps9 : List (HloOp τ sig (Elt F))), Proc.devRef .tc b ∉ op.writes :=
  List.forall_iff_forall_mem.mp (by
    simp only [hostOps9, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps10` (7 operations): each result is numbered 193 or more. -/
theorem keeps_hostOps10 {b : Ref sig .tc} (hb : key b < 193) : ∀ op ∈ (hostOps10 : List (HloOp τ sig (Elt F))), Proc.devRef .tc b ∉ op.writes :=
  List.forall_iff_forall_mem.mp (by
    simp only [hostOps10, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps10_1` (23 operations): each result is numbered 193 or more. -/
theorem keeps_hostOps10_1 {b : Ref sig .tc} (hb : key b < 193) : ∀ op ∈ (hostOps10_1 : List (HloOp τ sig (Elt F))), Proc.devRef .tc b ∉ op.writes :=
  List.forall_iff_forall_mem.mp (by
    simp only [hostOps10_1, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps10_2` (5 operations): each result is numbered 193 or more. -/
theorem keeps_hostOps10_2 {b : Ref sig .tc} (hb : key b < 193) : ∀ op ∈ (hostOps10_2 : List (HloOp τ sig (Elt F))), Proc.devRef .tc b ∉ op.writes :=
  List.forall_iff_forall_mem.mp (by
    simp only [hostOps10_2, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps11` (7 operations): each result is numbered 193 or more. -/
theorem keeps_hostOps11 {b : Ref sig .tc} (hb : key b < 193) : ∀ op ∈ (hostOps11 : List (HloOp τ sig (Elt F))), Proc.devRef .tc b ∉ op.writes :=
  List.forall_iff_forall_mem.mp (by
    simp only [hostOps11, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps11_1` (23 operations): each result is numbered 193 or more. -/
theorem keeps_hostOps11_1 {b : Ref sig .tc} (hb : key b < 193) : ∀ op ∈ (hostOps11_1 : List (HloOp τ sig (Elt F))), Proc.devRef .tc b ∉ op.writes :=
  List.forall_iff_forall_mem.mp (by
    simp only [hostOps11_1, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps11_2` (2 operations): each result is numbered 193 or more. -/
theorem keeps_hostOps11_2 {b : Ref sig .tc} (hb : key b < 193) : ∀ op ∈ (hostOps11_2 : List (HloOp τ sig (Elt F))), Proc.devRef .tc b ∉ op.writes :=
  List.forall_iff_forall_mem.mp (by
    simp only [hostOps11_2, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps12` (24 operations): each result is numbered 193 or more. -/
theorem keeps_hostOps12 {b : Ref sig .tc} (hb : key b < 193) : ∀ op ∈ (hostOps12 : List (HloOp τ sig (Elt F))), Proc.devRef .tc b ∉ op.writes :=
  List.forall_iff_forall_mem.mp (by
    simp only [hostOps12, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps13` (7 operations): each result is numbered 193 or more. -/
theorem keeps_hostOps13 {b : Ref sig .tc} (hb : key b < 193) : ∀ op ∈ (hostOps13 : List (HloOp τ sig (Elt F))), Proc.devRef .tc b ∉ op.writes :=
  List.forall_iff_forall_mem.mp (by
    simp only [hostOps13, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps13_1` (23 operations): each result is numbered 193 or more. -/
theorem keeps_hostOps13_1 {b : Ref sig .tc} (hb : key b < 193) : ∀ op ∈ (hostOps13_1 : List (HloOp τ sig (Elt F))), Proc.devRef .tc b ∉ op.writes :=
  List.forall_iff_forall_mem.mp (by
    simp only [hostOps13_1, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps13_2` (5 operations): each result is numbered 193 or more. -/
theorem keeps_hostOps13_2 {b : Ref sig .tc} (hb : key b < 193) : ∀ op ∈ (hostOps13_2 : List (HloOp τ sig (Elt F))), Proc.devRef .tc b ∉ op.writes :=
  List.forall_iff_forall_mem.mp (by
    simp only [hostOps13_2, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps14` (7 operations): each result is numbered 193 or more. -/
theorem keeps_hostOps14 {b : Ref sig .tc} (hb : key b < 193) : ∀ op ∈ (hostOps14 : List (HloOp τ sig (Elt F))), Proc.devRef .tc b ∉ op.writes :=
  List.forall_iff_forall_mem.mp (by
    simp only [hostOps14, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps14_1` (23 operations): each result is numbered 193 or more. -/
theorem keeps_hostOps14_1 {b : Ref sig .tc} (hb : key b < 193) : ∀ op ∈ (hostOps14_1 : List (HloOp τ sig (Elt F))), Proc.devRef .tc b ∉ op.writes :=
  List.forall_iff_forall_mem.mp (by
    simp only [hostOps14_1, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps14_2` (2 operations): each result is numbered 193 or more. -/
theorem keeps_hostOps14_2 {b : Ref sig .tc} (hb : key b < 193) : ∀ op ∈ (hostOps14_2 : List (HloOp τ sig (Elt F))), Proc.devRef .tc b ∉ op.writes :=
  List.forall_iff_forall_mem.mp (by
    simp only [hostOps14_2, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))
/-- `hostOps15` (20 operations): each result is numbered 193 or more. -/
theorem keeps_hostOps15 {b : Ref sig .tc} (hb : key b < 193) : ∀ op ∈ (hostOps15 : List (HloOp τ sig (Elt F))), Proc.devRef .tc b ∉ op.writes :=
  List.forall_iff_forall_mem.mp (by
    simp only [hostOps15, List.Forall, StableHlo.nullary_writes, StableHlo.unary_writes, StableHlo.binary_writes, StableHlo.ternary_writes, StableHlo.reshape_writes, Finset.mem_singleton]
    repeat' apply And.intro
    all_goals exact StableHlo.devRef_ne_of_ne (ne_of_key_lt hb (by decide)))

/-! ## Every window's array is numbered 193 or more -/

theorem windows_spec0 : ∀ w, 193 ≤ key (Pipeline.arrRef spec0 w) := by decide
theorem windows_spec1 : ∀ w, 193 ≤ key (Pipeline.arrRef spec1 w) := by decide
theorem windows_spec2 : ∀ w, 193 ≤ key (Pipeline.arrRef spec2 w) := by decide
theorem windows_spec3 : ∀ w, 193 ≤ key (Pipeline.arrRef spec3 w) := by decide
theorem windows_spec4 : ∀ w, 193 ≤ key (Pipeline.arrRef spec4 w) := by decide
theorem windows_spec5 : ∀ w, 193 ≤ key (Pipeline.arrRef spec5 w) := by decide
theorem windows_spec6 : ∀ w, 193 ≤ key (Pipeline.arrRef spec6 w) := by decide
theorem windows_spec7 : ∀ w, 193 ≤ key (Pipeline.arrRef spec7 w) := by decide
theorem windows_spec8 : ∀ w, 193 ≤ key (Pipeline.arrRef spec8 w) := by decide
theorem windows_spec9 : ∀ w, 193 ≤ key (Pipeline.arrRef spec9 w) := by decide
theorem windows_spec10 : ∀ w, 193 ≤ key (Pipeline.arrRef spec10 w) := by decide
theorem windows_spec11 : ∀ w, 193 ≤ key (Pipeline.arrRef spec11 w) := by decide
theorem windows_spec12 : ∀ w, 193 ≤ key (Pipeline.arrRef spec12 w) := by decide
theorem windows_spec13 : ∀ w, 193 ≤ key (Pipeline.arrRef spec13 w) := by decide
theorem windows_spec14 : ∀ w, 193 ≤ key (Pipeline.arrRef spec14 w) := by decide

end Cert.KernelIdeal.Keep

end
-- ==== Proof.KKeep.lean ====
/-
  After the first stretch of host operations nothing writes a buffer numbered below 193 — the seventeen arguments
  main_arg0 … main_arg16 (the stacked parameters among them), the edge features main_v145 and the edge ends main_v147,
  main_v149: a later stretch writes only its own results and a region changes only its own windows' arrays, all numbered
  193 or more. So at every later boundary of @main, the return included, each of them holds what it held at region 0's
  entry (`W1`).

  The argument is one step per boundary, composed downwards: through a stretch because none of its operations writes
  the buffer, through a region's exit because no window's array is the buffer.
-/
import proofs.«403201_j40475771797954_1_alg».proof.Proof.KFrameB
import proofs.«403201_j40475771797954_1_alg».proof.Proof.KKeepWritten

set_option maxRecDepth 16384

noncomputable section

namespace Cert.KernelIdeal.Keep

open Cert.KernelIdeal Cert.KernelIdeal.Gen
open Idealize.ShloMosaic Idealize.ShloMosaic.TcCoe

variable {F : FTy → Type} [FloatOps F]

variable (m : (ℓ : Loc nD τ sig) → Buf (Elt F) ℓ) (ρ : Dev nD → PrngReg)

/-! ## Boundary by boundary down to region 0's entry -/

theorem keep2 (c : Dev nD) {b : Ref sig .tc} (hb : key b < 193) : W2 m ρ c (Proc.devRef .tc b) = W1 m ρ c (Proc.devRef .tc b) :=
  W2_of_ne m ρ c b fun w => (ne_of_key_lt hb (windows_spec0 w)).symm
theorem keep3 (c : Dev nD) {b : Ref sig .tc} (hb : key b < 193) : W3 m ρ c (Proc.devRef .tc b) = W1 m ρ c (Proc.devRef .tc b) :=
  (StableHlo.after_of_forall_not_mem (b := Proc.devRef .tc b) hostOps1 (W2 m ρ c) (keeps_hostOps1 hb)).trans (keep2 m ρ c hb)
theorem keep4 (c : Dev nD) {b : Ref sig .tc} (hb : key b < 193) : W4 m ρ c (Proc.devRef .tc b) = W1 m ρ c (Proc.devRef .tc b) :=
  (StableHlo.after_of_forall_not_mem (b := Proc.devRef .tc b) hostOps1_1 (W3 m ρ c) (keeps_hostOps1_1 hb)).trans (keep3 m ρ c hb)
theorem keep5 (c : Dev nD) {b : Ref sig .tc} (hb : key b < 193) : W5 m ρ c (Proc.devRef .tc b) = W1 m ρ c (Proc.devRef .tc b) :=
  (StableHlo.after_of_forall_not_mem (b := Proc.devRef .tc b) hostOps1_2 (W4 m ρ c) (keeps_hostOps1_2 hb)).trans (keep4 m ρ c hb)
theorem keep6 (c : Dev nD) {b : Ref sig .tc} (hb : key b < 193) : W6 m ρ c (Proc.devRef .tc b) = W1 m ρ c (Proc.devRef .tc b) :=
  (W6_of_ne m ρ c b fun w => (ne_of_key_lt hb (windows_spec1 w)).symm).trans (keep5 m ρ c hb)
theorem keep7 (c : Dev nD) {b : Ref sig .tc} (hb : key b < 193) : W7 m ρ c (Proc.devRef .tc b) = W1 m ρ c (Proc.devRef .tc b) :=
  (StableHlo.after_of_forall_not_mem (b := Proc.devRef .tc b) hostOps2 (W6 m ρ c) (keeps_hostOps2 hb)).trans (keep6 m ρ c hb)
theorem keep8 (c : Dev nD) {b : Ref sig .tc} (hb : key b < 193) : W8 m ρ c (Proc.devRef .tc b) = W1 m ρ c (Proc.devRef .tc b) :=
  (StableHlo.after_of_forall_not_mem (b := Proc.devRef .tc b) hostOps2_1 (W7 m ρ c) (keeps_hostOps2_1 hb)).trans (keep7 m ρ c hb)
theorem keep9 (c : Dev nD) {b : Ref sig .tc} (hb : key b < 193) : W9 m ρ c (Proc.devRef .tc b) = W1 m ρ c (Proc.devRef .tc b) :=
  (StableHlo.after_of_forall_not_mem (b := Proc.devRef .tc b) hostOps2_2 (W8 m ρ c) (keeps_hostOps2_2 hb)).trans (keep8 m ρ c hb)
theorem keep10 (c : Dev nD) {b : Ref sig .tc} (hb : key b < 193) : W10 m ρ c (Proc.devRef .tc b) = W1 m ρ c (Proc.devRef .tc b) :=
  (W10_of_ne m ρ c b fun w => (ne_of_key_lt hb (windows_spec2 w)).symm).trans (keep9 m ρ c hb)
theorem keep11 (c : Dev nD) {b : Ref sig .tc} (hb : key b < 193) : W11 m ρ c (Proc.devRef .tc b) = W1 m ρ c (Proc.devRef .tc b) :=
  (StableHlo.after_of_forall_not_mem (b := Proc.devRef .tc b) hostOps3 (W10 m ρ c) (keeps_hostOps3 hb)).trans (keep10 m ρ c hb)
theorem keep12 (c : Dev nD) {b : Ref sig .tc} (hb : key b < 193) : W12 m ρ c (Proc.devRef .tc b) = W1 m ρ c (Proc.devRef .tc b) :=
  (W12_of_ne m ρ c b fun w => (ne_of_key_lt hb (windows_spec3 w)).symm).trans (keep11 m ρ c hb)
theorem keep13 (c : Dev nD) {b : Ref sig .tc} (hb : key b < 193) : W13 m ρ c (Proc.devRef .tc b) = W1 m ρ c (Proc.devRef .tc b) :=
  (StableHlo.after_of_forall_not_mem (b := Proc.devRef .tc b) hostOps4 (W12 m ρ c) (keeps_hostOps4 hb)).trans (keep12 m ρ c hb)
theorem keep14 (c : Dev nD) {b : Ref sig .tc} (hb : key b < 193) : W14 m ρ c (Proc.devRef .tc b) = W1 m ρ c (Proc.devRef .tc b) :=
  (StableHlo.after_of_forall_not_mem (b := Proc.devRef .tc b) hostOps4_1 (W13 m ρ c) (keeps_hostOps4_1 hb)).trans (keep13 m ρ c hb)
theorem keep15 (c : Dev nD) {b : Ref sig .tc} (hb : key b < 193) : W15 m ρ c (Proc.devRef .tc b) = W1 m ρ c (Proc.devRef .tc b) :=
  (StableHlo.after_of_forall_not_mem (b := Proc.devRef .tc b) hostOps4_2 (W14 m ρ c) (keeps_hostOps4_2 hb)).trans (keep14 m ρ c hb)
theorem keep16 (c : Dev nD) {b : Ref sig .tc} (hb : key b < 193) : W16 m ρ c (Proc.devRef .tc b) = W1 m ρ c (Proc.devRef .tc b) :=
  (W16_of_ne m ρ c b fun w => (ne_of_key_lt hb (windows_spec4 w)).symm).trans (keep15 m ρ c hb)
theorem keep17 (c : Dev nD) {b : Ref sig .tc} (hb : key b < 193) : W17 m ρ c (Proc.devRef .tc b) = W1 m ρ c (Proc.devRef .tc b) :=
  (StableHlo.after_of_forall_not_mem (b := Proc.devRef .tc b) hostOps5 (W16 m ρ c) (keeps_hostOps5 hb)).trans (keep16 m ρ c hb)
theorem keep18 (c : Dev nD) {b : Ref sig .tc} (hb : key b < 193) : W18 m ρ c (Proc.devRef .tc b) = W1 m ρ c (Proc.devRef .tc b) :=
  (StableHlo.after_of_forall_not_mem (b := Proc.devRef .tc b) hostOps5_1 (W17 m ρ c) (keeps_hostOps5_1 hb)).trans (keep17 m ρ c hb)
theorem keep19 (c : Dev nD) {b : Ref sig .tc} (hb : key b < 193) : W19 m ρ c (Proc.devRef .tc b) = W1 m ρ c (Proc.devRef .tc b) :=
  (StableHlo.after_of_forall_not_mem (b := Proc.devRef .tc b) hostOps5_2 (W18 m ρ c) (keeps_hostOps5_2 hb)).trans (keep18 m ρ c hb)
theorem keep20 (c : Dev nD) {b : Ref sig .tc} (hb : key b < 193) : W20 m ρ c (Proc.devRef .tc b) = W1 m ρ c (Proc.devRef .tc b) :=
  (W20_of_ne m ρ c b fun w => (ne_of_key_lt hb (windows_spec5 w)).symm).trans (keep19 m ρ c hb)
theorem keep21 (c : Dev nD) {b : Ref sig .tc} (hb : key b < 193) : W21 m ρ c (Proc.devRef .tc b) = W1 m ρ c (Proc.devRef .tc b) :=
  (StableHlo.after_of_forall_not_mem (b := Proc.devRef .tc b) hostOps6 (W20 m ρ c) (keeps_hostOps6 hb)).trans (keep20 m ρ c hb)
theorem keep22 (c : Dev nD) {b : Ref sig .tc} (hb : key b < 193) : W22 m ρ c (Proc.devRef .tc b) = W1 m ρ c (Proc.devRef .tc b) :=
  (W22_of_ne m ρ c b fun w => (ne_of_key_lt hb (windows_spec6 w)).symm).trans (keep21 m ρ c hb)
theorem keep23 (c : Dev nD) {b : Ref sig .tc} (hb : key b < 193) : W23 m ρ c (Proc.devRef .tc b) = W1 m ρ c (Proc.devRef .tc b) :=
  (StableHlo.after_of_forall_not_mem (b := Proc.devRef .tc b) hostOps7 (W22 m ρ c) (keeps_hostOps7 hb)).trans (keep22 m ρ c hb)
theorem keep24 (c : Dev nD) {b : Ref sig .tc} (hb : key b < 193) : W24 m ρ c (Proc.devRef .tc b) = W1 m ρ c (Proc.devRef .tc b) :=
  (StableHlo.after_of_forall_not_mem (b := Proc.devRef .tc b) hostOps7_1 (W23 m ρ c) (keeps_hostOps7_1 hb)).trans (keep23 m ρ c hb)
theorem keep25 (c : Dev nD) {b : Ref sig .tc} (hb : key b < 193) : W25 m ρ c (Proc.devRef .tc b) = W1 m ρ c (Proc.devRef .tc b) :=
  (StableHlo.after_of_forall_not_mem (b := Proc.devRef .tc b) hostOps7_2 (W24 m ρ c) (keeps_hostOps7_2 hb)).trans (keep24 m ρ c hb)
theorem keep26 (c : Dev nD) {b : Ref sig .tc} (hb : key b < 193) : W26 m ρ c (Proc.devRef .tc b) = W1 m ρ c (Proc.devRef .tc b) :=
  (W26_of_ne m ρ c b fun w => (ne_of_key_lt hb (windows_spec7 w)).symm).trans (keep25 m ρ c hb)
theorem keep27 (c : Dev nD) {b : Ref sig .tc} (hb : key b < 193) : W27 m ρ c (Proc.devRef .tc b) = W1 m ρ c (Proc.devRef .tc b) :=
  (StableHlo.after_of_forall_not_mem (b := Proc.devRef .tc b) hostOps8 (W26 m ρ c) (keeps_hostOps8 hb)).trans (keep26 m ρ c hb)
theorem keep28 (c : Dev nD) {b : Ref sig .tc} (hb : key b < 193) : W28 m ρ c (Proc.devRef .tc b) = W1 m ρ c (Proc.devRef .tc b) :=
  (StableHlo.after_of_forall_not_mem (b := Proc.devRef .tc b) hostOps8_1 (W27 m ρ c) (keeps_hostOps8_1 hb)).trans (keep27 m ρ c hb)
theorem keep29 (c : Dev nD) {b : Ref sig .tc} (hb : key b < 193) : W29 m ρ c (Proc.devRef .tc b) = W1 m ρ c (Proc.devRef .tc b) :=
  (StableHlo.after_of_forall_not_mem (b := Proc.devRef .tc b) hostOps8_2 (W28 m ρ c) (keeps_hostOps8_2 hb)).trans (keep28 m ρ c hb)
theorem keep30 (c : Dev nD) {b : Ref sig .tc} (hb : key b < 193) : W30 m ρ c (Proc.devRef .tc b) = W1 m ρ c (Proc.devRef .tc b) :=
  (W30_of_ne m ρ c b fun w => (ne_of_key_lt hb (windows_spec8 w)).symm).trans (keep29 m ρ c hb)
theorem keep31 (c : Dev nD) {b : Ref sig .tc} (hb : key b < 193) : W31 m ρ c (Proc.devRef .tc b) = W1 m ρ c (Proc.devRef .tc b) :=
  (StableHlo.after_of_forall_not_mem (b := Proc.devRef .tc b) hostOps9 (W30 m ρ c) (keeps_hostOps9 hb)).trans (keep30 m ρ c hb)
theorem keep32 (c : Dev nD) {b : Ref sig .tc} (hb : key b < 193) : W32 m ρ c (Proc.devRef .tc b) = W1 m ρ c (Proc.devRef .tc b) :=
  (W32_of_ne m ρ c b fun w => (ne_of_key_lt hb (windows_spec9 w)).symm).trans (keep31 m ρ c hb)
theorem keep33 (c : Dev nD) {b : Ref sig .tc} (hb : key b < 193) : W33 m ρ c (Proc.devRef .tc b) = W1 m ρ c (Proc.devRef .tc b) :=
  (StableHlo.after_of_forall_not_mem (b := Proc.devRef .tc b) hostOps10 (W32 m ρ c) (keeps_hostOps10 hb)).trans (keep32 m ρ c hb)
theorem keep34 (c : Dev nD) {b : Ref sig .tc} (hb : key b < 193) : W34 m ρ c (Proc.devRef .tc b) = W1 m ρ c (Proc.devRef .tc b) :=
  (StableHlo.after_of_forall_not_mem (b := Proc.devRef .tc b) hostOps10_1 (W33 m ρ c) (keeps_hostOps10_1 hb)).trans (keep33 m ρ c hb)
theorem keep35 (c : Dev nD) {b : Ref sig .tc} (hb : key b < 193) : W35 m ρ c (Proc.devRef .tc b) = W1 m ρ c (Proc.devRef .tc b) :=
  (StableHlo.after_of_forall_not_mem (b := Proc.devRef .tc b) hostOps10_2 (W34 m ρ c) (keeps_hostOps10_2 hb)).trans (keep34 m ρ c hb)
theorem keep36 (c : Dev nD) {b : Ref sig .tc} (hb : key b < 193) : W36 m ρ c (Proc.devRef .tc b) = W1 m ρ c (Proc.devRef .tc b) :=
  (W36_of_ne m ρ c b fun w => (ne_of_key_lt hb (windows_spec10 w)).symm).trans (keep35 m ρ c hb)
theorem keep37 (c : Dev nD) {b : Ref sig .tc} (hb : key b < 193) : W37 m ρ c (Proc.devRef .tc b) = W1 m ρ c (Proc.devRef .tc b) :=
  (StableHlo.after_of_forall_not_mem (b := Proc.devRef .tc b) hostOps11 (W36 m ρ c) (keeps_hostOps11 hb)).trans (keep36 m ρ c hb)
theorem keep38 (c : Dev nD) {b : Ref sig .tc} (hb : key b < 193) : W38 m ρ c (Proc.devRef .tc b) = W1 m ρ c (Proc.devRef .tc b) :=
  (StableHlo.after_of_forall_not_mem (b := Proc.devRef .tc b) hostOps11_1 (W37 m ρ c) (keeps_hostOps11_1 hb)).trans (keep37 m ρ c hb)
theorem keep39 (c : Dev nD) {b : Ref sig .tc} (hb : key b < 193) : W39 m ρ c (Proc.devRef .tc b) = W1 m ρ c (Proc.devRef .tc b) :=
  (StableHlo.after_of_forall_not_mem (b := Proc.devRef .tc b) hostOps11_2 (W38 m ρ c) (keeps_hostOps11_2 hb)).trans (keep38 m ρ c hb)
theorem keep40 (c : Dev nD) {b : Ref sig .tc} (hb : key b < 193) : W40 m ρ c (Proc.devRef .tc b) = W1 m ρ c (Proc.devRef .tc b) :=
  (W40_of_ne m ρ c b fun w => (ne_of_key_lt hb (windows_spec11 w)).symm).trans (keep39 m ρ c hb)
theorem keep41 (c : Dev nD) {b : Ref sig .tc} (hb : key b < 193) : W41 m ρ c (Proc.devRef .tc b) = W1 m ρ c (Proc.devRef .tc b) :=
  (StableHlo.after_of_forall_not_mem (b := Proc.devRef .tc b) hostOps12 (W40 m ρ c) (keeps_hostOps12 hb)).trans (keep40 m ρ c hb)
theorem keep42 (c : Dev nD) {b : Ref sig .tc} (hb : key b < 193) : W42 m ρ c (Proc.devRef .tc b) = W1 m ρ c (Proc.devRef .tc b) :=
  (W42_of_ne m ρ c b fun w => (ne_of_key_lt hb (windows_spec12 w)).symm).trans (keep41 m ρ c hb)
theorem keep43 (c : Dev nD) {b : Ref sig .tc} (hb : key b < 193) : W43 m ρ c (Proc.devRef .tc b) = W1 m ρ c (Proc.devRef .tc b) :=
  (StableHlo.after_of_forall_not_mem (b := Proc.devRef .tc b) hostOps13 (W42 m ρ c) (keeps_hostOps13 hb)).trans (keep42 m ρ c hb)
theorem keep44 (c : Dev nD) {b : Ref sig .tc} (hb : key b < 193) : W44 m ρ c (Proc.devRef .tc b) = W1 m ρ c (Proc.devRef .tc b) :=
  (StableHlo.after_of_forall_not_mem (b := Proc.devRef .tc b) hostOps13_1 (W43 m ρ c) (keeps_hostOps13_1 hb)).trans (keep43 m ρ c hb)
theorem keep45 (c : Dev nD) {b : Ref sig .tc} (hb : key b < 193) : W45 m ρ c (Proc.devRef .tc b) = W1 m ρ c (Proc.devRef .tc b) :=
  (StableHlo.after_of_forall_not_mem (b := Proc.devRef .tc b) hostOps13_2 (W44 m ρ c) (keeps_hostOps13_2 hb)).trans (keep44 m ρ c hb)
theorem keep46 (c : Dev nD) {b : Ref sig .tc} (hb : key b < 193) : W46 m ρ c (Proc.devRef .tc b) = W1 m ρ c (Proc.devRef .tc b) :=
  (W46_of_ne m ρ c b fun w => (ne_of_key_lt hb (windows_spec13 w)).symm).trans (keep45 m ρ c hb)
theorem keep47 (c : Dev nD) {b : Ref sig .tc} (hb : key b < 193) : W47 m ρ c (Proc.devRef .tc b) = W1 m ρ c (Proc.devRef .tc b) :=
  (StableHlo.after_of_forall_not_mem (b := Proc.devRef .tc b) hostOps14 (W46 m ρ c) (keeps_hostOps14 hb)).trans (keep46 m ρ c hb)
theorem keep48 (c : Dev nD) {b : Ref sig .tc} (hb : key b < 193) : W48 m ρ c (Proc.devRef .tc b) = W1 m ρ c (Proc.devRef .tc b) :=
  (StableHlo.after_of_forall_not_mem (b := Proc.devRef .tc b) hostOps14_1 (W47 m ρ c) (keeps_hostOps14_1 hb)).trans (keep47 m ρ c hb)
theorem keep49 (c : Dev nD) {b : Ref sig .tc} (hb : key b < 193) : W49 m ρ c (Proc.devRef .tc b) = W1 m ρ c (Proc.devRef .tc b) :=
  (StableHlo.after_of_forall_not_mem (b := Proc.devRef .tc b) hostOps14_2 (W48 m ρ c) (keeps_hostOps14_2 hb)).trans (keep48 m ρ c hb)
theorem keep50 (c : Dev nD) {b : Ref sig .tc} (hb : key b < 193) : W50 m ρ c (Proc.devRef .tc b) = W1 m ρ c (Proc.devRef .tc b) :=
  (W50_of_ne m ρ c b fun w => (ne_of_key_lt hb (windows_spec14 w)).symm).trans (keep49 m ρ c hb)
theorem keep51 (c : Dev nD) {b : Ref sig .tc} (hb : key b < 193) : W51 m ρ c (Proc.devRef .tc b) = W1 m ρ c (Proc.devRef .tc b) :=
  (StableHlo.after_of_forall_not_mem (b := Proc.devRef .tc b) hostOps15 (W50 m ρ c) (keeps_hostOps15 hb)).trans (keep50 m ρ c hb)

/-! ## The instances the layers and the return read -/

theorem keep_main_v145_W10 (c : Dev nD) : W10 m ρ c (Proc.devRef .tc main_v145) = W1 m ρ c (Proc.devRef .tc main_v145) := keep10 m ρ c (by decide)
theorem keep_main_v145_W20 (c : Dev nD) : W20 m ρ c (Proc.devRef .tc main_v145) = W1 m ρ c (Proc.devRef .tc main_v145) := keep20 m ρ c (by decide)
theorem keep_main_v145_W30 (c : Dev nD) : W30 m ρ c (Proc.devRef .tc main_v145) = W1 m ρ c (Proc.devRef .tc main_v145) := keep30 m ρ c (by decide)
theorem keep_main_v145_W40 (c : Dev nD) : W40 m ρ c (Proc.devRef .tc main_v145) = W1 m ρ c (Proc.devRef .tc main_v145) := keep40 m ρ c (by decide)
theorem keep_main_v147_W10 (c : Dev nD) : W10 m ρ c (Proc.devRef .tc main_v147) = W1 m ρ c (Proc.devRef .tc main_v147) := keep10 m ρ c (by decide)
theorem keep_main_v147_W20 (c : Dev nD) : W20 m ρ c (Proc.devRef .tc main_v147) = W1 m ρ c (Proc.devRef .tc main_v147) := keep20 m ρ c (by decide)
theorem keep_main_v147_W30 (c : Dev nD) : W30 m ρ c (Proc.devRef .tc main_v147) = W1 m ρ c (Proc.devRef .tc main_v147) := keep30 m ρ c (by decide)
theorem keep_main_v147_W40 (c : Dev nD) : W40 m ρ c (Proc.devRef .tc main_v147) = W1 m ρ c (Proc.devRef .tc main_v147) := keep40 m ρ c (by decide)
theorem keep_main_v149_W10 (c : Dev nD) : W10 m ρ c (Proc.devRef .tc main_v149) = W1 m ρ c (Proc.devRef .tc main_v149) := keep10 m ρ c (by decide)
theorem keep_main_v149_W20 (c : Dev nD) : W20 m ρ c (Proc.devRef .tc main_v149) = W1 m ρ c (Proc.devRef .tc main_v149) := keep20 m ρ c (by decide)
theorem keep_main_v149_W30 (c : Dev nD) : W30 m ρ c (Proc.devRef .tc main_v149) = W1 m ρ c (Proc.devRef .tc main_v149) := keep30 m ρ c (by decide)
theorem keep_main_v149_W40 (c : Dev nD) : W40 m ρ c (Proc.devRef .tc main_v149) = W1 m ρ c (Proc.devRef .tc main_v149) := keep40 m ρ c (by decide)
theorem keep_main_arg6_W10 (c : Dev nD) : W10 m ρ c (Proc.devRef .tc main_arg6) = W1 m ρ c (Proc.devRef .tc main_arg6) := keep10 m ρ c (by decide)
theorem keep_main_arg6_W20 (c : Dev nD) : W20 m ρ c (Proc.devRef .tc main_arg6) = W1 m ρ c (Proc.devRef .tc main_arg6) := keep20 m ρ c (by decide)
theorem keep_main_arg6_W30 (c : Dev nD) : W30 m ρ c (Proc.devRef .tc main_arg6) = W1 m ρ c (Proc.devRef .tc main_arg6) := keep30 m ρ c (by decide)
theorem keep_main_arg6_W40 (c : Dev nD) : W40 m ρ c (Proc.devRef .tc main_arg6) = W1 m ρ c (Proc.devRef .tc main_arg6) := keep40 m ρ c (by decide)
theorem keep_main_arg6_W51 (c : Dev nD) : W51 m ρ c (Proc.devRef .tc main_arg6) = W1 m ρ c (Proc.devRef .tc main_arg6) := keep51 m ρ c (by decide)
theorem keep_main_arg7_W10 (c : Dev nD) : W10 m ρ c (Proc.devRef .tc main_arg7) = W1 m ρ c (Proc.devRef .tc main_arg7) := keep10 m ρ c (by decide)
theorem keep_main_arg7_W20 (c : Dev nD) : W20 m ρ c (Proc.devRef .tc main_arg7) = W1 m ρ c (Proc.devRef .tc main_arg7) := keep20 m ρ c (by decide)
theorem keep_main_arg7_W30 (c : Dev nD) : W30 m ρ c (Proc.devRef .tc main_arg7) = W1 m ρ c (Proc.devRef .tc main_arg7) := keep30 m ρ c (by decide)
theorem keep_main_arg7_W40 (c : Dev nD) : W40 m ρ c (Proc.devRef .tc main_arg7) = W1 m ρ c (Proc.devRef .tc main_arg7) := keep40 m ρ c (by decide)
theorem keep_main_arg7_W51 (c : Dev nD) : W51 m ρ c (Proc.devRef .tc main_arg7) = W1 m ρ c (Proc.devRef .tc main_arg7) := keep51 m ρ c (by decide)
theorem keep_main_arg8_W10 (c : Dev nD) : W10 m ρ c (Proc.devRef .tc main_arg8) = W1 m ρ c (Proc.devRef .tc main_arg8) := keep10 m ρ c (by decide)
theorem keep_main_arg8_W20 (c : Dev nD) : W20 m ρ c (Proc.devRef .tc main_arg8) = W1 m ρ c (Proc.devRef .tc main_arg8) := keep20 m ρ c (by decide)
theorem keep_main_arg8_W30 (c : Dev nD) : W30 m ρ c (Proc.devRef .tc main_arg8) = W1 m ρ c (Proc.devRef .tc main_arg8) := keep30 m ρ c (by decide)
theorem keep_main_arg8_W40 (c : Dev nD) : W40 m ρ c (Proc.devRef .tc main_arg8) = W1 m ρ c (Proc.devRef .tc main_arg8) := keep40 m ρ c (by decide)
theorem keep_main_arg8_W51 (c : Dev nD) : W51 m ρ c (Proc.devRef .tc main_arg8) = W1 m ρ c (Proc.devRef .tc main_arg8) := keep51 m ρ c (by decide)
theorem keep_main_arg9_W2 (c : Dev nD) : W2 m ρ c (Proc.devRef .tc main_arg9) = W1 m ρ c (Proc.devRef .tc main_arg9) := keep2 m ρ c (by decide)
theorem keep_main_arg9_W12 (c : Dev nD) : W12 m ρ c (Proc.devRef .tc main_arg9) = W1 m ρ c (Proc.devRef .tc main_arg9) := keep12 m ρ c (by decide)
theorem keep_main_arg9_W22 (c : Dev nD) : W22 m ρ c (Proc.devRef .tc main_arg9) = W1 m ρ c (Proc.devRef .tc main_arg9) := keep22 m ρ c (by decide)
theorem keep_main_arg9_W32 (c : Dev nD) : W32 m ρ c (Proc.devRef .tc main_arg9) = W1 m ρ c (Proc.devRef .tc main_arg9) := keep32 m ρ c (by decide)
theorem keep_main_arg9_W42 (c : Dev nD) : W42 m ρ c (Proc.devRef .tc main_arg9) = W1 m ρ c (Proc.devRef .tc main_arg9) := keep42 m ρ c (by decide)
theorem keep_main_arg9_W51 (c : Dev nD) : W51 m ρ c (Proc.devRef .tc main_arg9) = W1 m ρ c (Proc.devRef .tc main_arg9) := keep51 m ρ c (by decide)
theorem keep_main_arg10_W2 (c : Dev nD) : W2 m ρ c (Proc.devRef .tc main_arg10) = W1 m ρ c (Proc.devRef .tc main_arg10) := keep2 m ρ c (by decide)
theorem keep_main_arg10_W12 (c : Dev nD) : W12 m ρ c (Proc.devRef .tc main_arg10) = W1 m ρ c (Proc.devRef .tc main_arg10) := keep12 m ρ c (by decide)
theorem keep_main_arg10_W22 (c : Dev nD) : W22 m ρ c (Proc.devRef .tc main_arg10) = W1 m ρ c (Proc.devRef .tc main_arg10) := keep22 m ρ c (by decide)
theorem keep_main_arg10_W32 (c : Dev nD) : W32 m ρ c (Proc.devRef .tc main_arg10) = W1 m ρ c (Proc.devRef .tc main_arg10) := keep32 m ρ c (by decide)
theorem keep_main_arg10_W42 (c : Dev nD) : W42 m ρ c (Proc.devRef .tc main_arg10) = W1 m ρ c (Proc.devRef .tc main_arg10) := keep42 m ρ c (by decide)
theorem keep_main_arg10_W51 (c : Dev nD) : W51 m ρ c (Proc.devRef .tc main_arg10) = W1 m ρ c (Proc.devRef .tc main_arg10) := keep51 m ρ c (by decide)
theorem keep_main_arg11_W2 (c : Dev nD) : W2 m ρ c (Proc.devRef .tc main_arg11) = W1 m ρ c (Proc.devRef .tc main_arg11) := keep2 m ρ c (by decide)
theorem keep_main_arg11_W12 (c : Dev nD) : W12 m ρ c (Proc.devRef .tc main_arg11) = W1 m ρ c (Proc.devRef .tc main_arg11) := keep12 m ρ c (by decide)
theorem keep_main_arg11_W22 (c : Dev nD) : W22 m ρ c (Proc.devRef .tc main_arg11) = W1 m ρ c (Proc.devRef .tc main_arg11) := keep22 m ρ c (by decide)
theorem keep_main_arg11_W32 (c : Dev nD) : W32 m ρ c (Proc.devRef .tc main_arg11) = W1 m ρ c (Proc.devRef .tc main_arg11) := keep32 m ρ c (by decide)
theorem keep_main_arg11_W42 (c : Dev nD) : W42 m ρ c (Proc.devRef .tc main_arg11) = W1 m ρ c (Proc.devRef .tc main_arg11) := keep42 m ρ c (by decide)
theorem keep_main_arg11_W51 (c : Dev nD) : W51 m ρ c (Proc.devRef .tc main_arg11) = W1 m ρ c (Proc.devRef .tc main_arg11) := keep51 m ρ c (by decide)
theorem keep_main_arg12_W2 (c : Dev nD) : W2 m ρ c (Proc.devRef .tc main_arg12) = W1 m ρ c (Proc.devRef .tc main_arg12) := keep2 m ρ c (by decide)
theorem keep_main_arg12_W12 (c : Dev nD) : W12 m ρ c (Proc.devRef .tc main_arg12) = W1 m ρ c (Proc.devRef .tc main_arg12) := keep12 m ρ c (by decide)
theorem keep_main_arg12_W22 (c : Dev nD) : W22 m ρ c (Proc.devRef .tc main_arg12) = W1 m ρ c (Proc.devRef .tc main_arg12) := keep22 m ρ c (by decide)
theorem keep_main_arg12_W32 (c : Dev nD) : W32 m ρ c (Proc.devRef .tc main_arg12) = W1 m ρ c (Proc.devRef .tc main_arg12) := keep32 m ρ c (by decide)
theorem keep_main_arg12_W42 (c : Dev nD) : W42 m ρ c (Proc.devRef .tc main_arg12) = W1 m ρ c (Proc.devRef .tc main_arg12) := keep42 m ρ c (by decide)
theorem keep_main_arg12_W51 (c : Dev nD) : W51 m ρ c (Proc.devRef .tc main_arg12) = W1 m ρ c (Proc.devRef .tc main_arg12) := keep51 m ρ c (by decide)
theorem keep_main_arg13_W6 (c : Dev nD) : W6 m ρ c (Proc.devRef .tc main_arg13) = W1 m ρ c (Proc.devRef .tc main_arg13) := keep6 m ρ c (by decide)
theorem keep_main_arg13_W16 (c : Dev nD) : W16 m ρ c (Proc.devRef .tc main_arg13) = W1 m ρ c (Proc.devRef .tc main_arg13) := keep16 m ρ c (by decide)
theorem keep_main_arg13_W26 (c : Dev nD) : W26 m ρ c (Proc.devRef .tc main_arg13) = W1 m ρ c (Proc.devRef .tc main_arg13) := keep26 m ρ c (by decide)
theorem keep_main_arg13_W36 (c : Dev nD) : W36 m ρ c (Proc.devRef .tc main_arg13) = W1 m ρ c (Proc.devRef .tc main_arg13) := keep36 m ρ c (by decide)
theorem keep_main_arg13_W46 (c : Dev nD) : W46 m ρ c (Proc.devRef .tc main_arg13) = W1 m ρ c (Proc.devRef .tc main_arg13) := keep46 m ρ c (by decide)
theorem keep_main_arg13_W51 (c : Dev nD) : W51 m ρ c (Proc.devRef .tc main_arg13) = W1 m ρ c (Proc.devRef .tc main_arg13) := keep51 m ρ c (by decide)
theorem keep_main_arg14_W6 (c : Dev nD) : W6 m ρ c (Proc.devRef .tc main_arg14) = W1 m ρ c (Proc.devRef .tc main_arg14) := keep6 m ρ c (by decide)
theorem keep_main_arg14_W16 (c : Dev nD) : W16 m ρ c (Proc.devRef .tc main_arg14) = W1 m ρ c (Proc.devRef .tc main_arg14) := keep16 m ρ c (by decide)
theorem keep_main_arg14_W26 (c : Dev nD) : W26 m ρ c (Proc.devRef .tc main_arg14) = W1 m ρ c (Proc.devRef .tc main_arg14) := keep26 m ρ c (by decide)
theorem keep_main_arg14_W36 (c : Dev nD) : W36 m ρ c (Proc.devRef .tc main_arg14) = W1 m ρ c (Proc.devRef .tc main_arg14) := keep36 m ρ c (by decide)
theorem keep_main_arg14_W46 (c : Dev nD) : W46 m ρ c (Proc.devRef .tc main_arg14) = W1 m ρ c (Proc.devRef .tc main_arg14) := keep46 m ρ c (by decide)
theorem keep_main_arg14_W51 (c : Dev nD) : W51 m ρ c (Proc.devRef .tc main_arg14) = W1 m ρ c (Proc.devRef .tc main_arg14) := keep51 m ρ c (by decide)
theorem keep_main_arg3_W50 (c : Dev nD) : W50 m ρ c (Proc.devRef .tc main_arg3) = W1 m ρ c (Proc.devRef .tc main_arg3) := keep50 m ρ c (by decide)
theorem keep_main_arg3_W51 (c : Dev nD) : W51 m ρ c (Proc.devRef .tc main_arg3) = W1 m ρ c (Proc.devRef .tc main_arg3) := keep51 m ρ c (by decide)
theorem keep_main_arg15_W50 (c : Dev nD) : W50 m ρ c (Proc.devRef .tc main_arg15) = W1 m ρ c (Proc.devRef .tc main_arg15) := keep50 m ρ c (by decide)
theorem keep_main_arg15_W51 (c : Dev nD) : W51 m ρ c (Proc.devRef .tc main_arg15) = W1 m ρ c (Proc.devRef .tc main_arg15) := keep51 m ρ c (by decide)
theorem keep_main_arg16_W50 (c : Dev nD) : W50 m ρ c (Proc.devRef .tc main_arg16) = W1 m ρ c (Proc.devRef .tc main_arg16) := keep50 m ρ c (by decide)
theorem keep_main_arg16_W51 (c : Dev nD) : W51 m ρ c (Proc.devRef .tc main_arg16) = W1 m ρ c (Proc.devRef .tc main_arg16) := keep51 m ρ c (by decide)
theorem keep_main_arg0_W51 (c : Dev nD) : W51 m ρ c (Proc.devRef .tc main_arg0) = W1 m ρ c (Proc.devRef .tc main_arg0) := keep51 m ρ c (by decide)
theorem keep_main_arg1_W51 (c : Dev nD) : W51 m ρ c (Proc.devRef .tc main_arg1) = W1 m ρ c (Proc.devRef .tc main_arg1) := keep51 m ρ c (by decide)
theorem keep_main_arg2_W51 (c : Dev nD) : W51 m ρ c (Proc.devRef .tc main_arg2) = W1 m ρ c (Proc.devRef .tc main_arg2) := keep51 m ρ c (by decide)
theorem keep_main_arg4_W51 (c : Dev nD) : W51 m ρ c (Proc.devRef .tc main_arg4) = W1 m ρ c (Proc.devRef .tc main_arg4) := keep51 m ρ c (by decide)
theorem keep_main_arg5_W51 (c : Dev nD) : W51 m ρ c (Proc.devRef .tc main_arg5) = W1 m ρ c (Proc.devRef .tc main_arg5) := keep51 m ρ c (by decide)

end Cert.KernelIdeal.Keep

end
-- ==== Proof.KInitArgs.lean ====
/-
  The first host stretch of the kernel's program computes new arrays only: none of its operations writes an argument
  array. Read after the stretch, from any contents `V` of the buffers before it, each of the seventeen arguments
  therefore holds what it held in `V`.
-/
import proofs.«403201_j40475771797954_1_alg».proof.Proof.Gen.KernelIdeal.Launch
import Idealize.ShloMosaic.PureOps.Ideal

set_option maxRecDepth 16384

noncomputable section

namespace Cert.KernelIdeal.Init

open Cert.KernelIdeal Cert.KernelIdeal.Gen
open Idealize.ShloMosaic Idealize.ShloMosaic.TcCoe

variable {F : FTy → Type} [FloatOps F] (V : Valuation τ sig (Elt F))

set_option maxHeartbeats 0 in
/-- Every argument array after the stretch is the argument array before it. -/
theorem args_after :
    StableHlo.after hostOps0 V (Proc.devRef .tc main_arg0) = V (Proc.devRef .tc main_arg0)
    ∧ StableHlo.after hostOps0 V (Proc.devRef .tc main_arg1) = V (Proc.devRef .tc main_arg1)
    ∧ StableHlo.after hostOps0 V (Proc.devRef .tc main_arg2) = V (Proc.devRef .tc main_arg2)
    ∧ StableHlo.after hostOps0 V (Proc.devRef .tc main_arg3) = V (Proc.devRef .tc main_arg3)
    ∧ StableHlo.after hostOps0 V (Proc.devRef .tc main_arg4) = V (Proc.devRef .tc main_arg4)
    ∧ StableHlo.after hostOps0 V (Proc.devRef .tc main_arg5) = V (Proc.devRef .tc main_arg5)
    ∧ StableHlo.after hostOps0 V (Proc.devRef .tc main_arg6) = V (Proc.devRef .tc main_arg6)
    ∧ StableHlo.after hostOps0 V (Proc.devRef .tc main_arg7) = V (Proc.devRef .tc main_arg7)
    ∧ StableHlo.after hostOps0 V (Proc.devRef .tc main_arg8) = V (Proc.devRef .tc main_arg8)
    ∧ StableHlo.after hostOps0 V (Proc.devRef .tc main_arg9) = V (Proc.devRef .tc main_arg9)
    ∧ StableHlo.after hostOps0 V (Proc.devRef .tc main_arg10) = V (Proc.devRef .tc main_arg10)
    ∧ StableHlo.after hostOps0 V (Proc.devRef .tc main_arg11) = V (Proc.devRef .tc main_arg11)
    ∧ StableHlo.after hostOps0 V (Proc.devRef .tc main_arg12) = V (Proc.devRef .tc main_arg12)
    ∧ StableHlo.after hostOps0 V (Proc.devRef .tc main_arg13) = V (Proc.devRef .tc main_arg13)
    ∧ StableHlo.after hostOps0 V (Proc.devRef .tc main_arg14) = V (Proc.devRef .tc main_arg14)
    ∧ StableHlo.after hostOps0 V (Proc.devRef .tc main_arg15) = V (Proc.devRef .tc main_arg15)
    ∧ StableHlo.after hostOps0 V (Proc.devRef .tc main_arg16) = V (Proc.devRef .tc main_arg16) := by
  after_results_simp
  all_goals simp only [and_self]

end Cert.KernelIdeal.Init

end
-- ==== Proof.Spec.lean ====
/-
  The mathematics of one GIN layer's dense part, over the extended reals, as whole-array functions.

  A layer takes the aggregated node features `hh : [50000, 100]` and computes
    y1 = hh · W1 + b1                                  ([50000, 200])
    z  = max (((y1 - μ1) · rsqrt (σ1 + ε)) · g1 + β1) 0   (batch normalisation over the 50000 rows, then the ramp)
    y2 = z · W2 + b2                                   ([50000, 100])
    h' = max (((y2 - μ2) · rsqrt (σ2 + ε)) · go + βo) 0
  where μ, σ are the column means and variances, held as ROW vectors [1, 200] / [1, 100]. Each function below is one of
  these steps, entry by entry: a row of the result depends on the same row of the input only, which is why computing it
  5000 rows at a time gives the same array.
-/
import Idealize.ShloMosaic.PureOps.Ideal
import Idealize.ShloMosaic.Lib.ValueIdx

noncomputable section

namespace Cert.GIN

open Idealize.ShloMosaic Idealize.ShloMosaic.ValueIdx

abbrev SNxD : Shape := ⟨2, ![50000, 100]⟩
abbrev SNxH : Shape := ⟨2, ![50000, 200]⟩
abbrev SDxH : Shape := ⟨2, ![100, 200]⟩
abbrev SHxD : Shape := ⟨2, ![200, 100]⟩
abbrev S1xH : Shape := ⟨2, ![1, 200]⟩
abbrev S1xD : Shape := ⟨2, ![1, 100]⟩

/-- The batch-norm ε, the f32 nearest 1e-5, as both programs spell it. -/
abbrev bnEps : EReal := Ideal.ofBits .f32 0x3727C5AC#32

/-- One entry through batch normalisation and the ramp: `max (((y - μ) · rsqrt (σ + ε)) · g + β) 0`, the zero spelled
    as the f32 zero word both programs compare against. -/
def bnAct (y mu var g be : EReal) : EReal :=
  max ((((y - mu) * Ideal.rsqrt (var + bnEps)) * g) + be) (Ideal.ofBits .f32 0x00000000#32)

/-- `hh · W1 + b1`: entry (r, j) is the sum over k of hh(r, k) · W1(k, j), plus the bias row's entry j. -/
def linH (x : FVec Ideal SNxD .f32) (w : FVec Ideal SDxH .f32) (b : FVec Ideal S1xH .f32) : FVec Ideal SNxH .f32 :=
  fun i => (∑ k : Fin 100, x (ix2 (i 0) k) * w (ix2 k (i 1))) + b (ix2 0 (i 1))

/-- Batch normalisation and ramp of `y1` by the row statistics, then `· W2 + b2`: entry (r, j) is the sum over k of
    `bnAct (y1(r, k)) …(k)` · W2(k, j), plus b2's entry j. -/
def bnLinD (y1 : FVec Ideal SNxH .f32) (mu var g be : FVec Ideal S1xH .f32) (w : FVec Ideal SHxD .f32)
    (b : FVec Ideal S1xD .f32) : FVec Ideal SNxD .f32 :=
  fun i => (∑ k : Fin 200, bnAct (y1 (ix2 (i 0) k)) (mu (ix2 0 k)) (var (ix2 0 k)) (g (ix2 0 k)) (be (ix2 0 k)) * w (ix2 k (i 1)))
    + b (ix2 0 (i 1))

/-- Batch normalisation and ramp of `y2` by the row statistics, entry by entry. -/
def bnReluD (y2 : FVec Ideal SNxD .f32) (mu var g be : FVec Ideal S1xD .f32) : FVec Ideal SNxD .f32 :=
  fun i => bnAct (y2 i) (mu (ix2 0 (i 1))) (var (ix2 0 (i 1))) (g (ix2 0 (i 1))) (be (ix2 0 (i 1)))

end Cert.GIN

end
-- ==== Proof.SpecGraph.lean ====
/-
  The graph half of a GIN layer, as both programs compute it on the host, over the extended reals:
    hh = (1 + eps) · h + Σ_{edges into a node} (h[src] + e)
  — a gather of the 800000 source rows (a negative index counted from the end, as array indexing does), the edge
  features added, a scatter-add into the 50000 destination rows — and the slices of the stacked per-layer parameters.
  The gather and the scatter-add are kept as the library's operations: nothing here looks inside them.
-/
import Idealize.ShloMosaic.PureOps.Ideal
import Idealize.ShloMosaic.Lib.ValueIdx
import proofs.«403201_j40475771797954_1_alg».proof.Proof.Spec

noncomputable section

namespace Cert.GIN

open Idealize.ShloMosaic

abbrev S_ : Shape := ⟨0, ![]⟩
abbrev S1 : Shape := ⟨1, ![1]⟩
abbrev S5 : Shape := ⟨1, ![5]⟩
abbrev SE : Shape := ⟨1, ![800000]⟩
abbrev SEx1 : Shape := ⟨2, ![800000, 1]⟩
abbrev SExD : Shape := ⟨2, ![800000, 100]⟩
abbrev S5xDxH : Shape := ⟨3, ![5, 100, 200]⟩
abbrev S1xDxH : Shape := ⟨3, ![1, 100, 200]⟩
abbrev S5xHxD : Shape := ⟨3, ![5, 200, 100]⟩
abbrev S1xHxD : Shape := ⟨3, ![1, 200, 100]⟩
abbrev S5xH : Shape := ⟨2, ![5, 200]⟩
abbrev S5xD : Shape := ⟨2, ![5, 100]⟩

theorem h_S_ : 0 < S_.numel := by decide
theorem bcast_S_SE : S_.BroadcastsInDim SE (![] : Fin 0 → Fin SE.rank) := by decide
theorem bcast_SE_SEx1_0 : SE.BroadcastsInDim SEx1 (![0] : Fin 1 → Fin SEx1.rank) := by decide
theorem bcast_S_SNxD : S_.BroadcastsInDim SNxD (![] : Fin 0 → Fin SNxD.rank) := by decide
theorem shapeCasts_S1_S_ : S1.ShapeCasts S_ := by decide
theorem shapeCasts_S1xDxH_SDxH : S1xDxH.ShapeCasts SDxH := by decide
theorem shapeCasts_S1xHxD_SHxD : S1xHxD.ShapeCasts SHxD := by decide
theorem gatherRows_wf : GatherDims.WF SNxD SEx1 SExD [1] [0] [] [0] [] 1 ![1, 100] := by decide
theorem scatterRows_wf : ScatterDims.WF SNxD SEx1 SExD [1] [0] [0] 1 := by decide

/-- Row gather: result row k is the operand's row `idx k`. -/
def gatherRows : GatherDims SNxD SEx1 SExD where
  offsetDims := [1]
  collapsedSliceDims := [0]
  operandBatchingDims := []
  startIndicesBatchingDims := []
  startIndexMap := [0]
  indexVectorDim := 1
  sliceSizes := ![1, 100]
  wf := gatherRows_wf

/-- Row scatter: update row k goes to the operand's row `idx k`. -/
def scatterRows : ScatterDims SNxD SEx1 SExD where
  updateWindowDims := [1]
  insertedWindowDims := [0]
  scatterDimsToOperandDims := [0]
  indexVectorDim := 1
  wf := scatterRows_wf

/-- An edge's source index as array indexing reads it: a negative index has 50000 added. -/
def normSrc (src : IVec SE 32) : IVec SE 32 :=
  select (cmpi .slt src (broadcastInDim SE ![] bcast_S_SE (constantI S_ 32 0#32)))
    (addi src (broadcastInDim SE ![] bcast_S_SE (constantI S_ 32 50000#32))) src

/-- `(1 + eps) · h + scatter-add over dst of (h[src] + e)`, `epsl` the layer's scalar. -/
def agg (epsl : FVec Ideal S_ .f32) (h : FVec Ideal SNxD .f32) (e : FVec Ideal SExD .f32) (src dst : IVec SE 32) :
    FVec Ideal SNxD .f32 :=
  addf
    (mulf (broadcastInDim SNxD ![] bcast_S_SNxD (addf (constant (F := Ideal) S_ .f32 0x3F800000#32) epsl)) h)
    (Host.scatterAdd (F := Ideal) scatterRows
      (broadcastInDim SNxD ![] bcast_S_SNxD (constant (F := Ideal) S_ .f32 0x00000000#32))
      (broadcastInDim SEx1 ![0] bcast_SE_SEx1_0 dst)
      (addf (Host.gather gatherRows h (broadcastInDim SEx1 ![0] bcast_SE_SEx1_0 (normSrc src))) e))

/-- Layer `l`'s scalar `eps[l]`. -/
def epsOf (eps : FVec Ideal S5 .f32) (l : ℕ) (hs : S5.Slices ![l] S1) : FVec Ideal S_ .f32 :=
  shapeCast S_ (extractStridedSlice S1 ![l] eps hs) shapeCasts_S1_S_

/-- Layer `l`'s first weight matrix `W1[l]`. -/
def w1Of (W1 : FVec Ideal S5xDxH .f32) (l : ℕ) (hs : S5xDxH.Slices ![l, 0, 0] S1xDxH) : FVec Ideal SDxH .f32 :=
  shapeCast SDxH (extractStridedSlice S1xDxH ![l, 0, 0] W1 hs) shapeCasts_S1xDxH_SDxH

/-- Layer `l`'s second weight matrix `W2[l]`. -/
def w2Of (W2 : FVec Ideal S5xHxD .f32) (l : ℕ) (hs : S5xHxD.Slices ![l, 0, 0] S1xHxD) : FVec Ideal SHxD .f32 :=
  shapeCast SHxD (extractStridedSlice S1xHxD ![l, 0, 0] W2 hs) shapeCasts_S1xHxD_SHxD

/-- Row `l` of a stacked `[5, 200]` parameter, as a `[1, 200]` row. -/
def rowHOf (p : FVec Ideal S5xH .f32) (l : ℕ) (hs : S5xH.Slices ![l, 0] S1xH) : FVec Ideal S1xH .f32 :=
  extractStridedSlice S1xH ![l, 0] p hs

/-- Row `l` of a stacked `[5, 100]` parameter, as a `[1, 100]` row. -/
def rowDOf (p : FVec Ideal S5xD .f32) (l : ℕ) (hs : S5xD.Slices ![l, 0] S1xD) : FVec Ideal S1xD .f32 :=
  extractStridedSlice S1xD ![l, 0] p hs

end Cert.GIN

end
-- ==== Proof.SpecStats.lean ====
/-
  The column statistics of a GIN layer's batch normalisation, and the pooled head, as the host computes them over the
  extended reals.

  For an array y of 50000 rows the mean row is, column by column,
    μ(j) = (Σ_r y(r, j)) / 50000,
  held as a ROW [1, n] (the column sums broadcast along a new leading axis, over the splat of 50000), and the variance row is
    σ(j) = (Σ_r (y(r, j) − μ(j))²) / (50000 − 0),
  where the divisor is the row count less a correction that is the integer 0 made a float; the quotient is kept where that
  divisor is positive and replaced by the NaN word otherwise (a choice between two rows, entry by entry). Every literal is
  left as its f32 word: nothing here is evaluated.

  The head takes the last layer's node features h : [50000, 100] and the graph index of each node, batch : [50000]:
    pooled(g, j) = (Σ_{r : batch r = g} h(r, j)) / max (Σ_{r : batch r = g} 1) 1        (512 graphs)
    out = pooled · Wp + bp                                                              ([512, 2])
  with the two sums over a graph's nodes kept as the library's scatter-add: nothing here looks inside them.
-/
import Idealize.ShloMosaic.PureOps.Ideal
import Idealize.ShloMosaic.Lib.ValueIdx
import proofs.«403201_j40475771797954_1_alg».proof.Proof.Spec
import proofs.«403201_j40475771797954_1_alg».proof.Proof.SpecGraph

noncomputable section

namespace Cert.GIN

open Idealize.ShloMosaic

abbrev SH : Shape := ⟨1, ![200]⟩
abbrev SD : Shape := ⟨1, ![100]⟩
abbrev SN : Shape := ⟨1, ![50000]⟩
abbrev SNx1 : Shape := ⟨2, ![50000, 1]⟩
abbrev SG : Shape := ⟨1, ![512]⟩
abbrev SGx1 : Shape := ⟨2, ![512, 1]⟩
abbrev SGxD : Shape := ⟨2, ![512, 100]⟩
abbrev SDx2 : Shape := ⟨2, ![100, 2]⟩
abbrev S2 : Shape := ⟨1, ![2]⟩
abbrev S1x2 : Shape := ⟨2, ![1, 2]⟩
abbrev SGx2 : Shape := ⟨2, ![512, 2]⟩

theorem reduces_SNxH_SH_0 : SNxH.ReducesTo [0] SH := by decide
theorem reduces_SNxD_SD_0 : SNxD.ReducesTo [0] SD := by decide
theorem bcast_SH_S1xH_1 : SH.BroadcastsInDim S1xH (![1] : Fin 1 → Fin S1xH.rank) := by decide
theorem bcast_SD_S1xD_1 : SD.BroadcastsInDim S1xD (![1] : Fin 1 → Fin S1xD.rank) := by decide
theorem bcast_S_S1xH : S_.BroadcastsInDim S1xH (![] : Fin 0 → Fin S1xH.rank) := by decide
theorem bcast_S_S1xD : S_.BroadcastsInDim S1xD (![] : Fin 0 → Fin S1xD.rank) := by decide
theorem bcast_S1xH_SNxH_01 : S1xH.BroadcastsInDim SNxH (![0, 1] : Fin 2 → Fin SNxH.rank) := by decide
theorem bcast_S1xD_SNxD_01 : S1xD.BroadcastsInDim SNxD (![0, 1] : Fin 2 → Fin SNxD.rank) := by decide
theorem bcast_S_SGxD : S_.BroadcastsInDim SGxD (![] : Fin 0 → Fin SGxD.rank) := by decide
theorem bcast_S_SN : S_.BroadcastsInDim SN (![] : Fin 0 → Fin SN.rank) := by decide
theorem bcast_S_SG : S_.BroadcastsInDim SG (![] : Fin 0 → Fin SG.rank) := by decide
theorem bcast_SN_SNx1_0 : SN.BroadcastsInDim SNx1 (![0] : Fin 1 → Fin SNx1.rank) := by decide
theorem bcast_SG_SGx1_0 : SG.BroadcastsInDim SGx1 (![0] : Fin 1 → Fin SGx1.rank) := by decide
theorem bcast_SGx1_SGxD_01 : SGx1.BroadcastsInDim SGxD (![0, 1] : Fin 2 → Fin SGxD.rank) := by decide
theorem bcast_S2_S1x2_1 : S2.BroadcastsInDim S1x2 (![1] : Fin 1 → Fin S1x2.rank) := by decide
theorem bcast_S1x2_SGx2_01 : S1x2.BroadcastsInDim SGx2 (![0, 1] : Fin 2 → Fin SGx2.rank) := by decide
theorem poolRows_wf : ScatterDims.WF SGxD SNx1 SNxD [1] [0] [0] 1 := by decide
theorem poolCount_wf : ScatterDims.WF SG SNx1 SN [] [0] [0] 1 := by decide
theorem headDot_wf : DotDims.WF SGxD SDx2 SGx2 [1] [0] [0] [1] [] [] := by decide

/-- Row scatter into the 512 graphs: node row k is added to the row of graph `batch k`. -/
def poolRows : ScatterDims SGxD SNx1 SNxD where
  updateWindowDims := [1]
  insertedWindowDims := [0]
  scatterDimsToOperandDims := [0]
  indexVectorDim := 1
  wf := poolRows_wf

/-- Scalar scatter into the 512 graphs: node k's entry is added to the entry of graph `batch k`. -/
def poolCount : ScatterDims SG SNx1 SN where
  updateWindowDims := []
  insertedWindowDims := [0]
  scatterDimsToOperandDims := [0]
  indexVectorDim := 1
  wf := poolCount_wf

/-- The head's product: [512, 100] by [100, 2], contracting the 100. -/
def headDot : DotDims SGxD SDx2 SGx2 where
  lhsContracting := [1]
  rhsContracting := [0]
  lhsNonContracting := [0]
  rhsNonContracting := [1]
  lhsBatch := []
  rhsBatch := []
  wf := headDot_wf

/-- The column mean of a [50000, 200] array as a [1, 200] row: the column sums over the splat of 50000. -/
def meanRowH (y : FVec Ideal SNxH .f32) : FVec Ideal S1xH .f32 :=
  Host.divf (F := Ideal)
    (broadcastInDim S1xH ![1] bcast_SH_S1xH_1
      (Host.reduceAdd (F := Ideal) y (constant (F := Ideal) S_ .f32 0x00000000#32) reduces_SNxH_SH_0 h_S_))
    (broadcastInDim S1xH ![] bcast_S_S1xH (constant (F := Ideal) S_ .f32 0x47435000#32))

/-- The column mean of a [50000, 100] array as a [1, 100] row. -/
def meanRowD (y : FVec Ideal SNxD .f32) : FVec Ideal S1xD .f32 :=
  Host.divf (F := Ideal)
    (broadcastInDim S1xD ![1] bcast_SD_S1xD_1
      (Host.reduceAdd (F := Ideal) y (constant (F := Ideal) S_ .f32 0x00000000#32) reduces_SNxD_SD_0 h_S_))
    (broadcastInDim S1xD ![] bcast_S_S1xD (constant (F := Ideal) S_ .f32 0x47435000#32))

/-- What the variance divides by: 50000 less the correction, which is the integer 0 turned into a float. -/
def varCount : FVec Ideal S_ .f32 :=
  subf (F := Ideal) (constant (F := Ideal) S_ .f32 0x47435000#32) (sitofp (F := Ideal) .f32 (constantI S_ 32 0#32))

/-- The column variance of a [50000, 200] array as a [1, 200] row: the squared distances from the column mean, summed
    down the column and divided by `varCount`; where that count is not positive the row is the NaN word instead. -/
def varRowH (y : FVec Ideal SNxH .f32) : FVec Ideal S1xH .f32 :=
  select (broadcastInDim S1xH ![] bcast_S_S1xH (cmpf (F := Ideal) .ogt varCount (constant (F := Ideal) S_ .f32 0x00000000#32)))
    (Host.divf (F := Ideal)
      (broadcastInDim S1xH ![1] bcast_SH_S1xH_1
        (Host.reduceAdd (F := Ideal)
          (mulf (F := Ideal) (subf (F := Ideal) y (broadcastInDim SNxH ![0, 1] bcast_S1xH_SNxH_01 (meanRowH y)))
            (subf (F := Ideal) y (broadcastInDim SNxH ![0, 1] bcast_S1xH_SNxH_01 (meanRowH y))))
          (constant (F := Ideal) S_ .f32 0x00000000#32) reduces_SNxH_SH_0 h_S_))
      (broadcastInDim S1xH ![] bcast_S_S1xH varCount))
    (broadcastInDim S1xH ![] bcast_S_S1xH (constant (F := Ideal) S_ .f32 0x7FC00000#32))

/-- The column variance of a [50000, 100] array as a [1, 100] row. -/
def varRowD (y : FVec Ideal SNxD .f32) : FVec Ideal S1xD .f32 :=
  select (broadcastInDim S1xD ![] bcast_S_S1xD (cmpf (F := Ideal) .ogt varCount (constant (F := Ideal) S_ .f32 0x00000000#32)))
    (Host.divf (F := Ideal)
      (broadcastInDim S1xD ![1] bcast_SD_S1xD_1
        (Host.reduceAdd (F := Ideal)
          (mulf (F := Ideal) (subf (F := Ideal) y (broadcastInDim SNxD ![0, 1] bcast_S1xD_SNxD_01 (meanRowD y)))
            (subf (F := Ideal) y (broadcastInDim SNxD ![0, 1] bcast_S1xD_SNxD_01 (meanRowD y))))
          (constant (F := Ideal) S_ .f32 0x00000000#32) reduces_SNxD_SD_0 h_S_))
      (broadcastInDim S1xD ![] bcast_S_S1xD varCount))
    (broadcastInDim S1xD ![] bcast_S_S1xD (constant (F := Ideal) S_ .f32 0x7FC00000#32))

/-- The mean pool over each of the 512 graphs and the linear head: the node rows summed per graph, over the number of
    the graph's nodes (at least 1), times `Wp`, plus the bias row. -/
def head (h : FVec Ideal SNxD .f32) (batch : IVec SN 32) (Wp : FVec Ideal SDx2 .f32) (bp : FVec Ideal S2 .f32) :
    FVec Ideal SGx2 .f32 :=
  addf (F := Ideal)
    (Host.dotGeneral (F := Ideal) headDot none
      (Host.divf (F := Ideal)
        (Host.scatterAdd (F := Ideal) poolRows
          (broadcastInDim SGxD ![] bcast_S_SGxD (constant (F := Ideal) S_ .f32 0x00000000#32))
          (broadcastInDim SNx1 ![0] bcast_SN_SNx1_0 batch) h)
        (broadcastInDim SGxD ![0, 1] bcast_SGx1_SGxD_01
          (broadcastInDim SGx1 ![0] bcast_SG_SGx1_0
            (maximumf (F := Ideal)
              (Host.scatterAdd (F := Ideal) poolCount
                (broadcastInDim SG ![] bcast_S_SG (constant (F := Ideal) S_ .f32 0x00000000#32))
                (broadcastInDim SNx1 ![0] bcast_SN_SNx1_0 batch)
                (broadcastInDim SN ![] bcast_S_SN (constant (F := Ideal) S_ .f32 0x3F800000#32)))
              (broadcastInDim SG ![] bcast_S_SG (constant (F := Ideal) S_ .f32 0x3F800000#32))))))
      Wp)
    (broadcastInDim SGx2 ![0, 1] bcast_S1x2_SGx2_01 (broadcastInDim S1x2 ![1] bcast_S2_S1x2_1 bp))

end Cert.GIN

end
-- ==== Proof.SpecInit.lean ====
/-
  The inputs of the first GIN layer, as both programs compute them on the host, over the extended reals.

  A node has nine integer features and an edge three; each feature f has its own embedding table (128 rows of 100 for a
  node feature, 16 rows of 100 for an edge feature), and a node's (an edge's) initial vector is the sum over the features
  of the table row its feature value selects:
    h0(n, ·) = Σ_{f < 9} atom_emb[f][x_atom(n, f), ·]        e(k, ·) = Σ_{f < 3} bond_emb[f][edge_attr(k, f), ·]
  A feature value is an array index: a negative one counts from the end of the table (128, resp. 16, is added). The sums
  are taken in the order both programs take them, from a zero array upward: ((0 + g₀) + g₁) + … . The row lookup is kept
  as the library's gather: nothing here looks inside it.

  The edge list is a [2, 800000] integer array: row 0 holds the source node of every edge, row 1 its destination.
-/
import Idealize.ShloMosaic.PureOps.Ideal
import Idealize.ShloMosaic.Lib.ValueIdx
import proofs.«403201_j40475771797954_1_alg».proof.Proof.Spec
import proofs.«403201_j40475771797954_1_alg».proof.Proof.SpecGraph
import proofs.«403201_j40475771797954_1_alg».proof.Proof.SpecStats

noncomputable section

namespace Cert.GIN

open Idealize.ShloMosaic

abbrev SNx9 : Shape := ⟨2, ![50000, 9]⟩
abbrev S9xVxD : Shape := ⟨3, ![9, 128, 100]⟩
abbrev S1xVxD : Shape := ⟨3, ![1, 128, 100]⟩
abbrev SVxD : Shape := ⟨2, ![128, 100]⟩
abbrev SEx3 : Shape := ⟨2, ![800000, 3]⟩
abbrev S3xBxD : Shape := ⟨3, ![3, 16, 100]⟩
abbrev S1xBxD : Shape := ⟨3, ![1, 16, 100]⟩
abbrev SBxD : Shape := ⟨2, ![16, 100]⟩
abbrev S2xE : Shape := ⟨2, ![2, 800000]⟩
abbrev S1xE : Shape := ⟨2, ![1, 800000]⟩

theorem bcast_S_SExD : S_.BroadcastsInDim SExD (![] : Fin 0 → Fin SExD.rank) := by decide
theorem shapeCasts_SNx1_SN : SNx1.ShapeCasts SN := by decide
theorem shapeCasts_SEx1_SE : SEx1.ShapeCasts SE := by decide
theorem shapeCasts_S1xVxD_SVxD : S1xVxD.ShapeCasts SVxD := by decide
theorem shapeCasts_S1xBxD_SBxD : S1xBxD.ShapeCasts SBxD := by decide
theorem shapeCasts_S1xE_SE : S1xE.ShapeCasts SE := by decide
theorem gatherAtom_wf : GatherDims.WF SVxD SNx1 SNxD [1] [0] [] [0] [] 1 ![1, 100] := by decide
theorem gatherBond_wf : GatherDims.WF SBxD SEx1 SExD [1] [0] [] [0] [] 1 ![1, 100] := by decide

/-- Row lookup in a node-feature table: result row n is the table's row `idx n`. -/
def gatherAtom : GatherDims SVxD SNx1 SNxD where
  offsetDims := [1]
  collapsedSliceDims := [0]
  operandBatchingDims := []
  startIndicesBatchingDims := []
  startIndexMap := [0]
  indexVectorDim := 1
  sliceSizes := ![1, 100]
  wf := gatherAtom_wf

/-- Row lookup in an edge-feature table: result row k is the table's row `idx k`. -/
def gatherBond : GatherDims SBxD SEx1 SExD where
  offsetDims := [1]
  collapsedSliceDims := [0]
  operandBatchingDims := []
  startIndicesBatchingDims := []
  startIndexMap := [0]
  indexVectorDim := 1
  sliceSizes := ![1, 100]
  wf := gatherBond_wf

/-- A node feature's value as array indexing reads it: a negative value has the table's 128 rows added. -/
def normAtom (idx : IVec SN 32) : IVec SN 32 :=
  select (cmpi .slt idx (broadcastInDim SN ![] bcast_S_SN (constantI S_ 32 0#32)))
    (addi idx (broadcastInDim SN ![] bcast_S_SN (constantI S_ 32 128#32))) idx

/-- An edge feature's value as array indexing reads it: a negative value has the table's 16 rows added. -/
def normBond (idx : IVec SE 32) : IVec SE 32 :=
  select (cmpi .slt idx (broadcastInDim SE ![] bcast_S_SE (constantI S_ 32 0#32)))
    (addi idx (broadcastInDim SE ![] bcast_S_SE (constantI S_ 32 16#32))) idx

/-- Node feature `f`'s table `atom_emb[f]`, a [128, 100] matrix. -/
def atomTable (atom_emb : FVec Ideal S9xVxD .f32) (f : ℕ) (hs : S9xVxD.Slices ![f, 0, 0] S1xVxD) : FVec Ideal SVxD .f32 :=
  shapeCast SVxD (extractStridedSlice S1xVxD ![f, 0, 0] atom_emb hs) shapeCasts_S1xVxD_SVxD

/-- Node feature `f`'s values `x_atom[:, f]`, one per node. -/
def atomCol (x_atom : IVec SNx9 32) (f : ℕ) (hs : SNx9.Slices ![0, f] SNx1) : IVec SN 32 :=
  shapeCast SN (extractStridedSlice SNx1 ![0, f] x_atom hs) shapeCasts_SNx1_SN

/-- Node feature `f`'s contribution: row n is `atom_emb[f][x_atom(n, f)]`. -/
def atomLookup (x_atom : IVec SNx9 32) (atom_emb : FVec Ideal S9xVxD .f32) (f : ℕ)
    (hsE : S9xVxD.Slices ![f, 0, 0] S1xVxD) (hsX : SNx9.Slices ![0, f] SNx1) : FVec Ideal SNxD .f32 :=
  Host.gather gatherAtom (atomTable atom_emb f hsE)
    (broadcastInDim SNx1 ![0] bcast_SN_SNx1_0 (normAtom (atomCol x_atom f hsX)))

/-- The nodes' initial vectors: the nine features' contributions summed from a zero array upward. -/
def atomSum (x_atom : IVec SNx9 32) (atom_emb : FVec Ideal S9xVxD .f32) : FVec Ideal SNxD .f32 :=
  addf (addf (addf (addf (addf (addf (addf (addf (addf
    (broadcastInDim SNxD ![] bcast_S_SNxD (constant (F := Ideal) S_ .f32 0x00000000#32))
    (atomLookup x_atom atom_emb 0 (by decide) (by decide)))
    (atomLookup x_atom atom_emb 1 (by decide) (by decide)))
    (atomLookup x_atom atom_emb 2 (by decide) (by decide)))
    (atomLookup x_atom atom_emb 3 (by decide) (by decide)))
    (atomLookup x_atom atom_emb 4 (by decide) (by decide)))
    (atomLookup x_atom atom_emb 5 (by decide) (by decide)))
    (atomLookup x_atom atom_emb 6 (by decide) (by decide)))
    (atomLookup x_atom atom_emb 7 (by decide) (by decide)))
    (atomLookup x_atom atom_emb 8 (by decide) (by decide))

/-- Edge feature `f`'s table `bond_emb[f]`, a [16, 100] matrix. -/
def bondTable (bond_emb : FVec Ideal S3xBxD .f32) (f : ℕ) (hs : S3xBxD.Slices ![f, 0, 0] S1xBxD) : FVec Ideal SBxD .f32 :=
  shapeCast SBxD (extractStridedSlice S1xBxD ![f, 0, 0] bond_emb hs) shapeCasts_S1xBxD_SBxD

/-- Edge feature `f`'s values `edge_attr[:, f]`, one per edge. -/
def bondCol (edge_attr : IVec SEx3 32) (f : ℕ) (hs : SEx3.Slices ![0, f] SEx1) : IVec SE 32 :=
  shapeCast SE (extractStridedSlice SEx1 ![0, f] edge_attr hs) shapeCasts_SEx1_SE

/-- Edge feature `f`'s contribution: row k is `bond_emb[f][edge_attr(k, f)]`. -/
def bondLookup (edge_attr : IVec SEx3 32) (bond_emb : FVec Ideal S3xBxD .f32) (f : ℕ)
    (hsE : S3xBxD.Slices ![f, 0, 0] S1xBxD) (hsX : SEx3.Slices ![0, f] SEx1) : FVec Ideal SExD .f32 :=
  Host.gather gatherBond (bondTable bond_emb f hsE)
    (broadcastInDim SEx1 ![0] bcast_SE_SEx1_0 (normBond (bondCol edge_attr f hsX)))

/-- The edges' feature vectors: the three features' contributions summed from a zero array upward. -/
def bondSum (edge_attr : IVec SEx3 32) (bond_emb : FVec Ideal S3xBxD .f32) : FVec Ideal SExD .f32 :=
  addf (addf (addf
    (broadcastInDim SExD ![] bcast_S_SExD (constant (F := Ideal) S_ .f32 0x00000000#32))
    (bondLookup edge_attr bond_emb 0 (by decide) (by decide)))
    (bondLookup edge_attr bond_emb 1 (by decide) (by decide)))
    (bondLookup edge_attr bond_emb 2 (by decide) (by decide))

/-- Row `r` of the edge list, one node number per edge. -/
def edgeRow (edge_index : IVec S2xE 32) (r : ℕ) (hs : S2xE.Slices ![r, 0] S1xE) : IVec SE 32 :=
  shapeCast SE (extractStridedSlice S1xE ![r, 0] edge_index hs) shapeCasts_S1xE_SE

/-- Every edge's source node: row 0 of the edge list. -/
def srcOf (edge_index : IVec S2xE 32) : IVec SE 32 := edgeRow edge_index 0 (by decide)

/-- Every edge's destination node: row 1 of the edge list. -/
def dstOf (edge_index : IVec S2xE 32) : IVec SE 32 := edgeRow edge_index 1 (by decide)

end Cert.GIN

end
-- ==== Proof.Model.lean ====
/-
  The whole network as one function of the seventeen inputs, over the extended reals: the embedding sums, five layers
  (graph aggregation, then the dense part with its two batch normalisations, the column statistics held as rows), the
  mean pool over graphs and the head. Both programs are shown to compute this function.
-/
import proofs.«403201_j40475771797954_1_alg».proof.Proof.Spec
import proofs.«403201_j40475771797954_1_alg».proof.Proof.SpecGraph
import proofs.«403201_j40475771797954_1_alg».proof.Proof.SpecInit
import proofs.«403201_j40475771797954_1_alg».proof.Proof.SpecStats

noncomputable section

namespace Cert.GIN

open Idealize.ShloMosaic

/-- A layer's first dense step on the aggregated features: `((1 + eps) · h + Σ (h[src] + e)) · W1 + b1`. -/
def y1Of (epsl : FVec Ideal S_ .f32) (w1 : FVec Ideal SDxH .f32) (b1 : FVec Ideal S1xH .f32)
    (e : FVec Ideal SExD .f32) (src dst : IVec SE 32) (h : FVec Ideal SNxD .f32) : FVec Ideal SNxH .f32 :=
  linH (agg epsl h e src dst) w1 b1

/-- The second dense step: normalise `y1` by its OWN column statistics, ramp, `· W2 + b2`. -/
def y2Of (y1 : FVec Ideal SNxH .f32) (g1 be1 : FVec Ideal S1xH .f32) (w2 : FVec Ideal SHxD .f32) (b2 : FVec Ideal S1xD .f32) :
    FVec Ideal SNxD .f32 :=
  bnLinD y1 (meanRowH y1) (varRowH y1) g1 be1 w2 b2

/-- The layer's output: normalise `y2` by its own column statistics and ramp. -/
def hOf (y2 : FVec Ideal SNxD .f32) (go bo : FVec Ideal S1xD .f32) : FVec Ideal SNxD .f32 :=
  bnReluD y2 (meanRowD y2) (varRowD y2) go bo

/-- One layer, from the layer's own slices of the parameters. -/
def layer (epsl : FVec Ideal S_ .f32) (w1 : FVec Ideal SDxH .f32) (b1 g1 be1 : FVec Ideal S1xH .f32)
    (w2 : FVec Ideal SHxD .f32) (b2 go bo : FVec Ideal S1xD .f32)
    (e : FVec Ideal SExD .f32) (src dst : IVec SE 32) (h : FVec Ideal SNxD .f32) : FVec Ideal SNxD .f32 :=
  hOf (y2Of (y1Of epsl w1 b1 e src dst h) g1 be1 w2 b2) go bo

/-- A layer recognised from its steps: arrays that satisfy the step equations one after the other are the layer's. -/
theorem layer_of_steps {epsl : FVec Ideal S_ .f32} {w1 : FVec Ideal SDxH .f32} {b1 g1 be1 : FVec Ideal S1xH .f32}
    {w2 : FVec Ideal SHxD .f32} {b2 go bo : FVec Ideal S1xD .f32} {e : FVec Ideal SExD .f32} {src dst : IVec SE 32}
    {h hh out y2 : FVec Ideal SNxD .f32} {y1 : FVec Ideal SNxH .f32} {mu1 var1 : FVec Ideal S1xH .f32} {mu2 var2 : FVec Ideal S1xD .f32}
    (hhh : hh = agg epsl h e src dst) (hy1 : y1 = linH hh w1 b1) (hmu1 : mu1 = meanRowH y1) (hvar1 : var1 = varRowH y1)
    (hy2 : y2 = bnLinD y1 mu1 var1 g1 be1 w2 b2) (hmu2 : mu2 = meanRowD y2) (hvar2 : var2 = varRowD y2)
    (hout : out = bnReluD y2 mu2 var2 go bo) :
    out = layer epsl w1 b1 g1 be1 w2 b2 go bo e src dst h := by
  subst hhh; subst hy1; subst hmu1; subst hvar1; subst hy2; subst hmu2; subst hvar2; subst hout
  rfl

/-- The network: `head (layer₄ (layer₃ (layer₂ (layer₁ (layer₀ h₀)))))`. -/
def model (x_atom : IVec ⟨2, ![50000, 9]⟩ 32) (edge_index : IVec ⟨2, ![2, 800000]⟩ 32) (edge_attr : IVec ⟨2, ![800000, 3]⟩ 32)
    (batch : IVec ⟨1, ![50000]⟩ 32) (atom_emb : FVec Ideal ⟨3, ![9, 128, 100]⟩ .f32) (bond_emb : FVec Ideal ⟨3, ![3, 16, 100]⟩ .f32)
    (eps : FVec Ideal S5 .f32) (W1 : FVec Ideal S5xDxH .f32) (b1 g1 be1 : FVec Ideal S5xH .f32) (W2 : FVec Ideal S5xHxD .f32)
    (b2 go bo : FVec Ideal S5xD .f32) (Wp : FVec Ideal ⟨2, ![100, 2]⟩ .f32) (bp : FVec Ideal ⟨1, ![2]⟩ .f32) :
    FVec Ideal ⟨2, ![512, 2]⟩ .f32 :=
  let e := bondSum edge_attr bond_emb
  let src := srcOf edge_index
  let dst := dstOf edge_index
  let h0 := atomSum x_atom atom_emb
  let h1 := layer (epsOf eps 0 (by decide)) (w1Of W1 0 (by decide)) (rowHOf b1 0 (by decide)) (rowHOf g1 0 (by decide)) (rowHOf be1 0 (by decide))
      (w2Of W2 0 (by decide)) (rowDOf b2 0 (by decide)) (rowDOf go 0 (by decide)) (rowDOf bo 0 (by decide)) e src dst h0
  let h2 := layer (epsOf eps 1 (by decide)) (w1Of W1 1 (by decide)) (rowHOf b1 1 (by decide)) (rowHOf g1 1 (by decide)) (rowHOf be1 1 (by decide))
      (w2Of W2 1 (by decide)) (rowDOf b2 1 (by decide)) (rowDOf go 1 (by decide)) (rowDOf bo 1 (by decide)) e src dst h1
  let h3 := layer (epsOf eps 2 (by decide)) (w1Of W1 2 (by decide)) (rowHOf b1 2 (by decide)) (rowHOf g1 2 (by decide)) (rowHOf be1 2 (by decide))
      (w2Of W2 2 (by decide)) (rowDOf b2 2 (by decide)) (rowDOf go 2 (by decide)) (rowDOf bo 2 (by decide)) e src dst h2
  let h4 := layer (epsOf eps 3 (by decide)) (w1Of W1 3 (by decide)) (rowHOf b1 3 (by decide)) (rowHOf g1 3 (by decide)) (rowHOf be1 3 (by decide))
      (w2Of W2 3 (by decide)) (rowDOf b2 3 (by decide)) (rowDOf go 3 (by decide)) (rowDOf bo 3 (by decide)) e src dst h3
  let h5 := layer (epsOf eps 4 (by decide)) (w1Of W1 4 (by decide)) (rowHOf b1 4 (by decide)) (rowHOf g1 4 (by decide)) (rowHOf be1 4 (by decide))
      (w2Of W2 4 (by decide)) (rowDOf b2 4 (by decide)) (rowDOf go 4 (by decide)) (rowDOf bo 4 (by decide)) e src dst h4
  head h5 batch Wp bp

end Cert.GIN

end
-- ==== Proof.KInitNode.lean ====
/-
  The nodes' initial vectors as the kernel's program computes them in its first host stretch: nine times a column of
  the integer node features is cut out, made an index into that feature's embedding table (a negative value counted
  from the table's end), the selected rows gathered, and the result added to a running sum that starts at zero. Read off
  the stretch operation by operation, the array is the specification's `GIN.atomSum` of the two argument arrays.
-/
import proofs.«403201_j40475771797954_1_alg».proof.Proof.Gen.KernelIdeal.Launch
import Idealize.ShloMosaic.PureOps.Ideal
import proofs.«403201_j40475771797954_1_alg».proof.Proof.SpecInit

set_option maxRecDepth 16384

noncomputable section

namespace Cert.KernelIdeal.Init

open Cert.KernelIdeal Cert.KernelIdeal.Gen
open Idealize.ShloMosaic Idealize.ShloMosaic.TcCoe

variable (V : Valuation τ sig (Elt Ideal))

set_option maxHeartbeats 0 in
/-- After the stretch, from any contents `V` before it, the buffer of the ninth running sum holds the nodes' initial
    vectors of `V`'s node features and node embedding tables. -/
theorem h0_after :
    StableHlo.after hostOps0 V (Proc.devRef .tc main_v108) = GIN.atomSum (V (Proc.devRef .tc main_arg0)) (V (Proc.devRef .tc main_arg4)) := by
  after_results_simp
  rfl

end Cert.KernelIdeal.Init

end
-- ==== Proof.KInitEdge.lean ====
/-
  The edges' arrays as the kernel's program computes them in its first host stretch: the edge feature vectors (three
  embedding lookups summed from zero, as for the nodes), and the two rows of the edge list, the source and the
  destination node of every edge. Read off the stretch operation by operation, they are the specification's
  `GIN.bondSum`, `GIN.srcOf` and `GIN.dstOf` of the argument arrays.
-/
import proofs.«403201_j40475771797954_1_alg».proof.Proof.Gen.KernelIdeal.Launch
import Idealize.ShloMosaic.PureOps.Ideal
import proofs.«403201_j40475771797954_1_alg».proof.Proof.SpecInit

set_option maxRecDepth 16384

noncomputable section

namespace Cert.KernelIdeal.Init

open Cert.KernelIdeal Cert.KernelIdeal.Gen
open Idealize.ShloMosaic Idealize.ShloMosaic.TcCoe

variable (V : Valuation τ sig (Elt Ideal))

set_option maxHeartbeats 0 in
/-- The three arrays after the stretch, from any contents `V` before it, stated together. -/
theorem edge_after :
    StableHlo.after hostOps0 V (Proc.devRef .tc main_v145) = GIN.bondSum (V (Proc.devRef .tc main_arg2)) (V (Proc.devRef .tc main_arg5))
    ∧ StableHlo.after hostOps0 V (Proc.devRef .tc main_v147) = GIN.srcOf (V (Proc.devRef .tc main_arg1))
    ∧ StableHlo.after hostOps0 V (Proc.devRef .tc main_v149) = GIN.dstOf (V (Proc.devRef .tc main_arg1)) := by
  after_results_simp
  exact ⟨rfl, rfl, rfl⟩

/-- The edges' feature vectors. -/
theorem e_after : StableHlo.after hostOps0 V (Proc.devRef .tc main_v145) = GIN.bondSum (V (Proc.devRef .tc main_arg2)) (V (Proc.devRef .tc main_arg5)) :=
  (edge_after V).1
/-- Every edge's source node. -/
theorem src_after : StableHlo.after hostOps0 V (Proc.devRef .tc main_v147) = GIN.srcOf (V (Proc.devRef .tc main_arg1)) :=
  (edge_after V).2.1
/-- Every edge's destination node. -/
theorem dst_after : StableHlo.after hostOps0 V (Proc.devRef .tc main_v149) = GIN.dstOf (V (Proc.devRef .tc main_arg1)) :=
  (edge_after V).2.2

end Cert.KernelIdeal.Init

end
-- ==== Proof.KInitAgg.lean ====
/-
  What the first host stretch of the kernel's program hands to the first dense step: the aggregated node features
    hh = (1 + eps[0]) · h0 + Σ_{edges into a node} (h0[src] + e)
  — with h0, e, src and dst the arrays the same stretch computed before —, and layer 0's slices of the stacked first
  weight matrix and first bias. Read off the stretch operation by operation, they are the specification's `GIN.agg` of
  the specification's initial arrays, `GIN.w1Of` and `GIN.rowHOf`.
-/
import proofs.«403201_j40475771797954_1_alg».proof.Proof.Gen.KernelIdeal.Launch
import Idealize.ShloMosaic.PureOps.Ideal
import proofs.«403201_j40475771797954_1_alg».proof.Proof.SpecInit

set_option maxRecDepth 16384

noncomputable section

namespace Cert.KernelIdeal.Init

open Cert.KernelIdeal Cert.KernelIdeal.Gen
open Idealize.ShloMosaic Idealize.ShloMosaic.TcCoe

variable (V : Valuation τ sig (Elt Ideal))

set_option maxHeartbeats 0 in
/-- The three arrays after the stretch, from any contents `V` before it, stated together. -/
theorem agg_after :
    StableHlo.after hostOps0 V (Proc.devRef .tc main_v166)
      = GIN.agg (GIN.epsOf (V (Proc.devRef .tc main_arg6)) 0 (by decide)) (GIN.atomSum (V (Proc.devRef .tc main_arg0)) (V (Proc.devRef .tc main_arg4))) (GIN.bondSum (V (Proc.devRef .tc main_arg2)) (V (Proc.devRef .tc main_arg5)))
          (GIN.srcOf (V (Proc.devRef .tc main_arg1))) (GIN.dstOf (V (Proc.devRef .tc main_arg1)))
    ∧ StableHlo.after hostOps0 V (Proc.devRef .tc main_v168) = GIN.w1Of (V (Proc.devRef .tc main_arg7)) 0 (by decide)
    ∧ StableHlo.after hostOps0 V (Proc.devRef .tc main_v169) = GIN.rowHOf (V (Proc.devRef .tc main_arg8)) 0 (by decide) := by
  after_results_simp
  exact ⟨rfl, rfl, rfl⟩

/-- Layer 0's aggregated node features. -/
theorem hh0_after :
    StableHlo.after hostOps0 V (Proc.devRef .tc main_v166)
      = GIN.agg (GIN.epsOf (V (Proc.devRef .tc main_arg6)) 0 (by decide)) (GIN.atomSum (V (Proc.devRef .tc main_arg0)) (V (Proc.devRef .tc main_arg4))) (GIN.bondSum (V (Proc.devRef .tc main_arg2)) (V (Proc.devRef .tc main_arg5)))
          (GIN.srcOf (V (Proc.devRef .tc main_arg1))) (GIN.dstOf (V (Proc.devRef .tc main_arg1))) :=
  (agg_after V).1
/-- Layer 0's first weight matrix. -/
theorem w1_0_after : StableHlo.after hostOps0 V (Proc.devRef .tc main_v168) = GIN.w1Of (V (Proc.devRef .tc main_arg7)) 0 (by decide) :=
  (agg_after V).2.1
/-- Layer 0's first bias row. -/
theorem b1_0_after : StableHlo.after hostOps0 V (Proc.devRef .tc main_v169) = GIN.rowHOf (V (Proc.devRef .tc main_arg8)) 0 (by decide) :=
  (agg_after V).2.2

end Cert.KernelIdeal.Init

end
-- ==== Proof.KInit.lean ====
/-
  The kernel's program at the entry of its first dense step. Its first host stretch runs from the launch memory: the
  buffers then hold the argument arrays as launched, and the stretch computes from them the nodes' initial vectors h0,
  the edges' feature vectors e, the edge list's two rows, layer 0's aggregated node features
    hh = (1 + eps[0]) · h0 + Σ_{edges into a node} (h0[src] + e)
  and layer 0's slices of the first weight matrix and bias. Each is stated here as the specification's function of the
  launch contents of the arguments; and the stretch writes no argument, so each argument is still as launched.
-/
import proofs.«403201_j40475771797954_1_alg».proof.Proof.KFrameB
import proofs.«403201_j40475771797954_1_alg».proof.Proof.SpecInit
import proofs.«403201_j40475771797954_1_alg».proof.Proof.KInitArgs
import proofs.«403201_j40475771797954_1_alg».proof.Proof.KInitNode
import proofs.«403201_j40475771797954_1_alg».proof.Proof.KInitEdge
import proofs.«403201_j40475771797954_1_alg».proof.Proof.KInitAgg

set_option maxRecDepth 16384

noncomputable section

namespace Cert.KernelIdeal.Init

open Cert.KernelIdeal Cert.KernelIdeal.Gen
open Idealize.ShloMosaic Idealize.ShloMosaic.TcCoe

variable (m : (ℓ : Loc nD τ sig) → Buf (Elt Ideal) ℓ) (ρ : Dev nD → PrngReg) (c : Dev nD)

/-! ## The arguments are as launched -/

theorem arg_W1_0 : W1 m ρ c (Proc.devRef .tc main_arg0) = m ((c : Thread nD τ).loc main_arg0) :=
  (args_after (W0 m ρ c)).1
theorem arg_W1_1 : W1 m ρ c (Proc.devRef .tc main_arg1) = m ((c : Thread nD τ).loc main_arg1) :=
  (args_after (W0 m ρ c)).2.1
theorem arg_W1_2 : W1 m ρ c (Proc.devRef .tc main_arg2) = m ((c : Thread nD τ).loc main_arg2) :=
  (args_after (W0 m ρ c)).2.2.1
theorem arg_W1_3 : W1 m ρ c (Proc.devRef .tc main_arg3) = m ((c : Thread nD τ).loc main_arg3) :=
  (args_after (W0 m ρ c)).2.2.2.1
theorem arg_W1_4 : W1 m ρ c (Proc.devRef .tc main_arg4) = m ((c : Thread nD τ).loc main_arg4) :=
  (args_after (W0 m ρ c)).2.2.2.2.1
theorem arg_W1_5 : W1 m ρ c (Proc.devRef .tc main_arg5) = m ((c : Thread nD τ).loc main_arg5) :=
  (args_after (W0 m ρ c)).2.2.2.2.2.1
theorem arg_W1_6 : W1 m ρ c (Proc.devRef .tc main_arg6) = m ((c : Thread nD τ).loc main_arg6) :=
  (args_after (W0 m ρ c)).2.2.2.2.2.2.1
theorem arg_W1_7 : W1 m ρ c (Proc.devRef .tc main_arg7) = m ((c : Thread nD τ).loc main_arg7) :=
  (args_after (W0 m ρ c)).2.2.2.2.2.2.2.1
theorem arg_W1_8 : W1 m ρ c (Proc.devRef .tc main_arg8) = m ((c : Thread nD τ).loc main_arg8) :=
  (args_after (W0 m ρ c)).2.2.2.2.2.2.2.2.1
theorem arg_W1_9 : W1 m ρ c (Proc.devRef .tc main_arg9) = m ((c : Thread nD τ).loc main_arg9) :=
  (args_after (W0 m ρ c)).2.2.2.2.2.2.2.2.2.1
theorem arg_W1_10 : W1 m ρ c (Proc.devRef .tc main_arg10) = m ((c : Thread nD τ).loc main_arg10) :=
  (args_after (W0 m ρ c)).2.2.2.2.2.2.2.2.2.2.1
theorem arg_W1_11 : W1 m ρ c (Proc.devRef .tc main_arg11) = m ((c : Thread nD τ).loc main_arg11) :=
  (args_after (W0 m ρ c)).2.2.2.2.2.2.2.2.2.2.2.1
theorem arg_W1_12 : W1 m ρ c (Proc.devRef .tc main_arg12) = m ((c : Thread nD τ).loc main_arg12) :=
  (args_after (W0 m ρ c)).2.2.2.2.2.2.2.2.2.2.2.2.1
theorem arg_W1_13 : W1 m ρ c (Proc.devRef .tc main_arg13) = m ((c : Thread nD τ).loc main_arg13) :=
  (args_after (W0 m ρ c)).2.2.2.2.2.2.2.2.2.2.2.2.2.1
theorem arg_W1_14 : W1 m ρ c (Proc.devRef .tc main_arg14) = m ((c : Thread nD τ).loc main_arg14) :=
  (args_after (W0 m ρ c)).2.2.2.2.2.2.2.2.2.2.2.2.2.2.1
theorem arg_W1_15 : W1 m ρ c (Proc.devRef .tc main_arg15) = m ((c : Thread nD τ).loc main_arg15) :=
  (args_after (W0 m ρ c)).2.2.2.2.2.2.2.2.2.2.2.2.2.2.2.1
theorem arg_W1_16 : W1 m ρ c (Proc.devRef .tc main_arg16) = m ((c : Thread nD τ).loc main_arg16) :=
  (args_after (W0 m ρ c)).2.2.2.2.2.2.2.2.2.2.2.2.2.2.2.2

/-! ## The arrays the stretch computes -/

/-- The nodes' initial vectors: the nine node-feature embeddings summed. -/
theorem h0_eq : W1 m ρ c (Proc.devRef .tc main_v108) = GIN.atomSum (m ((c : Thread nD τ).loc main_arg0)) (m ((c : Thread nD τ).loc main_arg4)) :=
  h0_after (W0 m ρ c)

/-- The edges' feature vectors: the three edge-feature embeddings summed. -/
theorem e_eq : W1 m ρ c (Proc.devRef .tc main_v145) = GIN.bondSum (m ((c : Thread nD τ).loc main_arg2)) (m ((c : Thread nD τ).loc main_arg5)) :=
  e_after (W0 m ρ c)

/-- Every edge's source node. -/
theorem src_eq : W1 m ρ c (Proc.devRef .tc main_v147) = GIN.srcOf (m ((c : Thread nD τ).loc main_arg1)) :=
  src_after (W0 m ρ c)

/-- Every edge's destination node. -/
theorem dst_eq : W1 m ρ c (Proc.devRef .tc main_v149) = GIN.dstOf (m ((c : Thread nD τ).loc main_arg1)) :=
  dst_after (W0 m ρ c)

/-- Layer 0's aggregated node features. -/
theorem hh0_eq : W1 m ρ c (Proc.devRef .tc main_v166)
    = GIN.agg (GIN.epsOf (m ((c : Thread nD τ).loc main_arg6)) 0 (by decide)) (GIN.atomSum (m ((c : Thread nD τ).loc main_arg0)) (m ((c : Thread nD τ).loc main_arg4))) (GIN.bondSum (m ((c : Thread nD τ).loc main_arg2)) (m ((c : Thread nD τ).loc main_arg5)))
        (GIN.srcOf (m ((c : Thread nD τ).loc main_arg1))) (GIN.dstOf (m ((c : Thread nD τ).loc main_arg1))) :=
  hh0_after (W0 m ρ c)

/-- Layer 0's first weight matrix. -/
theorem w1_0_eq : W1 m ρ c (Proc.devRef .tc main_v168) = GIN.w1Of (m ((c : Thread nD τ).loc main_arg7)) 0 (by decide) :=
  w1_0_after (W0 m ρ c)

/-- Layer 0's first bias row. -/
theorem b1_0_eq : W1 m ρ c (Proc.devRef .tc main_v169) = GIN.rowHOf (m ((c : Thread nD τ).loc main_arg8)) 0 (by decide) :=
  b1_0_after (W0 m ρ c)

end Cert.KernelIdeal.Init

end
-- ==== Proof.KHeadOps.lean ====
/-
  The last host stretch, read at ANY contents V of the TensorCore's buffers when it begins: the result buffer holds the
  mean pool of the last layer's node features over each graph (the rows summed per graph, over the graph's node count
  or 1 if that is larger), times the head's weights, plus its bias row — the neutral specification's head of the node
  features, the graph indices and the two head parameters as V has them.
-/
import proofs.«403201_j40475771797954_1_alg».proof.Proof.Gen.KernelIdeal.Launch
import proofs.«403201_j40475771797954_1_alg».proof.Proof.SpecStats
import Idealize.ShloMosaic.Lib.StableHlo.Run

set_option maxRecDepth 16384

noncomputable section

namespace Cert.KernelIdeal.Head

open Cert.KernelIdeal Cert.KernelIdeal.Gen
open Idealize.ShloMosaic Idealize.ShloMosaic.StableHlo Idealize.SL.Sem

variable (V : Valuation τ sig (Elt Ideal))

set_option maxHeartbeats 1000000 in
theorem head_of :
    StableHlo.after (hostOps15 (F := Ideal)) V (Proc.devRef .tc main_v365)
      = GIN.head (V (Proc.devRef .tc main_v349)) (V (Proc.devRef .tc main_arg3)) (V (Proc.devRef .tc main_arg15))
          (V (Proc.devRef .tc main_arg16)) := by
  after_results_simp
  rfl

end Cert.KernelIdeal.Head

end
-- ==== Proof.KHead.lean ====
/-
  The kernel's result at the end of its run: the head of what the last dense step leaves as node features, of the graph
  indices and of the head's two parameters, all read where that step ends.
-/
import proofs.«403201_j40475771797954_1_alg».proof.Proof.KFrameB
import proofs.«403201_j40475771797954_1_alg».proof.Proof.KHeadOps

set_option maxRecDepth 16384

noncomputable section

namespace Cert.KernelIdeal.Head

open Cert.KernelIdeal Cert.KernelIdeal.Gen
open Idealize.ShloMosaic Idealize.SL.Sem

variable (m : (ℓ : Loc nD τ sig) → Buf (Elt Ideal) ℓ) (ρ : Dev nD → PrngReg) (c : Dev nD)

theorem head_eq : W51 m ρ c (Proc.devRef .tc main_v365)
    = GIN.head (W50 m ρ c (Proc.devRef .tc main_v349)) (W50 m ρ c (Proc.devRef .tc main_arg3))
        (W50 m ρ c (Proc.devRef .tc main_arg15)) (W50 m ρ c (Proc.devRef .tc main_arg16)) :=
  head_of (W50 m ρ c)

end Cert.KernelIdeal.Head

end
-- ==== Proof.RegionLin0.lean ====
/-
  The first dense step of a layer on the kernel's side, as ONE function of whole arrays.

  The region walks the 50000 rows of the aggregated features in 10 blocks of 5000 rows. At block t it reads rows
  5000·t … 5000·t + 4999 of the features, the whole [100, 200] weight matrix and the whole [1, 200] bias row, and writes
  rows 5000·t … 5000·t + 4999 of the result: entry (p, q) of the block is row p of the feature block times column q of
  the weights, plus entry q of the bias row. A row of the result depends on the same row of the features only, so block
  t of the result is the restriction to those rows of the whole-array function hh · W1 + b1, and since every row lies
  in block (row / 5000) the ten blocks together are that function.
-/
import proofs.«403201_j40475771797954_1_alg».proof.Proof.KFrameA
import proofs.«403201_j40475771797954_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionLin0

open Cert.KernelIdeal Cert.KernelIdeal.Gen Idealize.ShloMosaic Idealize.ShloMosaic.TcCoe Idealize.SL.Sem
open Idealize.ShloMosaic.ValueIdx
open Idealize.ShloMosaic.Pipeline (Dat)

/-! ## The product's operand indices, axis by axis

The product contracts axis 1 of the left operand with axis 0 of the right one: at output entry (r, c) and contraction
position k the left operand is read at (r, k) and the right one at (k, c). -/

theorem lhs_row (i : S5000x200.Idx) (q : dot_S5000x100_S100x200_S5000x200_1_0_0_1_n_n.contr.Idx) :
    (dot_S5000x100_S100x200_S5000x200_1_0_0_1_n_n.lhsIdx i q 0).val = (i 0).val := by
  unfold DotDims.lhsIdx
  rw [dif_neg (show ¬(0 : Fin S5000x100.rank) ∈ dot_S5000x100_S100x200_S5000x200_1_0_0_1_n_n.lhsBatch by decide), dif_pos (show (0 : Fin S5000x100.rank) ∈ dot_S5000x100_S100x200_S5000x200_1_0_0_1_n_n.lhsNonContracting by decide)]
  rfl

theorem lhs_col (i : S5000x200.Idx) (q : dot_S5000x100_S100x200_S5000x200_1_0_0_1_n_n.contr.Idx) :
    (dot_S5000x100_S100x200_S5000x200_1_0_0_1_n_n.lhsIdx i q 1).val = (q ⟨0, by decide⟩).val :=
  dot_S5000x100_S100x200_S5000x200_1_0_0_1_n_n.lhsIdx_val_of_single rfl i q

theorem rhs_row (i : S5000x200.Idx) (q : dot_S5000x100_S100x200_S5000x200_1_0_0_1_n_n.contr.Idx) :
    (dot_S5000x100_S100x200_S5000x200_1_0_0_1_n_n.rhsIdx i q 0).val = (q ⟨0, by decide⟩).val :=
  dot_S5000x100_S100x200_S5000x200_1_0_0_1_n_n.rhsIdx_val_of_single rfl i q

theorem rhs_col (i : S5000x200.Idx) (q : dot_S5000x100_S100x200_S5000x200_1_0_0_1_n_n.contr.Idx) :
    (dot_S5000x100_S100x200_S5000x200_1_0_0_1_n_n.rhsIdx i q 1).val = (i 1).val := by
  unfold DotDims.rhsIdx
  rw [dif_neg (show ¬(1 : Fin S100x200.rank) ∈ dot_S5000x100_S100x200_S5000x200_1_0_0_1_n_n.rhsBatch by decide), dif_pos (show (1 : Fin S100x200.rank) ∈ dot_S5000x100_S100x200_S5000x200_1_0_0_1_n_n.rhsNonContracting by decide)]
  rfl

/-! ## The body's arithmetic at one entry of the block -/

/-- The product of a [5000, 100] block by the [100, 200] weights, accumulated into zeros, at entry (p, q): the sum over
    the 100 contracted coordinates of the products of the entries. -/
theorem matmul_at (l : FVec Ideal S5000x100 .bf16) (r : FVec Ideal S100x200 .bf16) (p : Fin 5000) (q : Fin 200) :
    matmul dot_S5000x100_S100x200_S5000x200_1_0_0_1_n_n none l r (constant (F := Ideal) S5000x200 .f32 0x00000000#32) (ix2 p q)
      = ∑ k : Fin 100, l (ix2 p k) * r (ix2 k q) := by
  simp only [matmul]
  rw [Ideal.matmul_constant_zero_apply, ← Equiv.sum_comp (contrEquiv1 dot_S5000x100_S100x200_S5000x200_1_0_0_1_n_n 100 rfl rfl).symm]
  refine Finset.sum_congr rfl fun k _ => ?_
  have hk := contrEquiv1_symm_val dot_S5000x100_S100x200_S5000x200_1_0_0_1_n_n 100 rfl rfl k
  have el : dot_S5000x100_S100x200_S5000x200_1_0_0_1_n_n.lhsIdx (ix2 p q) ((contrEquiv1 dot_S5000x100_S100x200_S5000x200_1_0_0_1_n_n 100 rfl rfl).symm k) = ix2 p k := funext fun a => Fin.ext (by
    match a with
    | ⟨0, _⟩ => exact lhs_row _ _
    | ⟨1, _⟩ => exact (lhs_col _ _).trans hk)
  have er : dot_S5000x100_S100x200_S5000x200_1_0_0_1_n_n.rhsIdx (ix2 p q) ((contrEquiv1 dot_S5000x100_S100x200_S5000x200_1_0_0_1_n_n 100 rfl rfl).symm k) = ix2 k q := funext fun a => Fin.ext (by
    match a with
    | ⟨0, _⟩ => exact (rhs_row _ _).trans hk
    | ⟨1, _⟩ => exact rhs_col _ _)
  rw [el, er]

/-- What the body stores at entry (p, q) of the block: row p of the feature block times column q of the weights, plus
    entry q of the bias row. On the extended reals the changes of float format and the shape casts to the same shape
    are the identity, and the bias row broadcast over the 5000 rows reads its entry q in every row. -/
theorem pay_at (x : Vec Ideal S5000x100 .f32) (w : Vec Ideal S100x200 .f32) (b : Vec Ideal S1x200 .f32) (p : Fin 5000) (q : Fin 200) :
    k0_pay1 (F := Ideal) x w b (ix2 p q) = (∑ k : Fin 100, x (ix2 p k) * w (ix2 k q)) + b (ix2 0 q) := by
  unfold k0_pay1
  simp only [shapeCast_self]
  rw [addf_apply, matmul_at, broadcastTo_1b_ab_apply]
  rfl

/-- One entry of a block against the whole-array function. If the feature block holds rows n·5000 … n·5000 + 4999 of
    the features, and the weight and bias blocks are the whole weight matrix and bias row, then the body's entry y of
    the block is the whole-array function's entry i, for i the entry of the result that y is: row n·5000 + (row of y),
    same column. -/
theorem block_entry (x : FVec Ideal S50000x100 .f32) (w : FVec Ideal S100x200 .f32) (b : FVec Ideal S1x200 .f32)
    (xb : Vec Ideal S5000x100 .f32) (wb : Vec Ideal S100x200 .f32) (bb : Vec Ideal S1x200 .f32)
    (y : S5000x200.Idx) (i : S50000x200.Idx) (n : Nat)
    (hx : ∀ (p : Fin 5000) (k : Fin 100) (r : Fin 50000), r.val = n * 5000 + p.val → xb (ix2 p k) = x (ix2 r k))
    (hw : wb = w) (hb : bb = b)
    (hi0 : (i 0).val = n * 5000 + (y 0).val) (hi1 : (i 1).val = (y 1).val) :
    k0_pay1 (F := Ideal) xb wb bb y = GIN.linH x w b i := by
  obtain ⟨p, q, rfl⟩ : ∃ (p : Fin 5000) (q : Fin 200), y = ix2 p q := ⟨y 0, y 1, eq_ix2 y⟩
  obtain ⟨r, c, rfl⟩ : ∃ (r : Fin 50000) (c : Fin 200), i = ix2 r c := ⟨i 0, i 1, eq_ix2 i⟩
  obtain rfl : c = q := Fin.ext hi1
  subst hw hb
  rw [pay_at]
  unfold GIN.linH
  exact congrArg (· + bb (ix2 0 c)) (Finset.sum_congr rfl fun k _ => by rw [hx p k r hi0])

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The three arrays the region reads, as it finds them, at their literal types. -/
abbrev xarr (c : Dev nD) : FVec Ideal S50000x100 .f32 := V c (Pipeline.arrRef spec0 0)
abbrev warr (c : Dev nD) : FVec Ideal S100x200 .f32 := V c (Pipeline.arrRef spec0 1)
abbrev barr (c : Dev nD) : FVec Ideal S1x200 .f32 := V c (Pipeline.arrRef spec0 2)

/-- The three blocks the body reads at point t, at their literal types. -/
abbrev xblk (c : Dev nD) (t : Fin cfg0.N) : Vec Ideal S5000x100 .f32 := iblk0 V c 0 t
abbrev wblk (c : Dev nD) (t : Fin cfg0.N) : Vec Ideal S100x200 .f32 := iblk0 V c 1 t
abbrev bblk (c : Dev nD) (t : Fin cfg0.N) : Vec Ideal S1x200 .f32 := iblk0 V c 2 t

/-- The index maps over the ten points: the feature window and the result window sit at block (t, 0), the weight and
    bias windows at block (0, 0) throughout. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature block at point t holds rows 5000·t … 5000·t + 4999 of the features: a block's coordinate in the array
    is the block index times the block size plus the coordinate inside the block. -/
theorem xblk_entry (c : Dev nD) (t : Fin cfg0.N) (p : Fin 5000) (k : Fin 100) (r : Fin 50000)
    (hr : r.val = t.val * 5000 + p.val) : xblk V c t (ix2 p k) = xarr V c (ix2 r k) := by
  obtain ⟨e0, e1, -⟩ := idx_facts t
  show V c (Pipeline.arrRef spec0 0) (((cfg0.win 0).blk t).view.emb (ix2 p k)) = V c (Pipeline.arrRef spec0 0) (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 100 + 1 * k.val = k.val; omega

/-- The weight block is the whole weight matrix at every point. -/
theorem wblk_eq (c : Dev nD) (t : Fin cfg0.N) : wblk V c t = warr V c := by
  obtain ⟨-, -, e2, e3, -⟩ := idx_facts t
  funext y
  show V c (Pipeline.arrRef spec0 1) (((cfg0.win 1).blk t).view.emb y) = V c (Pipeline.arrRef spec0 1) y
  refine congrArg _ (funext fun a => Fin.ext ?_)
  match a with
  | ⟨0, _⟩ => show win0_1.index t (0 : Fin 2) * 100 + 1 * (y 0).val = (y 0).val; omega
  | ⟨1, _⟩ => show win0_1.index t (1 : Fin 2) * 200 + 1 * (y 1).val = (y 1).val; omega

/-- The bias block is the whole bias row at every point. -/
theorem bblk_eq (c : Dev nD) (t : Fin cfg0.N) : bblk V c t = barr V c := by
  obtain ⟨-, -, -, -, e4, e5, -⟩ := idx_facts t
  funext y
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 200 + 1 * (y 1).val = (y 1).val; omega

/-- What point t writes back is block t of the whole-array function hh · W1 + b1 of the arrays the region finds. -/
theorem flushed_eq (c : Dev nD) (t : Fin cfg0.N) :
    (dat0 (F := Ideal) V c).flushed 3 t
      = ((cfg0.win 3).blk t).view.read (Elt Ideal) (GIN.linH (xarr V c) (warr V c) (barr V c)) := by
  show (cfg0.win 3).cut (grid0.coords t) ((dat0 (F := Ideal) V c).after 3 t) = _
  rw [after0_3]
  unfold out0_3
  rw [View.canon_unit_zero hz]
  simp only [View.ld_unit_zero (S := S5000x100) hz, View.ld_unit_zero (S := S100x200) hz, View.ld_unit_zero (S := S1x200) hz]
  obtain ⟨-, -, -, -, -, -, e6, e7⟩ := idx_facts t
  funext j
  exact block_entry (xarr V c) (warr V c) (barr V c) (xblk V c t) (wblk V c t) (bblk V c t) j
    (((cfg0.win 3).blk t).view.emb j) t.val (xblk_entry V c t) (wblk_eq V c t) (bblk_eq V c t)
    (by show win0_3.index t (0 : Fin 2) * 5000 + 1 * (j 0).val = t.val * 5000 + (j 0).val; omega)
    (by show win0_3.index t (1 : Fin 2) * 200 + 1 * (j 1).val = (j 1).val; omega)

/-- An entry of the result array is in point t's block iff each coordinate is in the block's range on its axis. -/
theorem mem_blk (t : Fin cfg0.N) (i : S50000x200.Idx) :
    i ∈ ((cfg0.win 3).blk t).view.set ↔ ∀ a : Fin 2, win0_3.index t a * S5000x200.size a ≤ (i a).val ∧ (i a).val < win0_3.index t a * S5000x200.size a + S5000x200.size a := by
  show i ∈ ((View.whole main_v170).slice (win0_3.rect t)).set ↔ _
  rw [View.set_slice_whole, Rect.mem_set_unit]
  exact Iff.rfl

/-- Every entry of the result array is written back by some point: row r by point r / 5000. -/
theorem covered (i : S50000x200.Idx) :
    ∃ t : Fin cfg0.N, (cfg0.win 3).flush t = true ∧ i ∈ ((cfg0.win 3).blk t).view.set := by
  have hi0 : (i 0).val < 50000 := (i 0).isLt
  have hi1 : (i 1).val < 200 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 200 ≤ (i 1).val ∧ (i 1).val < win0_3.index t (1 : Fin 2) * 200 + 200; omega

/-- THE RESULT ARRAY after the region: hh · W1 + b1 of the three arrays the region finds, whatever they hold. -/
theorem out (c : Dev nD) :
    (dat0 (F := Ideal) V c).arrAt 3 cfg0.N
      = GIN.linH (V c (Pipeline.arrRef spec0 0)) (V c (Pipeline.arrRef spec0 1)) (V c (Pipeline.arrRef spec0 2)) :=
  (dat0 (F := Ideal) V c).arrAt_eq_of_cover 3 (GIN.linH (xarr V c) (warr V c) (barr V c)) (fun t _ => flushed_eq V c t) covered

end Cert.KernelIdeal.RegionLin0

end
-- ==== Proof.RegionBnLin1.lean ====
/-
  The kernel's second dense step of a layer as ONE whole-array function.

  The region computes, 5000 rows at a time, y2 = z · W2 + b2 where z = max (((y1 - μ) · rsqrt (σ + ε)) · g + β) 0, with the
  row statistics μ, σ and the affine rows g, β, b2 held as [1, K] rows and W2 whole. A row of the result depends on the
  same row of y1 only, so the ten blocks of 5000 rows are the restrictions of one function of the whole arrays:
  `GIN.bnLinD`. Read in four steps: the block's arithmetic at one entry (the product into the zero accumulator is the sum
  over the 200 contracted columns; a broadcast row reads the row's entry; a change of float format is the identity on
  the extended reals); each input block read off its array (block t of y1 is rows 5000 t … 5000 t + 4999, the row and
  weight windows are their whole arrays at every point); what point t writes back is block t of the whole-array
  function; row r is covered by point r / 5000.
-/
import proofs.«403201_j40475771797954_1_alg».proof.Proof.KFrameA
import proofs.«403201_j40475771797954_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionBnLin1

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The block's arithmetic at one entry -/

/-- The product's left operand at output entry j and contraction position k sits in row j₀ … -/
theorem lhs_ax0 (j : S5000x100.Idx) (k : dot_S5000x200_S200x100_S5000x100_1_0_0_1_n_n.contr.Idx) :
    (dot_S5000x200_S200x100_S5000x100_1_0_0_1_n_n.lhsIdx j k 0 : ℕ) = j 0 := by
  simp [DotDims.lhsIdx, dot_S5000x200_S200x100_S5000x100_1_0_0_1_n_n]; rfl
/-- … and column k; -/
theorem lhs_ax1 (j : S5000x100.Idx) (k : dot_S5000x200_S200x100_S5000x100_1_0_0_1_n_n.contr.Idx) :
    (dot_S5000x200_S200x100_S5000x100_1_0_0_1_n_n.lhsIdx j k 1 : ℕ) = k ⟨0, by decide⟩ := by
  simp [DotDims.lhsIdx, dot_S5000x200_S200x100_S5000x100_1_0_0_1_n_n]; rfl
/-- the right operand in row k … -/
theorem rhs_ax0 (j : S5000x100.Idx) (k : dot_S5000x200_S200x100_S5000x100_1_0_0_1_n_n.contr.Idx) :
    (dot_S5000x200_S200x100_S5000x100_1_0_0_1_n_n.rhsIdx j k 0 : ℕ) = k ⟨0, by decide⟩ := by
  simp [DotDims.rhsIdx, dot_S5000x200_S200x100_S5000x100_1_0_0_1_n_n]; rfl
/-- … and column j₁. -/
theorem rhs_ax1 (j : S5000x100.Idx) (k : dot_S5000x200_S200x100_S5000x100_1_0_0_1_n_n.contr.Idx) :
    (dot_S5000x200_S200x100_S5000x100_1_0_0_1_n_n.rhsIdx j k 1 : ℕ) = j 1 := by
  simp [DotDims.rhsIdx, dot_S5000x200_S200x100_S5000x100_1_0_0_1_n_n]; rfl

/-- The block product into the zero accumulator, at (p, q): the sum over the 200 contracted columns of l(p, k) · r(k, q). -/
theorem matmul_at (l : FVec Ideal S5000x200 .bf16) (r : FVec Ideal S200x100 .bf16) (p : Fin 5000) (q : Fin 100) :
    matmul dot_S5000x200_S200x100_S5000x100_1_0_0_1_n_n none l r (constant (F := Ideal) S5000x100 .f32 0x00000000#32) (ix2 p q)
      = ∑ k : Fin 200, l (ix2 p k) * r (ix2 k q) := by
  simp only [matmul]
  rw [Ideal.matmul_constant_zero_apply,
    ← Equiv.sum_comp (contrEquiv1 dot_S5000x200_S200x100_S5000x100_1_0_0_1_n_n 200 rfl rfl).symm]
  refine Finset.sum_congr rfl fun k _ => ?_
  have hk := contrEquiv1_symm_val dot_S5000x200_S200x100_S5000x100_1_0_0_1_n_n 200 rfl rfl k
  congr 1
  · refine congrArg l (funext fun a => Fin.ext ?_)
    match a with
    | ⟨0, _⟩ => exact lhs_ax0 _ _
    | ⟨1, _⟩ => exact (lhs_ax1 _ _).trans hk
  · refine congrArg r (funext fun a => Fin.ext ?_)
    match a with
    | ⟨0, _⟩ => exact (rhs_ax0 _ _).trans hk
    | ⟨1, _⟩ => exact rhs_ax1 _ _

/-- The body's payload at entry (p, q) of the block, from its loads: v0 the variance row, v5 the block of y1, v7 the mean
    row, v13 and v17 the affine rows, v24 the weights, v28 the bias row. -/
theorem pay_apply (v0 : Vec Ideal S1x200 .f32) (v5 : Vec Ideal S5000x200 .f32) (v7 v13 v17 : Vec Ideal S1x200 .f32)
    (v24 : Vec Ideal S200x100 .f32) (v28 : Vec Ideal S1x100 .f32) (p : Fin 5000) (q : Fin 100) :
    (k1_pay1 (F := Ideal) v0 v5 v7 v13 v17 v24 v28) (ix2 p q)
      = (∑ k : Fin 200, GIN.bnAct (v5 (ix2 p k)) (v7 (ix2 0 k)) (v0 (ix2 0 k)) (v13 (ix2 0 k)) (v17 (ix2 0 k)) * v24 (ix2 k q))
        + v28 (ix2 0 q) := by
  unfold k1_pay1
  simp only [shapeCast_self]
  rw [addf_apply, matmul_at, broadcastTo_1b_ab_apply]
  refine congrArg (· + v28 (ix2 0 q)) (Finset.sum_congr rfl fun k _ => ?_)
  rw [truncf_apply, truncf_apply, maximumf_apply, addf_apply, mulf_apply, mulf_apply, subf_apply,
    broadcastTo_1b_ab_apply, broadcastTo_1b_ab_apply, broadcastTo_1b_ab_apply, broadcastTo_1b_ab_apply]
  rfl

/-- Row p of block n is row 5000 n + p of the array. -/
theorem row_lt (n : Nat) (hn : n < 10) (p : Fin 5000) : n * 5000 + p.val < 50000 := by
  have := p.isLt; omega

/-- So a block whose rows are rows 5000 n … of y1, with the row and weight operands whole, holds at entry j the
    whole-array function at the entry 5000 n rows further down. -/
theorem block_entry (y1 : FVec Ideal S50000x200 .f32) (mu var g be : FVec Ideal S1x200 .f32)
    (w : FVec Ideal S200x100 .f32) (b : FVec Ideal S1x100 .f32) (x0 : Vec Ideal S5000x200 .f32) (n : Nat) (hn : n < 10)
    (h0 : ∀ (p : Fin 5000) (k : Fin 200),
      x0 (ix2 p k) = y1 (ix2 (⟨n * 5000 + p.val, row_lt n hn p⟩ : Fin 50000) k))
    (j : S5000x100.Idx) (i : S50000x100.Idx) (hi0 : (i 0).val = n * 5000 + (j 0).val) (hi1 : (i 1).val = (j 1).val) :
    k1_pay1 (F := Ideal) var x0 mu g be w b j = GIN.bnLinD y1 mu var g be w b i := by
  obtain ⟨p, q, rfl⟩ : ∃ (p : Fin 5000) (q : Fin 100), j = ix2 p q := ⟨j 0, j 1, eq_ix2 j⟩
  obtain rfl : i = ix2 (⟨n * 5000 + p.val, row_lt n hn p⟩ : Fin 50000) q := by
    funext a; apply Fin.ext
    match a with
    | ⟨0, _⟩ => exact hi0
    | ⟨1, _⟩ => exact hi1
  rw [pay_apply]
  unfold GIN.bnLinD
  simp only [h0]

/-! ## The arrays as the region finds them, and each input block read off its array -/

variable (V : (c : Dev nD) → (b : Ref sig .tc) → Buf (Elt Ideal) ((c : Thread nD τ).loc b))

/-- The seven input arrays at their literal shapes: y1, the mean and variance rows, the affine rows, the weights, the
    bias row. -/
abbrev y1arr (c : Dev nD) : FVec Ideal S50000x200 .f32 := V c (Pipeline.arrRef spec1 0)
abbrev muarr (c : Dev nD) : FVec Ideal S1x200 .f32 := V c (Pipeline.arrRef spec1 1)
abbrev vararr (c : Dev nD) : FVec Ideal S1x200 .f32 := V c (Pipeline.arrRef spec1 2)
abbrev garr (c : Dev nD) : FVec Ideal S1x200 .f32 := V c (Pipeline.arrRef spec1 3)
abbrev bearr (c : Dev nD) : FVec Ideal S1x200 .f32 := V c (Pipeline.arrRef spec1 4)
abbrev warr (c : Dev nD) : FVec Ideal S200x100 .f32 := V c (Pipeline.arrRef spec1 5)
abbrev barr (c : Dev nD) : FVec Ideal S1x100 .f32 := V c (Pipeline.arrRef spec1 6)

/-- The whole-array function of them. -/
abbrev whole (c : Dev nD) : FVec Ideal S50000x100 .f32 :=
  GIN.bnLinD (y1arr V c) (muarr V c) (vararr V c) (garr V c) (bearr V c) (warr V c) (barr V c)

theorem hz : (![0, 0] : Fin 2 → Nat) = fun _ => 0 := funext fun a => by fin_cases a <;> rfl

/-- The windows' block indices over the grid: y1 and the result move down one block of rows per point; the row and
    weight windows stay at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Block t of y1 is rows 5000 t … 5000 t + 4999. -/
theorem blk_y1 (c : Dev nD) (t : Fin cfg1.N) (ht : t.val < 10) (p : Fin 5000) (k : Fin 200) :
    (iblk1 V c 0 t : Vec Ideal S5000x200 .f32) (ix2 p k)
      = y1arr V c (ix2 (⟨t.val * 5000 + p.val, row_lt t.val ht p⟩ : Fin 50000) k) := by
  obtain ⟨e0, e1, -⟩ := idx_facts t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 5000 + 1 * p.val = t.val * 5000 + p.val; omega
  | ⟨1, _⟩ => show win1_0.index t (1 : Fin 2) * 200 + 1 * k.val = k.val; omega

/-- The mean row's block is the whole row, at every point. -/
theorem blk_mu (c : Dev nD) (t : Fin cfg1.N) : (iblk1 V c 1 t : Vec Ideal S1x200 .f32) = muarr V c := by
  obtain ⟨-, -, e0, e1, -⟩ := idx_facts t
  funext y
  unfold iblk1
  rw [View.read_apply]
  show V c (Pipeline.arrRef spec1 1) _ = V c (Pipeline.arrRef spec1 1) y
  congr 1
  funext a
  apply Fin.ext
  match a with
  | ⟨0, _⟩ => show win1_1.index t (0 : Fin 2) * 1 + 1 * (y 0).val = (y 0).val; omega
  | ⟨1, _⟩ => show win1_1.index t (1 : Fin 2) * 200 + 1 * (y 1).val = (y 1).val; omega

/-- The variance row's likewise. -/
theorem blk_var (c : Dev nD) (t : Fin cfg1.N) : (iblk1 V c 2 t : Vec Ideal S1x200 .f32) = vararr V c := by
  obtain ⟨-, -, -, -, e0, e1, -⟩ := idx_facts t
  funext y
  unfold iblk1
  rw [View.read_apply]
  show V c (Pipeline.arrRef spec1 2) _ = V c (Pipeline.arrRef spec1 2) y
  congr 1
  funext a
  apply Fin.ext
  match a with
  | ⟨0, _⟩ => show win1_2.index t (0 : Fin 2) * 1 + 1 * (y 0).val = (y 0).val; omega
  | ⟨1, _⟩ => show win1_2.index t (1 : Fin 2) * 200 + 1 * (y 1).val = (y 1).val; omega

/-- The scale row's. -/
theorem blk_g (c : Dev nD) (t : Fin cfg1.N) : (iblk1 V c 3 t : Vec Ideal S1x200 .f32) = garr V c := by
  obtain ⟨-, -, -, -, -, -, e0, e1, -⟩ := idx_facts t
  funext y
  unfold iblk1
  rw [View.read_apply]
  show V c (Pipeline.arrRef spec1 3) _ = V c (Pipeline.arrRef spec1 3) y
  congr 1
  funext a
  apply Fin.ext
  match a with
  | ⟨0, _⟩ => show win1_3.index t (0 : Fin 2) * 1 + 1 * (y 0).val = (y 0).val; omega
  | ⟨1, _⟩ => show win1_3.index t (1 : Fin 2) * 200 + 1 * (y 1).val = (y 1).val; omega

/-- The shift row's. -/
theorem blk_be (c : Dev nD) (t : Fin cfg1.N) : (iblk1 V c 4 t : Vec Ideal S1x200 .f32) = bearr V c := by
  obtain ⟨-, -, -, -, -, -, -, -, e0, e1, -⟩ := idx_facts t
  funext y
  unfold iblk1
  rw [View.read_apply]
  show V c (Pipeline.arrRef spec1 4) _ = V c (Pipeline.arrRef spec1 4) y
  congr 1
  funext a
  apply Fin.ext
  match a with
  | ⟨0, _⟩ => show win1_4.index t (0 : Fin 2) * 1 + 1 * (y 0).val = (y 0).val; omega
  | ⟨1, _⟩ => show win1_4.index t (1 : Fin 2) * 200 + 1 * (y 1).val = (y 1).val; omega

/-- The weights' block is the whole [200, 100] array. -/
theorem blk_w (c : Dev nD) (t : Fin cfg1.N) : (iblk1 V c 5 t : Vec Ideal S200x100 .f32) = warr V c := by
  obtain ⟨-, -, -, -, -, -, -, -, -, -, e0, e1, -⟩ := idx_facts t
  funext y
  unfold iblk1
  rw [View.read_apply]
  show V c (Pipeline.arrRef spec1 5) _ = V c (Pipeline.arrRef spec1 5) y
  congr 1
  funext a
  apply Fin.ext
  match a with
  | ⟨0, _⟩ => show win1_5.index t (0 : Fin 2) * 200 + 1 * (y 0).val = (y 0).val; omega
  | ⟨1, _⟩ => show win1_5.index t (1 : Fin 2) * 100 + 1 * (y 1).val = (y 1).val; omega

/-- The bias row's block is the whole row. -/
theorem blk_b (c : Dev nD) (t : Fin cfg1.N) : (iblk1 V c 6 t : Vec Ideal S1x100 .f32) = barr V c := by
  obtain ⟨-, -, -, -, -, -, -, -, -, -, -, -, e0, e1, -⟩ := idx_facts t
  funext y
  unfold iblk1
  rw [View.read_apply]
  show V c (Pipeline.arrRef spec1 6) _ = V c (Pipeline.arrRef spec1 6) y
  congr 1
  funext a
  apply Fin.ext
  match a with
  | ⟨0, _⟩ => show win1_6.index t (0 : Fin 2) * 1 + 1 * (y 0).val = (y 0).val; omega
  | ⟨1, _⟩ => show win1_6.index t (1 : Fin 2) * 100 + 1 * (y 1).val = (y 1).val; omega

/-! ## What a point writes back, the cover, the array -/

/-- WHAT POINT t WRITES BACK is block t of the whole-array function. -/
theorem flushed_eq (c : Dev nD) (t : Fin cfg1.N) :
    (dat1 V c).flushed 7 t = ((cfg1.win 7).blk t).view.read (Elt Ideal) (whole V c) := by
  have ht : t.val < 10 := by have := t.isLt; have hN : cfg1.N = 10 := N_1; omega
  show (cfg1.win 7).cut (grid1.coords t) ((dat1 V c).after 7 t) = _
  rw [after1_7]
  unfold out1_7
  rw [View.canon_unit_zero hz]
  simp only [View.ld_unit_zero (S := S5000x200) hz, View.ld_unit_zero (S := S1x200) hz,
    View.ld_unit_zero (S := S200x100) hz, View.ld_unit_zero (S := S1x100) hz]
  rw [blk_mu V c t, blk_var V c t, blk_g V c t, blk_be V c t, blk_w V c t, blk_b V c t]
  obtain ⟨-, -, -, -, -, -, -, -, -, -, -, -, -, -, e0, e1⟩ := idx_facts t
  funext j
  show k1_pay1 (F := Ideal) (vararr V c) (iblk1 V c 0 t) (muarr V c) (garr V c) (bearr V c) (warr V c) (barr V c) j
    = whole V c (((cfg1.win 7).blk t).view.emb j)
  refine block_entry (y1arr V c) (muarr V c) (vararr V c) (garr V c) (bearr V c) (warr V c) (barr V c) (iblk1 V c 0 t)
    t.val ht (fun p k => blk_y1 V c t ht p k) j _ ?_ ?_
  · show win1_7.index t (0 : Fin 2) * 5000 + 1 * (j 0).val = t.val * 5000 + (j 0).val
    omega
  · show win1_7.index t (1 : Fin 2) * 100 + 1 * (j 1).val = (j 1).val
    omega

/-- An entry of the result array is in point t's block iff each coordinate is in the block's range on its axis. -/
theorem mem_blk (t : Fin cfg1.N) (i : S50000x100.Idx) :
    i ∈ ((cfg1.win 7).blk t).view.set ↔ ∀ a : Fin 2, win1_7.index t a * S5000x100.size a ≤ (i a).val
      ∧ (i a).val < win1_7.index t a * S5000x100.size a + S5000x100.size a := by
  show i ∈ ((View.whole (Pipeline.arrRef spec1 7)).slice (win1_7.rect t)).set ↔ _
  rw [View.set_slice_whole, Rect.mem_set_unit]
  exact Iff.rfl

/-- Row r of the result is covered by point r / 5000, and every point writes back. -/
theorem cover (i : S50000x100.Idx) :
    ∃ t : Fin cfg1.N, (cfg1.win 7).flush t = true ∧ i ∈ ((cfg1.win 7).blk t).view.set := by
  have hi0 : (i 0).val < 50000 := idx2_lt0 i
  have hi1 : (i 1).val < 100 := idx2_lt1 i
  have hN : cfg1.N = 10 := N_1
  obtain ⟨t, ht⟩ : ∃ t : Fin cfg1.N, t.val = (i 0).val / 5000 := ⟨⟨(i 0).val / 5000, by omega⟩, rfl⟩
  obtain ⟨-, -, -, -, -, -, -, -, -, -, -, -, -, -, e0, e1⟩ := idx_facts t
  refine ⟨t, flush1_7 t, ?_⟩
  rw [mem_blk]
  intro a
  match a with
  | ⟨0, _⟩ =>
    show win1_7.index t (0 : Fin 2) * 5000 ≤ (i 0).val ∧ (i 0).val < win1_7.index t (0 : Fin 2) * 5000 + 5000
    omega
  | ⟨1, _⟩ =>
    show win1_7.index t (1 : Fin 2) * 100 ≤ (i 1).val ∧ (i 1).val < win1_7.index t (1 : Fin 2) * 100 + 100
    omega

/-- THE RESULT ARRAY after the region: the whole-array function of the seven input arrays as the region finds them. -/
theorem out (c : Dev nD) :
    (Gen.dat1 (F := Ideal) V c).arrAt 7 cfg1.N
      = GIN.bnLinD (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))
          (V c (Pipeline.arrRef spec1 6)) :=
  (dat1 V c).arrAt_eq_of_cover 7 (whole V c) (fun t _ => flushed_eq V c t) (fun i => cover i)

end Cert.KernelIdeal.RegionBnLin1

end
-- ==== Proof.RegionBnRelu2.lean ====
/-
  One batch-normalisation-and-ramp region of the kernel as a whole-array function.

  The region walks the 50000 rows of y2 in ten blocks of 5000 rows. At each block it reads the block of y2 and the four
  statistics rows (mean, variance, scale, shift: each a whole [1, 100] array, the same at every block) and writes
    max (((y - μ) · rsqrt (σ + ε)) · g + β) 0
  entry by entry into the same block of the output. An entry of the output depends on the same entry of y2 and on column
  j of each row only, so block t of the output is block t of ONE function of the whole arrays, GIN.bnReluD; the ten
  blocks are disjoint and fill the array (row r lies in block r / 5000), hence the output array after the region is that
  function of the arrays the region found.
-/
import proofs.«403201_j40475771797954_1_alg».proof.Proof.KFrameA
import proofs.«403201_j40475771797954_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionBnRelu2

open Cert.KernelIdeal Cert.KernelIdeal.Gen Idealize.ShloMosaic Idealize.ShloMosaic.TcCoe Idealize.ShloMosaic.ValueIdx
open Idealize.ShloMosaic.Pipeline (Dat)

/-! ## One entry of a block -/

/-- The block's arithmetic at entry (p, q): the shape casts are identities, a [1, 100] row broadcast over the 5000 rows
    reads its column q, and what is left is the batch-normalisation-and-ramp of the entry by column q of the four rows.
    The first argument is the VARIANCE row and the third the MEAN row. -/
theorem pay_ix (var : FVec Ideal S1x100 .f32) (y : FVec Ideal S5000x100 .f32) (mu g be : FVec Ideal S1x100 .f32)
    (p : Fin 5000) (q : Fin 100) :
    k2_pay1 (F := Ideal) var y mu g be (ix2 p q)
      = GIN.bnAct (y (ix2 p q)) (mu (ix2 0 q)) (var (ix2 0 q)) (g (ix2 0 q)) (be (ix2 0 q)) := by
  unfold k2_pay1 GIN.bnAct
  simp only [shapeCast_self, maximumf_apply, addf_apply, mulf_apply, subf_apply, broadcast_apply, broadcastTo_1b_ab_apply]
  rfl

/-- The same at any index of the block, the column being the index's second coordinate. -/
theorem pay_at (var : FVec Ideal S1x100 .f32) (y : FVec Ideal S5000x100 .f32) (mu g be : FVec Ideal S1x100 .f32)
    (j : S5000x100.Idx) :
    k2_pay1 (F := Ideal) var y mu g be j
      = GIN.bnAct (y j) (mu (ix2 0 (j 1))) (var (ix2 0 (j 1))) (g (ix2 0 (j 1))) (be (ix2 0 (j 1))) := by
  obtain ⟨p, q, rfl⟩ : ∃ (p : Fin 5000) (q : Fin 100), j = ix2 p q := ⟨j 0, j 1, eq_ix2 j⟩
  exact pay_ix var y mu g be p q

/-! ## Where the blocks sit -/

theorem hz : (![0, 0] : Fin 2 → Nat) = fun _ => 0 := funext fun a => by fin_cases a <;> rfl

/-- The block index of every window at every one of the ten points: the y2 window and the output window are at block
    (t, 0), the four rows at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

section Region

variable (V : (c : Dev nD) → (b : Ref sig .tc) → Buf (Elt Ideal) ((c : Thread nD τ).loc b))

/-- The output array as one function of the arrays the region finds: y2, then the mean, variance, scale and shift rows. -/
abbrev whole (c : Dev nD) : FVec Ideal S50000x100 .f32 :=
  GIN.bnReluD (V c (Pipeline.arrRef spec2 0)) (V c (Pipeline.arrRef spec2 1)) (V c (Pipeline.arrRef spec2 2))
    (V c (Pipeline.arrRef spec2 3)) (V c (Pipeline.arrRef spec2 4))

/-- Entry j of the y2 block at point t is the entry of y2 that entry j of the output block at t sits over: both blocks
    are rows 5000·t … 5000·t + 4999, all 100 columns. -/
theorem read_y (c : Dev nD) (t : Fin cfg2.N) (j : S5000x100.Idx) :
    (iblk2 V c 0 t : Vec Ideal S5000x100 .f32) j
      = (V c (Pipeline.arrRef spec2 0) : S50000x100.Idx → EReal) (((cfg2.win 5).blk t).view.emb j) := by
  obtain ⟨e00, e01, -, -, -, -, -, -, -, -, e50, e51⟩ := idx_facts t
  show (V c (Pipeline.arrRef spec2 0) : S50000x100.Idx → EReal) (((cfg2.win 0).blk t).view.emb j) = _
  refine congrArg _ (funext fun a => Fin.ext ?_)
  match a with
  | ⟨0, _⟩ => show win2_0.index t (0 : Fin 2) * 5000 + 1 * (j 0).val = win2_5.index t (0 : Fin 2) * 5000 + 1 * (j 0).val; omega
  | ⟨1, _⟩ => show win2_0.index t (1 : Fin 2) * 100 + 1 * (j 1).val = win2_5.index t (1 : Fin 2) * 100 + 1 * (j 1).val; omega

/-- Column (j 1) of the mean row, read through the row's window at point t, is the row's entry at the column the output
    block's entry j sits over: the row's one block is the whole row, at every point. -/
theorem read_row1 (c : Dev nD) (t : Fin cfg2.N) (j : S5000x100.Idx) :
    (iblk2 V c 1 t : Vec Ideal S1x100 .f32) (ix2 0 (j 1))
      = (V c (Pipeline.arrRef spec2 1) : S1x100.Idx → EReal) (ix2 0 ((((cfg2.win 5).blk t).view.emb j) 1)) := by
  obtain ⟨-, -, e10, e11, -, -, -, -, -, -, e50, e51⟩ := idx_facts t
  show (V c (Pipeline.arrRef spec2 1) : S1x100.Idx → EReal) (((cfg2.win 1).blk t).view.emb (ix2 0 (j 1))) = _
  refine congrArg _ (funext fun a => Fin.ext ?_)
  match a with
  | ⟨0, _⟩ => show win2_1.index t (0 : Fin 2) * 1 + 1 * 0 = 0; omega
  | ⟨1, _⟩ => show win2_1.index t (1 : Fin 2) * 100 + 1 * (j 1).val = win2_5.index t (1 : Fin 2) * 100 + 1 * (j 1).val; omega

/-- The same for the variance row. -/
theorem read_row2 (c : Dev nD) (t : Fin cfg2.N) (j : S5000x100.Idx) :
    (iblk2 V c 2 t : Vec Ideal S1x100 .f32) (ix2 0 (j 1))
      = (V c (Pipeline.arrRef spec2 2) : S1x100.Idx → EReal) (ix2 0 ((((cfg2.win 5).blk t).view.emb j) 1)) := by
  obtain ⟨-, -, -, -, e20, e21, -, -, -, -, e50, e51⟩ := idx_facts t
  show (V c (Pipeline.arrRef spec2 2) : S1x100.Idx → EReal) (((cfg2.win 2).blk t).view.emb (ix2 0 (j 1))) = _
  refine congrArg _ (funext fun a => Fin.ext ?_)
  match a with
  | ⟨0, _⟩ => show win2_2.index t (0 : Fin 2) * 1 + 1 * 0 = 0; omega
  | ⟨1, _⟩ => show win2_2.index t (1 : Fin 2) * 100 + 1 * (j 1).val = win2_5.index t (1 : Fin 2) * 100 + 1 * (j 1).val; omega

/-- The same for the scale row. -/
theorem read_row3 (c : Dev nD) (t : Fin cfg2.N) (j : S5000x100.Idx) :
    (iblk2 V c 3 t : Vec Ideal S1x100 .f32) (ix2 0 (j 1))
      = (V c (Pipeline.arrRef spec2 3) : S1x100.Idx → EReal) (ix2 0 ((((cfg2.win 5).blk t).view.emb j) 1)) := by
  obtain ⟨-, -, -, -, -, -, e30, e31, -, -, e50, e51⟩ := idx_facts t
  show (V c (Pipeline.arrRef spec2 3) : S1x100.Idx → EReal) (((cfg2.win 3).blk t).view.emb (ix2 0 (j 1))) = _
  refine congrArg _ (funext fun a => Fin.ext ?_)
  match a with
  | ⟨0, _⟩ => show win2_3.index t (0 : Fin 2) * 1 + 1 * 0 = 0; omega
  | ⟨1, _⟩ => show win2_3.index t (1 : Fin 2) * 100 + 1 * (j 1).val = win2_5.index t (1 : Fin 2) * 100 + 1 * (j 1).val; omega

/-- The same for the shift row. -/
theorem read_row4 (c : Dev nD) (t : Fin cfg2.N) (j : S5000x100.Idx) :
    (iblk2 V c 4 t : Vec Ideal S1x100 .f32) (ix2 0 (j 1))
      = (V c (Pipeline.arrRef spec2 4) : S1x100.Idx → EReal) (ix2 0 ((((cfg2.win 5).blk t).view.emb j) 1)) := by
  obtain ⟨-, -, -, -, -, -, -, -, e40, e41, e50, e51⟩ := idx_facts t
  show (V c (Pipeline.arrRef spec2 4) : S1x100.Idx → EReal) (((cfg2.win 4).blk t).view.emb (ix2 0 (j 1))) = _
  refine congrArg _ (funext fun a => Fin.ext ?_)
  match a with
  | ⟨0, _⟩ => show win2_4.index t (0 : Fin 2) * 1 + 1 * 0 = 0; omega
  | ⟨1, _⟩ => show win2_4.index t (1 : Fin 2) * 100 + 1 * (j 1).val = win2_5.index t (1 : Fin 2) * 100 + 1 * (j 1).val; omega

/-- What point t writes back is block t of the whole-array function. -/
theorem flushed_eq (c : Dev nD) (t : Fin cfg2.N) :
    (dat2 (F := Ideal) V c).flushed 5 t = ((cfg2.win 5).blk t).view.read (Elt Ideal) (whole V c) := by
  show (cfg2.win 5).cut (grid2.coords t) ((dat2 (F := Ideal) V c).after 5 t) = _
  rw [after2_5]
  unfold out2_5
  rw [View.canon_unit_zero hz]
  simp only [View.ld_unit_zero (S := S5000x100) hz, View.ld_unit_zero (S := S1x100) hz]
  funext j
  show k2_pay1 (F := Ideal) (iblk2 V c 2 t) (iblk2 V c 0 t) (iblk2 V c 1 t) (iblk2 V c 3 t) (iblk2 V c 4 t) j
    = whole V c (((cfg2.win 5).blk t).view.emb j)
  refine (pay_at (iblk2 V c 2 t) (iblk2 V c 0 t) (iblk2 V c 1 t) (iblk2 V c 3 t) (iblk2 V c 4 t) j).trans ?_
  rw [read_y V c t j, read_row1 V c t j, read_row2 V c t j, read_row3 V c t j, read_row4 V c t j]
  rfl

/-- An index of the array is in point t's block iff each coordinate is in the block's range on its axis. -/
theorem mem_blk (t : Fin cfg2.N) (i : S50000x100.Idx) :
    i ∈ ((cfg2.win 5).blk t).view.set ↔ ∀ a : Fin 2, win2_5.index t a * S5000x100.size a ≤ (i a).val ∧ (i a).val < win2_5.index t a * S5000x100.size a + S5000x100.size a := by
  show i ∈ ((View.whole main_v189).slice (win2_5.rect t)).set ↔ _
  rw [View.set_slice_whole, Rect.mem_set_unit]
  exact Iff.rfl

/-- Every entry of the array is written: row r lies in the block of point r / 5000. -/
theorem cover (i : S50000x100.Idx) :
    ∃ t : Fin cfg2.N, (cfg2.win 5).flush t = true ∧ i ∈ ((cfg2.win 5).blk t).view.set := by
  have hi0 : (i 0).val < 50000 := (i 0).isLt
  have hi1 : (i 1).val < 100 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, -, -, -, e50, e51⟩ := idx_facts t
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 100 ≤ (i 1).val ∧ (i 1).val < win2_5.index t (1 : Fin 2) * 100 + 100; omega

/-- The output array after the region: batch normalisation and ramp of y2 by the four rows, entry by entry. -/
theorem out (c : Dev nD) :
    (dat2 (F := Ideal) V c).arrAt 5 cfg2.N
      = GIN.bnReluD (V c (Pipeline.arrRef spec2 0)) (V c (Pipeline.arrRef spec2 1)) (V c (Pipeline.arrRef spec2 2))
          (V c (Pipeline.arrRef spec2 3)) (V c (Pipeline.arrRef spec2 4)) :=
  (dat2 (F := Ideal) V c).arrAt_eq_of_cover 5 (whole V c) (fun t _ => flushed_eq V c t) cover

end Region

end Cert.KernelIdeal.RegionBnRelu2

end
-- ==== Proof.KStatsOps0.lean ====
/-
  Layer 0's two host stretches that follow its first and its second matrix product, read at ANY contents V of the
  TensorCore's buffers when the stretch begins.

  After the first product y1 the host forms, from y1 alone, the row of column means and the row of column variances, and
  cuts layer 0's rows of the stacked normalisation parameters, its second weight matrix and its second bias row out of
  the arguments; after the second product y2 the same two rows of y2 and the last two parameter rows. Each result buffer
  holds the composed term of exactly the operations that lead to it, which is the neutral specification's function of the
  stretch's inputs; the products themselves are not written by the stretch.
-/
import proofs.«403201_j40475771797954_1_alg».proof.Proof.Gen.KernelIdeal.Launch
import proofs.«403201_j40475771797954_1_alg».proof.Proof.SpecStats
import Idealize.ShloMosaic.Lib.StableHlo.Run

set_option maxRecDepth 16384

noncomputable section

namespace Cert.KernelIdeal.Stats0

open Cert.KernelIdeal Cert.KernelIdeal.Gen
open Idealize.ShloMosaic Idealize.ShloMosaic.StableHlo Idealize.SL.Sem

variable (V : Valuation τ sig (Elt Ideal))

/-! ## After the first product: y1 is main_v170 -/

/-- The mean row of y1: the column sums over the splat of 50000. -/
theorem mean1_of :
    StableHlo.after (hostOps1_2 (F := Ideal)) (StableHlo.after hostOps1_1 (StableHlo.after hostOps1 V)) (Proc.devRef .tc main_v174)
      = GIN.meanRowH (V (Proc.devRef .tc main_v170)) := by
  after_results
  rfl

set_option maxHeartbeats 1000000 in
/-- The variance row of y1: the variance function's operations, its count read from the integer 0 the stretch before
    it leaves. -/
theorem var1_of :
    StableHlo.after (hostOps1_2 (F := Ideal)) (StableHlo.after hostOps1_1 (StableHlo.after hostOps1 V)) (Proc.devRef .tc main_v175)
      = GIN.varRowH (V (Proc.devRef .tc main_v170)) := by
  after_results_simp
  rfl

/-- Layer 0's row of the first normalisation's scale. -/
theorem g1_of :
    StableHlo.after (hostOps1_2 (F := Ideal)) (StableHlo.after hostOps1_1 (StableHlo.after hostOps1 V)) (Proc.devRef .tc main_v176)
      = GIN.rowHOf (V (Proc.devRef .tc main_arg9)) 0 (by decide) := by
  after_results
  rfl

/-- Layer 0's row of the first normalisation's shift. -/
theorem be1_of :
    StableHlo.after (hostOps1_2 (F := Ideal)) (StableHlo.after hostOps1_1 (StableHlo.after hostOps1 V)) (Proc.devRef .tc main_v177)
      = GIN.rowHOf (V (Proc.devRef .tc main_arg10)) 0 (by decide) := by
  after_results
  rfl

/-- Layer 0's second weight matrix. -/
theorem w2_of :
    StableHlo.after (hostOps1_2 (F := Ideal)) (StableHlo.after hostOps1_1 (StableHlo.after hostOps1 V)) (Proc.devRef .tc main_v179)
      = GIN.w2Of (V (Proc.devRef .tc main_arg11)) 0 (by decide) := by
  after_results
  rfl

/-- Layer 0's second bias row. -/
theorem b2_of :
    StableHlo.after (hostOps1_2 (F := Ideal)) (StableHlo.after hostOps1_1 (StableHlo.after hostOps1 V)) (Proc.devRef .tc main_v180)
      = GIN.rowDOf (V (Proc.devRef .tc main_arg12)) 0 (by decide) := by
  after_results
  rfl

/-- The stretch reads y1 and does not write it. -/
theorem y1_keep_of :
    StableHlo.after (hostOps1_2 (F := Ideal)) (StableHlo.after hostOps1_1 (StableHlo.after hostOps1 V)) (Proc.devRef .tc main_v170)
      = V (Proc.devRef .tc main_v170) := by
  after_results

/-! ## After the second product: y2 is main_v181 -/

/-- The mean row of y2. -/
theorem mean2_of :
    StableHlo.after (hostOps2_2 (F := Ideal)) (StableHlo.after hostOps2_1 (StableHlo.after hostOps2 V)) (Proc.devRef .tc main_v185)
      = GIN.meanRowD (V (Proc.devRef .tc main_v181)) := by
  after_results
  rfl

set_option maxHeartbeats 1000000 in
/-- The variance row of y2. -/
theorem var2_of :
    StableHlo.after (hostOps2_2 (F := Ideal)) (StableHlo.after hostOps2_1 (StableHlo.after hostOps2 V)) (Proc.devRef .tc main_v186)
      = GIN.varRowD (V (Proc.devRef .tc main_v181)) := by
  after_results_simp
  rfl

/-- Layer 0's row of the second normalisation's scale. -/
theorem go_of :
    StableHlo.after (hostOps2_2 (F := Ideal)) (StableHlo.after hostOps2_1 (StableHlo.after hostOps2 V)) (Proc.devRef .tc main_v187)
      = GIN.rowDOf (V (Proc.devRef .tc main_arg13)) 0 (by decide) := by
  after_results
  rfl

/-- Layer 0's row of the second normalisation's shift. -/
theorem bo_of :
    StableHlo.after (hostOps2_2 (F := Ideal)) (StableHlo.after hostOps2_1 (StableHlo.after hostOps2 V)) (Proc.devRef .tc main_v188)
      = GIN.rowDOf (V (Proc.devRef .tc main_arg14)) 0 (by decide) := by
  after_results
  rfl

/-- The stretch reads y2 and does not write it. -/
theorem y2_keep_of :
    StableHlo.after (hostOps2_2 (F := Ideal)) (StableHlo.after hostOps2_1 (StableHlo.after hostOps2 V)) (Proc.devRef .tc main_v181)
      = V (Proc.devRef .tc main_v181) := by
  after_results

end Cert.KernelIdeal.Stats0

end
-- ==== Proof.KStats0.lean ====
/-
  Layer 0's column statistics and parameter rows, at the boundaries of the kernel's run.

  The first product y1 is what the first dense step leaves at its exit; the three host stretches that follow it end at
  the entry of the second dense step, where the mean row and the variance row of y1, layer 0's rows of the first
  normalisation's scale and shift, its second weight matrix and its second bias row stand ready, and y1 itself is as it
  was. The same holds one step later for the second product y2 and the entry of the third dense step. Each statement is
  the stretch's own read, taken at the contents the step before it leaves.
-/
import proofs.«403201_j40475771797954_1_alg».proof.Proof.KFrameB
import proofs.«403201_j40475771797954_1_alg».proof.Proof.KStatsOps0

set_option maxRecDepth 16384

noncomputable section

namespace Cert.KernelIdeal.Stats0

open Cert.KernelIdeal Cert.KernelIdeal.Gen
open Idealize.ShloMosaic Idealize.SL.Sem

variable (m : (ℓ : Loc nD τ sig) → Buf (Elt Ideal) ℓ) (ρ : Dev nD → PrngReg) (c : Dev nD)

/-! ## From the first dense step's exit to the second's entry -/

theorem mean1_eq : W5 m ρ c (Proc.devRef .tc main_v174) = GIN.meanRowH (W2 m ρ c (Proc.devRef .tc main_v170)) :=
  mean1_of (W2 m ρ c)

theorem var1_eq : W5 m ρ c (Proc.devRef .tc main_v175) = GIN.varRowH (W2 m ρ c (Proc.devRef .tc main_v170)) :=
  var1_of (W2 m ρ c)

theorem g1_eq : W5 m ρ c (Proc.devRef .tc main_v176) = GIN.rowHOf (W2 m ρ c (Proc.devRef .tc main_arg9)) 0 (by decide) :=
  g1_of (W2 m ρ c)

theorem be1_eq : W5 m ρ c (Proc.devRef .tc main_v177) = GIN.rowHOf (W2 m ρ c (Proc.devRef .tc main_arg10)) 0 (by decide) :=
  be1_of (W2 m ρ c)

theorem w2_eq : W5 m ρ c (Proc.devRef .tc main_v179) = GIN.w2Of (W2 m ρ c (Proc.devRef .tc main_arg11)) 0 (by decide) :=
  w2_of (W2 m ρ c)

theorem b2_eq : W5 m ρ c (Proc.devRef .tc main_v180) = GIN.rowDOf (W2 m ρ c (Proc.devRef .tc main_arg12)) 0 (by decide) :=
  b2_of (W2 m ρ c)

theorem y1_keep : W5 m ρ c (Proc.devRef .tc main_v170) = W2 m ρ c (Proc.devRef .tc main_v170) :=
  y1_keep_of (W2 m ρ c)

/-! ## From the second dense step's exit to the third's entry -/

theorem mean2_eq : W9 m ρ c (Proc.devRef .tc main_v185) = GIN.meanRowD (W6 m ρ c (Proc.devRef .tc main_v181)) :=
  mean2_of (W6 m ρ c)

theorem var2_eq : W9 m ρ c (Proc.devRef .tc main_v186) = GIN.varRowD (W6 m ρ c (Proc.devRef .tc main_v181)) :=
  var2_of (W6 m ρ c)

theorem go_eq : W9 m ρ c (Proc.devRef .tc main_v187) = GIN.rowDOf (W6 m ρ c (Proc.devRef .tc main_arg13)) 0 (by decide) :=
  go_of (W6 m ρ c)

theorem bo_eq : W9 m ρ c (Proc.devRef .tc main_v188) = GIN.rowDOf (W6 m ρ c (Proc.devRef .tc main_arg14)) 0 (by decide) :=
  bo_of (W6 m ρ c)

theorem y2_keep : W9 m ρ c (Proc.devRef .tc main_v181) = W6 m ρ c (Proc.devRef .tc main_v181) :=
  y2_keep_of (W6 m ρ c)

end Cert.KernelIdeal.Stats0

end
-- ==== Proof.KLayer0.lean ====
/-
  The kernel's first GIN layer, read off the boundaries of its run.

  The first stretch of host operations ends, at the first dense step's entry, with the embedded node features h₀, the
  embedded edge features, the edge ends, and already the first aggregation
    hh = (1 + eps[0]) · h₀ + Σ over the edges into a node of (h₀[src] + e)
  with layer 0's first weight matrix and bias row. From there the run passes three dense steps, each entered after a
  stretch of host operations:
    y1 = hh · W1[0] + b1[0]                                                    at the first step's exit,
    the mean row and the variance row of y1                                    at the second step's entry,
    y2 = max (normalise y1) 0 · W2[0] + b2[0]                                  at the second step's exit,
    the mean row and the variance row of y2                                    at the third step's entry,
    h₁ = max (normalise y2) 0                                                  at the third step's exit.
  A step's exit holds the step's function of what its entry holds in the step's input arrays; a stretch's results
  are functions of what the exit before it holds; the stacked parameters are the program's arguments throughout.
  Substituting one equation into the next, these are the eight step equations of the specification's layer, at layer
  0's slices of the arguments.
-/
import proofs.«403201_j40475771797954_1_alg».proof.Proof.KFrameB
import proofs.«403201_j40475771797954_1_alg».proof.Proof.Model
import proofs.«403201_j40475771797954_1_alg».proof.Proof.RegionLin0
import proofs.«403201_j40475771797954_1_alg».proof.Proof.RegionBnLin1
import proofs.«403201_j40475771797954_1_alg».proof.Proof.RegionBnRelu2
import proofs.«403201_j40475771797954_1_alg».proof.Proof.KInit
import proofs.«403201_j40475771797954_1_alg».proof.Proof.KStats0
import proofs.«403201_j40475771797954_1_alg».proof.Proof.KKeep

set_option maxRecDepth 16384

noncomputable section

namespace Cert.KernelIdeal.Layer0

open Cert Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## The three dense steps: the exit's output array is the step's function of the entry's input arrays -/

theorem y1_exit :
    W2 m ρ c (Proc.devRef .tc main_v170)
      = GIN.linH (W1 m ρ c (Proc.devRef .tc main_v166)) (W1 m ρ c (Proc.devRef .tc main_v168))
          (W1 m ρ c (Proc.devRef .tc main_v169)) :=
  (W2_arr m ρ c 3).trans (RegionLin0.out (V1 m ρ) c)

theorem y2_exit :
    W6 m ρ c (Proc.devRef .tc main_v181)
      = GIN.bnLinD (W5 m ρ c (Proc.devRef .tc main_v170)) (W5 m ρ c (Proc.devRef .tc main_v174))
          (W5 m ρ c (Proc.devRef .tc main_v175)) (W5 m ρ c (Proc.devRef .tc main_v176))
          (W5 m ρ c (Proc.devRef .tc main_v177)) (W5 m ρ c (Proc.devRef .tc main_v179))
          (W5 m ρ c (Proc.devRef .tc main_v180)) :=
  (W6_arr m ρ c 7).trans (RegionBnLin1.out (V5 m ρ) c)

theorem h_exit :
    W10 m ρ c (Proc.devRef .tc main_v189)
      = GIN.bnReluD (W9 m ρ c (Proc.devRef .tc main_v181)) (W9 m ρ c (Proc.devRef .tc main_v185))
          (W9 m ρ c (Proc.devRef .tc main_v186)) (W9 m ρ c (Proc.devRef .tc main_v187))
          (W9 m ρ c (Proc.devRef .tc main_v188)) :=
  (W10_arr m ρ c 5).trans (RegionBnRelu2.out (V9 m ρ) c)

/-! ## The layer -/

/-- What the layer's last dense step leaves is the specification's layer 0 of the embedded node features, at the
    program's arguments. -/
theorem layer_eq :
    W10 m ρ c (Proc.devRef .tc main_v189)
      = GIN.layer (GIN.epsOf (m ((c : Thread nD τ).loc main_arg6)) 0 (by decide)) (GIN.w1Of (m ((c : Thread nD τ).loc main_arg7)) 0 (by decide))
          (GIN.rowHOf (m ((c : Thread nD τ).loc main_arg8)) 0 (by decide)) (GIN.rowHOf (m ((c : Thread nD τ).loc main_arg9)) 0 (by decide))
          (GIN.rowHOf (m ((c : Thread nD τ).loc main_arg10)) 0 (by decide)) (GIN.w2Of (m ((c : Thread nD τ).loc main_arg11)) 0 (by decide))
          (GIN.rowDOf (m ((c : Thread nD τ).loc main_arg12)) 0 (by decide)) (GIN.rowDOf (m ((c : Thread nD τ).loc main_arg13)) 0 (by decide))
          (GIN.rowDOf (m ((c : Thread nD τ).loc main_arg14)) 0 (by decide))
          (GIN.bondSum (m ((c : Thread nD τ).loc main_arg2)) (m ((c : Thread nD τ).loc main_arg5))) (GIN.srcOf (m ((c : Thread nD τ).loc main_arg1))) (GIN.dstOf (m ((c : Thread nD τ).loc main_arg1)))
          (GIN.atomSum (m ((c : Thread nD τ).loc main_arg0)) (m ((c : Thread nD τ).loc main_arg4))) := by
  -- the aggregation, as the first stretch leaves it
  have hhh := Init.hh0_eq m ρ c
  -- the first dense step, at layer 0's weight matrix and bias row
  have hy1 := y1_exit m ρ c
  rw [Init.w1_0_eq m ρ c, Init.b1_0_eq m ρ c] at hy1
  -- y1's statistics, and the second dense step at its parameters
  have hmu1 := Stats0.mean1_eq m ρ c
  have hvar1 := Stats0.var1_eq m ρ c
  have hy2 := y2_exit m ρ c
  rw [Stats0.y1_keep m ρ c, Stats0.g1_eq m ρ c, Stats0.be1_eq m ρ c, Stats0.w2_eq m ρ c, Stats0.b2_eq m ρ c,
    Keep.keep_main_arg9_W2 m ρ c, Keep.keep_main_arg10_W2 m ρ c, Keep.keep_main_arg11_W2 m ρ c,
    Keep.keep_main_arg12_W2 m ρ c, Init.arg_W1_9 m ρ c, Init.arg_W1_10 m ρ c, Init.arg_W1_11 m ρ c,
    Init.arg_W1_12 m ρ c] at hy2
  -- y2's statistics, and the third dense step at its parameters
  have hmu2 := Stats0.mean2_eq m ρ c
  have hvar2 := Stats0.var2_eq m ρ c
  have hout := h_exit m ρ c
  rw [Stats0.y2_keep m ρ c, Stats0.go_eq m ρ c, Stats0.bo_eq m ρ c, Keep.keep_main_arg13_W6 m ρ c,
    Keep.keep_main_arg14_W6 m ρ c, Init.arg_W1_13 m ρ c, Init.arg_W1_14 m ρ c] at hout
  exact GIN.layer_of_steps hhh hy1 hmu1 hvar1 hy2 hmu2 hvar2 hout

end Cert.KernelIdeal.Layer0

end
-- ==== Proof.RegionLin3.lean ====
/-
  The first dense step of a layer on the kernel's side, as ONE function of whole arrays.

  The region walks the 50000 rows of the aggregated features in 10 blocks of 5000 rows. At block t it reads rows
  5000·t … 5000·t + 4999 of the features, the whole [100, 200] weight matrix and the whole [1, 200] bias row, and writes
  rows 5000·t … 5000·t + 4999 of the result: entry (p, q) of the block is row p of the feature block times column q of
  the weights, plus entry q of the bias row. A row of the result depends on the same row of the features only, so block
  t of the result is the restriction to those rows of the whole-array function hh · W1 + b1, and since every row lies
  in block (row / 5000) the ten blocks together are that function.
-/
import proofs.«403201_j40475771797954_1_alg».proof.Proof.KFrameA
import proofs.«403201_j40475771797954_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionLin3

open Cert.KernelIdeal Cert.KernelIdeal.Gen Idealize.ShloMosaic Idealize.ShloMosaic.TcCoe Idealize.SL.Sem
open Idealize.ShloMosaic.ValueIdx
open Idealize.ShloMosaic.Pipeline (Dat)

/-! ## The product's operand indices, axis by axis

The product contracts axis 1 of the left operand with axis 0 of the right one: at output entry (r, c) and contraction
position k the left operand is read at (r, k) and the right one at (k, c). -/

theorem lhs_row (i : S5000x200.Idx) (q : dot_S5000x100_S100x200_S5000x200_1_0_0_1_n_n.contr.Idx) :
    (dot_S5000x100_S100x200_S5000x200_1_0_0_1_n_n.lhsIdx i q 0).val = (i 0).val := by
  unfold DotDims.lhsIdx
  rw [dif_neg (show ¬(0 : Fin S5000x100.rank) ∈ dot_S5000x100_S100x200_S5000x200_1_0_0_1_n_n.lhsBatch by decide), dif_pos (show (0 : Fin S5000x100.rank) ∈ dot_S5000x100_S100x200_S5000x200_1_0_0_1_n_n.lhsNonContracting by decide)]
  rfl

theorem lhs_col (i : S5000x200.Idx) (q : dot_S5000x100_S100x200_S5000x200_1_0_0_1_n_n.contr.Idx) :
    (dot_S5000x100_S100x200_S5000x200_1_0_0_1_n_n.lhsIdx i q 1).val = (q ⟨0, by decide⟩).val :=
  dot_S5000x100_S100x200_S5000x200_1_0_0_1_n_n.lhsIdx_val_of_single rfl i q

theorem rhs_row (i : S5000x200.Idx) (q : dot_S5000x100_S100x200_S5000x200_1_0_0_1_n_n.contr.Idx) :
    (dot_S5000x100_S100x200_S5000x200_1_0_0_1_n_n.rhsIdx i q 0).val = (q ⟨0, by decide⟩).val :=
  dot_S5000x100_S100x200_S5000x200_1_0_0_1_n_n.rhsIdx_val_of_single rfl i q

theorem rhs_col (i : S5000x200.Idx) (q : dot_S5000x100_S100x200_S5000x200_1_0_0_1_n_n.contr.Idx) :
    (dot_S5000x100_S100x200_S5000x200_1_0_0_1_n_n.rhsIdx i q 1).val = (i 1).val := by
  unfold DotDims.rhsIdx
  rw [dif_neg (show ¬(1 : Fin S100x200.rank) ∈ dot_S5000x100_S100x200_S5000x200_1_0_0_1_n_n.rhsBatch by decide), dif_pos (show (1 : Fin S100x200.rank) ∈ dot_S5000x100_S100x200_S5000x200_1_0_0_1_n_n.rhsNonContracting by decide)]
  rfl

/-! ## The body's arithmetic at one entry of the block -/

/-- The product of a [5000, 100] block by the [100, 200] weights, accumulated into zeros, at entry (p, q): the sum over
    the 100 contracted coordinates of the products of the entries. -/
theorem matmul_at (l : FVec Ideal S5000x100 .bf16) (r : FVec Ideal S100x200 .bf16) (p : Fin 5000) (q : Fin 200) :
    matmul dot_S5000x100_S100x200_S5000x200_1_0_0_1_n_n none l r (constant (F := Ideal) S5000x200 .f32 0x00000000#32) (ix2 p q)
      = ∑ k : Fin 100, l (ix2 p k) * r (ix2 k q) := by
  simp only [matmul]
  rw [Ideal.matmul_constant_zero_apply, ← Equiv.sum_comp (contrEquiv1 dot_S5000x100_S100x200_S5000x200_1_0_0_1_n_n 100 rfl rfl).symm]
  refine Finset.sum_congr rfl fun k _ => ?_
  have hk := contrEquiv1_symm_val dot_S5000x100_S100x200_S5000x200_1_0_0_1_n_n 100 rfl rfl k
  have el : dot_S5000x100_S100x200_S5000x200_1_0_0_1_n_n.lhsIdx (ix2 p q) ((contrEquiv1 dot_S5000x100_S100x200_S5000x200_1_0_0_1_n_n 100 rfl rfl).symm k) = ix2 p k := funext fun a => Fin.ext (by
    match a with
    | ⟨0, _⟩ => exact lhs_row _ _
    | ⟨1, _⟩ => exact (lhs_col _ _).trans hk)
  have er : dot_S5000x100_S100x200_S5000x200_1_0_0_1_n_n.rhsIdx (ix2 p q) ((contrEquiv1 dot_S5000x100_S100x200_S5000x200_1_0_0_1_n_n 100 rfl rfl).symm k) = ix2 k q := funext fun a => Fin.ext (by
    match a with
    | ⟨0, _⟩ => exact (rhs_row _ _).trans hk
    | ⟨1, _⟩ => exact rhs_col _ _)
  rw [el, er]

/-- What the body stores at entry (p, q) of the block: row p of the feature block times column q of the weights, plus
    entry q of the bias row. On the extended reals the changes of float format and the shape casts to the same shape
    are the identity, and the bias row broadcast over the 5000 rows reads its entry q in every row. -/
theorem pay_at (x : Vec Ideal S5000x100 .f32) (w : Vec Ideal S100x200 .f32) (b : Vec Ideal S1x200 .f32) (p : Fin 5000) (q : Fin 200) :
    k3_pay1 (F := Ideal) x w b (ix2 p q) = (∑ k : Fin 100, x (ix2 p k) * w (ix2 k q)) + b (ix2 0 q) := by
  unfold k3_pay1
  simp only [shapeCast_self]
  rw [addf_apply, matmul_at, broadcastTo_1b_ab_apply]
  rfl

/-- One entry of a block against the whole-array function. If the feature block holds rows n·5000 … n·5000 + 4999 of
    the features, and the weight and bias blocks are the whole weight matrix and bias row, then the body's entry y of
    the block is the whole-array function's entry i, for i the entry of the result that y is: row n·5000 + (row of y),
    same column. -/
theorem block_entry (x : FVec Ideal S50000x100 .f32) (w : FVec Ideal S100x200 .f32) (b : FVec Ideal S1x200 .f32)
    (xb : Vec Ideal S5000x100 .f32) (wb : Vec Ideal S100x200 .f32) (bb : Vec Ideal S1x200 .f32)
    (y : S5000x200.Idx) (i : S50000x200.Idx) (n : Nat)
    (hx : ∀ (p : Fin 5000) (k : Fin 100) (r : Fin 50000), r.val = n * 5000 + p.val → xb (ix2 p k) = x (ix2 r k))
    (hw : wb = w) (hb : bb = b)
    (hi0 : (i 0).val = n * 5000 + (y 0).val) (hi1 : (i 1).val = (y 1).val) :
    k3_pay1 (F := Ideal) xb wb bb y = GIN.linH x w b i := by
  obtain ⟨p, q, rfl⟩ : ∃ (p : Fin 5000) (q : Fin 200), y = ix2 p q := ⟨y 0, y 1, eq_ix2 y⟩
  obtain ⟨r, c, rfl⟩ : ∃ (r : Fin 50000) (c : Fin 200), i = ix2 r c := ⟨i 0, i 1, eq_ix2 i⟩
  obtain rfl : c = q := Fin.ext hi1
  subst hw hb
  rw [pay_at]
  unfold GIN.linH
  exact congrArg (· + bb (ix2 0 c)) (Finset.sum_congr rfl fun k _ => by rw [hx p k r hi0])

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The three arrays the region reads, as it finds them, at their literal types. -/
abbrev xarr (c : Dev nD) : FVec Ideal S50000x100 .f32 := V c (Pipeline.arrRef spec3 0)
abbrev warr (c : Dev nD) : FVec Ideal S100x200 .f32 := V c (Pipeline.arrRef spec3 1)
abbrev barr (c : Dev nD) : FVec Ideal S1x200 .f32 := V c (Pipeline.arrRef spec3 2)

/-- The three blocks the body reads at point t, at their literal types. -/
abbrev xblk (c : Dev nD) (t : Fin cfg3.N) : Vec Ideal S5000x100 .f32 := iblk3 V c 0 t
abbrev wblk (c : Dev nD) (t : Fin cfg3.N) : Vec Ideal S100x200 .f32 := iblk3 V c 1 t
abbrev bblk (c : Dev nD) (t : Fin cfg3.N) : Vec Ideal S1x200 .f32 := iblk3 V c 2 t

/-- The index maps over the ten points: the feature window and the result window sit at block (t, 0), the weight and
    bias windows at block (0, 0) throughout. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The feature block at point t holds rows 5000·t … 5000·t + 4999 of the features: a block's coordinate in the array
    is the block index times the block size plus the coordinate inside the block. -/
theorem xblk_entry (c : Dev nD) (t : Fin cfg3.N) (p : Fin 5000) (k : Fin 100) (r : Fin 50000)
    (hr : r.val = t.val * 5000 + p.val) : xblk V c t (ix2 p k) = xarr V c (ix2 r k) := by
  obtain ⟨e0, e1, -⟩ := idx_facts t
  show V c (Pipeline.arrRef spec3 0) (((cfg3.win 0).blk t).view.emb (ix2 p k)) = V c (Pipeline.arrRef spec3 0) (ix2 r k)
  refine congrArg _ (funext fun a => Fin.ext ?_)
  match a with
  | ⟨0, _⟩ => show win3_0.index t (0 : Fin 2) * 5000 + 1 * p.val = r.val; omega
  | ⟨1, _⟩ => show win3_0.index t (1 : Fin 2) * 100 + 1 * k.val = k.val; omega

/-- The weight block is the whole weight matrix at every point. -/
theorem wblk_eq (c : Dev nD) (t : Fin cfg3.N) : wblk V c t = warr V c := by
  obtain ⟨-, -, e2, e3, -⟩ := idx_facts t
  funext y
  show V c (Pipeline.arrRef spec3 1) (((cfg3.win 1).blk t).view.emb y) = V c (Pipeline.arrRef spec3 1) y
  refine congrArg _ (funext fun a => Fin.ext ?_)
  match a with
  | ⟨0, _⟩ => show win3_1.index t (0 : Fin 2) * 100 + 1 * (y 0).val = (y 0).val; omega
  | ⟨1, _⟩ => show win3_1.index t (1 : Fin 2) * 200 + 1 * (y 1).val = (y 1).val; omega

/-- The bias block is the whole bias row at every point. -/
theorem bblk_eq (c : Dev nD) (t : Fin cfg3.N) : bblk V c t = barr V c := by
  obtain ⟨-, -, -, -, e4, e5, -⟩ := idx_facts t
  funext y
  show V c (Pipeline.arrRef spec3 2) (((cfg3.win 2).blk t).view.emb y) = V c (Pipeline.arrRef spec3 2) y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 200 + 1 * (y 1).val = (y 1).val; omega

/-- What point t writes back is block t of the whole-array function hh · W1 + b1 of the arrays the region finds. -/
theorem flushed_eq (c : Dev nD) (t : Fin cfg3.N) :
    (dat3 (F := Ideal) V c).flushed 3 t
      = ((cfg3.win 3).blk t).view.read (Elt Ideal) (GIN.linH (xarr V c) (warr V c) (barr V c)) := by
  show (cfg3.win 3).cut (grid3.coords t) ((dat3 (F := Ideal) V c).after 3 t) = _
  rw [after3_3]
  unfold out3_3
  rw [View.canon_unit_zero hz]
  simp only [View.ld_unit_zero (S := S5000x100) hz, View.ld_unit_zero (S := S100x200) hz, View.ld_unit_zero (S := S1x200) hz]
  obtain ⟨-, -, -, -, -, -, e6, e7⟩ := idx_facts t
  funext j
  exact block_entry (xarr V c) (warr V c) (barr V c) (xblk V c t) (wblk V c t) (bblk V c t) j
    (((cfg3.win 3).blk t).view.emb j) t.val (xblk_entry V c t) (wblk_eq V c t) (bblk_eq V c t)
    (by show win3_3.index t (0 : Fin 2) * 5000 + 1 * (j 0).val = t.val * 5000 + (j 0).val; omega)
    (by show win3_3.index t (1 : Fin 2) * 200 + 1 * (j 1).val = (j 1).val; omega)

/-- An entry of the result array is in point t's block iff each coordinate is in the block's range on its axis. -/
theorem mem_blk (t : Fin cfg3.N) (i : S50000x200.Idx) :
    i ∈ ((cfg3.win 3).blk t).view.set ↔ ∀ a : Fin 2, win3_3.index t a * S5000x200.size a ≤ (i a).val ∧ (i a).val < win3_3.index t a * S5000x200.size a + S5000x200.size a := by
  show i ∈ ((View.whole main_v210).slice (win3_3.rect t)).set ↔ _
  rw [View.set_slice_whole, Rect.mem_set_unit]
  exact Iff.rfl

/-- Every entry of the result array is written back by some point: row r by point r / 5000. -/
theorem covered (i : S50000x200.Idx) :
    ∃ t : Fin cfg3.N, (cfg3.win 3).flush t = true ∧ i ∈ ((cfg3.win 3).blk t).view.set := by
  have hi0 : (i 0).val < 50000 := (i 0).isLt
  have hi1 : (i 1).val < 200 := (i 1).isLt
  obtain ⟨t, ht⟩ : ∃ t : Fin cfg3.N, t.val = (i 0).val / 5000 :=
    ⟨⟨(i 0).val / 5000, by rw [show cfg3.N = 10 from N_3]; omega⟩, rfl⟩
  obtain ⟨-, -, -, -, -, -, e6, e7⟩ := idx_facts t
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 200 ≤ (i 1).val ∧ (i 1).val < win3_3.index t (1 : Fin 2) * 200 + 200; omega

/-- THE RESULT ARRAY after the region: hh · W1 + b1 of the three arrays the region finds, whatever they hold. -/
theorem out (c : Dev nD) :
    (dat3 (F := Ideal) V c).arrAt 3 cfg3.N
      = GIN.linH (V c (Pipeline.arrRef spec3 0)) (V c (Pipeline.arrRef spec3 1)) (V c (Pipeline.arrRef spec3 2)) :=
  (dat3 (F := Ideal) V c).arrAt_eq_of_cover 3 (GIN.linH (xarr V c) (warr V c) (barr V c)) (fun t _ => flushed_eq V c t) covered

end Cert.KernelIdeal.RegionLin3

end
-- ==== Proof.RegionBnLin4.lean ====
/-
  The kernel's second dense step of a layer as ONE whole-array function.

  The region computes, 5000 rows at a time, y2 = z · W2 + b2 where z = max (((y1 - μ) · rsqrt (σ + ε)) · g + β) 0, with the
  row statistics μ, σ and the affine rows g, β, b2 held as [1, K] rows and W2 whole. A row of the result depends on the
  same row of y1 only, so the ten blocks of 5000 rows are the restrictions of one function of the whole arrays:
  `GIN.bnLinD`. Read in four steps: the block's arithmetic at one entry (the product into the zero accumulator is the sum
  over the 200 contracted columns; a broadcast row reads the row's entry; a change of float format is the identity on
  the extended reals); each input block read off its array (block t of y1 is rows 5000 t … 5000 t + 4999, the row and
  weight windows are their whole arrays at every point); what point t writes back is block t of the whole-array
  function; row r is covered by point r / 5000.
-/
import proofs.«403201_j40475771797954_1_alg».proof.Proof.KFrameA
import proofs.«403201_j40475771797954_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionBnLin4

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The block's arithmetic at one entry -/

/-- The product's left operand at output entry j and contraction position k sits in row j₀ … -/
theorem lhs_ax0 (j : S5000x100.Idx) (k : dot_S5000x200_S200x100_S5000x100_1_0_0_1_n_n.contr.Idx) :
    (dot_S5000x200_S200x100_S5000x100_1_0_0_1_n_n.lhsIdx j k 0 : ℕ) = j 0 := by
  simp [DotDims.lhsIdx, dot_S5000x200_S200x100_S5000x100_1_0_0_1_n_n]; rfl
/-- … and column k; -/
theorem lhs_ax1 (j : S5000x100.Idx) (k : dot_S5000x200_S200x100_S5000x100_1_0_0_1_n_n.contr.Idx) :
    (dot_S5000x200_S200x100_S5000x100_1_0_0_1_n_n.lhsIdx j k 1 : ℕ) = k ⟨0, by decide⟩ := by
  simp [DotDims.lhsIdx, dot_S5000x200_S200x100_S5000x100_1_0_0_1_n_n]; rfl
/-- the right operand in row k … -/
theorem rhs_ax0 (j : S5000x100.Idx) (k : dot_S5000x200_S200x100_S5000x100_1_0_0_1_n_n.contr.Idx) :
    (dot_S5000x200_S200x100_S5000x100_1_0_0_1_n_n.rhsIdx j k 0 : ℕ) = k ⟨0, by decide⟩ := by
  simp [DotDims.rhsIdx, dot_S5000x200_S200x100_S5000x100_1_0_0_1_n_n]; rfl
/-- … and column j₁. -/
theorem rhs_ax1 (j : S5000x100.Idx) (k : dot_S5000x200_S200x100_S5000x100_1_0_0_1_n_n.contr.Idx) :
    (dot_S5000x200_S200x100_S5000x100_1_0_0_1_n_n.rhsIdx j k 1 : ℕ) = j 1 := by
  simp [DotDims.rhsIdx, dot_S5000x200_S200x100_S5000x100_1_0_0_1_n_n]; rfl

/-- The block product into the zero accumulator, at (p, q): the sum over the 200 contracted columns of l(p, k) · r(k, q). -/
theorem matmul_at (l : FVec Ideal S5000x200 .bf16) (r : FVec Ideal S200x100 .bf16) (p : Fin 5000) (q : Fin 100) :
    matmul dot_S5000x200_S200x100_S5000x100_1_0_0_1_n_n none l r (constant (F := Ideal) S5000x100 .f32 0x00000000#32) (ix2 p q)
      = ∑ k : Fin 200, l (ix2 p k) * r (ix2 k q) := by
  simp only [matmul]
  rw [Ideal.matmul_constant_zero_apply,
    ← Equiv.sum_comp (contrEquiv1 dot_S5000x200_S200x100_S5000x100_1_0_0_1_n_n 200 rfl rfl).symm]
  refine Finset.sum_congr rfl fun k _ => ?_
  have hk := contrEquiv1_symm_val dot_S5000x200_S200x100_S5000x100_1_0_0_1_n_n 200 rfl rfl k
  congr 1
  · refine congrArg l (funext fun a => Fin.ext ?_)
    match a with
    | ⟨0, _⟩ => exact lhs_ax0 _ _
    | ⟨1, _⟩ => exact (lhs_ax1 _ _).trans hk
  · refine congrArg r (funext fun a => Fin.ext ?_)
    match a with
    | ⟨0, _⟩ => exact (rhs_ax0 _ _).trans hk
    | ⟨1, _⟩ => exact rhs_ax1 _ _

/-- The body's payload at entry (p, q) of the block, from its loads: v0 the variance row, v5 the block of y1, v7 the mean
    row, v13 and v17 the affine rows, v24 the weights, v28 the bias row. -/
theorem pay_apply (v0 : Vec Ideal S1x200 .f32) (v5 : Vec Ideal S5000x200 .f32) (v7 v13 v17 : Vec Ideal S1x200 .f32)
    (v24 : Vec Ideal S200x100 .f32) (v28 : Vec Ideal S1x100 .f32) (p : Fin 5000) (q : Fin 100) :
    (k4_pay1 (F := Ideal) v0 v5 v7 v13 v17 v24 v28) (ix2 p q)
      = (∑ k : Fin 200, GIN.bnAct (v5 (ix2 p k)) (v7 (ix2 0 k)) (v0 (ix2 0 k)) (v13 (ix2 0 k)) (v17 (ix2 0 k)) * v24 (ix2 k q))
        + v28 (ix2 0 q) := by
  unfold k4_pay1
  simp only [shapeCast_self]
  rw [addf_apply, matmul_at, broadcastTo_1b_ab_apply]
  refine congrArg (· + v28 (ix2 0 q)) (Finset.sum_congr rfl fun k _ => ?_)
  rw [truncf_apply, truncf_apply, maximumf_apply, addf_apply, mulf_apply, mulf_apply, subf_apply,
    broadcastTo_1b_ab_apply, broadcastTo_1b_ab_apply, broadcastTo_1b_ab_apply, broadcastTo_1b_ab_apply]
  rfl

/-- Row p of block n is row 5000 n + p of the array. -/
theorem row_lt (n : Nat) (hn : n < 10) (p : Fin 5000) : n * 5000 + p.val < 50000 := by
  have := p.isLt; omega

/-- So a block whose rows are rows 5000 n … of y1, with the row and weight operands whole, holds at entry j the
    whole-array function at the entry 5000 n rows further down. -/
theorem block_entry (y1 : FVec Ideal S50000x200 .f32) (mu var g be : FVec Ideal S1x200 .f32)
    (w : FVec Ideal S200x100 .f32) (b : FVec Ideal S1x100 .f32) (x0 : Vec Ideal S5000x200 .f32) (n : Nat) (hn : n < 10)
    (h0 : ∀ (p : Fin 5000) (k : Fin 200),
      x0 (ix2 p k) = y1 (ix2 (⟨n * 5000 + p.val, row_lt n hn p⟩ : Fin 50000) k))
    (j : S5000x100.Idx) (i : S50000x100.Idx) (hi0 : (i 0).val = n * 5000 + (j 0).val) (hi1 : (i 1).val = (j 1).val) :
    k4_pay1 (F := Ideal) var x0 mu g be w b j = GIN.bnLinD y1 mu var g be w b i := by
  obtain ⟨p, q, rfl⟩ : ∃ (p : Fin 5000) (q : Fin 100), j = ix2 p q := ⟨j 0, j 1, eq_ix2 j⟩
  obtain rfl : i = ix2 (⟨n * 5000 + p.val, row_lt n hn p⟩ : Fin 50000) q := by
    funext a; apply Fin.ext
    match a with
    | ⟨0, _⟩ => exact hi0
    | ⟨1, _⟩ => exact hi1
  rw [pay_apply]
  unfold GIN.bnLinD
  simp only [h0]

/-! ## The arrays as the region finds them, and each input block read off its array -/

variable (V : (c : Dev nD) → (b : Ref sig .tc) → Buf (Elt Ideal) ((c : Thread nD τ).loc b))

/-- The seven input arrays at their literal shapes: y1, the mean and variance rows, the affine rows, the weights, the
    bias row. -/
abbrev y1arr (c : Dev nD) : FVec Ideal S50000x200 .f32 := V c (Pipeline.arrRef spec4 0)
abbrev muarr (c : Dev nD) : FVec Ideal S1x200 .f32 := V c (Pipeline.arrRef spec4 1)
abbrev vararr (c : Dev nD) : FVec Ideal S1x200 .f32 := V c (Pipeline.arrRef spec4 2)
abbrev garr (c : Dev nD) : FVec Ideal S1x200 .f32 := V c (Pipeline.arrRef spec4 3)
abbrev bearr (c : Dev nD) : FVec Ideal S1x200 .f32 := V c (Pipeline.arrRef spec4 4)
abbrev warr (c : Dev nD) : FVec Ideal S200x100 .f32 := V c (Pipeline.arrRef spec4 5)
abbrev barr (c : Dev nD) : FVec Ideal S1x100 .f32 := V c (Pipeline.arrRef spec4 6)

/-- The whole-array function of them. -/
abbrev whole (c : Dev nD) : FVec Ideal S50000x100 .f32 :=
  GIN.bnLinD (y1arr V c) (muarr V c) (vararr V c) (garr V c) (bearr V c) (warr V c) (barr V c)

theorem hz : (![0, 0] : Fin 2 → Nat) = fun _ => 0 := funext fun a => by fin_cases a <;> rfl

/-- The windows' block indices over the grid: y1 and the result move down one block of rows per point; the row and
    weight windows stay at block (0, 0). -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- Block t of y1 is rows 5000 t … 5000 t + 4999. -/
theorem blk_y1 (c : Dev nD) (t : Fin cfg4.N) (ht : t.val < 10) (p : Fin 5000) (k : Fin 200) :
    (iblk4 V c 0 t : Vec Ideal S5000x200 .f32) (ix2 p k)
      = y1arr V c (ix2 (⟨t.val * 5000 + p.val, row_lt t.val ht p⟩ : Fin 50000) k) := by
  obtain ⟨e0, e1, -⟩ := idx_facts t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 5000 + 1 * p.val = t.val * 5000 + p.val; omega
  | ⟨1, _⟩ => show win4_0.index t (1 : Fin 2) * 200 + 1 * k.val = k.val; omega

/-- The mean row's block is the whole row, at every point. -/
theorem blk_mu (c : Dev nD) (t : Fin cfg4.N) : (iblk4 V c 1 t : Vec Ideal S1x200 .f32) = muarr V c := by
  obtain ⟨-, -, e0, e1, -⟩ := idx_facts t
  funext y
  unfold iblk4
  rw [View.read_apply]
  show V c (Pipeline.arrRef spec4 1) _ = V c (Pipeline.arrRef spec4 1) y
  congr 1
  funext a
  apply Fin.ext
  match a with
  | ⟨0, _⟩ => show win4_1.index t (0 : Fin 2) * 1 + 1 * (y 0).val = (y 0).val; omega
  | ⟨1, _⟩ => show win4_1.index t (1 : Fin 2) * 200 + 1 * (y 1).val = (y 1).val; omega

/-- The variance row's likewise. -/
theorem blk_var (c : Dev nD) (t : Fin cfg4.N) : (iblk4 V c 2 t : Vec Ideal S1x200 .f32) = vararr V c := by
  obtain ⟨-, -, -, -, e0, e1, -⟩ := idx_facts t
  funext y
  unfold iblk4
  rw [View.read_apply]
  show V c (Pipeline.arrRef spec4 2) _ = V c (Pipeline.arrRef spec4 2) y
  congr 1
  funext a
  apply Fin.ext
  match a with
  | ⟨0, _⟩ => show win4_2.index t (0 : Fin 2) * 1 + 1 * (y 0).val = (y 0).val; omega
  | ⟨1, _⟩ => show win4_2.index t (1 : Fin 2) * 200 + 1 * (y 1).val = (y 1).val; omega

/-- The scale row's. -/
theorem blk_g (c : Dev nD) (t : Fin cfg4.N) : (iblk4 V c 3 t : Vec Ideal S1x200 .f32) = garr V c := by
  obtain ⟨-, -, -, -, -, -, e0, e1, -⟩ := idx_facts t
  funext y
  unfold iblk4
  rw [View.read_apply]
  show V c (Pipeline.arrRef spec4 3) _ = V c (Pipeline.arrRef spec4 3) y
  congr 1
  funext a
  apply Fin.ext
  match a with
  | ⟨0, _⟩ => show win4_3.index t (0 : Fin 2) * 1 + 1 * (y 0).val = (y 0).val; omega
  | ⟨1, _⟩ => show win4_3.index t (1 : Fin 2) * 200 + 1 * (y 1).val = (y 1).val; omega

/-- The shift row's. -/
theorem blk_be (c : Dev nD) (t : Fin cfg4.N) : (iblk4 V c 4 t : Vec Ideal S1x200 .f32) = bearr V c := by
  obtain ⟨-, -, -, -, -, -, -, -, e0, e1, -⟩ := idx_facts t
  funext y
  unfold iblk4
  rw [View.read_apply]
  show V c (Pipeline.arrRef spec4 4) _ = V c (Pipeline.arrRef spec4 4) y
  congr 1
  funext a
  apply Fin.ext
  match a with
  | ⟨0, _⟩ => show win4_4.index t (0 : Fin 2) * 1 + 1 * (y 0).val = (y 0).val; omega
  | ⟨1, _⟩ => show win4_4.index t (1 : Fin 2) * 200 + 1 * (y 1).val = (y 1).val; omega

/-- The weights' block is the whole [200, 100] array. -/
theorem blk_w (c : Dev nD) (t : Fin cfg4.N) : (iblk4 V c 5 t : Vec Ideal S200x100 .f32) = warr V c := by
  obtain ⟨-, -, -, -, -, -, -, -, -, -, e0, e1, -⟩ := idx_facts t
  funext y
  unfold iblk4
  rw [View.read_apply]
  show V c (Pipeline.arrRef spec4 5) _ = V c (Pipeline.arrRef spec4 5) y
  congr 1
  funext a
  apply Fin.ext
  match a with
  | ⟨0, _⟩ => show win4_5.index t (0 : Fin 2) * 200 + 1 * (y 0).val = (y 0).val; omega
  | ⟨1, _⟩ => show win4_5.index t (1 : Fin 2) * 100 + 1 * (y 1).val = (y 1).val; omega

/-- The bias row's block is the whole row. -/
theorem blk_b (c : Dev nD) (t : Fin cfg4.N) : (iblk4 V c 6 t : Vec Ideal S1x100 .f32) = barr V c := by
  obtain ⟨-, -, -, -, -, -, -, -, -, -, -, -, e0, e1, -⟩ := idx_facts t
  funext y
  unfold iblk4
  rw [View.read_apply]
  show V c (Pipeline.arrRef spec4 6) _ = V c (Pipeline.arrRef spec4 6) y
  congr 1
  funext a
  apply Fin.ext
  match a with
  | ⟨0, _⟩ => show win4_6.index t (0 : Fin 2) * 1 + 1 * (y 0).val = (y 0).val; omega
  | ⟨1, _⟩ => show win4_6.index t (1 : Fin 2) * 100 + 1 * (y 1).val = (y 1).val; omega

/-! ## What a point writes back, the cover, the array -/

/-- WHAT POINT t WRITES BACK is block t of the whole-array function. -/
theorem flushed_eq (c : Dev nD) (t : Fin cfg4.N) :
    (dat4 V c).flushed 7 t = ((cfg4.win 7).blk t).view.read (Elt Ideal) (whole V c) := by
  have ht : t.val < 10 := by have := t.isLt; have hN : cfg4.N = 10 := N_4; omega
  show (cfg4.win 7).cut (grid4.coords t) ((dat4 V c).after 7 t) = _
  rw [after4_7]
  unfold out4_7
  rw [View.canon_unit_zero hz]
  simp only [View.ld_unit_zero (S := S5000x200) hz, View.ld_unit_zero (S := S1x200) hz,
    View.ld_unit_zero (S := S200x100) hz, View.ld_unit_zero (S := S1x100) hz]
  rw [blk_mu V c t, blk_var V c t, blk_g V c t, blk_be V c t, blk_w V c t, blk_b V c t]
  obtain ⟨-, -, -, -, -, -, -, -, -, -, -, -, -, -, e0, e1⟩ := idx_facts t
  funext j
  show k4_pay1 (F := Ideal) (vararr V c) (iblk4 V c 0 t) (muarr V c) (garr V c) (bearr V c) (warr V c) (barr V c) j
    = whole V c (((cfg4.win 7).blk t).view.emb j)
  refine block_entry (y1arr V c) (muarr V c) (vararr V c) (garr V c) (bearr V c) (warr V c) (barr V c) (iblk4 V c 0 t)
    t.val ht (fun p k => blk_y1 V c t ht p k) j _ ?_ ?_
  · show win4_7.index t (0 : Fin 2) * 5000 + 1 * (j 0).val = t.val * 5000 + (j 0).val
    omega
  · show win4_7.index t (1 : Fin 2) * 100 + 1 * (j 1).val = (j 1).val
    omega

/-- An entry of the result array is in point t's block iff each coordinate is in the block's range on its axis. -/
theorem mem_blk (t : Fin cfg4.N) (i : S50000x100.Idx) :
    i ∈ ((cfg4.win 7).blk t).view.set ↔ ∀ a : Fin 2, win4_7.index t a * S5000x100.size a ≤ (i a).val
      ∧ (i a).val < win4_7.index t a * S5000x100.size a + S5000x100.size a := by
  show i ∈ ((View.whole (Pipeline.arrRef spec4 7)).slice (win4_7.rect t)).set ↔ _
  rw [View.set_slice_whole, Rect.mem_set_unit]
  exact Iff.rfl

/-- Row r of the result is covered by point r / 5000, and every point writes back. -/
theorem cover (i : S50000x100.Idx) :
    ∃ t : Fin cfg4.N, (cfg4.win 7).flush t = true ∧ i ∈ ((cfg4.win 7).blk t).view.set := by
  have hi0 : (i 0).val < 50000 := idx2_lt0 i
  have hi1 : (i 1).val < 100 := idx2_lt1 i
  have hN : cfg4.N = 10 := N_4
  obtain ⟨t, ht⟩ : ∃ t : Fin cfg4.N, t.val = (i 0).val / 5000 := ⟨⟨(i 0).val / 5000, by omega⟩, rfl⟩
  obtain ⟨-, -, -, -, -, -, -, -, -, -, -, -, -, -, e0, e1⟩ := idx_facts t
  refine ⟨t, flush4_7 t, ?_⟩
  rw [mem_blk]
  intro a
  match a with
  | ⟨0, _⟩ =>
    show win4_7.index t (0 : Fin 2) * 5000 ≤ (i 0).val ∧ (i 0).val < win4_7.index t (0 : Fin 2) * 5000 + 5000
    omega
  | ⟨1, _⟩ =>
    show win4_7.index t (1 : Fin 2) * 100 ≤ (i 1).val ∧ (i 1).val < win4_7.index t (1 : Fin 2) * 100 + 100
    omega

/-- THE RESULT ARRAY after the region: the whole-array function of the seven input arrays as the region finds them. -/
theorem out (c : Dev nD) :
    (Gen.dat4 (F := Ideal) V c).arrAt 7 cfg4.N
      = GIN.bnLinD (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5))
          (V c (Pipeline.arrRef spec4 6)) :=
  (dat4 V c).arrAt_eq_of_cover 7 (whole V c) (fun t _ => flushed_eq V c t) (fun i => cover i)

end Cert.KernelIdeal.RegionBnLin4

end
-- ==== Proof.RegionBnRelu5.lean ====
/-
  One batch-normalisation-and-ramp region of the kernel as a whole-array function.

  The region walks the 50000 rows of y2 in ten blocks of 5000 rows. At each block it reads the block of y2 and the four
  statistics rows (mean, variance, scale, shift: each a whole [1, 100] array, the same at every block) and writes
    max (((y - μ) · rsqrt (σ + ε)) · g + β) 0
  entry by entry into the same block of the output. An entry of the output depends on the same entry of y2 and on column
  j of each row only, so block t of the output is block t of ONE function of the whole arrays, GIN.bnReluD; the ten
  blocks are disjoint and fill the array (row r lies in block r / 5000), hence the output array after the region is that
  function of the arrays the region found.
-/
import proofs.«403201_j40475771797954_1_alg».proof.Proof.KFrameA
import proofs.«403201_j40475771797954_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionBnRelu5

open Cert.KernelIdeal Cert.KernelIdeal.Gen Idealize.ShloMosaic Idealize.ShloMosaic.TcCoe Idealize.ShloMosaic.ValueIdx
open Idealize.ShloMosaic.Pipeline (Dat)

/-! ## One entry of a block -/

/-- The block's arithmetic at entry (p, q): the shape casts are identities, a [1, 100] row broadcast over the 5000 rows
    reads its column q, and what is left is the batch-normalisation-and-ramp of the entry by column q of the four rows.
    The first argument is the VARIANCE row and the third the MEAN row. -/
theorem pay_ix (var : FVec Ideal S1x100 .f32) (y : FVec Ideal S5000x100 .f32) (mu g be : FVec Ideal S1x100 .f32)
    (p : Fin 5000) (q : Fin 100) :
    k5_pay1 (F := Ideal) var y mu g be (ix2 p q)
      = GIN.bnAct (y (ix2 p q)) (mu (ix2 0 q)) (var (ix2 0 q)) (g (ix2 0 q)) (be (ix2 0 q)) := by
  unfold k5_pay1 GIN.bnAct
  simp only [shapeCast_self, maximumf_apply, addf_apply, mulf_apply, subf_apply, broadcast_apply, broadcastTo_1b_ab_apply]
  rfl

/-- The same at any index of the block, the column being the index's second coordinate. -/
theorem pay_at (var : FVec Ideal S1x100 .f32) (y : FVec Ideal S5000x100 .f32) (mu g be : FVec Ideal S1x100 .f32)
    (j : S5000x100.Idx) :
    k5_pay1 (F := Ideal) var y mu g be j
      = GIN.bnAct (y j) (mu (ix2 0 (j 1))) (var (ix2 0 (j 1))) (g (ix2 0 (j 1))) (be (ix2 0 (j 1))) := by
  obtain ⟨p, q, rfl⟩ : ∃ (p : Fin 5000) (q : Fin 100), j = ix2 p q := ⟨j 0, j 1, eq_ix2 j⟩
  exact pay_ix var y mu g be p q

/-! ## Where the blocks sit -/

theorem hz : (![0, 0] : Fin 2 → Nat) = fun _ => 0 := funext fun a => by fin_cases a <;> rfl

/-- The block index of every window at every one of the ten points: the y2 window and the output window are at block
    (t, 0), the four rows at block (0, 0). -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

section Region

variable (V : (c : Dev nD) → (b : Ref sig .tc) → Buf (Elt Ideal) ((c : Thread nD τ).loc b))

/-- The output array as one function of the arrays the region finds: y2, then the mean, variance, scale and shift rows. -/
abbrev whole (c : Dev nD) : FVec Ideal S50000x100 .f32 :=
  GIN.bnReluD (V c (Pipeline.arrRef spec5 0)) (V c (Pipeline.arrRef spec5 1)) (V c (Pipeline.arrRef spec5 2))
    (V c (Pipeline.arrRef spec5 3)) (V c (Pipeline.arrRef spec5 4))

/-- Entry j of the y2 block at point t is the entry of y2 that entry j of the output block at t sits over: both blocks
    are rows 5000·t … 5000·t + 4999, all 100 columns. -/
theorem read_y (c : Dev nD) (t : Fin cfg5.N) (j : S5000x100.Idx) :
    (iblk5 V c 0 t : Vec Ideal S5000x100 .f32) j
      = (V c (Pipeline.arrRef spec5 0) : S50000x100.Idx → EReal) (((cfg5.win 5).blk t).view.emb j) := by
  obtain ⟨e00, e01, -, -, -, -, -, -, -, -, e50, e51⟩ := idx_facts t
  show (V c (Pipeline.arrRef spec5 0) : S50000x100.Idx → EReal) (((cfg5.win 0).blk t).view.emb j) = _
  refine congrArg _ (funext fun a => Fin.ext ?_)
  match a with
  | ⟨0, _⟩ => show win5_0.index t (0 : Fin 2) * 5000 + 1 * (j 0).val = win5_5.index t (0 : Fin 2) * 5000 + 1 * (j 0).val; omega
  | ⟨1, _⟩ => show win5_0.index t (1 : Fin 2) * 100 + 1 * (j 1).val = win5_5.index t (1 : Fin 2) * 100 + 1 * (j 1).val; omega

/-- Column (j 1) of the mean row, read through the row's window at point t, is the row's entry at the column the output
    block's entry j sits over: the row's one block is the whole row, at every point. -/
theorem read_row1 (c : Dev nD) (t : Fin cfg5.N) (j : S5000x100.Idx) :
    (iblk5 V c 1 t : Vec Ideal S1x100 .f32) (ix2 0 (j 1))
      = (V c (Pipeline.arrRef spec5 1) : S1x100.Idx → EReal) (ix2 0 ((((cfg5.win 5).blk t).view.emb j) 1)) := by
  obtain ⟨-, -, e10, e11, -, -, -, -, -, -, e50, e51⟩ := idx_facts t
  show (V c (Pipeline.arrRef spec5 1) : S1x100.Idx → EReal) (((cfg5.win 1).blk t).view.emb (ix2 0 (j 1))) = _
  refine congrArg _ (funext fun a => Fin.ext ?_)
  match a with
  | ⟨0, _⟩ => show win5_1.index t (0 : Fin 2) * 1 + 1 * 0 = 0; omega
  | ⟨1, _⟩ => show win5_1.index t (1 : Fin 2) * 100 + 1 * (j 1).val = win5_5.index t (1 : Fin 2) * 100 + 1 * (j 1).val; omega

/-- The same for the variance row. -/
theorem read_row2 (c : Dev nD) (t : Fin cfg5.N) (j : S5000x100.Idx) :
    (iblk5 V c 2 t : Vec Ideal S1x100 .f32) (ix2 0 (j 1))
      = (V c (Pipeline.arrRef spec5 2) : S1x100.Idx → EReal) (ix2 0 ((((cfg5.win 5).blk t).view.emb j) 1)) := by
  obtain ⟨-, -, -, -, e20, e21, -, -, -, -, e50, e51⟩ := idx_facts t
  show (V c (Pipeline.arrRef spec5 2) : S1x100.Idx → EReal) (((cfg5.win 2).blk t).view.emb (ix2 0 (j 1))) = _
  refine congrArg _ (funext fun a => Fin.ext ?_)
  match a with
  | ⟨0, _⟩ => show win5_2.index t (0 : Fin 2) * 1 + 1 * 0 = 0; omega
  | ⟨1, _⟩ => show win5_2.index t (1 : Fin 2) * 100 + 1 * (j 1).val = win5_5.index t (1 : Fin 2) * 100 + 1 * (j 1).val; omega

/-- The same for the scale row. -/
theorem read_row3 (c : Dev nD) (t : Fin cfg5.N) (j : S5000x100.Idx) :
    (iblk5 V c 3 t : Vec Ideal S1x100 .f32) (ix2 0 (j 1))
      = (V c (Pipeline.arrRef spec5 3) : S1x100.Idx → EReal) (ix2 0 ((((cfg5.win 5).blk t).view.emb j) 1)) := by
  obtain ⟨-, -, -, -, -, -, e30, e31, -, -, e50, e51⟩ := idx_facts t
  show (V c (Pipeline.arrRef spec5 3) : S1x100.Idx → EReal) (((cfg5.win 3).blk t).view.emb (ix2 0 (j 1))) = _
  refine congrArg _ (funext fun a => Fin.ext ?_)
  match a with
  | ⟨0, _⟩ => show win5_3.index t (0 : Fin 2) * 1 + 1 * 0 = 0; omega
  | ⟨1, _⟩ => show win5_3.index t (1 : Fin 2) * 100 + 1 * (j 1).val = win5_5.index t (1 : Fin 2) * 100 + 1 * (j 1).val; omega

/-- The same for the shift row. -/
theorem read_row4 (c : Dev nD) (t : Fin cfg5.N) (j : S5000x100.Idx) :
    (iblk5 V c 4 t : Vec Ideal S1x100 .f32) (ix2 0 (j 1))
      = (V c (Pipeline.arrRef spec5 4) : S1x100.Idx → EReal) (ix2 0 ((((cfg5.win 5).blk t).view.emb j) 1)) := by
  obtain ⟨-, -, -, -, -, -, -, -, e40, e41, e50, e51⟩ := idx_facts t
  show (V c (Pipeline.arrRef spec5 4) : S1x100.Idx → EReal) (((cfg5.win 4).blk t).view.emb (ix2 0 (j 1))) = _
  refine congrArg _ (funext fun a => Fin.ext ?_)
  match a with
  | ⟨0, _⟩ => show win5_4.index t (0 : Fin 2) * 1 + 1 * 0 = 0; omega
  | ⟨1, _⟩ => show win5_4.index t (1 : Fin 2) * 100 + 1 * (j 1).val = win5_5.index t (1 : Fin 2) * 100 + 1 * (j 1).val; omega

/-- What point t writes back is block t of the whole-array function. -/
theorem flushed_eq (c : Dev nD) (t : Fin cfg5.N) :
    (dat5 (F := Ideal) V c).flushed 5 t = ((cfg5.win 5).blk t).view.read (Elt Ideal) (whole V c) := by
  show (cfg5.win 5).cut (grid5.coords t) ((dat5 (F := Ideal) V c).after 5 t) = _
  rw [after5_5]
  unfold out5_5
  rw [View.canon_unit_zero hz]
  simp only [View.ld_unit_zero (S := S5000x100) hz, View.ld_unit_zero (S := S1x100) hz]
  funext j
  show k5_pay1 (F := Ideal) (iblk5 V c 2 t) (iblk5 V c 0 t) (iblk5 V c 1 t) (iblk5 V c 3 t) (iblk5 V c 4 t) j
    = whole V c (((cfg5.win 5).blk t).view.emb j)
  refine (pay_at (iblk5 V c 2 t) (iblk5 V c 0 t) (iblk5 V c 1 t) (iblk5 V c 3 t) (iblk5 V c 4 t) j).trans ?_
  rw [read_y V c t j, read_row1 V c t j, read_row2 V c t j, read_row3 V c t j, read_row4 V c t j]
  rfl

/-- An index of the array is in point t's block iff each coordinate is in the block's range on its axis. -/
theorem mem_blk (t : Fin cfg5.N) (i : S50000x100.Idx) :
    i ∈ ((cfg5.win 5).blk t).view.set ↔ ∀ a : Fin 2, win5_5.index t a * S5000x100.size a ≤ (i a).val ∧ (i a).val < win5_5.index t a * S5000x100.size a + S5000x100.size a := by
  show i ∈ ((View.whole main_v229).slice (win5_5.rect t)).set ↔ _
  rw [View.set_slice_whole, Rect.mem_set_unit]
  exact Iff.rfl

/-- Every entry of the array is written: row r lies in the block of point r / 5000. -/
theorem cover (i : S50000x100.Idx) :
    ∃ t : Fin cfg5.N, (cfg5.win 5).flush t = true ∧ i ∈ ((cfg5.win 5).blk t).view.set := by
  have hi0 : (i 0).val < 50000 := (i 0).isLt
  have hi1 : (i 1).val < 100 := (i 1).isLt
  have hN : cfg5.N = 10 := N_5
  obtain ⟨t, ht⟩ : ∃ t : Fin cfg5.N, t.val = (i 0).val / 5000 := ⟨⟨(i 0).val / 5000, by rw [hN]; omega⟩, rfl⟩
  obtain ⟨-, -, -, -, -, -, -, -, -, -, e50, e51⟩ := idx_facts t
  refine ⟨t, flush5_5 t, ?_⟩
  rw [mem_blk]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 100 ≤ (i 1).val ∧ (i 1).val < win5_5.index t (1 : Fin 2) * 100 + 100; omega

/-- The output array after the region: batch normalisation and ramp of y2 by the four rows, entry by entry. -/
theorem out (c : Dev nD) :
    (dat5 (F := Ideal) V c).arrAt 5 cfg5.N
      = GIN.bnReluD (V c (Pipeline.arrRef spec5 0)) (V c (Pipeline.arrRef spec5 1)) (V c (Pipeline.arrRef spec5 2))
          (V c (Pipeline.arrRef spec5 3)) (V c (Pipeline.arrRef spec5 4)) :=
  (dat5 (F := Ideal) V c).arrAt_eq_of_cover 5 (whole V c) (fun t _ => flushed_eq V c t) cover

end Region

end Cert.KernelIdeal.RegionBnRelu5

end
-- ==== Proof.KAggOf1.lean ====
/-
  The graph half of layer 1 on the kernel's side, as a fact about the host stretch alone. Between region 2's exit (the
  layer-0 output h is in main_v189) and region 3's entry the host computes, from h, the edge features e (main_v145),
  the edge ends src (main_v147) and dst (main_v149) and the stacked parameters eps, W1, b1 (main_arg6, main_arg7,
  main_arg8):

    hh = (1 + eps[1]) · h + Σ_{edges k with dst k = row} (h[src k] + e k)        into main_v206,
    W1[1] as a [100, 200] matrix                                                  into main_v208,
    b1[1] as a [1, 200] row                                                       into main_v209.

  Each is read off the stretch's operations in order, from ANY contents `V` of the buffers at its start: the result
  buffer holds its operation's function of the operands' buffers, and an operand either is the result of an earlier
  operation of the stretch or is untouched by it and so still holds what `V` gives it. The composed terms are the
  specification's `GIN.agg`, `GIN.w1Of`, `GIN.rowHOf` letter for letter, so nothing is computed: the gather and the
  scatter-add stay closed.
-/
import proofs.«403201_j40475771797954_1_alg».proof.Proof.Gen.KernelIdeal.Launch
import proofs.«403201_j40475771797954_1_alg».proof.Proof.SpecGraph
import Idealize.ShloMosaic.Lib.StableHlo.Run

set_option maxRecDepth 16384

noncomputable section

namespace Cert.KernelIdeal.Agg1

open Cert.KernelIdeal Cert.KernelIdeal.Gen
open Idealize.ShloMosaic Idealize.ShloMosaic.TcCoe

/-- The aggregated features: `(1 + eps[1]) · h + scatter-add over dst of (h[src] + e)`. The index rows are used three
    times and h twice, so the stretch is read in one pass. -/
theorem hh_of (V : Valuation τ sig (Elt Ideal)) :
    StableHlo.after (hostOps3 (F := Ideal)) V (Proc.devRef .tc main_v206)
      = GIN.agg (GIN.epsOf (V (Proc.devRef .tc main_arg6)) 1 (by decide)) (V (Proc.devRef .tc main_v189))
          (V (Proc.devRef .tc main_v145)) (V (Proc.devRef .tc main_v147)) (V (Proc.devRef .tc main_v149)) := by
  after_results_simp
  rfl

/-- The layer's first weight matrix: slice 1 of the stack, its unit axis dropped. -/
theorem w1_of (V : Valuation τ sig (Elt Ideal)) :
    StableHlo.after (hostOps3 (F := Ideal)) V (Proc.devRef .tc main_v208)
      = GIN.w1Of (V (Proc.devRef .tc main_arg7)) 1 (by decide) := by
  after_results
  rfl

/-- The layer's first bias: row 1 of the stack, kept as a row. -/
theorem b1_of (V : Valuation τ sig (Elt Ideal)) :
    StableHlo.after (hostOps3 (F := Ideal)) V (Proc.devRef .tc main_v209)
      = GIN.rowHOf (V (Proc.devRef .tc main_arg8)) 1 (by decide) := by
  after_results
  rfl

end Cert.KernelIdeal.Agg1

end
-- ==== Proof.KAgg1.lean ====
/-
  The graph half of layer 1 at its place in the kernel's run: region 3 is entered (`W11`) with

    hh = (1 + eps[1]) · h + Σ_{edges k with dst k = row} (h[src k] + e k)        in main_v206,
    W1[1] as a [100, 200] matrix                                                  in main_v208,
    b1[1] as a [1, 200] row                                                       in main_v209,

  each a function of what region 2's exit (`W10`) holds in h (main_v189), e (main_v145), src (main_v147), dst
  (main_v149) and the stacked parameters (main_arg6, main_arg7, main_arg8): the entry contents are the host stretch
  run from the exit contents, and the stretch was read from any start.
-/
import proofs.«403201_j40475771797954_1_alg».proof.Proof.KFrameB
import proofs.«403201_j40475771797954_1_alg».proof.Proof.KAggOf1

set_option maxRecDepth 16384

noncomputable section

namespace Cert.KernelIdeal.Agg1

open Cert.KernelIdeal Cert.KernelIdeal.Gen
open Idealize.ShloMosaic Idealize.ShloMosaic.TcCoe

variable (m : (ℓ : Loc nD τ sig) → Buf (Elt Ideal) ℓ) (ρ : Dev nD → PrngReg)

theorem hh_eq (c : Dev nD) :
    W11 m ρ c (Proc.devRef .tc main_v206)
      = GIN.agg (GIN.epsOf (W10 m ρ c (Proc.devRef .tc main_arg6)) 1 (by decide)) (W10 m ρ c (Proc.devRef .tc main_v189))
          (W10 m ρ c (Proc.devRef .tc main_v145)) (W10 m ρ c (Proc.devRef .tc main_v147))
          (W10 m ρ c (Proc.devRef .tc main_v149)) :=
  hh_of (W10 m ρ c)

theorem w1_eq (c : Dev nD) :
    W11 m ρ c (Proc.devRef .tc main_v208) = GIN.w1Of (W10 m ρ c (Proc.devRef .tc main_arg7)) 1 (by decide) :=
  w1_of (W10 m ρ c)

theorem b1_eq (c : Dev nD) :
    W11 m ρ c (Proc.devRef .tc main_v209) = GIN.rowHOf (W10 m ρ c (Proc.devRef .tc main_arg8)) 1 (by decide) :=
  b1_of (W10 m ρ c)

end Cert.KernelIdeal.Agg1

end
-- ==== Proof.KStatsOps1.lean ====
/-
  Layer 1's two host stretches that follow its first and its second matrix product, read at ANY contents V of the
  TensorCore's buffers when the stretch begins.

  After the first product y1 the host forms, from y1 alone, the row of column means and the row of column variances, and
  cuts layer 1's rows of the stacked normalisation parameters, its second weight matrix and its second bias row out of
  the arguments; after the second product y2 the same two rows of y2 and the last two parameter rows. Each result buffer
  holds the composed term of exactly the operations that lead to it, which is the neutral specification's function of the
  stretch's inputs; the products themselves are not written by the stretch.
-/
import proofs.«403201_j40475771797954_1_alg».proof.Proof.Gen.KernelIdeal.Launch
import proofs.«403201_j40475771797954_1_alg».proof.Proof.SpecStats
import Idealize.ShloMosaic.Lib.StableHlo.Run

set_option maxRecDepth 16384

noncomputable section

namespace Cert.KernelIdeal.Stats1

open Cert.KernelIdeal Cert.KernelIdeal.Gen
open Idealize.ShloMosaic Idealize.ShloMosaic.StableHlo Idealize.SL.Sem

variable (V : Valuation τ sig (Elt Ideal))

/-! ## After the first product: y1 is main_v210 -/

/-- The mean row of y1: the column sums over the splat of 50000. -/
theorem mean1_of :
    StableHlo.after (hostOps4_2 (F := Ideal)) (StableHlo.after hostOps4_1 (StableHlo.after hostOps4 V)) (Proc.devRef .tc main_v214)
      = GIN.meanRowH (V (Proc.devRef .tc main_v210)) := by
  after_results
  rfl

set_option maxHeartbeats 1000000 in
/-- The variance row of y1: the variance function's operations, its count read from the integer 0 the stretch before
    it leaves. -/
theorem var1_of :
    StableHlo.after (hostOps4_2 (F := Ideal)) (StableHlo.after hostOps4_1 (StableHlo.after hostOps4 V)) (Proc.devRef .tc main_v215)
      = GIN.varRowH (V (Proc.devRef .tc main_v210)) := by
  after_results_simp
  rfl

/-- Layer 1's row of the first normalisation's scale. -/
theorem g1_of :
    StableHlo.after (hostOps4_2 (F := Ideal)) (StableHlo.after hostOps4_1 (StableHlo.after hostOps4 V)) (Proc.devRef .tc main_v216)
      = GIN.rowHOf (V (Proc.devRef .tc main_arg9)) 1 (by decide) := by
  after_results
  rfl

/-- Layer 1's row of the first normalisation's shift. -/
theorem be1_of :
    StableHlo.after (hostOps4_2 (F := Ideal)) (StableHlo.after hostOps4_1 (StableHlo.after hostOps4 V)) (Proc.devRef .tc main_v217)
      = GIN.rowHOf (V (Proc.devRef .tc main_arg10)) 1 (by decide) := by
  after_results
  rfl

/-- Layer 1's second weight matrix. -/
theorem w2_of :
    StableHlo.after (hostOps4_2 (F := Ideal)) (StableHlo.after hostOps4_1 (StableHlo.after hostOps4 V)) (Proc.devRef .tc main_v219)
      = GIN.w2Of (V (Proc.devRef .tc main_arg11)) 1 (by decide) := by
  after_results
  rfl

/-- Layer 1's second bias row. -/
theorem b2_of :
    StableHlo.after (hostOps4_2 (F := Ideal)) (StableHlo.after hostOps4_1 (StableHlo.after hostOps4 V)) (Proc.devRef .tc main_v220)
      = GIN.rowDOf (V (Proc.devRef .tc main_arg12)) 1 (by decide) := by
  after_results
  rfl

/-- The stretch reads y1 and does not write it. -/
theorem y1_keep_of :
    StableHlo.after (hostOps4_2 (F := Ideal)) (StableHlo.after hostOps4_1 (StableHlo.after hostOps4 V)) (Proc.devRef .tc main_v210)
      = V (Proc.devRef .tc main_v210) := by
  after_results

/-! ## After the second product: y2 is main_v221 -/

/-- The mean row of y2. -/
theorem mean2_of :
    StableHlo.after (hostOps5_2 (F := Ideal)) (StableHlo.after hostOps5_1 (StableHlo.after hostOps5 V)) (Proc.devRef .tc main_v225)
      = GIN.meanRowD (V (Proc.devRef .tc main_v221)) := by
  after_results
  rfl

set_option maxHeartbeats 1000000 in
/-- The variance row of y2. -/
theorem var2_of :
    StableHlo.after (hostOps5_2 (F := Ideal)) (StableHlo.after hostOps5_1 (StableHlo.after hostOps5 V)) (Proc.devRef .tc main_v226)
      = GIN.varRowD (V (Proc.devRef .tc main_v221)) := by
  after_results_simp
  rfl

/-- Layer 1's row of the second normalisation's scale. -/
theorem go_of :
    StableHlo.after (hostOps5_2 (F := Ideal)) (StableHlo.after hostOps5_1 (StableHlo.after hostOps5 V)) (Proc.devRef .tc main_v227)
      = GIN.rowDOf (V (Proc.devRef .tc main_arg13)) 1 (by decide) := by
  after_results
  rfl

/-- Layer 1's row of the second normalisation's shift. -/
theorem bo_of :
    StableHlo.after (hostOps5_2 (F := Ideal)) (StableHlo.after hostOps5_1 (StableHlo.after hostOps5 V)) (Proc.devRef .tc main_v228)
      = GIN.rowDOf (V (Proc.devRef .tc main_arg14)) 1 (by decide) := by
  after_results
  rfl

/-- The stretch reads y2 and does not write it. -/
theorem y2_keep_of :
    StableHlo.after (hostOps5_2 (F := Ideal)) (StableHlo.after hostOps5_1 (StableHlo.after hostOps5 V)) (Proc.devRef .tc main_v221)
      = V (Proc.devRef .tc main_v221) := by
  after_results

end Cert.KernelIdeal.Stats1

end
-- ==== Proof.KStats1.lean ====
/-
  Layer 1's column statistics and parameter rows, at the boundaries of the kernel's run.

  The first product y1 is what the first dense step leaves at its exit; the three host stretches that follow it end at
  the entry of the second dense step, where the mean row and the variance row of y1, layer 1's rows of the first
  normalisation's scale and shift, its second weight matrix and its second bias row stand ready, and y1 itself is as it
  was. The same holds one step later for the second product y2 and the entry of the third dense step. Each statement is
  the stretch's own read, taken at the contents the step before it leaves.
-/
import proofs.«403201_j40475771797954_1_alg».proof.Proof.KFrameB
import proofs.«403201_j40475771797954_1_alg».proof.Proof.KStatsOps1

set_option maxRecDepth 16384

noncomputable section

namespace Cert.KernelIdeal.Stats1

open Cert.KernelIdeal Cert.KernelIdeal.Gen
open Idealize.ShloMosaic Idealize.SL.Sem

variable (m : (ℓ : Loc nD τ sig) → Buf (Elt Ideal) ℓ) (ρ : Dev nD → PrngReg) (c : Dev nD)

/-! ## From the first dense step's exit to the second's entry -/

theorem mean1_eq : W15 m ρ c (Proc.devRef .tc main_v214) = GIN.meanRowH (W12 m ρ c (Proc.devRef .tc main_v210)) :=
  mean1_of (W12 m ρ c)

theorem var1_eq : W15 m ρ c (Proc.devRef .tc main_v215) = GIN.varRowH (W12 m ρ c (Proc.devRef .tc main_v210)) :=
  var1_of (W12 m ρ c)

theorem g1_eq : W15 m ρ c (Proc.devRef .tc main_v216) = GIN.rowHOf (W12 m ρ c (Proc.devRef .tc main_arg9)) 1 (by decide) :=
  g1_of (W12 m ρ c)

theorem be1_eq : W15 m ρ c (Proc.devRef .tc main_v217) = GIN.rowHOf (W12 m ρ c (Proc.devRef .tc main_arg10)) 1 (by decide) :=
  be1_of (W12 m ρ c)

theorem w2_eq : W15 m ρ c (Proc.devRef .tc main_v219) = GIN.w2Of (W12 m ρ c (Proc.devRef .tc main_arg11)) 1 (by decide) :=
  w2_of (W12 m ρ c)

theorem b2_eq : W15 m ρ c (Proc.devRef .tc main_v220) = GIN.rowDOf (W12 m ρ c (Proc.devRef .tc main_arg12)) 1 (by decide) :=
  b2_of (W12 m ρ c)

theorem y1_keep : W15 m ρ c (Proc.devRef .tc main_v210) = W12 m ρ c (Proc.devRef .tc main_v210) :=
  y1_keep_of (W12 m ρ c)

/-! ## From the second dense step's exit to the third's entry -/

theorem mean2_eq : W19 m ρ c (Proc.devRef .tc main_v225) = GIN.meanRowD (W16 m ρ c (Proc.devRef .tc main_v221)) :=
  mean2_of (W16 m ρ c)

theorem var2_eq : W19 m ρ c (Proc.devRef .tc main_v226) = GIN.varRowD (W16 m ρ c (Proc.devRef .tc main_v221)) :=
  var2_of (W16 m ρ c)

theorem go_eq : W19 m ρ c (Proc.devRef .tc main_v227) = GIN.rowDOf (W16 m ρ c (Proc.devRef .tc main_arg13)) 1 (by decide) :=
  go_of (W16 m ρ c)

theorem bo_eq : W19 m ρ c (Proc.devRef .tc main_v228) = GIN.rowDOf (W16 m ρ c (Proc.devRef .tc main_arg14)) 1 (by decide) :=
  bo_of (W16 m ρ c)

theorem y2_keep : W19 m ρ c (Proc.devRef .tc main_v221) = W16 m ρ c (Proc.devRef .tc main_v221) :=
  y2_keep_of (W16 m ρ c)

end Cert.KernelIdeal.Stats1

end
-- ==== Proof.KLayer1.lean ====
/-
  The kernel's second GIN layer, read off the boundaries of its run.

  Between the exit of the first layer's last dense step and the exit of this layer's last dense step the run passes
  three dense steps, each entered after a stretch of host operations:
    hh = (1 + eps[1]) · h + Σ over the edges into a node of (h[src] + e)     at the first step's entry,
    y1 = hh · W1[1] + b1[1]                                                    at the first step's exit,
    the mean row and the variance row of y1                                    at the second step's entry,
    y2 = max (normalise y1) 0 · W2[1] + b2[1]                                  at the second step's exit,
    the mean row and the variance row of y2                                    at the third step's entry,
    h' = max (normalise y2) 0                                                  at the third step's exit.
  A step's exit holds the step's function of what its entry holds in the step's input arrays; a stretch's results
  are functions of what the exit before it holds; the edge features, the edge ends and the stacked parameters are as
  the first stretch of the program left them, the parameters being the program's arguments. Substituting one
  equation into the next, these are the eight step equations of the specification's layer, at layer 1's slices of the
  arguments, with h what the first layer's last step left.
-/
import proofs.«403201_j40475771797954_1_alg».proof.Proof.KFrameB
import proofs.«403201_j40475771797954_1_alg».proof.Proof.Model
import proofs.«403201_j40475771797954_1_alg».proof.Proof.RegionLin3
import proofs.«403201_j40475771797954_1_alg».proof.Proof.RegionBnLin4
import proofs.«403201_j40475771797954_1_alg».proof.Proof.RegionBnRelu5
import proofs.«403201_j40475771797954_1_alg».proof.Proof.KInit
import proofs.«403201_j40475771797954_1_alg».proof.Proof.KAgg1
import proofs.«403201_j40475771797954_1_alg».proof.Proof.KStats1
import proofs.«403201_j40475771797954_1_alg».proof.Proof.KKeep

set_option maxRecDepth 16384

noncomputable section

namespace Cert.KernelIdeal.Layer1

open Cert Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## The three dense steps: the exit's output array is the step's function of the entry's input arrays -/

theorem y1_exit :
    W12 m ρ c (Proc.devRef .tc main_v210)
      = GIN.linH (W11 m ρ c (Proc.devRef .tc main_v206)) (W11 m ρ c (Proc.devRef .tc main_v208))
          (W11 m ρ c (Proc.devRef .tc main_v209)) :=
  (W12_arr m ρ c 3).trans (RegionLin3.out (V11 m ρ) c)

theorem y2_exit :
    W16 m ρ c (Proc.devRef .tc main_v221)
      = GIN.bnLinD (W15 m ρ c (Proc.devRef .tc main_v210)) (W15 m ρ c (Proc.devRef .tc main_v214))
          (W15 m ρ c (Proc.devRef .tc main_v215)) (W15 m ρ c (Proc.devRef .tc main_v216))
          (W15 m ρ c (Proc.devRef .tc main_v217)) (W15 m ρ c (Proc.devRef .tc main_v219))
          (W15 m ρ c (Proc.devRef .tc main_v220)) :=
  (W16_arr m ρ c 7).trans (RegionBnLin4.out (V15 m ρ) c)

theorem h_exit :
    W20 m ρ c (Proc.devRef .tc main_v229)
      = GIN.bnReluD (W19 m ρ c (Proc.devRef .tc main_v221)) (W19 m ρ c (Proc.devRef .tc main_v225))
          (W19 m ρ c (Proc.devRef .tc main_v226)) (W19 m ρ c (Proc.devRef .tc main_v227))
          (W19 m ρ c (Proc.devRef .tc main_v228)) :=
  (W20_arr m ρ c 5).trans (RegionBnRelu5.out (V19 m ρ) c)

/-! ## The layer -/

/-- What the layer's last dense step leaves is the specification's layer 1 of what the layer before left, at the
    program's arguments. -/
theorem layer_eq :
    W20 m ρ c (Proc.devRef .tc main_v229)
      = GIN.layer (GIN.epsOf (m ((c : Thread nD τ).loc main_arg6)) 1 (by decide)) (GIN.w1Of (m ((c : Thread nD τ).loc main_arg7)) 1 (by decide))
          (GIN.rowHOf (m ((c : Thread nD τ).loc main_arg8)) 1 (by decide)) (GIN.rowHOf (m ((c : Thread nD τ).loc main_arg9)) 1 (by decide))
          (GIN.rowHOf (m ((c : Thread nD τ).loc main_arg10)) 1 (by decide)) (GIN.w2Of (m ((c : Thread nD τ).loc main_arg11)) 1 (by decide))
          (GIN.rowDOf (m ((c : Thread nD τ).loc main_arg12)) 1 (by decide)) (GIN.rowDOf (m ((c : Thread nD τ).loc main_arg13)) 1 (by decide))
          (GIN.rowDOf (m ((c : Thread nD τ).loc main_arg14)) 1 (by decide))
          (GIN.bondSum (m ((c : Thread nD τ).loc main_arg2)) (m ((c : Thread nD τ).loc main_arg5))) (GIN.srcOf (m ((c : Thread nD τ).loc main_arg1))) (GIN.dstOf (m ((c : Thread nD τ).loc main_arg1)))
          (W10 m ρ c (Proc.devRef .tc main_v189)) := by
  -- the aggregation, over the carried edge data and the arguments
  have hhh := Agg1.hh_eq m ρ c
  rw [Keep.keep_main_arg6_W10 m ρ c, Keep.keep_main_v145_W10 m ρ c, Keep.keep_main_v147_W10 m ρ c,
    Keep.keep_main_v149_W10 m ρ c, Init.arg_W1_6 m ρ c, Init.e_eq m ρ c, Init.src_eq m ρ c, Init.dst_eq m ρ c] at hhh
  -- the first dense step, at layer 1's weight matrix and bias row
  have hy1 := y1_exit m ρ c
  rw [Agg1.w1_eq m ρ c, Agg1.b1_eq m ρ c, Keep.keep_main_arg7_W10 m ρ c, Keep.keep_main_arg8_W10 m ρ c,
    Init.arg_W1_7 m ρ c, Init.arg_W1_8 m ρ c] at hy1
  -- y1's statistics, and the second dense step at its parameters
  have hmu1 := Stats1.mean1_eq m ρ c
  have hvar1 := Stats1.var1_eq m ρ c
  have hy2 := y2_exit m ρ c
  rw [Stats1.y1_keep m ρ c, Stats1.g1_eq m ρ c, Stats1.be1_eq m ρ c, Stats1.w2_eq m ρ c, Stats1.b2_eq m ρ c,
    Keep.keep_main_arg9_W12 m ρ c, Keep.keep_main_arg10_W12 m ρ c, Keep.keep_main_arg11_W12 m ρ c,
    Keep.keep_main_arg12_W12 m ρ c, Init.arg_W1_9 m ρ c, Init.arg_W1_10 m ρ c, Init.arg_W1_11 m ρ c,
    Init.arg_W1_12 m ρ c] at hy2
  -- y2's statistics, and the third dense step at its parameters
  have hmu2 := Stats1.mean2_eq m ρ c
  have hvar2 := Stats1.var2_eq m ρ c
  have hout := h_exit m ρ c
  rw [Stats1.y2_keep m ρ c, Stats1.go_eq m ρ c, Stats1.bo_eq m ρ c, Keep.keep_main_arg13_W16 m ρ c,
    Keep.keep_main_arg14_W16 m ρ c, Init.arg_W1_13 m ρ c, Init.arg_W1_14 m ρ c] at hout
  exact GIN.layer_of_steps hhh hy1 hmu1 hvar1 hy2 hmu2 hvar2 hout

end Cert.KernelIdeal.Layer1

end
-- ==== Proof.RegionLin6.lean ====
/-
  The first dense step of a layer on the kernel's side, as ONE function of whole arrays.

  The region walks the 50000 rows of the aggregated features in 10 blocks of 5000 rows. At block t it reads rows
  5000·t … 5000·t + 4999 of the features, the whole [100, 200] weight matrix and the whole [1, 200] bias row, and writes
  rows 5000·t … 5000·t + 4999 of the result: entry (p, q) of the block is row p of the feature block times column q of
  the weights, plus entry q of the bias row. A row of the result depends on the same row of the features only, so block
  t of the result is the restriction to those rows of the whole-array function hh · W1 + b1, and since every row lies
  in block (row / 5000) the ten blocks together are that function.
-/
import proofs.«403201_j40475771797954_1_alg».proof.Proof.KFrameA
import proofs.«403201_j40475771797954_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionLin6

open Cert.KernelIdeal Cert.KernelIdeal.Gen Idealize.ShloMosaic Idealize.ShloMosaic.TcCoe Idealize.SL.Sem
open Idealize.ShloMosaic.ValueIdx
open Idealize.ShloMosaic.Pipeline (Dat)

/-! ## The product's operand indices, axis by axis

The product contracts axis 1 of the left operand with axis 0 of the right one: at output entry (r, c) and contraction
position k the left operand is read at (r, k) and the right one at (k, c). -/

theorem lhs_row (i : S5000x200.Idx) (q : dot_S5000x100_S100x200_S5000x200_1_0_0_1_n_n.contr.Idx) :
    (dot_S5000x100_S100x200_S5000x200_1_0_0_1_n_n.lhsIdx i q 0).val = (i 0).val := by
  unfold DotDims.lhsIdx
  rw [dif_neg (show ¬(0 : Fin S5000x100.rank) ∈ dot_S5000x100_S100x200_S5000x200_1_0_0_1_n_n.lhsBatch by decide), dif_pos (show (0 : Fin S5000x100.rank) ∈ dot_S5000x100_S100x200_S5000x200_1_0_0_1_n_n.lhsNonContracting by decide)]
  rfl

theorem lhs_col (i : S5000x200.Idx) (q : dot_S5000x100_S100x200_S5000x200_1_0_0_1_n_n.contr.Idx) :
    (dot_S5000x100_S100x200_S5000x200_1_0_0_1_n_n.lhsIdx i q 1).val = (q ⟨0, by decide⟩).val :=
  dot_S5000x100_S100x200_S5000x200_1_0_0_1_n_n.lhsIdx_val_of_single rfl i q

theorem rhs_row (i : S5000x200.Idx) (q : dot_S5000x100_S100x200_S5000x200_1_0_0_1_n_n.contr.Idx) :
    (dot_S5000x100_S100x200_S5000x200_1_0_0_1_n_n.rhsIdx i q 0).val = (q ⟨0, by decide⟩).val :=
  dot_S5000x100_S100x200_S5000x200_1_0_0_1_n_n.rhsIdx_val_of_single rfl i q

theorem rhs_col (i : S5000x200.Idx) (q : dot_S5000x100_S100x200_S5000x200_1_0_0_1_n_n.contr.Idx) :
    (dot_S5000x100_S100x200_S5000x200_1_0_0_1_n_n.rhsIdx i q 1).val = (i 1).val := by
  unfold DotDims.rhsIdx
  rw [dif_neg (show ¬(1 : Fin S100x200.rank) ∈ dot_S5000x100_S100x200_S5000x200_1_0_0_1_n_n.rhsBatch by decide), dif_pos (show (1 : Fin S100x200.rank) ∈ dot_S5000x100_S100x200_S5000x200_1_0_0_1_n_n.rhsNonContracting by decide)]
  rfl

/-! ## The body's arithmetic at one entry of the block -/

/-- The product of a [5000, 100] block by the [100, 200] weights, accumulated into zeros, at entry (p, q): the sum over
    the 100 contracted coordinates of the products of the entries. -/
theorem matmul_at (l : FVec Ideal S5000x100 .bf16) (r : FVec Ideal S100x200 .bf16) (p : Fin 5000) (q : Fin 200) :
    matmul dot_S5000x100_S100x200_S5000x200_1_0_0_1_n_n none l r (constant (F := Ideal) S5000x200 .f32 0x00000000#32) (ix2 p q)
      = ∑ k : Fin 100, l (ix2 p k) * r (ix2 k q) := by
  simp only [matmul]
  rw [Ideal.matmul_constant_zero_apply, ← Equiv.sum_comp (contrEquiv1 dot_S5000x100_S100x200_S5000x200_1_0_0_1_n_n 100 rfl rfl).symm]
  refine Finset.sum_congr rfl fun k _ => ?_
  have hk := contrEquiv1_symm_val dot_S5000x100_S100x200_S5000x200_1_0_0_1_n_n 100 rfl rfl k
  have el : dot_S5000x100_S100x200_S5000x200_1_0_0_1_n_n.lhsIdx (ix2 p q) ((contrEquiv1 dot_S5000x100_S100x200_S5000x200_1_0_0_1_n_n 100 rfl rfl).symm k) = ix2 p k := funext fun a => Fin.ext (by
    match a with
    | ⟨0, _⟩ => exact lhs_row _ _
    | ⟨1, _⟩ => exact (lhs_col _ _).trans hk)
  have er : dot_S5000x100_S100x200_S5000x200_1_0_0_1_n_n.rhsIdx (ix2 p q) ((contrEquiv1 dot_S5000x100_S100x200_S5000x200_1_0_0_1_n_n 100 rfl rfl).symm k) = ix2 k q := funext fun a => Fin.ext (by
    match a with
    | ⟨0, _⟩ => exact (rhs_row _ _).trans hk
    | ⟨1, _⟩ => exact rhs_col _ _)
  rw [el, er]

/-- What the body stores at entry (p, q) of the block: row p of the feature block times column q of the weights, plus
    entry q of the bias row. On the extended reals the changes of float format and the shape casts to the same shape
    are the identity, and the bias row broadcast over the 5000 rows reads its entry q in every row. -/
theorem pay_at (x : Vec Ideal S5000x100 .f32) (w : Vec Ideal S100x200 .f32) (b : Vec Ideal S1x200 .f32) (p : Fin 5000) (q : Fin 200) :
    k6_pay1 (F := Ideal) x w b (ix2 p q) = (∑ k : Fin 100, x (ix2 p k) * w (ix2 k q)) + b (ix2 0 q) := by
  unfold k6_pay1
  simp only [shapeCast_self]
  rw [addf_apply, matmul_at, broadcastTo_1b_ab_apply]
  rfl

/-- One entry of a block against the whole-array function. If the feature block holds rows n·5000 … n·5000 + 4999 of
    the features, and the weight and bias blocks are the whole weight matrix and bias row, then the body's entry y of
    the block is the whole-array function's entry i, for i the entry of the result that y is: row n·5000 + (row of y),
    same column. -/
theorem block_entry (x : FVec Ideal S50000x100 .f32) (w : FVec Ideal S100x200 .f32) (b : FVec Ideal S1x200 .f32)
    (xb : Vec Ideal S5000x100 .f32) (wb : Vec Ideal S100x200 .f32) (bb : Vec Ideal S1x200 .f32)
    (y : S5000x200.Idx) (i : S50000x200.Idx) (n : Nat)
    (hx : ∀ (p : Fin 5000) (k : Fin 100) (r : Fin 50000), r.val = n * 5000 + p.val → xb (ix2 p k) = x (ix2 r k))
    (hw : wb = w) (hb : bb = b)
    (hi0 : (i 0).val = n * 5000 + (y 0).val) (hi1 : (i 1).val = (y 1).val) :
    k6_pay1 (F := Ideal) xb wb bb y = GIN.linH x w b i := by
  obtain ⟨p, q, rfl⟩ : ∃ (p : Fin 5000) (q : Fin 200), y = ix2 p q := ⟨y 0, y 1, eq_ix2 y⟩
  obtain ⟨r, c, rfl⟩ : ∃ (r : Fin 50000) (c : Fin 200), i = ix2 r c := ⟨i 0, i 1, eq_ix2 i⟩
  obtain rfl : c = q := Fin.ext hi1
  subst hw hb
  rw [pay_at]
  unfold GIN.linH
  exact congrArg (· + bb (ix2 0 c)) (Finset.sum_congr rfl fun k _ => by rw [hx p k r hi0])

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The three arrays the region reads, as it finds them, at their literal types. -/
abbrev xarr (c : Dev nD) : FVec Ideal S50000x100 .f32 := V c (Pipeline.arrRef spec6 0)
abbrev warr (c : Dev nD) : FVec Ideal S100x200 .f32 := V c (Pipeline.arrRef spec6 1)
abbrev barr (c : Dev nD) : FVec Ideal S1x200 .f32 := V c (Pipeline.arrRef spec6 2)

/-- The three blocks the body reads at point t, at their literal types. -/
abbrev xblk (c : Dev nD) (t : Fin cfg6.N) : Vec Ideal S5000x100 .f32 := iblk6 V c 0 t
abbrev wblk (c : Dev nD) (t : Fin cfg6.N) : Vec Ideal S100x200 .f32 := iblk6 V c 1 t
abbrev bblk (c : Dev nD) (t : Fin cfg6.N) : Vec Ideal S1x200 .f32 := iblk6 V c 2 t

/-- The index maps over the ten points: the feature window and the result window sit at block (t, 0), the weight and
    bias windows at block (0, 0) throughout. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The feature block at point t holds rows 5000·t … 5000·t + 4999 of the features: a block's coordinate in the array
    is the block index times the block size plus the coordinate inside the block. -/
theorem xblk_entry (c : Dev nD) (t : Fin cfg6.N) (p : Fin 5000) (k : Fin 100) (r : Fin 50000)
    (hr : r.val = t.val * 5000 + p.val) : xblk V c t (ix2 p k) = xarr V c (ix2 r k) := by
  obtain ⟨e0, e1, -⟩ := idx_facts t
  show V c (Pipeline.arrRef spec6 0) (((cfg6.win 0).blk t).view.emb (ix2 p k)) = V c (Pipeline.arrRef spec6 0) (ix2 r k)
  refine congrArg _ (funext fun a => Fin.ext ?_)
  match a with
  | ⟨0, _⟩ => show win6_0.index t (0 : Fin 2) * 5000 + 1 * p.val = r.val; omega
  | ⟨1, _⟩ => show win6_0.index t (1 : Fin 2) * 100 + 1 * k.val = k.val; omega

/-- The weight block is the whole weight matrix at every point. -/
theorem wblk_eq (c : Dev nD) (t : Fin cfg6.N) : wblk V c t = warr V c := by
  obtain ⟨-, -, e2, e3, -⟩ := idx_facts t
  funext y
  show V c (Pipeline.arrRef spec6 1) (((cfg6.win 1).blk t).view.emb y) = V c (Pipeline.arrRef spec6 1) y
  refine congrArg _ (funext fun a => Fin.ext ?_)
  match a with
  | ⟨0, _⟩ => show win6_1.index t (0 : Fin 2) * 100 + 1 * (y 0).val = (y 0).val; omega
  | ⟨1, _⟩ => show win6_1.index t (1 : Fin 2) * 200 + 1 * (y 1).val = (y 1).val; omega

/-- The bias block is the whole bias row at every point. -/
theorem bblk_eq (c : Dev nD) (t : Fin cfg6.N) : bblk V c t = barr V c := by
  obtain ⟨-, -, -, -, e4, e5, -⟩ := idx_facts t
  funext y
  show V c (Pipeline.arrRef spec6 2) (((cfg6.win 2).blk t).view.emb y) = V c (Pipeline.arrRef spec6 2) y
  refine congrArg _ (funext fun a => Fin.ext ?_)
  match a with
  | ⟨0, _⟩ => show win6_2.index t (0 : Fin 2) * 1 + 1 * (y 0).val = (y 0).val; omega
  | ⟨1, _⟩ => show win6_2.index t (1 : Fin 2) * 200 + 1 * (y 1).val = (y 1).val; omega

/-- What point t writes back is block t of the whole-array function hh · W1 + b1 of the arrays the region finds. -/
theorem flushed_eq (c : Dev nD) (t : Fin cfg6.N) :
    (dat6 (F := Ideal) V c).flushed 3 t
      = ((cfg6.win 3).blk t).view.read (Elt Ideal) (GIN.linH (xarr V c) (warr V c) (barr V c)) := by
  show (cfg6.win 3).cut (grid6.coords t) ((dat6 (F := Ideal) V c).after 3 t) = _
  rw [after6_3]
  unfold out6_3
  rw [View.canon_unit_zero hz]
  simp only [View.ld_unit_zero (S := S5000x100) hz, View.ld_unit_zero (S := S100x200) hz, View.ld_unit_zero (S := S1x200) hz]
  obtain ⟨-, -, -, -, -, -, e6, e7⟩ := idx_facts t
  funext j
  exact block_entry (xarr V c) (warr V c) (barr V c) (xblk V c t) (wblk V c t) (bblk V c t) j
    (((cfg6.win 3).blk t).view.emb j) t.val (xblk_entry V c t) (wblk_eq V c t) (bblk_eq V c t)
    (by show win6_3.index t (0 : Fin 2) * 5000 + 1 * (j 0).val = t.val * 5000 + (j 0).val; omega)
    (by show win6_3.index t (1 : Fin 2) * 200 + 1 * (j 1).val = (j 1).val; omega)

/-- An entry of the result array is in point t's block iff each coordinate is in the block's range on its axis. -/
theorem mem_blk (t : Fin cfg6.N) (i : S50000x200.Idx) :
    i ∈ ((cfg6.win 3).blk t).view.set ↔ ∀ a : Fin 2, win6_3.index t a * S5000x200.size a ≤ (i a).val ∧ (i a).val < win6_3.index t a * S5000x200.size a + S5000x200.size a := by
  show i ∈ ((View.whole main_v250).slice (win6_3.rect t)).set ↔ _
  rw [View.set_slice_whole, Rect.mem_set_unit]
  exact Iff.rfl

/-- Every entry of the result array is written back by some point: row r by point r / 5000. -/
theorem covered (i : S50000x200.Idx) :
    ∃ t : Fin cfg6.N, (cfg6.win 3).flush t = true ∧ i ∈ ((cfg6.win 3).blk t).view.set := by
  have hi0 : (i 0).val < 50000 := (i 0).isLt
  have hi1 : (i 1).val < 200 := (i 1).isLt
  obtain ⟨t, ht⟩ : ∃ t : Fin cfg6.N, t.val = (i 0).val / 5000 :=
    ⟨⟨(i 0).val / 5000, by rw [show cfg6.N = 10 from N_6]; omega⟩, rfl⟩
  obtain ⟨-, -, -, -, -, -, e6, e7⟩ := idx_facts t
  refine ⟨t, flush6_3 t, ?_⟩
  rw [mem_blk]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 200 ≤ (i 1).val ∧ (i 1).val < win6_3.index t (1 : Fin 2) * 200 + 200; omega

/-- THE RESULT ARRAY after the region: hh · W1 + b1 of the three arrays the region finds, whatever they hold. -/
theorem out (c : Dev nD) :
    (dat6 (F := Ideal) V c).arrAt 3 cfg6.N
      = GIN.linH (V c (Pipeline.arrRef spec6 0)) (V c (Pipeline.arrRef spec6 1)) (V c (Pipeline.arrRef spec6 2)) :=
  (dat6 (F := Ideal) V c).arrAt_eq_of_cover 3 (GIN.linH (xarr V c) (warr V c) (barr V c)) (fun t _ => flushed_eq V c t) covered

end Cert.KernelIdeal.RegionLin6

end
-- ==== Proof.RegionBnLin7.lean ====
/-
  The kernel's second dense step of a layer as ONE whole-array function.

  The region computes, 5000 rows at a time, y2 = z · W2 + b2 where z = max (((y1 - μ) · rsqrt (σ + ε)) · g + β) 0, with the
  row statistics μ, σ and the affine rows g, β, b2 held as [1, K] rows and W2 whole. A row of the result depends on the
  same row of y1 only, so the ten blocks of 5000 rows are the restrictions of one function of the whole arrays:
  `GIN.bnLinD`. Read in four steps: the block's arithmetic at one entry (the product into the zero accumulator is the sum
  over the 200 contracted columns; a broadcast row reads the row's entry; a change of float format is the identity on
  the extended reals); each input block read off its array (block t of y1 is rows 5000 t … 5000 t + 4999, the row and
  weight windows are their whole arrays at every point); what point t writes back is block t of the whole-array
  function; row r is covered by point r / 5000.
-/
import proofs.«403201_j40475771797954_1_alg».proof.Proof.KFrameA
import proofs.«403201_j40475771797954_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionBnLin7

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The block's arithmetic at one entry -/

/-- The product's left operand at output entry j and contraction position k sits in row j₀ … -/
theorem lhs_ax0 (j : S5000x100.Idx) (k : dot_S5000x200_S200x100_S5000x100_1_0_0_1_n_n.contr.Idx) :
    (dot_S5000x200_S200x100_S5000x100_1_0_0_1_n_n.lhsIdx j k 0 : ℕ) = j 0 := by
  simp [DotDims.lhsIdx, dot_S5000x200_S200x100_S5000x100_1_0_0_1_n_n]; rfl
/-- … and column k; -/
theorem lhs_ax1 (j : S5000x100.Idx) (k : dot_S5000x200_S200x100_S5000x100_1_0_0_1_n_n.contr.Idx) :
    (dot_S5000x200_S200x100_S5000x100_1_0_0_1_n_n.lhsIdx j k 1 : ℕ) = k ⟨0, by decide⟩ := by
  simp [DotDims.lhsIdx, dot_S5000x200_S200x100_S5000x100_1_0_0_1_n_n]; rfl
/-- the right operand in row k … -/
theorem rhs_ax0 (j : S5000x100.Idx) (k : dot_S5000x200_S200x100_S5000x100_1_0_0_1_n_n.contr.Idx) :
    (dot_S5000x200_S200x100_S5000x100_1_0_0_1_n_n.rhsIdx j k 0 : ℕ) = k ⟨0, by decide⟩ := by
  simp [DotDims.rhsIdx, dot_S5000x200_S200x100_S5000x100_1_0_0_1_n_n]; rfl
/-- … and column j₁. -/
theorem rhs_ax1 (j : S5000x100.Idx) (k : dot_S5000x200_S200x100_S5000x100_1_0_0_1_n_n.contr.Idx) :
    (dot_S5000x200_S200x100_S5000x100_1_0_0_1_n_n.rhsIdx j k 1 : ℕ) = j 1 := by
  simp [DotDims.rhsIdx, dot_S5000x200_S200x100_S5000x100_1_0_0_1_n_n]; rfl

/-- The block product into the zero accumulator, at (p, q): the sum over the 200 contracted columns of l(p, k) · r(k, q). -/
theorem matmul_at (l : FVec Ideal S5000x200 .bf16) (r : FVec Ideal S200x100 .bf16) (p : Fin 5000) (q : Fin 100) :
    matmul dot_S5000x200_S200x100_S5000x100_1_0_0_1_n_n none l r (constant (F := Ideal) S5000x100 .f32 0x00000000#32) (ix2 p q)
      = ∑ k : Fin 200, l (ix2 p k) * r (ix2 k q) := by
  simp only [matmul]
  rw [Ideal.matmul_constant_zero_apply,
    ← Equiv.sum_comp (contrEquiv1 dot_S5000x200_S200x100_S5000x100_1_0_0_1_n_n 200 rfl rfl).symm]
  refine Finset.sum_congr rfl fun k _ => ?_
  have hk := contrEquiv1_symm_val dot_S5000x200_S200x100_S5000x100_1_0_0_1_n_n 200 rfl rfl k
  congr 1
  · refine congrArg l (funext fun a => Fin.ext ?_)
    match a with
    | ⟨0, _⟩ => exact lhs_ax0 _ _
    | ⟨1, _⟩ => exact (lhs_ax1 _ _).trans hk
  · refine congrArg r (funext fun a => Fin.ext ?_)
    match a with
    | ⟨0, _⟩ => exact (rhs_ax0 _ _).trans hk
    | ⟨1, _⟩ => exact rhs_ax1 _ _

/-- The body's payload at entry (p, q) of the block, from its loads: v0 the variance row, v5 the block of y1, v7 the mean
    row, v13 and v17 the affine rows, v24 the weights, v28 the bias row. -/
theorem pay_apply (v0 : Vec Ideal S1x200 .f32) (v5 : Vec Ideal S5000x200 .f32) (v7 v13 v17 : Vec Ideal S1x200 .f32)
    (v24 : Vec Ideal S200x100 .f32) (v28 : Vec Ideal S1x100 .f32) (p : Fin 5000) (q : Fin 100) :
    (k7_pay1 (F := Ideal) v0 v5 v7 v13 v17 v24 v28) (ix2 p q)
      = (∑ k : Fin 200, GIN.bnAct (v5 (ix2 p k)) (v7 (ix2 0 k)) (v0 (ix2 0 k)) (v13 (ix2 0 k)) (v17 (ix2 0 k)) * v24 (ix2 k q))
        + v28 (ix2 0 q) := by
  unfold k7_pay1
  simp only [shapeCast_self]
  rw [addf_apply, matmul_at, broadcastTo_1b_ab_apply]
  refine congrArg (· + v28 (ix2 0 q)) (Finset.sum_congr rfl fun k _ => ?_)
  rw [truncf_apply, truncf_apply, maximumf_apply, addf_apply, mulf_apply, mulf_apply, subf_apply,
    broadcastTo_1b_ab_apply, broadcastTo_1b_ab_apply, broadcastTo_1b_ab_apply, broadcastTo_1b_ab_apply]
  rfl

/-- Row p of block n is row 5000 n + p of the array. -/
theorem row_lt (n : Nat) (hn : n < 10) (p : Fin 5000) : n * 5000 + p.val < 50000 := by
  have := p.isLt; omega

/-- So a block whose rows are rows 5000 n … of y1, with the row and weight operands whole, holds at entry j the
    whole-array function at the entry 5000 n rows further down. -/
theorem block_entry (y1 : FVec Ideal S50000x200 .f32) (mu var g be : FVec Ideal S1x200 .f32)
    (w : FVec Ideal S200x100 .f32) (b : FVec Ideal S1x100 .f32) (x0 : Vec Ideal S5000x200 .f32) (n : Nat) (hn : n < 10)
    (h0 : ∀ (p : Fin 5000) (k : Fin 200),
      x0 (ix2 p k) = y1 (ix2 (⟨n * 5000 + p.val, row_lt n hn p⟩ : Fin 50000) k))
    (j : S5000x100.Idx) (i : S50000x100.Idx) (hi0 : (i 0).val = n * 5000 + (j 0).val) (hi1 : (i 1).val = (j 1).val) :
    k7_pay1 (F := Ideal) var x0 mu g be w b j = GIN.bnLinD y1 mu var g be w b i := by
  obtain ⟨p, q, rfl⟩ : ∃ (p : Fin 5000) (q : Fin 100), j = ix2 p q := ⟨j 0, j 1, eq_ix2 j⟩
  obtain rfl : i = ix2 (⟨n * 5000 + p.val, row_lt n hn p⟩ : Fin 50000) q := by
    funext a; apply Fin.ext
    match a with
    | ⟨0, _⟩ => exact hi0
    | ⟨1, _⟩ => exact hi1
  rw [pay_apply]
  unfold GIN.bnLinD
  simp only [h0]

/-! ## The arrays as the region finds them, and each input block read off its array -/

variable (V : (c : Dev nD) → (b : Ref sig .tc) → Buf (Elt Ideal) ((c : Thread nD τ).loc b))

/-- The seven input arrays at their literal shapes: y1, the mean and variance rows, the affine rows, the weights, the
    bias row. -/
abbrev y1arr (c : Dev nD) : FVec Ideal S50000x200 .f32 := V c (Pipeline.arrRef spec7 0)
abbrev muarr (c : Dev nD) : FVec Ideal S1x200 .f32 := V c (Pipeline.arrRef spec7 1)
abbrev vararr (c : Dev nD) : FVec Ideal S1x200 .f32 := V c (Pipeline.arrRef spec7 2)
abbrev garr (c : Dev nD) : FVec Ideal S1x200 .f32 := V c (Pipeline.arrRef spec7 3)
abbrev bearr (c : Dev nD) : FVec Ideal S1x200 .f32 := V c (Pipeline.arrRef spec7 4)
abbrev warr (c : Dev nD) : FVec Ideal S200x100 .f32 := V c (Pipeline.arrRef spec7 5)
abbrev barr (c : Dev nD) : FVec Ideal S1x100 .f32 := V c (Pipeline.arrRef spec7 6)

/-- The whole-array function of them. -/
abbrev whole (c : Dev nD) : FVec Ideal S50000x100 .f32 :=
  GIN.bnLinD (y1arr V c) (muarr V c) (vararr V c) (garr V c) (bearr V c) (warr V c) (barr V c)

theorem hz : (![0, 0] : Fin 2 → Nat) = fun _ => 0 := funext fun a => by fin_cases a <;> rfl

/-- The windows' block indices over the grid: y1 and the result move down one block of rows per point; the row and
    weight windows stay at block (0, 0). -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = t.val ∧ win7_7.index t (1 : Fin 2) = 0 :=
  (by decide +kernel : ∀ t : Fin grid7.N, _)

/-- Block t of y1 is rows 5000 t … 5000 t + 4999. -/
theorem blk_y1 (c : Dev nD) (t : Fin cfg7.N) (ht : t.val < 10) (p : Fin 5000) (k : Fin 200) :
    (iblk7 V c 0 t : Vec Ideal S5000x200 .f32) (ix2 p k)
      = y1arr V c (ix2 (⟨t.val * 5000 + p.val, row_lt t.val ht p⟩ : Fin 50000) k) := by
  obtain ⟨e0, e1, -⟩ := idx_facts t
  unfold iblk7
  rw [View.read_apply]
  show V c (Pipeline.arrRef spec7 0) _ = V c (Pipeline.arrRef spec7 0) _
  congr 1
  funext a
  apply Fin.ext
  match a with
  | ⟨0, _⟩ => show win7_0.index t (0 : Fin 2) * 5000 + 1 * p.val = t.val * 5000 + p.val; omega
  | ⟨1, _⟩ => show win7_0.index t (1 : Fin 2) * 200 + 1 * k.val = k.val; omega

/-- The mean row's block is the whole row, at every point. -/
theorem blk_mu (c : Dev nD) (t : Fin cfg7.N) : (iblk7 V c 1 t : Vec Ideal S1x200 .f32) = muarr V c := by
  obtain ⟨-, -, e0, e1, -⟩ := idx_facts t
  funext y
  unfold iblk7
  rw [View.read_apply]
  show V c (Pipeline.arrRef spec7 1) _ = V c (Pipeline.arrRef spec7 1) y
  congr 1
  funext a
  apply Fin.ext
  match a with
  | ⟨0, _⟩ => show win7_1.index t (0 : Fin 2) * 1 + 1 * (y 0).val = (y 0).val; omega
  | ⟨1, _⟩ => show win7_1.index t (1 : Fin 2) * 200 + 1 * (y 1).val = (y 1).val; omega

/-- The variance row's likewise. -/
theorem blk_var (c : Dev nD) (t : Fin cfg7.N) : (iblk7 V c 2 t : Vec Ideal S1x200 .f32) = vararr V c := by
  obtain ⟨-, -, -, -, e0, e1, -⟩ := idx_facts t
  funext y
  unfold iblk7
  rw [View.read_apply]
  show V c (Pipeline.arrRef spec7 2) _ = V c (Pipeline.arrRef spec7 2) y
  congr 1
  funext a
  apply Fin.ext
  match a with
  | ⟨0, _⟩ => show win7_2.index t (0 : Fin 2) * 1 + 1 * (y 0).val = (y 0).val; omega
  | ⟨1, _⟩ => show win7_2.index t (1 : Fin 2) * 200 + 1 * (y 1).val = (y 1).val; omega

/-- The scale row's. -/
theorem blk_g (c : Dev nD) (t : Fin cfg7.N) : (iblk7 V c 3 t : Vec Ideal S1x200 .f32) = garr V c := by
  obtain ⟨-, -, -, -, -, -, e0, e1, -⟩ := idx_facts t
  funext y
  unfold iblk7
  rw [View.read_apply]
  show V c (Pipeline.arrRef spec7 3) _ = V c (Pipeline.arrRef spec7 3) y
  congr 1
  funext a
  apply Fin.ext
  match a with
  | ⟨0, _⟩ => show win7_3.index t (0 : Fin 2) * 1 + 1 * (y 0).val = (y 0).val; omega
  | ⟨1, _⟩ => show win7_3.index t (1 : Fin 2) * 200 + 1 * (y 1).val = (y 1).val; omega

/-- The shift row's. -/
theorem blk_be (c : Dev nD) (t : Fin cfg7.N) : (iblk7 V c 4 t : Vec Ideal S1x200 .f32) = bearr V c := by
  obtain ⟨-, -, -, -, -, -, -, -, e0, e1, -⟩ := idx_facts t
  funext y
  unfold iblk7
  rw [View.read_apply]
  show V c (Pipeline.arrRef spec7 4) _ = V c (Pipeline.arrRef spec7 4) y
  congr 1
  funext a
  apply Fin.ext
  match a with
  | ⟨0, _⟩ => show win7_4.index t (0 : Fin 2) * 1 + 1 * (y 0).val = (y 0).val; omega
  | ⟨1, _⟩ => show win7_4.index t (1 : Fin 2) * 200 + 1 * (y 1).val = (y 1).val; omega

/-- The weights' block is the whole [200, 100] array. -/
theorem blk_w (c : Dev nD) (t : Fin cfg7.N) : (iblk7 V c 5 t : Vec Ideal S200x100 .f32) = warr V c := by
  obtain ⟨-, -, -, -, -, -, -, -, -, -, e0, e1, -⟩ := idx_facts t
  funext y
  unfold iblk7
  rw [View.read_apply]
  show V c (Pipeline.arrRef spec7 5) _ = V c (Pipeline.arrRef spec7 5) y
  congr 1
  funext a
  apply Fin.ext
  match a with
  | ⟨0, _⟩ => show win7_5.index t (0 : Fin 2) * 200 + 1 * (y 0).val = (y 0).val; omega
  | ⟨1, _⟩ => show win7_5.index t (1 : Fin 2) * 100 + 1 * (y 1).val = (y 1).val; omega

/-- The bias row's block is the whole row. -/
theorem blk_b (c : Dev nD) (t : Fin cfg7.N) : (iblk7 V c 6 t : Vec Ideal S1x100 .f32) = barr V c := by
  obtain ⟨-, -, -, -, -, -, -, -, -, -, -, -, e0, e1, -⟩ := idx_facts t
  funext y
  unfold iblk7
  rw [View.read_apply]
  show V c (Pipeline.arrRef spec7 6) _ = V c (Pipeline.arrRef spec7 6) y
  congr 1
  funext a
  apply Fin.ext
  match a with
  | ⟨0, _⟩ => show win7_6.index t (0 : Fin 2) * 1 + 1 * (y 0).val = (y 0).val; omega
  | ⟨1, _⟩ => show win7_6.index t (1 : Fin 2) * 100 + 1 * (y 1).val = (y 1).val; omega

/-! ## What a point writes back, the cover, the array -/

/-- WHAT POINT t WRITES BACK is block t of the whole-array function. -/
theorem flushed_eq (c : Dev nD) (t : Fin cfg7.N) :
    (dat7 V c).flushed 7 t = ((cfg7.win 7).blk t).view.read (Elt Ideal) (whole V c) := by
  have ht : t.val < 10 := by have := t.isLt; have hN : cfg7.N = 10 := N_7; omega
  show (cfg7.win 7).cut (grid7.coords t) ((dat7 V c).after 7 t) = _
  rw [after7_7]
  unfold out7_7
  rw [View.canon_unit_zero hz]
  simp only [View.ld_unit_zero (S := S5000x200) hz, View.ld_unit_zero (S := S1x200) hz,
    View.ld_unit_zero (S := S200x100) hz, View.ld_unit_zero (S := S1x100) hz]
  rw [blk_mu V c t, blk_var V c t, blk_g V c t, blk_be V c t, blk_w V c t, blk_b V c t]
  obtain ⟨-, -, -, -, -, -, -, -, -, -, -, -, -, -, e0, e1⟩ := idx_facts t
  funext j
  show k7_pay1 (F := Ideal) (vararr V c) (iblk7 V c 0 t) (muarr V c) (garr V c) (bearr V c) (warr V c) (barr V c) j
    = whole V c (((cfg7.win 7).blk t).view.emb j)
  refine block_entry (y1arr V c) (muarr V c) (vararr V c) (garr V c) (bearr V c) (warr V c) (barr V c) (iblk7 V c 0 t)
    t.val ht (fun p k => blk_y1 V c t ht p k) j _ ?_ ?_
  · show win7_7.index t (0 : Fin 2) * 5000 + 1 * (j 0).val = t.val * 5000 + (j 0).val
    omega
  · show win7_7.index t (1 : Fin 2) * 100 + 1 * (j 1).val = (j 1).val
    omega

/-- An entry of the result array is in point t's block iff each coordinate is in the block's range on its axis. -/
theorem mem_blk (t : Fin cfg7.N) (i : S50000x100.Idx) :
    i ∈ ((cfg7.win 7).blk t).view.set ↔ ∀ a : Fin 2, win7_7.index t a * S5000x100.size a ≤ (i a).val
      ∧ (i a).val < win7_7.index t a * S5000x100.size a + S5000x100.size a := by
  show i ∈ ((View.whole (Pipeline.arrRef spec7 7)).slice (win7_7.rect t)).set ↔ _
  rw [View.set_slice_whole, Rect.mem_set_unit]
  exact Iff.rfl

/-- Row r of the result is covered by point r / 5000, and every point writes back. -/
theorem cover (i : S50000x100.Idx) :
    ∃ t : Fin cfg7.N, (cfg7.win 7).flush t = true ∧ i ∈ ((cfg7.win 7).blk t).view.set := by
  have hi0 : (i 0).val < 50000 := idx2_lt0 i
  have hi1 : (i 1).val < 100 := idx2_lt1 i
  have hN : cfg7.N = 10 := N_7
  obtain ⟨t, ht⟩ : ∃ t : Fin cfg7.N, t.val = (i 0).val / 5000 := ⟨⟨(i 0).val / 5000, by omega⟩, rfl⟩
  obtain ⟨-, -, -, -, -, -, -, -, -, -, -, -, -, -, e0, e1⟩ := idx_facts t
  refine ⟨t, flush7_7 t, ?_⟩
  rw [mem_blk]
  intro a
  match a with
  | ⟨0, _⟩ =>
    show win7_7.index t (0 : Fin 2) * 5000 ≤ (i 0).val ∧ (i 0).val < win7_7.index t (0 : Fin 2) * 5000 + 5000
    omega
  | ⟨1, _⟩ =>
    show win7_7.index t (1 : Fin 2) * 100 ≤ (i 1).val ∧ (i 1).val < win7_7.index t (1 : Fin 2) * 100 + 100
    omega

/-- THE RESULT ARRAY after the region: the whole-array function of the seven input arrays as the region finds them. -/
theorem out (c : Dev nD) :
    (Gen.dat7 (F := Ideal) V c).arrAt 7 cfg7.N
      = GIN.bnLinD (V c (Pipeline.arrRef spec7 0)) (V c (Pipeline.arrRef spec7 1)) (V c (Pipeline.arrRef spec7 2))
          (V c (Pipeline.arrRef spec7 3)) (V c (Pipeline.arrRef spec7 4)) (V c (Pipeline.arrRef spec7 5))
          (V c (Pipeline.arrRef spec7 6)) :=
  (dat7 V c).arrAt_eq_of_cover 7 (whole V c) (fun t _ => flushed_eq V c t) (fun i => cover i)

end Cert.KernelIdeal.RegionBnLin7

end
-- ==== Proof.RegionBnRelu8.lean ====
/-
  One batch-normalisation-and-ramp region of the kernel as a whole-array function.

  The region walks the 50000 rows of y2 in ten blocks of 5000 rows. At each block it reads the block of y2 and the four
  statistics rows (mean, variance, scale, shift: each a whole [1, 100] array, the same at every block) and writes
    max (((y - μ) · rsqrt (σ + ε)) · g + β) 0
  entry by entry into the same block of the output. An entry of the output depends on the same entry of y2 and on column
  j of each row only, so block t of the output is block t of ONE function of the whole arrays, GIN.bnReluD; the ten
  blocks are disjoint and fill the array (row r lies in block r / 5000), hence the output array after the region is that
  function of the arrays the region found.
-/
import proofs.«403201_j40475771797954_1_alg».proof.Proof.KFrameA
import proofs.«403201_j40475771797954_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionBnRelu8

open Cert.KernelIdeal Cert.KernelIdeal.Gen Idealize.ShloMosaic Idealize.ShloMosaic.TcCoe Idealize.ShloMosaic.ValueIdx
open Idealize.ShloMosaic.Pipeline (Dat)

/-! ## One entry of a block -/

/-- The block's arithmetic at entry (p, q): the shape casts are identities, a [1, 100] row broadcast over the 5000 rows
    reads its column q, and what is left is the batch-normalisation-and-ramp of the entry by column q of the four rows.
    The first argument is the VARIANCE row and the third the MEAN row. -/
theorem pay_ix (var : FVec Ideal S1x100 .f32) (y : FVec Ideal S5000x100 .f32) (mu g be : FVec Ideal S1x100 .f32)
    (p : Fin 5000) (q : Fin 100) :
    k8_pay1 (F := Ideal) var y mu g be (ix2 p q)
      = GIN.bnAct (y (ix2 p q)) (mu (ix2 0 q)) (var (ix2 0 q)) (g (ix2 0 q)) (be (ix2 0 q)) := by
  unfold k8_pay1 GIN.bnAct
  simp only [shapeCast_self, maximumf_apply, addf_apply, mulf_apply, subf_apply, broadcast_apply, broadcastTo_1b_ab_apply]
  rfl

/-- The same at any index of the block, the column being the index's second coordinate. -/
theorem pay_at (var : FVec Ideal S1x100 .f32) (y : FVec Ideal S5000x100 .f32) (mu g be : FVec Ideal S1x100 .f32)
    (j : S5000x100.Idx) :
    k8_pay1 (F := Ideal) var y mu g be j
      = GIN.bnAct (y j) (mu (ix2 0 (j 1))) (var (ix2 0 (j 1))) (g (ix2 0 (j 1))) (be (ix2 0 (j 1))) := by
  obtain ⟨p, q, rfl⟩ : ∃ (p : Fin 5000) (q : Fin 100), j = ix2 p q := ⟨j 0, j 1, eq_ix2 j⟩
  exact pay_ix var y mu g be p q

/-! ## Where the blocks sit -/

theorem hz : (![0, 0] : Fin 2 → Nat) = fun _ => 0 := funext fun a => by fin_cases a <;> rfl

/-- The block index of every window at every one of the ten points: the y2 window and the output window are at block
    (t, 0), the four rows at block (0, 0). -/
theorem idx_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

section Region

variable (V : (c : Dev nD) → (b : Ref sig .tc) → Buf (Elt Ideal) ((c : Thread nD τ).loc b))

/-- The output array as one function of the arrays the region finds: y2, then the mean, variance, scale and shift rows. -/
abbrev whole (c : Dev nD) : FVec Ideal S50000x100 .f32 :=
  GIN.bnReluD (V c (Pipeline.arrRef spec8 0)) (V c (Pipeline.arrRef spec8 1)) (V c (Pipeline.arrRef spec8 2))
    (V c (Pipeline.arrRef spec8 3)) (V c (Pipeline.arrRef spec8 4))

/-- Entry j of the y2 block at point t is the entry of y2 that entry j of the output block at t sits over: both blocks
    are rows 5000·t … 5000·t + 4999, all 100 columns. -/
theorem read_y (c : Dev nD) (t : Fin cfg8.N) (j : S5000x100.Idx) :
    (iblk8 V c 0 t : Vec Ideal S5000x100 .f32) j
      = (V c (Pipeline.arrRef spec8 0) : S50000x100.Idx → EReal) (((cfg8.win 5).blk t).view.emb j) := by
  obtain ⟨e00, e01, -, -, -, -, -, -, -, -, e50, e51⟩ := idx_facts t
  show (V c (Pipeline.arrRef spec8 0) : S50000x100.Idx → EReal) (((cfg8.win 0).blk t).view.emb j) = _
  refine congrArg _ (funext fun a => Fin.ext ?_)
  match a with
  | ⟨0, _⟩ => show win8_0.index t (0 : Fin 2) * 5000 + 1 * (j 0).val = win8_5.index t (0 : Fin 2) * 5000 + 1 * (j 0).val; omega
  | ⟨1, _⟩ => show win8_0.index t (1 : Fin 2) * 100 + 1 * (j 1).val = win8_5.index t (1 : Fin 2) * 100 + 1 * (j 1).val; omega

/-- Column (j 1) of the mean row, read through the row's window at point t, is the row's entry at the column the output
    block's entry j sits over: the row's one block is the whole row, at every point. -/
theorem read_row1 (c : Dev nD) (t : Fin cfg8.N) (j : S5000x100.Idx) :
    (iblk8 V c 1 t : Vec Ideal S1x100 .f32) (ix2 0 (j 1))
      = (V c (Pipeline.arrRef spec8 1) : S1x100.Idx → EReal) (ix2 0 ((((cfg8.win 5).blk t).view.emb j) 1)) := by
  obtain ⟨-, -, e10, e11, -, -, -, -, -, -, e50, e51⟩ := idx_facts t
  show (V c (Pipeline.arrRef spec8 1) : S1x100.Idx → EReal) (((cfg8.win 1).blk t).view.emb (ix2 0 (j 1))) = _
  refine congrArg _ (funext fun a => Fin.ext ?_)
  match a with
  | ⟨0, _⟩ => show win8_1.index t (0 : Fin 2) * 1 + 1 * 0 = 0; omega
  | ⟨1, _⟩ => show win8_1.index t (1 : Fin 2) * 100 + 1 * (j 1).val = win8_5.index t (1 : Fin 2) * 100 + 1 * (j 1).val; omega

/-- The same for the variance row. -/
theorem read_row2 (c : Dev nD) (t : Fin cfg8.N) (j : S5000x100.Idx) :
    (iblk8 V c 2 t : Vec Ideal S1x100 .f32) (ix2 0 (j 1))
      = (V c (Pipeline.arrRef spec8 2) : S1x100.Idx → EReal) (ix2 0 ((((cfg8.win 5).blk t).view.emb j) 1)) := by
  obtain ⟨-, -, -, -, e20, e21, -, -, -, -, e50, e51⟩ := idx_facts t
  show (V c (Pipeline.arrRef spec8 2) : S1x100.Idx → EReal) (((cfg8.win 2).blk t).view.emb (ix2 0 (j 1))) = _
  refine congrArg _ (funext fun a => Fin.ext ?_)
  match a with
  | ⟨0, _⟩ => show win8_2.index t (0 : Fin 2) * 1 + 1 * 0 = 0; omega
  | ⟨1, _⟩ => show win8_2.index t (1 : Fin 2) * 100 + 1 * (j 1).val = win8_5.index t (1 : Fin 2) * 100 + 1 * (j 1).val; omega

/-- The same for the scale row. -/
theorem read_row3 (c : Dev nD) (t : Fin cfg8.N) (j : S5000x100.Idx) :
    (iblk8 V c 3 t : Vec Ideal S1x100 .f32) (ix2 0 (j 1))
      = (V c (Pipeline.arrRef spec8 3) : S1x100.Idx → EReal) (ix2 0 ((((cfg8.win 5).blk t).view.emb j) 1)) := by
  obtain ⟨-, -, -, -, -, -, e30, e31, -, -, e50, e51⟩ := idx_facts t
  show (V c (Pipeline.arrRef spec8 3) : S1x100.Idx → EReal) (((cfg8.win 3).blk t).view.emb (ix2 0 (j 1))) = _
  refine congrArg _ (funext fun a => Fin.ext ?_)
  match a with
  | ⟨0, _⟩ => show win8_3.index t (0 : Fin 2) * 1 + 1 * 0 = 0; omega
  | ⟨1, _⟩ => show win8_3.index t (1 : Fin 2) * 100 + 1 * (j 1).val = win8_5.index t (1 : Fin 2) * 100 + 1 * (j 1).val; omega

/-- The same for the shift row. -/
theorem read_row4 (c : Dev nD) (t : Fin cfg8.N) (j : S5000x100.Idx) :
    (iblk8 V c 4 t : Vec Ideal S1x100 .f32) (ix2 0 (j 1))
      = (V c (Pipeline.arrRef spec8 4) : S1x100.Idx → EReal) (ix2 0 ((((cfg8.win 5).blk t).view.emb j) 1)) := by
  obtain ⟨-, -, -, -, -, -, -, -, e40, e41, e50, e51⟩ := idx_facts t
  show (V c (Pipeline.arrRef spec8 4) : S1x100.Idx → EReal) (((cfg8.win 4).blk t).view.emb (ix2 0 (j 1))) = _
  refine congrArg _ (funext fun a => Fin.ext ?_)
  match a with
  | ⟨0, _⟩ => show win8_4.index t (0 : Fin 2) * 1 + 1 * 0 = 0; omega
  | ⟨1, _⟩ => show win8_4.index t (1 : Fin 2) * 100 + 1 * (j 1).val = win8_5.index t (1 : Fin 2) * 100 + 1 * (j 1).val; omega

/-- What point t writes back is block t of the whole-array function. -/
theorem flushed_eq (c : Dev nD) (t : Fin cfg8.N) :
    (dat8 (F := Ideal) V c).flushed 5 t = ((cfg8.win 5).blk t).view.read (Elt Ideal) (whole V c) := by
  show (cfg8.win 5).cut (grid8.coords t) ((dat8 (F := Ideal) V c).after 5 t) = _
  rw [after8_5]
  unfold out8_5
  rw [View.canon_unit_zero hz]
  simp only [View.ld_unit_zero (S := S5000x100) hz, View.ld_unit_zero (S := S1x100) hz]
  funext j
  show k8_pay1 (F := Ideal) (iblk8 V c 2 t) (iblk8 V c 0 t) (iblk8 V c 1 t) (iblk8 V c 3 t) (iblk8 V c 4 t) j
    = whole V c (((cfg8.win 5).blk t).view.emb j)
  refine (pay_at (iblk8 V c 2 t) (iblk8 V c 0 t) (iblk8 V c 1 t) (iblk8 V c 3 t) (iblk8 V c 4 t) j).trans ?_
  rw [read_y V c t j, read_row1 V c t j, read_row2 V c t j, read_row3 V c t j, read_row4 V c t j]
  rfl

/-- An index of the array is in point t's block iff each coordinate is in the block's range on its axis. -/
theorem mem_blk (t : Fin cfg8.N) (i : S50000x100.Idx) :
    i ∈ ((cfg8.win 5).blk t).view.set ↔ ∀ a : Fin 2, win8_5.index t a * S5000x100.size a ≤ (i a).val ∧ (i a).val < win8_5.index t a * S5000x100.size a + S5000x100.size a := by
  show i ∈ ((View.whole main_v269).slice (win8_5.rect t)).set ↔ _
  rw [View.set_slice_whole, Rect.mem_set_unit]
  exact Iff.rfl

/-- Every entry of the array is written: row r lies in the block of point r / 5000. -/
theorem cover (i : S50000x100.Idx) :
    ∃ t : Fin cfg8.N, (cfg8.win 5).flush t = true ∧ i ∈ ((cfg8.win 5).blk t).view.set := by
  have hi0 : (i 0).val < 50000 := (i 0).isLt
  have hi1 : (i 1).val < 100 := (i 1).isLt
  have hN : cfg8.N = 10 := N_8
  obtain ⟨t, ht⟩ : ∃ t : Fin cfg8.N, t.val = (i 0).val / 5000 := ⟨⟨(i 0).val / 5000, by rw [hN]; omega⟩, rfl⟩
  obtain ⟨-, -, -, -, -, -, -, -, -, -, e50, e51⟩ := idx_facts t
  refine ⟨t, flush8_5 t, ?_⟩
  rw [mem_blk]
  intro a
  match a with
  | ⟨0, _⟩ => show win8_5.index t (0 : Fin 2) * 5000 ≤ (i 0).val ∧ (i 0).val < win8_5.index t (0 : Fin 2) * 5000 + 5000; omega
  | ⟨1, _⟩ => show win8_5.index t (1 : Fin 2) * 100 ≤ (i 1).val ∧ (i 1).val < win8_5.index t (1 : Fin 2) * 100 + 100; omega

/-- The output array after the region: batch normalisation and ramp of y2 by the four rows, entry by entry. -/
theorem out (c : Dev nD) :
    (dat8 (F := Ideal) V c).arrAt 5 cfg8.N
      = GIN.bnReluD (V c (Pipeline.arrRef spec8 0)) (V c (Pipeline.arrRef spec8 1)) (V c (Pipeline.arrRef spec8 2))
          (V c (Pipeline.arrRef spec8 3)) (V c (Pipeline.arrRef spec8 4)) :=
  (dat8 (F := Ideal) V c).arrAt_eq_of_cover 5 (whole V c) (fun t _ => flushed_eq V c t) cover

end Region

end Cert.KernelIdeal.RegionBnRelu8

end
-- ==== Proof.KAggOf2.lean ====
/-
  The graph half of layer 2 on the kernel's side, as a fact about the host stretch alone. Between region 5's exit (the
  layer-1 output h is in main_v229) and region 6's entry the host computes, from h, the edge features e (main_v145),
  the edge ends src (main_v147) and dst (main_v149) and the stacked parameters eps, W1, b1 (main_arg6, main_arg7,
  main_arg8):

    hh = (1 + eps[2]) · h + Σ_{edges k with dst k = row} (h[src k] + e k)        into main_v246,
    W1[2] as a [100, 200] matrix                                                  into main_v248,
    b1[2] as a [1, 200] row                                                       into main_v249.

  Each is read off the stretch's operations in order, from ANY contents `V` of the buffers at its start: the result
  buffer holds its operation's function of the operands' buffers, and an operand either is the result of an earlier
  operation of the stretch or is untouched by it and so still holds what `V` gives it. The composed terms are the
  specification's `GIN.agg`, `GIN.w1Of`, `GIN.rowHOf` letter for letter, so nothing is computed: the gather and the
  scatter-add stay closed.
-/
import proofs.«403201_j40475771797954_1_alg».proof.Proof.Gen.KernelIdeal.Launch
import proofs.«403201_j40475771797954_1_alg».proof.Proof.SpecGraph
import Idealize.ShloMosaic.Lib.StableHlo.Run

set_option maxRecDepth 16384

noncomputable section

namespace Cert.KernelIdeal.Agg2

open Cert.KernelIdeal Cert.KernelIdeal.Gen
open Idealize.ShloMosaic Idealize.ShloMosaic.TcCoe

/-- The aggregated features: `(1 + eps[2]) · h + scatter-add over dst of (h[src] + e)`. The index rows are used three
    times and h twice, so the stretch is read in one pass. -/
theorem hh_of (V : Valuation τ sig (Elt Ideal)) :
    StableHlo.after (hostOps6 (F := Ideal)) V (Proc.devRef .tc main_v246)
      = GIN.agg (GIN.epsOf (V (Proc.devRef .tc main_arg6)) 2 (by decide)) (V (Proc.devRef .tc main_v229))
          (V (Proc.devRef .tc main_v145)) (V (Proc.devRef .tc main_v147)) (V (Proc.devRef .tc main_v149)) := by
  after_results_simp
  rfl

/-- The layer's first weight matrix: slice 2 of the stack, its unit axis dropped. -/
theorem w1_of (V : Valuation τ sig (Elt Ideal)) :
    StableHlo.after (hostOps6 (F := Ideal)) V (Proc.devRef .tc main_v248)
      = GIN.w1Of (V (Proc.devRef .tc main_arg7)) 2 (by decide) := by
  after_results
  rfl

/-- The layer's first bias: row 2 of the stack, kept as a row. -/
theorem b1_of (V : Valuation τ sig (Elt Ideal)) :
    StableHlo.after (hostOps6 (F := Ideal)) V (Proc.devRef .tc main_v249)
      = GIN.rowHOf (V (Proc.devRef .tc main_arg8)) 2 (by decide) := by
  after_results
  rfl

end Cert.KernelIdeal.Agg2

end
-- ==== Proof.KAgg2.lean ====
/-
  The graph half of layer 2 at its place in the kernel's run: region 6 is entered (`W21`) with

    hh = (1 + eps[2]) · h + Σ_{edges k with dst k = row} (h[src k] + e k)        in main_v246,
    W1[2] as a [100, 200] matrix                                                  in main_v248,
    b1[2] as a [1, 200] row                                                       in main_v249,

  each a function of what region 5's exit (`W20`) holds in h (main_v229), e (main_v145), src (main_v147), dst
  (main_v149) and the stacked parameters (main_arg6, main_arg7, main_arg8): the entry contents are the host stretch
  run from the exit contents, and the stretch was read from any start.
-/
import proofs.«403201_j40475771797954_1_alg».proof.Proof.KFrameB
import proofs.«403201_j40475771797954_1_alg».proof.Proof.KAggOf2

set_option maxRecDepth 16384

noncomputable section

namespace Cert.KernelIdeal.Agg2

open Cert.KernelIdeal Cert.KernelIdeal.Gen
open Idealize.ShloMosaic Idealize.ShloMosaic.TcCoe

variable (m : (ℓ : Loc nD τ sig) → Buf (Elt Ideal) ℓ) (ρ : Dev nD → PrngReg)

theorem hh_eq (c : Dev nD) :
    W21 m ρ c (Proc.devRef .tc main_v246)
      = GIN.agg (GIN.epsOf (W20 m ρ c (Proc.devRef .tc main_arg6)) 2 (by decide)) (W20 m ρ c (Proc.devRef .tc main_v229))
          (W20 m ρ c (Proc.devRef .tc main_v145)) (W20 m ρ c (Proc.devRef .tc main_v147))
          (W20 m ρ c (Proc.devRef .tc main_v149)) :=
  hh_of (W20 m ρ c)

theorem w1_eq (c : Dev nD) :
    W21 m ρ c (Proc.devRef .tc main_v248) = GIN.w1Of (W20 m ρ c (Proc.devRef .tc main_arg7)) 2 (by decide) :=
  w1_of (W20 m ρ c)

theorem b1_eq (c : Dev nD) :
    W21 m ρ c (Proc.devRef .tc main_v249) = GIN.rowHOf (W20 m ρ c (Proc.devRef .tc main_arg8)) 2 (by decide) :=
  b1_of (W20 m ρ c)

end Cert.KernelIdeal.Agg2

end
-- ==== Proof.KStatsOps2.lean ====
/-
  Layer 2's two host stretches that follow its first and its second matrix product, read at ANY contents V of the
  TensorCore's buffers when the stretch begins.

  After the first product y1 the host forms, from y1 alone, the row of column means and the row of column variances, and
  cuts layer 2's rows of the stacked normalisation parameters, its second weight matrix and its second bias row out of
  the arguments; after the second product y2 the same two rows of y2 and the last two parameter rows. Each result buffer
  holds the composed term of exactly the operations that lead to it, which is the neutral specification's function of the
  stretch's inputs; the products themselves are not written by the stretch.
-/
import proofs.«403201_j40475771797954_1_alg».proof.Proof.Gen.KernelIdeal.Launch
import proofs.«403201_j40475771797954_1_alg».proof.Proof.SpecStats
import Idealize.ShloMosaic.Lib.StableHlo.Run

set_option maxRecDepth 16384

noncomputable section

namespace Cert.KernelIdeal.Stats2

open Cert.KernelIdeal Cert.KernelIdeal.Gen
open Idealize.ShloMosaic Idealize.ShloMosaic.StableHlo Idealize.SL.Sem

variable (V : Valuation τ sig (Elt Ideal))

/-! ## After the first product: y1 is main_v250 -/

/-- The mean row of y1: the column sums over the splat of 50000. -/
theorem mean1_of :
    StableHlo.after (hostOps7_2 (F := Ideal)) (StableHlo.after hostOps7_1 (StableHlo.after hostOps7 V)) (Proc.devRef .tc main_v254)
      = GIN.meanRowH (V (Proc.devRef .tc main_v250)) := by
  after_results
  rfl

set_option maxHeartbeats 1000000 in
/-- The variance row of y1: the variance function's operations, its count read from the integer 0 the stretch before
    it leaves. -/
theorem var1_of :
    StableHlo.after (hostOps7_2 (F := Ideal)) (StableHlo.after hostOps7_1 (StableHlo.after hostOps7 V)) (Proc.devRef .tc main_v255)
      = GIN.varRowH (V (Proc.devRef .tc main_v250)) := by
  after_results_simp
  rfl

/-- Layer 2's row of the first normalisation's scale. -/
theorem g1_of :
    StableHlo.after (hostOps7_2 (F := Ideal)) (StableHlo.after hostOps7_1 (StableHlo.after hostOps7 V)) (Proc.devRef .tc main_v256)
      = GIN.rowHOf (V (Proc.devRef .tc main_arg9)) 2 (by decide) := by
  after_results
  rfl

/-- Layer 2's row of the first normalisation's shift. -/
theorem be1_of :
    StableHlo.after (hostOps7_2 (F := Ideal)) (StableHlo.after hostOps7_1 (StableHlo.after hostOps7 V)) (Proc.devRef .tc main_v257)
      = GIN.rowHOf (V (Proc.devRef .tc main_arg10)) 2 (by decide) := by
  after_results
  rfl

/-- Layer 2's second weight matrix. -/
theorem w2_of :
    StableHlo.after (hostOps7_2 (F := Ideal)) (StableHlo.after hostOps7_1 (StableHlo.after hostOps7 V)) (Proc.devRef .tc main_v259)
      = GIN.w2Of (V (Proc.devRef .tc main_arg11)) 2 (by decide) := by
  after_results
  rfl

/-- Layer 2's second bias row. -/
theorem b2_of :
    StableHlo.after (hostOps7_2 (F := Ideal)) (StableHlo.after hostOps7_1 (StableHlo.after hostOps7 V)) (Proc.devRef .tc main_v260)
      = GIN.rowDOf (V (Proc.devRef .tc main_arg12)) 2 (by decide) := by
  after_results
  rfl

/-- The stretch reads y1 and does not write it. -/
theorem y1_keep_of :
    StableHlo.after (hostOps7_2 (F := Ideal)) (StableHlo.after hostOps7_1 (StableHlo.after hostOps7 V)) (Proc.devRef .tc main_v250)
      = V (Proc.devRef .tc main_v250) := by
  after_results

/-! ## After the second product: y2 is main_v261 -/

/-- The mean row of y2. -/
theorem mean2_of :
    StableHlo.after (hostOps8_2 (F := Ideal)) (StableHlo.after hostOps8_1 (StableHlo.after hostOps8 V)) (Proc.devRef .tc main_v265)
      = GIN.meanRowD (V (Proc.devRef .tc main_v261)) := by
  after_results
  rfl

set_option maxHeartbeats 1000000 in
/-- The variance row of y2. -/
theorem var2_of :
    StableHlo.after (hostOps8_2 (F := Ideal)) (StableHlo.after hostOps8_1 (StableHlo.after hostOps8 V)) (Proc.devRef .tc main_v266)
      = GIN.varRowD (V (Proc.devRef .tc main_v261)) := by
  after_results_simp
  rfl

/-- Layer 2's row of the second normalisation's scale. -/
theorem go_of :
    StableHlo.after (hostOps8_2 (F := Ideal)) (StableHlo.after hostOps8_1 (StableHlo.after hostOps8 V)) (Proc.devRef .tc main_v267)
      = GIN.rowDOf (V (Proc.devRef .tc main_arg13)) 2 (by decide) := by
  after_results
  rfl

/-- Layer 2's row of the second normalisation's shift. -/
theorem bo_of :
    StableHlo.after (hostOps8_2 (F := Ideal)) (StableHlo.after hostOps8_1 (StableHlo.after hostOps8 V)) (Proc.devRef .tc main_v268)
      = GIN.rowDOf (V (Proc.devRef .tc main_arg14)) 2 (by decide) := by
  after_results
  rfl

/-- The stretch reads y2 and does not write it. -/
theorem y2_keep_of :
    StableHlo.after (hostOps8_2 (F := Ideal)) (StableHlo.after hostOps8_1 (StableHlo.after hostOps8 V)) (Proc.devRef .tc main_v261)
      = V (Proc.devRef .tc main_v261) := by
  after_results

end Cert.KernelIdeal.Stats2

end
-- ==== Proof.KStats2.lean ====
/-
  Layer 2's column statistics and parameter rows, at the boundaries of the kernel's run.

  The first product y1 is what the first dense step leaves at its exit; the three host stretches that follow it end at
  the entry of the second dense step, where the mean row and the variance row of y1, layer 2's rows of the first
  normalisation's scale and shift, its second weight matrix and its second bias row stand ready, and y1 itself is as it
  was. The same holds one step later for the second product y2 and the entry of the third dense step. Each statement is
  the stretch's own read, taken at the contents the step before it leaves.
-/
import proofs.«403201_j40475771797954_1_alg».proof.Proof.KFrameB
import proofs.«403201_j40475771797954_1_alg».proof.Proof.KStatsOps2

set_option maxRecDepth 16384

noncomputable section

namespace Cert.KernelIdeal.Stats2

open Cert.KernelIdeal Cert.KernelIdeal.Gen
open Idealize.ShloMosaic Idealize.SL.Sem

variable (m : (ℓ : Loc nD τ sig) → Buf (Elt Ideal) ℓ) (ρ : Dev nD → PrngReg) (c : Dev nD)

/-! ## From the first dense step's exit to the second's entry -/

theorem mean1_eq : W25 m ρ c (Proc.devRef .tc main_v254) = GIN.meanRowH (W22 m ρ c (Proc.devRef .tc main_v250)) :=
  mean1_of (W22 m ρ c)

theorem var1_eq : W25 m ρ c (Proc.devRef .tc main_v255) = GIN.varRowH (W22 m ρ c (Proc.devRef .tc main_v250)) :=
  var1_of (W22 m ρ c)

theorem g1_eq : W25 m ρ c (Proc.devRef .tc main_v256) = GIN.rowHOf (W22 m ρ c (Proc.devRef .tc main_arg9)) 2 (by decide) :=
  g1_of (W22 m ρ c)

theorem be1_eq : W25 m ρ c (Proc.devRef .tc main_v257) = GIN.rowHOf (W22 m ρ c (Proc.devRef .tc main_arg10)) 2 (by decide) :=
  be1_of (W22 m ρ c)

theorem w2_eq : W25 m ρ c (Proc.devRef .tc main_v259) = GIN.w2Of (W22 m ρ c (Proc.devRef .tc main_arg11)) 2 (by decide) :=
  w2_of (W22 m ρ c)

theorem b2_eq : W25 m ρ c (Proc.devRef .tc main_v260) = GIN.rowDOf (W22 m ρ c (Proc.devRef .tc main_arg12)) 2 (by decide) :=
  b2_of (W22 m ρ c)

theorem y1_keep : W25 m ρ c (Proc.devRef .tc main_v250) = W22 m ρ c (Proc.devRef .tc main_v250) :=
  y1_keep_of (W22 m ρ c)

/-! ## From the second dense step's exit to the third's entry -/

theorem mean2_eq : W29 m ρ c (Proc.devRef .tc main_v265) = GIN.meanRowD (W26 m ρ c (Proc.devRef .tc main_v261)) :=
  mean2_of (W26 m ρ c)

theorem var2_eq : W29 m ρ c (Proc.devRef .tc main_v266) = GIN.varRowD (W26 m ρ c (Proc.devRef .tc main_v261)) :=
  var2_of (W26 m ρ c)

theorem go_eq : W29 m ρ c (Proc.devRef .tc main_v267) = GIN.rowDOf (W26 m ρ c (Proc.devRef .tc main_arg13)) 2 (by decide) :=
  go_of (W26 m ρ c)

theorem bo_eq : W29 m ρ c (Proc.devRef .tc main_v268) = GIN.rowDOf (W26 m ρ c (Proc.devRef .tc main_arg14)) 2 (by decide) :=
  bo_of (W26 m ρ c)

theorem y2_keep : W29 m ρ c (Proc.devRef .tc main_v261) = W26 m ρ c (Proc.devRef .tc main_v261) :=
  y2_keep_of (W26 m ρ c)

end Cert.KernelIdeal.Stats2

end
-- ==== Proof.KLayer2.lean ====
/-
  The kernel's third GIN layer, read off the boundaries of its run.

  Between the exit of the second layer's last dense step and the exit of this layer's last dense step the run passes
  three dense steps, each entered after a stretch of host operations:
    hh = (1 + eps[2]) · h + Σ over the edges into a node of (h[src] + e)     at the first step's entry,
    y1 = hh · W1[2] + b1[2]                                                    at the first step's exit,
    the mean row and the variance row of y1                                    at the second step's entry,
    y2 = max (normalise y1) 0 · W2[2] + b2[2]                                  at the second step's exit,
    the mean row and the variance row of y2                                    at the third step's entry,
    h' = max (normalise y2) 0                                                  at the third step's exit.
  A step's exit holds the step's function of what its entry holds in the step's input arrays; a stretch's results
  are functions of what the exit before it holds; the edge features, the edge ends and the stacked parameters are as
  the first stretch of the program left them, the parameters being the program's arguments. Substituting one
  equation into the next, these are the eight step equations of the specification's layer, at layer 2's slices of the
  arguments, with h what the second layer's last step left.
-/
import proofs.«403201_j40475771797954_1_alg».proof.Proof.KFrameB
import proofs.«403201_j40475771797954_1_alg».proof.Proof.Model
import proofs.«403201_j40475771797954_1_alg».proof.Proof.RegionLin6
import proofs.«403201_j40475771797954_1_alg».proof.Proof.RegionBnLin7
import proofs.«403201_j40475771797954_1_alg».proof.Proof.RegionBnRelu8
import proofs.«403201_j40475771797954_1_alg».proof.Proof.KInit
import proofs.«403201_j40475771797954_1_alg».proof.Proof.KAgg2
import proofs.«403201_j40475771797954_1_alg».proof.Proof.KStats2
import proofs.«403201_j40475771797954_1_alg».proof.Proof.KKeep

set_option maxRecDepth 16384

noncomputable section

namespace Cert.KernelIdeal.Layer2

open Cert Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## The three dense steps: the exit's output array is the step's function of the entry's input arrays -/

theorem y1_exit :
    W22 m ρ c (Proc.devRef .tc main_v250)
      = GIN.linH (W21 m ρ c (Proc.devRef .tc main_v246)) (W21 m ρ c (Proc.devRef .tc main_v248))
          (W21 m ρ c (Proc.devRef .tc main_v249)) :=
  (W22_arr m ρ c 3).trans (RegionLin6.out (V21 m ρ) c)

theorem y2_exit :
    W26 m ρ c (Proc.devRef .tc main_v261)
      = GIN.bnLinD (W25 m ρ c (Proc.devRef .tc main_v250)) (W25 m ρ c (Proc.devRef .tc main_v254))
          (W25 m ρ c (Proc.devRef .tc main_v255)) (W25 m ρ c (Proc.devRef .tc main_v256))
          (W25 m ρ c (Proc.devRef .tc main_v257)) (W25 m ρ c (Proc.devRef .tc main_v259))
          (W25 m ρ c (Proc.devRef .tc main_v260)) :=
  (W26_arr m ρ c 7).trans (RegionBnLin7.out (V25 m ρ) c)

theorem h_exit :
    W30 m ρ c (Proc.devRef .tc main_v269)
      = GIN.bnReluD (W29 m ρ c (Proc.devRef .tc main_v261)) (W29 m ρ c (Proc.devRef .tc main_v265))
          (W29 m ρ c (Proc.devRef .tc main_v266)) (W29 m ρ c (Proc.devRef .tc main_v267))
          (W29 m ρ c (Proc.devRef .tc main_v268)) :=
  (W30_arr m ρ c 5).trans (RegionBnRelu8.out (V29 m ρ) c)

/-! ## The layer -/

/-- What the layer's last dense step leaves is the specification's layer 2 of what the layer before left, at the
    program's arguments. -/
theorem layer_eq :
    W30 m ρ c (Proc.devRef .tc main_v269)
      = GIN.layer (GIN.epsOf (m ((c : Thread nD τ).loc main_arg6)) 2 (by decide)) (GIN.w1Of (m ((c : Thread nD τ).loc main_arg7)) 2 (by decide))
          (GIN.rowHOf (m ((c : Thread nD τ).loc main_arg8)) 2 (by decide)) (GIN.rowHOf (m ((c : Thread nD τ).loc main_arg9)) 2 (by decide))
          (GIN.rowHOf (m ((c : Thread nD τ).loc main_arg10)) 2 (by decide)) (GIN.w2Of (m ((c : Thread nD τ).loc main_arg11)) 2 (by decide))
          (GIN.rowDOf (m ((c : Thread nD τ).loc main_arg12)) 2 (by decide)) (GIN.rowDOf (m ((c : Thread nD τ).loc main_arg13)) 2 (by decide))
          (GIN.rowDOf (m ((c : Thread nD τ).loc main_arg14)) 2 (by decide))
          (GIN.bondSum (m ((c : Thread nD τ).loc main_arg2)) (m ((c : Thread nD τ).loc main_arg5))) (GIN.srcOf (m ((c : Thread nD τ).loc main_arg1))) (GIN.dstOf (m ((c : Thread nD τ).loc main_arg1)))
          (W20 m ρ c (Proc.devRef .tc main_v229)) := by
  -- the aggregation, over the carried edge data and the arguments
  have hhh := Agg2.hh_eq m ρ c
  rw [Keep.keep_main_arg6_W20 m ρ c, Keep.keep_main_v145_W20 m ρ c, Keep.keep_main_v147_W20 m ρ c,
    Keep.keep_main_v149_W20 m ρ c, Init.arg_W1_6 m ρ c, Init.e_eq m ρ c, Init.src_eq m ρ c, Init.dst_eq m ρ c] at hhh
  -- the first dense step, at layer 2's weight matrix and bias row
  have hy1 := y1_exit m ρ c
  rw [Agg2.w1_eq m ρ c, Agg2.b1_eq m ρ c, Keep.keep_main_arg7_W20 m ρ c, Keep.keep_main_arg8_W20 m ρ c,
    Init.arg_W1_7 m ρ c, Init.arg_W1_8 m ρ c] at hy1
  -- y1's statistics, and the second dense step at its parameters
  have hmu1 := Stats2.mean1_eq m ρ c
  have hvar1 := Stats2.var1_eq m ρ c
  have hy2 := y2_exit m ρ c
  rw [Stats2.y1_keep m ρ c, Stats2.g1_eq m ρ c, Stats2.be1_eq m ρ c, Stats2.w2_eq m ρ c, Stats2.b2_eq m ρ c,
    Keep.keep_main_arg9_W22 m ρ c, Keep.keep_main_arg10_W22 m ρ c, Keep.keep_main_arg11_W22 m ρ c,
    Keep.keep_main_arg12_W22 m ρ c, Init.arg_W1_9 m ρ c, Init.arg_W1_10 m ρ c, Init.arg_W1_11 m ρ c,
    Init.arg_W1_12 m ρ c] at hy2
  -- y2's statistics, and the third dense step at its parameters
  have hmu2 := Stats2.mean2_eq m ρ c
  have hvar2 := Stats2.var2_eq m ρ c
  have hout := h_exit m ρ c
  rw [Stats2.y2_keep m ρ c, Stats2.go_eq m ρ c, Stats2.bo_eq m ρ c, Keep.keep_main_arg13_W26 m ρ c,
    Keep.keep_main_arg14_W26 m ρ c, Init.arg_W1_13 m ρ c, Init.arg_W1_14 m ρ c] at hout
  exact GIN.layer_of_steps hhh hy1 hmu1 hvar1 hy2 hmu2 hvar2 hout

end Cert.KernelIdeal.Layer2

end
-- ==== Proof.RegionLin9.lean ====
/-
  The first dense step of a layer on the kernel's side, as ONE function of whole arrays.

  The region walks the 50000 rows of the aggregated features in 10 blocks of 5000 rows. At block t it reads rows
  5000·t … 5000·t + 4999 of the features, the whole [100, 200] weight matrix and the whole [1, 200] bias row, and writes
  rows 5000·t … 5000·t + 4999 of the result: entry (p, q) of the block is row p of the feature block times column q of
  the weights, plus entry q of the bias row. A row of the result depends on the same row of the features only, so block
  t of the result is the restriction to those rows of the whole-array function hh · W1 + b1, and since every row lies
  in block (row / 5000) the ten blocks together are that function.
-/
import proofs.«403201_j40475771797954_1_alg».proof.Proof.KFrameA
import proofs.«403201_j40475771797954_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionLin9

open Cert.KernelIdeal Cert.KernelIdeal.Gen Idealize.ShloMosaic Idealize.ShloMosaic.TcCoe Idealize.SL.Sem
open Idealize.ShloMosaic.ValueIdx
open Idealize.ShloMosaic.Pipeline (Dat)

/-! ## The product's operand indices, axis by axis

The product contracts axis 1 of the left operand with axis 0 of the right one: at output entry (r, c) and contraction
position k the left operand is read at (r, k) and the right one at (k, c). -/

theorem lhs_row (i : S5000x200.Idx) (q : dot_S5000x100_S100x200_S5000x200_1_0_0_1_n_n.contr.Idx) :
    (dot_S5000x100_S100x200_S5000x200_1_0_0_1_n_n.lhsIdx i q 0).val = (i 0).val := by
  unfold DotDims.lhsIdx
  rw [dif_neg (show ¬(0 : Fin S5000x100.rank) ∈ dot_S5000x100_S100x200_S5000x200_1_0_0_1_n_n.lhsBatch by decide), dif_pos (show (0 : Fin S5000x100.rank) ∈ dot_S5000x100_S100x200_S5000x200_1_0_0_1_n_n.lhsNonContracting by decide)]
  rfl

theorem lhs_col (i : S5000x200.Idx) (q : dot_S5000x100_S100x200_S5000x200_1_0_0_1_n_n.contr.Idx) :
    (dot_S5000x100_S100x200_S5000x200_1_0_0_1_n_n.lhsIdx i q 1).val = (q ⟨0, by decide⟩).val :=
  dot_S5000x100_S100x200_S5000x200_1_0_0_1_n_n.lhsIdx_val_of_single rfl i q

theorem rhs_row (i : S5000x200.Idx) (q : dot_S5000x100_S100x200_S5000x200_1_0_0_1_n_n.contr.Idx) :
    (dot_S5000x100_S100x200_S5000x200_1_0_0_1_n_n.rhsIdx i q 0).val = (q ⟨0, by decide⟩).val :=
  dot_S5000x100_S100x200_S5000x200_1_0_0_1_n_n.rhsIdx_val_of_single rfl i q

theorem rhs_col (i : S5000x200.Idx) (q : dot_S5000x100_S100x200_S5000x200_1_0_0_1_n_n.contr.Idx) :
    (dot_S5000x100_S100x200_S5000x200_1_0_0_1_n_n.rhsIdx i q 1).val = (i 1).val := by
  unfold DotDims.rhsIdx
  rw [dif_neg (show ¬(1 : Fin S100x200.rank) ∈ dot_S5000x100_S100x200_S5000x200_1_0_0_1_n_n.rhsBatch by decide), dif_pos (show (1 : Fin S100x200.rank) ∈ dot_S5000x100_S100x200_S5000x200_1_0_0_1_n_n.rhsNonContracting by decide)]
  rfl

/-! ## The body's arithmetic at one entry of the block -/

/-- The product of a [5000, 100] block by the [100, 200] weights, accumulated into zeros, at entry (p, q): the sum over
    the 100 contracted coordinates of the products of the entries. -/
theorem matmul_at (l : FVec Ideal S5000x100 .bf16) (r : FVec Ideal S100x200 .bf16) (p : Fin 5000) (q : Fin 200) :
    matmul dot_S5000x100_S100x200_S5000x200_1_0_0_1_n_n none l r (constant (F := Ideal) S5000x200 .f32 0x00000000#32) (ix2 p q)
      = ∑ k : Fin 100, l (ix2 p k) * r (ix2 k q) := by
  simp only [matmul]
  rw [Ideal.matmul_constant_zero_apply, ← Equiv.sum_comp (contrEquiv1 dot_S5000x100_S100x200_S5000x200_1_0_0_1_n_n 100 rfl rfl).symm]
  refine Finset.sum_congr rfl fun k _ => ?_
  have hk := contrEquiv1_symm_val dot_S5000x100_S100x200_S5000x200_1_0_0_1_n_n 100 rfl rfl k
  have el : dot_S5000x100_S100x200_S5000x200_1_0_0_1_n_n.lhsIdx (ix2 p q) ((contrEquiv1 dot_S5000x100_S100x200_S5000x200_1_0_0_1_n_n 100 rfl rfl).symm k) = ix2 p k := funext fun a => Fin.ext (by
    match a with
    | ⟨0, _⟩ => exact lhs_row _ _
    | ⟨1, _⟩ => exact (lhs_col _ _).trans hk)
  have er : dot_S5000x100_S100x200_S5000x200_1_0_0_1_n_n.rhsIdx (ix2 p q) ((contrEquiv1 dot_S5000x100_S100x200_S5000x200_1_0_0_1_n_n 100 rfl rfl).symm k) = ix2 k q := funext fun a => Fin.ext (by
    match a with
    | ⟨0, _⟩ => exact (rhs_row _ _).trans hk
    | ⟨1, _⟩ => exact rhs_col _ _)
  rw [el, er]

/-- What the body stores at entry (p, q) of the block: row p of the feature block times column q of the weights, plus
    entry q of the bias row. On the extended reals the changes of float format and the shape casts to the same shape
    are the identity, and the bias row broadcast over the 5000 rows reads its entry q in every row. -/
theorem pay_at (x : Vec Ideal S5000x100 .f32) (w : Vec Ideal S100x200 .f32) (b : Vec Ideal S1x200 .f32) (p : Fin 5000) (q : Fin 200) :
    k9_pay1 (F := Ideal) x w b (ix2 p q) = (∑ k : Fin 100, x (ix2 p k) * w (ix2 k q)) + b (ix2 0 q) := by
  unfold k9_pay1
  simp only [shapeCast_self]
  rw [addf_apply, matmul_at, broadcastTo_1b_ab_apply]
  rfl

/-- One entry of a block against the whole-array function. If the feature block holds rows n·5000 … n·5000 + 4999 of
    the features, and the weight and bias blocks are the whole weight matrix and bias row, then the body's entry y of
    the block is the whole-array function's entry i, for i the entry of the result that y is: row n·5000 + (row of y),
    same column. -/
theorem block_entry (x : FVec Ideal S50000x100 .f32) (w : FVec Ideal S100x200 .f32) (b : FVec Ideal S1x200 .f32)
    (xb : Vec Ideal S5000x100 .f32) (wb : Vec Ideal S100x200 .f32) (bb : Vec Ideal S1x200 .f32)
    (y : S5000x200.Idx) (i : S50000x200.Idx) (n : Nat)
    (hx : ∀ (p : Fin 5000) (k : Fin 100) (r : Fin 50000), r.val = n * 5000 + p.val → xb (ix2 p k) = x (ix2 r k))
    (hw : wb = w) (hb : bb = b)
    (hi0 : (i 0).val = n * 5000 + (y 0).val) (hi1 : (i 1).val = (y 1).val) :
    k9_pay1 (F := Ideal) xb wb bb y = GIN.linH x w b i := by
  obtain ⟨p, q, rfl⟩ : ∃ (p : Fin 5000) (q : Fin 200), y = ix2 p q := ⟨y 0, y 1, eq_ix2 y⟩
  obtain ⟨r, c, rfl⟩ : ∃ (r : Fin 50000) (c : Fin 200), i = ix2 r c := ⟨i 0, i 1, eq_ix2 i⟩
  obtain rfl : c = q := Fin.ext hi1
  subst hw hb
  rw [pay_at]
  unfold GIN.linH
  exact congrArg (· + bb (ix2 0 c)) (Finset.sum_congr rfl fun k _ => by rw [hx p k r hi0])

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The three arrays the region reads, as it finds them, at their literal types. -/
abbrev xarr (c : Dev nD) : FVec Ideal S50000x100 .f32 := V c (Pipeline.arrRef spec9 0)
abbrev warr (c : Dev nD) : FVec Ideal S100x200 .f32 := V c (Pipeline.arrRef spec9 1)
abbrev barr (c : Dev nD) : FVec Ideal S1x200 .f32 := V c (Pipeline.arrRef spec9 2)

/-- The three blocks the body reads at point t, at their literal types. -/
abbrev xblk (c : Dev nD) (t : Fin cfg9.N) : Vec Ideal S5000x100 .f32 := iblk9 V c 0 t
abbrev wblk (c : Dev nD) (t : Fin cfg9.N) : Vec Ideal S100x200 .f32 := iblk9 V c 1 t
abbrev bblk (c : Dev nD) (t : Fin cfg9.N) : Vec Ideal S1x200 .f32 := iblk9 V c 2 t

/-- The index maps over the ten points: the feature window and the result window sit at block (t, 0), the weight and
    bias windows at block (0, 0) throughout. -/
theorem idx_facts : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- The feature block at point t holds rows 5000·t … 5000·t + 4999 of the features: a block's coordinate in the array
    is the block index times the block size plus the coordinate inside the block. -/
theorem xblk_entry (c : Dev nD) (t : Fin cfg9.N) (p : Fin 5000) (k : Fin 100) (r : Fin 50000)
    (hr : r.val = t.val * 5000 + p.val) : xblk V c t (ix2 p k) = xarr V c (ix2 r k) := by
  obtain ⟨e0, e1, -⟩ := idx_facts t
  show V c (Pipeline.arrRef spec9 0) (((cfg9.win 0).blk t).view.emb (ix2 p k)) = V c (Pipeline.arrRef spec9 0) (ix2 r k)
  refine congrArg _ (funext fun a => Fin.ext ?_)
  match a with
  | ⟨0, _⟩ => show win9_0.index t (0 : Fin 2) * 5000 + 1 * p.val = r.val; omega
  | ⟨1, _⟩ => show win9_0.index t (1 : Fin 2) * 100 + 1 * k.val = k.val; omega

/-- The weight block is the whole weight matrix at every point. -/
theorem wblk_eq (c : Dev nD) (t : Fin cfg9.N) : wblk V c t = warr V c := by
  obtain ⟨-, -, e2, e3, -⟩ := idx_facts t
  funext y
  show V c (Pipeline.arrRef spec9 1) (((cfg9.win 1).blk t).view.emb y) = V c (Pipeline.arrRef spec9 1) y
  refine congrArg _ (funext fun a => Fin.ext ?_)
  match a with
  | ⟨0, _⟩ => show win9_1.index t (0 : Fin 2) * 100 + 1 * (y 0).val = (y 0).val; omega
  | ⟨1, _⟩ => show win9_1.index t (1 : Fin 2) * 200 + 1 * (y 1).val = (y 1).val; omega

/-- The bias block is the whole bias row at every point. -/
theorem bblk_eq (c : Dev nD) (t : Fin cfg9.N) : bblk V c t = barr V c := by
  obtain ⟨-, -, -, -, e4, e5, -⟩ := idx_facts t
  funext y
  show V c (Pipeline.arrRef spec9 2) (((cfg9.win 2).blk t).view.emb y) = V c (Pipeline.arrRef spec9 2) y
  refine congrArg _ (funext fun a => Fin.ext ?_)
  match a with
  | ⟨0, _⟩ => show win9_2.index t (0 : Fin 2) * 1 + 1 * (y 0).val = (y 0).val; omega
  | ⟨1, _⟩ => show win9_2.index t (1 : Fin 2) * 200 + 1 * (y 1).val = (y 1).val; omega

/-- What point t writes back is block t of the whole-array function hh · W1 + b1 of the arrays the region finds. -/
theorem flushed_eq (c : Dev nD) (t : Fin cfg9.N) :
    (dat9 (F := Ideal) V c).flushed 3 t
      = ((cfg9.win 3).blk t).view.read (Elt Ideal) (GIN.linH (xarr V c) (warr V c) (barr V c)) := by
  show (cfg9.win 3).cut (grid9.coords t) ((dat9 (F := Ideal) V c).after 3 t) = _
  rw [after9_3]
  unfold out9_3
  rw [View.canon_unit_zero hz]
  simp only [View.ld_unit_zero (S := S5000x100) hz, View.ld_unit_zero (S := S100x200) hz, View.ld_unit_zero (S := S1x200) hz]
  obtain ⟨-, -, -, -, -, -, e6, e7⟩ := idx_facts t
  funext j
  exact block_entry (xarr V c) (warr V c) (barr V c) (xblk V c t) (wblk V c t) (bblk V c t) j
    (((cfg9.win 3).blk t).view.emb j) t.val (xblk_entry V c t) (wblk_eq V c t) (bblk_eq V c t)
    (by show win9_3.index t (0 : Fin 2) * 5000 + 1 * (j 0).val = t.val * 5000 + (j 0).val; omega)
    (by show win9_3.index t (1 : Fin 2) * 200 + 1 * (j 1).val = (j 1).val; omega)

/-- An entry of the result array is in point t's block iff each coordinate is in the block's range on its axis. -/
theorem mem_blk (t : Fin cfg9.N) (i : S50000x200.Idx) :
    i ∈ ((cfg9.win 3).blk t).view.set ↔ ∀ a : Fin 2, win9_3.index t a * S5000x200.size a ≤ (i a).val ∧ (i a).val < win9_3.index t a * S5000x200.size a + S5000x200.size a := by
  show i ∈ ((View.whole main_v290).slice (win9_3.rect t)).set ↔ _
  rw [View.set_slice_whole, Rect.mem_set_unit]
  exact Iff.rfl

/-- Every entry of the result array is written back by some point: row r by point r / 5000. -/
theorem covered (i : S50000x200.Idx) :
    ∃ t : Fin cfg9.N, (cfg9.win 3).flush t = true ∧ i ∈ ((cfg9.win 3).blk t).view.set := by
  have hi0 : (i 0).val < 50000 := (i 0).isLt
  have hi1 : (i 1).val < 200 := (i 1).isLt
  obtain ⟨t, ht⟩ : ∃ t : Fin cfg9.N, t.val = (i 0).val / 5000 :=
    ⟨⟨(i 0).val / 5000, by rw [show cfg9.N = 10 from N_9]; omega⟩, rfl⟩
  obtain ⟨-, -, -, -, -, -, e6, e7⟩ := idx_facts t
  refine ⟨t, flush9_3 t, ?_⟩
  rw [mem_blk]
  intro a
  match a with
  | ⟨0, _⟩ => show win9_3.index t (0 : Fin 2) * 5000 ≤ (i 0).val ∧ (i 0).val < win9_3.index t (0 : Fin 2) * 5000 + 5000; omega
  | ⟨1, _⟩ => show win9_3.index t (1 : Fin 2) * 200 ≤ (i 1).val ∧ (i 1).val < win9_3.index t (1 : Fin 2) * 200 + 200; omega

/-- THE RESULT ARRAY after the region: hh · W1 + b1 of the three arrays the region finds, whatever they hold. -/
theorem out (c : Dev nD) :
    (dat9 (F := Ideal) V c).arrAt 3 cfg9.N
      = GIN.linH (V c (Pipeline.arrRef spec9 0)) (V c (Pipeline.arrRef spec9 1)) (V c (Pipeline.arrRef spec9 2)) :=
  (dat9 (F := Ideal) V c).arrAt_eq_of_cover 3 (GIN.linH (xarr V c) (warr V c) (barr V c)) (fun t _ => flushed_eq V c t) covered

end Cert.KernelIdeal.RegionLin9

end
-- ==== Proof.RegionBnLin10.lean ====
/-
  The kernel's second dense step of a layer as ONE whole-array function.

  The region computes, 5000 rows at a time, y2 = z · W2 + b2 where z = max (((y1 - μ) · rsqrt (σ + ε)) · g + β) 0, with the
  row statistics μ, σ and the affine rows g, β, b2 held as [1, K] rows and W2 whole. A row of the result depends on the
  same row of y1 only, so the ten blocks of 5000 rows are the restrictions of one function of the whole arrays:
  `GIN.bnLinD`. Read in four steps: the block's arithmetic at one entry (the product into the zero accumulator is the sum
  over the 200 contracted columns; a broadcast row reads the row's entry; a change of float format is the identity on
  the extended reals); each input block read off its array (block t of y1 is rows 5000 t … 5000 t + 4999, the row and
  weight windows are their whole arrays at every point); what point t writes back is block t of the whole-array
  function; row r is covered by point r / 5000.
-/
import proofs.«403201_j40475771797954_1_alg».proof.Proof.KFrameA
import proofs.«403201_j40475771797954_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionBnLin10

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The block's arithmetic at one entry -/

/-- The product's left operand at output entry j and contraction position k sits in row j₀ … -/
theorem lhs_ax0 (j : S5000x100.Idx) (k : dot_S5000x200_S200x100_S5000x100_1_0_0_1_n_n.contr.Idx) :
    (dot_S5000x200_S200x100_S5000x100_1_0_0_1_n_n.lhsIdx j k 0 : ℕ) = j 0 := by
  simp [DotDims.lhsIdx, dot_S5000x200_S200x100_S5000x100_1_0_0_1_n_n]; rfl
/-- … and column k; -/
theorem lhs_ax1 (j : S5000x100.Idx) (k : dot_S5000x200_S200x100_S5000x100_1_0_0_1_n_n.contr.Idx) :
    (dot_S5000x200_S200x100_S5000x100_1_0_0_1_n_n.lhsIdx j k 1 : ℕ) = k ⟨0, by decide⟩ := by
  simp [DotDims.lhsIdx, dot_S5000x200_S200x100_S5000x100_1_0_0_1_n_n]; rfl
/-- the right operand in row k … -/
theorem rhs_ax0 (j : S5000x100.Idx) (k : dot_S5000x200_S200x100_S5000x100_1_0_0_1_n_n.contr.Idx) :
    (dot_S5000x200_S200x100_S5000x100_1_0_0_1_n_n.rhsIdx j k 0 : ℕ) = k ⟨0, by decide⟩ := by
  simp [DotDims.rhsIdx, dot_S5000x200_S200x100_S5000x100_1_0_0_1_n_n]; rfl
/-- … and column j₁. -/
theorem rhs_ax1 (j : S5000x100.Idx) (k : dot_S5000x200_S200x100_S5000x100_1_0_0_1_n_n.contr.Idx) :
    (dot_S5000x200_S200x100_S5000x100_1_0_0_1_n_n.rhsIdx j k 1 : ℕ) = j 1 := by
  simp [DotDims.rhsIdx, dot_S5000x200_S200x100_S5000x100_1_0_0_1_n_n]; rfl

/-- The block product into the zero accumulator, at (p, q): the sum over the 200 contracted columns of l(p, k) · r(k, q). -/
theorem matmul_at (l : FVec Ideal S5000x200 .bf16) (r : FVec Ideal S200x100 .bf16) (p : Fin 5000) (q : Fin 100) :
    matmul dot_S5000x200_S200x100_S5000x100_1_0_0_1_n_n none l r (constant (F := Ideal) S5000x100 .f32 0x00000000#32) (ix2 p q)
      = ∑ k : Fin 200, l (ix2 p k) * r (ix2 k q) := by
  simp only [matmul]
  rw [Ideal.matmul_constant_zero_apply,
    ← Equiv.sum_comp (contrEquiv1 dot_S5000x200_S200x100_S5000x100_1_0_0_1_n_n 200 rfl rfl).symm]
  refine Finset.sum_congr rfl fun k _ => ?_
  have hk := contrEquiv1_symm_val dot_S5000x200_S200x100_S5000x100_1_0_0_1_n_n 200 rfl rfl k
  congr 1
  · refine congrArg l (funext fun a => Fin.ext ?_)
    match a with
    | ⟨0, _⟩ => exact lhs_ax0 _ _
    | ⟨1, _⟩ => exact (lhs_ax1 _ _).trans hk
  · refine congrArg r (funext fun a => Fin.ext ?_)
    match a with
    | ⟨0, _⟩ => exact (rhs_ax0 _ _).trans hk
    | ⟨1, _⟩ => exact rhs_ax1 _ _

/-- The body's payload at entry (p, q) of the block, from its loads: v0 the variance row, v5 the block of y1, v7 the mean
    row, v13 and v17 the affine rows, v24 the weights, v28 the bias row. -/
theorem pay_apply (v0 : Vec Ideal S1x200 .f32) (v5 : Vec Ideal S5000x200 .f32) (v7 v13 v17 : Vec Ideal S1x200 .f32)
    (v24 : Vec Ideal S200x100 .f32) (v28 : Vec Ideal S1x100 .f32) (p : Fin 5000) (q : Fin 100) :
    (k10_pay1 (F := Ideal) v0 v5 v7 v13 v17 v24 v28) (ix2 p q)
      = (∑ k : Fin 200, GIN.bnAct (v5 (ix2 p k)) (v7 (ix2 0 k)) (v0 (ix2 0 k)) (v13 (ix2 0 k)) (v17 (ix2 0 k)) * v24 (ix2 k q))
        + v28 (ix2 0 q) := by
  unfold k10_pay1
  simp only [shapeCast_self]
  rw [addf_apply, matmul_at, broadcastTo_1b_ab_apply]
  refine congrArg (· + v28 (ix2 0 q)) (Finset.sum_congr rfl fun k _ => ?_)
  rw [truncf_apply, truncf_apply, maximumf_apply, addf_apply, mulf_apply, mulf_apply, subf_apply,
    broadcastTo_1b_ab_apply, broadcastTo_1b_ab_apply, broadcastTo_1b_ab_apply, broadcastTo_1b_ab_apply]
  rfl

/-- Row p of block n is row 5000 n + p of the array. -/
theorem row_lt (n : Nat) (hn : n < 10) (p : Fin 5000) : n * 5000 + p.val < 50000 := by
  have := p.isLt; omega

/-- So a block whose rows are rows 5000 n … of y1, with the row and weight operands whole, holds at entry j the
    whole-array function at the entry 5000 n rows further down. -/
theorem block_entry (y1 : FVec Ideal S50000x200 .f32) (mu var g be : FVec Ideal S1x200 .f32)
    (w : FVec Ideal S200x100 .f32) (b : FVec Ideal S1x100 .f32) (x0 : Vec Ideal S5000x200 .f32) (n : Nat) (hn : n < 10)
    (h0 : ∀ (p : Fin 5000) (k : Fin 200),
      x0 (ix2 p k) = y1 (ix2 (⟨n * 5000 + p.val, row_lt n hn p⟩ : Fin 50000) k))
    (j : S5000x100.Idx) (i : S50000x100.Idx) (hi0 : (i 0).val = n * 5000 + (j 0).val) (hi1 : (i 1).val = (j 1).val) :
    k10_pay1 (F := Ideal) var x0 mu g be w b j = GIN.bnLinD y1 mu var g be w b i := by
  obtain ⟨p, q, rfl⟩ : ∃ (p : Fin 5000) (q : Fin 100), j = ix2 p q := ⟨j 0, j 1, eq_ix2 j⟩
  obtain rfl : i = ix2 (⟨n * 5000 + p.val, row_lt n hn p⟩ : Fin 50000) q := by
    funext a; apply Fin.ext
    match a with
    | ⟨0, _⟩ => exact hi0
    | ⟨1, _⟩ => exact hi1
  rw [pay_apply]
  unfold GIN.bnLinD
  simp only [h0]

/-! ## The arrays as the region finds them, and each input block read off its array -/

variable (V : (c : Dev nD) → (b : Ref sig .tc) → Buf (Elt Ideal) ((c : Thread nD τ).loc b))

/-- The seven input arrays at their literal shapes: y1, the mean and variance rows, the affine rows, the weights, the
    bias row. -/
abbrev y1arr (c : Dev nD) : FVec Ideal S50000x200 .f32 := V c (Pipeline.arrRef spec10 0)
abbrev muarr (c : Dev nD) : FVec Ideal S1x200 .f32 := V c (Pipeline.arrRef spec10 1)
abbrev vararr (c : Dev nD) : FVec Ideal S1x200 .f32 := V c (Pipeline.arrRef spec10 2)
abbrev garr (c : Dev nD) : FVec Ideal S1x200 .f32 := V c (Pipeline.arrRef spec10 3)
abbrev bearr (c : Dev nD) : FVec Ideal S1x200 .f32 := V c (Pipeline.arrRef spec10 4)
abbrev warr (c : Dev nD) : FVec Ideal S200x100 .f32 := V c (Pipeline.arrRef spec10 5)
abbrev barr (c : Dev nD) : FVec Ideal S1x100 .f32 := V c (Pipeline.arrRef spec10 6)

/-- The whole-array function of them. -/
abbrev whole (c : Dev nD) : FVec Ideal S50000x100 .f32 :=
  GIN.bnLinD (y1arr V c) (muarr V c) (vararr V c) (garr V c) (bearr V c) (warr V c) (barr V c)

theorem hz : (![0, 0] : Fin 2 → Nat) = fun _ => 0 := funext fun a => by fin_cases a <;> rfl

/-- The windows' block indices over the grid: y1 and the result move down one block of rows per point; the row and
    weight windows stay at block (0, 0). -/
theorem idx_facts : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = 0 ∧ win10_6.index t (1 : Fin 2) = 0
    ∧ win10_7.index t (0 : Fin 2) = t.val ∧ win10_7.index t (1 : Fin 2) = 0 :=
  (by decide +kernel : ∀ t : Fin grid10.N, _)

/-- Block t of y1 is rows 5000 t … 5000 t + 4999. -/
theorem blk_y1 (c : Dev nD) (t : Fin cfg10.N) (ht : t.val < 10) (p : Fin 5000) (k : Fin 200) :
    (iblk10 V c 0 t : Vec Ideal S5000x200 .f32) (ix2 p k)
      = y1arr V c (ix2 (⟨t.val * 5000 + p.val, row_lt t.val ht p⟩ : Fin 50000) k) := by
  obtain ⟨e0, e1, -⟩ := idx_facts t
  unfold iblk10
  rw [View.read_apply]
  show V c (Pipeline.arrRef spec10 0) _ = V c (Pipeline.arrRef spec10 0) _
  congr 1
  funext a
  apply Fin.ext
  match a with
  | ⟨0, _⟩ => show win10_0.index t (0 : Fin 2) * 5000 + 1 * p.val = t.val * 5000 + p.val; omega
  | ⟨1, _⟩ => show win10_0.index t (1 : Fin 2) * 200 + 1 * k.val = k.val; omega

/-- The mean row's block is the whole row, at every point. -/
theorem blk_mu (c : Dev nD) (t : Fin cfg10.N) : (iblk10 V c 1 t : Vec Ideal S1x200 .f32) = muarr V c := by
  obtain ⟨-, -, e0, e1, -⟩ := idx_facts t
  funext y
  unfold iblk10
  rw [View.read_apply]
  show V c (Pipeline.arrRef spec10 1) _ = V c (Pipeline.arrRef spec10 1) y
  congr 1
  funext a
  apply Fin.ext
  match a with
  | ⟨0, _⟩ => show win10_1.index t (0 : Fin 2) * 1 + 1 * (y 0).val = (y 0).val; omega
  | ⟨1, _⟩ => show win10_1.index t (1 : Fin 2) * 200 + 1 * (y 1).val = (y 1).val; omega

/-- The variance row's likewise. -/
theorem blk_var (c : Dev nD) (t : Fin cfg10.N) : (iblk10 V c 2 t : Vec Ideal S1x200 .f32) = vararr V c := by
  obtain ⟨-, -, -, -, e0, e1, -⟩ := idx_facts t
  funext y
  unfold iblk10
  rw [View.read_apply]
  show V c (Pipeline.arrRef spec10 2) _ = V c (Pipeline.arrRef spec10 2) y
  congr 1
  funext a
  apply Fin.ext
  match a with
  | ⟨0, _⟩ => show win10_2.index t (0 : Fin 2) * 1 + 1 * (y 0).val = (y 0).val; omega
  | ⟨1, _⟩ => show win10_2.index t (1 : Fin 2) * 200 + 1 * (y 1).val = (y 1).val; omega

/-- The scale row's. -/
theorem blk_g (c : Dev nD) (t : Fin cfg10.N) : (iblk10 V c 3 t : Vec Ideal S1x200 .f32) = garr V c := by
  obtain ⟨-, -, -, -, -, -, e0, e1, -⟩ := idx_facts t
  funext y
  unfold iblk10
  rw [View.read_apply]
  show V c (Pipeline.arrRef spec10 3) _ = V c (Pipeline.arrRef spec10 3) y
  congr 1
  funext a
  apply Fin.ext
  match a with
  | ⟨0, _⟩ => show win10_3.index t (0 : Fin 2) * 1 + 1 * (y 0).val = (y 0).val; omega
  | ⟨1, _⟩ => show win10_3.index t (1 : Fin 2) * 200 + 1 * (y 1).val = (y 1).val; omega

/-- The shift row's. -/
theorem blk_be (c : Dev nD) (t : Fin cfg10.N) : (iblk10 V c 4 t : Vec Ideal S1x200 .f32) = bearr V c := by
  obtain ⟨-, -, -, -, -, -, -, -, e0, e1, -⟩ := idx_facts t
  funext y
  unfold iblk10
  rw [View.read_apply]
  show V c (Pipeline.arrRef spec10 4) _ = V c (Pipeline.arrRef spec10 4) y
  congr 1
  funext a
  apply Fin.ext
  match a with
  | ⟨0, _⟩ => show win10_4.index t (0 : Fin 2) * 1 + 1 * (y 0).val = (y 0).val; omega
  | ⟨1, _⟩ => show win10_4.index t (1 : Fin 2) * 200 + 1 * (y 1).val = (y 1).val; omega

/-- The weights' block is the whole [200, 100] array. -/
theorem blk_w (c : Dev nD) (t : Fin cfg10.N) : (iblk10 V c 5 t : Vec Ideal S200x100 .f32) = warr V c := by
  obtain ⟨-, -, -, -, -, -, -, -, -, -, e0, e1, -⟩ := idx_facts t
  funext y
  unfold iblk10
  rw [View.read_apply]
  show V c (Pipeline.arrRef spec10 5) _ = V c (Pipeline.arrRef spec10 5) y
  congr 1
  funext a
  apply Fin.ext
  match a with
  | ⟨0, _⟩ => show win10_5.index t (0 : Fin 2) * 200 + 1 * (y 0).val = (y 0).val; omega
  | ⟨1, _⟩ => show win10_5.index t (1 : Fin 2) * 100 + 1 * (y 1).val = (y 1).val; omega

/-- The bias row's block is the whole row. -/
theorem blk_b (c : Dev nD) (t : Fin cfg10.N) : (iblk10 V c 6 t : Vec Ideal S1x100 .f32) = barr V c := by
  obtain ⟨-, -, -, -, -, -, -, -, -, -, -, -, e0, e1, -⟩ := idx_facts t
  funext y
  unfold iblk10
  rw [View.read_apply]
  show V c (Pipeline.arrRef spec10 6) _ = V c (Pipeline.arrRef spec10 6) y
  congr 1
  funext a
  apply Fin.ext
  match a with
  | ⟨0, _⟩ => show win10_6.index t (0 : Fin 2) * 1 + 1 * (y 0).val = (y 0).val; omega
  | ⟨1, _⟩ => show win10_6.index t (1 : Fin 2) * 100 + 1 * (y 1).val = (y 1).val; omega

/-! ## What a point writes back, the cover, the array -/

/-- WHAT POINT t WRITES BACK is block t of the whole-array function. -/
theorem flushed_eq (c : Dev nD) (t : Fin cfg10.N) :
    (dat10 V c).flushed 7 t = ((cfg10.win 7).blk t).view.read (Elt Ideal) (whole V c) := by
  have ht : t.val < 10 := by have := t.isLt; have hN : cfg10.N = 10 := N_10; omega
  show (cfg10.win 7).cut (grid10.coords t) ((dat10 V c).after 7 t) = _
  rw [after10_7]
  unfold out10_7
  rw [View.canon_unit_zero hz]
  simp only [View.ld_unit_zero (S := S5000x200) hz, View.ld_unit_zero (S := S1x200) hz,
    View.ld_unit_zero (S := S200x100) hz, View.ld_unit_zero (S := S1x100) hz]
  rw [blk_mu V c t, blk_var V c t, blk_g V c t, blk_be V c t, blk_w V c t, blk_b V c t]
  obtain ⟨-, -, -, -, -, -, -, -, -, -, -, -, -, -, e0, e1⟩ := idx_facts t
  funext j
  show k10_pay1 (F := Ideal) (vararr V c) (iblk10 V c 0 t) (muarr V c) (garr V c) (bearr V c) (warr V c) (barr V c) j
    = whole V c (((cfg10.win 7).blk t).view.emb j)
  refine block_entry (y1arr V c) (muarr V c) (vararr V c) (garr V c) (bearr V c) (warr V c) (barr V c) (iblk10 V c 0 t)
    t.val ht (fun p k => blk_y1 V c t ht p k) j _ ?_ ?_
  · show win10_7.index t (0 : Fin 2) * 5000 + 1 * (j 0).val = t.val * 5000 + (j 0).val
    omega
  · show win10_7.index t (1 : Fin 2) * 100 + 1 * (j 1).val = (j 1).val
    omega

/-- An entry of the result array is in point t's block iff each coordinate is in the block's range on its axis. -/
theorem mem_blk (t : Fin cfg10.N) (i : S50000x100.Idx) :
    i ∈ ((cfg10.win 7).blk t).view.set ↔ ∀ a : Fin 2, win10_7.index t a * S5000x100.size a ≤ (i a).val
      ∧ (i a).val < win10_7.index t a * S5000x100.size a + S5000x100.size a := by
  show i ∈ ((View.whole (Pipeline.arrRef spec10 7)).slice (win10_7.rect t)).set ↔ _
  rw [View.set_slice_whole, Rect.mem_set_unit]
  exact Iff.rfl

/-- Row r of the result is covered by point r / 5000, and every point writes back. -/
theorem cover (i : S50000x100.Idx) :
    ∃ t : Fin cfg10.N, (cfg10.win 7).flush t = true ∧ i ∈ ((cfg10.win 7).blk t).view.set := by
  have hi0 : (i 0).val < 50000 := idx2_lt0 i
  have hi1 : (i 1).val < 100 := idx2_lt1 i
  have hN : cfg10.N = 10 := N_10
  obtain ⟨t, ht⟩ : ∃ t : Fin cfg10.N, t.val = (i 0).val / 5000 := ⟨⟨(i 0).val / 5000, by omega⟩, rfl⟩
  obtain ⟨-, -, -, -, -, -, -, -, -, -, -, -, -, -, e0, e1⟩ := idx_facts t
  refine ⟨t, flush10_7 t, ?_⟩
  rw [mem_blk]
  intro a
  match a with
  | ⟨0, _⟩ =>
    show win10_7.index t (0 : Fin 2) * 5000 ≤ (i 0).val ∧ (i 0).val < win10_7.index t (0 : Fin 2) * 5000 + 5000
    omega
  | ⟨1, _⟩ =>
    show win10_7.index t (1 : Fin 2) * 100 ≤ (i 1).val ∧ (i 1).val < win10_7.index t (1 : Fin 2) * 100 + 100
    omega

/-- THE RESULT ARRAY after the region: the whole-array function of the seven input arrays as the region finds them. -/
theorem out (c : Dev nD) :
    (Gen.dat10 (F := Ideal) V c).arrAt 7 cfg10.N
      = GIN.bnLinD (V c (Pipeline.arrRef spec10 0)) (V c (Pipeline.arrRef spec10 1)) (V c (Pipeline.arrRef spec10 2))
          (V c (Pipeline.arrRef spec10 3)) (V c (Pipeline.arrRef spec10 4)) (V c (Pipeline.arrRef spec10 5))
          (V c (Pipeline.arrRef spec10 6)) :=
  (dat10 V c).arrAt_eq_of_cover 7 (whole V c) (fun t _ => flushed_eq V c t) (fun i => cover i)

end Cert.KernelIdeal.RegionBnLin10

end
-- ==== Proof.RegionBnRelu11.lean ====
/-
  One batch-normalisation-and-ramp region of the kernel as a whole-array function.

  The region walks the 50000 rows of y2 in ten blocks of 5000 rows. At each block it reads the block of y2 and the four
  statistics rows (mean, variance, scale, shift: each a whole [1, 100] array, the same at every block) and writes
    max (((y - μ) · rsqrt (σ + ε)) · g + β) 0
  entry by entry into the same block of the output. An entry of the output depends on the same entry of y2 and on column
  j of each row only, so block t of the output is block t of ONE function of the whole arrays, GIN.bnReluD; the ten
  blocks are disjoint and fill the array (row r lies in block r / 5000), hence the output array after the region is that
  function of the arrays the region found.
-/
import proofs.«403201_j40475771797954_1_alg».proof.Proof.KFrameA
import proofs.«403201_j40475771797954_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionBnRelu11

open Cert.KernelIdeal Cert.KernelIdeal.Gen Idealize.ShloMosaic Idealize.ShloMosaic.TcCoe Idealize.ShloMosaic.ValueIdx
open Idealize.ShloMosaic.Pipeline (Dat)

/-! ## One entry of a block -/

/-- The block's arithmetic at entry (p, q): the shape casts are identities, a [1, 100] row broadcast over the 5000 rows
    reads its column q, and what is left is the batch-normalisation-and-ramp of the entry by column q of the four rows.
    The first argument is the VARIANCE row and the third the MEAN row. -/
theorem pay_ix (var : FVec Ideal S1x100 .f32) (y : FVec Ideal S5000x100 .f32) (mu g be : FVec Ideal S1x100 .f32)
    (p : Fin 5000) (q : Fin 100) :
    k11_pay1 (F := Ideal) var y mu g be (ix2 p q)
      = GIN.bnAct (y (ix2 p q)) (mu (ix2 0 q)) (var (ix2 0 q)) (g (ix2 0 q)) (be (ix2 0 q)) := by
  unfold k11_pay1 GIN.bnAct
  simp only [shapeCast_self, maximumf_apply, addf_apply, mulf_apply, subf_apply, broadcast_apply, broadcastTo_1b_ab_apply]
  rfl

/-- The same at any index of the block, the column being the index's second coordinate. -/
theorem pay_at (var : FVec Ideal S1x100 .f32) (y : FVec Ideal S5000x100 .f32) (mu g be : FVec Ideal S1x100 .f32)
    (j : S5000x100.Idx) :
    k11_pay1 (F := Ideal) var y mu g be j
      = GIN.bnAct (y j) (mu (ix2 0 (j 1))) (var (ix2 0 (j 1))) (g (ix2 0 (j 1))) (be (ix2 0 (j 1))) := by
  obtain ⟨p, q, rfl⟩ : ∃ (p : Fin 5000) (q : Fin 100), j = ix2 p q := ⟨j 0, j 1, eq_ix2 j⟩
  exact pay_ix var y mu g be p q

/-! ## Where the blocks sit -/

theorem hz : (![0, 0] : Fin 2 → Nat) = fun _ => 0 := funext fun a => by fin_cases a <;> rfl

/-- The block index of every window at every one of the ten points: the y2 window and the output window are at block
    (t, 0), the four rows at block (0, 0). -/
theorem idx_facts : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

section Region

variable (V : (c : Dev nD) → (b : Ref sig .tc) → Buf (Elt Ideal) ((c : Thread nD τ).loc b))

/-- The output array as one function of the arrays the region finds: y2, then the mean, variance, scale and shift rows. -/
abbrev whole (c : Dev nD) : FVec Ideal S50000x100 .f32 :=
  GIN.bnReluD (V c (Pipeline.arrRef spec11 0)) (V c (Pipeline.arrRef spec11 1)) (V c (Pipeline.arrRef spec11 2))
    (V c (Pipeline.arrRef spec11 3)) (V c (Pipeline.arrRef spec11 4))

/-- Entry j of the y2 block at point t is the entry of y2 that entry j of the output block at t sits over: both blocks
    are rows 5000·t … 5000·t + 4999, all 100 columns. -/
theorem read_y (c : Dev nD) (t : Fin cfg11.N) (j : S5000x100.Idx) :
    (iblk11 V c 0 t : Vec Ideal S5000x100 .f32) j
      = (V c (Pipeline.arrRef spec11 0) : S50000x100.Idx → EReal) (((cfg11.win 5).blk t).view.emb j) := by
  obtain ⟨e00, e01, -, -, -, -, -, -, -, -, e50, e51⟩ := idx_facts t
  show (V c (Pipeline.arrRef spec11 0) : S50000x100.Idx → EReal) (((cfg11.win 0).blk t).view.emb j) = _
  refine congrArg _ (funext fun a => Fin.ext ?_)
  match a with
  | ⟨0, _⟩ => show win11_0.index t (0 : Fin 2) * 5000 + 1 * (j 0).val = win11_5.index t (0 : Fin 2) * 5000 + 1 * (j 0).val; omega
  | ⟨1, _⟩ => show win11_0.index t (1 : Fin 2) * 100 + 1 * (j 1).val = win11_5.index t (1 : Fin 2) * 100 + 1 * (j 1).val; omega

/-- Column (j 1) of the mean row, read through the row's window at point t, is the row's entry at the column the output
    block's entry j sits over: the row's one block is the whole row, at every point. -/
theorem read_row1 (c : Dev nD) (t : Fin cfg11.N) (j : S5000x100.Idx) :
    (iblk11 V c 1 t : Vec Ideal S1x100 .f32) (ix2 0 (j 1))
      = (V c (Pipeline.arrRef spec11 1) : S1x100.Idx → EReal) (ix2 0 ((((cfg11.win 5).blk t).view.emb j) 1)) := by
  obtain ⟨-, -, e10, e11, -, -, -, -, -, -, e50, e51⟩ := idx_facts t
  show (V c (Pipeline.arrRef spec11 1) : S1x100.Idx → EReal) (((cfg11.win 1).blk t).view.emb (ix2 0 (j 1))) = _
  refine congrArg _ (funext fun a => Fin.ext ?_)
  match a with
  | ⟨0, _⟩ => show win11_1.index t (0 : Fin 2) * 1 + 1 * 0 = 0; omega
  | ⟨1, _⟩ => show win11_1.index t (1 : Fin 2) * 100 + 1 * (j 1).val = win11_5.index t (1 : Fin 2) * 100 + 1 * (j 1).val; omega

/-- The same for the variance row. -/
theorem read_row2 (c : Dev nD) (t : Fin cfg11.N) (j : S5000x100.Idx) :
    (iblk11 V c 2 t : Vec Ideal S1x100 .f32) (ix2 0 (j 1))
      = (V c (Pipeline.arrRef spec11 2) : S1x100.Idx → EReal) (ix2 0 ((((cfg11.win 5).blk t).view.emb j) 1)) := by
  obtain ⟨-, -, -, -, e20, e21, -, -, -, -, e50, e51⟩ := idx_facts t
  show (V c (Pipeline.arrRef spec11 2) : S1x100.Idx → EReal) (((cfg11.win 2).blk t).view.emb (ix2 0 (j 1))) = _
  refine congrArg _ (funext fun a => Fin.ext ?_)
  match a with
  | ⟨0, _⟩ => show win11_2.index t (0 : Fin 2) * 1 + 1 * 0 = 0; omega
  | ⟨1, _⟩ => show win11_2.index t (1 : Fin 2) * 100 + 1 * (j 1).val = win11_5.index t (1 : Fin 2) * 100 + 1 * (j 1).val; omega

/-- The same for the scale row. -/
theorem read_row3 (c : Dev nD) (t : Fin cfg11.N) (j : S5000x100.Idx) :
    (iblk11 V c 3 t : Vec Ideal S1x100 .f32) (ix2 0 (j 1))
      = (V c (Pipeline.arrRef spec11 3) : S1x100.Idx → EReal) (ix2 0 ((((cfg11.win 5).blk t).view.emb j) 1)) := by
  obtain ⟨-, -, -, -, -, -, e30, e31, -, -, e50, e51⟩ := idx_facts t
  show (V c (Pipeline.arrRef spec11 3) : S1x100.Idx → EReal) (((cfg11.win 3).blk t).view.emb (ix2 0 (j 1))) = _
  refine congrArg _ (funext fun a => Fin.ext ?_)
  match a with
  | ⟨0, _⟩ => show win11_3.index t (0 : Fin 2) * 1 + 1 * 0 = 0; omega
  | ⟨1, _⟩ => show win11_3.index t (1 : Fin 2) * 100 + 1 * (j 1).val = win11_5.index t (1 : Fin 2) * 100 + 1 * (j 1).val; omega

/-- The same for the shift row. -/
theorem read_row4 (c : Dev nD) (t : Fin cfg11.N) (j : S5000x100.Idx) :
    (iblk11 V c 4 t : Vec Ideal S1x100 .f32) (ix2 0 (j 1))
      = (V c (Pipeline.arrRef spec11 4) : S1x100.Idx → EReal) (ix2 0 ((((cfg11.win 5).blk t).view.emb j) 1)) := by
  obtain ⟨-, -, -, -, -, -, -, -, e40, e41, e50, e51⟩ := idx_facts t
  show (V c (Pipeline.arrRef spec11 4) : S1x100.Idx → EReal) (((cfg11.win 4).blk t).view.emb (ix2 0 (j 1))) = _
  refine congrArg _ (funext fun a => Fin.ext ?_)
  match a with
  | ⟨0, _⟩ => show win11_4.index t (0 : Fin 2) * 1 + 1 * 0 = 0; omega
  | ⟨1, _⟩ => show win11_4.index t (1 : Fin 2) * 100 + 1 * (j 1).val = win11_5.index t (1 : Fin 2) * 100 + 1 * (j 1).val; omega

/-- What point t writes back is block t of the whole-array function. -/
theorem flushed_eq (c : Dev nD) (t : Fin cfg11.N) :
    (dat11 (F := Ideal) V c).flushed 5 t = ((cfg11.win 5).blk t).view.read (Elt Ideal) (whole V c) := by
  show (cfg11.win 5).cut (grid11.coords t) ((dat11 (F := Ideal) V c).after 5 t) = _
  rw [after11_5]
  unfold out11_5
  rw [View.canon_unit_zero hz]
  simp only [View.ld_unit_zero (S := S5000x100) hz, View.ld_unit_zero (S := S1x100) hz]
  funext j
  show k11_pay1 (F := Ideal) (iblk11 V c 2 t) (iblk11 V c 0 t) (iblk11 V c 1 t) (iblk11 V c 3 t) (iblk11 V c 4 t) j
    = whole V c (((cfg11.win 5).blk t).view.emb j)
  refine (pay_at (iblk11 V c 2 t) (iblk11 V c 0 t) (iblk11 V c 1 t) (iblk11 V c 3 t) (iblk11 V c 4 t) j).trans ?_
  rw [read_y V c t j, read_row1 V c t j, read_row2 V c t j, read_row3 V c t j, read_row4 V c t j]
  rfl

/-- An index of the array is in point t's block iff each coordinate is in the block's range on its axis. -/
theorem mem_blk (t : Fin cfg11.N) (i : S50000x100.Idx) :
    i ∈ ((cfg11.win 5).blk t).view.set ↔ ∀ a : Fin 2, win11_5.index t a * S5000x100.size a ≤ (i a).val ∧ (i a).val < win11_5.index t a * S5000x100.size a + S5000x100.size a := by
  show i ∈ ((View.whole main_v309).slice (win11_5.rect t)).set ↔ _
  rw [View.set_slice_whole, Rect.mem_set_unit]
  exact Iff.rfl

/-- Every entry of the array is written: row r lies in the block of point r / 5000. -/
theorem cover (i : S50000x100.Idx) :
    ∃ t : Fin cfg11.N, (cfg11.win 5).flush t = true ∧ i ∈ ((cfg11.win 5).blk t).view.set := by
  have hi0 : (i 0).val < 50000 := (i 0).isLt
  have hi1 : (i 1).val < 100 := (i 1).isLt
  have hN : cfg11.N = 10 := N_11
  obtain ⟨t, ht⟩ : ∃ t : Fin cfg11.N, t.val = (i 0).val / 5000 := ⟨⟨(i 0).val / 5000, by rw [hN]; omega⟩, rfl⟩
  obtain ⟨-, -, -, -, -, -, -, -, -, -, e50, e51⟩ := idx_facts t
  refine ⟨t, flush11_5 t, ?_⟩
  rw [mem_blk]
  intro a
  match a with
  | ⟨0, _⟩ => show win11_5.index t (0 : Fin 2) * 5000 ≤ (i 0).val ∧ (i 0).val < win11_5.index t (0 : Fin 2) * 5000 + 5000; omega
  | ⟨1, _⟩ => show win11_5.index t (1 : Fin 2) * 100 ≤ (i 1).val ∧ (i 1).val < win11_5.index t (1 : Fin 2) * 100 + 100; omega

/-- The output array after the region: batch normalisation and ramp of y2 by the four rows, entry by entry. -/
theorem out (c : Dev nD) :
    (dat11 (F := Ideal) V c).arrAt 5 cfg11.N
      = GIN.bnReluD (V c (Pipeline.arrRef spec11 0)) (V c (Pipeline.arrRef spec11 1)) (V c (Pipeline.arrRef spec11 2))
          (V c (Pipeline.arrRef spec11 3)) (V c (Pipeline.arrRef spec11 4)) :=
  (dat11 (F := Ideal) V c).arrAt_eq_of_cover 5 (whole V c) (fun t _ => flushed_eq V c t) cover

end Region

end Cert.KernelIdeal.RegionBnRelu11

end
-- ==== Proof.KAggOf3.lean ====
/-
  The graph half of layer 3 on the kernel's side, as a fact about the host stretch alone. Between region 8's exit (the
  layer-2 output h is in main_v269) and region 9's entry the host computes, from h, the edge features e (main_v145),
  the edge ends src (main_v147) and dst (main_v149) and the stacked parameters eps, W1, b1 (main_arg6, main_arg7,
  main_arg8):

    hh = (1 + eps[3]) · h + Σ_{edges k with dst k = row} (h[src k] + e k)        into main_v286,
    W1[3] as a [100, 200] matrix                                                  into main_v288,
    b1[3] as a [1, 200] row                                                       into main_v289.

  Each is read off the stretch's operations in order, from ANY contents `V` of the buffers at its start: the result
  buffer holds its operation's function of the operands' buffers, and an operand either is the result of an earlier
  operation of the stretch or is untouched by it and so still holds what `V` gives it. The composed terms are the
  specification's `GIN.agg`, `GIN.w1Of`, `GIN.rowHOf` letter for letter, so nothing is computed: the gather and the
  scatter-add stay closed.
-/
import proofs.«403201_j40475771797954_1_alg».proof.Proof.Gen.KernelIdeal.Launch
import proofs.«403201_j40475771797954_1_alg».proof.Proof.SpecGraph
import Idealize.ShloMosaic.Lib.StableHlo.Run

set_option maxRecDepth 16384

noncomputable section

namespace Cert.KernelIdeal.Agg3

open Cert.KernelIdeal Cert.KernelIdeal.Gen
open Idealize.ShloMosaic Idealize.ShloMosaic.TcCoe

/-- The aggregated features: `(1 + eps[3]) · h + scatter-add over dst of (h[src] + e)`. The index rows are used three
    times and h twice, so the stretch is read in one pass. -/
theorem hh_of (V : Valuation τ sig (Elt Ideal)) :
    StableHlo.after (hostOps9 (F := Ideal)) V (Proc.devRef .tc main_v286)
      = GIN.agg (GIN.epsOf (V (Proc.devRef .tc main_arg6)) 3 (by decide)) (V (Proc.devRef .tc main_v269))
          (V (Proc.devRef .tc main_v145)) (V (Proc.devRef .tc main_v147)) (V (Proc.devRef .tc main_v149)) := by
  after_results_simp
  rfl

/-- The layer's first weight matrix: slice 3 of the stack, its unit axis dropped. -/
theorem w1_of (V : Valuation τ sig (Elt Ideal)) :
    StableHlo.after (hostOps9 (F := Ideal)) V (Proc.devRef .tc main_v288)
      = GIN.w1Of (V (Proc.devRef .tc main_arg7)) 3 (by decide) := by
  after_results
  rfl

/-- The layer's first bias: row 3 of the stack, kept as a row. -/
theorem b1_of (V : Valuation τ sig (Elt Ideal)) :
    StableHlo.after (hostOps9 (F := Ideal)) V (Proc.devRef .tc main_v289)
      = GIN.rowHOf (V (Proc.devRef .tc main_arg8)) 3 (by decide) := by
  after_results
  rfl

end Cert.KernelIdeal.Agg3

end
-- ==== Proof.KAgg3.lean ====
/-
  The graph half of layer 3 at its place in the kernel's run: region 9 is entered (`W31`) with

    hh = (1 + eps[3]) · h + Σ_{edges k with dst k = row} (h[src k] + e k)        in main_v286,
    W1[3] as a [100, 200] matrix                                                  in main_v288,
    b1[3] as a [1, 200] row                                                       in main_v289,

  each a function of what region 8's exit (`W30`) holds in h (main_v269), e (main_v145), src (main_v147), dst
  (main_v149) and the stacked parameters (main_arg6, main_arg7, main_arg8): the entry contents are the host stretch
  run from the exit contents, and the stretch was read from any start.
-/
import proofs.«403201_j40475771797954_1_alg».proof.Proof.KFrameB
import proofs.«403201_j40475771797954_1_alg».proof.Proof.KAggOf3

set_option maxRecDepth 16384

noncomputable section

namespace Cert.KernelIdeal.Agg3

open Cert.KernelIdeal Cert.KernelIdeal.Gen
open Idealize.ShloMosaic Idealize.ShloMosaic.TcCoe

variable (m : (ℓ : Loc nD τ sig) → Buf (Elt Ideal) ℓ) (ρ : Dev nD → PrngReg)

theorem hh_eq (c : Dev nD) :
    W31 m ρ c (Proc.devRef .tc main_v286)
      = GIN.agg (GIN.epsOf (W30 m ρ c (Proc.devRef .tc main_arg6)) 3 (by decide)) (W30 m ρ c (Proc.devRef .tc main_v269))
          (W30 m ρ c (Proc.devRef .tc main_v145)) (W30 m ρ c (Proc.devRef .tc main_v147))
          (W30 m ρ c (Proc.devRef .tc main_v149)) :=
  hh_of (W30 m ρ c)

theorem w1_eq (c : Dev nD) :
    W31 m ρ c (Proc.devRef .tc main_v288) = GIN.w1Of (W30 m ρ c (Proc.devRef .tc main_arg7)) 3 (by decide) :=
  w1_of (W30 m ρ c)

theorem b1_eq (c : Dev nD) :
    W31 m ρ c (Proc.devRef .tc main_v289) = GIN.rowHOf (W30 m ρ c (Proc.devRef .tc main_arg8)) 3 (by decide) :=
  b1_of (W30 m ρ c)

end Cert.KernelIdeal.Agg3

end
-- ==== Proof.KStatsOps3.lean ====
/-
  Layer 3's two host stretches that follow its first and its second matrix product, read at ANY contents V of the
  TensorCore's buffers when the stretch begins.

  After the first product y1 the host forms, from y1 alone, the row of column means and the row of column variances, and
  cuts layer 3's rows of the stacked normalisation parameters, its second weight matrix and its second bias row out of
  the arguments; after the second product y2 the same two rows of y2 and the last two parameter rows. Each result buffer
  holds the composed term of exactly the operations that lead to it, which is the neutral specification's function of the
  stretch's inputs; the products themselves are not written by the stretch.
-/
import proofs.«403201_j40475771797954_1_alg».proof.Proof.Gen.KernelIdeal.Launch
import proofs.«403201_j40475771797954_1_alg».proof.Proof.SpecStats
import Idealize.ShloMosaic.Lib.StableHlo.Run

set_option maxRecDepth 16384

noncomputable section

namespace Cert.KernelIdeal.Stats3

open Cert.KernelIdeal Cert.KernelIdeal.Gen
open Idealize.ShloMosaic Idealize.ShloMosaic.StableHlo Idealize.SL.Sem

variable (V : Valuation τ sig (Elt Ideal))

/-! ## After the first product: y1 is main_v290 -/

/-- The mean row of y1: the column sums over the splat of 50000. -/
theorem mean1_of :
    StableHlo.after (hostOps10_2 (F := Ideal)) (StableHlo.after hostOps10_1 (StableHlo.after hostOps10 V)) (Proc.devRef .tc main_v294)
      = GIN.meanRowH (V (Proc.devRef .tc main_v290)) := by
  after_results
  rfl

set_option maxHeartbeats 1000000 in
/-- The variance row of y1: the variance function's operations, its count read from the integer 0 the stretch before
    it leaves. -/
theorem var1_of :
    StableHlo.after (hostOps10_2 (F := Ideal)) (StableHlo.after hostOps10_1 (StableHlo.after hostOps10 V)) (Proc.devRef .tc main_v295)
      = GIN.varRowH (V (Proc.devRef .tc main_v290)) := by
  after_results_simp
  rfl

/-- Layer 3's row of the first normalisation's scale. -/
theorem g1_of :
    StableHlo.after (hostOps10_2 (F := Ideal)) (StableHlo.after hostOps10_1 (StableHlo.after hostOps10 V)) (Proc.devRef .tc main_v296)
      = GIN.rowHOf (V (Proc.devRef .tc main_arg9)) 3 (by decide) := by
  after_results
  rfl

/-- Layer 3's row of the first normalisation's shift. -/
theorem be1_of :
    StableHlo.after (hostOps10_2 (F := Ideal)) (StableHlo.after hostOps10_1 (StableHlo.after hostOps10 V)) (Proc.devRef .tc main_v297)
      = GIN.rowHOf (V (Proc.devRef .tc main_arg10)) 3 (by decide) := by
  after_results
  rfl

/-- Layer 3's second weight matrix. -/
theorem w2_of :
    StableHlo.after (hostOps10_2 (F := Ideal)) (StableHlo.after hostOps10_1 (StableHlo.after hostOps10 V)) (Proc.devRef .tc main_v299)
      = GIN.w2Of (V (Proc.devRef .tc main_arg11)) 3 (by decide) := by
  after_results
  rfl

/-- Layer 3's second bias row. -/
theorem b2_of :
    StableHlo.after (hostOps10_2 (F := Ideal)) (StableHlo.after hostOps10_1 (StableHlo.after hostOps10 V)) (Proc.devRef .tc main_v300)
      = GIN.rowDOf (V (Proc.devRef .tc main_arg12)) 3 (by decide) := by
  after_results
  rfl

/-- The stretch reads y1 and does not write it. -/
theorem y1_keep_of :
    StableHlo.after (hostOps10_2 (F := Ideal)) (StableHlo.after hostOps10_1 (StableHlo.after hostOps10 V)) (Proc.devRef .tc main_v290)
      = V (Proc.devRef .tc main_v290) := by
  after_results

/-! ## After the second product: y2 is main_v301 -/

/-- The mean row of y2. -/
theorem mean2_of :
    StableHlo.after (hostOps11_2 (F := Ideal)) (StableHlo.after hostOps11_1 (StableHlo.after hostOps11 V)) (Proc.devRef .tc main_v305)
      = GIN.meanRowD (V (Proc.devRef .tc main_v301)) := by
  after_results
  rfl

set_option maxHeartbeats 1000000 in
/-- The variance row of y2. -/
theorem var2_of :
    StableHlo.after (hostOps11_2 (F := Ideal)) (StableHlo.after hostOps11_1 (StableHlo.after hostOps11 V)) (Proc.devRef .tc main_v306)
      = GIN.varRowD (V (Proc.devRef .tc main_v301)) := by
  after_results_simp
  rfl

/-- Layer 3's row of the second normalisation's scale. -/
theorem go_of :
    StableHlo.after (hostOps11_2 (F := Ideal)) (StableHlo.after hostOps11_1 (StableHlo.after hostOps11 V)) (Proc.devRef .tc main_v307)
      = GIN.rowDOf (V (Proc.devRef .tc main_arg13)) 3 (by decide) := by
  after_results
  rfl

/-- Layer 3's row of the second normalisation's shift. -/
theorem bo_of :
    StableHlo.after (hostOps11_2 (F := Ideal)) (StableHlo.after hostOps11_1 (StableHlo.after hostOps11 V)) (Proc.devRef .tc main_v308)
      = GIN.rowDOf (V (Proc.devRef .tc main_arg14)) 3 (by decide) := by
  after_results
  rfl

/-- The stretch reads y2 and does not write it. -/
theorem y2_keep_of :
    StableHlo.after (hostOps11_2 (F := Ideal)) (StableHlo.after hostOps11_1 (StableHlo.after hostOps11 V)) (Proc.devRef .tc main_v301)
      = V (Proc.devRef .tc main_v301) := by
  after_results

end Cert.KernelIdeal.Stats3

end
-- ==== Proof.KStats3.lean ====
/-
  Layer 3's column statistics and parameter rows, at the boundaries of the kernel's run.

  The first product y1 is what the first dense step leaves at its exit; the three host stretches that follow it end at
  the entry of the second dense step, where the mean row and the variance row of y1, layer 3's rows of the first
  normalisation's scale and shift, its second weight matrix and its second bias row stand ready, and y1 itself is as it
  was. The same holds one step later for the second product y2 and the entry of the third dense step. Each statement is
  the stretch's own read, taken at the contents the step before it leaves.
-/
import proofs.«403201_j40475771797954_1_alg».proof.Proof.KFrameB
import proofs.«403201_j40475771797954_1_alg».proof.Proof.KStatsOps3

set_option maxRecDepth 16384

noncomputable section

namespace Cert.KernelIdeal.Stats3

open Cert.KernelIdeal Cert.KernelIdeal.Gen
open Idealize.ShloMosaic Idealize.SL.Sem

variable (m : (ℓ : Loc nD τ sig) → Buf (Elt Ideal) ℓ) (ρ : Dev nD → PrngReg) (c : Dev nD)

/-! ## From the first dense step's exit to the second's entry -/

theorem mean1_eq : W35 m ρ c (Proc.devRef .tc main_v294) = GIN.meanRowH (W32 m ρ c (Proc.devRef .tc main_v290)) :=
  mean1_of (W32 m ρ c)

theorem var1_eq : W35 m ρ c (Proc.devRef .tc main_v295) = GIN.varRowH (W32 m ρ c (Proc.devRef .tc main_v290)) :=
  var1_of (W32 m ρ c)

theorem g1_eq : W35 m ρ c (Proc.devRef .tc main_v296) = GIN.rowHOf (W32 m ρ c (Proc.devRef .tc main_arg9)) 3 (by decide) :=
  g1_of (W32 m ρ c)

theorem be1_eq : W35 m ρ c (Proc.devRef .tc main_v297) = GIN.rowHOf (W32 m ρ c (Proc.devRef .tc main_arg10)) 3 (by decide) :=
  be1_of (W32 m ρ c)

theorem w2_eq : W35 m ρ c (Proc.devRef .tc main_v299) = GIN.w2Of (W32 m ρ c (Proc.devRef .tc main_arg11)) 3 (by decide) :=
  w2_of (W32 m ρ c)

theorem b2_eq : W35 m ρ c (Proc.devRef .tc main_v300) = GIN.rowDOf (W32 m ρ c (Proc.devRef .tc main_arg12)) 3 (by decide) :=
  b2_of (W32 m ρ c)

theorem y1_keep : W35 m ρ c (Proc.devRef .tc main_v290) = W32 m ρ c (Proc.devRef .tc main_v290) :=
  y1_keep_of (W32 m ρ c)

/-! ## From the second dense step's exit to the third's entry -/

theorem mean2_eq : W39 m ρ c (Proc.devRef .tc main_v305) = GIN.meanRowD (W36 m ρ c (Proc.devRef .tc main_v301)) :=
  mean2_of (W36 m ρ c)

theorem var2_eq : W39 m ρ c (Proc.devRef .tc main_v306) = GIN.varRowD (W36 m ρ c (Proc.devRef .tc main_v301)) :=
  var2_of (W36 m ρ c)

theorem go_eq : W39 m ρ c (Proc.devRef .tc main_v307) = GIN.rowDOf (W36 m ρ c (Proc.devRef .tc main_arg13)) 3 (by decide) :=
  go_of (W36 m ρ c)

theorem bo_eq : W39 m ρ c (Proc.devRef .tc main_v308) = GIN.rowDOf (W36 m ρ c (Proc.devRef .tc main_arg14)) 3 (by decide) :=
  bo_of (W36 m ρ c)

theorem y2_keep : W39 m ρ c (Proc.devRef .tc main_v301) = W36 m ρ c (Proc.devRef .tc main_v301) :=
  y2_keep_of (W36 m ρ c)

end Cert.KernelIdeal.Stats3

end
-- ==== Proof.KLayer3.lean ====
/-
  The kernel's fourth GIN layer, read off the boundaries of its run.

  Between the exit of the third layer's last dense step and the exit of this layer's last dense step the run passes
  three dense steps, each entered after a stretch of host operations:
    hh = (1 + eps[3]) · h + Σ over the edges into a node of (h[src] + e)     at the first step's entry,
    y1 = hh · W1[3] + b1[3]                                                    at the first step's exit,
    the mean row and the variance row of y1                                    at the second step's entry,
    y2 = max (normalise y1) 0 · W2[3] + b2[3]                                  at the second step's exit,
    the mean row and the variance row of y2                                    at the third step's entry,
    h' = max (normalise y2) 0                                                  at the third step's exit.
  A step's exit holds the step's function of what its entry holds in the step's input arrays; a stretch's results
  are functions of what the exit before it holds; the edge features, the edge ends and the stacked parameters are as
  the first stretch of the program left them, the parameters being the program's arguments. Substituting one
  equation into the next, these are the eight step equations of the specification's layer, at layer 3's slices of the
  arguments, with h what the third layer's last step left.
-/
import proofs.«403201_j40475771797954_1_alg».proof.Proof.KFrameB
import proofs.«403201_j40475771797954_1_alg».proof.Proof.Model
import proofs.«403201_j40475771797954_1_alg».proof.Proof.RegionLin9
import proofs.«403201_j40475771797954_1_alg».proof.Proof.RegionBnLin10
import proofs.«403201_j40475771797954_1_alg».proof.Proof.RegionBnRelu11
import proofs.«403201_j40475771797954_1_alg».proof.Proof.KInit
import proofs.«403201_j40475771797954_1_alg».proof.Proof.KAgg3
import proofs.«403201_j40475771797954_1_alg».proof.Proof.KStats3
import proofs.«403201_j40475771797954_1_alg».proof.Proof.KKeep

set_option maxRecDepth 16384

noncomputable section

namespace Cert.KernelIdeal.Layer3

open Cert Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## The three dense steps: the exit's output array is the step's function of the entry's input arrays -/

theorem y1_exit :
    W32 m ρ c (Proc.devRef .tc main_v290)
      = GIN.linH (W31 m ρ c (Proc.devRef .tc main_v286)) (W31 m ρ c (Proc.devRef .tc main_v288))
          (W31 m ρ c (Proc.devRef .tc main_v289)) :=
  (W32_arr m ρ c 3).trans (RegionLin9.out (V31 m ρ) c)

theorem y2_exit :
    W36 m ρ c (Proc.devRef .tc main_v301)
      = GIN.bnLinD (W35 m ρ c (Proc.devRef .tc main_v290)) (W35 m ρ c (Proc.devRef .tc main_v294))
          (W35 m ρ c (Proc.devRef .tc main_v295)) (W35 m ρ c (Proc.devRef .tc main_v296))
          (W35 m ρ c (Proc.devRef .tc main_v297)) (W35 m ρ c (Proc.devRef .tc main_v299))
          (W35 m ρ c (Proc.devRef .tc main_v300)) :=
  (W36_arr m ρ c 7).trans (RegionBnLin10.out (V35 m ρ) c)

theorem h_exit :
    W40 m ρ c (Proc.devRef .tc main_v309)
      = GIN.bnReluD (W39 m ρ c (Proc.devRef .tc main_v301)) (W39 m ρ c (Proc.devRef .tc main_v305))
          (W39 m ρ c (Proc.devRef .tc main_v306)) (W39 m ρ c (Proc.devRef .tc main_v307))
          (W39 m ρ c (Proc.devRef .tc main_v308)) :=
  (W40_arr m ρ c 5).trans (RegionBnRelu11.out (V39 m ρ) c)

/-! ## The layer -/

/-- What the layer's last dense step leaves is the specification's layer 3 of what the layer before left, at the
    program's arguments. -/
theorem layer_eq :
    W40 m ρ c (Proc.devRef .tc main_v309)
      = GIN.layer (GIN.epsOf (m ((c : Thread nD τ).loc main_arg6)) 3 (by decide)) (GIN.w1Of (m ((c : Thread nD τ).loc main_arg7)) 3 (by decide))
          (GIN.rowHOf (m ((c : Thread nD τ).loc main_arg8)) 3 (by decide)) (GIN.rowHOf (m ((c : Thread nD τ).loc main_arg9)) 3 (by decide))
          (GIN.rowHOf (m ((c : Thread nD τ).loc main_arg10)) 3 (by decide)) (GIN.w2Of (m ((c : Thread nD τ).loc main_arg11)) 3 (by decide))
          (GIN.rowDOf (m ((c : Thread nD τ).loc main_arg12)) 3 (by decide)) (GIN.rowDOf (m ((c : Thread nD τ).loc main_arg13)) 3 (by decide))
          (GIN.rowDOf (m ((c : Thread nD τ).loc main_arg14)) 3 (by decide))
          (GIN.bondSum (m ((c : Thread nD τ).loc main_arg2)) (m ((c : Thread nD τ).loc main_arg5))) (GIN.srcOf (m ((c : Thread nD τ).loc main_arg1))) (GIN.dstOf (m ((c : Thread nD τ).loc main_arg1)))
          (W30 m ρ c (Proc.devRef .tc main_v269)) := by
  -- the aggregation, over the carried edge data and the arguments
  have hhh := Agg3.hh_eq m ρ c
  rw [Keep.keep_main_arg6_W30 m ρ c, Keep.keep_main_v145_W30 m ρ c, Keep.keep_main_v147_W30 m ρ c,
    Keep.keep_main_v149_W30 m ρ c, Init.arg_W1_6 m ρ c, Init.e_eq m ρ c, Init.src_eq m ρ c, Init.dst_eq m ρ c] at hhh
  -- the first dense step, at layer 3's weight matrix and bias row
  have hy1 := y1_exit m ρ c
  rw [Agg3.w1_eq m ρ c, Agg3.b1_eq m ρ c, Keep.keep_main_arg7_W30 m ρ c, Keep.keep_main_arg8_W30 m ρ c,
    Init.arg_W1_7 m ρ c, Init.arg_W1_8 m ρ c] at hy1
  -- y1's statistics, and the second dense step at its parameters
  have hmu1 := Stats3.mean1_eq m ρ c
  have hvar1 := Stats3.var1_eq m ρ c
  have hy2 := y2_exit m ρ c
  rw [Stats3.y1_keep m ρ c, Stats3.g1_eq m ρ c, Stats3.be1_eq m ρ c, Stats3.w2_eq m ρ c, Stats3.b2_eq m ρ c,
    Keep.keep_main_arg9_W32 m ρ c, Keep.keep_main_arg10_W32 m ρ c, Keep.keep_main_arg11_W32 m ρ c,
    Keep.keep_main_arg12_W32 m ρ c, Init.arg_W1_9 m ρ c, Init.arg_W1_10 m ρ c, Init.arg_W1_11 m ρ c,
    Init.arg_W1_12 m ρ c] at hy2
  -- y2's statistics, and the third dense step at its parameters
  have hmu2 := Stats3.mean2_eq m ρ c
  have hvar2 := Stats3.var2_eq m ρ c
  have hout := h_exit m ρ c
  rw [Stats3.y2_keep m ρ c, Stats3.go_eq m ρ c, Stats3.bo_eq m ρ c, Keep.keep_main_arg13_W36 m ρ c,
    Keep.keep_main_arg14_W36 m ρ c, Init.arg_W1_13 m ρ c, Init.arg_W1_14 m ρ c] at hout
  exact GIN.layer_of_steps hhh hy1 hmu1 hvar1 hy2 hmu2 hvar2 hout

end Cert.KernelIdeal.Layer3

end
-- ==== Proof.RegionLin12.lean ====
/-
  The first dense step of a layer on the kernel's side, as ONE function of whole arrays.

  The region walks the 50000 rows of the aggregated features in 10 blocks of 5000 rows. At block t it reads rows
  5000·t … 5000·t + 4999 of the features, the whole [100, 200] weight matrix and the whole [1, 200] bias row, and writes
  rows 5000·t … 5000·t + 4999 of the result: entry (p, q) of the block is row p of the feature block times column q of
  the weights, plus entry q of the bias row. A row of the result depends on the same row of the features only, so block
  t of the result is the restriction to those rows of the whole-array function hh · W1 + b1, and since every row lies
  in block (row / 5000) the ten blocks together are that function.
-/
import proofs.«403201_j40475771797954_1_alg».proof.Proof.KFrameA
import proofs.«403201_j40475771797954_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionLin12

open Cert.KernelIdeal Cert.KernelIdeal.Gen Idealize.ShloMosaic Idealize.ShloMosaic.TcCoe Idealize.SL.Sem
open Idealize.ShloMosaic.ValueIdx
open Idealize.ShloMosaic.Pipeline (Dat)

/-! ## The product's operand indices, axis by axis

The product contracts axis 1 of the left operand with axis 0 of the right one: at output entry (r, c) and contraction
position k the left operand is read at (r, k) and the right one at (k, c). -/

theorem lhs_row (i : S5000x200.Idx) (q : dot_S5000x100_S100x200_S5000x200_1_0_0_1_n_n.contr.Idx) :
    (dot_S5000x100_S100x200_S5000x200_1_0_0_1_n_n.lhsIdx i q 0).val = (i 0).val := by
  unfold DotDims.lhsIdx
  rw [dif_neg (show ¬(0 : Fin S5000x100.rank) ∈ dot_S5000x100_S100x200_S5000x200_1_0_0_1_n_n.lhsBatch by decide), dif_pos (show (0 : Fin S5000x100.rank) ∈ dot_S5000x100_S100x200_S5000x200_1_0_0_1_n_n.lhsNonContracting by decide)]
  rfl

theorem lhs_col (i : S5000x200.Idx) (q : dot_S5000x100_S100x200_S5000x200_1_0_0_1_n_n.contr.Idx) :
    (dot_S5000x100_S100x200_S5000x200_1_0_0_1_n_n.lhsIdx i q 1).val = (q ⟨0, by decide⟩).val :=
  dot_S5000x100_S100x200_S5000x200_1_0_0_1_n_n.lhsIdx_val_of_single rfl i q

theorem rhs_row (i : S5000x200.Idx) (q : dot_S5000x100_S100x200_S5000x200_1_0_0_1_n_n.contr.Idx) :
    (dot_S5000x100_S100x200_S5000x200_1_0_0_1_n_n.rhsIdx i q 0).val = (q ⟨0, by decide⟩).val :=
  dot_S5000x100_S100x200_S5000x200_1_0_0_1_n_n.rhsIdx_val_of_single rfl i q

theorem rhs_col (i : S5000x200.Idx) (q : dot_S5000x100_S100x200_S5000x200_1_0_0_1_n_n.contr.Idx) :
    (dot_S5000x100_S100x200_S5000x200_1_0_0_1_n_n.rhsIdx i q 1).val = (i 1).val := by
  unfold DotDims.rhsIdx
  rw [dif_neg (show ¬(1 : Fin S100x200.rank) ∈ dot_S5000x100_S100x200_S5000x200_1_0_0_1_n_n.rhsBatch by decide), dif_pos (show (1 : Fin S100x200.rank) ∈ dot_S5000x100_S100x200_S5000x200_1_0_0_1_n_n.rhsNonContracting by decide)]
  rfl

/-! ## The body's arithmetic at one entry of the block -/

/-- The product of a [5000, 100] block by the [100, 200] weights, accumulated into zeros, at entry (p, q): the sum over
    the 100 contracted coordinates of the products of the entries. -/
theorem matmul_at (l : FVec Ideal S5000x100 .bf16) (r : FVec Ideal S100x200 .bf16) (p : Fin 5000) (q : Fin 200) :
    matmul dot_S5000x100_S100x200_S5000x200_1_0_0_1_n_n none l r (constant (F := Ideal) S5000x200 .f32 0x00000000#32) (ix2 p q)
      = ∑ k : Fin 100, l (ix2 p k) * r (ix2 k q) := by
  simp only [matmul]
  rw [Ideal.matmul_constant_zero_apply, ← Equiv.sum_comp (contrEquiv1 dot_S5000x100_S100x200_S5000x200_1_0_0_1_n_n 100 rfl rfl).symm]
  refine Finset.sum_congr rfl fun k _ => ?_
  have hk := contrEquiv1_symm_val dot_S5000x100_S100x200_S5000x200_1_0_0_1_n_n 100 rfl rfl k
  have el : dot_S5000x100_S100x200_S5000x200_1_0_0_1_n_n.lhsIdx (ix2 p q) ((contrEquiv1 dot_S5000x100_S100x200_S5000x200_1_0_0_1_n_n 100 rfl rfl).symm k) = ix2 p k := funext fun a => Fin.ext (by
    match a with
    | ⟨0, _⟩ => exact lhs_row _ _
    | ⟨1, _⟩ => exact (lhs_col _ _).trans hk)
  have er : dot_S5000x100_S100x200_S5000x200_1_0_0_1_n_n.rhsIdx (ix2 p q) ((contrEquiv1 dot_S5000x100_S100x200_S5000x200_1_0_0_1_n_n 100 rfl rfl).symm k) = ix2 k q := funext fun a => Fin.ext (by
    match a with
    | ⟨0, _⟩ => exact (rhs_row _ _).trans hk
    | ⟨1, _⟩ => exact rhs_col _ _)
  rw [el, er]

/-- What the body stores at entry (p, q) of the block: row p of the feature block times column q of the weights, plus
    entry q of the bias row. On the extended reals the changes of float format and the shape casts to the same shape
    are the identity, and the bias row broadcast over the 5000 rows reads its entry q in every row. -/
theorem pay_at (x : Vec Ideal S5000x100 .f32) (w : Vec Ideal S100x200 .f32) (b : Vec Ideal S1x200 .f32) (p : Fin 5000) (q : Fin 200) :
    k12_pay1 (F := Ideal) x w b (ix2 p q) = (∑ k : Fin 100, x (ix2 p k) * w (ix2 k q)) + b (ix2 0 q) := by
  unfold k12_pay1
  simp only [shapeCast_self]
  rw [addf_apply, matmul_at, broadcastTo_1b_ab_apply]
  rfl

/-- One entry of a block against the whole-array function. If the feature block holds rows n·5000 … n·5000 + 4999 of
    the features, and the weight and bias blocks are the whole weight matrix and bias row, then the body's entry y of
    the block is the whole-array function's entry i, for i the entry of the result that y is: row n·5000 + (row of y),
    same column. -/
theorem block_entry (x : FVec Ideal S50000x100 .f32) (w : FVec Ideal S100x200 .f32) (b : FVec Ideal S1x200 .f32)
    (xb : Vec Ideal S5000x100 .f32) (wb : Vec Ideal S100x200 .f32) (bb : Vec Ideal S1x200 .f32)
    (y : S5000x200.Idx) (i : S50000x200.Idx) (n : Nat)
    (hx : ∀ (p : Fin 5000) (k : Fin 100) (r : Fin 50000), r.val = n * 5000 + p.val → xb (ix2 p k) = x (ix2 r k))
    (hw : wb = w) (hb : bb = b)
    (hi0 : (i 0).val = n * 5000 + (y 0).val) (hi1 : (i 1).val = (y 1).val) :
    k12_pay1 (F := Ideal) xb wb bb y = GIN.linH x w b i := by
  obtain ⟨p, q, rfl⟩ : ∃ (p : Fin 5000) (q : Fin 200), y = ix2 p q := ⟨y 0, y 1, eq_ix2 y⟩
  obtain ⟨r, c, rfl⟩ : ∃ (r : Fin 50000) (c : Fin 200), i = ix2 r c := ⟨i 0, i 1, eq_ix2 i⟩
  obtain rfl : c = q := Fin.ext hi1
  subst hw hb
  rw [pay_at]
  unfold GIN.linH
  exact congrArg (· + bb (ix2 0 c)) (Finset.sum_congr rfl fun k _ => by rw [hx p k r hi0])

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The three arrays the region reads, as it finds them, at their literal types. -/
abbrev xarr (c : Dev nD) : FVec Ideal S50000x100 .f32 := V c (Pipeline.arrRef spec12 0)
abbrev warr (c : Dev nD) : FVec Ideal S100x200 .f32 := V c (Pipeline.arrRef spec12 1)
abbrev barr (c : Dev nD) : FVec Ideal S1x200 .f32 := V c (Pipeline.arrRef spec12 2)

/-- The three blocks the body reads at point t, at their literal types. -/
abbrev xblk (c : Dev nD) (t : Fin cfg12.N) : Vec Ideal S5000x100 .f32 := iblk12 V c 0 t
abbrev wblk (c : Dev nD) (t : Fin cfg12.N) : Vec Ideal S100x200 .f32 := iblk12 V c 1 t
abbrev bblk (c : Dev nD) (t : Fin cfg12.N) : Vec Ideal S1x200 .f32 := iblk12 V c 2 t

/-- The index maps over the ten points: the feature window and the result window sit at block (t, 0), the weight and
    bias windows at block (0, 0) throughout. -/
theorem idx_facts : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0 :=
  (by decide +kernel : ∀ t : Fin grid12.N, _)

/-- The feature block at point t holds rows 5000·t … 5000·t + 4999 of the features: a block's coordinate in the array
    is the block index times the block size plus the coordinate inside the block. -/
theorem xblk_entry (c : Dev nD) (t : Fin cfg12.N) (p : Fin 5000) (k : Fin 100) (r : Fin 50000)
    (hr : r.val = t.val * 5000 + p.val) : xblk V c t (ix2 p k) = xarr V c (ix2 r k) := by
  obtain ⟨e0, e1, -⟩ := idx_facts t
  show V c (Pipeline.arrRef spec12 0) (((cfg12.win 0).blk t).view.emb (ix2 p k)) = V c (Pipeline.arrRef spec12 0) (ix2 r k)
  refine congrArg _ (funext fun a => Fin.ext ?_)
  match a with
  | ⟨0, _⟩ => show win12_0.index t (0 : Fin 2) * 5000 + 1 * p.val = r.val; omega
  | ⟨1, _⟩ => show win12_0.index t (1 : Fin 2) * 100 + 1 * k.val = k.val; omega

/-- The weight block is the whole weight matrix at every point. -/
theorem wblk_eq (c : Dev nD) (t : Fin cfg12.N) : wblk V c t = warr V c := by
  obtain ⟨-, -, e2, e3, -⟩ := idx_facts t
  funext y
  show V c (Pipeline.arrRef spec12 1) (((cfg12.win 1).blk t).view.emb y) = V c (Pipeline.arrRef spec12 1) y
  refine congrArg _ (funext fun a => Fin.ext ?_)
  match a with
  | ⟨0, _⟩ => show win12_1.index t (0 : Fin 2) * 100 + 1 * (y 0).val = (y 0).val; omega
  | ⟨1, _⟩ => show win12_1.index t (1 : Fin 2) * 200 + 1 * (y 1).val = (y 1).val; omega

/-- The bias block is the whole bias row at every point. -/
theorem bblk_eq (c : Dev nD) (t : Fin cfg12.N) : bblk V c t = barr V c := by
  obtain ⟨-, -, -, -, e4, e5, -⟩ := idx_facts t
  funext y
  show V c (Pipeline.arrRef spec12 2) (((cfg12.win 2).blk t).view.emb y) = V c (Pipeline.arrRef spec12 2) y
  refine congrArg _ (funext fun a => Fin.ext ?_)
  match a with
  | ⟨0, _⟩ => show win12_2.index t (0 : Fin 2) * 1 + 1 * (y 0).val = (y 0).val; omega
  | ⟨1, _⟩ => show win12_2.index t (1 : Fin 2) * 200 + 1 * (y 1).val = (y 1).val; omega

/-- What point t writes back is block t of the whole-array function hh · W1 + b1 of the arrays the region finds. -/
theorem flushed_eq (c : Dev nD) (t : Fin cfg12.N) :
    (dat12 (F := Ideal) V c).flushed 3 t
      = ((cfg12.win 3).blk t).view.read (Elt Ideal) (GIN.linH (xarr V c) (warr V c) (barr V c)) := by
  show (cfg12.win 3).cut (grid12.coords t) ((dat12 (F := Ideal) V c).after 3 t) = _
  rw [after12_3]
  unfold out12_3
  rw [View.canon_unit_zero hz]
  simp only [View.ld_unit_zero (S := S5000x100) hz, View.ld_unit_zero (S := S100x200) hz, View.ld_unit_zero (S := S1x200) hz]
  obtain ⟨-, -, -, -, -, -, e6, e7⟩ := idx_facts t
  funext j
  exact block_entry (xarr V c) (warr V c) (barr V c) (xblk V c t) (wblk V c t) (bblk V c t) j
    (((cfg12.win 3).blk t).view.emb j) t.val (xblk_entry V c t) (wblk_eq V c t) (bblk_eq V c t)
    (by show win12_3.index t (0 : Fin 2) * 5000 + 1 * (j 0).val = t.val * 5000 + (j 0).val; omega)
    (by show win12_3.index t (1 : Fin 2) * 200 + 1 * (j 1).val = (j 1).val; omega)

/-- An entry of the result array is in point t's block iff each coordinate is in the block's range on its axis. -/
theorem mem_blk (t : Fin cfg12.N) (i : S50000x200.Idx) :
    i ∈ ((cfg12.win 3).blk t).view.set ↔ ∀ a : Fin 2, win12_3.index t a * S5000x200.size a ≤ (i a).val ∧ (i a).val < win12_3.index t a * S5000x200.size a + S5000x200.size a := by
  show i ∈ ((View.whole main_v330).slice (win12_3.rect t)).set ↔ _
  rw [View.set_slice_whole, Rect.mem_set_unit]
  exact Iff.rfl

/-- Every entry of the result array is written back by some point: row r by point r / 5000. -/
theorem covered (i : S50000x200.Idx) :
    ∃ t : Fin cfg12.N, (cfg12.win 3).flush t = true ∧ i ∈ ((cfg12.win 3).blk t).view.set := by
  have hi0 : (i 0).val < 50000 := (i 0).isLt
  have hi1 : (i 1).val < 200 := (i 1).isLt
  obtain ⟨t, ht⟩ : ∃ t : Fin cfg12.N, t.val = (i 0).val / 5000 :=
    ⟨⟨(i 0).val / 5000, by rw [show cfg12.N = 10 from N_12]; omega⟩, rfl⟩
  obtain ⟨-, -, -, -, -, -, e6, e7⟩ := idx_facts t
  refine ⟨t, flush12_3 t, ?_⟩
  rw [mem_blk]
  intro a
  match a with
  | ⟨0, _⟩ => show win12_3.index t (0 : Fin 2) * 5000 ≤ (i 0).val ∧ (i 0).val < win12_3.index t (0 : Fin 2) * 5000 + 5000; omega
  | ⟨1, _⟩ => show win12_3.index t (1 : Fin 2) * 200 ≤ (i 1).val ∧ (i 1).val < win12_3.index t (1 : Fin 2) * 200 + 200; omega

/-- THE RESULT ARRAY after the region: hh · W1 + b1 of the three arrays the region finds, whatever they hold. -/
theorem out (c : Dev nD) :
    (dat12 (F := Ideal) V c).arrAt 3 cfg12.N
      = GIN.linH (V c (Pipeline.arrRef spec12 0)) (V c (Pipeline.arrRef spec12 1)) (V c (Pipeline.arrRef spec12 2)) :=
  (dat12 (F := Ideal) V c).arrAt_eq_of_cover 3 (GIN.linH (xarr V c) (warr V c) (barr V c)) (fun t _ => flushed_eq V c t) covered

end Cert.KernelIdeal.RegionLin12

end
-- ==== Proof.RegionBnLin13.lean ====
/-
  The kernel's second dense step of a layer as ONE whole-array function.

  The region computes, 5000 rows at a time, y2 = z · W2 + b2 where z = max (((y1 - μ) · rsqrt (σ + ε)) · g + β) 0, with the
  row statistics μ, σ and the affine rows g, β, b2 held as [1, K] rows and W2 whole. A row of the result depends on the
  same row of y1 only, so the ten blocks of 5000 rows are the restrictions of one function of the whole arrays:
  `GIN.bnLinD`. Read in four steps: the block's arithmetic at one entry (the product into the zero accumulator is the sum
  over the 200 contracted columns; a broadcast row reads the row's entry; a change of float format is the identity on
  the extended reals); each input block read off its array (block t of y1 is rows 5000 t … 5000 t + 4999, the row and
  weight windows are their whole arrays at every point); what point t writes back is block t of the whole-array
  function; row r is covered by point r / 5000.
-/
import proofs.«403201_j40475771797954_1_alg».proof.Proof.KFrameA
import proofs.«403201_j40475771797954_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionBnLin13

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The block's arithmetic at one entry -/

/-- The product's left operand at output entry j and contraction position k sits in row j₀ … -/
theorem lhs_ax0 (j : S5000x100.Idx) (k : dot_S5000x200_S200x100_S5000x100_1_0_0_1_n_n.contr.Idx) :
    (dot_S5000x200_S200x100_S5000x100_1_0_0_1_n_n.lhsIdx j k 0 : ℕ) = j 0 := by
  simp [DotDims.lhsIdx, dot_S5000x200_S200x100_S5000x100_1_0_0_1_n_n]; rfl
/-- … and column k; -/
theorem lhs_ax1 (j : S5000x100.Idx) (k : dot_S5000x200_S200x100_S5000x100_1_0_0_1_n_n.contr.Idx) :
    (dot_S5000x200_S200x100_S5000x100_1_0_0_1_n_n.lhsIdx j k 1 : ℕ) = k ⟨0, by decide⟩ := by
  simp [DotDims.lhsIdx, dot_S5000x200_S200x100_S5000x100_1_0_0_1_n_n]; rfl
/-- the right operand in row k … -/
theorem rhs_ax0 (j : S5000x100.Idx) (k : dot_S5000x200_S200x100_S5000x100_1_0_0_1_n_n.contr.Idx) :
    (dot_S5000x200_S200x100_S5000x100_1_0_0_1_n_n.rhsIdx j k 0 : ℕ) = k ⟨0, by decide⟩ := by
  simp [DotDims.rhsIdx, dot_S5000x200_S200x100_S5000x100_1_0_0_1_n_n]; rfl
/-- … and column j₁. -/
theorem rhs_ax1 (j : S5000x100.Idx) (k : dot_S5000x200_S200x100_S5000x100_1_0_0_1_n_n.contr.Idx) :
    (dot_S5000x200_S200x100_S5000x100_1_0_0_1_n_n.rhsIdx j k 1 : ℕ) = j 1 := by
  simp [DotDims.rhsIdx, dot_S5000x200_S200x100_S5000x100_1_0_0_1_n_n]; rfl

/-- The block product into the zero accumulator, at (p, q): the sum over the 200 contracted columns of l(p, k) · r(k, q). -/
theorem matmul_at (l : FVec Ideal S5000x200 .bf16) (r : FVec Ideal S200x100 .bf16) (p : Fin 5000) (q : Fin 100) :
    matmul dot_S5000x200_S200x100_S5000x100_1_0_0_1_n_n none l r (constant (F := Ideal) S5000x100 .f32 0x00000000#32) (ix2 p q)
      = ∑ k : Fin 200, l (ix2 p k) * r (ix2 k q) := by
  simp only [matmul]
  rw [Ideal.matmul_constant_zero_apply,
    ← Equiv.sum_comp (contrEquiv1 dot_S5000x200_S200x100_S5000x100_1_0_0_1_n_n 200 rfl rfl).symm]
  refine Finset.sum_congr rfl fun k _ => ?_
  have hk := contrEquiv1_symm_val dot_S5000x200_S200x100_S5000x100_1_0_0_1_n_n 200 rfl rfl k
  congr 1
  · refine congrArg l (funext fun a => Fin.ext ?_)
    match a with
    | ⟨0, _⟩ => exact lhs_ax0 _ _
    | ⟨1, _⟩ => exact (lhs_ax1 _ _).trans hk
  · refine congrArg r (funext fun a => Fin.ext ?_)
    match a with
    | ⟨0, _⟩ => exact (rhs_ax0 _ _).trans hk
    | ⟨1, _⟩ => exact rhs_ax1 _ _

/-- The body's payload at entry (p, q) of the block, from its loads: v0 the variance row, v5 the block of y1, v7 the mean
    row, v13 and v17 the affine rows, v24 the weights, v28 the bias row. -/
theorem pay_apply (v0 : Vec Ideal S1x200 .f32) (v5 : Vec Ideal S5000x200 .f32) (v7 v13 v17 : Vec Ideal S1x200 .f32)
    (v24 : Vec Ideal S200x100 .f32) (v28 : Vec Ideal S1x100 .f32) (p : Fin 5000) (q : Fin 100) :
    (k13_pay1 (F := Ideal) v0 v5 v7 v13 v17 v24 v28) (ix2 p q)
      = (∑ k : Fin 200, GIN.bnAct (v5 (ix2 p k)) (v7 (ix2 0 k)) (v0 (ix2 0 k)) (v13 (ix2 0 k)) (v17 (ix2 0 k)) * v24 (ix2 k q))
        + v28 (ix2 0 q) := by
  unfold k13_pay1
  simp only [shapeCast_self]
  rw [addf_apply, matmul_at, broadcastTo_1b_ab_apply]
  refine congrArg (· + v28 (ix2 0 q)) (Finset.sum_congr rfl fun k _ => ?_)
  rw [truncf_apply, truncf_apply, maximumf_apply, addf_apply, mulf_apply, mulf_apply, subf_apply,
    broadcastTo_1b_ab_apply, broadcastTo_1b_ab_apply, broadcastTo_1b_ab_apply, broadcastTo_1b_ab_apply]
  rfl

/-- Row p of block n is row 5000 n + p of the array. -/
theorem row_lt (n : Nat) (hn : n < 10) (p : Fin 5000) : n * 5000 + p.val < 50000 := by
  have := p.isLt; omega

/-- So a block whose rows are rows 5000 n … of y1, with the row and weight operands whole, holds at entry j the
    whole-array function at the entry 5000 n rows further down. -/
theorem block_entry (y1 : FVec Ideal S50000x200 .f32) (mu var g be : FVec Ideal S1x200 .f32)
    (w : FVec Ideal S200x100 .f32) (b : FVec Ideal S1x100 .f32) (x0 : Vec Ideal S5000x200 .f32) (n : Nat) (hn : n < 10)
    (h0 : ∀ (p : Fin 5000) (k : Fin 200),
      x0 (ix2 p k) = y1 (ix2 (⟨n * 5000 + p.val, row_lt n hn p⟩ : Fin 50000) k))
    (j : S5000x100.Idx) (i : S50000x100.Idx) (hi0 : (i 0).val = n * 5000 + (j 0).val) (hi1 : (i 1).val = (j 1).val) :
    k13_pay1 (F := Ideal) var x0 mu g be w b j = GIN.bnLinD y1 mu var g be w b i := by
  obtain ⟨p, q, rfl⟩ : ∃ (p : Fin 5000) (q : Fin 100), j = ix2 p q := ⟨j 0, j 1, eq_ix2 j⟩
  obtain rfl : i = ix2 (⟨n * 5000 + p.val, row_lt n hn p⟩ : Fin 50000) q := by
    funext a; apply Fin.ext
    match a with
    | ⟨0, _⟩ => exact hi0
    | ⟨1, _⟩ => exact hi1
  rw [pay_apply]
  unfold GIN.bnLinD
  simp only [h0]

/-! ## The arrays as the region finds them, and each input block read off its array -/

variable (V : (c : Dev nD) → (b : Ref sig .tc) → Buf (Elt Ideal) ((c : Thread nD τ).loc b))

/-- The seven input arrays at their literal shapes: y1, the mean and variance rows, the affine rows, the weights, the
    bias row. -/
abbrev y1arr (c : Dev nD) : FVec Ideal S50000x200 .f32 := V c (Pipeline.arrRef spec13 0)
abbrev muarr (c : Dev nD) : FVec Ideal S1x200 .f32 := V c (Pipeline.arrRef spec13 1)
abbrev vararr (c : Dev nD) : FVec Ideal S1x200 .f32 := V c (Pipeline.arrRef spec13 2)
abbrev garr (c : Dev nD) : FVec Ideal S1x200 .f32 := V c (Pipeline.arrRef spec13 3)
abbrev bearr (c : Dev nD) : FVec Ideal S1x200 .f32 := V c (Pipeline.arrRef spec13 4)
abbrev warr (c : Dev nD) : FVec Ideal S200x100 .f32 := V c (Pipeline.arrRef spec13 5)
abbrev barr (c : Dev nD) : FVec Ideal S1x100 .f32 := V c (Pipeline.arrRef spec13 6)

/-- The whole-array function of them. -/
abbrev whole (c : Dev nD) : FVec Ideal S50000x100 .f32 :=
  GIN.bnLinD (y1arr V c) (muarr V c) (vararr V c) (garr V c) (bearr V c) (warr V c) (barr V c)

theorem hz : (![0, 0] : Fin 2 → Nat) = fun _ => 0 := funext fun a => by fin_cases a <;> rfl

/-- The windows' block indices over the grid: y1 and the result move down one block of rows per point; the row and
    weight windows stay at block (0, 0). -/
theorem idx_facts : ∀ t : Fin cfg13.N,
    win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = 0 ∧ win13_5.index t (1 : Fin 2) = 0
    ∧ win13_6.index t (0 : Fin 2) = 0 ∧ win13_6.index t (1 : Fin 2) = 0
    ∧ win13_7.index t (0 : Fin 2) = t.val ∧ win13_7.index t (1 : Fin 2) = 0 :=
  (by decide +kernel : ∀ t : Fin grid13.N, _)

/-- Block t of y1 is rows 5000 t … 5000 t + 4999. -/
theorem blk_y1 (c : Dev nD) (t : Fin cfg13.N) (ht : t.val < 10) (p : Fin 5000) (k : Fin 200) :
    (iblk13 V c 0 t : Vec Ideal S5000x200 .f32) (ix2 p k)
      = y1arr V c (ix2 (⟨t.val * 5000 + p.val, row_lt t.val ht p⟩ : Fin 50000) k) := by
  obtain ⟨e0, e1, -⟩ := idx_facts t
  unfold iblk13
  rw [View.read_apply]
  show V c (Pipeline.arrRef spec13 0) _ = V c (Pipeline.arrRef spec13 0) _
  congr 1
  funext a
  apply Fin.ext
  match a with
  | ⟨0, _⟩ => show win13_0.index t (0 : Fin 2) * 5000 + 1 * p.val = t.val * 5000 + p.val; omega
  | ⟨1, _⟩ => show win13_0.index t (1 : Fin 2) * 200 + 1 * k.val = k.val; omega

/-- The mean row's block is the whole row, at every point. -/
theorem blk_mu (c : Dev nD) (t : Fin cfg13.N) : (iblk13 V c 1 t : Vec Ideal S1x200 .f32) = muarr V c := by
  obtain ⟨-, -, e0, e1, -⟩ := idx_facts t
  funext y
  unfold iblk13
  rw [View.read_apply]
  show V c (Pipeline.arrRef spec13 1) _ = V c (Pipeline.arrRef spec13 1) y
  congr 1
  funext a
  apply Fin.ext
  match a with
  | ⟨0, _⟩ => show win13_1.index t (0 : Fin 2) * 1 + 1 * (y 0).val = (y 0).val; omega
  | ⟨1, _⟩ => show win13_1.index t (1 : Fin 2) * 200 + 1 * (y 1).val = (y 1).val; omega

/-- The variance row's likewise. -/
theorem blk_var (c : Dev nD) (t : Fin cfg13.N) : (iblk13 V c 2 t : Vec Ideal S1x200 .f32) = vararr V c := by
  obtain ⟨-, -, -, -, e0, e1, -⟩ := idx_facts t
  funext y
  unfold iblk13
  rw [View.read_apply]
  show V c (Pipeline.arrRef spec13 2) _ = V c (Pipeline.arrRef spec13 2) y
  congr 1
  funext a
  apply Fin.ext
  match a with
  | ⟨0, _⟩ => show win13_2.index t (0 : Fin 2) * 1 + 1 * (y 0).val = (y 0).val; omega
  | ⟨1, _⟩ => show win13_2.index t (1 : Fin 2) * 200 + 1 * (y 1).val = (y 1).val; omega

/-- The scale row's. -/
theorem blk_g (c : Dev nD) (t : Fin cfg13.N) : (iblk13 V c 3 t : Vec Ideal S1x200 .f32) = garr V c := by
  obtain ⟨-, -, -, -, -, -, e0, e1, -⟩ := idx_facts t
  funext y
  unfold iblk13
  rw [View.read_apply]
  show V c (Pipeline.arrRef spec13 3) _ = V c (Pipeline.arrRef spec13 3) y
  congr 1
  funext a
  apply Fin.ext
  match a with
  | ⟨0, _⟩ => show win13_3.index t (0 : Fin 2) * 1 + 1 * (y 0).val = (y 0).val; omega
  | ⟨1, _⟩ => show win13_3.index t (1 : Fin 2) * 200 + 1 * (y 1).val = (y 1).val; omega

/-- The shift row's. -/
theorem blk_be (c : Dev nD) (t : Fin cfg13.N) : (iblk13 V c 4 t : Vec Ideal S1x200 .f32) = bearr V c := by
  obtain ⟨-, -, -, -, -, -, -, -, e0, e1, -⟩ := idx_facts t
  funext y
  unfold iblk13
  rw [View.read_apply]
  show V c (Pipeline.arrRef spec13 4) _ = V c (Pipeline.arrRef spec13 4) y
  congr 1
  funext a
  apply Fin.ext
  match a with
  | ⟨0, _⟩ => show win13_4.index t (0 : Fin 2) * 1 + 1 * (y 0).val = (y 0).val; omega
  | ⟨1, _⟩ => show win13_4.index t (1 : Fin 2) * 200 + 1 * (y 1).val = (y 1).val; omega

/-- The weights' block is the whole [200, 100] array. -/
theorem blk_w (c : Dev nD) (t : Fin cfg13.N) : (iblk13 V c 5 t : Vec Ideal S200x100 .f32) = warr V c := by
  obtain ⟨-, -, -, -, -, -, -, -, -, -, e0, e1, -⟩ := idx_facts t
  funext y
  unfold iblk13
  rw [View.read_apply]
  show V c (Pipeline.arrRef spec13 5) _ = V c (Pipeline.arrRef spec13 5) y
  congr 1
  funext a
  apply Fin.ext
  match a with
  | ⟨0, _⟩ => show win13_5.index t (0 : Fin 2) * 200 + 1 * (y 0).val = (y 0).val; omega
  | ⟨1, _⟩ => show win13_5.index t (1 : Fin 2) * 100 + 1 * (y 1).val = (y 1).val; omega

/-- The bias row's block is the whole row. -/
theorem blk_b (c : Dev nD) (t : Fin cfg13.N) : (iblk13 V c 6 t : Vec Ideal S1x100 .f32) = barr V c := by
  obtain ⟨-, -, -, -, -, -, -, -, -, -, -, -, e0, e1, -⟩ := idx_facts t
  funext y
  unfold iblk13
  rw [View.read_apply]
  show V c (Pipeline.arrRef spec13 6) _ = V c (Pipeline.arrRef spec13 6) y
  congr 1
  funext a
  apply Fin.ext
  match a with
  | ⟨0, _⟩ => show win13_6.index t (0 : Fin 2) * 1 + 1 * (y 0).val = (y 0).val; omega
  | ⟨1, _⟩ => show win13_6.index t (1 : Fin 2) * 100 + 1 * (y 1).val = (y 1).val; omega

/-! ## What a point writes back, the cover, the array -/

/-- WHAT POINT t WRITES BACK is block t of the whole-array function. -/
theorem flushed_eq (c : Dev nD) (t : Fin cfg13.N) :
    (dat13 V c).flushed 7 t = ((cfg13.win 7).blk t).view.read (Elt Ideal) (whole V c) := by
  have ht : t.val < 10 := by have := t.isLt; have hN : cfg13.N = 10 := N_13; omega
  show (cfg13.win 7).cut (grid13.coords t) ((dat13 V c).after 7 t) = _
  rw [after13_7]
  unfold out13_7
  rw [View.canon_unit_zero hz]
  simp only [View.ld_unit_zero (S := S5000x200) hz, View.ld_unit_zero (S := S1x200) hz,
    View.ld_unit_zero (S := S200x100) hz, View.ld_unit_zero (S := S1x100) hz]
  rw [blk_mu V c t, blk_var V c t, blk_g V c t, blk_be V c t, blk_w V c t, blk_b V c t]
  obtain ⟨-, -, -, -, -, -, -, -, -, -, -, -, -, -, e0, e1⟩ := idx_facts t
  funext j
  show k13_pay1 (F := Ideal) (vararr V c) (iblk13 V c 0 t) (muarr V c) (garr V c) (bearr V c) (warr V c) (barr V c) j
    = whole V c (((cfg13.win 7).blk t).view.emb j)
  refine block_entry (y1arr V c) (muarr V c) (vararr V c) (garr V c) (bearr V c) (warr V c) (barr V c) (iblk13 V c 0 t)
    t.val ht (fun p k => blk_y1 V c t ht p k) j _ ?_ ?_
  · show win13_7.index t (0 : Fin 2) * 5000 + 1 * (j 0).val = t.val * 5000 + (j 0).val
    omega
  · show win13_7.index t (1 : Fin 2) * 100 + 1 * (j 1).val = (j 1).val
    omega

/-- An entry of the result array is in point t's block iff each coordinate is in the block's range on its axis. -/
theorem mem_blk (t : Fin cfg13.N) (i : S50000x100.Idx) :
    i ∈ ((cfg13.win 7).blk t).view.set ↔ ∀ a : Fin 2, win13_7.index t a * S5000x100.size a ≤ (i a).val
      ∧ (i a).val < win13_7.index t a * S5000x100.size a + S5000x100.size a := by
  show i ∈ ((View.whole (Pipeline.arrRef spec13 7)).slice (win13_7.rect t)).set ↔ _
  rw [View.set_slice_whole, Rect.mem_set_unit]
  exact Iff.rfl

/-- Row r of the result is covered by point r / 5000, and every point writes back. -/
theorem cover (i : S50000x100.Idx) :
    ∃ t : Fin cfg13.N, (cfg13.win 7).flush t = true ∧ i ∈ ((cfg13.win 7).blk t).view.set := by
  have hi0 : (i 0).val < 50000 := idx2_lt0 i
  have hi1 : (i 1).val < 100 := idx2_lt1 i
  have hN : cfg13.N = 10 := N_13
  obtain ⟨t, ht⟩ : ∃ t : Fin cfg13.N, t.val = (i 0).val / 5000 := ⟨⟨(i 0).val / 5000, by omega⟩, rfl⟩
  obtain ⟨-, -, -, -, -, -, -, -, -, -, -, -, -, -, e0, e1⟩ := idx_facts t
  refine ⟨t, flush13_7 t, ?_⟩
  rw [mem_blk]
  intro a
  match a with
  | ⟨0, _⟩ =>
    show win13_7.index t (0 : Fin 2) * 5000 ≤ (i 0).val ∧ (i 0).val < win13_7.index t (0 : Fin 2) * 5000 + 5000
    omega
  | ⟨1, _⟩ =>
    show win13_7.index t (1 : Fin 2) * 100 ≤ (i 1).val ∧ (i 1).val < win13_7.index t (1 : Fin 2) * 100 + 100
    omega

/-- THE RESULT ARRAY after the region: the whole-array function of the seven input arrays as the region finds them. -/
theorem out (c : Dev nD) :
    (Gen.dat13 (F := Ideal) V c).arrAt 7 cfg13.N
      = GIN.bnLinD (V c (Pipeline.arrRef spec13 0)) (V c (Pipeline.arrRef spec13 1)) (V c (Pipeline.arrRef spec13 2))
          (V c (Pipeline.arrRef spec13 3)) (V c (Pipeline.arrRef spec13 4)) (V c (Pipeline.arrRef spec13 5))
          (V c (Pipeline.arrRef spec13 6)) :=
  (dat13 V c).arrAt_eq_of_cover 7 (whole V c) (fun t _ => flushed_eq V c t) (fun i => cover i)

end Cert.KernelIdeal.RegionBnLin13

end
-- ==== Proof.RegionBnRelu14.lean ====
/-
  One batch-normalisation-and-ramp region of the kernel as a whole-array function.

  The region walks the 50000 rows of y2 in ten blocks of 5000 rows. At each block it reads the block of y2 and the four
  statistics rows (mean, variance, scale, shift: each a whole [1, 100] array, the same at every block) and writes
    max (((y - μ) · rsqrt (σ + ε)) · g + β) 0
  entry by entry into the same block of the output. An entry of the output depends on the same entry of y2 and on column
  j of each row only, so block t of the output is block t of ONE function of the whole arrays, GIN.bnReluD; the ten
  blocks are disjoint and fill the array (row r lies in block r / 5000), hence the output array after the region is that
  function of the arrays the region found.
-/
import proofs.«403201_j40475771797954_1_alg».proof.Proof.KFrameA
import proofs.«403201_j40475771797954_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionBnRelu14

open Cert.KernelIdeal Cert.KernelIdeal.Gen Idealize.ShloMosaic Idealize.ShloMosaic.TcCoe Idealize.ShloMosaic.ValueIdx
open Idealize.ShloMosaic.Pipeline (Dat)

/-! ## One entry of a block -/

/-- The block's arithmetic at entry (p, q): the shape casts are identities, a [1, 100] row broadcast over the 5000 rows
    reads its column q, and what is left is the batch-normalisation-and-ramp of the entry by column q of the four rows.
    The first argument is the VARIANCE row and the third the MEAN row. -/
theorem pay_ix (var : FVec Ideal S1x100 .f32) (y : FVec Ideal S5000x100 .f32) (mu g be : FVec Ideal S1x100 .f32)
    (p : Fin 5000) (q : Fin 100) :
    k14_pay1 (F := Ideal) var y mu g be (ix2 p q)
      = GIN.bnAct (y (ix2 p q)) (mu (ix2 0 q)) (var (ix2 0 q)) (g (ix2 0 q)) (be (ix2 0 q)) := by
  unfold k14_pay1 GIN.bnAct
  simp only [shapeCast_self, maximumf_apply, addf_apply, mulf_apply, subf_apply, broadcast_apply, broadcastTo_1b_ab_apply]
  rfl

/-- The same at any index of the block, the column being the index's second coordinate. -/
theorem pay_at (var : FVec Ideal S1x100 .f32) (y : FVec Ideal S5000x100 .f32) (mu g be : FVec Ideal S1x100 .f32)
    (j : S5000x100.Idx) :
    k14_pay1 (F := Ideal) var y mu g be j
      = GIN.bnAct (y j) (mu (ix2 0 (j 1))) (var (ix2 0 (j 1))) (g (ix2 0 (j 1))) (be (ix2 0 (j 1))) := by
  obtain ⟨p, q, rfl⟩ : ∃ (p : Fin 5000) (q : Fin 100), j = ix2 p q := ⟨j 0, j 1, eq_ix2 j⟩
  exact pay_ix var y mu g be p q

/-! ## Where the blocks sit -/

theorem hz : (![0, 0] : Fin 2 → Nat) = fun _ => 0 := funext fun a => by fin_cases a <;> rfl

/-- The block index of every window at every one of the ten points: the y2 window and the output window are at block
    (t, 0), the four rows at block (0, 0). -/
theorem idx_facts : ∀ t : Fin cfg14.N,
    win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = t.val ∧ win14_5.index t (1 : Fin 2) = 0 :=
  (by decide +kernel : ∀ t : Fin grid14.N, _)

section Region

variable (V : (c : Dev nD) → (b : Ref sig .tc) → Buf (Elt Ideal) ((c : Thread nD τ).loc b))

/-- The output array as one function of the arrays the region finds: y2, then the mean, variance, scale and shift rows. -/
abbrev whole (c : Dev nD) : FVec Ideal S50000x100 .f32 :=
  GIN.bnReluD (V c (Pipeline.arrRef spec14 0)) (V c (Pipeline.arrRef spec14 1)) (V c (Pipeline.arrRef spec14 2))
    (V c (Pipeline.arrRef spec14 3)) (V c (Pipeline.arrRef spec14 4))

/-- Entry j of the y2 block at point t is the entry of y2 that entry j of the output block at t sits over: both blocks
    are rows 5000·t … 5000·t + 4999, all 100 columns. -/
theorem read_y (c : Dev nD) (t : Fin cfg14.N) (j : S5000x100.Idx) :
    (iblk14 V c 0 t : Vec Ideal S5000x100 .f32) j
      = (V c (Pipeline.arrRef spec14 0) : S50000x100.Idx → EReal) (((cfg14.win 5).blk t).view.emb j) := by
  obtain ⟨e00, e01, -, -, -, -, -, -, -, -, e50, e51⟩ := idx_facts t
  show (V c (Pipeline.arrRef spec14 0) : S50000x100.Idx → EReal) (((cfg14.win 0).blk t).view.emb j) = _
  refine congrArg _ (funext fun a => Fin.ext ?_)
  match a with
  | ⟨0, _⟩ => show win14_0.index t (0 : Fin 2) * 5000 + 1 * (j 0).val = win14_5.index t (0 : Fin 2) * 5000 + 1 * (j 0).val; omega
  | ⟨1, _⟩ => show win14_0.index t (1 : Fin 2) * 100 + 1 * (j 1).val = win14_5.index t (1 : Fin 2) * 100 + 1 * (j 1).val; omega

/-- Column (j 1) of the mean row, read through the row's window at point t, is the row's entry at the column the output
    block's entry j sits over: the row's one block is the whole row, at every point. -/
theorem read_row1 (c : Dev nD) (t : Fin cfg14.N) (j : S5000x100.Idx) :
    (iblk14 V c 1 t : Vec Ideal S1x100 .f32) (ix2 0 (j 1))
      = (V c (Pipeline.arrRef spec14 1) : S1x100.Idx → EReal) (ix2 0 ((((cfg14.win 5).blk t).view.emb j) 1)) := by
  obtain ⟨-, -, e10, e11, -, -, -, -, -, -, e50, e51⟩ := idx_facts t
  show (V c (Pipeline.arrRef spec14 1) : S1x100.Idx → EReal) (((cfg14.win 1).blk t).view.emb (ix2 0 (j 1))) = _
  refine congrArg _ (funext fun a => Fin.ext ?_)
  match a with
  | ⟨0, _⟩ => show win14_1.index t (0 : Fin 2) * 1 + 1 * 0 = 0; omega
  | ⟨1, _⟩ => show win14_1.index t (1 : Fin 2) * 100 + 1 * (j 1).val = win14_5.index t (1 : Fin 2) * 100 + 1 * (j 1).val; omega

/-- The same for the variance row. -/
theorem read_row2 (c : Dev nD) (t : Fin cfg14.N) (j : S5000x100.Idx) :
    (iblk14 V c 2 t : Vec Ideal S1x100 .f32) (ix2 0 (j 1))
      = (V c (Pipeline.arrRef spec14 2) : S1x100.Idx → EReal) (ix2 0 ((((cfg14.win 5).blk t).view.emb j) 1)) := by
  obtain ⟨-, -, -, -, e20, e21, -, -, -, -, e50, e51⟩ := idx_facts t
  show (V c (Pipeline.arrRef spec14 2) : S1x100.Idx → EReal) (((cfg14.win 2).blk t).view.emb (ix2 0 (j 1))) = _
  refine congrArg _ (funext fun a => Fin.ext ?_)
  match a with
  | ⟨0, _⟩ => show win14_2.index t (0 : Fin 2) * 1 + 1 * 0 = 0; omega
  | ⟨1, _⟩ => show win14_2.index t (1 : Fin 2) * 100 + 1 * (j 1).val = win14_5.index t (1 : Fin 2) * 100 + 1 * (j 1).val; omega

/-- The same for the scale row. -/
theorem read_row3 (c : Dev nD) (t : Fin cfg14.N) (j : S5000x100.Idx) :
    (iblk14 V c 3 t : Vec Ideal S1x100 .f32) (ix2 0 (j 1))
      = (V c (Pipeline.arrRef spec14 3) : S1x100.Idx → EReal) (ix2 0 ((((cfg14.win 5).blk t).view.emb j) 1)) := by
  obtain ⟨-, -, -, -, -, -, e30, e31, -, -, e50, e51⟩ := idx_facts t
  show (V c (Pipeline.arrRef spec14 3) : S1x100.Idx → EReal) (((cfg14.win 3).blk t).view.emb (ix2 0 (j 1))) = _
  refine congrArg _ (funext fun a => Fin.ext ?_)
  match a with
  | ⟨0, _⟩ => show win14_3.index t (0 : Fin 2) * 1 + 1 * 0 = 0; omega
  | ⟨1, _⟩ => show win14_3.index t (1 : Fin 2) * 100 + 1 * (j 1).val = win14_5.index t (1 : Fin 2) * 100 + 1 * (j 1).val; omega

/-- The same for the shift row. -/
theorem read_row4 (c : Dev nD) (t : Fin cfg14.N) (j : S5000x100.Idx) :
    (iblk14 V c 4 t : Vec Ideal S1x100 .f32) (ix2 0 (j 1))
      = (V c (Pipeline.arrRef spec14 4) : S1x100.Idx → EReal) (ix2 0 ((((cfg14.win 5).blk t).view.emb j) 1)) := by
  obtain ⟨-, -, -, -, -, -, -, -, e40, e41, e50, e51⟩ := idx_facts t
  show (V c (Pipeline.arrRef spec14 4) : S1x100.Idx → EReal) (((cfg14.win 4).blk t).view.emb (ix2 0 (j 1))) = _
  refine congrArg _ (funext fun a => Fin.ext ?_)
  match a with
  | ⟨0, _⟩ => show win14_4.index t (0 : Fin 2) * 1 + 1 * 0 = 0; omega
  | ⟨1, _⟩ => show win14_4.index t (1 : Fin 2) * 100 + 1 * (j 1).val = win14_5.index t (1 : Fin 2) * 100 + 1 * (j 1).val; omega

/-- What point t writes back is block t of the whole-array function. -/
theorem flushed_eq (c : Dev nD) (t : Fin cfg14.N) :
    (dat14 (F := Ideal) V c).flushed 5 t = ((cfg14.win 5).blk t).view.read (Elt Ideal) (whole V c) := by
  show (cfg14.win 5).cut (grid14.coords t) ((dat14 (F := Ideal) V c).after 5 t) = _
  rw [after14_5]
  unfold out14_5
  rw [View.canon_unit_zero hz]
  simp only [View.ld_unit_zero (S := S5000x100) hz, View.ld_unit_zero (S := S1x100) hz]
  funext j
  show k14_pay1 (F := Ideal) (iblk14 V c 2 t) (iblk14 V c 0 t) (iblk14 V c 1 t) (iblk14 V c 3 t) (iblk14 V c 4 t) j
    = whole V c (((cfg14.win 5).blk t).view.emb j)
  refine (pay_at (iblk14 V c 2 t) (iblk14 V c 0 t) (iblk14 V c 1 t) (iblk14 V c 3 t) (iblk14 V c 4 t) j).trans ?_
  rw [read_y V c t j, read_row1 V c t j, read_row2 V c t j, read_row3 V c t j, read_row4 V c t j]
  rfl

/-- An index of the array is in point t's block iff each coordinate is in the block's range on its axis. -/
theorem mem_blk (t : Fin cfg14.N) (i : S50000x100.Idx) :
    i ∈ ((cfg14.win 5).blk t).view.set ↔ ∀ a : Fin 2, win14_5.index t a * S5000x100.size a ≤ (i a).val ∧ (i a).val < win14_5.index t a * S5000x100.size a + S5000x100.size a := by
  show i ∈ ((View.whole main_v349).slice (win14_5.rect t)).set ↔ _
  rw [View.set_slice_whole, Rect.mem_set_unit]
  exact Iff.rfl

/-- Every entry of the array is written: row r lies in the block of point r / 5000. -/
theorem cover (i : S50000x100.Idx) :
    ∃ t : Fin cfg14.N, (cfg14.win 5).flush t = true ∧ i ∈ ((cfg14.win 5).blk t).view.set := by
  have hi0 : (i 0).val < 50000 := (i 0).isLt
  have hi1 : (i 1).val < 100 := (i 1).isLt
  have hN : cfg14.N = 10 := N_14
  obtain ⟨t, ht⟩ : ∃ t : Fin cfg14.N, t.val = (i 0).val / 5000 := ⟨⟨(i 0).val / 5000, by rw [hN]; omega⟩, rfl⟩
  obtain ⟨-, -, -, -, -, -, -, -, -, -, e50, e51⟩ := idx_facts t
  refine ⟨t, flush14_5 t, ?_⟩
  rw [mem_blk]
  intro a
  match a with
  | ⟨0, _⟩ => show win14_5.index t (0 : Fin 2) * 5000 ≤ (i 0).val ∧ (i 0).val < win14_5.index t (0 : Fin 2) * 5000 + 5000; omega
  | ⟨1, _⟩ => show win14_5.index t (1 : Fin 2) * 100 ≤ (i 1).val ∧ (i 1).val < win14_5.index t (1 : Fin 2) * 100 + 100; omega

/-- The output array after the region: batch normalisation and ramp of y2 by the four rows, entry by entry. -/
theorem out (c : Dev nD) :
    (dat14 (F := Ideal) V c).arrAt 5 cfg14.N
      = GIN.bnReluD (V c (Pipeline.arrRef spec14 0)) (V c (Pipeline.arrRef spec14 1)) (V c (Pipeline.arrRef spec14 2))
          (V c (Pipeline.arrRef spec14 3)) (V c (Pipeline.arrRef spec14 4)) :=
  (dat14 (F := Ideal) V c).arrAt_eq_of_cover 5 (whole V c) (fun t _ => flushed_eq V c t) cover

end Region

end Cert.KernelIdeal.RegionBnRelu14

end
-- ==== Proof.KAggOf4.lean ====
/-
  The graph half of layer 4 on the kernel's side, as a fact about the host stretch alone. Between region 11's exit (the
  layer-3 output h is in main_v309) and region 12's entry the host computes, from h, the edge features e (main_v145),
  the edge ends src (main_v147) and dst (main_v149) and the stacked parameters eps, W1, b1 (main_arg6, main_arg7,
  main_arg8):

    hh = (1 + eps[4]) · h + Σ_{edges k with dst k = row} (h[src k] + e k)        into main_v326,
    W1[4] as a [100, 200] matrix                                                  into main_v328,
    b1[4] as a [1, 200] row                                                       into main_v329.

  Each is read off the stretch's operations in order, from ANY contents `V` of the buffers at its start: the result
  buffer holds its operation's function of the operands' buffers, and an operand either is the result of an earlier
  operation of the stretch or is untouched by it and so still holds what `V` gives it. The composed terms are the
  specification's `GIN.agg`, `GIN.w1Of`, `GIN.rowHOf` letter for letter, so nothing is computed: the gather and the
  scatter-add stay closed.
-/
import proofs.«403201_j40475771797954_1_alg».proof.Proof.Gen.KernelIdeal.Launch
import proofs.«403201_j40475771797954_1_alg».proof.Proof.SpecGraph
import Idealize.ShloMosaic.Lib.StableHlo.Run

set_option maxRecDepth 16384

noncomputable section

namespace Cert.KernelIdeal.Agg4

open Cert.KernelIdeal Cert.KernelIdeal.Gen
open Idealize.ShloMosaic Idealize.ShloMosaic.TcCoe

/-- The aggregated features: `(1 + eps[4]) · h + scatter-add over dst of (h[src] + e)`. The index rows are used three
    times and h twice, so the stretch is read in one pass. -/
theorem hh_of (V : Valuation τ sig (Elt Ideal)) :
    StableHlo.after (hostOps12 (F := Ideal)) V (Proc.devRef .tc main_v326)
      = GIN.agg (GIN.epsOf (V (Proc.devRef .tc main_arg6)) 4 (by decide)) (V (Proc.devRef .tc main_v309))
          (V (Proc.devRef .tc main_v145)) (V (Proc.devRef .tc main_v147)) (V (Proc.devRef .tc main_v149)) := by
  after_results_simp
  rfl

/-- The layer's first weight matrix: slice 4 of the stack, its unit axis dropped. -/
theorem w1_of (V : Valuation τ sig (Elt Ideal)) :
    StableHlo.after (hostOps12 (F := Ideal)) V (Proc.devRef .tc main_v328)
      = GIN.w1Of (V (Proc.devRef .tc main_arg7)) 4 (by decide) := by
  after_results
  rfl

/-- The layer's first bias: row 4 of the stack, kept as a row. -/
theorem b1_of (V : Valuation τ sig (Elt Ideal)) :
    StableHlo.after (hostOps12 (F := Ideal)) V (Proc.devRef .tc main_v329)
      = GIN.rowHOf (V (Proc.devRef .tc main_arg8)) 4 (by decide) := by
  after_results
  rfl

end Cert.KernelIdeal.Agg4

end
-- ==== Proof.KAgg4.lean ====
/-
  The graph half of layer 4 at its place in the kernel's run: region 12 is entered (`W41`) with

    hh = (1 + eps[4]) · h + Σ_{edges k with dst k = row} (h[src k] + e k)        in main_v326,
    W1[4] as a [100, 200] matrix                                                  in main_v328,
    b1[4] as a [1, 200] row                                                       in main_v329,

  each a function of what region 11's exit (`W40`) holds in h (main_v309), e (main_v145), src (main_v147), dst
  (main_v149) and the stacked parameters (main_arg6, main_arg7, main_arg8): the entry contents are the host stretch
  run from the exit contents, and the stretch was read from any start.
-/
import proofs.«403201_j40475771797954_1_alg».proof.Proof.KFrameB
import proofs.«403201_j40475771797954_1_alg».proof.Proof.KAggOf4

set_option maxRecDepth 16384

noncomputable section

namespace Cert.KernelIdeal.Agg4

open Cert.KernelIdeal Cert.KernelIdeal.Gen
open Idealize.ShloMosaic Idealize.ShloMosaic.TcCoe

variable (m : (ℓ : Loc nD τ sig) → Buf (Elt Ideal) ℓ) (ρ : Dev nD → PrngReg)

theorem hh_eq (c : Dev nD) :
    W41 m ρ c (Proc.devRef .tc main_v326)
      = GIN.agg (GIN.epsOf (W40 m ρ c (Proc.devRef .tc main_arg6)) 4 (by decide)) (W40 m ρ c (Proc.devRef .tc main_v309))
          (W40 m ρ c (Proc.devRef .tc main_v145)) (W40 m ρ c (Proc.devRef .tc main_v147))
          (W40 m ρ c (Proc.devRef .tc main_v149)) :=
  hh_of (W40 m ρ c)

theorem w1_eq (c : Dev nD) :
    W41 m ρ c (Proc.devRef .tc main_v328) = GIN.w1Of (W40 m ρ c (Proc.devRef .tc main_arg7)) 4 (by decide) :=
  w1_of (W40 m ρ c)

theorem b1_eq (c : Dev nD) :
    W41 m ρ c (Proc.devRef .tc main_v329) = GIN.rowHOf (W40 m ρ c (Proc.devRef .tc main_arg8)) 4 (by decide) :=
  b1_of (W40 m ρ c)

end Cert.KernelIdeal.Agg4

end
-- ==== Proof.KStatsOps4.lean ====
/-
  Layer 4's two host stretches that follow its first and its second matrix product, read at ANY contents V of the
  TensorCore's buffers when the stretch begins.

  After the first product y1 the host forms, from y1 alone, the row of column means and the row of column variances, and
  cuts layer 4's rows of the stacked normalisation parameters, its second weight matrix and its second bias row out of
  the arguments; after the second product y2 the same two rows of y2 and the last two parameter rows. Each result buffer
  holds the composed term of exactly the operations that lead to it, which is the neutral specification's function of the
  stretch's inputs; the products themselves are not written by the stretch.
-/
import proofs.«403201_j40475771797954_1_alg».proof.Proof.Gen.KernelIdeal.Launch
import proofs.«403201_j40475771797954_1_alg».proof.Proof.SpecStats
import Idealize.ShloMosaic.Lib.StableHlo.Run

set_option maxRecDepth 16384

noncomputable section

namespace Cert.KernelIdeal.Stats4

open Cert.KernelIdeal Cert.KernelIdeal.Gen
open Idealize.ShloMosaic Idealize.ShloMosaic.StableHlo Idealize.SL.Sem

variable (V : Valuation τ sig (Elt Ideal))

/-! ## After the first product: y1 is main_v330 -/

/-- The mean row of y1: the column sums over the splat of 50000. -/
theorem mean1_of :
    StableHlo.after (hostOps13_2 (F := Ideal)) (StableHlo.after hostOps13_1 (StableHlo.after hostOps13 V)) (Proc.devRef .tc main_v334)
      = GIN.meanRowH (V (Proc.devRef .tc main_v330)) := by
  after_results
  rfl

set_option maxHeartbeats 1000000 in
/-- The variance row of y1: the variance function's operations, its count read from the integer 0 the stretch before
    it leaves. -/
theorem var1_of :
    StableHlo.after (hostOps13_2 (F := Ideal)) (StableHlo.after hostOps13_1 (StableHlo.after hostOps13 V)) (Proc.devRef .tc main_v335)
      = GIN.varRowH (V (Proc.devRef .tc main_v330)) := by
  after_results_simp
  rfl

/-- Layer 4's row of the first normalisation's scale. -/
theorem g1_of :
    StableHlo.after (hostOps13_2 (F := Ideal)) (StableHlo.after hostOps13_1 (StableHlo.after hostOps13 V)) (Proc.devRef .tc main_v336)
      = GIN.rowHOf (V (Proc.devRef .tc main_arg9)) 4 (by decide) := by
  after_results
  rfl

/-- Layer 4's row of the first normalisation's shift. -/
theorem be1_of :
    StableHlo.after (hostOps13_2 (F := Ideal)) (StableHlo.after hostOps13_1 (StableHlo.after hostOps13 V)) (Proc.devRef .tc main_v337)
      = GIN.rowHOf (V (Proc.devRef .tc main_arg10)) 4 (by decide) := by
  after_results
  rfl

/-- Layer 4's second weight matrix. -/
theorem w2_of :
    StableHlo.after (hostOps13_2 (F := Ideal)) (StableHlo.after hostOps13_1 (StableHlo.after hostOps13 V)) (Proc.devRef .tc main_v339)
      = GIN.w2Of (V (Proc.devRef .tc main_arg11)) 4 (by decide) := by
  after_results
  rfl

/-- Layer 4's second bias row. -/
theorem b2_of :
    StableHlo.after (hostOps13_2 (F := Ideal)) (StableHlo.after hostOps13_1 (StableHlo.after hostOps13 V)) (Proc.devRef .tc main_v340)
      = GIN.rowDOf (V (Proc.devRef .tc main_arg12)) 4 (by decide) := by
  after_results
  rfl

/-- The stretch reads y1 and does not write it. -/
theorem y1_keep_of :
    StableHlo.after (hostOps13_2 (F := Ideal)) (StableHlo.after hostOps13_1 (StableHlo.after hostOps13 V)) (Proc.devRef .tc main_v330)
      = V (Proc.devRef .tc main_v330) := by
  after_results

/-! ## After the second product: y2 is main_v341 -/

/-- The mean row of y2. -/
theorem mean2_of :
    StableHlo.after (hostOps14_2 (F := Ideal)) (StableHlo.after hostOps14_1 (StableHlo.after hostOps14 V)) (Proc.devRef .tc main_v345)
      = GIN.meanRowD (V (Proc.devRef .tc main_v341)) := by
  after_results
  rfl

set_option maxHeartbeats 1000000 in
/-- The variance row of y2. -/
theorem var2_of :
    StableHlo.after (hostOps14_2 (F := Ideal)) (StableHlo.after hostOps14_1 (StableHlo.after hostOps14 V)) (Proc.devRef .tc main_v346)
      = GIN.varRowD (V (Proc.devRef .tc main_v341)) := by
  after_results_simp
  rfl

/-- Layer 4's row of the second normalisation's scale. -/
theorem go_of :
    StableHlo.after (hostOps14_2 (F := Ideal)) (StableHlo.after hostOps14_1 (StableHlo.after hostOps14 V)) (Proc.devRef .tc main_v347)
      = GIN.rowDOf (V (Proc.devRef .tc main_arg13)) 4 (by decide) := by
  after_results
  rfl

/-- Layer 4's row of the second normalisation's shift. -/
theorem bo_of :
    StableHlo.after (hostOps14_2 (F := Ideal)) (StableHlo.after hostOps14_1 (StableHlo.after hostOps14 V)) (Proc.devRef .tc main_v348)
      = GIN.rowDOf (V (Proc.devRef .tc main_arg14)) 4 (by decide) := by
  after_results
  rfl

/-- The stretch reads y2 and does not write it. -/
theorem y2_keep_of :
    StableHlo.after (hostOps14_2 (F := Ideal)) (StableHlo.after hostOps14_1 (StableHlo.after hostOps14 V)) (Proc.devRef .tc main_v341)
      = V (Proc.devRef .tc main_v341) := by
  after_results

end Cert.KernelIdeal.Stats4

end
-- ==== Proof.KStats4.lean ====
/-
  Layer 4's column statistics and parameter rows, at the boundaries of the kernel's run.

  The first product y1 is what the first dense step leaves at its exit; the three host stretches that follow it end at
  the entry of the second dense step, where the mean row and the variance row of y1, layer 4's rows of the first
  normalisation's scale and shift, its second weight matrix and its second bias row stand ready, and y1 itself is as it
  was. The same holds one step later for the second product y2 and the entry of the third dense step. Each statement is
  the stretch's own read, taken at the contents the step before it leaves.
-/
import proofs.«403201_j40475771797954_1_alg».proof.Proof.KFrameB
import proofs.«403201_j40475771797954_1_alg».proof.Proof.KStatsOps4

set_option maxRecDepth 16384

noncomputable section

namespace Cert.KernelIdeal.Stats4

open Cert.KernelIdeal Cert.KernelIdeal.Gen
open Idealize.ShloMosaic Idealize.SL.Sem

variable (m : (ℓ : Loc nD τ sig) → Buf (Elt Ideal) ℓ) (ρ : Dev nD → PrngReg) (c : Dev nD)

/-! ## From the first dense step's exit to the second's entry -/

theorem mean1_eq : W45 m ρ c (Proc.devRef .tc main_v334) = GIN.meanRowH (W42 m ρ c (Proc.devRef .tc main_v330)) :=
  mean1_of (W42 m ρ c)

theorem var1_eq : W45 m ρ c (Proc.devRef .tc main_v335) = GIN.varRowH (W42 m ρ c (Proc.devRef .tc main_v330)) :=
  var1_of (W42 m ρ c)

theorem g1_eq : W45 m ρ c (Proc.devRef .tc main_v336) = GIN.rowHOf (W42 m ρ c (Proc.devRef .tc main_arg9)) 4 (by decide) :=
  g1_of (W42 m ρ c)

theorem be1_eq : W45 m ρ c (Proc.devRef .tc main_v337) = GIN.rowHOf (W42 m ρ c (Proc.devRef .tc main_arg10)) 4 (by decide) :=
  be1_of (W42 m ρ c)

theorem w2_eq : W45 m ρ c (Proc.devRef .tc main_v339) = GIN.w2Of (W42 m ρ c (Proc.devRef .tc main_arg11)) 4 (by decide) :=
  w2_of (W42 m ρ c)

theorem b2_eq : W45 m ρ c (Proc.devRef .tc main_v340) = GIN.rowDOf (W42 m ρ c (Proc.devRef .tc main_arg12)) 4 (by decide) :=
  b2_of (W42 m ρ c)

theorem y1_keep : W45 m ρ c (Proc.devRef .tc main_v330) = W42 m ρ c (Proc.devRef .tc main_v330) :=
  y1_keep_of (W42 m ρ c)

/-! ## From the second dense step's exit to the third's entry -/

theorem mean2_eq : W49 m ρ c (Proc.devRef .tc main_v345) = GIN.meanRowD (W46 m ρ c (Proc.devRef .tc main_v341)) :=
  mean2_of (W46 m ρ c)

theorem var2_eq : W49 m ρ c (Proc.devRef .tc main_v346) = GIN.varRowD (W46 m ρ c (Proc.devRef .tc main_v341)) :=
  var2_of (W46 m ρ c)

theorem go_eq : W49 m ρ c (Proc.devRef .tc main_v347) = GIN.rowDOf (W46 m ρ c (Proc.devRef .tc main_arg13)) 4 (by decide) :=
  go_of (W46 m ρ c)

theorem bo_eq : W49 m ρ c (Proc.devRef .tc main_v348) = GIN.rowDOf (W46 m ρ c (Proc.devRef .tc main_arg14)) 4 (by decide) :=
  bo_of (W46 m ρ c)

theorem y2_keep : W49 m ρ c (Proc.devRef .tc main_v341) = W46 m ρ c (Proc.devRef .tc main_v341) :=
  y2_keep_of (W46 m ρ c)

end Cert.KernelIdeal.Stats4

end
-- ==== Proof.KLayer4.lean ====
/-
  The kernel's fifth GIN layer, read off the boundaries of its run.

  Between the exit of the fourth layer's last dense step and the exit of this layer's last dense step the run passes
  three dense steps, each entered after a stretch of host operations:
    hh = (1 + eps[4]) · h + Σ over the edges into a node of (h[src] + e)     at the first step's entry,
    y1 = hh · W1[4] + b1[4]                                                    at the first step's exit,
    the mean row and the variance row of y1                                    at the second step's entry,
    y2 = max (normalise y1) 0 · W2[4] + b2[4]                                  at the second step's exit,
    the mean row and the variance row of y2                                    at the third step's entry,
    h' = max (normalise y2) 0                                                  at the third step's exit.
  A step's exit holds the step's function of what its entry holds in the step's input arrays; a stretch's results
  are functions of what the exit before it holds; the edge features, the edge ends and the stacked parameters are as
  the first stretch of the program left them, the parameters being the program's arguments. Substituting one
  equation into the next, these are the eight step equations of the specification's layer, at layer 4's slices of the
  arguments, with h what the fourth layer's last step left.
-/
import proofs.«403201_j40475771797954_1_alg».proof.Proof.KFrameB
import proofs.«403201_j40475771797954_1_alg».proof.Proof.Model
import proofs.«403201_j40475771797954_1_alg».proof.Proof.RegionLin12
import proofs.«403201_j40475771797954_1_alg».proof.Proof.RegionBnLin13
import proofs.«403201_j40475771797954_1_alg».proof.Proof.RegionBnRelu14
import proofs.«403201_j40475771797954_1_alg».proof.Proof.KInit
import proofs.«403201_j40475771797954_1_alg».proof.Proof.KAgg4
import proofs.«403201_j40475771797954_1_alg».proof.Proof.KStats4
import proofs.«403201_j40475771797954_1_alg».proof.Proof.KKeep

set_option maxRecDepth 16384

noncomputable section

namespace Cert.KernelIdeal.Layer4

open Cert Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## The three dense steps: the exit's output array is the step's function of the entry's input arrays -/

theorem y1_exit :
    W42 m ρ c (Proc.devRef .tc main_v330)
      = GIN.linH (W41 m ρ c (Proc.devRef .tc main_v326)) (W41 m ρ c (Proc.devRef .tc main_v328))
          (W41 m ρ c (Proc.devRef .tc main_v329)) :=
  (W42_arr m ρ c 3).trans (RegionLin12.out (V41 m ρ) c)

theorem y2_exit :
    W46 m ρ c (Proc.devRef .tc main_v341)
      = GIN.bnLinD (W45 m ρ c (Proc.devRef .tc main_v330)) (W45 m ρ c (Proc.devRef .tc main_v334))
          (W45 m ρ c (Proc.devRef .tc main_v335)) (W45 m ρ c (Proc.devRef .tc main_v336))
          (W45 m ρ c (Proc.devRef .tc main_v337)) (W45 m ρ c (Proc.devRef .tc main_v339))
          (W45 m ρ c (Proc.devRef .tc main_v340)) :=
  (W46_arr m ρ c 7).trans (RegionBnLin13.out (V45 m ρ) c)

theorem h_exit :
    W50 m ρ c (Proc.devRef .tc main_v349)
      = GIN.bnReluD (W49 m ρ c (Proc.devRef .tc main_v341)) (W49 m ρ c (Proc.devRef .tc main_v345))
          (W49 m ρ c (Proc.devRef .tc main_v346)) (W49 m ρ c (Proc.devRef .tc main_v347))
          (W49 m ρ c (Proc.devRef .tc main_v348)) :=
  (W50_arr m ρ c 5).trans (RegionBnRelu14.out (V49 m ρ) c)

/-! ## The layer -/

/-- What the layer's last dense step leaves is the specification's layer 4 of what the layer before left, at the
    program's arguments. -/
theorem layer_eq :
    W50 m ρ c (Proc.devRef .tc main_v349)
      = GIN.layer (GIN.epsOf (m ((c : Thread nD τ).loc main_arg6)) 4 (by decide)) (GIN.w1Of (m ((c : Thread nD τ).loc main_arg7)) 4 (by decide))
          (GIN.rowHOf (m ((c : Thread nD τ).loc main_arg8)) 4 (by decide)) (GIN.rowHOf (m ((c : Thread nD τ).loc main_arg9)) 4 (by decide))
          (GIN.rowHOf (m ((c : Thread nD τ).loc main_arg10)) 4 (by decide)) (GIN.w2Of (m ((c : Thread nD τ).loc main_arg11)) 4 (by decide))
          (GIN.rowDOf (m ((c : Thread nD τ).loc main_arg12)) 4 (by decide)) (GIN.rowDOf (m ((c : Thread nD τ).loc main_arg13)) 4 (by decide))
          (GIN.rowDOf (m ((c : Thread nD τ).loc main_arg14)) 4 (by decide))
          (GIN.bondSum (m ((c : Thread nD τ).loc main_arg2)) (m ((c : Thread nD τ).loc main_arg5))) (GIN.srcOf (m ((c : Thread nD τ).loc main_arg1))) (GIN.dstOf (m ((c : Thread nD τ).loc main_arg1)))
          (W40 m ρ c (Proc.devRef .tc main_v309)) := by
  -- the aggregation, over the carried edge data and the arguments
  have hhh := Agg4.hh_eq m ρ c
  rw [Keep.keep_main_arg6_W40 m ρ c, Keep.keep_main_v145_W40 m ρ c, Keep.keep_main_v147_W40 m ρ c,
    Keep.keep_main_v149_W40 m ρ c, Init.arg_W1_6 m ρ c, Init.e_eq m ρ c, Init.src_eq m ρ c, Init.dst_eq m ρ c] at hhh
  -- the first dense step, at layer 4's weight matrix and bias row
  have hy1 := y1_exit m ρ c
  rw [Agg4.w1_eq m ρ c, Agg4.b1_eq m ρ c, Keep.keep_main_arg7_W40 m ρ c, Keep.keep_main_arg8_W40 m ρ c,
    Init.arg_W1_7 m ρ c, Init.arg_W1_8 m ρ c] at hy1
  -- y1's statistics, and the second dense step at its parameters
  have hmu1 := Stats4.mean1_eq m ρ c
  have hvar1 := Stats4.var1_eq m ρ c
  have hy2 := y2_exit m ρ c
  rw [Stats4.y1_keep m ρ c, Stats4.g1_eq m ρ c, Stats4.be1_eq m ρ c, Stats4.w2_eq m ρ c, Stats4.b2_eq m ρ c,
    Keep.keep_main_arg9_W42 m ρ c, Keep.keep_main_arg10_W42 m ρ c, Keep.keep_main_arg11_W42 m ρ c,
    Keep.keep_main_arg12_W42 m ρ c, Init.arg_W1_9 m ρ c, Init.arg_W1_10 m ρ c, Init.arg_W1_11 m ρ c,
    Init.arg_W1_12 m ρ c] at hy2
  -- y2's statistics, and the third dense step at its parameters
  have hmu2 := Stats4.mean2_eq m ρ c
  have hvar2 := Stats4.var2_eq m ρ c
  have hout := h_exit m ρ c
  rw [Stats4.y2_keep m ρ c, Stats4.go_eq m ρ c, Stats4.bo_eq m ρ c, Keep.keep_main_arg13_W46 m ρ c,
    Keep.keep_main_arg14_W46 m ρ c, Init.arg_W1_13 m ρ c, Init.arg_W1_14 m ρ c] at hout
  exact GIN.layer_of_steps hhh hy1 hmu1 hvar1 hy2 hmu2 hvar2 hout

end Cert.KernelIdeal.Layer4

end
-- ==== Proof.KValue.lean ====
/-
  The kernel's whole value: what its run leaves in the result buffer is the specification's network of the program's
  seventeen arguments.

  The run ends with the head — the mean pool over the graphs and the last linear map — of the node features the
  fifth layer's last dense step leaves, of the graph indices and of the head's two parameters, which nothing after
  the first stretch of host operations writes. Each layer's last dense step leaves the specification's layer of what
  the layer before it left, the first of the embedded node features. Composed, that is the network.
-/
import proofs.«403201_j40475771797954_1_alg».proof.Proof.KFrameB
import proofs.«403201_j40475771797954_1_alg».proof.Proof.Model
import proofs.«403201_j40475771797954_1_alg».proof.Proof.KInit
import proofs.«403201_j40475771797954_1_alg».proof.Proof.KKeep
import proofs.«403201_j40475771797954_1_alg».proof.Proof.KHead
import proofs.«403201_j40475771797954_1_alg».proof.Proof.KLayer0
import proofs.«403201_j40475771797954_1_alg».proof.Proof.KLayer1
import proofs.«403201_j40475771797954_1_alg».proof.Proof.KLayer2
import proofs.«403201_j40475771797954_1_alg».proof.Proof.KLayer3
import proofs.«403201_j40475771797954_1_alg».proof.Proof.KLayer4

set_option maxRecDepth 16384

noncomputable section

namespace Cert.KernelIdeal.Whole

open Cert Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The fifth layer's output is the five layers, one inside the other, of the embedded node features. -/
theorem layers :
    W50 m ρ c (Proc.devRef .tc main_v349)
      = GIN.layer (GIN.epsOf (m ((c : Thread nD τ).loc main_arg6)) 4 (by decide)) (GIN.w1Of (m ((c : Thread nD τ).loc main_arg7)) 4 (by decide))
          (GIN.rowHOf (m ((c : Thread nD τ).loc main_arg8)) 4 (by decide)) (GIN.rowHOf (m ((c : Thread nD τ).loc main_arg9)) 4 (by decide))
          (GIN.rowHOf (m ((c : Thread nD τ).loc main_arg10)) 4 (by decide)) (GIN.w2Of (m ((c : Thread nD τ).loc main_arg11)) 4 (by decide))
          (GIN.rowDOf (m ((c : Thread nD τ).loc main_arg12)) 4 (by decide)) (GIN.rowDOf (m ((c : Thread nD τ).loc main_arg13)) 4 (by decide))
          (GIN.rowDOf (m ((c : Thread nD τ).loc main_arg14)) 4 (by decide))
          (GIN.bondSum (m ((c : Thread nD τ).loc main_arg2)) (m ((c : Thread nD τ).loc main_arg5))) (GIN.srcOf (m ((c : Thread nD τ).loc main_arg1))) (GIN.dstOf (m ((c : Thread nD τ).loc main_arg1)))
          (GIN.layer (GIN.epsOf (m ((c : Thread nD τ).loc main_arg6)) 3 (by decide)) (GIN.w1Of (m ((c : Thread nD τ).loc main_arg7)) 3 (by decide))
          (GIN.rowHOf (m ((c : Thread nD τ).loc main_arg8)) 3 (by decide)) (GIN.rowHOf (m ((c : Thread nD τ).loc main_arg9)) 3 (by decide))
          (GIN.rowHOf (m ((c : Thread nD τ).loc main_arg10)) 3 (by decide)) (GIN.w2Of (m ((c : Thread nD τ).loc main_arg11)) 3 (by decide))
          (GIN.rowDOf (m ((c : Thread nD τ).loc main_arg12)) 3 (by decide)) (GIN.rowDOf (m ((c : Thread nD τ).loc main_arg13)) 3 (by decide))
          (GIN.rowDOf (m ((c : Thread nD τ).loc main_arg14)) 3 (by decide))
          (GIN.bondSum (m ((c : Thread nD τ).loc main_arg2)) (m ((c : Thread nD τ).loc main_arg5))) (GIN.srcOf (m ((c : Thread nD τ).loc main_arg1))) (GIN.dstOf (m ((c : Thread nD τ).loc main_arg1)))
          (GIN.layer (GIN.epsOf (m ((c : Thread nD τ).loc main_arg6)) 2 (by decide)) (GIN.w1Of (m ((c : Thread nD τ).loc main_arg7)) 2 (by decide))
          (GIN.rowHOf (m ((c : Thread nD τ).loc main_arg8)) 2 (by decide)) (GIN.rowHOf (m ((c : Thread nD τ).loc main_arg9)) 2 (by decide))
          (GIN.rowHOf (m ((c : Thread nD τ).loc main_arg10)) 2 (by decide)) (GIN.w2Of (m ((c : Thread nD τ).loc main_arg11)) 2 (by decide))
          (GIN.rowDOf (m ((c : Thread nD τ).loc main_arg12)) 2 (by decide)) (GIN.rowDOf (m ((c : Thread nD τ).loc main_arg13)) 2 (by decide))
          (GIN.rowDOf (m ((c : Thread nD τ).loc main_arg14)) 2 (by decide))
          (GIN.bondSum (m ((c : Thread nD τ).loc main_arg2)) (m ((c : Thread nD τ).loc main_arg5))) (GIN.srcOf (m ((c : Thread nD τ).loc main_arg1))) (GIN.dstOf (m ((c : Thread nD τ).loc main_arg1)))
          (GIN.layer (GIN.epsOf (m ((c : Thread nD τ).loc main_arg6)) 1 (by decide)) (GIN.w1Of (m ((c : Thread nD τ).loc main_arg7)) 1 (by decide))
          (GIN.rowHOf (m ((c : Thread nD τ).loc main_arg8)) 1 (by decide)) (GIN.rowHOf (m ((c : Thread nD τ).loc main_arg9)) 1 (by decide))
          (GIN.rowHOf (m ((c : Thread nD τ).loc main_arg10)) 1 (by decide)) (GIN.w2Of (m ((c : Thread nD τ).loc main_arg11)) 1 (by decide))
          (GIN.rowDOf (m ((c : Thread nD τ).loc main_arg12)) 1 (by decide)) (GIN.rowDOf (m ((c : Thread nD τ).loc main_arg13)) 1 (by decide))
          (GIN.rowDOf (m ((c : Thread nD τ).loc main_arg14)) 1 (by decide))
          (GIN.bondSum (m ((c : Thread nD τ).loc main_arg2)) (m ((c : Thread nD τ).loc main_arg5))) (GIN.srcOf (m ((c : Thread nD τ).loc main_arg1))) (GIN.dstOf (m ((c : Thread nD τ).loc main_arg1)))
          (GIN.layer (GIN.epsOf (m ((c : Thread nD τ).loc main_arg6)) 0 (by decide)) (GIN.w1Of (m ((c : Thread nD τ).loc main_arg7)) 0 (by decide))
          (GIN.rowHOf (m ((c : Thread nD τ).loc main_arg8)) 0 (by decide)) (GIN.rowHOf (m ((c : Thread nD τ).loc main_arg9)) 0 (by decide))
          (GIN.rowHOf (m ((c : Thread nD τ).loc main_arg10)) 0 (by decide)) (GIN.w2Of (m ((c : Thread nD τ).loc main_arg11)) 0 (by decide))
          (GIN.rowDOf (m ((c : Thread nD τ).loc main_arg12)) 0 (by decide)) (GIN.rowDOf (m ((c : Thread nD τ).loc main_arg13)) 0 (by decide))
          (GIN.rowDOf (m ((c : Thread nD τ).loc main_arg14)) 0 (by decide))
          (GIN.bondSum (m ((c : Thread nD τ).loc main_arg2)) (m ((c : Thread nD τ).loc main_arg5))) (GIN.srcOf (m ((c : Thread nD τ).loc main_arg1))) (GIN.dstOf (m ((c : Thread nD τ).loc main_arg1)))
          (GIN.atomSum (m ((c : Thread nD τ).loc main_arg0)) (m ((c : Thread nD τ).loc main_arg4))))))) := by
  rw [Layer4.layer_eq m ρ c, Layer3.layer_eq m ρ c, Layer2.layer_eq m ρ c, Layer1.layer_eq m ρ c,
    Layer0.layer_eq m ρ c]

/-- The result buffer at the end of the run is the network of the arguments. -/
theorem value :
    W51 m ρ c (Proc.devRef .tc main_v365)
      = GIN.model (m ((c : Thread nD τ).loc main_arg0))
          (m ((c : Thread nD τ).loc main_arg1))
          (m ((c : Thread nD τ).loc main_arg2))
          (m ((c : Thread nD τ).loc main_arg3))
          (m ((c : Thread nD τ).loc main_arg4))
          (m ((c : Thread nD τ).loc main_arg5))
          (m ((c : Thread nD τ).loc main_arg6))
          (m ((c : Thread nD τ).loc main_arg7))
          (m ((c : Thread nD τ).loc main_arg8))
          (m ((c : Thread nD τ).loc main_arg9))
          (m ((c : Thread nD τ).loc main_arg10))
          (m ((c : Thread nD τ).loc main_arg11))
          (m ((c : Thread nD τ).loc main_arg12))
          (m ((c : Thread nD τ).loc main_arg13))
          (m ((c : Thread nD τ).loc main_arg14))
          (m ((c : Thread nD τ).loc main_arg15))
          (m ((c : Thread nD τ).loc main_arg16)) := by
  rw [Head.head_eq m ρ c, Keep.keep_main_arg3_W50 m ρ c, Keep.keep_main_arg15_W50 m ρ c,
    Keep.keep_main_arg16_W50 m ρ c, Init.arg_W1_3 m ρ c, Init.arg_W1_15 m ρ c, Init.arg_W1_16 m ρ c, layers m ρ c]
  rfl

end Cert.KernelIdeal.Whole

end
-- ==== Proof.RefOps.lean ====
/- The reference program's @main as lists of its host operations, one list per printed window `main_partK`, in
   the order the program runs them. A call of a module-local function stands as the callee's operations at the call
   site, the callee's argument names replaced by the call's operands and its record's fields by that call's
   buffers (a nested call likewise), which is what unfolding the call gives. Beside each list: every operation
   of it touches TensorCore references only. -/
import proofs.«403201_j40475771797954_1_alg».proof.Proof.Gen.ReferenceIdeal
import Idealize.ShloMosaic.Lib.StableHlo.Run

set_option maxRecDepth 16384

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- Window 0: 60 operations, numbers 1 … 60 of the whole run. -/
abbrev part0 : List (HloOp τ sig (Elt F)) :=
  [ StableHlo.unary main_arg4 main_v0 ((extractStridedSlice S1x128x100 ![0, 0, 0] · slices_S9x128x100_S1x128x100_0_0_0) : (⟨S9x128x100, .f32⟩ : BufTy).Contents (Elt F) → (⟨S1x128x100, .f32⟩ : BufTy).Contents (Elt F)),
    StableHlo.reshape main_v0 main_v1 rfl shapeCasts_S1x128x100_S128x100,
    StableHlo.unary main_arg0 main_v2 ((extractStridedSlice S50000x1 ![0, 0] · slices_S50000x9_S50000x1_0_0) : (⟨S50000x9, .i32⟩ : BufTy).Contents (Elt F) → (⟨S50000x1, .i32⟩ : BufTy).Contents (Elt F)),
    StableHlo.reshape main_v2 main_v3 rfl shapeCasts_S50000x1_S50000,
    StableHlo.nullary main_c (constantI S_ 32 0#32),
    StableHlo.unary main_c main_v4 (broadcastInDim S50000 ![] bcast_S_S50000 : (⟨S_, .i32⟩ : BufTy).Contents (Elt F) → (⟨S50000, .i32⟩ : BufTy).Contents (Elt F)),
    StableHlo.binary main_v3 main_v4 main_v5 (cmpi .slt : (⟨S50000, .i32⟩ : BufTy).Contents (Elt F) → (⟨S50000, .i32⟩ : BufTy).Contents (Elt F) → (⟨S50000, .i1⟩ : BufTy).Contents (Elt F)),
    StableHlo.nullary main_c_0 (constantI S_ 32 128#32),
    StableHlo.unary main_c_0 main_v6 (broadcastInDim S50000 ![] bcast_S_S50000 : (⟨S_, .i32⟩ : BufTy).Contents (Elt F) → (⟨S50000, .i32⟩ : BufTy).Contents (Elt F)),
    StableHlo.binary main_v3 main_v6 main_v7 (addi : (⟨S50000, .i32⟩ : BufTy).Contents (Elt F) → (⟨S50000, .i32⟩ : BufTy).Contents (Elt F) → (⟨S50000, .i32⟩ : BufTy).Contents (Elt F)),
    StableHlo.ternary main_v5 main_v7 main_v3 main_v8 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v8 main_v9 (broadcastInDim S50000x1 ![0] bcast_S50000_S50000x1_0 : (⟨S50000, .i32⟩ : BufTy).Contents (Elt F) → (⟨S50000x1, .i32⟩ : BufTy).Contents (Elt F)),
    StableHlo.binary main_v1 main_v9 main_v10 ((fun x i => Host.gather gather_S128x100_S50000x1_S50000x100_1_0_n_n_0_1_1100 x i) : (⟨S128x100, .f32⟩ : BufTy).Contents (Elt F) → (⟨S50000x1, .i32⟩ : BufTy).Contents (Elt F) → (⟨S50000x100, .f32⟩ : BufTy).Contents (Elt F)),
    StableHlo.nullary main_cst (constant S_ .f32 0x00000000#32),
    StableHlo.unary main_cst main_v11 (broadcastInDim S50000x100 ![] bcast_S_S50000x100 : (⟨S_, .f32⟩ : BufTy).Contents (Elt F) → (⟨S50000x100, .f32⟩ : BufTy).Contents (Elt F)),
    StableHlo.binary main_v11 main_v10 main_v12 (addf : (⟨S50000x100, .f32⟩ : BufTy).Contents (Elt F) → (⟨S50000x100, .f32⟩ : BufTy).Contents (Elt F) → (⟨S50000x100, .f32⟩ : BufTy).Contents (Elt F)),
    StableHlo.unary main_arg4 main_v13 ((extractStridedSlice S1x128x100 ![1, 0, 0] · slices_S9x128x100_S1x128x100_1_0_0) : (⟨S9x128x100, .f32⟩ : BufTy).Contents (Elt F) → (⟨S1x128x100, .f32⟩ : BufTy).Contents (Elt F)),
    StableHlo.reshape main_v13 main_v14 rfl shapeCasts_S1x128x100_S128x100,
    StableHlo.unary main_arg0 main_v15 ((extractStridedSlice S50000x1 ![0, 1] · slices_S50000x9_S50000x1_0_1) : (⟨S50000x9, .i32⟩ : BufTy).Contents (Elt F) → (⟨S50000x1, .i32⟩ : BufTy).Contents (Elt F)),
    StableHlo.reshape main_v15 main_v16 rfl shapeCasts_S50000x1_S50000,
    StableHlo.nullary main_c_1 (constantI S_ 32 0#32),
    StableHlo.unary main_c_1 main_v17 (broadcastInDim S50000 ![] bcast_S_S50000 : (⟨S_, .i32⟩ : BufTy).Contents (Elt F) → (⟨S50000, .i32⟩ : BufTy).Contents (Elt F)),
    StableHlo.binary main_v16 main_v17 main_v18 (cmpi .slt : (⟨S50000, .i32⟩ : BufTy).Contents (Elt F) → (⟨S50000, .i32⟩ : BufTy).Contents (Elt F) → (⟨S50000, .i1⟩ : BufTy).Contents (Elt F)),
    StableHlo.nullary main_c_2 (constantI S_ 32 128#32),
    StableHlo.unary main_c_2 main_v19 (broadcastInDim S50000 ![] bcast_S_S50000 : (⟨S_, .i32⟩ : BufTy).Contents (Elt F) → (⟨S50000, .i32⟩ : BufTy).Contents (Elt F)),
    StableHlo.binary main_v16 main_v19 main_v20 (addi : (⟨S50000, .i32⟩ : BufTy).Contents (Elt F) → (⟨S50000, .i32⟩ : BufTy).Contents (Elt F) → (⟨S50000, .i32⟩ : BufTy).Contents (Elt F)),
    StableHlo.ternary main_v18 main_v20 main_v16 main_v21 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v21 main_v22 (broadcastInDim S50000x1 ![0] bcast_S50000_S50000x1_0 : (⟨S50000, .i32⟩ : BufTy).Contents (Elt F) → (⟨S50000x1, .i32⟩ : BufTy).Contents (Elt F)),
    StableHlo.binary main_v14 main_v22 main_v23 ((fun x i => Host.gather gather_S128x100_S50000x1_S50000x100_1_0_n_n_0_1_1100 x i) : (⟨S128x100, .f32⟩ : BufTy).Contents (Elt F) → (⟨S50000x1, .i32⟩ : BufTy).Contents (Elt F) → (⟨S50000x100, .f32⟩ : BufTy).Contents (Elt F)),
    StableHlo.binary main_v12 main_v23 main_v24 (addf : (⟨S50000x100, .f32⟩ : BufTy).Contents (Elt F) → (⟨S50000x100, .f32⟩ : BufTy).Contents (Elt F) → (⟨S50000x100, .f32⟩ : BufTy).Contents (Elt F)),
    StableHlo.unary main_arg4 main_v25 ((extractStridedSlice S1x128x100 ![2, 0, 0] · slices_S9x128x100_S1x128x100_2_0_0) : (⟨S9x128x100, .f32⟩ : BufTy).Contents (Elt F) → (⟨S1x128x100, .f32⟩ : BufTy).Contents (Elt F)),
    StableHlo.reshape main_v25 main_v26 rfl shapeCasts_S1x128x100_S128x100,
    StableHlo.unary main_arg0 main_v27 ((extractStridedSlice S50000x1 ![0, 2] · slices_S50000x9_S50000x1_0_2) : (⟨S50000x9, .i32⟩ : BufTy).Contents (Elt F) → (⟨S50000x1, .i32⟩ : BufTy).Contents (Elt F)),
    StableHlo.reshape main_v27 main_v28 rfl shapeCasts_S50000x1_S50000,
    StableHlo.nullary main_c_3 (constantI S_ 32 0#32),
    StableHlo.unary main_c_3 main_v29 (broadcastInDim S50000 ![] bcast_S_S50000 : (⟨S_, .i32⟩ : BufTy).Contents (Elt F) → (⟨S50000, .i32⟩ : BufTy).Contents (Elt F)),
    StableHlo.binary main_v28 main_v29 main_v30 (cmpi .slt : (⟨S50000, .i32⟩ : BufTy).Contents (Elt F) → (⟨S50000, .i32⟩ : BufTy).Contents (Elt F) → (⟨S50000, .i1⟩ : BufTy).Contents (Elt F)),
    StableHlo.nullary main_c_4 (constantI S_ 32 128#32),
    StableHlo.unary main_c_4 main_v31 (broadcastInDim S50000 ![] bcast_S_S50000 : (⟨S_, .i32⟩ : BufTy).Contents (Elt F) → (⟨S50000, .i32⟩ : BufTy).Contents (Elt F)),
    StableHlo.binary main_v28 main_v31 main_v32 (addi : (⟨S50000, .i32⟩ : BufTy).Contents (Elt F) → (⟨S50000, .i32⟩ : BufTy).Contents (Elt F) → (⟨S50000, .i32⟩ : BufTy).Contents (Elt F)),
    StableHlo.ternary main_v30 main_v32 main_v28 main_v33 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v33 main_v34 (broadcastInDim S50000x1 ![0] bcast_S50000_S50000x1_0 : (⟨S50000, .i32⟩ : BufTy).Contents (Elt F) → (⟨S50000x1, .i32⟩ : BufTy).Contents (Elt F)),
    StableHlo.binary main_v26 main_v34 main_v35 ((fun x i => Host.gather gather_S128x100_S50000x1_S50000x100_1_0_n_n_0_1_1100 x i) : (⟨S128x100, .f32⟩ : BufTy).Contents (Elt F) → (⟨S50000x1, .i32⟩ : BufTy).Contents (Elt F) → (⟨S50000x100, .f32⟩ : BufTy).Contents (Elt F)),
    StableHlo.binary main_v24 main_v35 main_v36 (addf : (⟨S50000x100, .f32⟩ : BufTy).Contents (Elt F) → (⟨S50000x100, .f32⟩ : BufTy).Contents (Elt F) → (⟨S50000x100, .f32⟩ : BufTy).Contents (Elt F)),
    StableHlo.unary main_arg4 main_v37 ((extractStridedSlice S1x128x100 ![3, 0, 0] · slices_S9x128x100_S1x128x100_3_0_0) : (⟨S9x128x100, .f32⟩ : BufTy).Contents (Elt F) → (⟨S1x128x100, .f32⟩ : BufTy).Contents (Elt F)),
    StableHlo.reshape main_v37 main_v38 rfl shapeCasts_S1x128x100_S128x100,
    StableHlo.unary main_arg0 main_v39 ((extractStridedSlice S50000x1 ![0, 3] · slices_S50000x9_S50000x1_0_3) : (⟨S50000x9, .i32⟩ : BufTy).Contents (Elt F) → (⟨S50000x1, .i32⟩ : BufTy).Contents (Elt F)),
    StableHlo.reshape main_v39 main_v40 rfl shapeCasts_S50000x1_S50000,
    StableHlo.nullary main_c_5 (constantI S_ 32 0#32),
    StableHlo.unary main_c_5 main_v41 (broadcastInDim S50000 ![] bcast_S_S50000 : (⟨S_, .i32⟩ : BufTy).Contents (Elt F) → (⟨S50000, .i32⟩ : BufTy).Contents (Elt F)),
    StableHlo.binary main_v40 main_v41 main_v42 (cmpi .slt : (⟨S50000, .i32⟩ : BufTy).Contents (Elt F) → (⟨S50000, .i32⟩ : BufTy).Contents (Elt F) → (⟨S50000, .i1⟩ : BufTy).Contents (Elt F)),
    StableHlo.nullary main_c_6 (constantI S_ 32 128#32),
    StableHlo.unary main_c_6 main_v43 (broadcastInDim S50000 ![] bcast_S_S50000 : (⟨S_, .i32⟩ : BufTy).Contents (Elt F) → (⟨S50000, .i32⟩ : BufTy).Contents (Elt F)),
    StableHlo.binary main_v40 main_v43 main_v44 (addi : (⟨S50000, .i32⟩ : BufTy).Contents (Elt F) → (⟨S50000, .i32⟩ : BufTy).Contents (Elt F) → (⟨S50000, .i32⟩ : BufTy).Contents (Elt F)),
    StableHlo.ternary main_v42 main_v44 main_v40 main_v45 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v45 main_v46 (broadcastInDim S50000x1 ![0] bcast_S50000_S50000x1_0 : (⟨S50000, .i32⟩ : BufTy).Contents (Elt F) → (⟨S50000x1, .i32⟩ : BufTy).Contents (Elt F)),
    StableHlo.binary main_v38 main_v46 main_v47 ((fun x i => Host.gather gather_S128x100_S50000x1_S50000x100_1_0_n_n_0_1_1100 x i) : (⟨S128x100, .f32⟩ : BufTy).Contents (Elt F) → (⟨S50000x1, .i32⟩ : BufTy).Contents (Elt F) → (⟨S50000x100, .f32⟩ : BufTy).Contents (Elt F)),
    StableHlo.binary main_v36 main_v47 main_v48 (addf : (⟨S50000x100, .f32⟩ : BufTy).Contents (Elt F) → (⟨S50000x100, .f32⟩ : BufTy).Contents (Elt F) → (⟨S50000x100, .f32⟩ : BufTy).Contents (Elt F)),
    StableHlo.unary main_arg4 main_v49 ((extractStridedSlice S1x128x100 ![4, 0, 0] · slices_S9x128x100_S1x128x100_4_0_0) : (⟨S9x128x100, .f32⟩ : BufTy).Contents (Elt F) → (⟨S1x128x100, .f32⟩ : BufTy).Contents (Elt F)),
    StableHlo.reshape main_v49 main_v50 rfl shapeCasts_S1x128x100_S128x100 ]
theorem part0_sub : (part0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub ..⟩

/-- Window 1: 60 operations, numbers 61 … 120 of the whole run. -/
abbrev part1 : List (HloOp τ sig (Elt F)) :=
  [ StableHlo.unary main_arg0 main_v51 ((extractStridedSlice S50000x1 ![0, 4] · slices_S50000x9_S50000x1_0_4) : (⟨S50000x9, .i32⟩ : BufTy).Contents (Elt F) → (⟨S50000x1, .i32⟩ : BufTy).Contents (Elt F)),
    StableHlo.reshape main_v51 main_v52 rfl shapeCasts_S50000x1_S50000,
    StableHlo.nullary main_c_7 (constantI S_ 32 0#32),
    StableHlo.unary main_c_7 main_v53 (broadcastInDim S50000 ![] bcast_S_S50000 : (⟨S_, .i32⟩ : BufTy).Contents (Elt F) → (⟨S50000, .i32⟩ : BufTy).Contents (Elt F)),
    StableHlo.binary main_v52 main_v53 main_v54 (cmpi .slt : (⟨S50000, .i32⟩ : BufTy).Contents (Elt F) → (⟨S50000, .i32⟩ : BufTy).Contents (Elt F) → (⟨S50000, .i1⟩ : BufTy).Contents (Elt F)),
    StableHlo.nullary main_c_8 (constantI S_ 32 128#32),
    StableHlo.unary main_c_8 main_v55 (broadcastInDim S50000 ![] bcast_S_S50000 : (⟨S_, .i32⟩ : BufTy).Contents (Elt F) → (⟨S50000, .i32⟩ : BufTy).Contents (Elt F)),
    StableHlo.binary main_v52 main_v55 main_v56 (addi : (⟨S50000, .i32⟩ : BufTy).Contents (Elt F) → (⟨S50000, .i32⟩ : BufTy).Contents (Elt F) → (⟨S50000, .i32⟩ : BufTy).Contents (Elt F)),
    StableHlo.ternary main_v54 main_v56 main_v52 main_v57 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v57 main_v58 (broadcastInDim S50000x1 ![0] bcast_S50000_S50000x1_0 : (⟨S50000, .i32⟩ : BufTy).Contents (Elt F) → (⟨S50000x1, .i32⟩ : BufTy).Contents (Elt F)),
    StableHlo.binary main_v50 main_v58 main_v59 ((fun x i => Host.gather gather_S128x100_S50000x1_S50000x100_1_0_n_n_0_1_1100 x i) : (⟨S128x100, .f32⟩ : BufTy).Contents (Elt F) → (⟨S50000x1, .i32⟩ : BufTy).Contents (Elt F) → (⟨S50000x100, .f32⟩ : BufTy).Contents (Elt F)),
    StableHlo.binary main_v48 main_v59 main_v60 (addf : (⟨S50000x100, .f32⟩ : BufTy).Contents (Elt F) → (⟨S50000x100, .f32⟩ : BufTy).Contents (Elt F) → (⟨S50000x100, .f32⟩ : BufTy).Contents (Elt F)),
    StableHlo.unary main_arg4 main_v61 ((extractStridedSlice S1x128x100 ![5, 0, 0] · slices_S9x128x100_S1x128x100_5_0_0) : (⟨S9x128x100, .f32⟩ : BufTy).Contents (Elt F) → (⟨S1x128x100, .f32⟩ : BufTy).Contents (Elt F)),
    StableHlo.reshape main_v61 main_v62 rfl shapeCasts_S1x128x100_S128x100,
    StableHlo.unary main_arg0 main_v63 ((extractStridedSlice S50000x1 ![0, 5] · slices_S50000x9_S50000x1_0_5) : (⟨S50000x9, .i32⟩ : BufTy).Contents (Elt F) → (⟨S50000x1, .i32⟩ : BufTy).Contents (Elt F)),
    StableHlo.reshape main_v63 main_v64 rfl shapeCasts_S50000x1_S50000,
    StableHlo.nullary main_c_9 (constantI S_ 32 0#32),
    StableHlo.unary main_c_9 main_v65 (broadcastInDim S50000 ![] bcast_S_S50000 : (⟨S_, .i32⟩ : BufTy).Contents (Elt F) → (⟨S50000, .i32⟩ : BufTy).Contents (Elt F)),
    StableHlo.binary main_v64 main_v65 main_v66 (cmpi .slt : (⟨S50000, .i32⟩ : BufTy).Contents (Elt F) → (⟨S50000, .i32⟩ : BufTy).Contents (Elt F) → (⟨S50000, .i1⟩ : BufTy).Contents (Elt F)),
    StableHlo.nullary main_c_10 (constantI S_ 32 128#32),
    StableHlo.unary main_c_10 main_v67 (broadcastInDim S50000 ![] bcast_S_S50000 : (⟨S_, .i32⟩ : BufTy).Contents (Elt F) → (⟨S50000, .i32⟩ : BufTy).Contents (Elt F)),
    StableHlo.binary main_v64 main_v67 main_v68 (addi : (⟨S50000, .i32⟩ : BufTy).Contents (Elt F) → (⟨S50000, .i32⟩ : BufTy).Contents (Elt F) → (⟨S50000, .i32⟩ : BufTy).Contents (Elt F)),
    StableHlo.ternary main_v66 main_v68 main_v64 main_v69 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v69 main_v70 (broadcastInDim S50000x1 ![0] bcast_S50000_S50000x1_0 : (⟨S50000, .i32⟩ : BufTy).Contents (Elt F) → (⟨S50000x1, .i32⟩ : BufTy).Contents (Elt F)),
    StableHlo.binary main_v62 main_v70 main_v71 ((fun x i => Host.gather gather_S128x100_S50000x1_S50000x100_1_0_n_n_0_1_1100 x i) : (⟨S128x100, .f32⟩ : BufTy).Contents (Elt F) → (⟨S50000x1, .i32⟩ : BufTy).Contents (Elt F) → (⟨S50000x100, .f32⟩ : BufTy).Contents (Elt F)),
    StableHlo.binary main_v60 main_v71 main_v72 (addf : (⟨S50000x100, .f32⟩ : BufTy).Contents (Elt F) → (⟨S50000x100, .f32⟩ : BufTy).Contents (Elt F) → (⟨S50000x100, .f32⟩ : BufTy).Contents (Elt F)),
    StableHlo.unary main_arg4 main_v73 ((extractStridedSlice S1x128x100 ![6, 0, 0] · slices_S9x128x100_S1x128x100_6_0_0) : (⟨S9x128x100, .f32⟩ : BufTy).Contents (Elt F) → (⟨S1x128x100, .f32⟩ : BufTy).Contents (Elt F)),
    StableHlo.reshape main_v73 main_v74 rfl shapeCasts_S1x128x100_S128x100,
    StableHlo.unary main_arg0 main_v75 ((extractStridedSlice S50000x1 ![0, 6] · slices_S50000x9_S50000x1_0_6) : (⟨S50000x9, .i32⟩ : BufTy).Contents (Elt F) → (⟨S50000x1, .i32⟩ : BufTy).Contents (Elt F)),
    StableHlo.reshape main_v75 main_v76 rfl shapeCasts_S50000x1_S50000,
    StableHlo.nullary main_c_11 (constantI S_ 32 0#32),
    StableHlo.unary main_c_11 main_v77 (broadcastInDim S50000 ![] bcast_S_S50000 : (⟨S_, .i32⟩ : BufTy).Contents (Elt F) → (⟨S50000, .i32⟩ : BufTy).Contents (Elt F)),
    StableHlo.binary main_v76 main_v77 main_v78 (cmpi .slt : (⟨S50000, .i32⟩ : BufTy).Contents (Elt F) → (⟨S50000, .i32⟩ : BufTy).Contents (Elt F) → (⟨S50000, .i1⟩ : BufTy).Contents (Elt F)),
    StableHlo.nullary main_c_12 (constantI S_ 32 128#32),
    StableHlo.unary main_c_12 main_v79 (broadcastInDim S50000 ![] bcast_S_S50000 : (⟨S_, .i32⟩ : BufTy).Contents (Elt F) → (⟨S50000, .i32⟩ : BufTy).Contents (Elt F)),
    StableHlo.binary main_v76 main_v79 main_v80 (addi : (⟨S50000, .i32⟩ : BufTy).Contents (Elt F) → (⟨S50000, .i32⟩ : BufTy).Contents (Elt F) → (⟨S50000, .i32⟩ : BufTy).Contents (Elt F)),
    StableHlo.ternary main_v78 main_v80 main_v76 main_v81 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v81 main_v82 (broadcastInDim S50000x1 ![0] bcast_S50000_S50000x1_0 : (⟨S50000, .i32⟩ : BufTy).Contents (Elt F) → (⟨S50000x1, .i32⟩ : BufTy).Contents (Elt F)),
    StableHlo.binary main_v74 main_v82 main_v83 ((fun x i => Host.gather gather_S128x100_S50000x1_S50000x100_1_0_n_n_0_1_1100 x i) : (⟨S128x100, .f32⟩ : BufTy).Contents (Elt F) → (⟨S50000x1, .i32⟩ : BufTy).Contents (Elt F) → (⟨S50000x100, .f32⟩ : BufTy).Contents (Elt F)),
    StableHlo.binary main_v72 main_v83 main_v84 (addf : (⟨S50000x100, .f32⟩ : BufTy).Contents (Elt F) → (⟨S50000x100, .f32⟩ : BufTy).Contents (Elt F) → (⟨S50000x100, .f32⟩ : BufTy).Contents (Elt F)),
    StableHlo.unary main_arg4 main_v85 ((extractStridedSlice S1x128x100 ![7, 0, 0] · slices_S9x128x100_S1x128x100_7_0_0) : (⟨S9x128x100, .f32⟩ : BufTy).Contents (Elt F) → (⟨S1x128x100, .f32⟩ : BufTy).Contents (Elt F)),
    StableHlo.reshape main_v85 main_v86 rfl shapeCasts_S1x128x100_S128x100,
    StableHlo.unary main_arg0 main_v87 ((extractStridedSlice S50000x1 ![0, 7] · slices_S50000x9_S50000x1_0_7) : (⟨S50000x9, .i32⟩ : BufTy).Contents (Elt F) → (⟨S50000x1, .i32⟩ : BufTy).Contents (Elt F)),
    StableHlo.reshape main_v87 main_v88 rfl shapeCasts_S50000x1_S50000,
    StableHlo.nullary main_c_13 (constantI S_ 32 0#32),
    StableHlo.unary main_c_13 main_v89 (broadcastInDim S50000 ![] bcast_S_S50000 : (⟨S_, .i32⟩ : BufTy).Contents (Elt F) → (⟨S50000, .i32⟩ : BufTy).Contents (Elt F)),
    StableHlo.binary main_v88 main_v89 main_v90 (cmpi .slt : (⟨S50000, .i32⟩ : BufTy).Contents (Elt F) → (⟨S50000, .i32⟩ : BufTy).Contents (Elt F) → (⟨S50000, .i1⟩ : BufTy).Contents (Elt F)),
    StableHlo.nullary main_c_14 (constantI S_ 32 128#32),
    StableHlo.unary main_c_14 main_v91 (broadcastInDim S50000 ![] bcast_S_S50000 : (⟨S_, .i32⟩ : BufTy).Contents (Elt F) → (⟨S50000, .i32⟩ : BufTy).Contents (Elt F)),
    StableHlo.binary main_v88 main_v91 main_v92 (addi : (⟨S50000, .i32⟩ : BufTy).Contents (Elt F) → (⟨S50000, .i32⟩ : BufTy).Contents (Elt F) → (⟨S50000, .i32⟩ : BufTy).Contents (Elt F)),
    StableHlo.ternary main_v90 main_v92 main_v88 main_v93 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v93 main_v94 (broadcastInDim S50000x1 ![0] bcast_S50000_S50000x1_0 : (⟨S50000, .i32⟩ : BufTy).Contents (Elt F) → (⟨S50000x1, .i32⟩ : BufTy).Contents (Elt F)),
    StableHlo.binary main_v86 main_v94 main_v95 ((fun x i => Host.gather gather_S128x100_S50000x1_S50000x100_1_0_n_n_0_1_1100 x i) : (⟨S128x100, .f32⟩ : BufTy).Contents (Elt F) → (⟨S50000x1, .i32⟩ : BufTy).Contents (Elt F) → (⟨S50000x100, .f32⟩ : BufTy).Contents (Elt F)),
    StableHlo.binary main_v84 main_v95 main_v96 (addf : (⟨S50000x100, .f32⟩ : BufTy).Contents (Elt F) → (⟨S50000x100, .f32⟩ : BufTy).Contents (Elt F) → (⟨S50000x100, .f32⟩ : BufTy).Contents (Elt F)),
    StableHlo.unary main_arg4 main_v97 ((extractStridedSlice S1x128x100 ![8, 0, 0] · slices_S9x128x100_S1x128x100_8_0_0) : (⟨S9x128x100, .f32⟩ : BufTy).Contents (Elt F) → (⟨S1x128x100, .f32⟩ : BufTy).Contents (Elt F)),
    StableHlo.reshape main_v97 main_v98 rfl shapeCasts_S1x128x100_S128x100,
    StableHlo.unary main_arg0 main_v99 ((extractStridedSlice S50000x1 ![0, 8] · slices_S50000x9_S50000x1_0_8) : (⟨S50000x9, .i32⟩ : BufTy).Contents (Elt F) → (⟨S50000x1, .i32⟩ : BufTy).Contents (Elt F)),
    StableHlo.reshape main_v99 main_v100 rfl shapeCasts_S50000x1_S50000,
    StableHlo.nullary main_c_15 (constantI S_ 32 0#32),
    StableHlo.unary main_c_15 main_v101 (broadcastInDim S50000 ![] bcast_S_S50000 : (⟨S_, .i32⟩ : BufTy).Contents (Elt F) → (⟨S50000, .i32⟩ : BufTy).Contents (Elt F)) ]
theorem part1_sub : (part1 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub ..⟩

/-- Window 2: 60 operations, numbers 121 … 180 of the whole run. -/
abbrev part2 : List (HloOp τ sig (Elt F)) :=
  [ StableHlo.binary main_v100 main_v101 main_v102 (cmpi .slt : (⟨S50000, .i32⟩ : BufTy).Contents (Elt F) → (⟨S50000, .i32⟩ : BufTy).Contents (Elt F) → (⟨S50000, .i1⟩ : BufTy).Contents (Elt F)),
    StableHlo.nullary main_c_16 (constantI S_ 32 128#32),
    StableHlo.unary main_c_16 main_v103 (broadcastInDim S50000 ![] bcast_S_S50000 : (⟨S_, .i32⟩ : BufTy).Contents (Elt F) → (⟨S50000, .i32⟩ : BufTy).Contents (Elt F)),
    StableHlo.binary main_v100 main_v103 main_v104 (addi : (⟨S50000, .i32⟩ : BufTy).Contents (Elt F) → (⟨S50000, .i32⟩ : BufTy).Contents (Elt F) → (⟨S50000, .i32⟩ : BufTy).Contents (Elt F)),
    StableHlo.ternary main_v102 main_v104 main_v100 main_v105 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v105 main_v106 (broadcastInDim S50000x1 ![0] bcast_S50000_S50000x1_0 : (⟨S50000, .i32⟩ : BufTy).Contents (Elt F) → (⟨S50000x1, .i32⟩ : BufTy).Contents (Elt F)),
    StableHlo.binary main_v98 main_v106 main_v107 ((fun x i => Host.gather gather_S128x100_S50000x1_S50000x100_1_0_n_n_0_1_1100 x i) : (⟨S128x100, .f32⟩ : BufTy).Contents (Elt F) → (⟨S50000x1, .i32⟩ : BufTy).Contents (Elt F) → (⟨S50000x100, .f32⟩ : BufTy).Contents (Elt F)),
    StableHlo.binary main_v96 main_v107 main_v108 (addf : (⟨S50000x100, .f32⟩ : BufTy).Contents (Elt F) → (⟨S50000x100, .f32⟩ : BufTy).Contents (Elt F) → (⟨S50000x100, .f32⟩ : BufTy).Contents (Elt F)),
    StableHlo.unary main_arg5 main_v109 ((extractStridedSlice S1x16x100 ![0, 0, 0] · slices_S3x16x100_S1x16x100_0_0_0) : (⟨S3x16x100, .f32⟩ : BufTy).Contents (Elt F) → (⟨S1x16x100, .f32⟩ : BufTy).Contents (Elt F)),
    StableHlo.reshape main_v109 main_v110 rfl shapeCasts_S1x16x100_S16x100,
    StableHlo.unary main_arg2 main_v111 ((extractStridedSlice S800000x1 ![0, 0] · slices_S800000x3_S800000x1_0_0) : (⟨S800000x3, .i32⟩ : BufTy).Contents (Elt F) → (⟨S800000x1, .i32⟩ : BufTy).Contents (Elt F)),
    StableHlo.reshape main_v111 main_v112 rfl shapeCasts_S800000x1_S800000,
    StableHlo.nullary main_c_17 (constantI S_ 32 0#32),
    StableHlo.unary main_c_17 main_v113 (broadcastInDim S800000 ![] bcast_S_S800000 : (⟨S_, .i32⟩ : BufTy).Contents (Elt F) → (⟨S800000, .i32⟩ : BufTy).Contents (Elt F)),
    StableHlo.binary main_v112 main_v113 main_v114 (cmpi .slt : (⟨S800000, .i32⟩ : BufTy).Contents (Elt F) → (⟨S800000, .i32⟩ : BufTy).Contents (Elt F) → (⟨S800000, .i1⟩ : BufTy).Contents (Elt F)),
    StableHlo.nullary main_c_18 (constantI S_ 32 16#32),
    StableHlo.unary main_c_18 main_v115 (broadcastInDim S800000 ![] bcast_S_S800000 : (⟨S_, .i32⟩ : BufTy).Contents (Elt F) → (⟨S800000, .i32⟩ : BufTy).Contents (Elt F)),
    StableHlo.binary main_v112 main_v115 main_v116 (addi : (⟨S800000, .i32⟩ : BufTy).Contents (Elt F) → (⟨S800000, .i32⟩ : BufTy).Contents (Elt F) → (⟨S800000, .i32⟩ : BufTy).Contents (Elt F)),
    StableHlo.ternary main_v114 main_v116 main_v112 main_v117 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v117 main_v118 (broadcastInDim S800000x1 ![0] bcast_S800000_S800000x1_0 : (⟨S800000, .i32⟩ : BufTy).Contents (Elt F) → (⟨S800000x1, .i32⟩ : BufTy).Contents (Elt F)),
    StableHlo.binary main_v110 main_v118 main_v119 ((fun x i => Host.gather gather_S16x100_S800000x1_S800000x100_1_0_n_n_0_1_1100 x i) : (⟨S16x100, .f32⟩ : BufTy).Contents (Elt F) → (⟨S800000x1, .i32⟩ : BufTy).Contents (Elt F) → (⟨S800000x100, .f32⟩ : BufTy).Contents (Elt F)),
    StableHlo.nullary main_cst_19 (constant S_ .f32 0x00000000#32),
    StableHlo.unary main_cst_19 main_v120 (broadcastInDim S800000x100 ![] bcast_S_S800000x100 : (⟨S_, .f32⟩ : BufTy).Contents (Elt F) → (⟨S800000x100, .f32⟩ : BufTy).Contents (Elt F)),
    StableHlo.binary main_v120 main_v119 main_v121 (addf : (⟨S800000x100, .f32⟩ : BufTy).Contents (Elt F) → (⟨S800000x100, .f32⟩ : BufTy).Contents (Elt F) → (⟨S800000x100, .f32⟩ : BufTy).Contents (Elt F)),
    StableHlo.unary main_arg5 main_v122 ((extractStridedSlice S1x16x100 ![1, 0, 0] · slices_S3x16x100_S1x16x100_1_0_0) : (⟨S3x16x100, .f32⟩ : BufTy).Contents (Elt F) → (⟨S1x16x100, .f32⟩ : BufTy).Contents (Elt F)),
    StableHlo.reshape main_v122 main_v123 rfl shapeCasts_S1x16x100_S16x100,
    StableHlo.unary main_arg2 main_v124 ((extractStridedSlice S800000x1 ![0, 1] · slices_S800000x3_S800000x1_0_1) : (⟨S800000x3, .i32⟩ : BufTy).Contents (Elt F) → (⟨S800000x1, .i32⟩ : BufTy).Contents (Elt F)),
    StableHlo.reshape main_v124 main_v125 rfl shapeCasts_S800000x1_S800000,
    StableHlo.nullary main_c_20 (constantI S_ 32 0#32),
    StableHlo.unary main_c_20 main_v126 (broadcastInDim S800000 ![] bcast_S_S800000 : (⟨S_, .i32⟩ : BufTy).Contents (Elt F) → (⟨S800000, .i32⟩ : BufTy).Contents (Elt F)),
    StableHlo.binary main_v125 main_v126 main_v127 (cmpi .slt : (⟨S800000, .i32⟩ : BufTy).Contents (Elt F) → (⟨S800000, .i32⟩ : BufTy).Contents (Elt F) → (⟨S800000, .i1⟩ : BufTy).Contents (Elt F)),
    StableHlo.nullary main_c_21 (constantI S_ 32 16#32),
    StableHlo.unary main_c_21 main_v128 (broadcastInDim S800000 ![] bcast_S_S800000 : (⟨S_, .i32⟩ : BufTy).Contents (Elt F) → (⟨S800000, .i32⟩ : BufTy).Contents (Elt F)),
    StableHlo.binary main_v125 main_v128 main_v129 (addi : (⟨S800000, .i32⟩ : BufTy).Contents (Elt F) → (⟨S800000, .i32⟩ : BufTy).Contents (Elt F) → (⟨S800000, .i32⟩ : BufTy).Contents (Elt F)),
    StableHlo.ternary main_v127 main_v129 main_v125 main_v130 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v130 main_v131 (broadcastInDim S800000x1 ![0] bcast_S800000_S800000x1_0 : (⟨S800000, .i32⟩ : BufTy).Contents (Elt F) → (⟨S800000x1, .i32⟩ : BufTy).Contents (Elt F)),
    StableHlo.binary main_v123 main_v131 main_v132 ((fun x i => Host.gather gather_S16x100_S800000x1_S800000x100_1_0_n_n_0_1_1100 x i) : (⟨S16x100, .f32⟩ : BufTy).Contents (Elt F) → (⟨S800000x1, .i32⟩ : BufTy).Contents (Elt F) → (⟨S800000x100, .f32⟩ : BufTy).Contents (Elt F)),
    StableHlo.binary main_v121 main_v132 main_v133 (addf : (⟨S800000x100, .f32⟩ : BufTy).Contents (Elt F) → (⟨S800000x100, .f32⟩ : BufTy).Contents (Elt F) → (⟨S800000x100, .f32⟩ : BufTy).Contents (Elt F)),
    StableHlo.unary main_arg5 main_v134 ((extractStridedSlice S1x16x100 ![2, 0, 0] · slices_S3x16x100_S1x16x100_2_0_0) : (⟨S3x16x100, .f32⟩ : BufTy).Contents (Elt F) → (⟨S1x16x100, .f32⟩ : BufTy).Contents (Elt F)),
    StableHlo.reshape main_v134 main_v135 rfl shapeCasts_S1x16x100_S16x100,
    StableHlo.unary main_arg2 main_v136 ((extractStridedSlice S800000x1 ![0, 2] · slices_S800000x3_S800000x1_0_2) : (⟨S800000x3, .i32⟩ : BufTy).Contents (Elt F) → (⟨S800000x1, .i32⟩ : BufTy).Contents (Elt F)),
    StableHlo.reshape main_v136 main_v137 rfl shapeCasts_S800000x1_S800000,
    StableHlo.nullary main_c_22 (constantI S_ 32 0#32),
    StableHlo.unary main_c_22 main_v138 (broadcastInDim S800000 ![] bcast_S_S800000 : (⟨S_, .i32⟩ : BufTy).Contents (Elt F) → (⟨S800000, .i32⟩ : BufTy).Contents (Elt F)),
    StableHlo.binary main_v137 main_v138 main_v139 (cmpi .slt : (⟨S800000, .i32⟩ : BufTy).Contents (Elt F) → (⟨S800000, .i32⟩ : BufTy).Contents (Elt F) → (⟨S800000, .i1⟩ : BufTy).Contents (Elt F)),
    StableHlo.nullary main_c_23 (constantI S_ 32 16#32),
    StableHlo.unary main_c_23 main_v140 (broadcastInDim S800000 ![] bcast_S_S800000 : (⟨S_, .i32⟩ : BufTy).Contents (Elt F) → (⟨S800000, .i32⟩ : BufTy).Contents (Elt F)),
    StableHlo.binary main_v137 main_v140 main_v141 (addi : (⟨S800000, .i32⟩ : BufTy).Contents (Elt F) → (⟨S800000, .i32⟩ : BufTy).Contents (Elt F) → (⟨S800000, .i32⟩ : BufTy).Contents (Elt F)),
    StableHlo.ternary main_v139 main_v141 main_v137 main_v142 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v142 main_v143 (broadcastInDim S800000x1 ![0] bcast_S800000_S800000x1_0 : (⟨S800000, .i32⟩ : BufTy).Contents (Elt F) → (⟨S800000x1, .i32⟩ : BufTy).Contents (Elt F)),
    StableHlo.binary main_v135 main_v143 main_v144 ((fun x i => Host.gather gather_S16x100_S800000x1_S800000x100_1_0_n_n_0_1_1100 x i) : (⟨S16x100, .f32⟩ : BufTy).Contents (Elt F) → (⟨S800000x1, .i32⟩ : BufTy).Contents (Elt F) → (⟨S800000x100, .f32⟩ : BufTy).Contents (Elt F)),
    StableHlo.binary main_v133 main_v144 main_v145 (addf : (⟨S800000x100, .f32⟩ : BufTy).Contents (Elt F) → (⟨S800000x100, .f32⟩ : BufTy).Contents (Elt F) → (⟨S800000x100, .f32⟩ : BufTy).Contents (Elt F)),
    StableHlo.unary main_arg1 main_v146 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v146 main_v147 rfl shapeCasts_S1x800000_S800000,
    StableHlo.unary main_arg1 main_v148 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v148 main_v149 rfl shapeCasts_S1x800000_S800000,
    StableHlo.nullary main_c_24 (constantI S_ 32 0#32),
    StableHlo.unary main_c_24 main_v150 (broadcastInDim S800000 ![] bcast_S_S800000 : (⟨S_, .i32⟩ : BufTy).Contents (Elt F) → (⟨S800000, .i32⟩ : BufTy).Contents (Elt F)),
    StableHlo.binary main_v147 main_v150 main_v151 (cmpi .slt : (⟨S800000, .i32⟩ : BufTy).Contents (Elt F) → (⟨S800000, .i32⟩ : BufTy).Contents (Elt F) → (⟨S800000, .i1⟩ : BufTy).Contents (Elt F)),
    StableHlo.nullary main_c_25 (constantI S_ 32 50000#32) ]
theorem part2_sub : (part2 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub ..⟩

/-- Window 3: 83 operations, numbers 181 … 263 of the whole run. -/
abbrev part3 : List (HloOp τ sig (Elt F)) :=
  [ StableHlo.unary main_c_25 main_v152 (broadcastInDim S800000 ![] bcast_S_S800000 : (⟨S_, .i32⟩ : BufTy).Contents (Elt F) → (⟨S800000, .i32⟩ : BufTy).Contents (Elt F)),
    StableHlo.binary main_v147 main_v152 main_v153 (addi : (⟨S800000, .i32⟩ : BufTy).Contents (Elt F) → (⟨S800000, .i32⟩ : BufTy).Contents (Elt F) → (⟨S800000, .i32⟩ : BufTy).Contents (Elt F)),
    StableHlo.ternary main_v151 main_v153 main_v147 main_v154 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v154 main_v155 (broadcastInDim S800000x1 ![0] bcast_S800000_S800000x1_0 : (⟨S800000, .i32⟩ : BufTy).Contents (Elt F) → (⟨S800000x1, .i32⟩ : BufTy).Contents (Elt F)),
    StableHlo.binary main_v108 main_v155 main_v156 ((fun x i => Host.gather gather_S50000x100_S800000x1_S800000x100_1_0_n_n_0_1_1100 x i) : (⟨S50000x100, .f32⟩ : BufTy).Contents (Elt F) → (⟨S800000x1, .i32⟩ : BufTy).Contents (Elt F) → (⟨S800000x100, .f32⟩ : BufTy).Contents (Elt F)),
    StableHlo.binary main_v156 main_v145 main_v157 (addf : (⟨S800000x100, .f32⟩ : BufTy).Contents (Elt F) → (⟨S800000x100, .f32⟩ : BufTy).Contents (Elt F) → (⟨S800000x100, .f32⟩ : BufTy).Contents (Elt F)),
    StableHlo.nullary main_cst_26 (constant S_ .f32 0x00000000#32),
    StableHlo.unary main_cst_26 main_v158 (broadcastInDim S50000x100 ![] bcast_S_S50000x100 : (⟨S_, .f32⟩ : BufTy).Contents (Elt F) → (⟨S50000x100, .f32⟩ : BufTy).Contents (Elt F)),
    StableHlo.unary main_v149 main_v159 (broadcastInDim S800000x1 ![0] bcast_S800000_S800000x1_0 : (⟨S800000, .i32⟩ : BufTy).Contents (Elt F) → (⟨S800000x1, .i32⟩ : BufTy).Contents (Elt F)),
    StableHlo.ternary main_v158 main_v159 main_v157 main_v160 ((fun x i u => Host.scatterAdd scatter_S50000x100_S800000x1_S800000x100_1_0_0_1 x i u) : (⟨S50000x100, .f32⟩ : BufTy).Contents (Elt F) → (⟨S800000x1, .i32⟩ : BufTy).Contents (Elt F) → (⟨S800000x100, .f32⟩ : BufTy).Contents (Elt F) → (⟨S50000x100, .f32⟩ : BufTy).Contents (Elt F)),
    StableHlo.unary main_arg6 main_v161 ((extractStridedSlice S1 ![0] · slices_S5_S1_0) : (⟨S5, .f32⟩ : BufTy).Contents (Elt F) → (⟨S1, .f32⟩ : BufTy).Contents (Elt F)),
    StableHlo.reshape main_v161 main_v162 rfl shapeCasts_S1_S_,
    StableHlo.nullary main_cst_27 (constant S_ .f32 0x3F800000#32),
    StableHlo.binary main_cst_27 main_v162 main_v163 (addf : (⟨S_, .f32⟩ : BufTy).Contents (Elt F) → (⟨S_, .f32⟩ : BufTy).Contents (Elt F) → (⟨S_, .f32⟩ : BufTy).Contents (Elt F)),
    StableHlo.unary main_v163 main_v164 (broadcastInDim S50000x100 ![] bcast_S_S50000x100 : (⟨S_, .f32⟩ : BufTy).Contents (Elt F) → (⟨S50000x100, .f32⟩ : BufTy).Contents (Elt F)),
    StableHlo.binary main_v164 main_v108 main_v165 (mulf : (⟨S50000x100, .f32⟩ : BufTy).Contents (Elt F) → (⟨S50000x100, .f32⟩ : BufTy).Contents (Elt F) → (⟨S50000x100, .f32⟩ : BufTy).Contents (Elt F)),
    StableHlo.binary main_v165 main_v160 main_v166 (addf : (⟨S50000x100, .f32⟩ : BufTy).Contents (Elt F) → (⟨S50000x100, .f32⟩ : BufTy).Contents (Elt F) → (⟨S50000x100, .f32⟩ : BufTy).Contents (Elt F)),
    StableHlo.unary main_arg7 main_v167 ((extractStridedSlice S1x100x200 ![0, 0, 0] · slices_S5x100x200_S1x100x200_0_0_0) : (⟨S5x100x200, .f32⟩ : BufTy).Contents (Elt F) → (⟨S1x100x200, .f32⟩ : BufTy).Contents (Elt F)),
    StableHlo.reshape main_v167 main_v168 rfl shapeCasts_S1x100x200_S100x200,
    StableHlo.binary main_v166 main_v168 main_v169 ((fun l r => Host.dotGeneral dot_S50000x100_S100x200_S50000x200_1_0_0_1_n_n none l r) : (⟨S50000x100, .f32⟩ : BufTy).Contents (Elt F) → (⟨S100x200, .f32⟩ : BufTy).Contents (Elt F) → (⟨S50000x200, .f32⟩ : BufTy).Contents (Elt F)),
    StableHlo.unary main_arg8 main_v170 ((extractStridedSlice S1x200 ![0, 0] · slices_S5x200_S1x200_0_0) : (⟨S5x200, .f32⟩ : BufTy).Contents (Elt F) → (⟨S1x200, .f32⟩ : BufTy).Contents (Elt F)),
    StableHlo.reshape main_v170 main_v171 rfl shapeCasts_S1x200_S200,
    StableHlo.unary main_v171 main_v172 (broadcastInDim S1x200 ![1] bcast_S200_S1x200_1 : (⟨S200, .f32⟩ : BufTy).Contents (Elt F) → (⟨S1x200, .f32⟩ : BufTy).Contents (Elt F)),
    StableHlo.unary main_v172 main_v173 (broadcastInDim S50000x200 ![0, 1] bcast_S1x200_S50000x200_0_1 : (⟨S1x200, .f32⟩ : BufTy).Contents (Elt F) → (⟨S50000x200, .f32⟩ : BufTy).Contents (Elt F)),
    StableHlo.binary main_v169 main_v173 main_v174 (addf : (⟨S50000x200, .f32⟩ : BufTy).Contents (Elt F) → (⟨S50000x200, .f32⟩ : BufTy).Contents (Elt F) → (⟨S50000x200, .f32⟩ : BufTy).Contents (Elt F)),
    StableHlo.unary main_arg9 main_v175 ((extractStridedSlice S1x200 ![0, 0] · slices_S5x200_S1x200_0_0) : (⟨S5x200, .f32⟩ : BufTy).Contents (Elt F) → (⟨S1x200, .f32⟩ : BufTy).Contents (Elt F)),
    StableHlo.reshape main_v175 main_v176 rfl shapeCasts_S1x200_S200,
    StableHlo.unary main_arg10 main_v177 ((extractStridedSlice S1x200 ![0, 0] · slices_S5x200_S1x200_0_0) : (⟨S5x200, .f32⟩ : BufTy).Contents (Elt F) → (⟨S1x200, .f32⟩ : BufTy).Contents (Elt F)),
    StableHlo.reshape main_v177 main_v178 rfl shapeCasts_S1x200_S200,
    StableHlo.nullary main_cst_28 (constant S_ .f32 0x00000000#32),
    StableHlo.binary main_v174 main_cst_28 main_v179 ((fun x v => Host.reduceAdd x v reducesTo_S50000x200_S200_d0 h_S_) : (⟨S50000x200, .f32⟩ : BufTy).Contents (Elt F) → (⟨S_, .f32⟩ : BufTy).Contents (Elt F) → (⟨S200, .f32⟩ : BufTy).Contents (Elt F)),
    StableHlo.nullary main_cst_29 (constant S_ .f32 0x47435000#32),
    StableHlo.unary main_cst_29 main_v180 (broadcastInDim S200 ![] bcast_S_S200 : (⟨S_, .f32⟩ : BufTy).Contents (Elt F) → (⟨S200, .f32⟩ : BufTy).Contents (Elt F)),
    StableHlo.binary main_v179 main_v180 main_v181 (Host.divf : (⟨S200, .f32⟩ : BufTy).Contents (Elt F) → (⟨S200, .f32⟩ : BufTy).Contents (Elt F) → (⟨S200, .f32⟩ : BufTy).Contents (Elt F)),
    StableHlo.nullary main_c_30 (constantI S_ 32 0#32),
    StableHlo.TRef.nullary (.of main_call0_cst : StableHlo.TRef sig ⟨S_, .f32⟩) (constant S_ .f32 0x00000000#32),
    StableHlo.TRef.binary (.of main_v174 : StableHlo.TRef sig ⟨S50000x200, .f32⟩) (.of main_call0_cst : StableHlo.TRef sig ⟨S_, .f32⟩) (.of main_call0_v0 : StableHlo.TRef sig ⟨S200, .f32⟩) (fun x v => Host.reduceAdd x v reducesTo_S50000x200_S200_d0 h_S_),
    StableHlo.TRef.unary (.of main_call0_v0 : StableHlo.TRef sig ⟨S200, .f32⟩) (.of main_call0_v1 : StableHlo.TRef sig ⟨S1x200, .f32⟩) (broadcastInDim S1x200 ![1] bcast_S200_S1x200_1),
    StableHlo.TRef.nullary (.of main_call0_cst_0 : StableHlo.TRef sig ⟨S_, .f32⟩) (constant S_ .f32 0x47435000#32),
    StableHlo.TRef.unary (.of main_call0_cst_0 : StableHlo.TRef sig ⟨S_, .f32⟩) (.of main_call0_v2 : StableHlo.TRef sig ⟨S1x200, .f32⟩) (broadcastInDim S1x200 ![] bcast_S_S1x200),
    StableHlo.TRef.binary (.of main_call0_v1 : StableHlo.TRef sig ⟨S1x200, .f32⟩) (.of main_call0_v2 : StableHlo.TRef sig ⟨S1x200, .f32⟩) (.of main_call0_v3 : StableHlo.TRef sig ⟨S1x200, .f32⟩) Host.divf,
    StableHlo.TRef.unary (.of main_call0_v3 : StableHlo.TRef sig ⟨S1x200, .f32⟩) (.of main_call0_v4 : StableHlo.TRef sig ⟨S50000x200, .f32⟩) (broadcastInDim S50000x200 ![0, 1] bcast_S1x200_S50000x200_0_1),
    StableHlo.TRef.binary (.of main_v174 : StableHlo.TRef sig ⟨S50000x200, .f32⟩) (.of main_call0_v4 : StableHlo.TRef sig ⟨S50000x200, .f32⟩) (.of main_call0_v5 : StableHlo.TRef sig ⟨S50000x200, .f32⟩) subf,
    StableHlo.TRef.binary (.of main_call0_v5 : StableHlo.TRef sig ⟨S50000x200, .f32⟩) (.of main_call0_v5 : StableHlo.TRef sig ⟨S50000x200, .f32⟩) (.of main_call0_v6 : StableHlo.TRef sig ⟨S50000x200, .f32⟩) mulf,
    StableHlo.TRef.unary (.of main_c_30 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47435000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S50000x200, .f32⟩) (.of main_call0_cst_2 : StableHlo.TRef sig ⟨S_, .f32⟩) (.of main_call0_v9 : StableHlo.TRef sig ⟨S200, .f32⟩) (fun x v => Host.reduceAdd x v reducesTo_S50000x200_S200_d0 h_S_),
    StableHlo.TRef.unary (.of main_call0_v8 : StableHlo.TRef sig ⟨S_, .f32⟩) (.of main_call0_v10 : StableHlo.TRef sig ⟨S200, .f32⟩) (broadcastInDim S200 ![] bcast_S_S200),
    StableHlo.TRef.binary (.of main_call0_v9 : StableHlo.TRef sig ⟨S200, .f32⟩) (.of main_call0_v10 : StableHlo.TRef sig ⟨S200, .f32⟩) (.of main_call0_v11 : StableHlo.TRef sig ⟨S200, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S200, .f32⟩) (broadcastInDim S200 ![] bcast_S_S200),
    StableHlo.TRef.ternary (.of main_call0_v12 : StableHlo.TRef sig ⟨S_, .i1⟩) (.of main_call0_v11 : StableHlo.TRef sig ⟨S200, .f32⟩) (.of main_call0_call0_v1 : StableHlo.TRef sig ⟨S200, .f32⟩) (.of main_v182 : StableHlo.TRef sig ⟨S200, .f32⟩) (fun p a b => select (broadcastInDim S200 ![] bcast_S_S200 p) a b),
    StableHlo.unary main_v181 main_v183 (broadcastInDim S1x200 ![1] bcast_S200_S1x200_1 : (⟨S200, .f32⟩ : BufTy).Contents (Elt F) → (⟨S1x200, .f32⟩ : BufTy).Contents (Elt F)),
    StableHlo.unary main_v183 main_v184 (broadcastInDim S50000x200 ![0, 1] bcast_S1x200_S50000x200_0_1 : (⟨S1x200, .f32⟩ : BufTy).Contents (Elt F) → (⟨S50000x200, .f32⟩ : BufTy).Contents (Elt F)),
    StableHlo.binary main_v174 main_v184 main_v185 (subf : (⟨S50000x200, .f32⟩ : BufTy).Contents (Elt F) → (⟨S50000x200, .f32⟩ : BufTy).Contents (Elt F) → (⟨S50000x200, .f32⟩ : BufTy).Contents (Elt F)),
    StableHlo.nullary main_cst_31 (constant S_ .f32 0x3727C5AC#32),
    StableHlo.unary main_cst_31 main_v186 (broadcastInDim S200 ![] bcast_S_S200 : (⟨S_, .f32⟩ : BufTy).Contents (Elt F) → (⟨S200, .f32⟩ : BufTy).Contents (Elt F)),
    StableHlo.binary main_v182 main_v186 main_v187 (addf : (⟨S200, .f32⟩ : BufTy).Contents (Elt F) → (⟨S200, .f32⟩ : BufTy).Contents (Elt F) → (⟨S200, .f32⟩ : BufTy).Contents (Elt F)),
    StableHlo.unary main_v187 main_v188 (Host.rsqrt : (⟨S200, .f32⟩ : BufTy).Contents (Elt F) → (⟨S200, .f32⟩ : BufTy).Contents (Elt F)),
    StableHlo.unary main_v188 main_v189 (broadcastInDim S1x200 ![1] bcast_S200_S1x200_1 : (⟨S200, .f32⟩ : BufTy).Contents (Elt F) → (⟨S1x200, .f32⟩ : BufTy).Contents (Elt F)),
    StableHlo.unary main_v189 main_v190 (broadcastInDim S50000x200 ![0, 1] bcast_S1x200_S50000x200_0_1 : (⟨S1x200, .f32⟩ : BufTy).Contents (Elt F) → (⟨S50000x200, .f32⟩ : BufTy).Contents (Elt F)),
    StableHlo.binary main_v185 main_v190 main_v191 (mulf : (⟨S50000x200, .f32⟩ : BufTy).Contents (Elt F) → (⟨S50000x200, .f32⟩ : BufTy).Contents (Elt F) → (⟨S50000x200, .f32⟩ : BufTy).Contents (Elt F)),
    StableHlo.unary main_v176 main_v192 (broadcastInDim S1x200 ![1] bcast_S200_S1x200_1 : (⟨S200, .f32⟩ : BufTy).Contents (Elt F) → (⟨S1x200, .f32⟩ : BufTy).Contents (Elt F)),
    StableHlo.unary main_v192 main_v193 (broadcastInDim S50000x200 ![0, 1] bcast_S1x200_S50000x200_0_1 : (⟨S1x200, .f32⟩ : BufTy).Contents (Elt F) → (⟨S50000x200, .f32⟩ : BufTy).Contents (Elt F)),
    StableHlo.binary main_v191 main_v193 main_v194 (mulf : (⟨S50000x200, .f32⟩ : BufTy).Contents (Elt F) → (⟨S50000x200, .f32⟩ : BufTy).Contents (Elt F) → (⟨S50000x200, .f32⟩ : BufTy).Contents (Elt F)),
    StableHlo.unary main_v178 main_v195 (broadcastInDim S1x200 ![1] bcast_S200_S1x200_1 : (⟨S200, .f32⟩ : BufTy).Contents (Elt F) → (⟨S1x200, .f32⟩ : BufTy).Contents (Elt F)),
    StableHlo.unary main_v195 main_v196 (broadcastInDim S50000x200 ![0, 1] bcast_S1x200_S50000x200_0_1 : (⟨S1x200, .f32⟩ : BufTy).Contents (Elt F) → (⟨S50000x200, .f32⟩ : BufTy).Contents (Elt F)),
    StableHlo.binary main_v194 main_v196 main_v197 (addf : (⟨S50000x200, .f32⟩ : BufTy).Contents (Elt F) → (⟨S50000x200, .f32⟩ : BufTy).Contents (Elt F) → (⟨S50000x200, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x200, .f32⟩) (broadcastInDim S50000x200 ![] bcast_S_S50000x200),
    StableHlo.TRef.binary (.of main_v197 : StableHlo.TRef sig ⟨S50000x200, .f32⟩) (.of main_call1_v0 : StableHlo.TRef sig ⟨S50000x200, .f32⟩) (.of main_v198 : StableHlo.TRef sig ⟨S50000x200, .f32⟩) maximumf,
    StableHlo.unary main_arg11 main_v199 ((extractStridedSlice S1x200x100 ![0, 0, 0] · slices_S5x200x100_S1x200x100_0_0_0) : (⟨S5x200x100, .f32⟩ : BufTy).Contents (Elt F) → (⟨S1x200x100, .f32⟩ : BufTy).Contents (Elt F)),
    StableHlo.reshape main_v199 main_v200 rfl shapeCasts_S1x200x100_S200x100,
    StableHlo.binary main_v198 main_v200 main_v201 ((fun l r => Host.dotGeneral dot_S50000x200_S200x100_S50000x100_1_0_0_1_n_n none l r) : (⟨S50000x200, .f32⟩ : BufTy).Contents (Elt F) → (⟨S200x100, .f32⟩ : BufTy).Contents (Elt F) → (⟨S50000x100, .f32⟩ : BufTy).Contents (Elt F)),
    StableHlo.unary main_arg12 main_v202 ((extractStridedSlice S1x100 ![0, 0] · slices_S5x100_S1x100_0_0) : (⟨S5x100, .f32⟩ : BufTy).Contents (Elt F) → (⟨S1x100, .f32⟩ : BufTy).Contents (Elt F)),
    StableHlo.reshape main_v202 main_v203 rfl shapeCasts_S1x100_S100,
    StableHlo.unary main_v203 main_v204 (broadcastInDim S1x100 ![1] bcast_S100_S1x100_1 : (⟨S100, .f32⟩ : BufTy).Contents (Elt F) → (⟨S1x100, .f32⟩ : BufTy).Contents (Elt F)),
    StableHlo.unary main_v204 main_v205 (broadcastInDim S50000x100 ![0, 1] bcast_S1x100_S50000x100_0_1 : (⟨S1x100, .f32⟩ : BufTy).Contents (Elt F) → (⟨S50000x100, .f32⟩ : BufTy).Contents (Elt F)) ]
theorem part3_sub : (part3 : List (HloOp τ sig (Elt F))).Forall fun op => op.bufs ⊆ StableHlo.tcRefs τ sig :=
  ⟨StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.binary_bufs_sub .., StableHlo.unary_bufs_sub .., StableHlo.binary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub ..⟩

/-- Window 4: 83 operations, numbers 264 … 346 of the whole run. -/
abbrev part4 : List (HloOp τ sig (Elt F)) :=
  [ StableHlo.binary main_v201 main_v205 main_v206 (addf : (⟨S50000x100, .f32⟩ : BufTy).Contents (Elt F) → (⟨S50000x100, .f32⟩ : BufTy).Contents (Elt F) → (⟨S50000x100, .f32⟩ : BufTy).Contents (Elt F)),
    StableHlo.unary main_arg13 main_v207 ((extractStridedSlice S1x100 ![0, 0] · slices_S5x100_S1x100_0_0) : (⟨S5x100, .f32⟩ : BufTy).Contents (Elt F) → (⟨S1x100, .f32⟩ : BufTy).Contents (Elt F)),
    StableHlo.reshape main_v207 main_v208 rfl shapeCasts_S1x100_S100,
    StableHlo.unary main_arg14 main_v209 ((extractStridedSlice S1x100 ![0, 0] · slices_S5x100_S1x100_0_0) : (⟨S5x100, .f32⟩ : BufTy).Contents (Elt F) → (⟨S1x100, .f32⟩ : BufTy).Contents (Elt F)),
    StableHlo.reshape main_v209 main_v210 rfl shapeCasts_S1x100_S100,
    StableHlo.nullary main_cst_32 (constant S_ .f32 0x00000000#32),
    StableHlo.binary main_v206 main_cst_32 main_v211 ((fun x v => Host.reduceAdd x v reducesTo_S50000x100_S100_d0 h_S_) : (⟨S50000x100, .f32⟩ : BufTy).Contents (Elt F) → (⟨S_, .f32⟩ : BufTy).Contents (Elt F) → (⟨S100, .f32⟩ : BufTy).Contents (Elt F)),
    StableHlo.nullary main_cst_33 (constant S_ .f32 0x47435000#32),
    StableHlo.unary main_cst_33 main_v212 (broadcastInDim S100 ![] bcast_S_S100 : (⟨S_, .f32⟩ : BufTy).Contents (Elt F) → (⟨S100, .f32⟩ : BufTy).Contents (Elt F)),
    StableHlo.binary main_v211 main_v212 main_v213 (Host.divf : (⟨S100, .f32⟩ : BufTy).Contents (Elt F) → (⟨S100, .f32⟩ : BufTy).Contents (Elt F) → (⟨S100, .f32⟩ : BufTy).Contents (Elt F)),
    StableHlo.nullary main_c_34 (constantI S_ 32 0#32),
    StableHlo.TRef.nullary (.of main_call2_cst : StableHlo.TRef sig ⟨S_, .f32⟩) (constant S_ .f32 0x00000000#32),
    StableHlo.TRef.binary (.of main_v206 : StableHlo.TRef sig ⟨S50000x100, .f32⟩) (.of main_call2_cst : StableHlo.TRef sig ⟨S_, .f32⟩) (.of main_call2_v0 : StableHlo.TRef sig ⟨S100, .f32⟩) (fun x v => Host.reduceAdd x v reducesTo_S50000x100_S100_d0 h_S_),
    StableHlo.TRef.unary (.of main_call2_v0 : StableHlo.TRef sig ⟨S100, .f32⟩) (.of main_call2_v1 : StableHlo.TRef sig ⟨S1x100, .f32⟩) (broadcastInDim S1x100 ![1] bcast_S100_S1x100_1),
    StableHlo.TRef.nullary (.of main_call2_cst_0 : StableHlo.TRef sig ⟨S_, .f32⟩) (constant S_ .f32 0x47435000#32),
    StableHlo.TRef.unary (.of main_call2_cst_0 : StableHlo.TRef sig ⟨S_, .f32⟩) (.of main_call2_v2 : StableHlo.TRef sig ⟨S1x100, .f32⟩) (broadcastInDim S1x100 ![] bcast_S_S1x100),
    StableHlo.TRef.binary (.of main_call2_v1 : StableHlo.TRef sig ⟨S1x100, .f32⟩) (.of main_call2_v2 : StableHlo.TRef sig ⟨S1x100, .f32⟩) (.of main_call2_v3 : StableHlo.TRef sig ⟨S1x100, .f32⟩) Host.divf,
    StableHlo.TRef.unary (.of main_call2_v3 : StableHlo.TRef sig ⟨S1x100, .f32⟩) (.of main_call2_v4 : StableHlo.TRef sig ⟨S50000x100, .f32⟩) (broadcastInDim S50000x100 ![0, 1] bcast_S1x100_S50000x100_0_1),
    StableHlo.TRef.binary (.of main_v206 : StableHlo.TRef sig ⟨S50000x100, .f32⟩) (.of main_call2_v4 : StableHlo.TRef sig ⟨S50000x100, .f32⟩) (.of main_call2_v5 : StableHlo.TRef sig ⟨S50000x100, .f32⟩) subf,
    StableHlo.TRef.binary (.of main_call2_v5 : StableHlo.TRef sig ⟨S50000x100, .f32⟩) (.of main_call2_v5 : StableHlo.TRef sig ⟨S50000x100, .f32⟩) (.of main_call2_v6 : StableHlo.TRef sig ⟨S50000x100, .f32⟩) mulf,
    StableHlo.TRef.unary (.of main_c_34 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47435000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S50000x100, .f32⟩) (.of main_call2_cst_2 : StableHlo.TRef sig ⟨S_, .f32⟩) (.of main_call2_v9 : StableHlo.TRef sig ⟨S100, .f32⟩) (fun x v => Host.reduceAdd x v reducesTo_S50000x100_S100_d0 h_S_),
    StableHlo.TRef.unary (.of main_call2_v8 : StableHlo.TRef sig ⟨S_, .f32⟩) (.of main_call2_v10 : StableHlo.TRef sig ⟨S100, .f32⟩) (broadcastInDim S100 ![] bcast_S_S100),
    StableHlo.TRef.binary (.of main_call2_v9 : StableHlo.TRef sig ⟨S100, .f32⟩) (.of main_call2_v10 : StableHlo.TRef sig ⟨S100, .f32⟩) (.of main_call2_v11 : StableHlo.TRef sig ⟨S100, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S100, .f32⟩) (broadcastInDim S100 ![] bcast_S_S100),
    StableHlo.TRef.ternary (.of main_call2_v12 : StableHlo.TRef sig ⟨S_, .i1⟩) (.of main_call2_v11 : StableHlo.TRef sig ⟨S100, .f32⟩) (.of main_call2_call0_v1 : StableHlo.TRef sig ⟨S100, .f32⟩) (.of main_v214 : StableHlo.TRef sig ⟨S100, .f32⟩) (fun p a b => select (broadcastInDim S100 ![] bcast_S_S100 p) a b),
    StableHlo.unary main_v213 main_v215 (broadcastInDim S1x100 ![1] bcast_S100_S1x100_1 : (⟨S100, .f32⟩ : BufTy).Contents (Elt F) → (⟨S1x100, .f32⟩ : BufTy).Contents (Elt F)),
    StableHlo.unary main_v215 main_v216 (broadcastInDim S50000x100 ![0, 1] bcast_S1x100_S50000x100_0_1 : (⟨S1x100, .f32⟩ : BufTy).Contents (Elt F) → (⟨S50000x100, .f32⟩ : BufTy).Contents (Elt F)),
    StableHlo.binary main_v206 main_v216 main_v217 (subf : (⟨S50000x100, .f32⟩ : BufTy).Contents (Elt F) → (⟨S50000x100, .f32⟩ : BufTy).Contents (Elt F) → (⟨S50000x100, .f32⟩ : BufTy).Contents (Elt F)),
    StableHlo.nullary main_cst_35 (constant S_ .f32 0x3727C5AC#32),
    StableHlo.unary main_cst_35 main_v218 (broadcastInDim S100 ![] bcast_S_S100 : (⟨S_, .f32⟩ : BufTy).Contents (Elt F) → (⟨S100, .f32⟩ : BufTy).Contents (Elt F)),
    StableHlo.binary main_v214 main_v218 main_v219 (addf : (⟨S100, .f32⟩ : BufTy).Contents (Elt F) → (⟨S100, .f32⟩ : BufTy).Contents (Elt F) → (⟨S100, .f32⟩ : BufTy).Contents (Elt F)),
    StableHlo.unary main_v219 main_v220 (Host.rsqrt : (⟨S100, .f32⟩ : BufTy).Contents (Elt F) → (⟨S100, .f32⟩ : BufTy).Contents (Elt F)),
    StableHlo.unary main_v220 main_v221 (broadcastInDim S1x100 ![1] bcast_S100_S1x100_1 : (⟨S100, .f32⟩ : BufTy).Contents (Elt F) → (⟨S1x100, .f32⟩ : BufTy).Contents (Elt F)),
    StableHlo.unary main_v221 main_v222 (broadcastInDim S50000x100 ![0, 1] bcast_S1x100_S50000x100_0_1 : (⟨S1x100, .f32⟩ : BufTy).Contents (Elt F) → (⟨S50000x100, .f32⟩ : BufTy).Contents (Elt F)),
    StableHlo.binary main_v217 main_v222 main_v223 (mulf : (⟨S50000x100, .f32⟩ : BufTy).Contents (Elt F) → (⟨S50000x100, .f32⟩ : BufTy).Contents (Elt F) → (⟨S50000x100, .f32⟩ : BufTy).Contents (Elt F)),
    StableHlo.unary main_v208 main_v224 (broadcastInDim S1x100 ![1] bcast_S100_S1x100_1 : (⟨S100, .f32⟩ : BufTy).Contents (Elt F) → (⟨S1x100, .f32⟩ : BufTy).Contents (Elt F)),
    StableHlo.unary main_v224 main_v225 (broadcastInDim S50000x100 ![0, 1] bcast_S1x100_S50000x100_0_1 : (⟨S1x100, .f32⟩ : BufTy).Contents (Elt F) → (⟨S50000x100, .f32⟩ : BufTy).Contents (Elt F)),
    StableHlo.binary main_v223 main_v225 main_v226 (mulf : (⟨S50000x100, .f32⟩ : BufTy).Contents (Elt F) → (⟨S50000x100, .f32⟩ : BufTy).Contents (Elt F) → (⟨S50000x100, .f32⟩ : BufTy).Contents (Elt F)),
    StableHlo.unary main_v210 main_v227 (broadcastInDim S1x100 ![1] bcast_S100_S1x100_1 : (⟨S100, .f32⟩ : BufTy).Contents (Elt F) → (⟨S1x100, .f32⟩ : BufTy).Contents (Elt F)),
    StableHlo.unary main_v227 main_v228 (broadcastInDim S50000x100 ![0, 1] bcast_S1x100_S50000x100_0_1 : (⟨S1x100, .f32⟩ : BufTy).Contents (Elt F) → (⟨S50000x100, .f32⟩ : BufTy).Contents (Elt F)),
    StableHlo.binary main_v226 main_v228 main_v229 (addf : (⟨S50000x100, .f32⟩ : BufTy).Contents (Elt F) → (⟨S50000x100, .f32⟩ : BufTy).Contents (Elt F) → (⟨S50000x100, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x100, .f32⟩) (broadcastInDim S50000x100 ![] bcast_S_S50000x100),
    StableHlo.TRef.binary (.of main_v229 : StableHlo.TRef sig ⟨S50000x100, .f32⟩) (.of main_call3_v0 : StableHlo.TRef sig ⟨S50000x100, .f32⟩) (.of main_v230 : StableHlo.TRef sig ⟨S50000x100, .f32⟩) maximumf,
    StableHlo.nullary main_c_36 (constantI S_ 32 0#32),
    StableHlo.unary main_c_36 main_v231 (broadcastInDim S800000 ![] bcast_S_S800000 : (⟨S_, .i32⟩ : BufTy).Contents (Elt F) → (⟨S800000, .i32⟩ : BufTy).Contents (Elt F)),
    StableHlo.binary main_v147 main_v231 main_v232 (cmpi .slt : (⟨S800000, .i32⟩ : BufTy).Contents (Elt F) → (⟨S800000, .i32⟩ : BufTy).Contents (Elt F) → (⟨S800000, .i1⟩ : BufTy).Contents (Elt F)),
    StableHlo.nullary main_c_37 (constantI S_ 32 50000#32),
    StableHlo.unary main_c_37 main_v233 (broadcastInDim S800000 ![] bcast_S_S800000 : (⟨S_, .i32⟩ : BufTy).Contents (Elt F) → (⟨S800000, .i32⟩ : BufTy).Contents (Elt F)),
    StableHlo.binary main_v147 main_v233 main_v234 (addi : (⟨S800000, .i32⟩ : BufTy).Contents (Elt F) → (⟨S800000, .i32⟩ : BufTy).Contents (Elt F) → (⟨S800000, .i32⟩ : BufTy).Contents (Elt F)),
    StableHlo.ternary main_v232 main_v234 main_v147 main_v235 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v235 main_v236 (broadcastInDim S800000x1 ![0] bcast_S800000_S800000x1_0 : (⟨S800000, .i32⟩ : BufTy).Contents (Elt F) → (⟨S800000x1, .i32⟩ : BufTy).Contents (Elt F)),
    StableHlo.binary main_v230 main_v236 main_v237 ((fun x i => Host.gather gather_S50000x100_S800000x1_S800000x100_1_0_n_n_0_1_1100 x i) : (⟨S50000x100, .f32⟩ : BufTy).Contents (Elt F) → (⟨S800000x1, .i32⟩ : BufTy).Contents (Elt F) → (⟨S800000x100, .f32⟩ : BufTy).Contents (Elt F)),
    StableHlo.binary main_v237 main_v145 main_v238 (addf : (⟨S800000x100, .f32⟩ : BufTy).Contents (Elt F) → (⟨S800000x100, .f32⟩ : BufTy).Contents (Elt F) → (⟨S800000x100, .f32⟩ : BufTy).Contents (Elt F)),
    StableHlo.nullary main_cst_38 (constant S_ .f32 0x00000000#32),
    StableHlo.unary main_cst_38 main_v239 (broadcastInDim S50000x100 ![] bcast_S_S50000x100 : (⟨S_, .f32⟩ : BufTy).Contents (Elt F) → (⟨S50000x100, .f32⟩ : BufTy).Contents (Elt F)),
    StableHlo.unary main_v149 main_v240 (broadcastInDim S800000x1 ![0] bcast_S800000_S800000x1_0 : (⟨S800000, .i32⟩ : BufTy).Contents (Elt F) → (⟨S800000x1, .i32⟩ : BufTy).Contents (Elt F)),
    StableHlo.ternary main_v239 main_v240 main_v238 main_v241 ((fun x i u => Host.scatterAdd scatter_S50000x100_S800000x1_S800000x100_1_0_0_1 x i u) : (⟨S50000x100, .f32⟩ : BufTy).Contents (Elt F) → (⟨S800000x1, .i32⟩ : BufTy).Contents (Elt F) → (⟨S800000x100, .f32⟩ : BufTy).Contents (Elt F) → (⟨S50000x100, .f32⟩ : BufTy).Contents (Elt F)),
    StableHlo.unary main_arg6 main_v242 ((extractStridedSlice S1 ![1] · slices_S5_S1_1) : (⟨S5, .f32⟩ : BufTy).Contents (Elt F) → (⟨S1, .f32⟩ : BufTy).Contents (Elt F)),
    StableHlo.reshape main_v242 main_v243 rfl shapeCasts_S1_S_,
    StableHlo.nullary main_cst_39 (constant S_ .f32 0x3F800000#32),
    StableHlo.binary main_cst_39 main_v243 main_v244 (addf : (⟨S_, .f32⟩ : BufTy).Contents (Elt F) → (⟨S_, .f32⟩ : BufTy).Contents (Elt F) → (⟨S_, .f32⟩ : BufTy).Contents (Elt F)),
    StableHlo.unary main_v244 main_v245 (broadcastInDim S50000x100 ![] bcast_S_S50000x100 : (⟨S_, .f32⟩ : BufTy).Contents (Elt F) → (⟨S50000x100, .f32⟩ : BufTy).Contents (Elt F)),
    StableHlo.binary main_v245 main_v230 main_v246 (mulf : (⟨S50000x100, .f32⟩ : BufTy).Contents (Elt F) → (⟨S50000x100, .f32⟩ : BufTy).Contents (Elt F) → (⟨S50000x100, .f32⟩ : BufTy).Contents (Elt F)),
    StableHlo.binary main_v246 main_v241 main_v247 (addf : (⟨S50000x100, .f32⟩ : BufTy).Contents (Elt F) → (⟨S50000x100, .f32⟩ : BufTy).Contents (Elt F) → (⟨S50000x100, .f32⟩ : BufTy).Contents (Elt F)),
    StableHlo.unary main_arg7 main_v248 ((extractStridedSlice S1x100x200 ![1, 0, 0] · slices_S5x100x200_S1x100x200_1_0_0) : (⟨S5x100x200, .f32⟩ : BufTy).Contents (Elt F) → (⟨S1x100x200, .f32⟩ : BufTy).Contents (Elt F)),
    StableHlo.reshape main_v248 main_v249 rfl shapeCasts_S1x100x200_S100x200,
    StableHlo.binary main_v247 main_v249 main_v250 ((fun l r => Host.dotGeneral dot_S50000x100_S100x200_S50000x200_1_0_0_1_n_n none l r) : (⟨S50000x100, .f32⟩ : BufTy).Contents (Elt F) → (⟨S100x200, .f32⟩ : BufTy).Contents (Elt F) → (⟨S50000x200, .f32⟩ : BufTy).Contents (Elt F)),
    StableHlo.unary main_arg8 main_v251 ((extractStridedSlice S1x200 ![1, 0] · slices_S5x200_S1x200_1_0) : (⟨S5x200, .f32⟩ : BufTy).Contents (Elt F) → (⟨S1x200, .f32⟩ : BufTy).Contents (Elt F)),
    StableHlo.reshape main_v251 main_v252 rfl shapeCasts_S1x200_S200,
    StableHlo.unary main_v252 main_v253 (broadcastInDim S1x200 ![1] bcast_S200_S1x200_1 : (⟨S200, .f32⟩ : BufTy).Contents (Elt F) → (⟨S1x200, .f32⟩ : BufTy).Contents (Elt F)),
    StableHlo.unary main_v253 main_v254 (broadcastInDim S50000x200 ![0, 1] bcast_S1x200_S50000x200_0_1 : (⟨S1x200, .f32⟩ : BufTy).Contents (Elt F) → (⟨S50000x200, .f32⟩ : BufTy).Contents (Elt F)),
    StableHlo.binary main_v250 main_v254 main_v255 (addf : (⟨S50000x200, .f32⟩ : BufTy).Contents (Elt F) → (⟨S50000x200, .f32⟩ : BufTy).Contents (Elt F) → (⟨S50000x200, .f32⟩ : BufTy).Contents (Elt F)),
    StableHlo.unary main_arg9 main_v256 ((extractStridedSlice S1x200 ![1, 0] · slices_S5x200_S1x200_1_0) : (⟨S5x200, .f32⟩ : BufTy).Contents (Elt F) → (⟨S1x200, .f32⟩ : BufTy).Contents (Elt F)),
    StableHlo.reshape main_v256 main_v257 rfl shapeCasts_S1x200_S200 ]
theorem part4_sub : (part4 : List (HloOp τ sig (Elt F))).Forall fun op => op.bufs ⊆ StableHlo.tcRefs τ sig :=
  ⟨StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.binary_bufs_sub .., StableHlo.unary_bufs_sub .., StableHlo.binary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub ..⟩

/-- Window 5: 104 operations, numbers 347 … 450 of the whole run. -/
abbrev part5 : List (HloOp τ sig (Elt F)) :=
  [ StableHlo.unary main_arg10 main_v258 ((extractStridedSlice S1x200 ![1, 0] · slices_S5x200_S1x200_1_0) : (⟨S5x200, .f32⟩ : BufTy).Contents (Elt F) → (⟨S1x200, .f32⟩ : BufTy).Contents (Elt F)),
    StableHlo.reshape main_v258 main_v259 rfl shapeCasts_S1x200_S200,
    StableHlo.nullary main_cst_40 (constant S_ .f32 0x00000000#32),
    StableHlo.binary main_v255 main_cst_40 main_v260 ((fun x v => Host.reduceAdd x v reducesTo_S50000x200_S200_d0 h_S_) : (⟨S50000x200, .f32⟩ : BufTy).Contents (Elt F) → (⟨S_, .f32⟩ : BufTy).Contents (Elt F) → (⟨S200, .f32⟩ : BufTy).Contents (Elt F)),
    StableHlo.nullary main_cst_41 (constant S_ .f32 0x47435000#32),
    StableHlo.unary main_cst_41 main_v261 (broadcastInDim S200 ![] bcast_S_S200 : (⟨S_, .f32⟩ : BufTy).Contents (Elt F) → (⟨S200, .f32⟩ : BufTy).Contents (Elt F)),
    StableHlo.binary main_v260 main_v261 main_v262 (Host.divf : (⟨S200, .f32⟩ : BufTy).Contents (Elt F) → (⟨S200, .f32⟩ : BufTy).Contents (Elt F) → (⟨S200, .f32⟩ : BufTy).Contents (Elt F)),
    StableHlo.nullary main_c_42 (constantI S_ 32 0#32),
    StableHlo.TRef.nullary (.of main_call4_cst : StableHlo.TRef sig ⟨S_, .f32⟩) (constant S_ .f32 0x00000000#32),
    StableHlo.TRef.binary (.of main_v255 : StableHlo.TRef sig ⟨S50000x200, .f32⟩) (.of main_call4_cst : StableHlo.TRef sig ⟨S_, .f32⟩) (.of main_call4_v0 : StableHlo.TRef sig ⟨S200, .f32⟩) (fun x v => Host.reduceAdd x v reducesTo_S50000x200_S200_d0 h_S_),
    StableHlo.TRef.unary (.of main_call4_v0 : StableHlo.TRef sig ⟨S200, .f32⟩) (.of main_call4_v1 : StableHlo.TRef sig ⟨S1x200, .f32⟩) (broadcastInDim S1x200 ![1] bcast_S200_S1x200_1),
    StableHlo.TRef.nullary (.of main_call4_cst_0 : StableHlo.TRef sig ⟨S_, .f32⟩) (constant S_ .f32 0x47435000#32),
    StableHlo.TRef.unary (.of main_call4_cst_0 : StableHlo.TRef sig ⟨S_, .f32⟩) (.of main_call4_v2 : StableHlo.TRef sig ⟨S1x200, .f32⟩) (broadcastInDim S1x200 ![] bcast_S_S1x200),
    StableHlo.TRef.binary (.of main_call4_v1 : StableHlo.TRef sig ⟨S1x200, .f32⟩) (.of main_call4_v2 : StableHlo.TRef sig ⟨S1x200, .f32⟩) (.of main_call4_v3 : StableHlo.TRef sig ⟨S1x200, .f32⟩) Host.divf,
    StableHlo.TRef.unary (.of main_call4_v3 : StableHlo.TRef sig ⟨S1x200, .f32⟩) (.of main_call4_v4 : StableHlo.TRef sig ⟨S50000x200, .f32⟩) (broadcastInDim S50000x200 ![0, 1] bcast_S1x200_S50000x200_0_1),
    StableHlo.TRef.binary (.of main_v255 : StableHlo.TRef sig ⟨S50000x200, .f32⟩) (.of main_call4_v4 : StableHlo.TRef sig ⟨S50000x200, .f32⟩) (.of main_call4_v5 : StableHlo.TRef sig ⟨S50000x200, .f32⟩) subf,
    StableHlo.TRef.binary (.of main_call4_v5 : StableHlo.TRef sig ⟨S50000x200, .f32⟩) (.of main_call4_v5 : StableHlo.TRef sig ⟨S50000x200, .f32⟩) (.of main_call4_v6 : StableHlo.TRef sig ⟨S50000x200, .f32⟩) mulf,
    StableHlo.TRef.unary (.of main_c_42 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47435000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S50000x200, .f32⟩) (.of main_call4_cst_2 : StableHlo.TRef sig ⟨S_, .f32⟩) (.of main_call4_v9 : StableHlo.TRef sig ⟨S200, .f32⟩) (fun x v => Host.reduceAdd x v reducesTo_S50000x200_S200_d0 h_S_),
    StableHlo.TRef.unary (.of main_call4_v8 : StableHlo.TRef sig ⟨S_, .f32⟩) (.of main_call4_v10 : StableHlo.TRef sig ⟨S200, .f32⟩) (broadcastInDim S200 ![] bcast_S_S200),
    StableHlo.TRef.binary (.of main_call4_v9 : StableHlo.TRef sig ⟨S200, .f32⟩) (.of main_call4_v10 : StableHlo.TRef sig ⟨S200, .f32⟩) (.of main_call4_v11 : StableHlo.TRef sig ⟨S200, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S200, .f32⟩) (broadcastInDim S200 ![] bcast_S_S200),
    StableHlo.TRef.ternary (.of main_call4_v12 : StableHlo.TRef sig ⟨S_, .i1⟩) (.of main_call4_v11 : StableHlo.TRef sig ⟨S200, .f32⟩) (.of main_call4_call0_v1 : StableHlo.TRef sig ⟨S200, .f32⟩) (.of main_v263 : StableHlo.TRef sig ⟨S200, .f32⟩) (fun p a b => select (broadcastInDim S200 ![] bcast_S_S200 p) a b),
    StableHlo.unary main_v262 main_v264 (broadcastInDim S1x200 ![1] bcast_S200_S1x200_1 : (⟨S200, .f32⟩ : BufTy).Contents (Elt F) → (⟨S1x200, .f32⟩ : BufTy).Contents (Elt F)),
    StableHlo.unary main_v264 main_v265 (broadcastInDim S50000x200 ![0, 1] bcast_S1x200_S50000x200_0_1 : (⟨S1x200, .f32⟩ : BufTy).Contents (Elt F) → (⟨S50000x200, .f32⟩ : BufTy).Contents (Elt F)),
    StableHlo.binary main_v255 main_v265 main_v266 (subf : (⟨S50000x200, .f32⟩ : BufTy).Contents (Elt F) → (⟨S50000x200, .f32⟩ : BufTy).Contents (Elt F) → (⟨S50000x200, .f32⟩ : BufTy).Contents (Elt F)),
    StableHlo.nullary main_cst_43 (constant S_ .f32 0x3727C5AC#32),
    StableHlo.unary main_cst_43 main_v267 (broadcastInDim S200 ![] bcast_S_S200 : (⟨S_, .f32⟩ : BufTy).Contents (Elt F) → (⟨S200, .f32⟩ : BufTy).Contents (Elt F)),
    StableHlo.binary main_v263 main_v267 main_v268 (addf : (⟨S200, .f32⟩ : BufTy).Contents (Elt F) → (⟨S200, .f32⟩ : BufTy).Contents (Elt F) → (⟨S200, .f32⟩ : BufTy).Contents (Elt F)),
    StableHlo.unary main_v268 main_v269 (Host.rsqrt : (⟨S200, .f32⟩ : BufTy).Contents (Elt F) → (⟨S200, .f32⟩ : BufTy).Contents (Elt F)),
    StableHlo.unary main_v269 main_v270 (broadcastInDim S1x200 ![1] bcast_S200_S1x200_1 : (⟨S200, .f32⟩ : BufTy).Contents (Elt F) → (⟨S1x200, .f32⟩ : BufTy).Contents (Elt F)),
    StableHlo.unary main_v270 main_v271 (broadcastInDim S50000x200 ![0, 1] bcast_S1x200_S50000x200_0_1 : (⟨S1x200, .f32⟩ : BufTy).Contents (Elt F) → (⟨S50000x200, .f32⟩ : BufTy).Contents (Elt F)),
    StableHlo.binary main_v266 main_v271 main_v272 (mulf : (⟨S50000x200, .f32⟩ : BufTy).Contents (Elt F) → (⟨S50000x200, .f32⟩ : BufTy).Contents (Elt F) → (⟨S50000x200, .f32⟩ : BufTy).Contents (Elt F)),
    StableHlo.unary main_v257 main_v273 (broadcastInDim S1x200 ![1] bcast_S200_S1x200_1 : (⟨S200, .f32⟩ : BufTy).Contents (Elt F) → (⟨S1x200, .f32⟩ : BufTy).Contents (Elt F)),
    StableHlo.unary main_v273 main_v274 (broadcastInDim S50000x200 ![0, 1] bcast_S1x200_S50000x200_0_1 : (⟨S1x200, .f32⟩ : BufTy).Contents (Elt F) → (⟨S50000x200, .f32⟩ : BufTy).Contents (Elt F)),
    StableHlo.binary main_v272 main_v274 main_v275 (mulf : (⟨S50000x200, .f32⟩ : BufTy).Contents (Elt F) → (⟨S50000x200, .f32⟩ : BufTy).Contents (Elt F) → (⟨S50000x200, .f32⟩ : BufTy).Contents (Elt F)),
    StableHlo.unary main_v259 main_v276 (broadcastInDim S1x200 ![1] bcast_S200_S1x200_1 : (⟨S200, .f32⟩ : BufTy).Contents (Elt F) → (⟨S1x200, .f32⟩ : BufTy).Contents (Elt F)),
    StableHlo.unary main_v276 main_v277 (broadcastInDim S50000x200 ![0, 1] bcast_S1x200_S50000x200_0_1 : (⟨S1x200, .f32⟩ : BufTy).Contents (Elt F) → (⟨S50000x200, .f32⟩ : BufTy).Contents (Elt F)),
    StableHlo.binary main_v275 main_v277 main_v278 (addf : (⟨S50000x200, .f32⟩ : BufTy).Contents (Elt F) → (⟨S50000x200, .f32⟩ : BufTy).Contents (Elt F) → (⟨S50000x200, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S50000x200, .f32⟩) (broadcastInDim S50000x200 ![] bcast_S_S50000x200),
    StableHlo.TRef.binary (.of main_v278 : StableHlo.TRef sig ⟨S50000x200, .f32⟩) (.of main_call5_v0 : StableHlo.TRef sig ⟨S50000x200, .f32⟩) (.of main_v279 : StableHlo.TRef sig ⟨S50000x200, .f32⟩) maximumf,
    StableHlo.unary main_arg11 main_v280 ((extractStridedSlice S1x200x100 ![1, 0, 0] · slices_S5x200x100_S1x200x100_1_0_0) : (⟨S5x200x100, .f32⟩ : BufTy).Contents (Elt F) → (⟨S1x200x100, .f32⟩ : BufTy).Contents (Elt F)),
    StableHlo.reshape main_v280 main_v281 rfl shapeCasts_S1x200x100_S200x100,
    StableHlo.binary main_v279 main_v281 main_v282 ((fun l r => Host.dotGeneral dot_S50000x200_S200x100_S50000x100_1_0_0_1_n_n none l r) : (⟨S50000x200, .f32⟩ : BufTy).Contents (Elt F) → (⟨S200x100, .f32⟩ : BufTy).Contents (Elt F) → (⟨S50000x100, .f32⟩ : BufTy).Contents (Elt F)),
    StableHlo.unary main_arg12 main_v283 ((extractStridedSlice S1x100 ![1, 0] · slices_S5x100_S1x100_1_0) : (⟨S5x100, .f32⟩ : BufTy).Contents (Elt F) → (⟨S1x100, .f32⟩ : BufTy).Contents (Elt F)),
    StableHlo.reshape main_v283 main_v284 rfl shapeCasts_S1x100_S100,
    StableHlo.unary main_v284 main_v285 (broadcastInDim S1x100 ![1] bcast_S100_S1x100_1 : (⟨S100, .f32⟩ : BufTy).Contents (Elt F) → (⟨S1x100, .f32⟩ : BufTy).Contents (Elt F)),
    StableHlo.unary main_v285 main_v286 (broadcastInDim S50000x100 ![0, 1] bcast_S1x100_S50000x100_0_1 : (⟨S1x100, .f32⟩ : BufTy).Contents (Elt F) → (⟨S50000x100, .f32⟩ : BufTy).Contents (Elt F)),
    StableHlo.binary main_v282 main_v286 main_v287 (addf : (⟨S50000x100, .f32⟩ : BufTy).Contents (Elt F) → (⟨S50000x100, .f32⟩ : BufTy).Contents (Elt F) → (⟨S50000x100, .f32⟩ : BufTy).Contents (Elt F)),
    StableHlo.unary main_arg13 main_v288 ((extractStridedSlice S1x100 ![1, 0] · slices_S5x100_S1x100_1_0) : (⟨S5x100, .f32⟩ : BufTy).Contents (Elt F) → (⟨S1x100, .f32⟩ : BufTy).Contents (Elt F)),
    StableHlo.reshape main_v288 main_v289 rfl shapeCasts_S1x100_S100,
    StableHlo.unary main_arg14 main_v290 ((extractStridedSlice S1x100 ![1, 0] · slices_S5x100_S1x100_1_0) : (⟨S5x100, .f32⟩ : BufTy).Contents (Elt F) → (⟨S1x100, .f32⟩ : BufTy).Contents (Elt F)),
    StableHlo.reshape main_v290 main_v291 rfl shapeCasts_S1x100_S100,
    StableHlo.nullary main_cst_44 (constant S_ .f32 0x00000000#32),
    StableHlo.binary main_v287 main_cst_44 main_v292 ((fun x v => Host.reduceAdd x v reducesTo_S50000x100_S100_d0 h_S_) : (⟨S50000x100, .f32⟩ : BufTy).Contents (Elt F) → (⟨S_, .f32⟩ : BufTy).Contents (Elt F) → (⟨S100, .f32⟩ : BufTy).Contents (Elt F)),
    StableHlo.nullary main_cst_45 (constant S_ .f32 0x47435000#32),
    StableHlo.unary main_cst_45 main_v293 (broadcastInDim S100 ![] bcast_S_S100 : (⟨S_, .f32⟩ : BufTy).Contents (Elt F) → (⟨S100, .f32⟩ : BufTy).Contents (Elt F)),
    StableHlo.binary main_v292 main_v293 main_v294 (Host.divf : (⟨S100, .f32⟩ : BufTy).Contents (Elt F) → (⟨S100, .f32⟩ : BufTy).Contents (Elt F) → (⟨S100, .f32⟩ : BufTy).Contents (Elt F)),
    StableHlo.nullary main_c_46 (constantI S_ 32 0#32),
    StableHlo.TRef.nullary (.of main_call6_cst : StableHlo.TRef sig ⟨S_, .f32⟩) (constant S_ .f32 0x00000000#32),
    StableHlo.TRef.binary (.of main_v287 : StableHlo.TRef sig ⟨S50000x100, .f32⟩) (.of main_call6_cst : StableHlo.TRef sig ⟨S_, .f32⟩) (.of main_call6_v0 : StableHlo.TRef sig ⟨S100, .f32⟩) (fun x v => Host.reduceAdd x v reducesTo_S50000x100_S100_d0 h_S_),
    StableHlo.TRef.unary (.of main_call6_v0 : StableHlo.TRef sig ⟨S100, .f32⟩) (.of main_call6_v1 : StableHlo.TRef sig ⟨S1x100, .f32⟩) (broadcastInDim S1x100 ![1] bcast_S100_S1x100_1),
    StableHlo.TRef.nullary (.of main_call6_cst_0 : StableHlo.TRef sig ⟨S_, .f32⟩) (constant S_ .f32 0x47435000#32),
    StableHlo.TRef.unary (.of main_call6_cst_0 : StableHlo.TRef sig ⟨S_, .f32⟩) (.of main_call6_v2 : StableHlo.TRef sig ⟨S1x100, .f32⟩) (broadcastInDim S1x100 ![] bcast_S_S1x100),
    StableHlo.TRef.binary (.of main_call6_v1 : StableHlo.TRef sig ⟨S1x100, .f32⟩) (.of main_call6_v2 : StableHlo.TRef sig ⟨S1x100, .f32⟩) (.of main_call6_v3 : StableHlo.TRef sig ⟨S1x100, .f32⟩) Host.divf,
    StableHlo.TRef.unary (.of main_call6_v3 : StableHlo.TRef sig ⟨S1x100, .f32⟩) (.of main_call6_v4 : StableHlo.TRef sig ⟨S50000x100, .f32⟩) (broadcastInDim S50000x100 ![0, 1] bcast_S1x100_S50000x100_0_1),
    StableHlo.TRef.binary (.of main_v287 : StableHlo.TRef sig ⟨S50000x100, .f32⟩) (.of main_call6_v4 : StableHlo.TRef sig ⟨S50000x100, .f32⟩) (.of main_call6_v5 : StableHlo.TRef sig ⟨S50000x100, .f32⟩) subf,
    StableHlo.TRef.binary (.of main_call6_v5 : StableHlo.TRef sig ⟨S50000x100, .f32⟩) (.of main_call6_v5 : StableHlo.TRef sig ⟨S50000x100, .f32⟩) (.of main_call6_v6 : StableHlo.TRef sig ⟨S50000x100, .f32⟩) mulf,
    StableHlo.TRef.unary (.of main_c_46 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x47435000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S50000x100, .f32⟩) (.of main_call6_cst_2 : StableHlo.TRef sig ⟨S_, .f32⟩) (.of main_call6_v9 : StableHlo.TRef sig ⟨S100, .f32⟩) (fun x v => Host.reduceAdd x v reducesTo_S50000x100_S100_d0 h_S_),
    StableHlo.TRef.unary (.of main_call6_v8 : StableHlo.TRef sig ⟨S_, .f32⟩) (.of main_call6_v10 : StableHlo.TRef sig ⟨S100, .f32⟩) (broadcastInDim S100 ![] bcast_S_S100),
    StableHlo.TRef.binary (.of main_call6_v9 : StableHlo.TRef sig ⟨S100, .f32⟩) (.of main_call6_v10 : StableHlo.TRef sig ⟨S100, .f32⟩) (.of main_call6_v11 : StableHlo.TRef sig ⟨S100, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S100, .f32⟩) (broadcastInDim S100 ![] bcast_S_S100),
    StableHlo.TRef.ternary (.of main_call6_v12 : StableHlo.TRef sig ⟨S_, .i1⟩) (.of main_call6_v11 : StableHlo.TRef sig ⟨S100, .f32⟩) (.of main_call6_call0_v1 : StableHlo.TRef sig ⟨S100, .f32⟩) (.of main_v295 : StableHlo.TRef sig ⟨S100, .f32⟩) (fun p a b => select (broadcastInDim S100 ![] bcast_S_S100 p) a b),
    StableHlo.unary main_v294 main_v296 (broadcastInDim S1x100 ![1] bcast_S100_S1x100_1 : (⟨S100, .f32⟩ : BufTy).Contents (Elt F) → (⟨S1x100, .f32⟩ : BufTy).Contents (Elt F)),
    StableHlo.unary main_v296 main_v297 (broadcastInDim S50000x100 ![0, 1] bcast_S1x100_S50000x100_0_1 : (⟨S1x100, .f32⟩ : BufTy).Contents (Elt F) → (⟨S50000x100, .f32⟩ : BufTy).Contents (Elt F)),
    StableHlo.binary main_v287 main_v297 main_v298 (subf : (⟨S50000x100, .f32⟩ : BufTy).Contents (Elt F) → (⟨S50000x100, .f32⟩ : BufTy).Contents (Elt F) → (⟨S50000x100, .f32⟩ : BufTy).Contents (Elt F)),
    StableHlo.nullary main_cst_47 (constant S_ .f32 0x3727C5AC#32),
    StableHlo.unary main_cst_47 main_v299 (broadcastInDim S100 ![] bcast_S_S100 : (⟨S_, .f32⟩ : BufTy).Contents (Elt F) → (⟨S100, .f32⟩ : BufTy).Contents (Elt F)),
    StableHlo.binary main_v295 main_v299 main_v300 (addf : (⟨S100, .f32⟩ : BufTy).Contents (Elt F) → (⟨S100, .f32⟩ : BufTy).Contents (Elt F) → (⟨S100, .f32⟩ : BufTy).Contents (Elt F)),
    StableHlo.unary main_v300 main_v301 (Host.rsqrt : (⟨S100, .f32⟩ : BufTy).Contents (Elt F) → (⟨S100, .f32⟩ : BufTy).Contents (Elt F)),
    StableHlo.unary main_v301 main_v302 (broadcastInDim S1x100 ![1] bcast_S100_S1x100_1 : (⟨S100, .f32⟩ : BufTy).Contents (Elt F) → (⟨S1x100, .f32⟩ : BufTy).Contents (Elt F)),
    StableHlo.unary main_v302 main_v303 (broadcastInDim S50000x100 ![0, 1] bcast_S1x100_S50000x100_0_1 : (⟨S1x100, .f32⟩ : BufTy).Contents (Elt F) → (⟨S50000x100, .f32⟩ : BufTy).Contents (Elt F)),
    StableHlo.binary main_v298 main_v303 main_v304 (mulf : (⟨S50000x100, .f32⟩ : BufTy).Contents (Elt F) → (⟨S50000x100, .f32⟩ : BufTy).Contents (Elt F) → (⟨S50000x100, .f32⟩ : BufTy).Contents (Elt F)),
    StableHlo.unary main_v289 main_v305 (broadcastInDim S1x100 ![1] bcast_S100_S1x100_1 : (⟨S100, .f32⟩ : BufTy).Contents (Elt F) → (⟨S1x100, .f32⟩ : BufTy).Contents (Elt F)),
    StableHlo.unary main_v305 main_v306 (broadcastInDim S50000x100 ![0, 1] bcast_S1x100_S50000x100_0_1 : (⟨S1x100, .f32⟩ : BufTy).Contents (Elt F) → (⟨S50000x100, .f32⟩ : BufTy).Contents (Elt F)),
    StableHlo.binary main_v304 main_v306 main_v307 (mulf : (⟨S50000x100, .f32⟩ : BufTy).Contents (Elt F) → (⟨S50000x100, .f32⟩ : BufTy).Contents (Elt F) → (⟨S50000x100, .f32⟩ : BufTy).Contents (Elt F)),
    StableHlo.unary main_v291 main_v308 (broadcastInDim S1x100 ![1] bcast_S100_S1x100_1 : (⟨S100, .f32⟩ : BufTy).Contents (Elt F) → (⟨S1x100, .f32⟩ : BufTy).Contents (Elt F)),
    StableHlo.unary main_v308 main_v309 (broadcastInDim S50000x100 ![0, 1] bcast_S1x100_S50000x100_0_1 : (⟨S1x100, .f32⟩ : BufTy).Contents (Elt F) → (⟨S50000x100, .f32⟩ : BufTy).Contents (Elt F)) ]
theorem part5_sub : (part5 : List (HloOp τ sig (Elt F))).Forall fun op => op.bufs ⊆ StableHlo.tcRefs τ sig :=
  ⟨StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub ..⟩

/-- Window 6: 85 operations, numbers 451 … 535 of the whole run. -/
abbrev part6 : List (HloOp τ sig (Elt F)) :=
  [ StableHlo.binary main_v307 main_v309 main_v310 (addf : (⟨S50000x100, .f32⟩ : BufTy).Contents (Elt F) → (⟨S50000x100, .f32⟩ : BufTy).Contents (Elt F) → (⟨S50000x100, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S50000x100, .f32⟩) (broadcastInDim S50000x100 ![] bcast_S_S50000x100),
    StableHlo.TRef.binary (.of main_v310 : StableHlo.TRef sig ⟨S50000x100, .f32⟩) (.of main_call7_v0 : StableHlo.TRef sig ⟨S50000x100, .f32⟩) (.of main_v311 : StableHlo.TRef sig ⟨S50000x100, .f32⟩) maximumf,
    StableHlo.nullary main_c_48 (constantI S_ 32 0#32),
    StableHlo.unary main_c_48 main_v312 (broadcastInDim S800000 ![] bcast_S_S800000 : (⟨S_, .i32⟩ : BufTy).Contents (Elt F) → (⟨S800000, .i32⟩ : BufTy).Contents (Elt F)),
    StableHlo.binary main_v147 main_v312 main_v313 (cmpi .slt : (⟨S800000, .i32⟩ : BufTy).Contents (Elt F) → (⟨S800000, .i32⟩ : BufTy).Contents (Elt F) → (⟨S800000, .i1⟩ : BufTy).Contents (Elt F)),
    StableHlo.nullary main_c_49 (constantI S_ 32 50000#32),
    StableHlo.unary main_c_49 main_v314 (broadcastInDim S800000 ![] bcast_S_S800000 : (⟨S_, .i32⟩ : BufTy).Contents (Elt F) → (⟨S800000, .i32⟩ : BufTy).Contents (Elt F)),
    StableHlo.binary main_v147 main_v314 main_v315 (addi : (⟨S800000, .i32⟩ : BufTy).Contents (Elt F) → (⟨S800000, .i32⟩ : BufTy).Contents (Elt F) → (⟨S800000, .i32⟩ : BufTy).Contents (Elt F)),
    StableHlo.ternary main_v313 main_v315 main_v147 main_v316 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v316 main_v317 (broadcastInDim S800000x1 ![0] bcast_S800000_S800000x1_0 : (⟨S800000, .i32⟩ : BufTy).Contents (Elt F) → (⟨S800000x1, .i32⟩ : BufTy).Contents (Elt F)),
    StableHlo.binary main_v311 main_v317 main_v318 ((fun x i => Host.gather gather_S50000x100_S800000x1_S800000x100_1_0_n_n_0_1_1100 x i) : (⟨S50000x100, .f32⟩ : BufTy).Contents (Elt F) → (⟨S800000x1, .i32⟩ : BufTy).Contents (Elt F) → (⟨S800000x100, .f32⟩ : BufTy).Contents (Elt F)),
    StableHlo.binary main_v318 main_v145 main_v319 (addf : (⟨S800000x100, .f32⟩ : BufTy).Contents (Elt F) → (⟨S800000x100, .f32⟩ : BufTy).Contents (Elt F) → (⟨S800000x100, .f32⟩ : BufTy).Contents (Elt F)),
    StableHlo.nullary main_cst_50 (constant S_ .f32 0x00000000#32),
    StableHlo.unary main_cst_50 main_v320 (broadcastInDim S50000x100 ![] bcast_S_S50000x100 : (⟨S_, .f32⟩ : BufTy).Contents (Elt F) → (⟨S50000x100, .f32⟩ : BufTy).Contents (Elt F)),
    StableHlo.unary main_v149 main_v321 (broadcastInDim S800000x1 ![0] bcast_S800000_S800000x1_0 : (⟨S800000, .i32⟩ : BufTy).Contents (Elt F) → (⟨S800000x1, .i32⟩ : BufTy).Contents (Elt F)),
    StableHlo.ternary main_v320 main_v321 main_v319 main_v322 ((fun x i u => Host.scatterAdd scatter_S50000x100_S800000x1_S800000x100_1_0_0_1 x i u) : (⟨S50000x100, .f32⟩ : BufTy).Contents (Elt F) → (⟨S800000x1, .i32⟩ : BufTy).Contents (Elt F) → (⟨S800000x100, .f32⟩ : BufTy).Contents (Elt F) → (⟨S50000x100, .f32⟩ : BufTy).Contents (Elt F)),
    StableHlo.unary main_arg6 main_v323 ((extractStridedSlice S1 ![2] · slices_S5_S1_2) : (⟨S5, .f32⟩ : BufTy).Contents (Elt F) → (⟨S1, .f32⟩ : BufTy).Contents (Elt F)),
    StableHlo.reshape main_v323 main_v324 rfl shapeCasts_S1_S_,
    StableHlo.nullary main_cst_51 (constant S_ .f32 0x3F800000#32),
    StableHlo.binary main_cst_51 main_v324 main_v325 (addf : (⟨S_, .f32⟩ : BufTy).Contents (Elt F) → (⟨S_, .f32⟩ : BufTy).Contents (Elt F) → (⟨S_, .f32⟩ : BufTy).Contents (Elt F)),
    StableHlo.unary main_v325 main_v326 (broadcastInDim S50000x100 ![] bcast_S_S50000x100 : (⟨S_, .f32⟩ : BufTy).Contents (Elt F) → (⟨S50000x100, .f32⟩ : BufTy).Contents (Elt F)),
    StableHlo.binary main_v326 main_v311 main_v327 (mulf : (⟨S50000x100, .f32⟩ : BufTy).Contents (Elt F) → (⟨S50000x100, .f32⟩ : BufTy).Contents (Elt F) → (⟨S50000x100, .f32⟩ : BufTy).Contents (Elt F)),
    StableHlo.binary main_v327 main_v322 main_v328 (addf : (⟨S50000x100, .f32⟩ : BufTy).Contents (Elt F) → (⟨S50000x100, .f32⟩ : BufTy).Contents (Elt F) → (⟨S50000x100, .f32⟩ : BufTy).Contents (Elt F)),
    StableHlo.unary main_arg7 main_v329 ((extractStridedSlice S1x100x200 ![2, 0, 0] · slices_S5x100x200_S1x100x200_2_0_0) : (⟨S5x100x200, .f32⟩ : BufTy).Contents (Elt F) → (⟨S1x100x200, .f32⟩ : BufTy).Contents (Elt F)),
    StableHlo.reshape main_v329 main_v330 rfl shapeCasts_S1x100x200_S100x200,
    StableHlo.binary main_v328 main_v330 main_v331 ((fun l r => Host.dotGeneral dot_S50000x100_S100x200_S50000x200_1_0_0_1_n_n none l r) : (⟨S50000x100, .f32⟩ : BufTy).Contents (Elt F) → (⟨S100x200, .f32⟩ : BufTy).Contents (Elt F) → (⟨S50000x200, .f32⟩ : BufTy).Contents (Elt F)),
    StableHlo.unary main_arg8 main_v332 ((extractStridedSlice S1x200 ![2, 0] · slices_S5x200_S1x200_2_0) : (⟨S5x200, .f32⟩ : BufTy).Contents (Elt F) → (⟨S1x200, .f32⟩ : BufTy).Contents (Elt F)),
    StableHlo.reshape main_v332 main_v333 rfl shapeCasts_S1x200_S200,
    StableHlo.unary main_v333 main_v334 (broadcastInDim S1x200 ![1] bcast_S200_S1x200_1 : (⟨S200, .f32⟩ : BufTy).Contents (Elt F) → (⟨S1x200, .f32⟩ : BufTy).Contents (Elt F)),
    StableHlo.unary main_v334 main_v335 (broadcastInDim S50000x200 ![0, 1] bcast_S1x200_S50000x200_0_1 : (⟨S1x200, .f32⟩ : BufTy).Contents (Elt F) → (⟨S50000x200, .f32⟩ : BufTy).Contents (Elt F)),
    StableHlo.binary main_v331 main_v335 main_v336 (addf : (⟨S50000x200, .f32⟩ : BufTy).Contents (Elt F) → (⟨S50000x200, .f32⟩ : BufTy).Contents (Elt F) → (⟨S50000x200, .f32⟩ : BufTy).Contents (Elt F)),
    StableHlo.unary main_arg9 main_v337 ((extractStridedSlice S1x200 ![2, 0] · slices_S5x200_S1x200_2_0) : (⟨S5x200, .f32⟩ : BufTy).Contents (Elt F) → (⟨S1x200, .f32⟩ : BufTy).Contents (Elt F)),
    StableHlo.reshape main_v337 main_v338 rfl shapeCasts_S1x200_S200,
    StableHlo.unary main_arg10 main_v339 ((extractStridedSlice S1x200 ![2, 0] · slices_S5x200_S1x200_2_0) : (⟨S5x200, .f32⟩ : BufTy).Contents (Elt F) → (⟨S1x200, .f32⟩ : BufTy).Contents (Elt F)),
    StableHlo.reshape main_v339 main_v340 rfl shapeCasts_S1x200_S200,
    StableHlo.nullary main_cst_52 (constant S_ .f32 0x00000000#32),
    StableHlo.binary main_v336 main_cst_52 main_v341 ((fun x v => Host.reduceAdd x v reducesTo_S50000x200_S200_d0 h_S_) : (⟨S50000x200, .f32⟩ : BufTy).Contents (Elt F) → (⟨S_, .f32⟩ : BufTy).Contents (Elt F) → (⟨S200, .f32⟩ : BufTy).Contents (Elt F)),
    StableHlo.nullary main_cst_53 (constant S_ .f32 0x47435000#32),
    StableHlo.unary main_cst_53 main_v342 (broadcastInDim S200 ![] bcast_S_S200 : (⟨S_, .f32⟩ : BufTy).Contents (Elt F) → (⟨S200, .f32⟩ : BufTy).Contents (Elt F)),
    StableHlo.binary main_v341 main_v342 main_v343 (Host.divf : (⟨S200, .f32⟩ : BufTy).Contents (Elt F) → (⟨S200, .f32⟩ : BufTy).Contents (Elt F) → (⟨S200, .f32⟩ : BufTy).Contents (Elt F)),
    StableHlo.nullary main_c_54 (constantI S_ 32 0#32),
    StableHlo.TRef.nullary (.of main_call8_cst : StableHlo.TRef sig ⟨S_, .f32⟩) (constant S_ .f32 0x00000000#32),
    StableHlo.TRef.binary (.of main_v336 : StableHlo.TRef sig ⟨S50000x200, .f32⟩) (.of main_call8_cst : StableHlo.TRef sig ⟨S_, .f32⟩) (.of main_call8_v0 : StableHlo.TRef sig ⟨S200, .f32⟩) (fun x v => Host.reduceAdd x v reducesTo_S50000x200_S200_d0 h_S_),
    StableHlo.TRef.unary (.of main_call8_v0 : StableHlo.TRef sig ⟨S200, .f32⟩) (.of main_call8_v1 : StableHlo.TRef sig ⟨S1x200, .f32⟩) (broadcastInDim S1x200 ![1] bcast_S200_S1x200_1),
    StableHlo.TRef.nullary (.of main_call8_cst_0 : StableHlo.TRef sig ⟨S_, .f32⟩) (constant S_ .f32 0x47435000#32),
    StableHlo.TRef.unary (.of main_call8_cst_0 : StableHlo.TRef sig ⟨S_, .f32⟩) (.of main_call8_v2 : StableHlo.TRef sig ⟨S1x200, .f32⟩) (broadcastInDim S1x200 ![] bcast_S_S1x200),
    StableHlo.TRef.binary (.of main_call8_v1 : StableHlo.TRef sig ⟨S1x200, .f32⟩) (.of main_call8_v2 : StableHlo.TRef sig ⟨S1x200, .f32⟩) (.of main_call8_v3 : StableHlo.TRef sig ⟨S1x200, .f32⟩) Host.divf,
    StableHlo.TRef.unary (.of main_call8_v3 : StableHlo.TRef sig ⟨S1x200, .f32⟩) (.of main_call8_v4 : StableHlo.TRef sig ⟨S50000x200, .f32⟩) (broadcastInDim S50000x200 ![0, 1] bcast_S1x200_S50000x200_0_1),
    StableHlo.TRef.binary (.of main_v336 : StableHlo.TRef sig ⟨S50000x200, .f32⟩) (.of main_call8_v4 : StableHlo.TRef sig ⟨S50000x200, .f32⟩) (.of main_call8_v5 : StableHlo.TRef sig ⟨S50000x200, .f32⟩) subf,
    StableHlo.TRef.binary (.of main_call8_v5 : StableHlo.TRef sig ⟨S50000x200, .f32⟩) (.of main_call8_v5 : StableHlo.TRef sig ⟨S50000x200, .f32⟩) (.of main_call8_v6 : StableHlo.TRef sig ⟨S50000x200, .f32⟩) mulf,
    StableHlo.TRef.unary (.of main_c_54 : StableHlo.TRef sig ⟨S_, .i32⟩) (.of main_call8_v7 : StableHlo.TRef sig ⟨S_, .f32⟩) (sitofp .f32),
    StableHlo.TRef.nullary (.of main_call8_cst_1 : StableHlo.TRef sig ⟨S_, .f32⟩) (constant S_ .f32 0x47435000#32),
    StableHlo.TRef.binary (.of main_call8_cst_1 : StableHlo.TRef sig ⟨S_, .f32⟩) (.of main_call8_v7 : StableHlo.TRef sig ⟨S_, .f32⟩) (.of main_call8_v8 : StableHlo.TRef sig ⟨S_, .f32⟩) subf,
    StableHlo.TRef.nullary (.of main_call8_cst_2 : StableHlo.TRef sig ⟨S_, .f32⟩) (constant S_ .f32 0x00000000#32),
    StableHlo.TRef.binary (.of main_call8_v6 : StableHlo.TRef sig ⟨S50000x200, .f32⟩) (.of main_call8_cst_2 : StableHlo.TRef sig ⟨S_, .f32⟩) (.of main_call8_v9 : StableHlo.TRef sig ⟨S200, .f32⟩) (fun x v => Host.reduceAdd x v reducesTo_S50000x200_S200_d0 h_S_),
    StableHlo.TRef.unary (.of main_call8_v8 : StableHlo.TRef sig ⟨S_, .f32⟩) (.of main_call8_v10 : StableHlo.TRef sig ⟨S200, .f32⟩) (broadcastInDim S200 ![] bcast_S_S200),
    StableHlo.TRef.binary (.of main_call8_v9 : StableHlo.TRef sig ⟨S200, .f32⟩) (.of main_call8_v10 : StableHlo.TRef sig ⟨S200, .f32⟩) (.of main_call8_v11 : StableHlo.TRef sig ⟨S200, .f32⟩) Host.divf,
    StableHlo.TRef.nullary (.of main_call8_cst_3 : StableHlo.TRef sig ⟨S_, .f32⟩) (constant S_ .f32 0x00000000#32),
    StableHlo.TRef.binary (.of main_call8_v8 : StableHlo.TRef sig ⟨S_, .f32⟩) (.of main_call8_cst_3 : StableHlo.TRef sig ⟨S_, .f32⟩) (.of main_call8_v12 : StableHlo.TRef sig ⟨S_, .i1⟩) (cmpf .ogt),
    StableHlo.TRef.nullary (.of main_call8_cst_4 : StableHlo.TRef sig ⟨S_, .f32⟩) (constant S_ .f32 0x7FC00000#32),
    StableHlo.TRef.unary (.of main_call8_cst_4 : StableHlo.TRef sig ⟨S_, .f32⟩) (.of main_call8_call0_v0 : StableHlo.TRef sig ⟨S_, .f32⟩) id,
    StableHlo.TRef.unary (.of main_call8_call0_v0 : StableHlo.TRef sig ⟨S_, .f32⟩) (.of main_call8_call0_v1 : StableHlo.TRef sig ⟨S200, .f32⟩) (broadcastInDim S200 ![] bcast_S_S200),
    StableHlo.TRef.ternary (.of main_call8_v12 : StableHlo.TRef sig ⟨S_, .i1⟩) (.of main_call8_v11 : StableHlo.TRef sig ⟨S200, .f32⟩) (.of main_call8_call0_v1 : StableHlo.TRef sig ⟨S200, .f32⟩) (.of main_v344 : StableHlo.TRef sig ⟨S200, .f32⟩) (fun p a b => select (broadcastInDim S200 ![] bcast_S_S200 p) a b),
    StableHlo.unary main_v343 main_v345 (broadcastInDim S1x200 ![1] bcast_S200_S1x200_1 : (⟨S200, .f32⟩ : BufTy).Contents (Elt F) → (⟨S1x200, .f32⟩ : BufTy).Contents (Elt F)),
    StableHlo.unary main_v345 main_v346 (broadcastInDim S50000x200 ![0, 1] bcast_S1x200_S50000x200_0_1 : (⟨S1x200, .f32⟩ : BufTy).Contents (Elt F) → (⟨S50000x200, .f32⟩ : BufTy).Contents (Elt F)),
    StableHlo.binary main_v336 main_v346 main_v347 (subf : (⟨S50000x200, .f32⟩ : BufTy).Contents (Elt F) → (⟨S50000x200, .f32⟩ : BufTy).Contents (Elt F) → (⟨S50000x200, .f32⟩ : BufTy).Contents (Elt F)),
    StableHlo.nullary main_cst_55 (constant S_ .f32 0x3727C5AC#32),
    StableHlo.unary main_cst_55 main_v348 (broadcastInDim S200 ![] bcast_S_S200 : (⟨S_, .f32⟩ : BufTy).Contents (Elt F) → (⟨S200, .f32⟩ : BufTy).Contents (Elt F)),
    StableHlo.binary main_v344 main_v348 main_v349 (addf : (⟨S200, .f32⟩ : BufTy).Contents (Elt F) → (⟨S200, .f32⟩ : BufTy).Contents (Elt F) → (⟨S200, .f32⟩ : BufTy).Contents (Elt F)),
    StableHlo.unary main_v349 main_v350 (Host.rsqrt : (⟨S200, .f32⟩ : BufTy).Contents (Elt F) → (⟨S200, .f32⟩ : BufTy).Contents (Elt F)),
    StableHlo.unary main_v350 main_v351 (broadcastInDim S1x200 ![1] bcast_S200_S1x200_1 : (⟨S200, .f32⟩ : BufTy).Contents (Elt F) → (⟨S1x200, .f32⟩ : BufTy).Contents (Elt F)),
    StableHlo.unary main_v351 main_v352 (broadcastInDim S50000x200 ![0, 1] bcast_S1x200_S50000x200_0_1 : (⟨S1x200, .f32⟩ : BufTy).Contents (Elt F) → (⟨S50000x200, .f32⟩ : BufTy).Contents (Elt F)),
    StableHlo.binary main_v347 main_v352 main_v353 (mulf : (⟨S50000x200, .f32⟩ : BufTy).Contents (Elt F) → (⟨S50000x200, .f32⟩ : BufTy).Contents (Elt F) → (⟨S50000x200, .f32⟩ : BufTy).Contents (Elt F)),
    StableHlo.unary main_v338 main_v354 (broadcastInDim S1x200 ![1] bcast_S200_S1x200_1 : (⟨S200, .f32⟩ : BufTy).Contents (Elt F) → (⟨S1x200, .f32⟩ : BufTy).Contents (Elt F)),
    StableHlo.unary main_v354 main_v355 (broadcastInDim S50000x200 ![0, 1] bcast_S1x200_S50000x200_0_1 : (⟨S1x200, .f32⟩ : BufTy).Contents (Elt F) → (⟨S50000x200, .f32⟩ : BufTy).Contents (Elt F)),
    StableHlo.binary main_v353 main_v355 main_v356 (mulf : (⟨S50000x200, .f32⟩ : BufTy).Contents (Elt F) → (⟨S50000x200, .f32⟩ : BufTy).Contents (Elt F) → (⟨S50000x200, .f32⟩ : BufTy).Contents (Elt F)),
    StableHlo.unary main_v340 main_v357 (broadcastInDim S1x200 ![1] bcast_S200_S1x200_1 : (⟨S200, .f32⟩ : BufTy).Contents (Elt F) → (⟨S1x200, .f32⟩ : BufTy).Contents (Elt F)),
    StableHlo.unary main_v357 main_v358 (broadcastInDim S50000x200 ![0, 1] bcast_S1x200_S50000x200_0_1 : (⟨S1x200, .f32⟩ : BufTy).Contents (Elt F) → (⟨S50000x200, .f32⟩ : BufTy).Contents (Elt F)),
    StableHlo.binary main_v356 main_v358 main_v359 (addf : (⟨S50000x200, .f32⟩ : BufTy).Contents (Elt F) → (⟨S50000x200, .f32⟩ : BufTy).Contents (Elt F) → (⟨S50000x200, .f32⟩ : BufTy).Contents (Elt F)),
    StableHlo.TRef.nullary (.of main_call9_cst : StableHlo.TRef sig ⟨S_, .f32⟩) (constant S_ .f32 0x00000000#32),
    StableHlo.TRef.unary (.of main_call9_cst : StableHlo.TRef sig ⟨S_, .f32⟩) (.of main_call9_v0 : StableHlo.TRef sig ⟨S50000x200, .f32⟩) (broadcastInDim S50000x200 ![] bcast_S_S50000x200),
    StableHlo.TRef.binary (.of main_v359 : StableHlo.TRef sig ⟨S50000x200, .f32⟩) (.of main_call9_v0 : StableHlo.TRef sig ⟨S50000x200, .f32⟩) (.of main_v360 : StableHlo.TRef sig ⟨S50000x200, .f32⟩) maximumf,
    StableHlo.unary main_arg11 main_v361 ((extractStridedSlice S1x200x100 ![2, 0, 0] · slices_S5x200x100_S1x200x100_2_0_0) : (⟨S5x200x100, .f32⟩ : BufTy).Contents (Elt F) → (⟨S1x200x100, .f32⟩ : BufTy).Contents (Elt F)) ]
theorem part6_sub : (part6 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.binary_bufs_sub .., StableHlo.unary_bufs_sub .., StableHlo.binary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub ..⟩

/-- Window 7: 83 operations, numbers 536 … 618 of the whole run. -/
abbrev part7 : List (HloOp τ sig (Elt F)) :=
  [ StableHlo.reshape main_v361 main_v362 rfl shapeCasts_S1x200x100_S200x100,
    StableHlo.binary main_v360 main_v362 main_v363 ((fun l r => Host.dotGeneral dot_S50000x200_S200x100_S50000x100_1_0_0_1_n_n none l r) : (⟨S50000x200, .f32⟩ : BufTy).Contents (Elt F) → (⟨S200x100, .f32⟩ : BufTy).Contents (Elt F) → (⟨S50000x100, .f32⟩ : BufTy).Contents (Elt F)),
    StableHlo.unary main_arg12 main_v364 ((extractStridedSlice S1x100 ![2, 0] · slices_S5x100_S1x100_2_0) : (⟨S5x100, .f32⟩ : BufTy).Contents (Elt F) → (⟨S1x100, .f32⟩ : BufTy).Contents (Elt F)),
    StableHlo.reshape main_v364 main_v365 rfl shapeCasts_S1x100_S100,
    StableHlo.unary main_v365 main_v366 (broadcastInDim S1x100 ![1] bcast_S100_S1x100_1 : (⟨S100, .f32⟩ : BufTy).Contents (Elt F) → (⟨S1x100, .f32⟩ : BufTy).Contents (Elt F)),
    StableHlo.unary main_v366 main_v367 (broadcastInDim S50000x100 ![0, 1] bcast_S1x100_S50000x100_0_1 : (⟨S1x100, .f32⟩ : BufTy).Contents (Elt F) → (⟨S50000x100, .f32⟩ : BufTy).Contents (Elt F)),
    StableHlo.binary main_v363 main_v367 main_v368 (addf : (⟨S50000x100, .f32⟩ : BufTy).Contents (Elt F) → (⟨S50000x100, .f32⟩ : BufTy).Contents (Elt F) → (⟨S50000x100, .f32⟩ : BufTy).Contents (Elt F)),
    StableHlo.unary main_arg13 main_v369 ((extractStridedSlice S1x100 ![2, 0] · slices_S5x100_S1x100_2_0) : (⟨S5x100, .f32⟩ : BufTy).Contents (Elt F) → (⟨S1x100, .f32⟩ : BufTy).Contents (Elt F)),
    StableHlo.reshape main_v369 main_v370 rfl shapeCasts_S1x100_S100,
    StableHlo.unary main_arg14 main_v371 ((extractStridedSlice S1x100 ![2, 0] · slices_S5x100_S1x100_2_0) : (⟨S5x100, .f32⟩ : BufTy).Contents (Elt F) → (⟨S1x100, .f32⟩ : BufTy).Contents (Elt F)),
    StableHlo.reshape main_v371 main_v372 rfl shapeCasts_S1x100_S100,
    StableHlo.nullary main_cst_56 (constant S_ .f32 0x00000000#32),
    StableHlo.binary main_v368 main_cst_56 main_v373 ((fun x v => Host.reduceAdd x v reducesTo_S50000x100_S100_d0 h_S_) : (⟨S50000x100, .f32⟩ : BufTy).Contents (Elt F) → (⟨S_, .f32⟩ : BufTy).Contents (Elt F) → (⟨S100, .f32⟩ : BufTy).Contents (Elt F)),
    StableHlo.nullary main_cst_57 (constant S_ .f32 0x47435000#32),
    StableHlo.unary main_cst_57 main_v374 (broadcastInDim S100 ![] bcast_S_S100 : (⟨S_, .f32⟩ : BufTy).Contents (Elt F) → (⟨S100, .f32⟩ : BufTy).Contents (Elt F)),
    StableHlo.binary main_v373 main_v374 main_v375 (Host.divf : (⟨S100, .f32⟩ : BufTy).Contents (Elt F) → (⟨S100, .f32⟩ : BufTy).Contents (Elt F) → (⟨S100, .f32⟩ : BufTy).Contents (Elt F)),
    StableHlo.nullary main_c_58 (constantI S_ 32 0#32),
    StableHlo.TRef.nullary (.of main_call10_cst : StableHlo.TRef sig ⟨S_, .f32⟩) (constant S_ .f32 0x00000000#32),
    StableHlo.TRef.binary (.of main_v368 : StableHlo.TRef sig ⟨S50000x100, .f32⟩) (.of main_call10_cst : StableHlo.TRef sig ⟨S_, .f32⟩) (.of main_call10_v0 : StableHlo.TRef sig ⟨S100, .f32⟩) (fun x v => Host.reduceAdd x v reducesTo_S50000x100_S100_d0 h_S_),
    StableHlo.TRef.unary (.of main_call10_v0 : StableHlo.TRef sig ⟨S100, .f32⟩) (.of main_call10_v1 : StableHlo.TRef sig ⟨S1x100, .f32⟩) (broadcastInDim S1x100 ![1] bcast_S100_S1x100_1),
    StableHlo.TRef.nullary (.of main_call10_cst_0 : StableHlo.TRef sig ⟨S_, .f32⟩) (constant S_ .f32 0x47435000#32),
    StableHlo.TRef.unary (.of main_call10_cst_0 : StableHlo.TRef sig ⟨S_, .f32⟩) (.of main_call10_v2 : StableHlo.TRef sig ⟨S1x100, .f32⟩) (broadcastInDim S1x100 ![] bcast_S_S1x100),
    StableHlo.TRef.binary (.of main_call10_v1 : StableHlo.TRef sig ⟨S1x100, .f32⟩) (.of main_call10_v2 : StableHlo.TRef sig ⟨S1x100, .f32⟩) (.of main_call10_v3 : StableHlo.TRef sig ⟨S1x100, .f32⟩) Host.divf,
    StableHlo.TRef.unary (.of main_call10_v3 : StableHlo.TRef sig ⟨S1x100, .f32⟩) (.of main_call10_v4 : StableHlo.TRef sig ⟨S50000x100, .f32⟩) (broadcastInDim S50000x100 ![0, 1] bcast_S1x100_S50000x100_0_1),
    StableHlo.TRef.binary (.of main_v368 : StableHlo.TRef sig ⟨S50000x100, .f32⟩) (.of main_call10_v4 : StableHlo.TRef sig ⟨S50000x100, .f32⟩) (.of main_call10_v5 : StableHlo.TRef sig ⟨S50000x100, .f32⟩) subf,
    StableHlo.TRef.binary (.of main_call10_v5 : StableHlo.TRef sig ⟨S50000x100, .f32⟩) (.of main_call10_v5 : StableHlo.TRef sig ⟨S50000x100, .f32⟩) (.of main_call10_v6 : StableHlo.TRef sig ⟨S50000x100, .f32⟩) mulf,
    StableHlo.TRef.unary (.of main_c_58 : StableHlo.TRef sig ⟨S_, .i32⟩) (.of main_call10_v7 : StableHlo.TRef sig ⟨S_, .f32⟩) (sitofp .f32),
    StableHlo.TRef.nullary (.of main_call10_cst_1 : StableHlo.TRef sig ⟨S_, .f32⟩) (constant S_ .f32 0x47435000#32),
    StableHlo.TRef.binary (.of main_call10_cst_1 : StableHlo.TRef sig ⟨S_, .f32⟩) (.of main_call10_v7 : StableHlo.TRef sig ⟨S_, .f32⟩) (.of main_call10_v8 : StableHlo.TRef sig ⟨S_, .f32⟩) subf,
    StableHlo.TRef.nullary (.of main_call10_cst_2 : StableHlo.TRef sig ⟨S_, .f32⟩) (constant S_ .f32 0x00000000#32),
    StableHlo.TRef.binary (.of main_call10_v6 : StableHlo.TRef sig ⟨S50000x100, .f32⟩) (.of main_call10_cst_2 : StableHlo.TRef sig ⟨S_, .f32⟩) (.of main_call10_v9 : StableHlo.TRef sig ⟨S100, .f32⟩) (fun x v => Host.reduceAdd x v reducesTo_S50000x100_S100_d0 h_S_),
    StableHlo.TRef.unary (.of main_call10_v8 : StableHlo.TRef sig ⟨S_, .f32⟩) (.of main_call10_v10 : StableHlo.TRef sig ⟨S100, .f32⟩) (broadcastInDim S100 ![] bcast_S_S100),
    StableHlo.TRef.binary (.of main_call10_v9 : StableHlo.TRef sig ⟨S100, .f32⟩) (.of main_call10_v10 : StableHlo.TRef sig ⟨S100, .f32⟩) (.of main_call10_v11 : StableHlo.TRef sig ⟨S100, .f32⟩) Host.divf,
    StableHlo.TRef.nullary (.of main_call10_cst_3 : StableHlo.TRef sig ⟨S_, .f32⟩) (constant S_ .f32 0x00000000#32),
    StableHlo.TRef.binary (.of main_call10_v8 : StableHlo.TRef sig ⟨S_, .f32⟩) (.of main_call10_cst_3 : StableHlo.TRef sig ⟨S_, .f32⟩) (.of main_call10_v12 : StableHlo.TRef sig ⟨S_, .i1⟩) (cmpf .ogt),
    StableHlo.TRef.nullary (.of main_call10_cst_4 : StableHlo.TRef sig ⟨S_, .f32⟩) (constant S_ .f32 0x7FC00000#32),
    StableHlo.TRef.unary (.of main_call10_cst_4 : StableHlo.TRef sig ⟨S_, .f32⟩) (.of main_call10_call0_v0 : StableHlo.TRef sig ⟨S_, .f32⟩) id,
    StableHlo.TRef.unary (.of main_call10_call0_v0 : StableHlo.TRef sig ⟨S_, .f32⟩) (.of main_call10_call0_v1 : StableHlo.TRef sig ⟨S100, .f32⟩) (broadcastInDim S100 ![] bcast_S_S100),
    StableHlo.TRef.ternary (.of main_call10_v12 : StableHlo.TRef sig ⟨S_, .i1⟩) (.of main_call10_v11 : StableHlo.TRef sig ⟨S100, .f32⟩) (.of main_call10_call0_v1 : StableHlo.TRef sig ⟨S100, .f32⟩) (.of main_v376 : StableHlo.TRef sig ⟨S100, .f32⟩) (fun p a b => select (broadcastInDim S100 ![] bcast_S_S100 p) a b),
    StableHlo.unary main_v375 main_v377 (broadcastInDim S1x100 ![1] bcast_S100_S1x100_1 : (⟨S100, .f32⟩ : BufTy).Contents (Elt F) → (⟨S1x100, .f32⟩ : BufTy).Contents (Elt F)),
    StableHlo.unary main_v377 main_v378 (broadcastInDim S50000x100 ![0, 1] bcast_S1x100_S50000x100_0_1 : (⟨S1x100, .f32⟩ : BufTy).Contents (Elt F) → (⟨S50000x100, .f32⟩ : BufTy).Contents (Elt F)),
    StableHlo.binary main_v368 main_v378 main_v379 (subf : (⟨S50000x100, .f32⟩ : BufTy).Contents (Elt F) → (⟨S50000x100, .f32⟩ : BufTy).Contents (Elt F) → (⟨S50000x100, .f32⟩ : BufTy).Contents (Elt F)),
    StableHlo.nullary main_cst_59 (constant S_ .f32 0x3727C5AC#32),
    StableHlo.unary main_cst_59 main_v380 (broadcastInDim S100 ![] bcast_S_S100 : (⟨S_, .f32⟩ : BufTy).Contents (Elt F) → (⟨S100, .f32⟩ : BufTy).Contents (Elt F)),
    StableHlo.binary main_v376 main_v380 main_v381 (addf : (⟨S100, .f32⟩ : BufTy).Contents (Elt F) → (⟨S100, .f32⟩ : BufTy).Contents (Elt F) → (⟨S100, .f32⟩ : BufTy).Contents (Elt F)),
    StableHlo.unary main_v381 main_v382 (Host.rsqrt : (⟨S100, .f32⟩ : BufTy).Contents (Elt F) → (⟨S100, .f32⟩ : BufTy).Contents (Elt F)),
    StableHlo.unary main_v382 main_v383 (broadcastInDim S1x100 ![1] bcast_S100_S1x100_1 : (⟨S100, .f32⟩ : BufTy).Contents (Elt F) → (⟨S1x100, .f32⟩ : BufTy).Contents (Elt F)),
    StableHlo.unary main_v383 main_v384 (broadcastInDim S50000x100 ![0, 1] bcast_S1x100_S50000x100_0_1 : (⟨S1x100, .f32⟩ : BufTy).Contents (Elt F) → (⟨S50000x100, .f32⟩ : BufTy).Contents (Elt F)),
    StableHlo.binary main_v379 main_v384 main_v385 (mulf : (⟨S50000x100, .f32⟩ : BufTy).Contents (Elt F) → (⟨S50000x100, .f32⟩ : BufTy).Contents (Elt F) → (⟨S50000x100, .f32⟩ : BufTy).Contents (Elt F)),
    StableHlo.unary main_v370 main_v386 (broadcastInDim S1x100 ![1] bcast_S100_S1x100_1 : (⟨S100, .f32⟩ : BufTy).Contents (Elt F) → (⟨S1x100, .f32⟩ : BufTy).Contents (Elt F)),
    StableHlo.unary main_v386 main_v387 (broadcastInDim S50000x100 ![0, 1] bcast_S1x100_S50000x100_0_1 : (⟨S1x100, .f32⟩ : BufTy).Contents (Elt F) → (⟨S50000x100, .f32⟩ : BufTy).Contents (Elt F)),
    StableHlo.binary main_v385 main_v387 main_v388 (mulf : (⟨S50000x100, .f32⟩ : BufTy).Contents (Elt F) → (⟨S50000x100, .f32⟩ : BufTy).Contents (Elt F) → (⟨S50000x100, .f32⟩ : BufTy).Contents (Elt F)),
    StableHlo.unary main_v372 main_v389 (broadcastInDim S1x100 ![1] bcast_S100_S1x100_1 : (⟨S100, .f32⟩ : BufTy).Contents (Elt F) → (⟨S1x100, .f32⟩ : BufTy).Contents (Elt F)),
    StableHlo.unary main_v389 main_v390 (broadcastInDim S50000x100 ![0, 1] bcast_S1x100_S50000x100_0_1 : (⟨S1x100, .f32⟩ : BufTy).Contents (Elt F) → (⟨S50000x100, .f32⟩ : BufTy).Contents (Elt F)),
    StableHlo.binary main_v388 main_v390 main_v391 (addf : (⟨S50000x100, .f32⟩ : BufTy).Contents (Elt F) → (⟨S50000x100, .f32⟩ : BufTy).Contents (Elt F) → (⟨S50000x100, .f32⟩ : BufTy).Contents (Elt F)),
    StableHlo.TRef.nullary (.of main_call11_cst : StableHlo.TRef sig ⟨S_, .f32⟩) (constant S_ .f32 0x00000000#32),
    StableHlo.TRef.unary (.of main_call11_cst : StableHlo.TRef sig ⟨S_, .f32⟩) (.of main_call11_v0 : StableHlo.TRef sig ⟨S50000x100, .f32⟩) (broadcastInDim S50000x100 ![] bcast_S_S50000x100),
    StableHlo.TRef.binary (.of main_v391 : StableHlo.TRef sig ⟨S50000x100, .f32⟩) (.of main_call11_v0 : StableHlo.TRef sig ⟨S50000x100, .f32⟩) (.of main_v392 : StableHlo.TRef sig ⟨S50000x100, .f32⟩) maximumf,
    StableHlo.nullary main_c_60 (constantI S_ 32 0#32),
    StableHlo.unary main_c_60 main_v393 (broadcastInDim S800000 ![] bcast_S_S800000 : (⟨S_, .i32⟩ : BufTy).Contents (Elt F) → (⟨S800000, .i32⟩ : BufTy).Contents (Elt F)),
    StableHlo.binary main_v147 main_v393 main_v394 (cmpi .slt : (⟨S800000, .i32⟩ : BufTy).Contents (Elt F) → (⟨S800000, .i32⟩ : BufTy).Contents (Elt F) → (⟨S800000, .i1⟩ : BufTy).Contents (Elt F)),
    StableHlo.nullary main_c_61 (constantI S_ 32 50000#32),
    StableHlo.unary main_c_61 main_v395 (broadcastInDim S800000 ![] bcast_S_S800000 : (⟨S_, .i32⟩ : BufTy).Contents (Elt F) → (⟨S800000, .i32⟩ : BufTy).Contents (Elt F)),
    StableHlo.binary main_v147 main_v395 main_v396 (addi : (⟨S800000, .i32⟩ : BufTy).Contents (Elt F) → (⟨S800000, .i32⟩ : BufTy).Contents (Elt F) → (⟨S800000, .i32⟩ : BufTy).Contents (Elt F)),
    StableHlo.ternary main_v394 main_v396 main_v147 main_v397 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v397 main_v398 (broadcastInDim S800000x1 ![0] bcast_S800000_S800000x1_0 : (⟨S800000, .i32⟩ : BufTy).Contents (Elt F) → (⟨S800000x1, .i32⟩ : BufTy).Contents (Elt F)),
    StableHlo.binary main_v392 main_v398 main_v399 ((fun x i => Host.gather gather_S50000x100_S800000x1_S800000x100_1_0_n_n_0_1_1100 x i) : (⟨S50000x100, .f32⟩ : BufTy).Contents (Elt F) → (⟨S800000x1, .i32⟩ : BufTy).Contents (Elt F) → (⟨S800000x100, .f32⟩ : BufTy).Contents (Elt F)),
    StableHlo.binary main_v399 main_v145 main_v400 (addf : (⟨S800000x100, .f32⟩ : BufTy).Contents (Elt F) → (⟨S800000x100, .f32⟩ : BufTy).Contents (Elt F) → (⟨S800000x100, .f32⟩ : BufTy).Contents (Elt F)),
    StableHlo.nullary main_cst_62 (constant S_ .f32 0x00000000#32),
    StableHlo.unary main_cst_62 main_v401 (broadcastInDim S50000x100 ![] bcast_S_S50000x100 : (⟨S_, .f32⟩ : BufTy).Contents (Elt F) → (⟨S50000x100, .f32⟩ : BufTy).Contents (Elt F)),
    StableHlo.unary main_v149 main_v402 (broadcastInDim S800000x1 ![0] bcast_S800000_S800000x1_0 : (⟨S800000, .i32⟩ : BufTy).Contents (Elt F) → (⟨S800000x1, .i32⟩ : BufTy).Contents (Elt F)),
    StableHlo.ternary main_v401 main_v402 main_v400 main_v403 ((fun x i u => Host.scatterAdd scatter_S50000x100_S800000x1_S800000x100_1_0_0_1 x i u) : (⟨S50000x100, .f32⟩ : BufTy).Contents (Elt F) → (⟨S800000x1, .i32⟩ : BufTy).Contents (Elt F) → (⟨S800000x100, .f32⟩ : BufTy).Contents (Elt F) → (⟨S50000x100, .f32⟩ : BufTy).Contents (Elt F)),
    StableHlo.unary main_arg6 main_v404 ((extractStridedSlice S1 ![3] · slices_S5_S1_3) : (⟨S5, .f32⟩ : BufTy).Contents (Elt F) → (⟨S1, .f32⟩ : BufTy).Contents (Elt F)),
    StableHlo.reshape main_v404 main_v405 rfl shapeCasts_S1_S_,
    StableHlo.nullary main_cst_63 (constant S_ .f32 0x3F800000#32),
    StableHlo.binary main_cst_63 main_v405 main_v406 (addf : (⟨S_, .f32⟩ : BufTy).Contents (Elt F) → (⟨S_, .f32⟩ : BufTy).Contents (Elt F) → (⟨S_, .f32⟩ : BufTy).Contents (Elt F)),
    StableHlo.unary main_v406 main_v407 (broadcastInDim S50000x100 ![] bcast_S_S50000x100 : (⟨S_, .f32⟩ : BufTy).Contents (Elt F) → (⟨S50000x100, .f32⟩ : BufTy).Contents (Elt F)),
    StableHlo.binary main_v407 main_v392 main_v408 (mulf : (⟨S50000x100, .f32⟩ : BufTy).Contents (Elt F) → (⟨S50000x100, .f32⟩ : BufTy).Contents (Elt F) → (⟨S50000x100, .f32⟩ : BufTy).Contents (Elt F)),
    StableHlo.binary main_v408 main_v403 main_v409 (addf : (⟨S50000x100, .f32⟩ : BufTy).Contents (Elt F) → (⟨S50000x100, .f32⟩ : BufTy).Contents (Elt F) → (⟨S50000x100, .f32⟩ : BufTy).Contents (Elt F)),
    StableHlo.unary main_arg7 main_v410 ((extractStridedSlice S1x100x200 ![3, 0, 0] · slices_S5x100x200_S1x100x200_3_0_0) : (⟨S5x100x200, .f32⟩ : BufTy).Contents (Elt F) → (⟨S1x100x200, .f32⟩ : BufTy).Contents (Elt F)),
    StableHlo.reshape main_v410 main_v411 rfl shapeCasts_S1x100x200_S100x200,
    StableHlo.binary main_v409 main_v411 main_v412 ((fun l r => Host.dotGeneral dot_S50000x100_S100x200_S50000x200_1_0_0_1_n_n none l r) : (⟨S50000x100, .f32⟩ : BufTy).Contents (Elt F) → (⟨S100x200, .f32⟩ : BufTy).Contents (Elt F) → (⟨S50000x200, .f32⟩ : BufTy).Contents (Elt F)),
    StableHlo.unary main_arg8 main_v413 ((extractStridedSlice S1x200 ![3, 0] · slices_S5x200_S1x200_3_0) : (⟨S5x200, .f32⟩ : BufTy).Contents (Elt F) → (⟨S1x200, .f32⟩ : BufTy).Contents (Elt F)) ]
theorem part7_sub : (part7 : List (HloOp τ sig (Elt F))).Forall fun op => op.bufs ⊆ StableHlo.tcRefs τ sig :=
  ⟨StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.binary_bufs_sub .., StableHlo.unary_bufs_sub .., StableHlo.binary_bufs_sub .., StableHlo.binary_bufs_sub .., StableHlo.unary_bufs_sub .., StableHlo.reshape_bufs_sub .., StableHlo.binary_bufs_sub .., StableHlo.unary_bufs_sub ..⟩

/-- Window 8: 104 operations, numbers 619 … 722 of the whole run. -/
abbrev part8 : List (HloOp τ sig (Elt F)) :=
  [ StableHlo.reshape main_v413 main_v414 rfl shapeCasts_S1x200_S200,
    StableHlo.unary main_v414 main_v415 (broadcastInDim S1x200 ![1] bcast_S200_S1x200_1 : (⟨S200, .f32⟩ : BufTy).Contents (Elt F) → (⟨S1x200, .f32⟩ : BufTy).Contents (Elt F)),
    StableHlo.unary main_v415 main_v416 (broadcastInDim S50000x200 ![0, 1] bcast_S1x200_S50000x200_0_1 : (⟨S1x200, .f32⟩ : BufTy).Contents (Elt F) → (⟨S50000x200, .f32⟩ : BufTy).Contents (Elt F)),
    StableHlo.binary main_v412 main_v416 main_v417 (addf : (⟨S50000x200, .f32⟩ : BufTy).Contents (Elt F) → (⟨S50000x200, .f32⟩ : BufTy).Contents (Elt F) → (⟨S50000x200, .f32⟩ : BufTy).Contents (Elt F)),
    StableHlo.unary main_arg9 main_v418 ((extractStridedSlice S1x200 ![3, 0] · slices_S5x200_S1x200_3_0) : (⟨S5x200, .f32⟩ : BufTy).Contents (Elt F) → (⟨S1x200, .f32⟩ : BufTy).Contents (Elt F)),
    StableHlo.reshape main_v418 main_v419 rfl shapeCasts_S1x200_S200,
    StableHlo.unary main_arg10 main_v420 ((extractStridedSlice S1x200 ![3, 0] · slices_S5x200_S1x200_3_0) : (⟨S5x200, .f32⟩ : BufTy).Contents (Elt F) → (⟨S1x200, .f32⟩ : BufTy).Contents (Elt F)),
    StableHlo.reshape main_v420 main_v421 rfl shapeCasts_S1x200_S200,
    StableHlo.nullary main_cst_64 (constant S_ .f32 0x00000000#32),
    StableHlo.binary main_v417 main_cst_64 main_v422 ((fun x v => Host.reduceAdd x v reducesTo_S50000x200_S200_d0 h_S_) : (⟨S50000x200, .f32⟩ : BufTy).Contents (Elt F) → (⟨S_, .f32⟩ : BufTy).Contents (Elt F) → (⟨S200, .f32⟩ : BufTy).Contents (Elt F)),
    StableHlo.nullary main_cst_65 (constant S_ .f32 0x47435000#32),
    StableHlo.unary main_cst_65 main_v423 (broadcastInDim S200 ![] bcast_S_S200 : (⟨S_, .f32⟩ : BufTy).Contents (Elt F) → (⟨S200, .f32⟩ : BufTy).Contents (Elt F)),
    StableHlo.binary main_v422 main_v423 main_v424 (Host.divf : (⟨S200, .f32⟩ : BufTy).Contents (Elt F) → (⟨S200, .f32⟩ : BufTy).Contents (Elt F) → (⟨S200, .f32⟩ : BufTy).Contents (Elt F)),
    StableHlo.nullary main_c_66 (constantI S_ 32 0#32),
    StableHlo.TRef.nullary (.of main_call12_cst : StableHlo.TRef sig ⟨S_, .f32⟩) (constant S_ .f32 0x00000000#32),
    StableHlo.TRef.binary (.of main_v417 : StableHlo.TRef sig ⟨S50000x200, .f32⟩) (.of main_call12_cst : StableHlo.TRef sig ⟨S_, .f32⟩) (.of main_call12_v0 : StableHlo.TRef sig ⟨S200, .f32⟩) (fun x v => Host.reduceAdd x v reducesTo_S50000x200_S200_d0 h_S_),
    StableHlo.TRef.unary (.of main_call12_v0 : StableHlo.TRef sig ⟨S200, .f32⟩) (.of main_call12_v1 : StableHlo.TRef sig ⟨S1x200, .f32⟩) (broadcastInDim S1x200 ![1] bcast_S200_S1x200_1),
    StableHlo.TRef.nullary (.of main_call12_cst_0 : StableHlo.TRef sig ⟨S_, .f32⟩) (constant S_ .f32 0x47435000#32),
    StableHlo.TRef.unary (.of main_call12_cst_0 : StableHlo.TRef sig ⟨S_, .f32⟩) (.of main_call12_v2 : StableHlo.TRef sig ⟨S1x200, .f32⟩) (broadcastInDim S1x200 ![] bcast_S_S1x200),
    StableHlo.TRef.binary (.of main_call12_v1 : StableHlo.TRef sig ⟨S1x200, .f32⟩) (.of main_call12_v2 : StableHlo.TRef sig ⟨S1x200, .f32⟩) (.of main_call12_v3 : StableHlo.TRef sig ⟨S1x200, .f32⟩) Host.divf,
    StableHlo.TRef.unary (.of main_call12_v3 : StableHlo.TRef sig ⟨S1x200, .f32⟩) (.of main_call12_v4 : StableHlo.TRef sig ⟨S50000x200, .f32⟩) (broadcastInDim S50000x200 ![0, 1] bcast_S1x200_S50000x200_0_1),
    StableHlo.TRef.binary (.of main_v417 : StableHlo.TRef sig ⟨S50000x200, .f32⟩) (.of main_call12_v4 : StableHlo.TRef sig ⟨S50000x200, .f32⟩) (.of main_call12_v5 : StableHlo.TRef sig ⟨S50000x200, .f32⟩) subf,
    StableHlo.TRef.binary (.of main_call12_v5 : StableHlo.TRef sig ⟨S50000x200, .f32⟩) (.of main_call12_v5 : StableHlo.TRef sig ⟨S50000x200, .f32⟩) (.of main_call12_v6 : StableHlo.TRef sig ⟨S50000x200, .f32⟩) mulf,
    StableHlo.TRef.unary (.of main_c_66 : StableHlo.TRef sig ⟨S_, .i32⟩) (.of main_call12_v7 : StableHlo.TRef sig ⟨S_, .f32⟩) (sitofp .f32),
    StableHlo.TRef.nullary (.of main_call12_cst_1 : StableHlo.TRef sig ⟨S_, .f32⟩) (constant S_ .f32 0x47435000#32),
    StableHlo.TRef.binary (.of main_call12_cst_1 : StableHlo.TRef sig ⟨S_, .f32⟩) (.of main_call12_v7 : StableHlo.TRef sig ⟨S_, .f32⟩) (.of main_call12_v8 : StableHlo.TRef sig ⟨S_, .f32⟩) subf,
    StableHlo.TRef.nullary (.of main_call12_cst_2 : StableHlo.TRef sig ⟨S_, .f32⟩) (constant S_ .f32 0x00000000#32),
    StableHlo.TRef.binary (.of main_call12_v6 : StableHlo.TRef sig ⟨S50000x200, .f32⟩) (.of main_call12_cst_2 : StableHlo.TRef sig ⟨S_, .f32⟩) (.of main_call12_v9 : StableHlo.TRef sig ⟨S200, .f32⟩) (fun x v => Host.reduceAdd x v reducesTo_S50000x200_S200_d0 h_S_),
    StableHlo.TRef.unary (.of main_call12_v8 : StableHlo.TRef sig ⟨S_, .f32⟩) (.of main_call12_v10 : StableHlo.TRef sig ⟨S200, .f32⟩) (broadcastInDim S200 ![] bcast_S_S200),
    StableHlo.TRef.binary (.of main_call12_v9 : StableHlo.TRef sig ⟨S200, .f32⟩) (.of main_call12_v10 : StableHlo.TRef sig ⟨S200, .f32⟩) (.of main_call12_v11 : StableHlo.TRef sig ⟨S200, .f32⟩) Host.divf,
    StableHlo.TRef.nullary (.of main_call12_cst_3 : StableHlo.TRef sig ⟨S_, .f32⟩) (constant S_ .f32 0x00000000#32),
    StableHlo.TRef.binary (.of main_call12_v8 : StableHlo.TRef sig ⟨S_, .f32⟩) (.of main_call12_cst_3 : StableHlo.TRef sig ⟨S_, .f32⟩) (.of main_call12_v12 : StableHlo.TRef sig ⟨S_, .i1⟩) (cmpf .ogt),
    StableHlo.TRef.nullary (.of main_call12_cst_4 : StableHlo.TRef sig ⟨S_, .f32⟩) (constant S_ .f32 0x7FC00000#32),
    StableHlo.TRef.unary (.of main_call12_cst_4 : StableHlo.TRef sig ⟨S_, .f32⟩) (.of main_call12_call0_v0 : StableHlo.TRef sig ⟨S_, .f32⟩) id,
    StableHlo.TRef.unary (.of main_call12_call0_v0 : StableHlo.TRef sig ⟨S_, .f32⟩) (.of main_call12_call0_v1 : StableHlo.TRef sig ⟨S200, .f32⟩) (broadcastInDim S200 ![] bcast_S_S200),
    StableHlo.TRef.ternary (.of main_call12_v12 : StableHlo.TRef sig ⟨S_, .i1⟩) (.of main_call12_v11 : StableHlo.TRef sig ⟨S200, .f32⟩) (.of main_call12_call0_v1 : StableHlo.TRef sig ⟨S200, .f32⟩) (.of main_v425 : StableHlo.TRef sig ⟨S200, .f32⟩) (fun p a b => select (broadcastInDim S200 ![] bcast_S_S200 p) a b),
    StableHlo.unary main_v424 main_v426 (broadcastInDim S1x200 ![1] bcast_S200_S1x200_1 : (⟨S200, .f32⟩ : BufTy).Contents (Elt F) → (⟨S1x200, .f32⟩ : BufTy).Contents (Elt F)),
    StableHlo.unary main_v426 main_v427 (broadcastInDim S50000x200 ![0, 1] bcast_S1x200_S50000x200_0_1 : (⟨S1x200, .f32⟩ : BufTy).Contents (Elt F) → (⟨S50000x200, .f32⟩ : BufTy).Contents (Elt F)),
    StableHlo.binary main_v417 main_v427 main_v428 (subf : (⟨S50000x200, .f32⟩ : BufTy).Contents (Elt F) → (⟨S50000x200, .f32⟩ : BufTy).Contents (Elt F) → (⟨S50000x200, .f32⟩ : BufTy).Contents (Elt F)),
    StableHlo.nullary main_cst_67 (constant S_ .f32 0x3727C5AC#32),
    StableHlo.unary main_cst_67 main_v429 (broadcastInDim S200 ![] bcast_S_S200 : (⟨S_, .f32⟩ : BufTy).Contents (Elt F) → (⟨S200, .f32⟩ : BufTy).Contents (Elt F)),
    StableHlo.binary main_v425 main_v429 main_v430 (addf : (⟨S200, .f32⟩ : BufTy).Contents (Elt F) → (⟨S200, .f32⟩ : BufTy).Contents (Elt F) → (⟨S200, .f32⟩ : BufTy).Contents (Elt F)),
    StableHlo.unary main_v430 main_v431 (Host.rsqrt : (⟨S200, .f32⟩ : BufTy).Contents (Elt F) → (⟨S200, .f32⟩ : BufTy).Contents (Elt F)),
    StableHlo.unary main_v431 main_v432 (broadcastInDim S1x200 ![1] bcast_S200_S1x200_1 : (⟨S200, .f32⟩ : BufTy).Contents (Elt F) → (⟨S1x200, .f32⟩ : BufTy).Contents (Elt F)),
    StableHlo.unary main_v432 main_v433 (broadcastInDim S50000x200 ![0, 1] bcast_S1x200_S50000x200_0_1 : (⟨S1x200, .f32⟩ : BufTy).Contents (Elt F) → (⟨S50000x200, .f32⟩ : BufTy).Contents (Elt F)),
    StableHlo.binary main_v428 main_v433 main_v434 (mulf : (⟨S50000x200, .f32⟩ : BufTy).Contents (Elt F) → (⟨S50000x200, .f32⟩ : BufTy).Contents (Elt F) → (⟨S50000x200, .f32⟩ : BufTy).Contents (Elt F)),
    StableHlo.unary main_v419 main_v435 (broadcastInDim S1x200 ![1] bcast_S200_S1x200_1 : (⟨S200, .f32⟩ : BufTy).Contents (Elt F) → (⟨S1x200, .f32⟩ : BufTy).Contents (Elt F)),
    StableHlo.unary main_v435 main_v436 (broadcastInDim S50000x200 ![0, 1] bcast_S1x200_S50000x200_0_1 : (⟨S1x200, .f32⟩ : BufTy).Contents (Elt F) → (⟨S50000x200, .f32⟩ : BufTy).Contents (Elt F)),
    StableHlo.binary main_v434 main_v436 main_v437 (mulf : (⟨S50000x200, .f32⟩ : BufTy).Contents (Elt F) → (⟨S50000x200, .f32⟩ : BufTy).Contents (Elt F) → (⟨S50000x200, .f32⟩ : BufTy).Contents (Elt F)),
    StableHlo.unary main_v421 main_v438 (broadcastInDim S1x200 ![1] bcast_S200_S1x200_1 : (⟨S200, .f32⟩ : BufTy).Contents (Elt F) → (⟨S1x200, .f32⟩ : BufTy).Contents (Elt F)),
    StableHlo.unary main_v438 main_v439 (broadcastInDim S50000x200 ![0, 1] bcast_S1x200_S50000x200_0_1 : (⟨S1x200, .f32⟩ : BufTy).Contents (Elt F) → (⟨S50000x200, .f32⟩ : BufTy).Contents (Elt F)),
    StableHlo.binary main_v437 main_v439 main_v440 (addf : (⟨S50000x200, .f32⟩ : BufTy).Contents (Elt F) → (⟨S50000x200, .f32⟩ : BufTy).Contents (Elt F) → (⟨S50000x200, .f32⟩ : BufTy).Contents (Elt F)),
    StableHlo.TRef.nullary (.of main_call13_cst : StableHlo.TRef sig ⟨S_, .f32⟩) (constant S_ .f32 0x00000000#32),
    StableHlo.TRef.unary (.of main_call13_cst : StableHlo.TRef sig ⟨S_, .f32⟩) (.of main_call13_v0 : StableHlo.TRef sig ⟨S50000x200, .f32⟩) (broadcastInDim S50000x200 ![] bcast_S_S50000x200),
    StableHlo.TRef.binary (.of main_v440 : StableHlo.TRef sig ⟨S50000x200, .f32⟩) (.of main_call13_v0 : StableHlo.TRef sig ⟨S50000x200, .f32⟩) (.of main_v441 : StableHlo.TRef sig ⟨S50000x200, .f32⟩) maximumf,
    StableHlo.unary main_arg11 main_v442 ((extractStridedSlice S1x200x100 ![3, 0, 0] · slices_S5x200x100_S1x200x100_3_0_0) : (⟨S5x200x100, .f32⟩ : BufTy).Contents (Elt F) → (⟨S1x200x100, .f32⟩ : BufTy).Contents (Elt F)),
    StableHlo.reshape main_v442 main_v443 rfl shapeCasts_S1x200x100_S200x100,
    StableHlo.binary main_v441 main_v443 main_v444 ((fun l r => Host.dotGeneral dot_S50000x200_S200x100_S50000x100_1_0_0_1_n_n none l r) : (⟨S50000x200, .f32⟩ : BufTy).Contents (Elt F) → (⟨S200x100, .f32⟩ : BufTy).Contents (Elt F) → (⟨S50000x100, .f32⟩ : BufTy).Contents (Elt F)),
    StableHlo.unary main_arg12 main_v445 ((extractStridedSlice S1x100 ![3, 0] · slices_S5x100_S1x100_3_0) : (⟨S5x100, .f32⟩ : BufTy).Contents (Elt F) → (⟨S1x100, .f32⟩ : BufTy).Contents (Elt F)),
    StableHlo.reshape main_v445 main_v446 rfl shapeCasts_S1x100_S100,
    StableHlo.unary main_v446 main_v447 (broadcastInDim S1x100 ![1] bcast_S100_S1x100_1 : (⟨S100, .f32⟩ : BufTy).Contents (Elt F) → (⟨S1x100, .f32⟩ : BufTy).Contents (Elt F)),
    StableHlo.unary main_v447 main_v448 (broadcastInDim S50000x100 ![0, 1] bcast_S1x100_S50000x100_0_1 : (⟨S1x100, .f32⟩ : BufTy).Contents (Elt F) → (⟨S50000x100, .f32⟩ : BufTy).Contents (Elt F)),
    StableHlo.binary main_v444 main_v448 main_v449 (addf : (⟨S50000x100, .f32⟩ : BufTy).Contents (Elt F) → (⟨S50000x100, .f32⟩ : BufTy).Contents (Elt F) → (⟨S50000x100, .f32⟩ : BufTy).Contents (Elt F)),
    StableHlo.unary main_arg13 main_v450 ((extractStridedSlice S1x100 ![3, 0] · slices_S5x100_S1x100_3_0) : (⟨S5x100, .f32⟩ : BufTy).Contents (Elt F) → (⟨S1x100, .f32⟩ : BufTy).Contents (Elt F)),
    StableHlo.reshape main_v450 main_v451 rfl shapeCasts_S1x100_S100,
    StableHlo.unary main_arg14 main_v452 ((extractStridedSlice S1x100 ![3, 0] · slices_S5x100_S1x100_3_0) : (⟨S5x100, .f32⟩ : BufTy).Contents (Elt F) → (⟨S1x100, .f32⟩ : BufTy).Contents (Elt F)),
    StableHlo.reshape main_v452 main_v453 rfl shapeCasts_S1x100_S100,
    StableHlo.nullary main_cst_68 (constant S_ .f32 0x00000000#32),
    StableHlo.binary main_v449 main_cst_68 main_v454 ((fun x v => Host.reduceAdd x v reducesTo_S50000x100_S100_d0 h_S_) : (⟨S50000x100, .f32⟩ : BufTy).Contents (Elt F) → (⟨S_, .f32⟩ : BufTy).Contents (Elt F) → (⟨S100, .f32⟩ : BufTy).Contents (Elt F)),
    StableHlo.nullary main_cst_69 (constant S_ .f32 0x47435000#32),
    StableHlo.unary main_cst_69 main_v455 (broadcastInDim S100 ![] bcast_S_S100 : (⟨S_, .f32⟩ : BufTy).Contents (Elt F) → (⟨S100, .f32⟩ : BufTy).Contents (Elt F)),
    StableHlo.binary main_v454 main_v455 main_v456 (Host.divf : (⟨S100, .f32⟩ : BufTy).Contents (Elt F) → (⟨S100, .f32⟩ : BufTy).Contents (Elt F) → (⟨S100, .f32⟩ : BufTy).Contents (Elt F)),
    StableHlo.nullary main_c_70 (constantI S_ 32 0#32),
    StableHlo.TRef.nullary (.of main_call14_cst : StableHlo.TRef sig ⟨S_, .f32⟩) (constant S_ .f32 0x00000000#32),
    StableHlo.TRef.binary (.of main_v449 : StableHlo.TRef sig ⟨S50000x100, .f32⟩) (.of main_call14_cst : StableHlo.TRef sig ⟨S_, .f32⟩) (.of main_call14_v0 : StableHlo.TRef sig ⟨S100, .f32⟩) (fun x v => Host.reduceAdd x v reducesTo_S50000x100_S100_d0 h_S_),
    StableHlo.TRef.unary (.of main_call14_v0 : StableHlo.TRef sig ⟨S100, .f32⟩) (.of main_call14_v1 : StableHlo.TRef sig ⟨S1x100, .f32⟩) (broadcastInDim S1x100 ![1] bcast_S100_S1x100_1),
    StableHlo.TRef.nullary (.of main_call14_cst_0 : StableHlo.TRef sig ⟨S_, .f32⟩) (constant S_ .f32 0x47435000#32),
    StableHlo.TRef.unary (.of main_call14_cst_0 : StableHlo.TRef sig ⟨S_, .f32⟩) (.of main_call14_v2 : StableHlo.TRef sig ⟨S1x100, .f32⟩) (broadcastInDim S1x100 ![] bcast_S_S1x100),
    StableHlo.TRef.binary (.of main_call14_v1 : StableHlo.TRef sig ⟨S1x100, .f32⟩) (.of main_call14_v2 : StableHlo.TRef sig ⟨S1x100, .f32⟩) (.of main_call14_v3 : StableHlo.TRef sig ⟨S1x100, .f32⟩) Host.divf,
    StableHlo.TRef.unary (.of main_call14_v3 : StableHlo.TRef sig ⟨S1x100, .f32⟩) (.of main_call14_v4 : StableHlo.TRef sig ⟨S50000x100, .f32⟩) (broadcastInDim S50000x100 ![0, 1] bcast_S1x100_S50000x100_0_1),
    StableHlo.TRef.binary (.of main_v449 : StableHlo.TRef sig ⟨S50000x100, .f32⟩) (.of main_call14_v4 : StableHlo.TRef sig ⟨S50000x100, .f32⟩) (.of main_call14_v5 : StableHlo.TRef sig ⟨S50000x100, .f32⟩) subf,
    StableHlo.TRef.binary (.of main_call14_v5 : StableHlo.TRef sig ⟨S50000x100, .f32⟩) (.of main_call14_v5 : StableHlo.TRef sig ⟨S50000x100, .f32⟩) (.of main_call14_v6 : StableHlo.TRef sig ⟨S50000x100, .f32⟩) mulf,
    StableHlo.TRef.unary (.of main_c_70 : StableHlo.TRef sig ⟨S_, .i32⟩) (.of main_call14_v7 : StableHlo.TRef sig ⟨S_, .f32⟩) (sitofp .f32),
    StableHlo.TRef.nullary (.of main_call14_cst_1 : StableHlo.TRef sig ⟨S_, .f32⟩) (constant S_ .f32 0x47435000#32),
    StableHlo.TRef.binary (.of main_call14_cst_1 : StableHlo.TRef sig ⟨S_, .f32⟩) (.of main_call14_v7 : StableHlo.TRef sig ⟨S_, .f32⟩) (.of main_call14_v8 : StableHlo.TRef sig ⟨S_, .f32⟩) subf,
    StableHlo.TRef.nullary (.of main_call14_cst_2 : StableHlo.TRef sig ⟨S_, .f32⟩) (constant S_ .f32 0x00000000#32),
    StableHlo.TRef.binary (.of main_call14_v6 : StableHlo.TRef sig ⟨S50000x100, .f32⟩) (.of main_call14_cst_2 : StableHlo.TRef sig ⟨S_, .f32⟩) (.of main_call14_v9 : StableHlo.TRef sig ⟨S100, .f32⟩) (fun x v => Host.reduceAdd x v reducesTo_S50000x100_S100_d0 h_S_),
    StableHlo.TRef.unary (.of main_call14_v8 : StableHlo.TRef sig ⟨S_, .f32⟩) (.of main_call14_v10 : StableHlo.TRef sig ⟨S100, .f32⟩) (broadcastInDim S100 ![] bcast_S_S100),
    StableHlo.TRef.binary (.of main_call14_v9 : StableHlo.TRef sig ⟨S100, .f32⟩) (.of main_call14_v10 : StableHlo.TRef sig ⟨S100, .f32⟩) (.of main_call14_v11 : StableHlo.TRef sig ⟨S100, .f32⟩) Host.divf,
    StableHlo.TRef.nullary (.of main_call14_cst_3 : StableHlo.TRef sig ⟨S_, .f32⟩) (constant S_ .f32 0x00000000#32),
    StableHlo.TRef.binary (.of main_call14_v8 : StableHlo.TRef sig ⟨S_, .f32⟩) (.of main_call14_cst_3 : StableHlo.TRef sig ⟨S_, .f32⟩) (.of main_call14_v12 : StableHlo.TRef sig ⟨S_, .i1⟩) (cmpf .ogt),
    StableHlo.TRef.nullary (.of main_call14_cst_4 : StableHlo.TRef sig ⟨S_, .f32⟩) (constant S_ .f32 0x7FC00000#32),
    StableHlo.TRef.unary (.of main_call14_cst_4 : StableHlo.TRef sig ⟨S_, .f32⟩) (.of main_call14_call0_v0 : StableHlo.TRef sig ⟨S_, .f32⟩) id,
    StableHlo.TRef.unary (.of main_call14_call0_v0 : StableHlo.TRef sig ⟨S_, .f32⟩) (.of main_call14_call0_v1 : StableHlo.TRef sig ⟨S100, .f32⟩) (broadcastInDim S100 ![] bcast_S_S100),
    StableHlo.TRef.ternary (.of main_call14_v12 : StableHlo.TRef sig ⟨S_, .i1⟩) (.of main_call14_v11 : StableHlo.TRef sig ⟨S100, .f32⟩) (.of main_call14_call0_v1 : StableHlo.TRef sig ⟨S100, .f32⟩) (.of main_v457 : StableHlo.TRef sig ⟨S100, .f32⟩) (fun p a b => select (broadcastInDim S100 ![] bcast_S_S100 p) a b),
    StableHlo.unary main_v456 main_v458 (broadcastInDim S1x100 ![1] bcast_S100_S1x100_1 : (⟨S100, .f32⟩ : BufTy).Contents (Elt F) → (⟨S1x100, .f32⟩ : BufTy).Contents (Elt F)),
    StableHlo.unary main_v458 main_v459 (broadcastInDim S50000x100 ![0, 1] bcast_S1x100_S50000x100_0_1 : (⟨S1x100, .f32⟩ : BufTy).Contents (Elt F) → (⟨S50000x100, .f32⟩ : BufTy).Contents (Elt F)),
    StableHlo.binary main_v449 main_v459 main_v460 (subf : (⟨S50000x100, .f32⟩ : BufTy).Contents (Elt F) → (⟨S50000x100, .f32⟩ : BufTy).Contents (Elt F) → (⟨S50000x100, .f32⟩ : BufTy).Contents (Elt F)),
    StableHlo.nullary main_cst_71 (constant S_ .f32 0x3727C5AC#32),
    StableHlo.unary main_cst_71 main_v461 (broadcastInDim S100 ![] bcast_S_S100 : (⟨S_, .f32⟩ : BufTy).Contents (Elt F) → (⟨S100, .f32⟩ : BufTy).Contents (Elt F)),
    StableHlo.binary main_v457 main_v461 main_v462 (addf : (⟨S100, .f32⟩ : BufTy).Contents (Elt F) → (⟨S100, .f32⟩ : BufTy).Contents (Elt F) → (⟨S100, .f32⟩ : BufTy).Contents (Elt F)),
    StableHlo.unary main_v462 main_v463 (Host.rsqrt : (⟨S100, .f32⟩ : BufTy).Contents (Elt F) → (⟨S100, .f32⟩ : BufTy).Contents (Elt F)),
    StableHlo.unary main_v463 main_v464 (broadcastInDim S1x100 ![1] bcast_S100_S1x100_1 : (⟨S100, .f32⟩ : BufTy).Contents (Elt F) → (⟨S1x100, .f32⟩ : BufTy).Contents (Elt F)),
    StableHlo.unary main_v464 main_v465 (broadcastInDim S50000x100 ![0, 1] bcast_S1x100_S50000x100_0_1 : (⟨S1x100, .f32⟩ : BufTy).Contents (Elt F) → (⟨S50000x100, .f32⟩ : BufTy).Contents (Elt F)) ]
theorem part8_sub : (part8 : List (HloOp τ sig (Elt F))).Forall fun op => op.bufs ⊆ StableHlo.tcRefs τ sig :=
  ⟨StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub ..⟩

/-- Window 9: 83 operations, numbers 723 … 805 of the whole run. -/
abbrev part9 : List (HloOp τ sig (Elt F)) :=
  [ StableHlo.binary main_v460 main_v465 main_v466 (mulf : (⟨S50000x100, .f32⟩ : BufTy).Contents (Elt F) → (⟨S50000x100, .f32⟩ : BufTy).Contents (Elt F) → (⟨S50000x100, .f32⟩ : BufTy).Contents (Elt F)),
    StableHlo.unary main_v451 main_v467 (broadcastInDim S1x100 ![1] bcast_S100_S1x100_1 : (⟨S100, .f32⟩ : BufTy).Contents (Elt F) → (⟨S1x100, .f32⟩ : BufTy).Contents (Elt F)),
    StableHlo.unary main_v467 main_v468 (broadcastInDim S50000x100 ![0, 1] bcast_S1x100_S50000x100_0_1 : (⟨S1x100, .f32⟩ : BufTy).Contents (Elt F) → (⟨S50000x100, .f32⟩ : BufTy).Contents (Elt F)),
    StableHlo.binary main_v466 main_v468 main_v469 (mulf : (⟨S50000x100, .f32⟩ : BufTy).Contents (Elt F) → (⟨S50000x100, .f32⟩ : BufTy).Contents (Elt F) → (⟨S50000x100, .f32⟩ : BufTy).Contents (Elt F)),
    StableHlo.unary main_v453 main_v470 (broadcastInDim S1x100 ![1] bcast_S100_S1x100_1 : (⟨S100, .f32⟩ : BufTy).Contents (Elt F) → (⟨S1x100, .f32⟩ : BufTy).Contents (Elt F)),
    StableHlo.unary main_v470 main_v471 (broadcastInDim S50000x100 ![0, 1] bcast_S1x100_S50000x100_0_1 : (⟨S1x100, .f32⟩ : BufTy).Contents (Elt F) → (⟨S50000x100, .f32⟩ : BufTy).Contents (Elt F)),
    StableHlo.binary main_v469 main_v471 main_v472 (addf : (⟨S50000x100, .f32⟩ : BufTy).Contents (Elt F) → (⟨S50000x100, .f32⟩ : BufTy).Contents (Elt F) → (⟨S50000x100, .f32⟩ : BufTy).Contents (Elt F)),
    StableHlo.TRef.nullary (.of main_call15_cst : StableHlo.TRef sig ⟨S_, .f32⟩) (constant S_ .f32 0x00000000#32),
    StableHlo.TRef.unary (.of main_call15_cst : StableHlo.TRef sig ⟨S_, .f32⟩) (.of main_call15_v0 : StableHlo.TRef sig ⟨S50000x100, .f32⟩) (broadcastInDim S50000x100 ![] bcast_S_S50000x100),
    StableHlo.TRef.binary (.of main_v472 : StableHlo.TRef sig ⟨S50000x100, .f32⟩) (.of main_call15_v0 : StableHlo.TRef sig ⟨S50000x100, .f32⟩) (.of main_v473 : StableHlo.TRef sig ⟨S50000x100, .f32⟩) maximumf,
    StableHlo.nullary main_c_72 (constantI S_ 32 0#32),
    StableHlo.unary main_c_72 main_v474 (broadcastInDim S800000 ![] bcast_S_S800000 : (⟨S_, .i32⟩ : BufTy).Contents (Elt F) → (⟨S800000, .i32⟩ : BufTy).Contents (Elt F)),
    StableHlo.binary main_v147 main_v474 main_v475 (cmpi .slt : (⟨S800000, .i32⟩ : BufTy).Contents (Elt F) → (⟨S800000, .i32⟩ : BufTy).Contents (Elt F) → (⟨S800000, .i1⟩ : BufTy).Contents (Elt F)),
    StableHlo.nullary main_c_73 (constantI S_ 32 50000#32),
    StableHlo.unary main_c_73 main_v476 (broadcastInDim S800000 ![] bcast_S_S800000 : (⟨S_, .i32⟩ : BufTy).Contents (Elt F) → (⟨S800000, .i32⟩ : BufTy).Contents (Elt F)),
    StableHlo.binary main_v147 main_v476 main_v477 (addi : (⟨S800000, .i32⟩ : BufTy).Contents (Elt F) → (⟨S800000, .i32⟩ : BufTy).Contents (Elt F) → (⟨S800000, .i32⟩ : BufTy).Contents (Elt F)),
    StableHlo.ternary main_v475 main_v477 main_v147 main_v478 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v478 main_v479 (broadcastInDim S800000x1 ![0] bcast_S800000_S800000x1_0 : (⟨S800000, .i32⟩ : BufTy).Contents (Elt F) → (⟨S800000x1, .i32⟩ : BufTy).Contents (Elt F)),
    StableHlo.binary main_v473 main_v479 main_v480 ((fun x i => Host.gather gather_S50000x100_S800000x1_S800000x100_1_0_n_n_0_1_1100 x i) : (⟨S50000x100, .f32⟩ : BufTy).Contents (Elt F) → (⟨S800000x1, .i32⟩ : BufTy).Contents (Elt F) → (⟨S800000x100, .f32⟩ : BufTy).Contents (Elt F)),
    StableHlo.binary main_v480 main_v145 main_v481 (addf : (⟨S800000x100, .f32⟩ : BufTy).Contents (Elt F) → (⟨S800000x100, .f32⟩ : BufTy).Contents (Elt F) → (⟨S800000x100, .f32⟩ : BufTy).Contents (Elt F)),
    StableHlo.nullary main_cst_74 (constant S_ .f32 0x00000000#32),
    StableHlo.unary main_cst_74 main_v482 (broadcastInDim S50000x100 ![] bcast_S_S50000x100 : (⟨S_, .f32⟩ : BufTy).Contents (Elt F) → (⟨S50000x100, .f32⟩ : BufTy).Contents (Elt F)),
    StableHlo.unary main_v149 main_v483 (broadcastInDim S800000x1 ![0] bcast_S800000_S800000x1_0 : (⟨S800000, .i32⟩ : BufTy).Contents (Elt F) → (⟨S800000x1, .i32⟩ : BufTy).Contents (Elt F)),
    StableHlo.ternary main_v482 main_v483 main_v481 main_v484 ((fun x i u => Host.scatterAdd scatter_S50000x100_S800000x1_S800000x100_1_0_0_1 x i u) : (⟨S50000x100, .f32⟩ : BufTy).Contents (Elt F) → (⟨S800000x1, .i32⟩ : BufTy).Contents (Elt F) → (⟨S800000x100, .f32⟩ : BufTy).Contents (Elt F) → (⟨S50000x100, .f32⟩ : BufTy).Contents (Elt F)),
    StableHlo.unary main_arg6 main_v485 ((extractStridedSlice S1 ![4] · slices_S5_S1_4) : (⟨S5, .f32⟩ : BufTy).Contents (Elt F) → (⟨S1, .f32⟩ : BufTy).Contents (Elt F)),
    StableHlo.reshape main_v485 main_v486 rfl shapeCasts_S1_S_,
    StableHlo.nullary main_cst_75 (constant S_ .f32 0x3F800000#32),
    StableHlo.binary main_cst_75 main_v486 main_v487 (addf : (⟨S_, .f32⟩ : BufTy).Contents (Elt F) → (⟨S_, .f32⟩ : BufTy).Contents (Elt F) → (⟨S_, .f32⟩ : BufTy).Contents (Elt F)),
    StableHlo.unary main_v487 main_v488 (broadcastInDim S50000x100 ![] bcast_S_S50000x100 : (⟨S_, .f32⟩ : BufTy).Contents (Elt F) → (⟨S50000x100, .f32⟩ : BufTy).Contents (Elt F)),
    StableHlo.binary main_v488 main_v473 main_v489 (mulf : (⟨S50000x100, .f32⟩ : BufTy).Contents (Elt F) → (⟨S50000x100, .f32⟩ : BufTy).Contents (Elt F) → (⟨S50000x100, .f32⟩ : BufTy).Contents (Elt F)),
    StableHlo.binary main_v489 main_v484 main_v490 (addf : (⟨S50000x100, .f32⟩ : BufTy).Contents (Elt F) → (⟨S50000x100, .f32⟩ : BufTy).Contents (Elt F) → (⟨S50000x100, .f32⟩ : BufTy).Contents (Elt F)),
    StableHlo.unary main_arg7 main_v491 ((extractStridedSlice S1x100x200 ![4, 0, 0] · slices_S5x100x200_S1x100x200_4_0_0) : (⟨S5x100x200, .f32⟩ : BufTy).Contents (Elt F) → (⟨S1x100x200, .f32⟩ : BufTy).Contents (Elt F)),
    StableHlo.reshape main_v491 main_v492 rfl shapeCasts_S1x100x200_S100x200,
    StableHlo.binary main_v490 main_v492 main_v493 ((fun l r => Host.dotGeneral dot_S50000x100_S100x200_S50000x200_1_0_0_1_n_n none l r) : (⟨S50000x100, .f32⟩ : BufTy).Contents (Elt F) → (⟨S100x200, .f32⟩ : BufTy).Contents (Elt F) → (⟨S50000x200, .f32⟩ : BufTy).Contents (Elt F)),
    StableHlo.unary main_arg8 main_v494 ((extractStridedSlice S1x200 ![4, 0] · slices_S5x200_S1x200_4_0) : (⟨S5x200, .f32⟩ : BufTy).Contents (Elt F) → (⟨S1x200, .f32⟩ : BufTy).Contents (Elt F)),
    StableHlo.reshape main_v494 main_v495 rfl shapeCasts_S1x200_S200,
    StableHlo.unary main_v495 main_v496 (broadcastInDim S1x200 ![1] bcast_S200_S1x200_1 : (⟨S200, .f32⟩ : BufTy).Contents (Elt F) → (⟨S1x200, .f32⟩ : BufTy).Contents (Elt F)),
    StableHlo.unary main_v496 main_v497 (broadcastInDim S50000x200 ![0, 1] bcast_S1x200_S50000x200_0_1 : (⟨S1x200, .f32⟩ : BufTy).Contents (Elt F) → (⟨S50000x200, .f32⟩ : BufTy).Contents (Elt F)),
    StableHlo.binary main_v493 main_v497 main_v498 (addf : (⟨S50000x200, .f32⟩ : BufTy).Contents (Elt F) → (⟨S50000x200, .f32⟩ : BufTy).Contents (Elt F) → (⟨S50000x200, .f32⟩ : BufTy).Contents (Elt F)),
    StableHlo.unary main_arg9 main_v499 ((extractStridedSlice S1x200 ![4, 0] · slices_S5x200_S1x200_4_0) : (⟨S5x200, .f32⟩ : BufTy).Contents (Elt F) → (⟨S1x200, .f32⟩ : BufTy).Contents (Elt F)),
    StableHlo.reshape main_v499 main_v500 rfl shapeCasts_S1x200_S200,
    StableHlo.unary main_arg10 main_v501 ((extractStridedSlice S1x200 ![4, 0] · slices_S5x200_S1x200_4_0) : (⟨S5x200, .f32⟩ : BufTy).Contents (Elt F) → (⟨S1x200, .f32⟩ : BufTy).Contents (Elt F)),
    StableHlo.reshape main_v501 main_v502 rfl shapeCasts_S1x200_S200,
    StableHlo.nullary main_cst_76 (constant S_ .f32 0x00000000#32),
    StableHlo.binary main_v498 main_cst_76 main_v503 ((fun x v => Host.reduceAdd x v reducesTo_S50000x200_S200_d0 h_S_) : (⟨S50000x200, .f32⟩ : BufTy).Contents (Elt F) → (⟨S_, .f32⟩ : BufTy).Contents (Elt F) → (⟨S200, .f32⟩ : BufTy).Contents (Elt F)),
    StableHlo.nullary main_cst_77 (constant S_ .f32 0x47435000#32),
    StableHlo.unary main_cst_77 main_v504 (broadcastInDim S200 ![] bcast_S_S200 : (⟨S_, .f32⟩ : BufTy).Contents (Elt F) → (⟨S200, .f32⟩ : BufTy).Contents (Elt F)),
    StableHlo.binary main_v503 main_v504 main_v505 (Host.divf : (⟨S200, .f32⟩ : BufTy).Contents (Elt F) → (⟨S200, .f32⟩ : BufTy).Contents (Elt F) → (⟨S200, .f32⟩ : BufTy).Contents (Elt F)),
    StableHlo.nullary main_c_78 (constantI S_ 32 0#32),
    StableHlo.TRef.nullary (.of main_call16_cst : StableHlo.TRef sig ⟨S_, .f32⟩) (constant S_ .f32 0x00000000#32),
    StableHlo.TRef.binary (.of main_v498 : StableHlo.TRef sig ⟨S50000x200, .f32⟩) (.of main_call16_cst : StableHlo.TRef sig ⟨S_, .f32⟩) (.of main_call16_v0 : StableHlo.TRef sig ⟨S200, .f32⟩) (fun x v => Host.reduceAdd x v reducesTo_S50000x200_S200_d0 h_S_),
    StableHlo.TRef.unary (.of main_call16_v0 : StableHlo.TRef sig ⟨S200, .f32⟩) (.of main_call16_v1 : StableHlo.TRef sig ⟨S1x200, .f32⟩) (broadcastInDim S1x200 ![1] bcast_S200_S1x200_1),
    StableHlo.TRef.nullary (.of main_call16_cst_0 : StableHlo.TRef sig ⟨S_, .f32⟩) (constant S_ .f32 0x47435000#32),
    StableHlo.TRef.unary (.of main_call16_cst_0 : StableHlo.TRef sig ⟨S_, .f32⟩) (.of main_call16_v2 : StableHlo.TRef sig ⟨S1x200, .f32⟩) (broadcastInDim S1x200 ![] bcast_S_S1x200),
    StableHlo.TRef.binary (.of main_call16_v1 : StableHlo.TRef sig ⟨S1x200, .f32⟩) (.of main_call16_v2 : StableHlo.TRef sig ⟨S1x200, .f32⟩) (.of main_call16_v3 : StableHlo.TRef sig ⟨S1x200, .f32⟩) Host.divf,
    StableHlo.TRef.unary (.of main_call16_v3 : StableHlo.TRef sig ⟨S1x200, .f32⟩) (.of main_call16_v4 : StableHlo.TRef sig ⟨S50000x200, .f32⟩) (broadcastInDim S50000x200 ![0, 1] bcast_S1x200_S50000x200_0_1),
    StableHlo.TRef.binary (.of main_v498 : StableHlo.TRef sig ⟨S50000x200, .f32⟩) (.of main_call16_v4 : StableHlo.TRef sig ⟨S50000x200, .f32⟩) (.of main_call16_v5 : StableHlo.TRef sig ⟨S50000x200, .f32⟩) subf,
    StableHlo.TRef.binary (.of main_call16_v5 : StableHlo.TRef sig ⟨S50000x200, .f32⟩) (.of main_call16_v5 : StableHlo.TRef sig ⟨S50000x200, .f32⟩) (.of main_call16_v6 : StableHlo.TRef sig ⟨S50000x200, .f32⟩) mulf,
    StableHlo.TRef.unary (.of main_c_78 : StableHlo.TRef sig ⟨S_, .i32⟩) (.of main_call16_v7 : StableHlo.TRef sig ⟨S_, .f32⟩) (sitofp .f32),
    StableHlo.TRef.nullary (.of main_call16_cst_1 : StableHlo.TRef sig ⟨S_, .f32⟩) (constant S_ .f32 0x47435000#32),
    StableHlo.TRef.binary (.of main_call16_cst_1 : StableHlo.TRef sig ⟨S_, .f32⟩) (.of main_call16_v7 : StableHlo.TRef sig ⟨S_, .f32⟩) (.of main_call16_v8 : StableHlo.TRef sig ⟨S_, .f32⟩) subf,
    StableHlo.TRef.nullary (.of main_call16_cst_2 : StableHlo.TRef sig ⟨S_, .f32⟩) (constant S_ .f32 0x00000000#32),
    StableHlo.TRef.binary (.of main_call16_v6 : StableHlo.TRef sig ⟨S50000x200, .f32⟩) (.of main_call16_cst_2 : StableHlo.TRef sig ⟨S_, .f32⟩) (.of main_call16_v9 : StableHlo.TRef sig ⟨S200, .f32⟩) (fun x v => Host.reduceAdd x v reducesTo_S50000x200_S200_d0 h_S_),
    StableHlo.TRef.unary (.of main_call16_v8 : StableHlo.TRef sig ⟨S_, .f32⟩) (.of main_call16_v10 : StableHlo.TRef sig ⟨S200, .f32⟩) (broadcastInDim S200 ![] bcast_S_S200),
    StableHlo.TRef.binary (.of main_call16_v9 : StableHlo.TRef sig ⟨S200, .f32⟩) (.of main_call16_v10 : StableHlo.TRef sig ⟨S200, .f32⟩) (.of main_call16_v11 : StableHlo.TRef sig ⟨S200, .f32⟩) Host.divf,
    StableHlo.TRef.nullary (.of main_call16_cst_3 : StableHlo.TRef sig ⟨S_, .f32⟩) (constant S_ .f32 0x00000000#32),
    StableHlo.TRef.binary (.of main_call16_v8 : StableHlo.TRef sig ⟨S_, .f32⟩) (.of main_call16_cst_3 : StableHlo.TRef sig ⟨S_, .f32⟩) (.of main_call16_v12 : StableHlo.TRef sig ⟨S_, .i1⟩) (cmpf .ogt),
    StableHlo.TRef.nullary (.of main_call16_cst_4 : StableHlo.TRef sig ⟨S_, .f32⟩) (constant S_ .f32 0x7FC00000#32),
    StableHlo.TRef.unary (.of main_call16_cst_4 : StableHlo.TRef sig ⟨S_, .f32⟩) (.of main_call16_call0_v0 : StableHlo.TRef sig ⟨S_, .f32⟩) id,
    StableHlo.TRef.unary (.of main_call16_call0_v0 : StableHlo.TRef sig ⟨S_, .f32⟩) (.of main_call16_call0_v1 : StableHlo.TRef sig ⟨S200, .f32⟩) (broadcastInDim S200 ![] bcast_S_S200),
    StableHlo.TRef.ternary (.of main_call16_v12 : StableHlo.TRef sig ⟨S_, .i1⟩) (.of main_call16_v11 : StableHlo.TRef sig ⟨S200, .f32⟩) (.of main_call16_call0_v1 : StableHlo.TRef sig ⟨S200, .f32⟩) (.of main_v506 : StableHlo.TRef sig ⟨S200, .f32⟩) (fun p a b => select (broadcastInDim S200 ![] bcast_S_S200 p) a b),
    StableHlo.unary main_v505 main_v507 (broadcastInDim S1x200 ![1] bcast_S200_S1x200_1 : (⟨S200, .f32⟩ : BufTy).Contents (Elt F) → (⟨S1x200, .f32⟩ : BufTy).Contents (Elt F)),
    StableHlo.unary main_v507 main_v508 (broadcastInDim S50000x200 ![0, 1] bcast_S1x200_S50000x200_0_1 : (⟨S1x200, .f32⟩ : BufTy).Contents (Elt F) → (⟨S50000x200, .f32⟩ : BufTy).Contents (Elt F)),
    StableHlo.binary main_v498 main_v508 main_v509 (subf : (⟨S50000x200, .f32⟩ : BufTy).Contents (Elt F) → (⟨S50000x200, .f32⟩ : BufTy).Contents (Elt F) → (⟨S50000x200, .f32⟩ : BufTy).Contents (Elt F)),
    StableHlo.nullary main_cst_79 (constant S_ .f32 0x3727C5AC#32),
    StableHlo.unary main_cst_79 main_v510 (broadcastInDim S200 ![] bcast_S_S200 : (⟨S_, .f32⟩ : BufTy).Contents (Elt F) → (⟨S200, .f32⟩ : BufTy).Contents (Elt F)),
    StableHlo.binary main_v506 main_v510 main_v511 (addf : (⟨S200, .f32⟩ : BufTy).Contents (Elt F) → (⟨S200, .f32⟩ : BufTy).Contents (Elt F) → (⟨S200, .f32⟩ : BufTy).Contents (Elt F)),
    StableHlo.unary main_v511 main_v512 (Host.rsqrt : (⟨S200, .f32⟩ : BufTy).Contents (Elt F) → (⟨S200, .f32⟩ : BufTy).Contents (Elt F)),
    StableHlo.unary main_v512 main_v513 (broadcastInDim S1x200 ![1] bcast_S200_S1x200_1 : (⟨S200, .f32⟩ : BufTy).Contents (Elt F) → (⟨S1x200, .f32⟩ : BufTy).Contents (Elt F)),
    StableHlo.unary main_v513 main_v514 (broadcastInDim S50000x200 ![0, 1] bcast_S1x200_S50000x200_0_1 : (⟨S1x200, .f32⟩ : BufTy).Contents (Elt F) → (⟨S50000x200, .f32⟩ : BufTy).Contents (Elt F)),
    StableHlo.binary main_v509 main_v514 main_v515 (mulf : (⟨S50000x200, .f32⟩ : BufTy).Contents (Elt F) → (⟨S50000x200, .f32⟩ : BufTy).Contents (Elt F) → (⟨S50000x200, .f32⟩ : BufTy).Contents (Elt F)),
    StableHlo.unary main_v500 main_v516 (broadcastInDim S1x200 ![1] bcast_S200_S1x200_1 : (⟨S200, .f32⟩ : BufTy).Contents (Elt F) → (⟨S1x200, .f32⟩ : BufTy).Contents (Elt F)),
    StableHlo.unary main_v516 main_v517 (broadcastInDim S50000x200 ![0, 1] bcast_S1x200_S50000x200_0_1 : (⟨S1x200, .f32⟩ : BufTy).Contents (Elt F) → (⟨S50000x200, .f32⟩ : BufTy).Contents (Elt F)) ]
theorem part9_sub : (part9 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.binary_bufs_sub .., StableHlo.unary_bufs_sub .., StableHlo.binary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub ..⟩

/-- Window 10: 85 operations, numbers 806 … 890 of the whole run. -/
abbrev part10 : List (HloOp τ sig (Elt F)) :=
  [ StableHlo.binary main_v515 main_v517 main_v518 (mulf : (⟨S50000x200, .f32⟩ : BufTy).Contents (Elt F) → (⟨S50000x200, .f32⟩ : BufTy).Contents (Elt F) → (⟨S50000x200, .f32⟩ : BufTy).Contents (Elt F)),
    StableHlo.unary main_v502 main_v519 (broadcastInDim S1x200 ![1] bcast_S200_S1x200_1 : (⟨S200, .f32⟩ : BufTy).Contents (Elt F) → (⟨S1x200, .f32⟩ : BufTy).Contents (Elt F)),
    StableHlo.unary main_v519 main_v520 (broadcastInDim S50000x200 ![0, 1] bcast_S1x200_S50000x200_0_1 : (⟨S1x200, .f32⟩ : BufTy).Contents (Elt F) → (⟨S50000x200, .f32⟩ : BufTy).Contents (Elt F)),
    StableHlo.binary main_v518 main_v520 main_v521 (addf : (⟨S50000x200, .f32⟩ : BufTy).Contents (Elt F) → (⟨S50000x200, .f32⟩ : BufTy).Contents (Elt F) → (⟨S50000x200, .f32⟩ : BufTy).Contents (Elt F)),
    StableHlo.TRef.nullary (.of main_call17_cst : StableHlo.TRef sig ⟨S_, .f32⟩) (constant S_ .f32 0x00000000#32),
    StableHlo.TRef.unary (.of main_call17_cst : StableHlo.TRef sig ⟨S_, .f32⟩) (.of main_call17_v0 : StableHlo.TRef sig ⟨S50000x200, .f32⟩) (broadcastInDim S50000x200 ![] bcast_S_S50000x200),
    StableHlo.TRef.binary (.of main_v521 : StableHlo.TRef sig ⟨S50000x200, .f32⟩) (.of main_call17_v0 : StableHlo.TRef sig ⟨S50000x200, .f32⟩) (.of main_v522 : StableHlo.TRef sig ⟨S50000x200, .f32⟩) maximumf,
    StableHlo.unary main_arg11 main_v523 ((extractStridedSlice S1x200x100 ![4, 0, 0] · slices_S5x200x100_S1x200x100_4_0_0) : (⟨S5x200x100, .f32⟩ : BufTy).Contents (Elt F) → (⟨S1x200x100, .f32⟩ : BufTy).Contents (Elt F)),
    StableHlo.reshape main_v523 main_v524 rfl shapeCasts_S1x200x100_S200x100,
    StableHlo.binary main_v522 main_v524 main_v525 ((fun l r => Host.dotGeneral dot_S50000x200_S200x100_S50000x100_1_0_0_1_n_n none l r) : (⟨S50000x200, .f32⟩ : BufTy).Contents (Elt F) → (⟨S200x100, .f32⟩ : BufTy).Contents (Elt F) → (⟨S50000x100, .f32⟩ : BufTy).Contents (Elt F)),
    StableHlo.unary main_arg12 main_v526 ((extractStridedSlice S1x100 ![4, 0] · slices_S5x100_S1x100_4_0) : (⟨S5x100, .f32⟩ : BufTy).Contents (Elt F) → (⟨S1x100, .f32⟩ : BufTy).Contents (Elt F)),
    StableHlo.reshape main_v526 main_v527 rfl shapeCasts_S1x100_S100,
    StableHlo.unary main_v527 main_v528 (broadcastInDim S1x100 ![1] bcast_S100_S1x100_1 : (⟨S100, .f32⟩ : BufTy).Contents (Elt F) → (⟨S1x100, .f32⟩ : BufTy).Contents (Elt F)),
    StableHlo.unary main_v528 main_v529 (broadcastInDim S50000x100 ![0, 1] bcast_S1x100_S50000x100_0_1 : (⟨S1x100, .f32⟩ : BufTy).Contents (Elt F) → (⟨S50000x100, .f32⟩ : BufTy).Contents (Elt F)),
    StableHlo.binary main_v525 main_v529 main_v530 (addf : (⟨S50000x100, .f32⟩ : BufTy).Contents (Elt F) → (⟨S50000x100, .f32⟩ : BufTy).Contents (Elt F) → (⟨S50000x100, .f32⟩ : BufTy).Contents (Elt F)),
    StableHlo.unary main_arg13 main_v531 ((extractStridedSlice S1x100 ![4, 0] · slices_S5x100_S1x100_4_0) : (⟨S5x100, .f32⟩ : BufTy).Contents (Elt F) → (⟨S1x100, .f32⟩ : BufTy).Contents (Elt F)),
    StableHlo.reshape main_v531 main_v532 rfl shapeCasts_S1x100_S100,
    StableHlo.unary main_arg14 main_v533 ((extractStridedSlice S1x100 ![4, 0] · slices_S5x100_S1x100_4_0) : (⟨S5x100, .f32⟩ : BufTy).Contents (Elt F) → (⟨S1x100, .f32⟩ : BufTy).Contents (Elt F)),
    StableHlo.reshape main_v533 main_v534 rfl shapeCasts_S1x100_S100,
    StableHlo.nullary main_cst_80 (constant S_ .f32 0x00000000#32),
    StableHlo.binary main_v530 main_cst_80 main_v535 ((fun x v => Host.reduceAdd x v reducesTo_S50000x100_S100_d0 h_S_) : (⟨S50000x100, .f32⟩ : BufTy).Contents (Elt F) → (⟨S_, .f32⟩ : BufTy).Contents (Elt F) → (⟨S100, .f32⟩ : BufTy).Contents (Elt F)),
    StableHlo.nullary main_cst_81 (constant S_ .f32 0x47435000#32),
    StableHlo.unary main_cst_81 main_v536 (broadcastInDim S100 ![] bcast_S_S100 : (⟨S_, .f32⟩ : BufTy).Contents (Elt F) → (⟨S100, .f32⟩ : BufTy).Contents (Elt F)),
    StableHlo.binary main_v535 main_v536 main_v537 (Host.divf : (⟨S100, .f32⟩ : BufTy).Contents (Elt F) → (⟨S100, .f32⟩ : BufTy).Contents (Elt F) → (⟨S100, .f32⟩ : BufTy).Contents (Elt F)),
    StableHlo.nullary main_c_82 (constantI S_ 32 0#32),
    StableHlo.TRef.nullary (.of main_call18_cst : StableHlo.TRef sig ⟨S_, .f32⟩) (constant S_ .f32 0x00000000#32),
    StableHlo.TRef.binary (.of main_v530 : StableHlo.TRef sig ⟨S50000x100, .f32⟩) (.of main_call18_cst : StableHlo.TRef sig ⟨S_, .f32⟩) (.of main_call18_v0 : StableHlo.TRef sig ⟨S100, .f32⟩) (fun x v => Host.reduceAdd x v reducesTo_S50000x100_S100_d0 h_S_),
    StableHlo.TRef.unary (.of main_call18_v0 : StableHlo.TRef sig ⟨S100, .f32⟩) (.of main_call18_v1 : StableHlo.TRef sig ⟨S1x100, .f32⟩) (broadcastInDim S1x100 ![1] bcast_S100_S1x100_1),
    StableHlo.TRef.nullary (.of main_call18_cst_0 : StableHlo.TRef sig ⟨S_, .f32⟩) (constant S_ .f32 0x47435000#32),
    StableHlo.TRef.unary (.of main_call18_cst_0 : StableHlo.TRef sig ⟨S_, .f32⟩) (.of main_call18_v2 : StableHlo.TRef sig ⟨S1x100, .f32⟩) (broadcastInDim S1x100 ![] bcast_S_S1x100),
    StableHlo.TRef.binary (.of main_call18_v1 : StableHlo.TRef sig ⟨S1x100, .f32⟩) (.of main_call18_v2 : StableHlo.TRef sig ⟨S1x100, .f32⟩) (.of main_call18_v3 : StableHlo.TRef sig ⟨S1x100, .f32⟩) Host.divf,
    StableHlo.TRef.unary (.of main_call18_v3 : StableHlo.TRef sig ⟨S1x100, .f32⟩) (.of main_call18_v4 : StableHlo.TRef sig ⟨S50000x100, .f32⟩) (broadcastInDim S50000x100 ![0, 1] bcast_S1x100_S50000x100_0_1),
    StableHlo.TRef.binary (.of main_v530 : StableHlo.TRef sig ⟨S50000x100, .f32⟩) (.of main_call18_v4 : StableHlo.TRef sig ⟨S50000x100, .f32⟩) (.of main_call18_v5 : StableHlo.TRef sig ⟨S50000x100, .f32⟩) subf,
    StableHlo.TRef.binary (.of main_call18_v5 : StableHlo.TRef sig ⟨S50000x100, .f32⟩) (.of main_call18_v5 : StableHlo.TRef sig ⟨S50000x100, .f32⟩) (.of main_call18_v6 : StableHlo.TRef sig ⟨S50000x100, .f32⟩) mulf,
    StableHlo.TRef.unary (.of main_c_82 : StableHlo.TRef sig ⟨S_, .i32⟩) (.of main_call18_v7 : StableHlo.TRef sig ⟨S_, .f32⟩) (sitofp .f32),
    StableHlo.TRef.nullary (.of main_call18_cst_1 : StableHlo.TRef sig ⟨S_, .f32⟩) (constant S_ .f32 0x47435000#32),
    StableHlo.TRef.binary (.of main_call18_cst_1 : StableHlo.TRef sig ⟨S_, .f32⟩) (.of main_call18_v7 : StableHlo.TRef sig ⟨S_, .f32⟩) (.of main_call18_v8 : StableHlo.TRef sig ⟨S_, .f32⟩) subf,
    StableHlo.TRef.nullary (.of main_call18_cst_2 : StableHlo.TRef sig ⟨S_, .f32⟩) (constant S_ .f32 0x00000000#32),
    StableHlo.TRef.binary (.of main_call18_v6 : StableHlo.TRef sig ⟨S50000x100, .f32⟩) (.of main_call18_cst_2 : StableHlo.TRef sig ⟨S_, .f32⟩) (.of main_call18_v9 : StableHlo.TRef sig ⟨S100, .f32⟩) (fun x v => Host.reduceAdd x v reducesTo_S50000x100_S100_d0 h_S_),
    StableHlo.TRef.unary (.of main_call18_v8 : StableHlo.TRef sig ⟨S_, .f32⟩) (.of main_call18_v10 : StableHlo.TRef sig ⟨S100, .f32⟩) (broadcastInDim S100 ![] bcast_S_S100),
    StableHlo.TRef.binary (.of main_call18_v9 : StableHlo.TRef sig ⟨S100, .f32⟩) (.of main_call18_v10 : StableHlo.TRef sig ⟨S100, .f32⟩) (.of main_call18_v11 : StableHlo.TRef sig ⟨S100, .f32⟩) Host.divf,
    StableHlo.TRef.nullary (.of main_call18_cst_3 : StableHlo.TRef sig ⟨S_, .f32⟩) (constant S_ .f32 0x00000000#32),
    StableHlo.TRef.binary (.of main_call18_v8 : StableHlo.TRef sig ⟨S_, .f32⟩) (.of main_call18_cst_3 : StableHlo.TRef sig ⟨S_, .f32⟩) (.of main_call18_v12 : StableHlo.TRef sig ⟨S_, .i1⟩) (cmpf .ogt),
    StableHlo.TRef.nullary (.of main_call18_cst_4 : StableHlo.TRef sig ⟨S_, .f32⟩) (constant S_ .f32 0x7FC00000#32),
    StableHlo.TRef.unary (.of main_call18_cst_4 : StableHlo.TRef sig ⟨S_, .f32⟩) (.of main_call18_call0_v0 : StableHlo.TRef sig ⟨S_, .f32⟩) id,
    StableHlo.TRef.unary (.of main_call18_call0_v0 : StableHlo.TRef sig ⟨S_, .f32⟩) (.of main_call18_call0_v1 : StableHlo.TRef sig ⟨S100, .f32⟩) (broadcastInDim S100 ![] bcast_S_S100),
    StableHlo.TRef.ternary (.of main_call18_v12 : StableHlo.TRef sig ⟨S_, .i1⟩) (.of main_call18_v11 : StableHlo.TRef sig ⟨S100, .f32⟩) (.of main_call18_call0_v1 : StableHlo.TRef sig ⟨S100, .f32⟩) (.of main_v538 : StableHlo.TRef sig ⟨S100, .f32⟩) (fun p a b => select (broadcastInDim S100 ![] bcast_S_S100 p) a b),
    StableHlo.unary main_v537 main_v539 (broadcastInDim S1x100 ![1] bcast_S100_S1x100_1 : (⟨S100, .f32⟩ : BufTy).Contents (Elt F) → (⟨S1x100, .f32⟩ : BufTy).Contents (Elt F)),
    StableHlo.unary main_v539 main_v540 (broadcastInDim S50000x100 ![0, 1] bcast_S1x100_S50000x100_0_1 : (⟨S1x100, .f32⟩ : BufTy).Contents (Elt F) → (⟨S50000x100, .f32⟩ : BufTy).Contents (Elt F)),
    StableHlo.binary main_v530 main_v540 main_v541 (subf : (⟨S50000x100, .f32⟩ : BufTy).Contents (Elt F) → (⟨S50000x100, .f32⟩ : BufTy).Contents (Elt F) → (⟨S50000x100, .f32⟩ : BufTy).Contents (Elt F)),
    StableHlo.nullary main_cst_83 (constant S_ .f32 0x3727C5AC#32),
    StableHlo.unary main_cst_83 main_v542 (broadcastInDim S100 ![] bcast_S_S100 : (⟨S_, .f32⟩ : BufTy).Contents (Elt F) → (⟨S100, .f32⟩ : BufTy).Contents (Elt F)),
    StableHlo.binary main_v538 main_v542 main_v543 (addf : (⟨S100, .f32⟩ : BufTy).Contents (Elt F) → (⟨S100, .f32⟩ : BufTy).Contents (Elt F) → (⟨S100, .f32⟩ : BufTy).Contents (Elt F)),
    StableHlo.unary main_v543 main_v544 (Host.rsqrt : (⟨S100, .f32⟩ : BufTy).Contents (Elt F) → (⟨S100, .f32⟩ : BufTy).Contents (Elt F)),
    StableHlo.unary main_v544 main_v545 (broadcastInDim S1x100 ![1] bcast_S100_S1x100_1 : (⟨S100, .f32⟩ : BufTy).Contents (Elt F) → (⟨S1x100, .f32⟩ : BufTy).Contents (Elt F)),
    StableHlo.unary main_v545 main_v546 (broadcastInDim S50000x100 ![0, 1] bcast_S1x100_S50000x100_0_1 : (⟨S1x100, .f32⟩ : BufTy).Contents (Elt F) → (⟨S50000x100, .f32⟩ : BufTy).Contents (Elt F)),
    StableHlo.binary main_v541 main_v546 main_v547 (mulf : (⟨S50000x100, .f32⟩ : BufTy).Contents (Elt F) → (⟨S50000x100, .f32⟩ : BufTy).Contents (Elt F) → (⟨S50000x100, .f32⟩ : BufTy).Contents (Elt F)),
    StableHlo.unary main_v532 main_v548 (broadcastInDim S1x100 ![1] bcast_S100_S1x100_1 : (⟨S100, .f32⟩ : BufTy).Contents (Elt F) → (⟨S1x100, .f32⟩ : BufTy).Contents (Elt F)),
    StableHlo.unary main_v548 main_v549 (broadcastInDim S50000x100 ![0, 1] bcast_S1x100_S50000x100_0_1 : (⟨S1x100, .f32⟩ : BufTy).Contents (Elt F) → (⟨S50000x100, .f32⟩ : BufTy).Contents (Elt F)),
    StableHlo.binary main_v547 main_v549 main_v550 (mulf : (⟨S50000x100, .f32⟩ : BufTy).Contents (Elt F) → (⟨S50000x100, .f32⟩ : BufTy).Contents (Elt F) → (⟨S50000x100, .f32⟩ : BufTy).Contents (Elt F)),
    StableHlo.unary main_v534 main_v551 (broadcastInDim S1x100 ![1] bcast_S100_S1x100_1 : (⟨S100, .f32⟩ : BufTy).Contents (Elt F) → (⟨S1x100, .f32⟩ : BufTy).Contents (Elt F)),
    StableHlo.unary main_v551 main_v552 (broadcastInDim S50000x100 ![0, 1] bcast_S1x100_S50000x100_0_1 : (⟨S1x100, .f32⟩ : BufTy).Contents (Elt F) → (⟨S50000x100, .f32⟩ : BufTy).Contents (Elt F)),
    StableHlo.binary main_v550 main_v552 main_v553 (addf : (⟨S50000x100, .f32⟩ : BufTy).Contents (Elt F) → (⟨S50000x100, .f32⟩ : BufTy).Contents (Elt F) → (⟨S50000x100, .f32⟩ : BufTy).Contents (Elt F)),
    StableHlo.TRef.nullary (.of main_call19_cst : StableHlo.TRef sig ⟨S_, .f32⟩) (constant S_ .f32 0x00000000#32),
    StableHlo.TRef.unary (.of main_call19_cst : StableHlo.TRef sig ⟨S_, .f32⟩) (.of main_call19_v0 : StableHlo.TRef sig ⟨S50000x100, .f32⟩) (broadcastInDim S50000x100 ![] bcast_S_S50000x100),
    StableHlo.TRef.binary (.of main_v553 : StableHlo.TRef sig ⟨S50000x100, .f32⟩) (.of main_call19_v0 : StableHlo.TRef sig ⟨S50000x100, .f32⟩) (.of main_v554 : StableHlo.TRef sig ⟨S50000x100, .f32⟩) maximumf,
    StableHlo.nullary main_cst_84 (constant S_ .f32 0x00000000#32),
    StableHlo.unary main_cst_84 main_v555 (broadcastInDim S512x100 ![] bcast_S_S512x100 : (⟨S_, .f32⟩ : BufTy).Contents (Elt F) → (⟨S512x100, .f32⟩ : BufTy).Contents (Elt F)),
    StableHlo.unary main_arg3 main_v556 (broadcastInDim S50000x1 ![0] bcast_S50000_S50000x1_0 : (⟨S50000, .i32⟩ : BufTy).Contents (Elt F) → (⟨S50000x1, .i32⟩ : BufTy).Contents (Elt F)),
    StableHlo.ternary main_v555 main_v556 main_v554 main_v557 ((fun x i u => Host.scatterAdd scatter_S512x100_S50000x1_S50000x100_1_0_0_1 x i u) : (⟨S512x100, .f32⟩ : BufTy).Contents (Elt F) → (⟨S50000x1, .i32⟩ : BufTy).Contents (Elt F) → (⟨S50000x100, .f32⟩ : BufTy).Contents (Elt F) → (⟨S512x100, .f32⟩ : BufTy).Contents (Elt F)),
    StableHlo.nullary main_cst_85 (constant S_ .f32 0x3F800000#32),
    StableHlo.unary main_cst_85 main_v558 (broadcastInDim S50000 ![] bcast_S_S50000 : (⟨S_, .f32⟩ : BufTy).Contents (Elt F) → (⟨S50000, .f32⟩ : BufTy).Contents (Elt F)),
    StableHlo.nullary main_cst_86 (constant S_ .f32 0x00000000#32),
    StableHlo.unary main_cst_86 main_v559 (broadcastInDim S512 ![] bcast_S_S512 : (⟨S_, .f32⟩ : BufTy).Contents (Elt F) → (⟨S512, .f32⟩ : BufTy).Contents (Elt F)),
    StableHlo.unary main_arg3 main_v560 (broadcastInDim S50000x1 ![0] bcast_S50000_S50000x1_0 : (⟨S50000, .i32⟩ : BufTy).Contents (Elt F) → (⟨S50000x1, .i32⟩ : BufTy).Contents (Elt F)),
    StableHlo.ternary main_v559 main_v560 main_v558 main_v561 ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)),
    StableHlo.nullary main_cst_87 (constant S_ .f32 0x3F800000#32),
    StableHlo.unary main_cst_87 main_v562 (broadcastInDim S512 ![] bcast_S_S512 : (⟨S_, .f32⟩ : BufTy).Contents (Elt F) → (⟨S512, .f32⟩ : BufTy).Contents (Elt F)),
    StableHlo.binary main_v561 main_v562 main_v563 (maximumf : (⟨S512, .f32⟩ : BufTy).Contents (Elt F) → (⟨S512, .f32⟩ : BufTy).Contents (Elt F) → (⟨S512, .f32⟩ : BufTy).Contents (Elt F)),
    StableHlo.unary main_v563 main_v564 (broadcastInDim S512x1 ![0] bcast_S512_S512x1_0 : (⟨S512, .f32⟩ : BufTy).Contents (Elt F) → (⟨S512x1, .f32⟩ : BufTy).Contents (Elt F)),
    StableHlo.unary main_v564 main_v565 (broadcastInDim S512x100 ![0, 1] bcast_S512x1_S512x100_0_1 : (⟨S512x1, .f32⟩ : BufTy).Contents (Elt F) → (⟨S512x100, .f32⟩ : BufTy).Contents (Elt F)),
    StableHlo.binary main_v557 main_v565 main_v566 (Host.divf : (⟨S512x100, .f32⟩ : BufTy).Contents (Elt F) → (⟨S512x100, .f32⟩ : BufTy).Contents (Elt F) → (⟨S512x100, .f32⟩ : BufTy).Contents (Elt F)),
    StableHlo.binary main_v566 main_arg15 main_v567 ((fun l r => Host.dotGeneral dot_S512x100_S100x2_S512x2_1_0_0_1_n_n none l r) : (⟨S512x100, .f32⟩ : BufTy).Contents (Elt F) → (⟨S100x2, .f32⟩ : BufTy).Contents (Elt F) → (⟨S512x2, .f32⟩ : BufTy).Contents (Elt F)),
    StableHlo.unary main_arg16 main_v568 (broadcastInDim S1x2 ![1] bcast_S2_S1x2_1 : (⟨S2, .f32⟩ : BufTy).Contents (Elt F) → (⟨S1x2, .f32⟩ : BufTy).Contents (Elt F)),
    StableHlo.unary main_v568 main_v569 (broadcastInDim S512x2 ![0, 1] bcast_S1x2_S512x2_0_1 : (⟨S1x2, .f32⟩ : BufTy).Contents (Elt F) → (⟨S512x2, .f32⟩ : BufTy).Contents (Elt F)) ]
theorem part10_sub : (part10 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub ..⟩

/-- Window 11: 1 operation, number 891 … 891 of the whole run. -/
abbrev part11 : List (HloOp τ sig (Elt F)) :=
  [ StableHlo.binary main_v567 main_v569 main_v570 (addf : (⟨S512x2, .f32⟩ : BufTy).Contents (Elt F) → (⟨S512x2, .f32⟩ : BufTy).Contents (Elt F) → (⟨S512x2, .f32⟩ : BufTy).Contents (Elt F)) ]
theorem part11_sub : (part11 : List (HloOp τ sig (Elt F))).Forall fun op => op.bufs ⊆ StableHlo.tcRefs τ sig :=
  StableHlo.binary_bufs_sub ..

/-- The whole run: the windows' lists one after the other (891 operations). -/
abbrev ops : List (HloOp τ sig (Elt F)) := part0 ++ (part1 ++ (part2 ++ (part3 ++ (part4 ++ (part5 ++ (part6 ++ (part7 ++ (part8 ++ (part9 ++ (part10 ++ (part11)))))))))))

end Cert.ReferenceIdeal.Hand

end
-- ==== Proof.RefSeams.lean ====
/- The same 891 operations of the reference program's @main, in the same order, cut at the ends of the network's
   stages instead of at the printed windows: each list ends with the operation that writes the stage's last buffer. -/
import proofs.«403201_j40475771797954_1_alg».proof.Proof.Gen.ReferenceIdeal
import Idealize.ShloMosaic.Lib.StableHlo.Run

set_option maxRecDepth 16384

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- Operations 1 … 176 of the whole run: from the one writing `main_v0` through the one writing `main_v149`. -/
abbrev opsInit : List (HloOp τ sig (Elt F)) :=
  [ StableHlo.unary main_arg4 main_v0 ((extractStridedSlice S1x128x100 ![0, 0, 0] · slices_S9x128x100_S1x128x100_0_0_0) : (⟨S9x128x100, .f32⟩ : BufTy).Contents (Elt F) → (⟨S1x128x100, .f32⟩ : BufTy).Contents (Elt F)),
    StableHlo.reshape main_v0 main_v1 rfl shapeCasts_S1x128x100_S128x100,
    StableHlo.unary main_arg0 main_v2 ((extractStridedSlice S50000x1 ![0, 0] · slices_S50000x9_S50000x1_0_0) : (⟨S50000x9, .i32⟩ : BufTy).Contents (Elt F) → (⟨S50000x1, .i32⟩ : BufTy).Contents (Elt F)),
    StableHlo.reshape main_v2 main_v3 rfl shapeCasts_S50000x1_S50000,
    StableHlo.nullary main_c (constantI S_ 32 0#32),
    StableHlo.unary main_c main_v4 (broadcastInDim S50000 ![] bcast_S_S50000 : (⟨S_, .i32⟩ : BufTy).Contents (Elt F) → (⟨S50000, .i32⟩ : BufTy).Contents (Elt F)),
    StableHlo.binary main_v3 main_v4 main_v5 (cmpi .slt : (⟨S50000, .i32⟩ : BufTy).Contents (Elt F) → (⟨S50000, .i32⟩ : BufTy).Contents (Elt F) → (⟨S50000, .i1⟩ : BufTy).Contents (Elt F)),
    StableHlo.nullary main_c_0 (constantI S_ 32 128#32),
    StableHlo.unary main_c_0 main_v6 (broadcastInDim S50000 ![] bcast_S_S50000 : (⟨S_, .i32⟩ : BufTy).Contents (Elt F) → (⟨S50000, .i32⟩ : BufTy).Contents (Elt F)),
    StableHlo.binary main_v3 main_v6 main_v7 (addi : (⟨S50000, .i32⟩ : BufTy).Contents (Elt F) → (⟨S50000, .i32⟩ : BufTy).Contents (Elt F) → (⟨S50000, .i32⟩ : BufTy).Contents (Elt F)),
    StableHlo.ternary main_v5 main_v7 main_v3 main_v8 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v8 main_v9 (broadcastInDim S50000x1 ![0] bcast_S50000_S50000x1_0 : (⟨S50000, .i32⟩ : BufTy).Contents (Elt F) → (⟨S50000x1, .i32⟩ : BufTy).Contents (Elt F)),
    StableHlo.binary main_v1 main_v9 main_v10 ((fun x i => Host.gather gather_S128x100_S50000x1_S50000x100_1_0_n_n_0_1_1100 x i) : (⟨S128x100, .f32⟩ : BufTy).Contents (Elt F) → (⟨S50000x1, .i32⟩ : BufTy).Contents (Elt F) → (⟨S50000x100, .f32⟩ : BufTy).Contents (Elt F)),
    StableHlo.nullary main_cst (constant S_ .f32 0x00000000#32),
    StableHlo.unary main_cst main_v11 (broadcastInDim S50000x100 ![] bcast_S_S50000x100 : (⟨S_, .f32⟩ : BufTy).Contents (Elt F) → (⟨S50000x100, .f32⟩ : BufTy).Contents (Elt F)),
    StableHlo.binary main_v11 main_v10 main_v12 (addf : (⟨S50000x100, .f32⟩ : BufTy).Contents (Elt F) → (⟨S50000x100, .f32⟩ : BufTy).Contents (Elt F) → (⟨S50000x100, .f32⟩ : BufTy).Contents (Elt F)),
    StableHlo.unary main_arg4 main_v13 ((extractStridedSlice S1x128x100 ![1, 0, 0] · slices_S9x128x100_S1x128x100_1_0_0) : (⟨S9x128x100, .f32⟩ : BufTy).Contents (Elt F) → (⟨S1x128x100, .f32⟩ : BufTy).Contents (Elt F)),
    StableHlo.reshape main_v13 main_v14 rfl shapeCasts_S1x128x100_S128x100,
    StableHlo.unary main_arg0 main_v15 ((extractStridedSlice S50000x1 ![0, 1] · slices_S50000x9_S50000x1_0_1) : (⟨S50000x9, .i32⟩ : BufTy).Contents (Elt F) → (⟨S50000x1, .i32⟩ : BufTy).Contents (Elt F)),
    StableHlo.reshape main_v15 main_v16 rfl shapeCasts_S50000x1_S50000,
    StableHlo.nullary main_c_1 (constantI S_ 32 0#32),
    StableHlo.unary main_c_1 main_v17 (broadcastInDim S50000 ![] bcast_S_S50000 : (⟨S_, .i32⟩ : BufTy).Contents (Elt F) → (⟨S50000, .i32⟩ : BufTy).Contents (Elt F)),
    StableHlo.binary main_v16 main_v17 main_v18 (cmpi .slt : (⟨S50000, .i32⟩ : BufTy).Contents (Elt F) → (⟨S50000, .i32⟩ : BufTy).Contents (Elt F) → (⟨S50000, .i1⟩ : BufTy).Contents (Elt F)),
    StableHlo.nullary main_c_2 (constantI S_ 32 128#32),
    StableHlo.unary main_c_2 main_v19 (broadcastInDim S50000 ![] bcast_S_S50000 : (⟨S_, .i32⟩ : BufTy).Contents (Elt F) → (⟨S50000, .i32⟩ : BufTy).Contents (Elt F)),
    StableHlo.binary main_v16 main_v19 main_v20 (addi : (⟨S50000, .i32⟩ : BufTy).Contents (Elt F) → (⟨S50000, .i32⟩ : BufTy).Contents (Elt F) → (⟨S50000, .i32⟩ : BufTy).Contents (Elt F)),
    StableHlo.ternary main_v18 main_v20 main_v16 main_v21 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v21 main_v22 (broadcastInDim S50000x1 ![0] bcast_S50000_S50000x1_0 : (⟨S50000, .i32⟩ : BufTy).Contents (Elt F) → (⟨S50000x1, .i32⟩ : BufTy).Contents (Elt F)),
    StableHlo.binary main_v14 main_v22 main_v23 ((fun x i => Host.gather gather_S128x100_S50000x1_S50000x100_1_0_n_n_0_1_1100 x i) : (⟨S128x100, .f32⟩ : BufTy).Contents (Elt F) → (⟨S50000x1, .i32⟩ : BufTy).Contents (Elt F) → (⟨S50000x100, .f32⟩ : BufTy).Contents (Elt F)),
    StableHlo.binary main_v12 main_v23 main_v24 (addf : (⟨S50000x100, .f32⟩ : BufTy).Contents (Elt F) → (⟨S50000x100, .f32⟩ : BufTy).Contents (Elt F) → (⟨S50000x100, .f32⟩ : BufTy).Contents (Elt F)),
    StableHlo.unary main_arg4 main_v25 ((extractStridedSlice S1x128x100 ![2, 0, 0] · slices_S9x128x100_S1x128x100_2_0_0) : (⟨S9x128x100, .f32⟩ : BufTy).Contents (Elt F) → (⟨S1x128x100, .f32⟩ : BufTy).Contents (Elt F)),
    StableHlo.reshape main_v25 main_v26 rfl shapeCasts_S1x128x100_S128x100,
    StableHlo.unary main_arg0 main_v27 ((extractStridedSlice S50000x1 ![0, 2] · slices_S50000x9_S50000x1_0_2) : (⟨S50000x9, .i32⟩ : BufTy).Contents (Elt F) → (⟨S50000x1, .i32⟩ : BufTy).Contents (Elt F)),
    StableHlo.reshape main_v27 main_v28 rfl shapeCasts_S50000x1_S50000,
    StableHlo.nullary main_c_3 (constantI S_ 32 0#32),
    StableHlo.unary main_c_3 main_v29 (broadcastInDim S50000 ![] bcast_S_S50000 : (⟨S_, .i32⟩ : BufTy).Contents (Elt F) → (⟨S50000, .i32⟩ : BufTy).Contents (Elt F)),
    StableHlo.binary main_v28 main_v29 main_v30 (cmpi .slt : (⟨S50000, .i32⟩ : BufTy).Contents (Elt F) → (⟨S50000, .i32⟩ : BufTy).Contents (Elt F) → (⟨S50000, .i1⟩ : BufTy).Contents (Elt F)),
    StableHlo.nullary main_c_4 (constantI S_ 32 128#32),
    StableHlo.unary main_c_4 main_v31 (broadcastInDim S50000 ![] bcast_S_S50000 : (⟨S_, .i32⟩ : BufTy).Contents (Elt F) → (⟨S50000, .i32⟩ : BufTy).Contents (Elt F)),
    StableHlo.binary main_v28 main_v31 main_v32 (addi : (⟨S50000, .i32⟩ : BufTy).Contents (Elt F) → (⟨S50000, .i32⟩ : BufTy).Contents (Elt F) → (⟨S50000, .i32⟩ : BufTy).Contents (Elt F)),
    StableHlo.ternary main_v30 main_v32 main_v28 main_v33 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v33 main_v34 (broadcastInDim S50000x1 ![0] bcast_S50000_S50000x1_0 : (⟨S50000, .i32⟩ : BufTy).Contents (Elt F) → (⟨S50000x1, .i32⟩ : BufTy).Contents (Elt F)),
    StableHlo.binary main_v26 main_v34 main_v35 ((fun x i => Host.gather gather_S128x100_S50000x1_S50000x100_1_0_n_n_0_1_1100 x i) : (⟨S128x100, .f32⟩ : BufTy).Contents (Elt F) → (⟨S50000x1, .i32⟩ : BufTy).Contents (Elt F) → (⟨S50000x100, .f32⟩ : BufTy).Contents (Elt F)),
    StableHlo.binary main_v24 main_v35 main_v36 (addf : (⟨S50000x100, .f32⟩ : BufTy).Contents (Elt F) → (⟨S50000x100, .f32⟩ : BufTy).Contents (Elt F) → (⟨S50000x100, .f32⟩ : BufTy).Contents (Elt F)),
    StableHlo.unary main_arg4 main_v37 ((extractStridedSlice S1x128x100 ![3, 0, 0] · slices_S9x128x100_S1x128x100_3_0_0) : (⟨S9x128x100, .f32⟩ : BufTy).Contents (Elt F) → (⟨S1x128x100, .f32⟩ : BufTy).Contents (Elt F)),
    StableHlo.reshape main_v37 main_v38 rfl shapeCasts_S1x128x100_S128x100,
    StableHlo.unary main_arg0 main_v39 ((extractStridedSlice S50000x1 ![0, 3] · slices_S50000x9_S50000x1_0_3) : (⟨S50000x9, .i32⟩ : BufTy).Contents (Elt F) → (⟨S50000x1, .i32⟩ : BufTy).Contents (Elt F)),
    StableHlo.reshape main_v39 main_v40 rfl shapeCasts_S50000x1_S50000,
    StableHlo.nullary main_c_5 (constantI S_ 32 0#32),
    StableHlo.unary main_c_5 main_v41 (broadcastInDim S50000 ![] bcast_S_S50000 : (⟨S_, .i32⟩ : BufTy).Contents (Elt F) → (⟨S50000, .i32⟩ : BufTy).Contents (Elt F)),
    StableHlo.binary main_v40 main_v41 main_v42 (cmpi .slt : (⟨S50000, .i32⟩ : BufTy).Contents (Elt F) → (⟨S50000, .i32⟩ : BufTy).Contents (Elt F) → (⟨S50000, .i1⟩ : BufTy).Contents (Elt F)),
    StableHlo.nullary main_c_6 (constantI S_ 32 128#32),
    StableHlo.unary main_c_6 main_v43 (broadcastInDim S50000 ![] bcast_S_S50000 : (⟨S_, .i32⟩ : BufTy).Contents (Elt F) → (⟨S50000, .i32⟩ : BufTy).Contents (Elt F)),
    StableHlo.binary main_v40 main_v43 main_v44 (addi : (⟨S50000, .i32⟩ : BufTy).Contents (Elt F) → (⟨S50000, .i32⟩ : BufTy).Contents (Elt F) → (⟨S50000, .i32⟩ : BufTy).Contents (Elt F)),
    StableHlo.ternary main_v42 main_v44 main_v40 main_v45 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v45 main_v46 (broadcastInDim S50000x1 ![0] bcast_S50000_S50000x1_0 : (⟨S50000, .i32⟩ : BufTy).Contents (Elt F) → (⟨S50000x1, .i32⟩ : BufTy).Contents (Elt F)),
    StableHlo.binary main_v38 main_v46 main_v47 ((fun x i => Host.gather gather_S128x100_S50000x1_S50000x100_1_0_n_n_0_1_1100 x i) : (⟨S128x100, .f32⟩ : BufTy).Contents (Elt F) → (⟨S50000x1, .i32⟩ : BufTy).Contents (Elt F) → (⟨S50000x100, .f32⟩ : BufTy).Contents (Elt F)),
    StableHlo.binary main_v36 main_v47 main_v48 (addf : (⟨S50000x100, .f32⟩ : BufTy).Contents (Elt F) → (⟨S50000x100, .f32⟩ : BufTy).Contents (Elt F) → (⟨S50000x100, .f32⟩ : BufTy).Contents (Elt F)),
    StableHlo.unary main_arg4 main_v49 ((extractStridedSlice S1x128x100 ![4, 0, 0] · slices_S9x128x100_S1x128x100_4_0_0) : (⟨S9x128x100, .f32⟩ : BufTy).Contents (Elt F) → (⟨S1x128x100, .f32⟩ : BufTy).Contents (Elt F)),
    StableHlo.reshape main_v49 main_v50 rfl shapeCasts_S1x128x100_S128x100,
    StableHlo.unary main_arg0 main_v51 ((extractStridedSlice S50000x1 ![0, 4] · slices_S50000x9_S50000x1_0_4) : (⟨S50000x9, .i32⟩ : BufTy).Contents (Elt F) → (⟨S50000x1, .i32⟩ : BufTy).Contents (Elt F)),
    StableHlo.reshape main_v51 main_v52 rfl shapeCasts_S50000x1_S50000,
    StableHlo.nullary main_c_7 (constantI S_ 32 0#32),
    StableHlo.unary main_c_7 main_v53 (broadcastInDim S50000 ![] bcast_S_S50000 : (⟨S_, .i32⟩ : BufTy).Contents (Elt F) → (⟨S50000, .i32⟩ : BufTy).Contents (Elt F)),
    StableHlo.binary main_v52 main_v53 main_v54 (cmpi .slt : (⟨S50000, .i32⟩ : BufTy).Contents (Elt F) → (⟨S50000, .i32⟩ : BufTy).Contents (Elt F) → (⟨S50000, .i1⟩ : BufTy).Contents (Elt F)),
    StableHlo.nullary main_c_8 (constantI S_ 32 128#32),
    StableHlo.unary main_c_8 main_v55 (broadcastInDim S50000 ![] bcast_S_S50000 : (⟨S_, .i32⟩ : BufTy).Contents (Elt F) → (⟨S50000, .i32⟩ : BufTy).Contents (Elt F)),
    StableHlo.binary main_v52 main_v55 main_v56 (addi : (⟨S50000, .i32⟩ : BufTy).Contents (Elt F) → (⟨S50000, .i32⟩ : BufTy).Contents (Elt F) → (⟨S50000, .i32⟩ : BufTy).Contents (Elt F)),
    StableHlo.ternary main_v54 main_v56 main_v52 main_v57 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v57 main_v58 (broadcastInDim S50000x1 ![0] bcast_S50000_S50000x1_0 : (⟨S50000, .i32⟩ : BufTy).Contents (Elt F) → (⟨S50000x1, .i32⟩ : BufTy).Contents (Elt F)),
    StableHlo.binary main_v50 main_v58 main_v59 ((fun x i => Host.gather gather_S128x100_S50000x1_S50000x100_1_0_n_n_0_1_1100 x i) : (⟨S128x100, .f32⟩ : BufTy).Contents (Elt F) → (⟨S50000x1, .i32⟩ : BufTy).Contents (Elt F) → (⟨S50000x100, .f32⟩ : BufTy).Contents (Elt F)),
    StableHlo.binary main_v48 main_v59 main_v60 (addf : (⟨S50000x100, .f32⟩ : BufTy).Contents (Elt F) → (⟨S50000x100, .f32⟩ : BufTy).Contents (Elt F) → (⟨S50000x100, .f32⟩ : BufTy).Contents (Elt F)),
    StableHlo.unary main_arg4 main_v61 ((extractStridedSlice S1x128x100 ![5, 0, 0] · slices_S9x128x100_S1x128x100_5_0_0) : (⟨S9x128x100, .f32⟩ : BufTy).Contents (Elt F) → (⟨S1x128x100, .f32⟩ : BufTy).Contents (Elt F)),
    StableHlo.reshape main_v61 main_v62 rfl shapeCasts_S1x128x100_S128x100,
    StableHlo.unary main_arg0 main_v63 ((extractStridedSlice S50000x1 ![0, 5] · slices_S50000x9_S50000x1_0_5) : (⟨S50000x9, .i32⟩ : BufTy).Contents (Elt F) → (⟨S50000x1, .i32⟩ : BufTy).Contents (Elt F)),
    StableHlo.reshape main_v63 main_v64 rfl shapeCasts_S50000x1_S50000,
    StableHlo.nullary main_c_9 (constantI S_ 32 0#32),
    StableHlo.unary main_c_9 main_v65 (broadcastInDim S50000 ![] bcast_S_S50000 : (⟨S_, .i32⟩ : BufTy).Contents (Elt F) → (⟨S50000, .i32⟩ : BufTy).Contents (Elt F)),
    StableHlo.binary main_v64 main_v65 main_v66 (cmpi .slt : (⟨S50000, .i32⟩ : BufTy).Contents (Elt F) → (⟨S50000, .i32⟩ : BufTy).Contents (Elt F) → (⟨S50000, .i1⟩ : BufTy).Contents (Elt F)),
    StableHlo.nullary main_c_10 (constantI S_ 32 128#32),
    StableHlo.unary main_c_10 main_v67 (broadcastInDim S50000 ![] bcast_S_S50000 : (⟨S_, .i32⟩ : BufTy).Contents (Elt F) → (⟨S50000, .i32⟩ : BufTy).Contents (Elt F)),
    StableHlo.binary main_v64 main_v67 main_v68 (addi : (⟨S50000, .i32⟩ : BufTy).Contents (Elt F) → (⟨S50000, .i32⟩ : BufTy).Contents (Elt F) → (⟨S50000, .i32⟩ : BufTy).Contents (Elt F)),
    StableHlo.ternary main_v66 main_v68 main_v64 main_v69 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v69 main_v70 (broadcastInDim S50000x1 ![0] bcast_S50000_S50000x1_0 : (⟨S50000, .i32⟩ : BufTy).Contents (Elt F) → (⟨S50000x1, .i32⟩ : BufTy).Contents (Elt F)),
    StableHlo.binary main_v62 main_v70 main_v71 ((fun x i => Host.gather gather_S128x100_S50000x1_S50000x100_1_0_n_n_0_1_1100 x i) : (⟨S128x100, .f32⟩ : BufTy).Contents (Elt F) → (⟨S50000x1, .i32⟩ : BufTy).Contents (Elt F) → (⟨S50000x100, .f32⟩ : BufTy).Contents (Elt F)),
    StableHlo.binary main_v60 main_v71 main_v72 (addf : (⟨S50000x100, .f32⟩ : BufTy).Contents (Elt F) → (⟨S50000x100, .f32⟩ : BufTy).Contents (Elt F) → (⟨S50000x100, .f32⟩ : BufTy).Contents (Elt F)),
    StableHlo.unary main_arg4 main_v73 ((extractStridedSlice S1x128x100 ![6, 0, 0] · slices_S9x128x100_S1x128x100_6_0_0) : (⟨S9x128x100, .f32⟩ : BufTy).Contents (Elt F) → (⟨S1x128x100, .f32⟩ : BufTy).Contents (Elt F)),
    StableHlo.reshape main_v73 main_v74 rfl shapeCasts_S1x128x100_S128x100,
    StableHlo.unary main_arg0 main_v75 ((extractStridedSlice S50000x1 ![0, 6] · slices_S50000x9_S50000x1_0_6) : (⟨S50000x9, .i32⟩ : BufTy).Contents (Elt F) → (⟨S50000x1, .i32⟩ : BufTy).Contents (Elt F)),
    StableHlo.reshape main_v75 main_v76 rfl shapeCasts_S50000x1_S50000,
    StableHlo.nullary main_c_11 (constantI S_ 32 0#32),
    StableHlo.unary main_c_11 main_v77 (broadcastInDim S50000 ![] bcast_S_S50000 : (⟨S_, .i32⟩ : BufTy).Contents (Elt F) → (⟨S50000, .i32⟩ : BufTy).Contents (Elt F)),
    StableHlo.binary main_v76 main_v77 main_v78 (cmpi .slt : (⟨S50000, .i32⟩ : BufTy).Contents (Elt F) → (⟨S50000, .i32⟩ : BufTy).Contents (Elt F) → (⟨S50000, .i1⟩ : BufTy).Contents (Elt F)),
    StableHlo.nullary main_c_12 (constantI S_ 32 128#32),
    StableHlo.unary main_c_12 main_v79 (broadcastInDim S50000 ![] bcast_S_S50000 : (⟨S_, .i32⟩ : BufTy).Contents (Elt F) → (⟨S50000, .i32⟩ : BufTy).Contents (Elt F)),
    StableHlo.binary main_v76 main_v79 main_v80 (addi : (⟨S50000, .i32⟩ : BufTy).Contents (Elt F) → (⟨S50000, .i32⟩ : BufTy).Contents (Elt F) → (⟨S50000, .i32⟩ : BufTy).Contents (Elt F)),
    StableHlo.ternary main_v78 main_v80 main_v76 main_v81 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v81 main_v82 (broadcastInDim S50000x1 ![0] bcast_S50000_S50000x1_0 : (⟨S50000, .i32⟩ : BufTy).Contents (Elt F) → (⟨S50000x1, .i32⟩ : BufTy).Contents (Elt F)),
    StableHlo.binary main_v74 main_v82 main_v83 ((fun x i => Host.gather gather_S128x100_S50000x1_S50000x100_1_0_n_n_0_1_1100 x i) : (⟨S128x100, .f32⟩ : BufTy).Contents (Elt F) → (⟨S50000x1, .i32⟩ : BufTy).Contents (Elt F) → (⟨S50000x100, .f32⟩ : BufTy).Contents (Elt F)),
    StableHlo.binary main_v72 main_v83 main_v84 (addf : (⟨S50000x100, .f32⟩ : BufTy).Contents (Elt F) → (⟨S50000x100, .f32⟩ : BufTy).Contents (Elt F) → (⟨S50000x100, .f32⟩ : BufTy).Contents (Elt F)),
    StableHlo.unary main_arg4 main_v85 ((extractStridedSlice S1x128x100 ![7, 0, 0] · slices_S9x128x100_S1x128x100_7_0_0) : (⟨S9x128x100, .f32⟩ : BufTy).Contents (Elt F) → (⟨S1x128x100, .f32⟩ : BufTy).Contents (Elt F)),
    StableHlo.reshape main_v85 main_v86 rfl shapeCasts_S1x128x100_S128x100,
    StableHlo.unary main_arg0 main_v87 ((extractStridedSlice S50000x1 ![0, 7] · slices_S50000x9_S50000x1_0_7) : (⟨S50000x9, .i32⟩ : BufTy).Contents (Elt F) → (⟨S50000x1, .i32⟩ : BufTy).Contents (Elt F)),
    StableHlo.reshape main_v87 main_v88 rfl shapeCasts_S50000x1_S50000,
    StableHlo.nullary main_c_13 (constantI S_ 32 0#32),
    StableHlo.unary main_c_13 main_v89 (broadcastInDim S50000 ![] bcast_S_S50000 : (⟨S_, .i32⟩ : BufTy).Contents (Elt F) → (⟨S50000, .i32⟩ : BufTy).Contents (Elt F)),
    StableHlo.binary main_v88 main_v89 main_v90 (cmpi .slt : (⟨S50000, .i32⟩ : BufTy).Contents (Elt F) → (⟨S50000, .i32⟩ : BufTy).Contents (Elt F) → (⟨S50000, .i1⟩ : BufTy).Contents (Elt F)),
    StableHlo.nullary main_c_14 (constantI S_ 32 128#32),
    StableHlo.unary main_c_14 main_v91 (broadcastInDim S50000 ![] bcast_S_S50000 : (⟨S_, .i32⟩ : BufTy).Contents (Elt F) → (⟨S50000, .i32⟩ : BufTy).Contents (Elt F)),
    StableHlo.binary main_v88 main_v91 main_v92 (addi : (⟨S50000, .i32⟩ : BufTy).Contents (Elt F) → (⟨S50000, .i32⟩ : BufTy).Contents (Elt F) → (⟨S50000, .i32⟩ : BufTy).Contents (Elt F)),
    StableHlo.ternary main_v90 main_v92 main_v88 main_v93 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v93 main_v94 (broadcastInDim S50000x1 ![0] bcast_S50000_S50000x1_0 : (⟨S50000, .i32⟩ : BufTy).Contents (Elt F) → (⟨S50000x1, .i32⟩ : BufTy).Contents (Elt F)),
    StableHlo.binary main_v86 main_v94 main_v95 ((fun x i => Host.gather gather_S128x100_S50000x1_S50000x100_1_0_n_n_0_1_1100 x i) : (⟨S128x100, .f32⟩ : BufTy).Contents (Elt F) → (⟨S50000x1, .i32⟩ : BufTy).Contents (Elt F) → (⟨S50000x100, .f32⟩ : BufTy).Contents (Elt F)),
    StableHlo.binary main_v84 main_v95 main_v96 (addf : (⟨S50000x100, .f32⟩ : BufTy).Contents (Elt F) → (⟨S50000x100, .f32⟩ : BufTy).Contents (Elt F) → (⟨S50000x100, .f32⟩ : BufTy).Contents (Elt F)),
    StableHlo.unary main_arg4 main_v97 ((extractStridedSlice S1x128x100 ![8, 0, 0] · slices_S9x128x100_S1x128x100_8_0_0) : (⟨S9x128x100, .f32⟩ : BufTy).Contents (Elt F) → (⟨S1x128x100, .f32⟩ : BufTy).Contents (Elt F)),
    StableHlo.reshape main_v97 main_v98 rfl shapeCasts_S1x128x100_S128x100,
    StableHlo.unary main_arg0 main_v99 ((extractStridedSlice S50000x1 ![0, 8] · slices_S50000x9_S50000x1_0_8) : (⟨S50000x9, .i32⟩ : BufTy).Contents (Elt F) → (⟨S50000x1, .i32⟩ : BufTy).Contents (Elt F)),
    StableHlo.reshape main_v99 main_v100 rfl shapeCasts_S50000x1_S50000,
    StableHlo.nullary main_c_15 (constantI S_ 32 0#32),
    StableHlo.unary main_c_15 main_v101 (broadcastInDim S50000 ![] bcast_S_S50000 : (⟨S_, .i32⟩ : BufTy).Contents (Elt F) → (⟨S50000, .i32⟩ : BufTy).Contents (Elt F)),
    StableHlo.binary main_v100 main_v101 main_v102 (cmpi .slt : (⟨S50000, .i32⟩ : BufTy).Contents (Elt F) → (⟨S50000, .i32⟩ : BufTy).Contents (Elt F) → (⟨S50000, .i1⟩ : BufTy).Contents (Elt F)),
    StableHlo.nullary main_c_16 (constantI S_ 32 128#32),
    StableHlo.unary main_c_16 main_v103 (broadcastInDim S50000 ![] bcast_S_S50000 : (⟨S_, .i32⟩ : BufTy).Contents (Elt F) → (⟨S50000, .i32⟩ : BufTy).Contents (Elt F)),
    StableHlo.binary main_v100 main_v103 main_v104 (addi : (⟨S50000, .i32⟩ : BufTy).Contents (Elt F) → (⟨S50000, .i32⟩ : BufTy).Contents (Elt F) → (⟨S50000, .i32⟩ : BufTy).Contents (Elt F)),
    StableHlo.ternary main_v102 main_v104 main_v100 main_v105 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v105 main_v106 (broadcastInDim S50000x1 ![0] bcast_S50000_S50000x1_0 : (⟨S50000, .i32⟩ : BufTy).Contents (Elt F) → (⟨S50000x1, .i32⟩ : BufTy).Contents (Elt F)),
    StableHlo.binary main_v98 main_v106 main_v107 ((fun x i => Host.gather gather_S128x100_S50000x1_S50000x100_1_0_n_n_0_1_1100 x i) : (⟨S128x100, .f32⟩ : BufTy).Contents (Elt F) → (⟨S50000x1, .i32⟩ : BufTy).Contents (Elt F) → (⟨S50000x100, .f32⟩ : BufTy).Contents (Elt F)),
    StableHlo.binary main_v96 main_v107 main_v108 (addf : (⟨S50000x100, .f32⟩ : BufTy).Contents (Elt F) → (⟨S50000x100, .f32⟩ : BufTy).Contents (Elt F) → (⟨S50000x100, .f32⟩ : BufTy).Contents (Elt F)),
    StableHlo.unary main_arg5 main_v109 ((extractStridedSlice S1x16x100 ![0, 0, 0] · slices_S3x16x100_S1x16x100_0_0_0) : (⟨S3x16x100, .f32⟩ : BufTy).Contents (Elt F) → (⟨S1x16x100, .f32⟩ : BufTy).Contents (Elt F)),
    StableHlo.reshape main_v109 main_v110 rfl shapeCasts_S1x16x100_S16x100,
    StableHlo.unary main_arg2 main_v111 ((extractStridedSlice S800000x1 ![0, 0] · slices_S800000x3_S800000x1_0_0) : (⟨S800000x3, .i32⟩ : BufTy).Contents (Elt F) → (⟨S800000x1, .i32⟩ : BufTy).Contents (Elt F)),
    StableHlo.reshape main_v111 main_v112 rfl shapeCasts_S800000x1_S800000,
    StableHlo.nullary main_c_17 (constantI S_ 32 0#32),
    StableHlo.unary main_c_17 main_v113 (broadcastInDim S800000 ![] bcast_S_S800000 : (⟨S_, .i32⟩ : BufTy).Contents (Elt F) → (⟨S800000, .i32⟩ : BufTy).Contents (Elt F)),
    StableHlo.binary main_v112 main_v113 main_v114 (cmpi .slt : (⟨S800000, .i32⟩ : BufTy).Contents (Elt F) → (⟨S800000, .i32⟩ : BufTy).Contents (Elt F) → (⟨S800000, .i1⟩ : BufTy).Contents (Elt F)),
    StableHlo.nullary main_c_18 (constantI S_ 32 16#32),
    StableHlo.unary main_c_18 main_v115 (broadcastInDim S800000 ![] bcast_S_S800000 : (⟨S_, .i32⟩ : BufTy).Contents (Elt F) → (⟨S800000, .i32⟩ : BufTy).Contents (Elt F)),
    StableHlo.binary main_v112 main_v115 main_v116 (addi : (⟨S800000, .i32⟩ : BufTy).Contents (Elt F) → (⟨S800000, .i32⟩ : BufTy).Contents (Elt F) → (⟨S800000, .i32⟩ : BufTy).Contents (Elt F)),
    StableHlo.ternary main_v114 main_v116 main_v112 main_v117 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v117 main_v118 (broadcastInDim S800000x1 ![0] bcast_S800000_S800000x1_0 : (⟨S800000, .i32⟩ : BufTy).Contents (Elt F) → (⟨S800000x1, .i32⟩ : BufTy).Contents (Elt F)),
    StableHlo.binary main_v110 main_v118 main_v119 ((fun x i => Host.gather gather_S16x100_S800000x1_S800000x100_1_0_n_n_0_1_1100 x i) : (⟨S16x100, .f32⟩ : BufTy).Contents (Elt F) → (⟨S800000x1, .i32⟩ : BufTy).Contents (Elt F) → (⟨S800000x100, .f32⟩ : BufTy).Contents (Elt F)),
    StableHlo.nullary main_cst_19 (constant S_ .f32 0x00000000#32),
    StableHlo.unary main_cst_19 main_v120 (broadcastInDim S800000x100 ![] bcast_S_S800000x100 : (⟨S_, .f32⟩ : BufTy).Contents (Elt F) → (⟨S800000x100, .f32⟩ : BufTy).Contents (Elt F)),
    StableHlo.binary main_v120 main_v119 main_v121 (addf : (⟨S800000x100, .f32⟩ : BufTy).Contents (Elt F) → (⟨S800000x100, .f32⟩ : BufTy).Contents (Elt F) → (⟨S800000x100, .f32⟩ : BufTy).Contents (Elt F)),
    StableHlo.unary main_arg5 main_v122 ((extractStridedSlice S1x16x100 ![1, 0, 0] · slices_S3x16x100_S1x16x100_1_0_0) : (⟨S3x16x100, .f32⟩ : BufTy).Contents (Elt F) → (⟨S1x16x100, .f32⟩ : BufTy).Contents (Elt F)),
    StableHlo.reshape main_v122 main_v123 rfl shapeCasts_S1x16x100_S16x100,
    StableHlo.unary main_arg2 main_v124 ((extractStridedSlice S800000x1 ![0, 1] · slices_S800000x3_S800000x1_0_1) : (⟨S800000x3, .i32⟩ : BufTy).Contents (Elt F) → (⟨S800000x1, .i32⟩ : BufTy).Contents (Elt F)),
    StableHlo.reshape main_v124 main_v125 rfl shapeCasts_S800000x1_S800000,
    StableHlo.nullary main_c_20 (constantI S_ 32 0#32),
    StableHlo.unary main_c_20 main_v126 (broadcastInDim S800000 ![] bcast_S_S800000 : (⟨S_, .i32⟩ : BufTy).Contents (Elt F) → (⟨S800000, .i32⟩ : BufTy).Contents (Elt F)),
    StableHlo.binary main_v125 main_v126 main_v127 (cmpi .slt : (⟨S800000, .i32⟩ : BufTy).Contents (Elt F) → (⟨S800000, .i32⟩ : BufTy).Contents (Elt F) → (⟨S800000, .i1⟩ : BufTy).Contents (Elt F)),
    StableHlo.nullary main_c_21 (constantI S_ 32 16#32),
    StableHlo.unary main_c_21 main_v128 (broadcastInDim S800000 ![] bcast_S_S800000 : (⟨S_, .i32⟩ : BufTy).Contents (Elt F) → (⟨S800000, .i32⟩ : BufTy).Contents (Elt F)),
    StableHlo.binary main_v125 main_v128 main_v129 (addi : (⟨S800000, .i32⟩ : BufTy).Contents (Elt F) → (⟨S800000, .i32⟩ : BufTy).Contents (Elt F) → (⟨S800000, .i32⟩ : BufTy).Contents (Elt F)),
    StableHlo.ternary main_v127 main_v129 main_v125 main_v130 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v130 main_v131 (broadcastInDim S800000x1 ![0] bcast_S800000_S800000x1_0 : (⟨S800000, .i32⟩ : BufTy).Contents (Elt F) → (⟨S800000x1, .i32⟩ : BufTy).Contents (Elt F)),
    StableHlo.binary main_v123 main_v131 main_v132 ((fun x i => Host.gather gather_S16x100_S800000x1_S800000x100_1_0_n_n_0_1_1100 x i) : (⟨S16x100, .f32⟩ : BufTy).Contents (Elt F) → (⟨S800000x1, .i32⟩ : BufTy).Contents (Elt F) → (⟨S800000x100, .f32⟩ : BufTy).Contents (Elt F)),
    StableHlo.binary main_v121 main_v132 main_v133 (addf : (⟨S800000x100, .f32⟩ : BufTy).Contents (Elt F) → (⟨S800000x100, .f32⟩ : BufTy).Contents (Elt F) → (⟨S800000x100, .f32⟩ : BufTy).Contents (Elt F)),
    StableHlo.unary main_arg5 main_v134 ((extractStridedSlice S1x16x100 ![2, 0, 0] · slices_S3x16x100_S1x16x100_2_0_0) : (⟨S3x16x100, .f32⟩ : BufTy).Contents (Elt F) → (⟨S1x16x100, .f32⟩ : BufTy).Contents (Elt F)),
    StableHlo.reshape main_v134 main_v135 rfl shapeCasts_S1x16x100_S16x100,
    StableHlo.unary main_arg2 main_v136 ((extractStridedSlice S800000x1 ![0, 2] · slices_S800000x3_S800000x1_0_2) : (⟨S800000x3, .i32⟩ : BufTy).Contents (Elt F) → (⟨S800000x1, .i32⟩ : BufTy).Contents (Elt F)),
    StableHlo.reshape main_v136 main_v137 rfl shapeCasts_S800000x1_S800000,
    StableHlo.nullary main_c_22 (constantI S_ 32 0#32),
    StableHlo.unary main_c_22 main_v138 (broadcastInDim S800000 ![] bcast_S_S800000 : (⟨S_, .i32⟩ : BufTy).Contents (Elt F) → (⟨S800000, .i32⟩ : BufTy).Contents (Elt F)),
    StableHlo.binary main_v137 main_v138 main_v139 (cmpi .slt : (⟨S800000, .i32⟩ : BufTy).Contents (Elt F) → (⟨S800000, .i32⟩ : BufTy).Contents (Elt F) → (⟨S800000, .i1⟩ : BufTy).Contents (Elt F)),
    StableHlo.nullary main_c_23 (constantI S_ 32 16#32),
    StableHlo.unary main_c_23 main_v140 (broadcastInDim S800000 ![] bcast_S_S800000 : (⟨S_, .i32⟩ : BufTy).Contents (Elt F) → (⟨S800000, .i32⟩ : BufTy).Contents (Elt F)),
    StableHlo.binary main_v137 main_v140 main_v141 (addi : (⟨S800000, .i32⟩ : BufTy).Contents (Elt F) → (⟨S800000, .i32⟩ : BufTy).Contents (Elt F) → (⟨S800000, .i32⟩ : BufTy).Contents (Elt F)),
    StableHlo.ternary main_v139 main_v141 main_v137 main_v142 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v142 main_v143 (broadcastInDim S800000x1 ![0] bcast_S800000_S800000x1_0 : (⟨S800000, .i32⟩ : BufTy).Contents (Elt F) → (⟨S800000x1, .i32⟩ : BufTy).Contents (Elt F)),
    StableHlo.binary main_v135 main_v143 main_v144 ((fun x i => Host.gather gather_S16x100_S800000x1_S800000x100_1_0_n_n_0_1_1100 x i) : (⟨S16x100, .f32⟩ : BufTy).Contents (Elt F) → (⟨S800000x1, .i32⟩ : BufTy).Contents (Elt F) → (⟨S800000x100, .f32⟩ : BufTy).Contents (Elt F)),
    StableHlo.binary main_v133 main_v144 main_v145 (addf : (⟨S800000x100, .f32⟩ : BufTy).Contents (Elt F) → (⟨S800000x100, .f32⟩ : BufTy).Contents (Elt F) → (⟨S800000x100, .f32⟩ : BufTy).Contents (Elt F)),
    StableHlo.unary main_arg1 main_v146 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v146 main_v147 rfl shapeCasts_S1x800000_S800000,
    StableHlo.unary main_arg1 main_v148 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v148 main_v149 rfl shapeCasts_S1x800000_S800000 ]
theorem opsInit_sub : (opsInit : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub ..⟩

/-- Operations 177 … 315 of the whole run: from the one writing `main_c_24` through the one writing `main_v230`. -/
abbrev opsL0 : List (HloOp τ sig (Elt F)) :=
  [ StableHlo.nullary main_c_24 (constantI S_ 32 0#32),
    StableHlo.unary main_c_24 main_v150 (broadcastInDim S800000 ![] bcast_S_S800000 : (⟨S_, .i32⟩ : BufTy).Contents (Elt F) → (⟨S800000, .i32⟩ : BufTy).Contents (Elt F)),
    StableHlo.binary main_v147 main_v150 main_v151 (cmpi .slt : (⟨S800000, .i32⟩ : BufTy).Contents (Elt F) → (⟨S800000, .i32⟩ : BufTy).Contents (Elt F) → (⟨S800000, .i1⟩ : BufTy).Contents (Elt F)),
    StableHlo.nullary main_c_25 (constantI S_ 32 50000#32),
    StableHlo.unary main_c_25 main_v152 (broadcastInDim S800000 ![] bcast_S_S800000 : (⟨S_, .i32⟩ : BufTy).Contents (Elt F) → (⟨S800000, .i32⟩ : BufTy).Contents (Elt F)),
    StableHlo.binary main_v147 main_v152 main_v153 (addi : (⟨S800000, .i32⟩ : BufTy).Contents (Elt F) → (⟨S800000, .i32⟩ : BufTy).Contents (Elt F) → (⟨S800000, .i32⟩ : BufTy).Contents (Elt F)),
    StableHlo.ternary main_v151 main_v153 main_v147 main_v154 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v154 main_v155 (broadcastInDim S800000x1 ![0] bcast_S800000_S800000x1_0 : (⟨S800000, .i32⟩ : BufTy).Contents (Elt F) → (⟨S800000x1, .i32⟩ : BufTy).Contents (Elt F)),
    StableHlo.binary main_v108 main_v155 main_v156 ((fun x i => Host.gather gather_S50000x100_S800000x1_S800000x100_1_0_n_n_0_1_1100 x i) : (⟨S50000x100, .f32⟩ : BufTy).Contents (Elt F) → (⟨S800000x1, .i32⟩ : BufTy).Contents (Elt F) → (⟨S800000x100, .f32⟩ : BufTy).Contents (Elt F)),
    StableHlo.binary main_v156 main_v145 main_v157 (addf : (⟨S800000x100, .f32⟩ : BufTy).Contents (Elt F) → (⟨S800000x100, .f32⟩ : BufTy).Contents (Elt F) → (⟨S800000x100, .f32⟩ : BufTy).Contents (Elt F)),
    StableHlo.nullary main_cst_26 (constant S_ .f32 0x00000000#32),
    StableHlo.unary main_cst_26 main_v158 (broadcastInDim S50000x100 ![] bcast_S_S50000x100 : (⟨S_, .f32⟩ : BufTy).Contents (Elt F) → (⟨S50000x100, .f32⟩ : BufTy).Contents (Elt F)),
    StableHlo.unary main_v149 main_v159 (broadcastInDim S800000x1 ![0] bcast_S800000_S800000x1_0 : (⟨S800000, .i32⟩ : BufTy).Contents (Elt F) → (⟨S800000x1, .i32⟩ : BufTy).Contents (Elt F)),
    StableHlo.ternary main_v158 main_v159 main_v157 main_v160 ((fun x i u => Host.scatterAdd scatter_S50000x100_S800000x1_S800000x100_1_0_0_1 x i u) : (⟨S50000x100, .f32⟩ : BufTy).Contents (Elt F) → (⟨S800000x1, .i32⟩ : BufTy).Contents (Elt F) → (⟨S800000x100, .f32⟩ : BufTy).Contents (Elt F) → (⟨S50000x100, .f32⟩ : BufTy).Contents (Elt F)),
    StableHlo.unary main_arg6 main_v161 ((extractStridedSlice S1 ![0] · slices_S5_S1_0) : (⟨S5, .f32⟩ : BufTy).Contents (Elt F) → (⟨S1, .f32⟩ : BufTy).Contents (Elt F)),
    StableHlo.reshape main_v161 main_v162 rfl shapeCasts_S1_S_,
    StableHlo.nullary main_cst_27 (constant S_ .f32 0x3F800000#32),
    StableHlo.binary main_cst_27 main_v162 main_v163 (addf : (⟨S_, .f32⟩ : BufTy).Contents (Elt F) → (⟨S_, .f32⟩ : BufTy).Contents (Elt F) → (⟨S_, .f32⟩ : BufTy).Contents (Elt F)),
    StableHlo.unary main_v163 main_v164 (broadcastInDim S50000x100 ![] bcast_S_S50000x100 : (⟨S_, .f32⟩ : BufTy).Contents (Elt F) → (⟨S50000x100, .f32⟩ : BufTy).Contents (Elt F)),
    StableHlo.binary main_v164 main_v108 main_v165 (mulf : (⟨S50000x100, .f32⟩ : BufTy).Contents (Elt F) → (⟨S50000x100, .f32⟩ : BufTy).Contents (Elt F) → (⟨S50000x100, .f32⟩ : BufTy).Contents (Elt F)),
    StableHlo.binary main_v165 main_v160 main_v166 (addf : (⟨S50000x100, .f32⟩ : BufTy).Contents (Elt F) → (⟨S50000x100, .f32⟩ : BufTy).Contents (Elt F) → (⟨S50000x100, .f32⟩ : BufTy).Contents (Elt F)),
    StableHlo.unary main_arg7 main_v167 ((extractStridedSlice S1x100x200 ![0, 0, 0] · slices_S5x100x200_S1x100x200_0_0_0) : (⟨S5x100x200, .f32⟩ : BufTy).Contents (Elt F) → (⟨S1x100x200, .f32⟩ : BufTy).Contents (Elt F)),
    StableHlo.reshape main_v167 main_v168 rfl shapeCasts_S1x100x200_S100x200,
    StableHlo.binary main_v166 main_v168 main_v169 ((fun l r => Host.dotGeneral dot_S50000x100_S100x200_S50000x200_1_0_0_1_n_n none l r) : (⟨S50000x100, .f32⟩ : BufTy).Contents (Elt F) → (⟨S100x200, .f32⟩ : BufTy).Contents (Elt F) → (⟨S50000x200, .f32⟩ : BufTy).Contents (Elt F)),
    StableHlo.unary main_arg8 main_v170 ((extractStridedSlice S1x200 ![0, 0] · slices_S5x200_S1x200_0_0) : (⟨S5x200, .f32⟩ : BufTy).Contents (Elt F) → (⟨S1x200, .f32⟩ : BufTy).Contents (Elt F)),
    StableHlo.reshape main_v170 main_v171 rfl shapeCasts_S1x200_S200,
    StableHlo.unary main_v171 main_v172 (broadcastInDim S1x200 ![1] bcast_S200_S1x200_1 : (⟨S200, .f32⟩ : BufTy).Contents (Elt F) → (⟨S1x200, .f32⟩ : BufTy).Contents (Elt F)),
    StableHlo.unary main_v172 main_v173 (broadcastInDim S50000x200 ![0, 1] bcast_S1x200_S50000x200_0_1 : (⟨S1x200, .f32⟩ : BufTy).Contents (Elt F) → (⟨S50000x200, .f32⟩ : BufTy).Contents (Elt F)),
    StableHlo.binary main_v169 main_v173 main_v174 (addf : (⟨S50000x200, .f32⟩ : BufTy).Contents (Elt F) → (⟨S50000x200, .f32⟩ : BufTy).Contents (Elt F) → (⟨S50000x200, .f32⟩ : BufTy).Contents (Elt F)),
    StableHlo.unary main_arg9 main_v175 ((extractStridedSlice S1x200 ![0, 0] · slices_S5x200_S1x200_0_0) : (⟨S5x200, .f32⟩ : BufTy).Contents (Elt F) → (⟨S1x200, .f32⟩ : BufTy).Contents (Elt F)),
    StableHlo.reshape main_v175 main_v176 rfl shapeCasts_S1x200_S200,
    StableHlo.unary main_arg10 main_v177 ((extractStridedSlice S1x200 ![0, 0] · slices_S5x200_S1x200_0_0) : (⟨S5x200, .f32⟩ : BufTy).Contents (Elt F) → (⟨S1x200, .f32⟩ : BufTy).Contents (Elt F)),
    StableHlo.reshape main_v177 main_v178 rfl shapeCasts_S1x200_S200,
    StableHlo.nullary main_cst_28 (constant S_ .f32 0x00000000#32),
    StableHlo.binary main_v174 main_cst_28 main_v179 ((fun x v => Host.reduceAdd x v reducesTo_S50000x200_S200_d0 h_S_) : (⟨S50000x200, .f32⟩ : BufTy).Contents (Elt F) → (⟨S_, .f32⟩ : BufTy).Contents (Elt F) → (⟨S200, .f32⟩ : BufTy).Contents (Elt F)),
    StableHlo.nullary main_cst_29 (constant S_ .f32 0x47435000#32),
    StableHlo.unary main_cst_29 main_v180 (broadcastInDim S200 ![] bcast_S_S200 : (⟨S_, .f32⟩ : BufTy).Contents (Elt F) → (⟨S200, .f32⟩ : BufTy).Contents (Elt F)),
    StableHlo.binary main_v179 main_v180 main_v181 (Host.divf : (⟨S200, .f32⟩ : BufTy).Contents (Elt F) → (⟨S200, .f32⟩ : BufTy).Contents (Elt F) → (⟨S200, .f32⟩ : BufTy).Contents (Elt F)),
    StableHlo.nullary main_c_30 (constantI S_ 32 0#32),
    StableHlo.TRef.nullary (.of main_call0_cst : StableHlo.TRef sig ⟨S_, .f32⟩) (constant S_ .f32 0x00000000#32),
    StableHlo.TRef.binary (.of main_v174 : StableHlo.TRef sig ⟨S50000x200, .f32⟩) (.of main_call0_cst : StableHlo.TRef sig ⟨S_, .f32⟩) (.of main_call0_v0 : StableHlo.TRef sig ⟨S200, .f32⟩) (fun x v => Host.reduceAdd x v reducesTo_S50000x200_S200_d0 h_S_),
    StableHlo.TRef.unary (.of main_call0_v0 : StableHlo.TRef sig ⟨S200, .f32⟩) (.of main_call0_v1 : StableHlo.TRef sig ⟨S1x200, .f32⟩) (broadcastInDim S1x200 ![1] bcast_S200_S1x200_1),
    StableHlo.TRef.nullary (.of main_call0_cst_0 : StableHlo.TRef sig ⟨S_, .f32⟩) (constant S_ .f32 0x47435000#32),
    StableHlo.TRef.unary (.of main_call0_cst_0 : StableHlo.TRef sig ⟨S_, .f32⟩) (.of main_call0_v2 : StableHlo.TRef sig ⟨S1x200, .f32⟩) (broadcastInDim S1x200 ![] bcast_S_S1x200),
    StableHlo.TRef.binary (.of main_call0_v1 : StableHlo.TRef sig ⟨S1x200, .f32⟩) (.of main_call0_v2 : StableHlo.TRef sig ⟨S1x200, .f32⟩) (.of main_call0_v3 : StableHlo.TRef sig ⟨S1x200, .f32⟩) Host.divf,
    StableHlo.TRef.unary (.of main_call0_v3 : StableHlo.TRef sig ⟨S1x200, .f32⟩) (.of main_call0_v4 : StableHlo.TRef sig ⟨S50000x200, .f32⟩) (broadcastInDim S50000x200 ![0, 1] bcast_S1x200_S50000x200_0_1),
    StableHlo.TRef.binary (.of main_v174 : StableHlo.TRef sig ⟨S50000x200, .f32⟩) (.of main_call0_v4 : StableHlo.TRef sig ⟨S50000x200, .f32⟩) (.of main_call0_v5 : StableHlo.TRef sig ⟨S50000x200, .f32⟩) subf,
    StableHlo.TRef.binary (.of main_call0_v5 : StableHlo.TRef sig ⟨S50000x200, .f32⟩) (.of main_call0_v5 : StableHlo.TRef sig ⟨S50000x200, .f32⟩) (.of main_call0_v6 : StableHlo.TRef sig ⟨S50000x200, .f32⟩) mulf,
    StableHlo.TRef.unary (.of main_c_30 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47435000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S50000x200, .f32⟩) (.of main_call0_cst_2 : StableHlo.TRef sig ⟨S_, .f32⟩) (.of main_call0_v9 : StableHlo.TRef sig ⟨S200, .f32⟩) (fun x v => Host.reduceAdd x v reducesTo_S50000x200_S200_d0 h_S_),
    StableHlo.TRef.unary (.of main_call0_v8 : StableHlo.TRef sig ⟨S_, .f32⟩) (.of main_call0_v10 : StableHlo.TRef sig ⟨S200, .f32⟩) (broadcastInDim S200 ![] bcast_S_S200),
    StableHlo.TRef.binary (.of main_call0_v9 : StableHlo.TRef sig ⟨S200, .f32⟩) (.of main_call0_v10 : StableHlo.TRef sig ⟨S200, .f32⟩) (.of main_call0_v11 : StableHlo.TRef sig ⟨S200, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S200, .f32⟩) (broadcastInDim S200 ![] bcast_S_S200),
    StableHlo.TRef.ternary (.of main_call0_v12 : StableHlo.TRef sig ⟨S_, .i1⟩) (.of main_call0_v11 : StableHlo.TRef sig ⟨S200, .f32⟩) (.of main_call0_call0_v1 : StableHlo.TRef sig ⟨S200, .f32⟩) (.of main_v182 : StableHlo.TRef sig ⟨S200, .f32⟩) (fun p a b => select (broadcastInDim S200 ![] bcast_S_S200 p) a b),
    StableHlo.unary main_v181 main_v183 (broadcastInDim S1x200 ![1] bcast_S200_S1x200_1 : (⟨S200, .f32⟩ : BufTy).Contents (Elt F) → (⟨S1x200, .f32⟩ : BufTy).Contents (Elt F)),
    StableHlo.unary main_v183 main_v184 (broadcastInDim S50000x200 ![0, 1] bcast_S1x200_S50000x200_0_1 : (⟨S1x200, .f32⟩ : BufTy).Contents (Elt F) → (⟨S50000x200, .f32⟩ : BufTy).Contents (Elt F)),
    StableHlo.binary main_v174 main_v184 main_v185 (subf : (⟨S50000x200, .f32⟩ : BufTy).Contents (Elt F) → (⟨S50000x200, .f32⟩ : BufTy).Contents (Elt F) → (⟨S50000x200, .f32⟩ : BufTy).Contents (Elt F)),
    StableHlo.nullary main_cst_31 (constant S_ .f32 0x3727C5AC#32),
    StableHlo.unary main_cst_31 main_v186 (broadcastInDim S200 ![] bcast_S_S200 : (⟨S_, .f32⟩ : BufTy).Contents (Elt F) → (⟨S200, .f32⟩ : BufTy).Contents (Elt F)),
    StableHlo.binary main_v182 main_v186 main_v187 (addf : (⟨S200, .f32⟩ : BufTy).Contents (Elt F) → (⟨S200, .f32⟩ : BufTy).Contents (Elt F) → (⟨S200, .f32⟩ : BufTy).Contents (Elt F)),
    StableHlo.unary main_v187 main_v188 (Host.rsqrt : (⟨S200, .f32⟩ : BufTy).Contents (Elt F) → (⟨S200, .f32⟩ : BufTy).Contents (Elt F)),
    StableHlo.unary main_v188 main_v189 (broadcastInDim S1x200 ![1] bcast_S200_S1x200_1 : (⟨S200, .f32⟩ : BufTy).Contents (Elt F) → (⟨S1x200, .f32⟩ : BufTy).Contents (Elt F)),
    StableHlo.unary main_v189 main_v190 (broadcastInDim S50000x200 ![0, 1] bcast_S1x200_S50000x200_0_1 : (⟨S1x200, .f32⟩ : BufTy).Contents (Elt F) → (⟨S50000x200, .f32⟩ : BufTy).Contents (Elt F)),
    StableHlo.binary main_v185 main_v190 main_v191 (mulf : (⟨S50000x200, .f32⟩ : BufTy).Contents (Elt F) → (⟨S50000x200, .f32⟩ : BufTy).Contents (Elt F) → (⟨S50000x200, .f32⟩ : BufTy).Contents (Elt F)),
    StableHlo.unary main_v176 main_v192 (broadcastInDim S1x200 ![1] bcast_S200_S1x200_1 : (⟨S200, .f32⟩ : BufTy).Contents (Elt F) → (⟨S1x200, .f32⟩ : BufTy).Contents (Elt F)),
    StableHlo.unary main_v192 main_v193 (broadcastInDim S50000x200 ![0, 1] bcast_S1x200_S50000x200_0_1 : (⟨S1x200, .f32⟩ : BufTy).Contents (Elt F) → (⟨S50000x200, .f32⟩ : BufTy).Contents (Elt F)),
    StableHlo.binary main_v191 main_v193 main_v194 (mulf : (⟨S50000x200, .f32⟩ : BufTy).Contents (Elt F) → (⟨S50000x200, .f32⟩ : BufTy).Contents (Elt F) → (⟨S50000x200, .f32⟩ : BufTy).Contents (Elt F)),
    StableHlo.unary main_v178 main_v195 (broadcastInDim S1x200 ![1] bcast_S200_S1x200_1 : (⟨S200, .f32⟩ : BufTy).Contents (Elt F) → (⟨S1x200, .f32⟩ : BufTy).Contents (Elt F)),
    StableHlo.unary main_v195 main_v196 (broadcastInDim S50000x200 ![0, 1] bcast_S1x200_S50000x200_0_1 : (⟨S1x200, .f32⟩ : BufTy).Contents (Elt F) → (⟨S50000x200, .f32⟩ : BufTy).Contents (Elt F)),
    StableHlo.binary main_v194 main_v196 main_v197 (addf : (⟨S50000x200, .f32⟩ : BufTy).Contents (Elt F) → (⟨S50000x200, .f32⟩ : BufTy).Contents (Elt F) → (⟨S50000x200, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x200, .f32⟩) (broadcastInDim S50000x200 ![] bcast_S_S50000x200),
    StableHlo.TRef.binary (.of main_v197 : StableHlo.TRef sig ⟨S50000x200, .f32⟩) (.of main_call1_v0 : StableHlo.TRef sig ⟨S50000x200, .f32⟩) (.of main_v198 : StableHlo.TRef sig ⟨S50000x200, .f32⟩) maximumf,
    StableHlo.unary main_arg11 main_v199 ((extractStridedSlice S1x200x100 ![0, 0, 0] · slices_S5x200x100_S1x200x100_0_0_0) : (⟨S5x200x100, .f32⟩ : BufTy).Contents (Elt F) → (⟨S1x200x100, .f32⟩ : BufTy).Contents (Elt F)),
    StableHlo.reshape main_v199 main_v200 rfl shapeCasts_S1x200x100_S200x100,
    StableHlo.binary main_v198 main_v200 main_v201 ((fun l r => Host.dotGeneral dot_S50000x200_S200x100_S50000x100_1_0_0_1_n_n none l r) : (⟨S50000x200, .f32⟩ : BufTy).Contents (Elt F) → (⟨S200x100, .f32⟩ : BufTy).Contents (Elt F) → (⟨S50000x100, .f32⟩ : BufTy).Contents (Elt F)),
    StableHlo.unary main_arg12 main_v202 ((extractStridedSlice S1x100 ![0, 0] · slices_S5x100_S1x100_0_0) : (⟨S5x100, .f32⟩ : BufTy).Contents (Elt F) → (⟨S1x100, .f32⟩ : BufTy).Contents (Elt F)),
    StableHlo.reshape main_v202 main_v203 rfl shapeCasts_S1x100_S100,
    StableHlo.unary main_v203 main_v204 (broadcastInDim S1x100 ![1] bcast_S100_S1x100_1 : (⟨S100, .f32⟩ : BufTy).Contents (Elt F) → (⟨S1x100, .f32⟩ : BufTy).Contents (Elt F)),
    StableHlo.unary main_v204 main_v205 (broadcastInDim S50000x100 ![0, 1] bcast_S1x100_S50000x100_0_1 : (⟨S1x100, .f32⟩ : BufTy).Contents (Elt F) → (⟨S50000x100, .f32⟩ : BufTy).Contents (Elt F)),
    StableHlo.binary main_v201 main_v205 main_v206 (addf : (⟨S50000x100, .f32⟩ : BufTy).Contents (Elt F) → (⟨S50000x100, .f32⟩ : BufTy).Contents (Elt F) → (⟨S50000x100, .f32⟩ : BufTy).Contents (Elt F)),
    StableHlo.unary main_arg13 main_v207 ((extractStridedSlice S1x100 ![0, 0] · slices_S5x100_S1x100_0_0) : (⟨S5x100, .f32⟩ : BufTy).Contents (Elt F) → (⟨S1x100, .f32⟩ : BufTy).Contents (Elt F)),
    StableHlo.reshape main_v207 main_v208 rfl shapeCasts_S1x100_S100,
    StableHlo.unary main_arg14 main_v209 ((extractStridedSlice S1x100 ![0, 0] · slices_S5x100_S1x100_0_0) : (⟨S5x100, .f32⟩ : BufTy).Contents (Elt F) → (⟨S1x100, .f32⟩ : BufTy).Contents (Elt F)),
    StableHlo.reshape main_v209 main_v210 rfl shapeCasts_S1x100_S100,
    StableHlo.nullary main_cst_32 (constant S_ .f32 0x00000000#32),
    StableHlo.binary main_v206 main_cst_32 main_v211 ((fun x v => Host.reduceAdd x v reducesTo_S50000x100_S100_d0 h_S_) : (⟨S50000x100, .f32⟩ : BufTy).Contents (Elt F) → (⟨S_, .f32⟩ : BufTy).Contents (Elt F) → (⟨S100, .f32⟩ : BufTy).Contents (Elt F)),
    StableHlo.nullary main_cst_33 (constant S_ .f32 0x47435000#32),
    StableHlo.unary main_cst_33 main_v212 (broadcastInDim S100 ![] bcast_S_S100 : (⟨S_, .f32⟩ : BufTy).Contents (Elt F) → (⟨S100, .f32⟩ : BufTy).Contents (Elt F)),
    StableHlo.binary main_v211 main_v212 main_v213 (Host.divf : (⟨S100, .f32⟩ : BufTy).Contents (Elt F) → (⟨S100, .f32⟩ : BufTy).Contents (Elt F) → (⟨S100, .f32⟩ : BufTy).Contents (Elt F)),
    StableHlo.nullary main_c_34 (constantI S_ 32 0#32),
    StableHlo.TRef.nullary (.of main_call2_cst : StableHlo.TRef sig ⟨S_, .f32⟩) (constant S_ .f32 0x00000000#32),
    StableHlo.TRef.binary (.of main_v206 : StableHlo.TRef sig ⟨S50000x100, .f32⟩) (.of main_call2_cst : StableHlo.TRef sig ⟨S_, .f32⟩) (.of main_call2_v0 : StableHlo.TRef sig ⟨S100, .f32⟩) (fun x v => Host.reduceAdd x v reducesTo_S50000x100_S100_d0 h_S_),
    StableHlo.TRef.unary (.of main_call2_v0 : StableHlo.TRef sig ⟨S100, .f32⟩) (.of main_call2_v1 : StableHlo.TRef sig ⟨S1x100, .f32⟩) (broadcastInDim S1x100 ![1] bcast_S100_S1x100_1),
    StableHlo.TRef.nullary (.of main_call2_cst_0 : StableHlo.TRef sig ⟨S_, .f32⟩) (constant S_ .f32 0x47435000#32),
    StableHlo.TRef.unary (.of main_call2_cst_0 : StableHlo.TRef sig ⟨S_, .f32⟩) (.of main_call2_v2 : StableHlo.TRef sig ⟨S1x100, .f32⟩) (broadcastInDim S1x100 ![] bcast_S_S1x100),
    StableHlo.TRef.binary (.of main_call2_v1 : StableHlo.TRef sig ⟨S1x100, .f32⟩) (.of main_call2_v2 : StableHlo.TRef sig ⟨S1x100, .f32⟩) (.of main_call2_v3 : StableHlo.TRef sig ⟨S1x100, .f32⟩) Host.divf,
    StableHlo.TRef.unary (.of main_call2_v3 : StableHlo.TRef sig ⟨S1x100, .f32⟩) (.of main_call2_v4 : StableHlo.TRef sig ⟨S50000x100, .f32⟩) (broadcastInDim S50000x100 ![0, 1] bcast_S1x100_S50000x100_0_1),
    StableHlo.TRef.binary (.of main_v206 : StableHlo.TRef sig ⟨S50000x100, .f32⟩) (.of main_call2_v4 : StableHlo.TRef sig ⟨S50000x100, .f32⟩) (.of main_call2_v5 : StableHlo.TRef sig ⟨S50000x100, .f32⟩) subf,
    StableHlo.TRef.binary (.of main_call2_v5 : StableHlo.TRef sig ⟨S50000x100, .f32⟩) (.of main_call2_v5 : StableHlo.TRef sig ⟨S50000x100, .f32⟩) (.of main_call2_v6 : StableHlo.TRef sig ⟨S50000x100, .f32⟩) mulf,
    StableHlo.TRef.unary (.of main_c_34 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47435000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S50000x100, .f32⟩) (.of main_call2_cst_2 : StableHlo.TRef sig ⟨S_, .f32⟩) (.of main_call2_v9 : StableHlo.TRef sig ⟨S100, .f32⟩) (fun x v => Host.reduceAdd x v reducesTo_S50000x100_S100_d0 h_S_),
    StableHlo.TRef.unary (.of main_call2_v8 : StableHlo.TRef sig ⟨S_, .f32⟩) (.of main_call2_v10 : StableHlo.TRef sig ⟨S100, .f32⟩) (broadcastInDim S100 ![] bcast_S_S100),
    StableHlo.TRef.binary (.of main_call2_v9 : StableHlo.TRef sig ⟨S100, .f32⟩) (.of main_call2_v10 : StableHlo.TRef sig ⟨S100, .f32⟩) (.of main_call2_v11 : StableHlo.TRef sig ⟨S100, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S100, .f32⟩) (broadcastInDim S100 ![] bcast_S_S100),
    StableHlo.TRef.ternary (.of main_call2_v12 : StableHlo.TRef sig ⟨S_, .i1⟩) (.of main_call2_v11 : StableHlo.TRef sig ⟨S100, .f32⟩) (.of main_call2_call0_v1 : StableHlo.TRef sig ⟨S100, .f32⟩) (.of main_v214 : StableHlo.TRef sig ⟨S100, .f32⟩) (fun p a b => select (broadcastInDim S100 ![] bcast_S_S100 p) a b),
    StableHlo.unary main_v213 main_v215 (broadcastInDim S1x100 ![1] bcast_S100_S1x100_1 : (⟨S100, .f32⟩ : BufTy).Contents (Elt F) → (⟨S1x100, .f32⟩ : BufTy).Contents (Elt F)),
    StableHlo.unary main_v215 main_v216 (broadcastInDim S50000x100 ![0, 1] bcast_S1x100_S50000x100_0_1 : (⟨S1x100, .f32⟩ : BufTy).Contents (Elt F) → (⟨S50000x100, .f32⟩ : BufTy).Contents (Elt F)),
    StableHlo.binary main_v206 main_v216 main_v217 (subf : (⟨S50000x100, .f32⟩ : BufTy).Contents (Elt F) → (⟨S50000x100, .f32⟩ : BufTy).Contents (Elt F) → (⟨S50000x100, .f32⟩ : BufTy).Contents (Elt F)),
    StableHlo.nullary main_cst_35 (constant S_ .f32 0x3727C5AC#32),
    StableHlo.unary main_cst_35 main_v218 (broadcastInDim S100 ![] bcast_S_S100 : (⟨S_, .f32⟩ : BufTy).Contents (Elt F) → (⟨S100, .f32⟩ : BufTy).Contents (Elt F)),
    StableHlo.binary main_v214 main_v218 main_v219 (addf : (⟨S100, .f32⟩ : BufTy).Contents (Elt F) → (⟨S100, .f32⟩ : BufTy).Contents (Elt F) → (⟨S100, .f32⟩ : BufTy).Contents (Elt F)),
    StableHlo.unary main_v219 main_v220 (Host.rsqrt : (⟨S100, .f32⟩ : BufTy).Contents (Elt F) → (⟨S100, .f32⟩ : BufTy).Contents (Elt F)),
    StableHlo.unary main_v220 main_v221 (broadcastInDim S1x100 ![1] bcast_S100_S1x100_1 : (⟨S100, .f32⟩ : BufTy).Contents (Elt F) → (⟨S1x100, .f32⟩ : BufTy).Contents (Elt F)),
    StableHlo.unary main_v221 main_v222 (broadcastInDim S50000x100 ![0, 1] bcast_S1x100_S50000x100_0_1 : (⟨S1x100, .f32⟩ : BufTy).Contents (Elt F) → (⟨S50000x100, .f32⟩ : BufTy).Contents (Elt F)),
    StableHlo.binary main_v217 main_v222 main_v223 (mulf : (⟨S50000x100, .f32⟩ : BufTy).Contents (Elt F) → (⟨S50000x100, .f32⟩ : BufTy).Contents (Elt F) → (⟨S50000x100, .f32⟩ : BufTy).Contents (Elt F)),
    StableHlo.unary main_v208 main_v224 (broadcastInDim S1x100 ![1] bcast_S100_S1x100_1 : (⟨S100, .f32⟩ : BufTy).Contents (Elt F) → (⟨S1x100, .f32⟩ : BufTy).Contents (Elt F)),
    StableHlo.unary main_v224 main_v225 (broadcastInDim S50000x100 ![0, 1] bcast_S1x100_S50000x100_0_1 : (⟨S1x100, .f32⟩ : BufTy).Contents (Elt F) → (⟨S50000x100, .f32⟩ : BufTy).Contents (Elt F)),
    StableHlo.binary main_v223 main_v225 main_v226 (mulf : (⟨S50000x100, .f32⟩ : BufTy).Contents (Elt F) → (⟨S50000x100, .f32⟩ : BufTy).Contents (Elt F) → (⟨S50000x100, .f32⟩ : BufTy).Contents (Elt F)),
    StableHlo.unary main_v210 main_v227 (broadcastInDim S1x100 ![1] bcast_S100_S1x100_1 : (⟨S100, .f32⟩ : BufTy).Contents (Elt F) → (⟨S1x100, .f32⟩ : BufTy).Contents (Elt F)),
    StableHlo.unary main_v227 main_v228 (broadcastInDim S50000x100 ![0, 1] bcast_S1x100_S50000x100_0_1 : (⟨S1x100, .f32⟩ : BufTy).Contents (Elt F) → (⟨S50000x100, .f32⟩ : BufTy).Contents (Elt F)),
    StableHlo.binary main_v226 main_v228 main_v229 (addf : (⟨S50000x100, .f32⟩ : BufTy).Contents (Elt F) → (⟨S50000x100, .f32⟩ : BufTy).Contents (Elt F) → (⟨S50000x100, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x100, .f32⟩) (broadcastInDim S50000x100 ![] bcast_S_S50000x100),
    StableHlo.TRef.binary (.of main_v229 : StableHlo.TRef sig ⟨S50000x100, .f32⟩) (.of main_call3_v0 : StableHlo.TRef sig ⟨S50000x100, .f32⟩) (.of main_v230 : StableHlo.TRef sig ⟨S50000x100, .f32⟩) maximumf ]
theorem opsL0_sub : (opsL0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.binary_bufs_sub .., StableHlo.unary_bufs_sub .., StableHlo.binary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- Operations 316 … 454 of the whole run: from the one writing `main_c_36` through the one writing `main_v311`. -/
abbrev opsL1 : List (HloOp τ sig (Elt F)) :=
  [ StableHlo.nullary main_c_36 (constantI S_ 32 0#32),
    StableHlo.unary main_c_36 main_v231 (broadcastInDim S800000 ![] bcast_S_S800000 : (⟨S_, .i32⟩ : BufTy).Contents (Elt F) → (⟨S800000, .i32⟩ : BufTy).Contents (Elt F)),
    StableHlo.binary main_v147 main_v231 main_v232 (cmpi .slt : (⟨S800000, .i32⟩ : BufTy).Contents (Elt F) → (⟨S800000, .i32⟩ : BufTy).Contents (Elt F) → (⟨S800000, .i1⟩ : BufTy).Contents (Elt F)),
    StableHlo.nullary main_c_37 (constantI S_ 32 50000#32),
    StableHlo.unary main_c_37 main_v233 (broadcastInDim S800000 ![] bcast_S_S800000 : (⟨S_, .i32⟩ : BufTy).Contents (Elt F) → (⟨S800000, .i32⟩ : BufTy).Contents (Elt F)),
    StableHlo.binary main_v147 main_v233 main_v234 (addi : (⟨S800000, .i32⟩ : BufTy).Contents (Elt F) → (⟨S800000, .i32⟩ : BufTy).Contents (Elt F) → (⟨S800000, .i32⟩ : BufTy).Contents (Elt F)),
    StableHlo.ternary main_v232 main_v234 main_v147 main_v235 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v235 main_v236 (broadcastInDim S800000x1 ![0] bcast_S800000_S800000x1_0 : (⟨S800000, .i32⟩ : BufTy).Contents (Elt F) → (⟨S800000x1, .i32⟩ : BufTy).Contents (Elt F)),
    StableHlo.binary main_v230 main_v236 main_v237 ((fun x i => Host.gather gather_S50000x100_S800000x1_S800000x100_1_0_n_n_0_1_1100 x i) : (⟨S50000x100, .f32⟩ : BufTy).Contents (Elt F) → (⟨S800000x1, .i32⟩ : BufTy).Contents (Elt F) → (⟨S800000x100, .f32⟩ : BufTy).Contents (Elt F)),
    StableHlo.binary main_v237 main_v145 main_v238 (addf : (⟨S800000x100, .f32⟩ : BufTy).Contents (Elt F) → (⟨S800000x100, .f32⟩ : BufTy).Contents (Elt F) → (⟨S800000x100, .f32⟩ : BufTy).Contents (Elt F)),
    StableHlo.nullary main_cst_38 (constant S_ .f32 0x00000000#32),
    StableHlo.unary main_cst_38 main_v239 (broadcastInDim S50000x100 ![] bcast_S_S50000x100 : (⟨S_, .f32⟩ : BufTy).Contents (Elt F) → (⟨S50000x100, .f32⟩ : BufTy).Contents (Elt F)),
    StableHlo.unary main_v149 main_v240 (broadcastInDim S800000x1 ![0] bcast_S800000_S800000x1_0 : (⟨S800000, .i32⟩ : BufTy).Contents (Elt F) → (⟨S800000x1, .i32⟩ : BufTy).Contents (Elt F)),
    StableHlo.ternary main_v239 main_v240 main_v238 main_v241 ((fun x i u => Host.scatterAdd scatter_S50000x100_S800000x1_S800000x100_1_0_0_1 x i u) : (⟨S50000x100, .f32⟩ : BufTy).Contents (Elt F) → (⟨S800000x1, .i32⟩ : BufTy).Contents (Elt F) → (⟨S800000x100, .f32⟩ : BufTy).Contents (Elt F) → (⟨S50000x100, .f32⟩ : BufTy).Contents (Elt F)),
    StableHlo.unary main_arg6 main_v242 ((extractStridedSlice S1 ![1] · slices_S5_S1_1) : (⟨S5, .f32⟩ : BufTy).Contents (Elt F) → (⟨S1, .f32⟩ : BufTy).Contents (Elt F)),
    StableHlo.reshape main_v242 main_v243 rfl shapeCasts_S1_S_,
    StableHlo.nullary main_cst_39 (constant S_ .f32 0x3F800000#32),
    StableHlo.binary main_cst_39 main_v243 main_v244 (addf : (⟨S_, .f32⟩ : BufTy).Contents (Elt F) → (⟨S_, .f32⟩ : BufTy).Contents (Elt F) → (⟨S_, .f32⟩ : BufTy).Contents (Elt F)),
    StableHlo.unary main_v244 main_v245 (broadcastInDim S50000x100 ![] bcast_S_S50000x100 : (⟨S_, .f32⟩ : BufTy).Contents (Elt F) → (⟨S50000x100, .f32⟩ : BufTy).Contents (Elt F)),
    StableHlo.binary main_v245 main_v230 main_v246 (mulf : (⟨S50000x100, .f32⟩ : BufTy).Contents (Elt F) → (⟨S50000x100, .f32⟩ : BufTy).Contents (Elt F) → (⟨S50000x100, .f32⟩ : BufTy).Contents (Elt F)),
    StableHlo.binary main_v246 main_v241 main_v247 (addf : (⟨S50000x100, .f32⟩ : BufTy).Contents (Elt F) → (⟨S50000x100, .f32⟩ : BufTy).Contents (Elt F) → (⟨S50000x100, .f32⟩ : BufTy).Contents (Elt F)),
    StableHlo.unary main_arg7 main_v248 ((extractStridedSlice S1x100x200 ![1, 0, 0] · slices_S5x100x200_S1x100x200_1_0_0) : (⟨S5x100x200, .f32⟩ : BufTy).Contents (Elt F) → (⟨S1x100x200, .f32⟩ : BufTy).Contents (Elt F)),
    StableHlo.reshape main_v248 main_v249 rfl shapeCasts_S1x100x200_S100x200,
    StableHlo.binary main_v247 main_v249 main_v250 ((fun l r => Host.dotGeneral dot_S50000x100_S100x200_S50000x200_1_0_0_1_n_n none l r) : (⟨S50000x100, .f32⟩ : BufTy).Contents (Elt F) → (⟨S100x200, .f32⟩ : BufTy).Contents (Elt F) → (⟨S50000x200, .f32⟩ : BufTy).Contents (Elt F)),
    StableHlo.unary main_arg8 main_v251 ((extractStridedSlice S1x200 ![1, 0] · slices_S5x200_S1x200_1_0) : (⟨S5x200, .f32⟩ : BufTy).Contents (Elt F) → (⟨S1x200, .f32⟩ : BufTy).Contents (Elt F)),
    StableHlo.reshape main_v251 main_v252 rfl shapeCasts_S1x200_S200,
    StableHlo.unary main_v252 main_v253 (broadcastInDim S1x200 ![1] bcast_S200_S1x200_1 : (⟨S200, .f32⟩ : BufTy).Contents (Elt F) → (⟨S1x200, .f32⟩ : BufTy).Contents (Elt F)),
    StableHlo.unary main_v253 main_v254 (broadcastInDim S50000x200 ![0, 1] bcast_S1x200_S50000x200_0_1 : (⟨S1x200, .f32⟩ : BufTy).Contents (Elt F) → (⟨S50000x200, .f32⟩ : BufTy).Contents (Elt F)),
    StableHlo.binary main_v250 main_v254 main_v255 (addf : (⟨S50000x200, .f32⟩ : BufTy).Contents (Elt F) → (⟨S50000x200, .f32⟩ : BufTy).Contents (Elt F) → (⟨S50000x200, .f32⟩ : BufTy).Contents (Elt F)),
    StableHlo.unary main_arg9 main_v256 ((extractStridedSlice S1x200 ![1, 0] · slices_S5x200_S1x200_1_0) : (⟨S5x200, .f32⟩ : BufTy).Contents (Elt F) → (⟨S1x200, .f32⟩ : BufTy).Contents (Elt F)),
    StableHlo.reshape main_v256 main_v257 rfl shapeCasts_S1x200_S200,
    StableHlo.unary main_arg10 main_v258 ((extractStridedSlice S1x200 ![1, 0] · slices_S5x200_S1x200_1_0) : (⟨S5x200, .f32⟩ : BufTy).Contents (Elt F) → (⟨S1x200, .f32⟩ : BufTy).Contents (Elt F)),
    StableHlo.reshape main_v258 main_v259 rfl shapeCasts_S1x200_S200,
    StableHlo.nullary main_cst_40 (constant S_ .f32 0x00000000#32),
    StableHlo.binary main_v255 main_cst_40 main_v260 ((fun x v => Host.reduceAdd x v reducesTo_S50000x200_S200_d0 h_S_) : (⟨S50000x200, .f32⟩ : BufTy).Contents (Elt F) → (⟨S_, .f32⟩ : BufTy).Contents (Elt F) → (⟨S200, .f32⟩ : BufTy).Contents (Elt F)),
    StableHlo.nullary main_cst_41 (constant S_ .f32 0x47435000#32),
    StableHlo.unary main_cst_41 main_v261 (broadcastInDim S200 ![] bcast_S_S200 : (⟨S_, .f32⟩ : BufTy).Contents (Elt F) → (⟨S200, .f32⟩ : BufTy).Contents (Elt F)),
    StableHlo.binary main_v260 main_v261 main_v262 (Host.divf : (⟨S200, .f32⟩ : BufTy).Contents (Elt F) → (⟨S200, .f32⟩ : BufTy).Contents (Elt F) → (⟨S200, .f32⟩ : BufTy).Contents (Elt F)),
    StableHlo.nullary main_c_42 (constantI S_ 32 0#32),
    StableHlo.TRef.nullary (.of main_call4_cst : StableHlo.TRef sig ⟨S_, .f32⟩) (constant S_ .f32 0x00000000#32),
    StableHlo.TRef.binary (.of main_v255 : StableHlo.TRef sig ⟨S50000x200, .f32⟩) (.of main_call4_cst : StableHlo.TRef sig ⟨S_, .f32⟩) (.of main_call4_v0 : StableHlo.TRef sig ⟨S200, .f32⟩) (fun x v => Host.reduceAdd x v reducesTo_S50000x200_S200_d0 h_S_),
    StableHlo.TRef.unary (.of main_call4_v0 : StableHlo.TRef sig ⟨S200, .f32⟩) (.of main_call4_v1 : StableHlo.TRef sig ⟨S1x200, .f32⟩) (broadcastInDim S1x200 ![1] bcast_S200_S1x200_1),
    StableHlo.TRef.nullary (.of main_call4_cst_0 : StableHlo.TRef sig ⟨S_, .f32⟩) (constant S_ .f32 0x47435000#32),
    StableHlo.TRef.unary (.of main_call4_cst_0 : StableHlo.TRef sig ⟨S_, .f32⟩) (.of main_call4_v2 : StableHlo.TRef sig ⟨S1x200, .f32⟩) (broadcastInDim S1x200 ![] bcast_S_S1x200),
    StableHlo.TRef.binary (.of main_call4_v1 : StableHlo.TRef sig ⟨S1x200, .f32⟩) (.of main_call4_v2 : StableHlo.TRef sig ⟨S1x200, .f32⟩) (.of main_call4_v3 : StableHlo.TRef sig ⟨S1x200, .f32⟩) Host.divf,
    StableHlo.TRef.unary (.of main_call4_v3 : StableHlo.TRef sig ⟨S1x200, .f32⟩) (.of main_call4_v4 : StableHlo.TRef sig ⟨S50000x200, .f32⟩) (broadcastInDim S50000x200 ![0, 1] bcast_S1x200_S50000x200_0_1),
    StableHlo.TRef.binary (.of main_v255 : StableHlo.TRef sig ⟨S50000x200, .f32⟩) (.of main_call4_v4 : StableHlo.TRef sig ⟨S50000x200, .f32⟩) (.of main_call4_v5 : StableHlo.TRef sig ⟨S50000x200, .f32⟩) subf,
    StableHlo.TRef.binary (.of main_call4_v5 : StableHlo.TRef sig ⟨S50000x200, .f32⟩) (.of main_call4_v5 : StableHlo.TRef sig ⟨S50000x200, .f32⟩) (.of main_call4_v6 : StableHlo.TRef sig ⟨S50000x200, .f32⟩) mulf,
    StableHlo.TRef.unary (.of main_c_42 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47435000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S50000x200, .f32⟩) (.of main_call4_cst_2 : StableHlo.TRef sig ⟨S_, .f32⟩) (.of main_call4_v9 : StableHlo.TRef sig ⟨S200, .f32⟩) (fun x v => Host.reduceAdd x v reducesTo_S50000x200_S200_d0 h_S_),
    StableHlo.TRef.unary (.of main_call4_v8 : StableHlo.TRef sig ⟨S_, .f32⟩) (.of main_call4_v10 : StableHlo.TRef sig ⟨S200, .f32⟩) (broadcastInDim S200 ![] bcast_S_S200),
    StableHlo.TRef.binary (.of main_call4_v9 : StableHlo.TRef sig ⟨S200, .f32⟩) (.of main_call4_v10 : StableHlo.TRef sig ⟨S200, .f32⟩) (.of main_call4_v11 : StableHlo.TRef sig ⟨S200, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S200, .f32⟩) (broadcastInDim S200 ![] bcast_S_S200),
    StableHlo.TRef.ternary (.of main_call4_v12 : StableHlo.TRef sig ⟨S_, .i1⟩) (.of main_call4_v11 : StableHlo.TRef sig ⟨S200, .f32⟩) (.of main_call4_call0_v1 : StableHlo.TRef sig ⟨S200, .f32⟩) (.of main_v263 : StableHlo.TRef sig ⟨S200, .f32⟩) (fun p a b => select (broadcastInDim S200 ![] bcast_S_S200 p) a b),
    StableHlo.unary main_v262 main_v264 (broadcastInDim S1x200 ![1] bcast_S200_S1x200_1 : (⟨S200, .f32⟩ : BufTy).Contents (Elt F) → (⟨S1x200, .f32⟩ : BufTy).Contents (Elt F)),
    StableHlo.unary main_v264 main_v265 (broadcastInDim S50000x200 ![0, 1] bcast_S1x200_S50000x200_0_1 : (⟨S1x200, .f32⟩ : BufTy).Contents (Elt F) → (⟨S50000x200, .f32⟩ : BufTy).Contents (Elt F)),
    StableHlo.binary main_v255 main_v265 main_v266 (subf : (⟨S50000x200, .f32⟩ : BufTy).Contents (Elt F) → (⟨S50000x200, .f32⟩ : BufTy).Contents (Elt F) → (⟨S50000x200, .f32⟩ : BufTy).Contents (Elt F)),
    StableHlo.nullary main_cst_43 (constant S_ .f32 0x3727C5AC#32),
    StableHlo.unary main_cst_43 main_v267 (broadcastInDim S200 ![] bcast_S_S200 : (⟨S_, .f32⟩ : BufTy).Contents (Elt F) → (⟨S200, .f32⟩ : BufTy).Contents (Elt F)),
    StableHlo.binary main_v263 main_v267 main_v268 (addf : (⟨S200, .f32⟩ : BufTy).Contents (Elt F) → (⟨S200, .f32⟩ : BufTy).Contents (Elt F) → (⟨S200, .f32⟩ : BufTy).Contents (Elt F)),
    StableHlo.unary main_v268 main_v269 (Host.rsqrt : (⟨S200, .f32⟩ : BufTy).Contents (Elt F) → (⟨S200, .f32⟩ : BufTy).Contents (Elt F)),
    StableHlo.unary main_v269 main_v270 (broadcastInDim S1x200 ![1] bcast_S200_S1x200_1 : (⟨S200, .f32⟩ : BufTy).Contents (Elt F) → (⟨S1x200, .f32⟩ : BufTy).Contents (Elt F)),
    StableHlo.unary main_v270 main_v271 (broadcastInDim S50000x200 ![0, 1] bcast_S1x200_S50000x200_0_1 : (⟨S1x200, .f32⟩ : BufTy).Contents (Elt F) → (⟨S50000x200, .f32⟩ : BufTy).Contents (Elt F)),
    StableHlo.binary main_v266 main_v271 main_v272 (mulf : (⟨S50000x200, .f32⟩ : BufTy).Contents (Elt F) → (⟨S50000x200, .f32⟩ : BufTy).Contents (Elt F) → (⟨S50000x200, .f32⟩ : BufTy).Contents (Elt F)),
    StableHlo.unary main_v257 main_v273 (broadcastInDim S1x200 ![1] bcast_S200_S1x200_1 : (⟨S200, .f32⟩ : BufTy).Contents (Elt F) → (⟨S1x200, .f32⟩ : BufTy).Contents (Elt F)),
    StableHlo.unary main_v273 main_v274 (broadcastInDim S50000x200 ![0, 1] bcast_S1x200_S50000x200_0_1 : (⟨S1x200, .f32⟩ : BufTy).Contents (Elt F) → (⟨S50000x200, .f32⟩ : BufTy).Contents (Elt F)),
    StableHlo.binary main_v272 main_v274 main_v275 (mulf : (⟨S50000x200, .f32⟩ : BufTy).Contents (Elt F) → (⟨S50000x200, .f32⟩ : BufTy).Contents (Elt F) → (⟨S50000x200, .f32⟩ : BufTy).Contents (Elt F)),
    StableHlo.unary main_v259 main_v276 (broadcastInDim S1x200 ![1] bcast_S200_S1x200_1 : (⟨S200, .f32⟩ : BufTy).Contents (Elt F) → (⟨S1x200, .f32⟩ : BufTy).Contents (Elt F)),
    StableHlo.unary main_v276 main_v277 (broadcastInDim S50000x200 ![0, 1] bcast_S1x200_S50000x200_0_1 : (⟨S1x200, .f32⟩ : BufTy).Contents (Elt F) → (⟨S50000x200, .f32⟩ : BufTy).Contents (Elt F)),
    StableHlo.binary main_v275 main_v277 main_v278 (addf : (⟨S50000x200, .f32⟩ : BufTy).Contents (Elt F) → (⟨S50000x200, .f32⟩ : BufTy).Contents (Elt F) → (⟨S50000x200, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S50000x200, .f32⟩) (broadcastInDim S50000x200 ![] bcast_S_S50000x200),
    StableHlo.TRef.binary (.of main_v278 : StableHlo.TRef sig ⟨S50000x200, .f32⟩) (.of main_call5_v0 : StableHlo.TRef sig ⟨S50000x200, .f32⟩) (.of main_v279 : StableHlo.TRef sig ⟨S50000x200, .f32⟩) maximumf,
    StableHlo.unary main_arg11 main_v280 ((extractStridedSlice S1x200x100 ![1, 0, 0] · slices_S5x200x100_S1x200x100_1_0_0) : (⟨S5x200x100, .f32⟩ : BufTy).Contents (Elt F) → (⟨S1x200x100, .f32⟩ : BufTy).Contents (Elt F)),
    StableHlo.reshape main_v280 main_v281 rfl shapeCasts_S1x200x100_S200x100,
    StableHlo.binary main_v279 main_v281 main_v282 ((fun l r => Host.dotGeneral dot_S50000x200_S200x100_S50000x100_1_0_0_1_n_n none l r) : (⟨S50000x200, .f32⟩ : BufTy).Contents (Elt F) → (⟨S200x100, .f32⟩ : BufTy).Contents (Elt F) → (⟨S50000x100, .f32⟩ : BufTy).Contents (Elt F)),
    StableHlo.unary main_arg12 main_v283 ((extractStridedSlice S1x100 ![1, 0] · slices_S5x100_S1x100_1_0) : (⟨S5x100, .f32⟩ : BufTy).Contents (Elt F) → (⟨S1x100, .f32⟩ : BufTy).Contents (Elt F)),
    StableHlo.reshape main_v283 main_v284 rfl shapeCasts_S1x100_S100,
    StableHlo.unary main_v284 main_v285 (broadcastInDim S1x100 ![1] bcast_S100_S1x100_1 : (⟨S100, .f32⟩ : BufTy).Contents (Elt F) → (⟨S1x100, .f32⟩ : BufTy).Contents (Elt F)),
    StableHlo.unary main_v285 main_v286 (broadcastInDim S50000x100 ![0, 1] bcast_S1x100_S50000x100_0_1 : (⟨S1x100, .f32⟩ : BufTy).Contents (Elt F) → (⟨S50000x100, .f32⟩ : BufTy).Contents (Elt F)),
    StableHlo.binary main_v282 main_v286 main_v287 (addf : (⟨S50000x100, .f32⟩ : BufTy).Contents (Elt F) → (⟨S50000x100, .f32⟩ : BufTy).Contents (Elt F) → (⟨S50000x100, .f32⟩ : BufTy).Contents (Elt F)),
    StableHlo.unary main_arg13 main_v288 ((extractStridedSlice S1x100 ![1, 0] · slices_S5x100_S1x100_1_0) : (⟨S5x100, .f32⟩ : BufTy).Contents (Elt F) → (⟨S1x100, .f32⟩ : BufTy).Contents (Elt F)),
    StableHlo.reshape main_v288 main_v289 rfl shapeCasts_S1x100_S100,
    StableHlo.unary main_arg14 main_v290 ((extractStridedSlice S1x100 ![1, 0] · slices_S5x100_S1x100_1_0) : (⟨S5x100, .f32⟩ : BufTy).Contents (Elt F) → (⟨S1x100, .f32⟩ : BufTy).Contents (Elt F)),
    StableHlo.reshape main_v290 main_v291 rfl shapeCasts_S1x100_S100,
    StableHlo.nullary main_cst_44 (constant S_ .f32 0x00000000#32),
    StableHlo.binary main_v287 main_cst_44 main_v292 ((fun x v => Host.reduceAdd x v reducesTo_S50000x100_S100_d0 h_S_) : (⟨S50000x100, .f32⟩ : BufTy).Contents (Elt F) → (⟨S_, .f32⟩ : BufTy).Contents (Elt F) → (⟨S100, .f32⟩ : BufTy).Contents (Elt F)),
    StableHlo.nullary main_cst_45 (constant S_ .f32 0x47435000#32),
    StableHlo.unary main_cst_45 main_v293 (broadcastInDim S100 ![] bcast_S_S100 : (⟨S_, .f32⟩ : BufTy).Contents (Elt F) → (⟨S100, .f32⟩ : BufTy).Contents (Elt F)),
    StableHlo.binary main_v292 main_v293 main_v294 (Host.divf : (⟨S100, .f32⟩ : BufTy).Contents (Elt F) → (⟨S100, .f32⟩ : BufTy).Contents (Elt F) → (⟨S100, .f32⟩ : BufTy).Contents (Elt F)),
    StableHlo.nullary main_c_46 (constantI S_ 32 0#32),
    StableHlo.TRef.nullary (.of main_call6_cst : StableHlo.TRef sig ⟨S_, .f32⟩) (constant S_ .f32 0x00000000#32),
    StableHlo.TRef.binary (.of main_v287 : StableHlo.TRef sig ⟨S50000x100, .f32⟩) (.of main_call6_cst : StableHlo.TRef sig ⟨S_, .f32⟩) (.of main_call6_v0 : StableHlo.TRef sig ⟨S100, .f32⟩) (fun x v => Host.reduceAdd x v reducesTo_S50000x100_S100_d0 h_S_),
    StableHlo.TRef.unary (.of main_call6_v0 : StableHlo.TRef sig ⟨S100, .f32⟩) (.of main_call6_v1 : StableHlo.TRef sig ⟨S1x100, .f32⟩) (broadcastInDim S1x100 ![1] bcast_S100_S1x100_1),
    StableHlo.TRef.nullary (.of main_call6_cst_0 : StableHlo.TRef sig ⟨S_, .f32⟩) (constant S_ .f32 0x47435000#32),
    StableHlo.TRef.unary (.of main_call6_cst_0 : StableHlo.TRef sig ⟨S_, .f32⟩) (.of main_call6_v2 : StableHlo.TRef sig ⟨S1x100, .f32⟩) (broadcastInDim S1x100 ![] bcast_S_S1x100),
    StableHlo.TRef.binary (.of main_call6_v1 : StableHlo.TRef sig ⟨S1x100, .f32⟩) (.of main_call6_v2 : StableHlo.TRef sig ⟨S1x100, .f32⟩) (.of main_call6_v3 : StableHlo.TRef sig ⟨S1x100, .f32⟩) Host.divf,
    StableHlo.TRef.unary (.of main_call6_v3 : StableHlo.TRef sig ⟨S1x100, .f32⟩) (.of main_call6_v4 : StableHlo.TRef sig ⟨S50000x100, .f32⟩) (broadcastInDim S50000x100 ![0, 1] bcast_S1x100_S50000x100_0_1),
    StableHlo.TRef.binary (.of main_v287 : StableHlo.TRef sig ⟨S50000x100, .f32⟩) (.of main_call6_v4 : StableHlo.TRef sig ⟨S50000x100, .f32⟩) (.of main_call6_v5 : StableHlo.TRef sig ⟨S50000x100, .f32⟩) subf,
    StableHlo.TRef.binary (.of main_call6_v5 : StableHlo.TRef sig ⟨S50000x100, .f32⟩) (.of main_call6_v5 : StableHlo.TRef sig ⟨S50000x100, .f32⟩) (.of main_call6_v6 : StableHlo.TRef sig ⟨S50000x100, .f32⟩) mulf,
    StableHlo.TRef.unary (.of main_c_46 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x47435000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S50000x100, .f32⟩) (.of main_call6_cst_2 : StableHlo.TRef sig ⟨S_, .f32⟩) (.of main_call6_v9 : StableHlo.TRef sig ⟨S100, .f32⟩) (fun x v => Host.reduceAdd x v reducesTo_S50000x100_S100_d0 h_S_),
    StableHlo.TRef.unary (.of main_call6_v8 : StableHlo.TRef sig ⟨S_, .f32⟩) (.of main_call6_v10 : StableHlo.TRef sig ⟨S100, .f32⟩) (broadcastInDim S100 ![] bcast_S_S100),
    StableHlo.TRef.binary (.of main_call6_v9 : StableHlo.TRef sig ⟨S100, .f32⟩) (.of main_call6_v10 : StableHlo.TRef sig ⟨S100, .f32⟩) (.of main_call6_v11 : StableHlo.TRef sig ⟨S100, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S100, .f32⟩) (broadcastInDim S100 ![] bcast_S_S100),
    StableHlo.TRef.ternary (.of main_call6_v12 : StableHlo.TRef sig ⟨S_, .i1⟩) (.of main_call6_v11 : StableHlo.TRef sig ⟨S100, .f32⟩) (.of main_call6_call0_v1 : StableHlo.TRef sig ⟨S100, .f32⟩) (.of main_v295 : StableHlo.TRef sig ⟨S100, .f32⟩) (fun p a b => select (broadcastInDim S100 ![] bcast_S_S100 p) a b),
    StableHlo.unary main_v294 main_v296 (broadcastInDim S1x100 ![1] bcast_S100_S1x100_1 : (⟨S100, .f32⟩ : BufTy).Contents (Elt F) → (⟨S1x100, .f32⟩ : BufTy).Contents (Elt F)),
    StableHlo.unary main_v296 main_v297 (broadcastInDim S50000x100 ![0, 1] bcast_S1x100_S50000x100_0_1 : (⟨S1x100, .f32⟩ : BufTy).Contents (Elt F) → (⟨S50000x100, .f32⟩ : BufTy).Contents (Elt F)),
    StableHlo.binary main_v287 main_v297 main_v298 (subf : (⟨S50000x100, .f32⟩ : BufTy).Contents (Elt F) → (⟨S50000x100, .f32⟩ : BufTy).Contents (Elt F) → (⟨S50000x100, .f32⟩ : BufTy).Contents (Elt F)),
    StableHlo.nullary main_cst_47 (constant S_ .f32 0x3727C5AC#32),
    StableHlo.unary main_cst_47 main_v299 (broadcastInDim S100 ![] bcast_S_S100 : (⟨S_, .f32⟩ : BufTy).Contents (Elt F) → (⟨S100, .f32⟩ : BufTy).Contents (Elt F)),
    StableHlo.binary main_v295 main_v299 main_v300 (addf : (⟨S100, .f32⟩ : BufTy).Contents (Elt F) → (⟨S100, .f32⟩ : BufTy).Contents (Elt F) → (⟨S100, .f32⟩ : BufTy).Contents (Elt F)),
    StableHlo.unary main_v300 main_v301 (Host.rsqrt : (⟨S100, .f32⟩ : BufTy).Contents (Elt F) → (⟨S100, .f32⟩ : BufTy).Contents (Elt F)),
    StableHlo.unary main_v301 main_v302 (broadcastInDim S1x100 ![1] bcast_S100_S1x100_1 : (⟨S100, .f32⟩ : BufTy).Contents (Elt F) → (⟨S1x100, .f32⟩ : BufTy).Contents (Elt F)),
    StableHlo.unary main_v302 main_v303 (broadcastInDim S50000x100 ![0, 1] bcast_S1x100_S50000x100_0_1 : (⟨S1x100, .f32⟩ : BufTy).Contents (Elt F) → (⟨S50000x100, .f32⟩ : BufTy).Contents (Elt F)),
    StableHlo.binary main_v298 main_v303 main_v304 (mulf : (⟨S50000x100, .f32⟩ : BufTy).Contents (Elt F) → (⟨S50000x100, .f32⟩ : BufTy).Contents (Elt F) → (⟨S50000x100, .f32⟩ : BufTy).Contents (Elt F)),
    StableHlo.unary main_v289 main_v305 (broadcastInDim S1x100 ![1] bcast_S100_S1x100_1 : (⟨S100, .f32⟩ : BufTy).Contents (Elt F) → (⟨S1x100, .f32⟩ : BufTy).Contents (Elt F)),
    StableHlo.unary main_v305 main_v306 (broadcastInDim S50000x100 ![0, 1] bcast_S1x100_S50000x100_0_1 : (⟨S1x100, .f32⟩ : BufTy).Contents (Elt F) → (⟨S50000x100, .f32⟩ : BufTy).Contents (Elt F)),
    StableHlo.binary main_v304 main_v306 main_v307 (mulf : (⟨S50000x100, .f32⟩ : BufTy).Contents (Elt F) → (⟨S50000x100, .f32⟩ : BufTy).Contents (Elt F) → (⟨S50000x100, .f32⟩ : BufTy).Contents (Elt F)),
    StableHlo.unary main_v291 main_v308 (broadcastInDim S1x100 ![1] bcast_S100_S1x100_1 : (⟨S100, .f32⟩ : BufTy).Contents (Elt F) → (⟨S1x100, .f32⟩ : BufTy).Contents (Elt F)),
    StableHlo.unary main_v308 main_v309 (broadcastInDim S50000x100 ![0, 1] bcast_S1x100_S50000x100_0_1 : (⟨S1x100, .f32⟩ : BufTy).Contents (Elt F) → (⟨S50000x100, .f32⟩ : BufTy).Contents (Elt F)),
    StableHlo.binary main_v307 main_v309 main_v310 (addf : (⟨S50000x100, .f32⟩ : BufTy).Contents (Elt F) → (⟨S50000x100, .f32⟩ : BufTy).Contents (Elt F) → (⟨S50000x100, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S50000x100, .f32⟩) (broadcastInDim S50000x100 ![] bcast_S_S50000x100),
    StableHlo.TRef.binary (.of main_v310 : StableHlo.TRef sig ⟨S50000x100, .f32⟩) (.of main_call7_v0 : StableHlo.TRef sig ⟨S50000x100, .f32⟩) (.of main_v311 : StableHlo.TRef sig ⟨S50000x100, .f32⟩) maximumf ]
theorem opsL1_sub : (opsL1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.binary_bufs_sub .., StableHlo.unary_bufs_sub .., StableHlo.binary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- Operations 455 … 593 of the whole run: from the one writing `main_c_48` through the one writing `main_v392`. -/
abbrev opsL2 : List (HloOp τ sig (Elt F)) :=
  [ StableHlo.nullary main_c_48 (constantI S_ 32 0#32),
    StableHlo.unary main_c_48 main_v312 (broadcastInDim S800000 ![] bcast_S_S800000 : (⟨S_, .i32⟩ : BufTy).Contents (Elt F) → (⟨S800000, .i32⟩ : BufTy).Contents (Elt F)),
    StableHlo.binary main_v147 main_v312 main_v313 (cmpi .slt : (⟨S800000, .i32⟩ : BufTy).Contents (Elt F) → (⟨S800000, .i32⟩ : BufTy).Contents (Elt F) → (⟨S800000, .i1⟩ : BufTy).Contents (Elt F)),
    StableHlo.nullary main_c_49 (constantI S_ 32 50000#32),
    StableHlo.unary main_c_49 main_v314 (broadcastInDim S800000 ![] bcast_S_S800000 : (⟨S_, .i32⟩ : BufTy).Contents (Elt F) → (⟨S800000, .i32⟩ : BufTy).Contents (Elt F)),
    StableHlo.binary main_v147 main_v314 main_v315 (addi : (⟨S800000, .i32⟩ : BufTy).Contents (Elt F) → (⟨S800000, .i32⟩ : BufTy).Contents (Elt F) → (⟨S800000, .i32⟩ : BufTy).Contents (Elt F)),
    StableHlo.ternary main_v313 main_v315 main_v147 main_v316 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v316 main_v317 (broadcastInDim S800000x1 ![0] bcast_S800000_S800000x1_0 : (⟨S800000, .i32⟩ : BufTy).Contents (Elt F) → (⟨S800000x1, .i32⟩ : BufTy).Contents (Elt F)),
    StableHlo.binary main_v311 main_v317 main_v318 ((fun x i => Host.gather gather_S50000x100_S800000x1_S800000x100_1_0_n_n_0_1_1100 x i) : (⟨S50000x100, .f32⟩ : BufTy).Contents (Elt F) → (⟨S800000x1, .i32⟩ : BufTy).Contents (Elt F) → (⟨S800000x100, .f32⟩ : BufTy).Contents (Elt F)),
    StableHlo.binary main_v318 main_v145 main_v319 (addf : (⟨S800000x100, .f32⟩ : BufTy).Contents (Elt F) → (⟨S800000x100, .f32⟩ : BufTy).Contents (Elt F) → (⟨S800000x100, .f32⟩ : BufTy).Contents (Elt F)),
    StableHlo.nullary main_cst_50 (constant S_ .f32 0x00000000#32),
    StableHlo.unary main_cst_50 main_v320 (broadcastInDim S50000x100 ![] bcast_S_S50000x100 : (⟨S_, .f32⟩ : BufTy).Contents (Elt F) → (⟨S50000x100, .f32⟩ : BufTy).Contents (Elt F)),
    StableHlo.unary main_v149 main_v321 (broadcastInDim S800000x1 ![0] bcast_S800000_S800000x1_0 : (⟨S800000, .i32⟩ : BufTy).Contents (Elt F) → (⟨S800000x1, .i32⟩ : BufTy).Contents (Elt F)),
    StableHlo.ternary main_v320 main_v321 main_v319 main_v322 ((fun x i u => Host.scatterAdd scatter_S50000x100_S800000x1_S800000x100_1_0_0_1 x i u) : (⟨S50000x100, .f32⟩ : BufTy).Contents (Elt F) → (⟨S800000x1, .i32⟩ : BufTy).Contents (Elt F) → (⟨S800000x100, .f32⟩ : BufTy).Contents (Elt F) → (⟨S50000x100, .f32⟩ : BufTy).Contents (Elt F)),
    StableHlo.unary main_arg6 main_v323 ((extractStridedSlice S1 ![2] · slices_S5_S1_2) : (⟨S5, .f32⟩ : BufTy).Contents (Elt F) → (⟨S1, .f32⟩ : BufTy).Contents (Elt F)),
    StableHlo.reshape main_v323 main_v324 rfl shapeCasts_S1_S_,
    StableHlo.nullary main_cst_51 (constant S_ .f32 0x3F800000#32),
    StableHlo.binary main_cst_51 main_v324 main_v325 (addf : (⟨S_, .f32⟩ : BufTy).Contents (Elt F) → (⟨S_, .f32⟩ : BufTy).Contents (Elt F) → (⟨S_, .f32⟩ : BufTy).Contents (Elt F)),
    StableHlo.unary main_v325 main_v326 (broadcastInDim S50000x100 ![] bcast_S_S50000x100 : (⟨S_, .f32⟩ : BufTy).Contents (Elt F) → (⟨S50000x100, .f32⟩ : BufTy).Contents (Elt F)),
    StableHlo.binary main_v326 main_v311 main_v327 (mulf : (⟨S50000x100, .f32⟩ : BufTy).Contents (Elt F) → (⟨S50000x100, .f32⟩ : BufTy).Contents (Elt F) → (⟨S50000x100, .f32⟩ : BufTy).Contents (Elt F)),
    StableHlo.binary main_v327 main_v322 main_v328 (addf : (⟨S50000x100, .f32⟩ : BufTy).Contents (Elt F) → (⟨S50000x100, .f32⟩ : BufTy).Contents (Elt F) → (⟨S50000x100, .f32⟩ : BufTy).Contents (Elt F)),
    StableHlo.unary main_arg7 main_v329 ((extractStridedSlice S1x100x200 ![2, 0, 0] · slices_S5x100x200_S1x100x200_2_0_0) : (⟨S5x100x200, .f32⟩ : BufTy).Contents (Elt F) → (⟨S1x100x200, .f32⟩ : BufTy).Contents (Elt F)),
    StableHlo.reshape main_v329 main_v330 rfl shapeCasts_S1x100x200_S100x200,
    StableHlo.binary main_v328 main_v330 main_v331 ((fun l r => Host.dotGeneral dot_S50000x100_S100x200_S50000x200_1_0_0_1_n_n none l r) : (⟨S50000x100, .f32⟩ : BufTy).Contents (Elt F) → (⟨S100x200, .f32⟩ : BufTy).Contents (Elt F) → (⟨S50000x200, .f32⟩ : BufTy).Contents (Elt F)),
    StableHlo.unary main_arg8 main_v332 ((extractStridedSlice S1x200 ![2, 0] · slices_S5x200_S1x200_2_0) : (⟨S5x200, .f32⟩ : BufTy).Contents (Elt F) → (⟨S1x200, .f32⟩ : BufTy).Contents (Elt F)),
    StableHlo.reshape main_v332 main_v333 rfl shapeCasts_S1x200_S200,
    StableHlo.unary main_v333 main_v334 (broadcastInDim S1x200 ![1] bcast_S200_S1x200_1 : (⟨S200, .f32⟩ : BufTy).Contents (Elt F) → (⟨S1x200, .f32⟩ : BufTy).Contents (Elt F)),
    StableHlo.unary main_v334 main_v335 (broadcastInDim S50000x200 ![0, 1] bcast_S1x200_S50000x200_0_1 : (⟨S1x200, .f32⟩ : BufTy).Contents (Elt F) → (⟨S50000x200, .f32⟩ : BufTy).Contents (Elt F)),
    StableHlo.binary main_v331 main_v335 main_v336 (addf : (⟨S50000x200, .f32⟩ : BufTy).Contents (Elt F) → (⟨S50000x200, .f32⟩ : BufTy).Contents (Elt F) → (⟨S50000x200, .f32⟩ : BufTy).Contents (Elt F)),
    StableHlo.unary main_arg9 main_v337 ((extractStridedSlice S1x200 ![2, 0] · slices_S5x200_S1x200_2_0) : (⟨S5x200, .f32⟩ : BufTy).Contents (Elt F) → (⟨S1x200, .f32⟩ : BufTy).Contents (Elt F)),
    StableHlo.reshape main_v337 main_v338 rfl shapeCasts_S1x200_S200,
    StableHlo.unary main_arg10 main_v339 ((extractStridedSlice S1x200 ![2, 0] · slices_S5x200_S1x200_2_0) : (⟨S5x200, .f32⟩ : BufTy).Contents (Elt F) → (⟨S1x200, .f32⟩ : BufTy).Contents (Elt F)),
    StableHlo.reshape main_v339 main_v340 rfl shapeCasts_S1x200_S200,
    StableHlo.nullary main_cst_52 (constant S_ .f32 0x00000000#32),
    StableHlo.binary main_v336 main_cst_52 main_v341 ((fun x v => Host.reduceAdd x v reducesTo_S50000x200_S200_d0 h_S_) : (⟨S50000x200, .f32⟩ : BufTy).Contents (Elt F) → (⟨S_, .f32⟩ : BufTy).Contents (Elt F) → (⟨S200, .f32⟩ : BufTy).Contents (Elt F)),
    StableHlo.nullary main_cst_53 (constant S_ .f32 0x47435000#32),
    StableHlo.unary main_cst_53 main_v342 (broadcastInDim S200 ![] bcast_S_S200 : (⟨S_, .f32⟩ : BufTy).Contents (Elt F) → (⟨S200, .f32⟩ : BufTy).Contents (Elt F)),
    StableHlo.binary main_v341 main_v342 main_v343 (Host.divf : (⟨S200, .f32⟩ : BufTy).Contents (Elt F) → (⟨S200, .f32⟩ : BufTy).Contents (Elt F) → (⟨S200, .f32⟩ : BufTy).Contents (Elt F)),
    StableHlo.nullary main_c_54 (constantI S_ 32 0#32),
    StableHlo.TRef.nullary (.of main_call8_cst : StableHlo.TRef sig ⟨S_, .f32⟩) (constant S_ .f32 0x00000000#32),
    StableHlo.TRef.binary (.of main_v336 : StableHlo.TRef sig ⟨S50000x200, .f32⟩) (.of main_call8_cst : StableHlo.TRef sig ⟨S_, .f32⟩) (.of main_call8_v0 : StableHlo.TRef sig ⟨S200, .f32⟩) (fun x v => Host.reduceAdd x v reducesTo_S50000x200_S200_d0 h_S_),
    StableHlo.TRef.unary (.of main_call8_v0 : StableHlo.TRef sig ⟨S200, .f32⟩) (.of main_call8_v1 : StableHlo.TRef sig ⟨S1x200, .f32⟩) (broadcastInDim S1x200 ![1] bcast_S200_S1x200_1),
    StableHlo.TRef.nullary (.of main_call8_cst_0 : StableHlo.TRef sig ⟨S_, .f32⟩) (constant S_ .f32 0x47435000#32),
    StableHlo.TRef.unary (.of main_call8_cst_0 : StableHlo.TRef sig ⟨S_, .f32⟩) (.of main_call8_v2 : StableHlo.TRef sig ⟨S1x200, .f32⟩) (broadcastInDim S1x200 ![] bcast_S_S1x200),
    StableHlo.TRef.binary (.of main_call8_v1 : StableHlo.TRef sig ⟨S1x200, .f32⟩) (.of main_call8_v2 : StableHlo.TRef sig ⟨S1x200, .f32⟩) (.of main_call8_v3 : StableHlo.TRef sig ⟨S1x200, .f32⟩) Host.divf,
    StableHlo.TRef.unary (.of main_call8_v3 : StableHlo.TRef sig ⟨S1x200, .f32⟩) (.of main_call8_v4 : StableHlo.TRef sig ⟨S50000x200, .f32⟩) (broadcastInDim S50000x200 ![0, 1] bcast_S1x200_S50000x200_0_1),
    StableHlo.TRef.binary (.of main_v336 : StableHlo.TRef sig ⟨S50000x200, .f32⟩) (.of main_call8_v4 : StableHlo.TRef sig ⟨S50000x200, .f32⟩) (.of main_call8_v5 : StableHlo.TRef sig ⟨S50000x200, .f32⟩) subf,
    StableHlo.TRef.binary (.of main_call8_v5 : StableHlo.TRef sig ⟨S50000x200, .f32⟩) (.of main_call8_v5 : StableHlo.TRef sig ⟨S50000x200, .f32⟩) (.of main_call8_v6 : StableHlo.TRef sig ⟨S50000x200, .f32⟩) mulf,
    StableHlo.TRef.unary (.of main_c_54 : StableHlo.TRef sig ⟨S_, .i32⟩) (.of main_call8_v7 : StableHlo.TRef sig ⟨S_, .f32⟩) (sitofp .f32),
    StableHlo.TRef.nullary (.of main_call8_cst_1 : StableHlo.TRef sig ⟨S_, .f32⟩) (constant S_ .f32 0x47435000#32),
    StableHlo.TRef.binary (.of main_call8_cst_1 : StableHlo.TRef sig ⟨S_, .f32⟩) (.of main_call8_v7 : StableHlo.TRef sig ⟨S_, .f32⟩) (.of main_call8_v8 : StableHlo.TRef sig ⟨S_, .f32⟩) subf,
    StableHlo.TRef.nullary (.of main_call8_cst_2 : StableHlo.TRef sig ⟨S_, .f32⟩) (constant S_ .f32 0x00000000#32),
    StableHlo.TRef.binary (.of main_call8_v6 : StableHlo.TRef sig ⟨S50000x200, .f32⟩) (.of main_call8_cst_2 : StableHlo.TRef sig ⟨S_, .f32⟩) (.of main_call8_v9 : StableHlo.TRef sig ⟨S200, .f32⟩) (fun x v => Host.reduceAdd x v reducesTo_S50000x200_S200_d0 h_S_),
    StableHlo.TRef.unary (.of main_call8_v8 : StableHlo.TRef sig ⟨S_, .f32⟩) (.of main_call8_v10 : StableHlo.TRef sig ⟨S200, .f32⟩) (broadcastInDim S200 ![] bcast_S_S200),
    StableHlo.TRef.binary (.of main_call8_v9 : StableHlo.TRef sig ⟨S200, .f32⟩) (.of main_call8_v10 : StableHlo.TRef sig ⟨S200, .f32⟩) (.of main_call8_v11 : StableHlo.TRef sig ⟨S200, .f32⟩) Host.divf,
    StableHlo.TRef.nullary (.of main_call8_cst_3 : StableHlo.TRef sig ⟨S_, .f32⟩) (constant S_ .f32 0x00000000#32),
    StableHlo.TRef.binary (.of main_call8_v8 : StableHlo.TRef sig ⟨S_, .f32⟩) (.of main_call8_cst_3 : StableHlo.TRef sig ⟨S_, .f32⟩) (.of main_call8_v12 : StableHlo.TRef sig ⟨S_, .i1⟩) (cmpf .ogt),
    StableHlo.TRef.nullary (.of main_call8_cst_4 : StableHlo.TRef sig ⟨S_, .f32⟩) (constant S_ .f32 0x7FC00000#32),
    StableHlo.TRef.unary (.of main_call8_cst_4 : StableHlo.TRef sig ⟨S_, .f32⟩) (.of main_call8_call0_v0 : StableHlo.TRef sig ⟨S_, .f32⟩) id,
    StableHlo.TRef.unary (.of main_call8_call0_v0 : StableHlo.TRef sig ⟨S_, .f32⟩) (.of main_call8_call0_v1 : StableHlo.TRef sig ⟨S200, .f32⟩) (broadcastInDim S200 ![] bcast_S_S200),
    StableHlo.TRef.ternary (.of main_call8_v12 : StableHlo.TRef sig ⟨S_, .i1⟩) (.of main_call8_v11 : StableHlo.TRef sig ⟨S200, .f32⟩) (.of main_call8_call0_v1 : StableHlo.TRef sig ⟨S200, .f32⟩) (.of main_v344 : StableHlo.TRef sig ⟨S200, .f32⟩) (fun p a b => select (broadcastInDim S200 ![] bcast_S_S200 p) a b),
    StableHlo.unary main_v343 main_v345 (broadcastInDim S1x200 ![1] bcast_S200_S1x200_1 : (⟨S200, .f32⟩ : BufTy).Contents (Elt F) → (⟨S1x200, .f32⟩ : BufTy).Contents (Elt F)),
    StableHlo.unary main_v345 main_v346 (broadcastInDim S50000x200 ![0, 1] bcast_S1x200_S50000x200_0_1 : (⟨S1x200, .f32⟩ : BufTy).Contents (Elt F) → (⟨S50000x200, .f32⟩ : BufTy).Contents (Elt F)),
    StableHlo.binary main_v336 main_v346 main_v347 (subf : (⟨S50000x200, .f32⟩ : BufTy).Contents (Elt F) → (⟨S50000x200, .f32⟩ : BufTy).Contents (Elt F) → (⟨S50000x200, .f32⟩ : BufTy).Contents (Elt F)),
    StableHlo.nullary main_cst_55 (constant S_ .f32 0x3727C5AC#32),
    StableHlo.unary main_cst_55 main_v348 (broadcastInDim S200 ![] bcast_S_S200 : (⟨S_, .f32⟩ : BufTy).Contents (Elt F) → (⟨S200, .f32⟩ : BufTy).Contents (Elt F)),
    StableHlo.binary main_v344 main_v348 main_v349 (addf : (⟨S200, .f32⟩ : BufTy).Contents (Elt F) → (⟨S200, .f32⟩ : BufTy).Contents (Elt F) → (⟨S200, .f32⟩ : BufTy).Contents (Elt F)),
    StableHlo.unary main_v349 main_v350 (Host.rsqrt : (⟨S200, .f32⟩ : BufTy).Contents (Elt F) → (⟨S200, .f32⟩ : BufTy).Contents (Elt F)),
    StableHlo.unary main_v350 main_v351 (broadcastInDim S1x200 ![1] bcast_S200_S1x200_1 : (⟨S200, .f32⟩ : BufTy).Contents (Elt F) → (⟨S1x200, .f32⟩ : BufTy).Contents (Elt F)),
    StableHlo.unary main_v351 main_v352 (broadcastInDim S50000x200 ![0, 1] bcast_S1x200_S50000x200_0_1 : (⟨S1x200, .f32⟩ : BufTy).Contents (Elt F) → (⟨S50000x200, .f32⟩ : BufTy).Contents (Elt F)),
    StableHlo.binary main_v347 main_v352 main_v353 (mulf : (⟨S50000x200, .f32⟩ : BufTy).Contents (Elt F) → (⟨S50000x200, .f32⟩ : BufTy).Contents (Elt F) → (⟨S50000x200, .f32⟩ : BufTy).Contents (Elt F)),
    StableHlo.unary main_v338 main_v354 (broadcastInDim S1x200 ![1] bcast_S200_S1x200_1 : (⟨S200, .f32⟩ : BufTy).Contents (Elt F) → (⟨S1x200, .f32⟩ : BufTy).Contents (Elt F)),
    StableHlo.unary main_v354 main_v355 (broadcastInDim S50000x200 ![0, 1] bcast_S1x200_S50000x200_0_1 : (⟨S1x200, .f32⟩ : BufTy).Contents (Elt F) → (⟨S50000x200, .f32⟩ : BufTy).Contents (Elt F)),
    StableHlo.binary main_v353 main_v355 main_v356 (mulf : (⟨S50000x200, .f32⟩ : BufTy).Contents (Elt F) → (⟨S50000x200, .f32⟩ : BufTy).Contents (Elt F) → (⟨S50000x200, .f32⟩ : BufTy).Contents (Elt F)),
    StableHlo.unary main_v340 main_v357 (broadcastInDim S1x200 ![1] bcast_S200_S1x200_1 : (⟨S200, .f32⟩ : BufTy).Contents (Elt F) → (⟨S1x200, .f32⟩ : BufTy).Contents (Elt F)),
    StableHlo.unary main_v357 main_v358 (broadcastInDim S50000x200 ![0, 1] bcast_S1x200_S50000x200_0_1 : (⟨S1x200, .f32⟩ : BufTy).Contents (Elt F) → (⟨S50000x200, .f32⟩ : BufTy).Contents (Elt F)),
    StableHlo.binary main_v356 main_v358 main_v359 (addf : (⟨S50000x200, .f32⟩ : BufTy).Contents (Elt F) → (⟨S50000x200, .f32⟩ : BufTy).Contents (Elt F) → (⟨S50000x200, .f32⟩ : BufTy).Contents (Elt F)),
    StableHlo.TRef.nullary (.of main_call9_cst : StableHlo.TRef sig ⟨S_, .f32⟩) (constant S_ .f32 0x00000000#32),
    StableHlo.TRef.unary (.of main_call9_cst : StableHlo.TRef sig ⟨S_, .f32⟩) (.of main_call9_v0 : StableHlo.TRef sig ⟨S50000x200, .f32⟩) (broadcastInDim S50000x200 ![] bcast_S_S50000x200),
    StableHlo.TRef.binary (.of main_v359 : StableHlo.TRef sig ⟨S50000x200, .f32⟩) (.of main_call9_v0 : StableHlo.TRef sig ⟨S50000x200, .f32⟩) (.of main_v360 : StableHlo.TRef sig ⟨S50000x200, .f32⟩) maximumf,
    StableHlo.unary main_arg11 main_v361 ((extractStridedSlice S1x200x100 ![2, 0, 0] · slices_S5x200x100_S1x200x100_2_0_0) : (⟨S5x200x100, .f32⟩ : BufTy).Contents (Elt F) → (⟨S1x200x100, .f32⟩ : BufTy).Contents (Elt F)),
    StableHlo.reshape main_v361 main_v362 rfl shapeCasts_S1x200x100_S200x100,
    StableHlo.binary main_v360 main_v362 main_v363 ((fun l r => Host.dotGeneral dot_S50000x200_S200x100_S50000x100_1_0_0_1_n_n none l r) : (⟨S50000x200, .f32⟩ : BufTy).Contents (Elt F) → (⟨S200x100, .f32⟩ : BufTy).Contents (Elt F) → (⟨S50000x100, .f32⟩ : BufTy).Contents (Elt F)),
    StableHlo.unary main_arg12 main_v364 ((extractStridedSlice S1x100 ![2, 0] · slices_S5x100_S1x100_2_0) : (⟨S5x100, .f32⟩ : BufTy).Contents (Elt F) → (⟨S1x100, .f32⟩ : BufTy).Contents (Elt F)),
    StableHlo.reshape main_v364 main_v365 rfl shapeCasts_S1x100_S100,
    StableHlo.unary main_v365 main_v366 (broadcastInDim S1x100 ![1] bcast_S100_S1x100_1 : (⟨S100, .f32⟩ : BufTy).Contents (Elt F) → (⟨S1x100, .f32⟩ : BufTy).Contents (Elt F)),
    StableHlo.unary main_v366 main_v367 (broadcastInDim S50000x100 ![0, 1] bcast_S1x100_S50000x100_0_1 : (⟨S1x100, .f32⟩ : BufTy).Contents (Elt F) → (⟨S50000x100, .f32⟩ : BufTy).Contents (Elt F)),
    StableHlo.binary main_v363 main_v367 main_v368 (addf : (⟨S50000x100, .f32⟩ : BufTy).Contents (Elt F) → (⟨S50000x100, .f32⟩ : BufTy).Contents (Elt F) → (⟨S50000x100, .f32⟩ : BufTy).Contents (Elt F)),
    StableHlo.unary main_arg13 main_v369 ((extractStridedSlice S1x100 ![2, 0] · slices_S5x100_S1x100_2_0) : (⟨S5x100, .f32⟩ : BufTy).Contents (Elt F) → (⟨S1x100, .f32⟩ : BufTy).Contents (Elt F)),
    StableHlo.reshape main_v369 main_v370 rfl shapeCasts_S1x100_S100,
    StableHlo.unary main_arg14 main_v371 ((extractStridedSlice S1x100 ![2, 0] · slices_S5x100_S1x100_2_0) : (⟨S5x100, .f32⟩ : BufTy).Contents (Elt F) → (⟨S1x100, .f32⟩ : BufTy).Contents (Elt F)),
    StableHlo.reshape main_v371 main_v372 rfl shapeCasts_S1x100_S100,
    StableHlo.nullary main_cst_56 (constant S_ .f32 0x00000000#32),
    StableHlo.binary main_v368 main_cst_56 main_v373 ((fun x v => Host.reduceAdd x v reducesTo_S50000x100_S100_d0 h_S_) : (⟨S50000x100, .f32⟩ : BufTy).Contents (Elt F) → (⟨S_, .f32⟩ : BufTy).Contents (Elt F) → (⟨S100, .f32⟩ : BufTy).Contents (Elt F)),
    StableHlo.nullary main_cst_57 (constant S_ .f32 0x47435000#32),
    StableHlo.unary main_cst_57 main_v374 (broadcastInDim S100 ![] bcast_S_S100 : (⟨S_, .f32⟩ : BufTy).Contents (Elt F) → (⟨S100, .f32⟩ : BufTy).Contents (Elt F)),
    StableHlo.binary main_v373 main_v374 main_v375 (Host.divf : (⟨S100, .f32⟩ : BufTy).Contents (Elt F) → (⟨S100, .f32⟩ : BufTy).Contents (Elt F) → (⟨S100, .f32⟩ : BufTy).Contents (Elt F)),
    StableHlo.nullary main_c_58 (constantI S_ 32 0#32),
    StableHlo.TRef.nullary (.of main_call10_cst : StableHlo.TRef sig ⟨S_, .f32⟩) (constant S_ .f32 0x00000000#32),
    StableHlo.TRef.binary (.of main_v368 : StableHlo.TRef sig ⟨S50000x100, .f32⟩) (.of main_call10_cst : StableHlo.TRef sig ⟨S_, .f32⟩) (.of main_call10_v0 : StableHlo.TRef sig ⟨S100, .f32⟩) (fun x v => Host.reduceAdd x v reducesTo_S50000x100_S100_d0 h_S_),
    StableHlo.TRef.unary (.of main_call10_v0 : StableHlo.TRef sig ⟨S100, .f32⟩) (.of main_call10_v1 : StableHlo.TRef sig ⟨S1x100, .f32⟩) (broadcastInDim S1x100 ![1] bcast_S100_S1x100_1),
    StableHlo.TRef.nullary (.of main_call10_cst_0 : StableHlo.TRef sig ⟨S_, .f32⟩) (constant S_ .f32 0x47435000#32),
    StableHlo.TRef.unary (.of main_call10_cst_0 : StableHlo.TRef sig ⟨S_, .f32⟩) (.of main_call10_v2 : StableHlo.TRef sig ⟨S1x100, .f32⟩) (broadcastInDim S1x100 ![] bcast_S_S1x100),
    StableHlo.TRef.binary (.of main_call10_v1 : StableHlo.TRef sig ⟨S1x100, .f32⟩) (.of main_call10_v2 : StableHlo.TRef sig ⟨S1x100, .f32⟩) (.of main_call10_v3 : StableHlo.TRef sig ⟨S1x100, .f32⟩) Host.divf,
    StableHlo.TRef.unary (.of main_call10_v3 : StableHlo.TRef sig ⟨S1x100, .f32⟩) (.of main_call10_v4 : StableHlo.TRef sig ⟨S50000x100, .f32⟩) (broadcastInDim S50000x100 ![0, 1] bcast_S1x100_S50000x100_0_1),
    StableHlo.TRef.binary (.of main_v368 : StableHlo.TRef sig ⟨S50000x100, .f32⟩) (.of main_call10_v4 : StableHlo.TRef sig ⟨S50000x100, .f32⟩) (.of main_call10_v5 : StableHlo.TRef sig ⟨S50000x100, .f32⟩) subf,
    StableHlo.TRef.binary (.of main_call10_v5 : StableHlo.TRef sig ⟨S50000x100, .f32⟩) (.of main_call10_v5 : StableHlo.TRef sig ⟨S50000x100, .f32⟩) (.of main_call10_v6 : StableHlo.TRef sig ⟨S50000x100, .f32⟩) mulf,
    StableHlo.TRef.unary (.of main_c_58 : StableHlo.TRef sig ⟨S_, .i32⟩) (.of main_call10_v7 : StableHlo.TRef sig ⟨S_, .f32⟩) (sitofp .f32),
    StableHlo.TRef.nullary (.of main_call10_cst_1 : StableHlo.TRef sig ⟨S_, .f32⟩) (constant S_ .f32 0x47435000#32),
    StableHlo.TRef.binary (.of main_call10_cst_1 : StableHlo.TRef sig ⟨S_, .f32⟩) (.of main_call10_v7 : StableHlo.TRef sig ⟨S_, .f32⟩) (.of main_call10_v8 : StableHlo.TRef sig ⟨S_, .f32⟩) subf,
    StableHlo.TRef.nullary (.of main_call10_cst_2 : StableHlo.TRef sig ⟨S_, .f32⟩) (constant S_ .f32 0x00000000#32),
    StableHlo.TRef.binary (.of main_call10_v6 : StableHlo.TRef sig ⟨S50000x100, .f32⟩) (.of main_call10_cst_2 : StableHlo.TRef sig ⟨S_, .f32⟩) (.of main_call10_v9 : StableHlo.TRef sig ⟨S100, .f32⟩) (fun x v => Host.reduceAdd x v reducesTo_S50000x100_S100_d0 h_S_),
    StableHlo.TRef.unary (.of main_call10_v8 : StableHlo.TRef sig ⟨S_, .f32⟩) (.of main_call10_v10 : StableHlo.TRef sig ⟨S100, .f32⟩) (broadcastInDim S100 ![] bcast_S_S100),
    StableHlo.TRef.binary (.of main_call10_v9 : StableHlo.TRef sig ⟨S100, .f32⟩) (.of main_call10_v10 : StableHlo.TRef sig ⟨S100, .f32⟩) (.of main_call10_v11 : StableHlo.TRef sig ⟨S100, .f32⟩) Host.divf,
    StableHlo.TRef.nullary (.of main_call10_cst_3 : StableHlo.TRef sig ⟨S_, .f32⟩) (constant S_ .f32 0x00000000#32),
    StableHlo.TRef.binary (.of main_call10_v8 : StableHlo.TRef sig ⟨S_, .f32⟩) (.of main_call10_cst_3 : StableHlo.TRef sig ⟨S_, .f32⟩) (.of main_call10_v12 : StableHlo.TRef sig ⟨S_, .i1⟩) (cmpf .ogt),
    StableHlo.TRef.nullary (.of main_call10_cst_4 : StableHlo.TRef sig ⟨S_, .f32⟩) (constant S_ .f32 0x7FC00000#32),
    StableHlo.TRef.unary (.of main_call10_cst_4 : StableHlo.TRef sig ⟨S_, .f32⟩) (.of main_call10_call0_v0 : StableHlo.TRef sig ⟨S_, .f32⟩) id,
    StableHlo.TRef.unary (.of main_call10_call0_v0 : StableHlo.TRef sig ⟨S_, .f32⟩) (.of main_call10_call0_v1 : StableHlo.TRef sig ⟨S100, .f32⟩) (broadcastInDim S100 ![] bcast_S_S100),
    StableHlo.TRef.ternary (.of main_call10_v12 : StableHlo.TRef sig ⟨S_, .i1⟩) (.of main_call10_v11 : StableHlo.TRef sig ⟨S100, .f32⟩) (.of main_call10_call0_v1 : StableHlo.TRef sig ⟨S100, .f32⟩) (.of main_v376 : StableHlo.TRef sig ⟨S100, .f32⟩) (fun p a b => select (broadcastInDim S100 ![] bcast_S_S100 p) a b),
    StableHlo.unary main_v375 main_v377 (broadcastInDim S1x100 ![1] bcast_S100_S1x100_1 : (⟨S100, .f32⟩ : BufTy).Contents (Elt F) → (⟨S1x100, .f32⟩ : BufTy).Contents (Elt F)),
    StableHlo.unary main_v377 main_v378 (broadcastInDim S50000x100 ![0, 1] bcast_S1x100_S50000x100_0_1 : (⟨S1x100, .f32⟩ : BufTy).Contents (Elt F) → (⟨S50000x100, .f32⟩ : BufTy).Contents (Elt F)),
    StableHlo.binary main_v368 main_v378 main_v379 (subf : (⟨S50000x100, .f32⟩ : BufTy).Contents (Elt F) → (⟨S50000x100, .f32⟩ : BufTy).Contents (Elt F) → (⟨S50000x100, .f32⟩ : BufTy).Contents (Elt F)),
    StableHlo.nullary main_cst_59 (constant S_ .f32 0x3727C5AC#32),
    StableHlo.unary main_cst_59 main_v380 (broadcastInDim S100 ![] bcast_S_S100 : (⟨S_, .f32⟩ : BufTy).Contents (Elt F) → (⟨S100, .f32⟩ : BufTy).Contents (Elt F)),
    StableHlo.binary main_v376 main_v380 main_v381 (addf : (⟨S100, .f32⟩ : BufTy).Contents (Elt F) → (⟨S100, .f32⟩ : BufTy).Contents (Elt F) → (⟨S100, .f32⟩ : BufTy).Contents (Elt F)),
    StableHlo.unary main_v381 main_v382 (Host.rsqrt : (⟨S100, .f32⟩ : BufTy).Contents (Elt F) → (⟨S100, .f32⟩ : BufTy).Contents (Elt F)),
    StableHlo.unary main_v382 main_v383 (broadcastInDim S1x100 ![1] bcast_S100_S1x100_1 : (⟨S100, .f32⟩ : BufTy).Contents (Elt F) → (⟨S1x100, .f32⟩ : BufTy).Contents (Elt F)),
    StableHlo.unary main_v383 main_v384 (broadcastInDim S50000x100 ![0, 1] bcast_S1x100_S50000x100_0_1 : (⟨S1x100, .f32⟩ : BufTy).Contents (Elt F) → (⟨S50000x100, .f32⟩ : BufTy).Contents (Elt F)),
    StableHlo.binary main_v379 main_v384 main_v385 (mulf : (⟨S50000x100, .f32⟩ : BufTy).Contents (Elt F) → (⟨S50000x100, .f32⟩ : BufTy).Contents (Elt F) → (⟨S50000x100, .f32⟩ : BufTy).Contents (Elt F)),
    StableHlo.unary main_v370 main_v386 (broadcastInDim S1x100 ![1] bcast_S100_S1x100_1 : (⟨S100, .f32⟩ : BufTy).Contents (Elt F) → (⟨S1x100, .f32⟩ : BufTy).Contents (Elt F)),
    StableHlo.unary main_v386 main_v387 (broadcastInDim S50000x100 ![0, 1] bcast_S1x100_S50000x100_0_1 : (⟨S1x100, .f32⟩ : BufTy).Contents (Elt F) → (⟨S50000x100, .f32⟩ : BufTy).Contents (Elt F)),
    StableHlo.binary main_v385 main_v387 main_v388 (mulf : (⟨S50000x100, .f32⟩ : BufTy).Contents (Elt F) → (⟨S50000x100, .f32⟩ : BufTy).Contents (Elt F) → (⟨S50000x100, .f32⟩ : BufTy).Contents (Elt F)),
    StableHlo.unary main_v372 main_v389 (broadcastInDim S1x100 ![1] bcast_S100_S1x100_1 : (⟨S100, .f32⟩ : BufTy).Contents (Elt F) → (⟨S1x100, .f32⟩ : BufTy).Contents (Elt F)),
    StableHlo.unary main_v389 main_v390 (broadcastInDim S50000x100 ![0, 1] bcast_S1x100_S50000x100_0_1 : (⟨S1x100, .f32⟩ : BufTy).Contents (Elt F) → (⟨S50000x100, .f32⟩ : BufTy).Contents (Elt F)),
    StableHlo.binary main_v388 main_v390 main_v391 (addf : (⟨S50000x100, .f32⟩ : BufTy).Contents (Elt F) → (⟨S50000x100, .f32⟩ : BufTy).Contents (Elt F) → (⟨S50000x100, .f32⟩ : BufTy).Contents (Elt F)),
    StableHlo.TRef.nullary (.of main_call11_cst : StableHlo.TRef sig ⟨S_, .f32⟩) (constant S_ .f32 0x00000000#32),
    StableHlo.TRef.unary (.of main_call11_cst : StableHlo.TRef sig ⟨S_, .f32⟩) (.of main_call11_v0 : StableHlo.TRef sig ⟨S50000x100, .f32⟩) (broadcastInDim S50000x100 ![] bcast_S_S50000x100),
    StableHlo.TRef.binary (.of main_v391 : StableHlo.TRef sig ⟨S50000x100, .f32⟩) (.of main_call11_v0 : StableHlo.TRef sig ⟨S50000x100, .f32⟩) (.of main_v392 : StableHlo.TRef sig ⟨S50000x100, .f32⟩) maximumf ]
theorem opsL2_sub : (opsL2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.binary_bufs_sub .., StableHlo.unary_bufs_sub .., StableHlo.binary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- Operations 594 … 732 of the whole run: from the one writing `main_c_60` through the one writing `main_v473`. -/
abbrev opsL3 : List (HloOp τ sig (Elt F)) :=
  [ StableHlo.nullary main_c_60 (constantI S_ 32 0#32),
    StableHlo.unary main_c_60 main_v393 (broadcastInDim S800000 ![] bcast_S_S800000 : (⟨S_, .i32⟩ : BufTy).Contents (Elt F) → (⟨S800000, .i32⟩ : BufTy).Contents (Elt F)),
    StableHlo.binary main_v147 main_v393 main_v394 (cmpi .slt : (⟨S800000, .i32⟩ : BufTy).Contents (Elt F) → (⟨S800000, .i32⟩ : BufTy).Contents (Elt F) → (⟨S800000, .i1⟩ : BufTy).Contents (Elt F)),
    StableHlo.nullary main_c_61 (constantI S_ 32 50000#32),
    StableHlo.unary main_c_61 main_v395 (broadcastInDim S800000 ![] bcast_S_S800000 : (⟨S_, .i32⟩ : BufTy).Contents (Elt F) → (⟨S800000, .i32⟩ : BufTy).Contents (Elt F)),
    StableHlo.binary main_v147 main_v395 main_v396 (addi : (⟨S800000, .i32⟩ : BufTy).Contents (Elt F) → (⟨S800000, .i32⟩ : BufTy).Contents (Elt F) → (⟨S800000, .i32⟩ : BufTy).Contents (Elt F)),
    StableHlo.ternary main_v394 main_v396 main_v147 main_v397 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v397 main_v398 (broadcastInDim S800000x1 ![0] bcast_S800000_S800000x1_0 : (⟨S800000, .i32⟩ : BufTy).Contents (Elt F) → (⟨S800000x1, .i32⟩ : BufTy).Contents (Elt F)),
    StableHlo.binary main_v392 main_v398 main_v399 ((fun x i => Host.gather gather_S50000x100_S800000x1_S800000x100_1_0_n_n_0_1_1100 x i) : (⟨S50000x100, .f32⟩ : BufTy).Contents (Elt F) → (⟨S800000x1, .i32⟩ : BufTy).Contents (Elt F) → (⟨S800000x100, .f32⟩ : BufTy).Contents (Elt F)),
    StableHlo.binary main_v399 main_v145 main_v400 (addf : (⟨S800000x100, .f32⟩ : BufTy).Contents (Elt F) → (⟨S800000x100, .f32⟩ : BufTy).Contents (Elt F) → (⟨S800000x100, .f32⟩ : BufTy).Contents (Elt F)),
    StableHlo.nullary main_cst_62 (constant S_ .f32 0x00000000#32),
    StableHlo.unary main_cst_62 main_v401 (broadcastInDim S50000x100 ![] bcast_S_S50000x100 : (⟨S_, .f32⟩ : BufTy).Contents (Elt F) → (⟨S50000x100, .f32⟩ : BufTy).Contents (Elt F)),
    StableHlo.unary main_v149 main_v402 (broadcastInDim S800000x1 ![0] bcast_S800000_S800000x1_0 : (⟨S800000, .i32⟩ : BufTy).Contents (Elt F) → (⟨S800000x1, .i32⟩ : BufTy).Contents (Elt F)),
    StableHlo.ternary main_v401 main_v402 main_v400 main_v403 ((fun x i u => Host.scatterAdd scatter_S50000x100_S800000x1_S800000x100_1_0_0_1 x i u) : (⟨S50000x100, .f32⟩ : BufTy).Contents (Elt F) → (⟨S800000x1, .i32⟩ : BufTy).Contents (Elt F) → (⟨S800000x100, .f32⟩ : BufTy).Contents (Elt F) → (⟨S50000x100, .f32⟩ : BufTy).Contents (Elt F)),
    StableHlo.unary main_arg6 main_v404 ((extractStridedSlice S1 ![3] · slices_S5_S1_3) : (⟨S5, .f32⟩ : BufTy).Contents (Elt F) → (⟨S1, .f32⟩ : BufTy).Contents (Elt F)),
    StableHlo.reshape main_v404 main_v405 rfl shapeCasts_S1_S_,
    StableHlo.nullary main_cst_63 (constant S_ .f32 0x3F800000#32),
    StableHlo.binary main_cst_63 main_v405 main_v406 (addf : (⟨S_, .f32⟩ : BufTy).Contents (Elt F) → (⟨S_, .f32⟩ : BufTy).Contents (Elt F) → (⟨S_, .f32⟩ : BufTy).Contents (Elt F)),
    StableHlo.unary main_v406 main_v407 (broadcastInDim S50000x100 ![] bcast_S_S50000x100 : (⟨S_, .f32⟩ : BufTy).Contents (Elt F) → (⟨S50000x100, .f32⟩ : BufTy).Contents (Elt F)),
    StableHlo.binary main_v407 main_v392 main_v408 (mulf : (⟨S50000x100, .f32⟩ : BufTy).Contents (Elt F) → (⟨S50000x100, .f32⟩ : BufTy).Contents (Elt F) → (⟨S50000x100, .f32⟩ : BufTy).Contents (Elt F)),
    StableHlo.binary main_v408 main_v403 main_v409 (addf : (⟨S50000x100, .f32⟩ : BufTy).Contents (Elt F) → (⟨S50000x100, .f32⟩ : BufTy).Contents (Elt F) → (⟨S50000x100, .f32⟩ : BufTy).Contents (Elt F)),
    StableHlo.unary main_arg7 main_v410 ((extractStridedSlice S1x100x200 ![3, 0, 0] · slices_S5x100x200_S1x100x200_3_0_0) : (⟨S5x100x200, .f32⟩ : BufTy).Contents (Elt F) → (⟨S1x100x200, .f32⟩ : BufTy).Contents (Elt F)),
    StableHlo.reshape main_v410 main_v411 rfl shapeCasts_S1x100x200_S100x200,
    StableHlo.binary main_v409 main_v411 main_v412 ((fun l r => Host.dotGeneral dot_S50000x100_S100x200_S50000x200_1_0_0_1_n_n none l r) : (⟨S50000x100, .f32⟩ : BufTy).Contents (Elt F) → (⟨S100x200, .f32⟩ : BufTy).Contents (Elt F) → (⟨S50000x200, .f32⟩ : BufTy).Contents (Elt F)),
    StableHlo.unary main_arg8 main_v413 ((extractStridedSlice S1x200 ![3, 0] · slices_S5x200_S1x200_3_0) : (⟨S5x200, .f32⟩ : BufTy).Contents (Elt F) → (⟨S1x200, .f32⟩ : BufTy).Contents (Elt F)),
    StableHlo.reshape main_v413 main_v414 rfl shapeCasts_S1x200_S200,
    StableHlo.unary main_v414 main_v415 (broadcastInDim S1x200 ![1] bcast_S200_S1x200_1 : (⟨S200, .f32⟩ : BufTy).Contents (Elt F) → (⟨S1x200, .f32⟩ : BufTy).Contents (Elt F)),
    StableHlo.unary main_v415 main_v416 (broadcastInDim S50000x200 ![0, 1] bcast_S1x200_S50000x200_0_1 : (⟨S1x200, .f32⟩ : BufTy).Contents (Elt F) → (⟨S50000x200, .f32⟩ : BufTy).Contents (Elt F)),
    StableHlo.binary main_v412 main_v416 main_v417 (addf : (⟨S50000x200, .f32⟩ : BufTy).Contents (Elt F) → (⟨S50000x200, .f32⟩ : BufTy).Contents (Elt F) → (⟨S50000x200, .f32⟩ : BufTy).Contents (Elt F)),
    StableHlo.unary main_arg9 main_v418 ((extractStridedSlice S1x200 ![3, 0] · slices_S5x200_S1x200_3_0) : (⟨S5x200, .f32⟩ : BufTy).Contents (Elt F) → (⟨S1x200, .f32⟩ : BufTy).Contents (Elt F)),
    StableHlo.reshape main_v418 main_v419 rfl shapeCasts_S1x200_S200,
    StableHlo.unary main_arg10 main_v420 ((extractStridedSlice S1x200 ![3, 0] · slices_S5x200_S1x200_3_0) : (⟨S5x200, .f32⟩ : BufTy).Contents (Elt F) → (⟨S1x200, .f32⟩ : BufTy).Contents (Elt F)),
    StableHlo.reshape main_v420 main_v421 rfl shapeCasts_S1x200_S200,
    StableHlo.nullary main_cst_64 (constant S_ .f32 0x00000000#32),
    StableHlo.binary main_v417 main_cst_64 main_v422 ((fun x v => Host.reduceAdd x v reducesTo_S50000x200_S200_d0 h_S_) : (⟨S50000x200, .f32⟩ : BufTy).Contents (Elt F) → (⟨S_, .f32⟩ : BufTy).Contents (Elt F) → (⟨S200, .f32⟩ : BufTy).Contents (Elt F)),
    StableHlo.nullary main_cst_65 (constant S_ .f32 0x47435000#32),
    StableHlo.unary main_cst_65 main_v423 (broadcastInDim S200 ![] bcast_S_S200 : (⟨S_, .f32⟩ : BufTy).Contents (Elt F) → (⟨S200, .f32⟩ : BufTy).Contents (Elt F)),
    StableHlo.binary main_v422 main_v423 main_v424 (Host.divf : (⟨S200, .f32⟩ : BufTy).Contents (Elt F) → (⟨S200, .f32⟩ : BufTy).Contents (Elt F) → (⟨S200, .f32⟩ : BufTy).Contents (Elt F)),
    StableHlo.nullary main_c_66 (constantI S_ 32 0#32),
    StableHlo.TRef.nullary (.of main_call12_cst : StableHlo.TRef sig ⟨S_, .f32⟩) (constant S_ .f32 0x00000000#32),
    StableHlo.TRef.binary (.of main_v417 : StableHlo.TRef sig ⟨S50000x200, .f32⟩) (.of main_call12_cst : StableHlo.TRef sig ⟨S_, .f32⟩) (.of main_call12_v0 : StableHlo.TRef sig ⟨S200, .f32⟩) (fun x v => Host.reduceAdd x v reducesTo_S50000x200_S200_d0 h_S_),
    StableHlo.TRef.unary (.of main_call12_v0 : StableHlo.TRef sig ⟨S200, .f32⟩) (.of main_call12_v1 : StableHlo.TRef sig ⟨S1x200, .f32⟩) (broadcastInDim S1x200 ![1] bcast_S200_S1x200_1),
    StableHlo.TRef.nullary (.of main_call12_cst_0 : StableHlo.TRef sig ⟨S_, .f32⟩) (constant S_ .f32 0x47435000#32),
    StableHlo.TRef.unary (.of main_call12_cst_0 : StableHlo.TRef sig ⟨S_, .f32⟩) (.of main_call12_v2 : StableHlo.TRef sig ⟨S1x200, .f32⟩) (broadcastInDim S1x200 ![] bcast_S_S1x200),
    StableHlo.TRef.binary (.of main_call12_v1 : StableHlo.TRef sig ⟨S1x200, .f32⟩) (.of main_call12_v2 : StableHlo.TRef sig ⟨S1x200, .f32⟩) (.of main_call12_v3 : StableHlo.TRef sig ⟨S1x200, .f32⟩) Host.divf,
    StableHlo.TRef.unary (.of main_call12_v3 : StableHlo.TRef sig ⟨S1x200, .f32⟩) (.of main_call12_v4 : StableHlo.TRef sig ⟨S50000x200, .f32⟩) (broadcastInDim S50000x200 ![0, 1] bcast_S1x200_S50000x200_0_1),
    StableHlo.TRef.binary (.of main_v417 : StableHlo.TRef sig ⟨S50000x200, .f32⟩) (.of main_call12_v4 : StableHlo.TRef sig ⟨S50000x200, .f32⟩) (.of main_call12_v5 : StableHlo.TRef sig ⟨S50000x200, .f32⟩) subf,
    StableHlo.TRef.binary (.of main_call12_v5 : StableHlo.TRef sig ⟨S50000x200, .f32⟩) (.of main_call12_v5 : StableHlo.TRef sig ⟨S50000x200, .f32⟩) (.of main_call12_v6 : StableHlo.TRef sig ⟨S50000x200, .f32⟩) mulf,
    StableHlo.TRef.unary (.of main_c_66 : StableHlo.TRef sig ⟨S_, .i32⟩) (.of main_call12_v7 : StableHlo.TRef sig ⟨S_, .f32⟩) (sitofp .f32),
    StableHlo.TRef.nullary (.of main_call12_cst_1 : StableHlo.TRef sig ⟨S_, .f32⟩) (constant S_ .f32 0x47435000#32),
    StableHlo.TRef.binary (.of main_call12_cst_1 : StableHlo.TRef sig ⟨S_, .f32⟩) (.of main_call12_v7 : StableHlo.TRef sig ⟨S_, .f32⟩) (.of main_call12_v8 : StableHlo.TRef sig ⟨S_, .f32⟩) subf,
    StableHlo.TRef.nullary (.of main_call12_cst_2 : StableHlo.TRef sig ⟨S_, .f32⟩) (constant S_ .f32 0x00000000#32),
    StableHlo.TRef.binary (.of main_call12_v6 : StableHlo.TRef sig ⟨S50000x200, .f32⟩) (.of main_call12_cst_2 : StableHlo.TRef sig ⟨S_, .f32⟩) (.of main_call12_v9 : StableHlo.TRef sig ⟨S200, .f32⟩) (fun x v => Host.reduceAdd x v reducesTo_S50000x200_S200_d0 h_S_),
    StableHlo.TRef.unary (.of main_call12_v8 : StableHlo.TRef sig ⟨S_, .f32⟩) (.of main_call12_v10 : StableHlo.TRef sig ⟨S200, .f32⟩) (broadcastInDim S200 ![] bcast_S_S200),
    StableHlo.TRef.binary (.of main_call12_v9 : StableHlo.TRef sig ⟨S200, .f32⟩) (.of main_call12_v10 : StableHlo.TRef sig ⟨S200, .f32⟩) (.of main_call12_v11 : StableHlo.TRef sig ⟨S200, .f32⟩) Host.divf,
    StableHlo.TRef.nullary (.of main_call12_cst_3 : StableHlo.TRef sig ⟨S_, .f32⟩) (constant S_ .f32 0x00000000#32),
    StableHlo.TRef.binary (.of main_call12_v8 : StableHlo.TRef sig ⟨S_, .f32⟩) (.of main_call12_cst_3 : StableHlo.TRef sig ⟨S_, .f32⟩) (.of main_call12_v12 : StableHlo.TRef sig ⟨S_, .i1⟩) (cmpf .ogt),
    StableHlo.TRef.nullary (.of main_call12_cst_4 : StableHlo.TRef sig ⟨S_, .f32⟩) (constant S_ .f32 0x7FC00000#32),
    StableHlo.TRef.unary (.of main_call12_cst_4 : StableHlo.TRef sig ⟨S_, .f32⟩) (.of main_call12_call0_v0 : StableHlo.TRef sig ⟨S_, .f32⟩) id,
    StableHlo.TRef.unary (.of main_call12_call0_v0 : StableHlo.TRef sig ⟨S_, .f32⟩) (.of main_call12_call0_v1 : StableHlo.TRef sig ⟨S200, .f32⟩) (broadcastInDim S200 ![] bcast_S_S200),
    StableHlo.TRef.ternary (.of main_call12_v12 : StableHlo.TRef sig ⟨S_, .i1⟩) (.of main_call12_v11 : StableHlo.TRef sig ⟨S200, .f32⟩) (.of main_call12_call0_v1 : StableHlo.TRef sig ⟨S200, .f32⟩) (.of main_v425 : StableHlo.TRef sig ⟨S200, .f32⟩) (fun p a b => select (broadcastInDim S200 ![] bcast_S_S200 p) a b),
    StableHlo.unary main_v424 main_v426 (broadcastInDim S1x200 ![1] bcast_S200_S1x200_1 : (⟨S200, .f32⟩ : BufTy).Contents (Elt F) → (⟨S1x200, .f32⟩ : BufTy).Contents (Elt F)),
    StableHlo.unary main_v426 main_v427 (broadcastInDim S50000x200 ![0, 1] bcast_S1x200_S50000x200_0_1 : (⟨S1x200, .f32⟩ : BufTy).Contents (Elt F) → (⟨S50000x200, .f32⟩ : BufTy).Contents (Elt F)),
    StableHlo.binary main_v417 main_v427 main_v428 (subf : (⟨S50000x200, .f32⟩ : BufTy).Contents (Elt F) → (⟨S50000x200, .f32⟩ : BufTy).Contents (Elt F) → (⟨S50000x200, .f32⟩ : BufTy).Contents (Elt F)),
    StableHlo.nullary main_cst_67 (constant S_ .f32 0x3727C5AC#32),
    StableHlo.unary main_cst_67 main_v429 (broadcastInDim S200 ![] bcast_S_S200 : (⟨S_, .f32⟩ : BufTy).Contents (Elt F) → (⟨S200, .f32⟩ : BufTy).Contents (Elt F)),
    StableHlo.binary main_v425 main_v429 main_v430 (addf : (⟨S200, .f32⟩ : BufTy).Contents (Elt F) → (⟨S200, .f32⟩ : BufTy).Contents (Elt F) → (⟨S200, .f32⟩ : BufTy).Contents (Elt F)),
    StableHlo.unary main_v430 main_v431 (Host.rsqrt : (⟨S200, .f32⟩ : BufTy).Contents (Elt F) → (⟨S200, .f32⟩ : BufTy).Contents (Elt F)),
    StableHlo.unary main_v431 main_v432 (broadcastInDim S1x200 ![1] bcast_S200_S1x200_1 : (⟨S200, .f32⟩ : BufTy).Contents (Elt F) → (⟨S1x200, .f32⟩ : BufTy).Contents (Elt F)),
    StableHlo.unary main_v432 main_v433 (broadcastInDim S50000x200 ![0, 1] bcast_S1x200_S50000x200_0_1 : (⟨S1x200, .f32⟩ : BufTy).Contents (Elt F) → (⟨S50000x200, .f32⟩ : BufTy).Contents (Elt F)),
    StableHlo.binary main_v428 main_v433 main_v434 (mulf : (⟨S50000x200, .f32⟩ : BufTy).Contents (Elt F) → (⟨S50000x200, .f32⟩ : BufTy).Contents (Elt F) → (⟨S50000x200, .f32⟩ : BufTy).Contents (Elt F)),
    StableHlo.unary main_v419 main_v435 (broadcastInDim S1x200 ![1] bcast_S200_S1x200_1 : (⟨S200, .f32⟩ : BufTy).Contents (Elt F) → (⟨S1x200, .f32⟩ : BufTy).Contents (Elt F)),
    StableHlo.unary main_v435 main_v436 (broadcastInDim S50000x200 ![0, 1] bcast_S1x200_S50000x200_0_1 : (⟨S1x200, .f32⟩ : BufTy).Contents (Elt F) → (⟨S50000x200, .f32⟩ : BufTy).Contents (Elt F)),
    StableHlo.binary main_v434 main_v436 main_v437 (mulf : (⟨S50000x200, .f32⟩ : BufTy).Contents (Elt F) → (⟨S50000x200, .f32⟩ : BufTy).Contents (Elt F) → (⟨S50000x200, .f32⟩ : BufTy).Contents (Elt F)),
    StableHlo.unary main_v421 main_v438 (broadcastInDim S1x200 ![1] bcast_S200_S1x200_1 : (⟨S200, .f32⟩ : BufTy).Contents (Elt F) → (⟨S1x200, .f32⟩ : BufTy).Contents (Elt F)),
    StableHlo.unary main_v438 main_v439 (broadcastInDim S50000x200 ![0, 1] bcast_S1x200_S50000x200_0_1 : (⟨S1x200, .f32⟩ : BufTy).Contents (Elt F) → (⟨S50000x200, .f32⟩ : BufTy).Contents (Elt F)),
    StableHlo.binary main_v437 main_v439 main_v440 (addf : (⟨S50000x200, .f32⟩ : BufTy).Contents (Elt F) → (⟨S50000x200, .f32⟩ : BufTy).Contents (Elt F) → (⟨S50000x200, .f32⟩ : BufTy).Contents (Elt F)),
    StableHlo.TRef.nullary (.of main_call13_cst : StableHlo.TRef sig ⟨S_, .f32⟩) (constant S_ .f32 0x00000000#32),
    StableHlo.TRef.unary (.of main_call13_cst : StableHlo.TRef sig ⟨S_, .f32⟩) (.of main_call13_v0 : StableHlo.TRef sig ⟨S50000x200, .f32⟩) (broadcastInDim S50000x200 ![] bcast_S_S50000x200),
    StableHlo.TRef.binary (.of main_v440 : StableHlo.TRef sig ⟨S50000x200, .f32⟩) (.of main_call13_v0 : StableHlo.TRef sig ⟨S50000x200, .f32⟩) (.of main_v441 : StableHlo.TRef sig ⟨S50000x200, .f32⟩) maximumf,
    StableHlo.unary main_arg11 main_v442 ((extractStridedSlice S1x200x100 ![3, 0, 0] · slices_S5x200x100_S1x200x100_3_0_0) : (⟨S5x200x100, .f32⟩ : BufTy).Contents (Elt F) → (⟨S1x200x100, .f32⟩ : BufTy).Contents (Elt F)),
    StableHlo.reshape main_v442 main_v443 rfl shapeCasts_S1x200x100_S200x100,
    StableHlo.binary main_v441 main_v443 main_v444 ((fun l r => Host.dotGeneral dot_S50000x200_S200x100_S50000x100_1_0_0_1_n_n none l r) : (⟨S50000x200, .f32⟩ : BufTy).Contents (Elt F) → (⟨S200x100, .f32⟩ : BufTy).Contents (Elt F) → (⟨S50000x100, .f32⟩ : BufTy).Contents (Elt F)),
    StableHlo.unary main_arg12 main_v445 ((extractStridedSlice S1x100 ![3, 0] · slices_S5x100_S1x100_3_0) : (⟨S5x100, .f32⟩ : BufTy).Contents (Elt F) → (⟨S1x100, .f32⟩ : BufTy).Contents (Elt F)),
    StableHlo.reshape main_v445 main_v446 rfl shapeCasts_S1x100_S100,
    StableHlo.unary main_v446 main_v447 (broadcastInDim S1x100 ![1] bcast_S100_S1x100_1 : (⟨S100, .f32⟩ : BufTy).Contents (Elt F) → (⟨S1x100, .f32⟩ : BufTy).Contents (Elt F)),
    StableHlo.unary main_v447 main_v448 (broadcastInDim S50000x100 ![0, 1] bcast_S1x100_S50000x100_0_1 : (⟨S1x100, .f32⟩ : BufTy).Contents (Elt F) → (⟨S50000x100, .f32⟩ : BufTy).Contents (Elt F)),
    StableHlo.binary main_v444 main_v448 main_v449 (addf : (⟨S50000x100, .f32⟩ : BufTy).Contents (Elt F) → (⟨S50000x100, .f32⟩ : BufTy).Contents (Elt F) → (⟨S50000x100, .f32⟩ : BufTy).Contents (Elt F)),
    StableHlo.unary main_arg13 main_v450 ((extractStridedSlice S1x100 ![3, 0] · slices_S5x100_S1x100_3_0) : (⟨S5x100, .f32⟩ : BufTy).Contents (Elt F) → (⟨S1x100, .f32⟩ : BufTy).Contents (Elt F)),
    StableHlo.reshape main_v450 main_v451 rfl shapeCasts_S1x100_S100,
    StableHlo.unary main_arg14 main_v452 ((extractStridedSlice S1x100 ![3, 0] · slices_S5x100_S1x100_3_0) : (⟨S5x100, .f32⟩ : BufTy).Contents (Elt F) → (⟨S1x100, .f32⟩ : BufTy).Contents (Elt F)),
    StableHlo.reshape main_v452 main_v453 rfl shapeCasts_S1x100_S100,
    StableHlo.nullary main_cst_68 (constant S_ .f32 0x00000000#32),
    StableHlo.binary main_v449 main_cst_68 main_v454 ((fun x v => Host.reduceAdd x v reducesTo_S50000x100_S100_d0 h_S_) : (⟨S50000x100, .f32⟩ : BufTy).Contents (Elt F) → (⟨S_, .f32⟩ : BufTy).Contents (Elt F) → (⟨S100, .f32⟩ : BufTy).Contents (Elt F)),
    StableHlo.nullary main_cst_69 (constant S_ .f32 0x47435000#32),
    StableHlo.unary main_cst_69 main_v455 (broadcastInDim S100 ![] bcast_S_S100 : (⟨S_, .f32⟩ : BufTy).Contents (Elt F) → (⟨S100, .f32⟩ : BufTy).Contents (Elt F)),
    StableHlo.binary main_v454 main_v455 main_v456 (Host.divf : (⟨S100, .f32⟩ : BufTy).Contents (Elt F) → (⟨S100, .f32⟩ : BufTy).Contents (Elt F) → (⟨S100, .f32⟩ : BufTy).Contents (Elt F)),
    StableHlo.nullary main_c_70 (constantI S_ 32 0#32),
    StableHlo.TRef.nullary (.of main_call14_cst : StableHlo.TRef sig ⟨S_, .f32⟩) (constant S_ .f32 0x00000000#32),
    StableHlo.TRef.binary (.of main_v449 : StableHlo.TRef sig ⟨S50000x100, .f32⟩) (.of main_call14_cst : StableHlo.TRef sig ⟨S_, .f32⟩) (.of main_call14_v0 : StableHlo.TRef sig ⟨S100, .f32⟩) (fun x v => Host.reduceAdd x v reducesTo_S50000x100_S100_d0 h_S_),
    StableHlo.TRef.unary (.of main_call14_v0 : StableHlo.TRef sig ⟨S100, .f32⟩) (.of main_call14_v1 : StableHlo.TRef sig ⟨S1x100, .f32⟩) (broadcastInDim S1x100 ![1] bcast_S100_S1x100_1),
    StableHlo.TRef.nullary (.of main_call14_cst_0 : StableHlo.TRef sig ⟨S_, .f32⟩) (constant S_ .f32 0x47435000#32),
    StableHlo.TRef.unary (.of main_call14_cst_0 : StableHlo.TRef sig ⟨S_, .f32⟩) (.of main_call14_v2 : StableHlo.TRef sig ⟨S1x100, .f32⟩) (broadcastInDim S1x100 ![] bcast_S_S1x100),
    StableHlo.TRef.binary (.of main_call14_v1 : StableHlo.TRef sig ⟨S1x100, .f32⟩) (.of main_call14_v2 : StableHlo.TRef sig ⟨S1x100, .f32⟩) (.of main_call14_v3 : StableHlo.TRef sig ⟨S1x100, .f32⟩) Host.divf,
    StableHlo.TRef.unary (.of main_call14_v3 : StableHlo.TRef sig ⟨S1x100, .f32⟩) (.of main_call14_v4 : StableHlo.TRef sig ⟨S50000x100, .f32⟩) (broadcastInDim S50000x100 ![0, 1] bcast_S1x100_S50000x100_0_1),
    StableHlo.TRef.binary (.of main_v449 : StableHlo.TRef sig ⟨S50000x100, .f32⟩) (.of main_call14_v4 : StableHlo.TRef sig ⟨S50000x100, .f32⟩) (.of main_call14_v5 : StableHlo.TRef sig ⟨S50000x100, .f32⟩) subf,
    StableHlo.TRef.binary (.of main_call14_v5 : StableHlo.TRef sig ⟨S50000x100, .f32⟩) (.of main_call14_v5 : StableHlo.TRef sig ⟨S50000x100, .f32⟩) (.of main_call14_v6 : StableHlo.TRef sig ⟨S50000x100, .f32⟩) mulf,
    StableHlo.TRef.unary (.of main_c_70 : StableHlo.TRef sig ⟨S_, .i32⟩) (.of main_call14_v7 : StableHlo.TRef sig ⟨S_, .f32⟩) (sitofp .f32),
    StableHlo.TRef.nullary (.of main_call14_cst_1 : StableHlo.TRef sig ⟨S_, .f32⟩) (constant S_ .f32 0x47435000#32),
    StableHlo.TRef.binary (.of main_call14_cst_1 : StableHlo.TRef sig ⟨S_, .f32⟩) (.of main_call14_v7 : StableHlo.TRef sig ⟨S_, .f32⟩) (.of main_call14_v8 : StableHlo.TRef sig ⟨S_, .f32⟩) subf,
    StableHlo.TRef.nullary (.of main_call14_cst_2 : StableHlo.TRef sig ⟨S_, .f32⟩) (constant S_ .f32 0x00000000#32),
    StableHlo.TRef.binary (.of main_call14_v6 : StableHlo.TRef sig ⟨S50000x100, .f32⟩) (.of main_call14_cst_2 : StableHlo.TRef sig ⟨S_, .f32⟩) (.of main_call14_v9 : StableHlo.TRef sig ⟨S100, .f32⟩) (fun x v => Host.reduceAdd x v reducesTo_S50000x100_S100_d0 h_S_),
    StableHlo.TRef.unary (.of main_call14_v8 : StableHlo.TRef sig ⟨S_, .f32⟩) (.of main_call14_v10 : StableHlo.TRef sig ⟨S100, .f32⟩) (broadcastInDim S100 ![] bcast_S_S100),
    StableHlo.TRef.binary (.of main_call14_v9 : StableHlo.TRef sig ⟨S100, .f32⟩) (.of main_call14_v10 : StableHlo.TRef sig ⟨S100, .f32⟩) (.of main_call14_v11 : StableHlo.TRef sig ⟨S100, .f32⟩) Host.divf,
    StableHlo.TRef.nullary (.of main_call14_cst_3 : StableHlo.TRef sig ⟨S_, .f32⟩) (constant S_ .f32 0x00000000#32),
    StableHlo.TRef.binary (.of main_call14_v8 : StableHlo.TRef sig ⟨S_, .f32⟩) (.of main_call14_cst_3 : StableHlo.TRef sig ⟨S_, .f32⟩) (.of main_call14_v12 : StableHlo.TRef sig ⟨S_, .i1⟩) (cmpf .ogt),
    StableHlo.TRef.nullary (.of main_call14_cst_4 : StableHlo.TRef sig ⟨S_, .f32⟩) (constant S_ .f32 0x7FC00000#32),
    StableHlo.TRef.unary (.of main_call14_cst_4 : StableHlo.TRef sig ⟨S_, .f32⟩) (.of main_call14_call0_v0 : StableHlo.TRef sig ⟨S_, .f32⟩) id,
    StableHlo.TRef.unary (.of main_call14_call0_v0 : StableHlo.TRef sig ⟨S_, .f32⟩) (.of main_call14_call0_v1 : StableHlo.TRef sig ⟨S100, .f32⟩) (broadcastInDim S100 ![] bcast_S_S100),
    StableHlo.TRef.ternary (.of main_call14_v12 : StableHlo.TRef sig ⟨S_, .i1⟩) (.of main_call14_v11 : StableHlo.TRef sig ⟨S100, .f32⟩) (.of main_call14_call0_v1 : StableHlo.TRef sig ⟨S100, .f32⟩) (.of main_v457 : StableHlo.TRef sig ⟨S100, .f32⟩) (fun p a b => select (broadcastInDim S100 ![] bcast_S_S100 p) a b),
    StableHlo.unary main_v456 main_v458 (broadcastInDim S1x100 ![1] bcast_S100_S1x100_1 : (⟨S100, .f32⟩ : BufTy).Contents (Elt F) → (⟨S1x100, .f32⟩ : BufTy).Contents (Elt F)),
    StableHlo.unary main_v458 main_v459 (broadcastInDim S50000x100 ![0, 1] bcast_S1x100_S50000x100_0_1 : (⟨S1x100, .f32⟩ : BufTy).Contents (Elt F) → (⟨S50000x100, .f32⟩ : BufTy).Contents (Elt F)),
    StableHlo.binary main_v449 main_v459 main_v460 (subf : (⟨S50000x100, .f32⟩ : BufTy).Contents (Elt F) → (⟨S50000x100, .f32⟩ : BufTy).Contents (Elt F) → (⟨S50000x100, .f32⟩ : BufTy).Contents (Elt F)),
    StableHlo.nullary main_cst_71 (constant S_ .f32 0x3727C5AC#32),
    StableHlo.unary main_cst_71 main_v461 (broadcastInDim S100 ![] bcast_S_S100 : (⟨S_, .f32⟩ : BufTy).Contents (Elt F) → (⟨S100, .f32⟩ : BufTy).Contents (Elt F)),
    StableHlo.binary main_v457 main_v461 main_v462 (addf : (⟨S100, .f32⟩ : BufTy).Contents (Elt F) → (⟨S100, .f32⟩ : BufTy).Contents (Elt F) → (⟨S100, .f32⟩ : BufTy).Contents (Elt F)),
    StableHlo.unary main_v462 main_v463 (Host.rsqrt : (⟨S100, .f32⟩ : BufTy).Contents (Elt F) → (⟨S100, .f32⟩ : BufTy).Contents (Elt F)),
    StableHlo.unary main_v463 main_v464 (broadcastInDim S1x100 ![1] bcast_S100_S1x100_1 : (⟨S100, .f32⟩ : BufTy).Contents (Elt F) → (⟨S1x100, .f32⟩ : BufTy).Contents (Elt F)),
    StableHlo.unary main_v464 main_v465 (broadcastInDim S50000x100 ![0, 1] bcast_S1x100_S50000x100_0_1 : (⟨S1x100, .f32⟩ : BufTy).Contents (Elt F) → (⟨S50000x100, .f32⟩ : BufTy).Contents (Elt F)),
    StableHlo.binary main_v460 main_v465 main_v466 (mulf : (⟨S50000x100, .f32⟩ : BufTy).Contents (Elt F) → (⟨S50000x100, .f32⟩ : BufTy).Contents (Elt F) → (⟨S50000x100, .f32⟩ : BufTy).Contents (Elt F)),
    StableHlo.unary main_v451 main_v467 (broadcastInDim S1x100 ![1] bcast_S100_S1x100_1 : (⟨S100, .f32⟩ : BufTy).Contents (Elt F) → (⟨S1x100, .f32⟩ : BufTy).Contents (Elt F)),
    StableHlo.unary main_v467 main_v468 (broadcastInDim S50000x100 ![0, 1] bcast_S1x100_S50000x100_0_1 : (⟨S1x100, .f32⟩ : BufTy).Contents (Elt F) → (⟨S50000x100, .f32⟩ : BufTy).Contents (Elt F)),
    StableHlo.binary main_v466 main_v468 main_v469 (mulf : (⟨S50000x100, .f32⟩ : BufTy).Contents (Elt F) → (⟨S50000x100, .f32⟩ : BufTy).Contents (Elt F) → (⟨S50000x100, .f32⟩ : BufTy).Contents (Elt F)),
    StableHlo.unary main_v453 main_v470 (broadcastInDim S1x100 ![1] bcast_S100_S1x100_1 : (⟨S100, .f32⟩ : BufTy).Contents (Elt F) → (⟨S1x100, .f32⟩ : BufTy).Contents (Elt F)),
    StableHlo.unary main_v470 main_v471 (broadcastInDim S50000x100 ![0, 1] bcast_S1x100_S50000x100_0_1 : (⟨S1x100, .f32⟩ : BufTy).Contents (Elt F) → (⟨S50000x100, .f32⟩ : BufTy).Contents (Elt F)),
    StableHlo.binary main_v469 main_v471 main_v472 (addf : (⟨S50000x100, .f32⟩ : BufTy).Contents (Elt F) → (⟨S50000x100, .f32⟩ : BufTy).Contents (Elt F) → (⟨S50000x100, .f32⟩ : BufTy).Contents (Elt F)),
    StableHlo.TRef.nullary (.of main_call15_cst : StableHlo.TRef sig ⟨S_, .f32⟩) (constant S_ .f32 0x00000000#32),
    StableHlo.TRef.unary (.of main_call15_cst : StableHlo.TRef sig ⟨S_, .f32⟩) (.of main_call15_v0 : StableHlo.TRef sig ⟨S50000x100, .f32⟩) (broadcastInDim S50000x100 ![] bcast_S_S50000x100),
    StableHlo.TRef.binary (.of main_v472 : StableHlo.TRef sig ⟨S50000x100, .f32⟩) (.of main_call15_v0 : StableHlo.TRef sig ⟨S50000x100, .f32⟩) (.of main_v473 : StableHlo.TRef sig ⟨S50000x100, .f32⟩) maximumf ]
theorem opsL3_sub : (opsL3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.binary_bufs_sub .., StableHlo.unary_bufs_sub .., StableHlo.binary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- Operations 733 … 871 of the whole run: from the one writing `main_c_72` through the one writing `main_v554`. -/
abbrev opsL4 : List (HloOp τ sig (Elt F)) :=
  [ StableHlo.nullary main_c_72 (constantI S_ 32 0#32),
    StableHlo.unary main_c_72 main_v474 (broadcastInDim S800000 ![] bcast_S_S800000 : (⟨S_, .i32⟩ : BufTy).Contents (Elt F) → (⟨S800000, .i32⟩ : BufTy).Contents (Elt F)),
    StableHlo.binary main_v147 main_v474 main_v475 (cmpi .slt : (⟨S800000, .i32⟩ : BufTy).Contents (Elt F) → (⟨S800000, .i32⟩ : BufTy).Contents (Elt F) → (⟨S800000, .i1⟩ : BufTy).Contents (Elt F)),
    StableHlo.nullary main_c_73 (constantI S_ 32 50000#32),
    StableHlo.unary main_c_73 main_v476 (broadcastInDim S800000 ![] bcast_S_S800000 : (⟨S_, .i32⟩ : BufTy).Contents (Elt F) → (⟨S800000, .i32⟩ : BufTy).Contents (Elt F)),
    StableHlo.binary main_v147 main_v476 main_v477 (addi : (⟨S800000, .i32⟩ : BufTy).Contents (Elt F) → (⟨S800000, .i32⟩ : BufTy).Contents (Elt F) → (⟨S800000, .i32⟩ : BufTy).Contents (Elt F)),
    StableHlo.ternary main_v475 main_v477 main_v147 main_v478 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v478 main_v479 (broadcastInDim S800000x1 ![0] bcast_S800000_S800000x1_0 : (⟨S800000, .i32⟩ : BufTy).Contents (Elt F) → (⟨S800000x1, .i32⟩ : BufTy).Contents (Elt F)),
    StableHlo.binary main_v473 main_v479 main_v480 ((fun x i => Host.gather gather_S50000x100_S800000x1_S800000x100_1_0_n_n_0_1_1100 x i) : (⟨S50000x100, .f32⟩ : BufTy).Contents (Elt F) → (⟨S800000x1, .i32⟩ : BufTy).Contents (Elt F) → (⟨S800000x100, .f32⟩ : BufTy).Contents (Elt F)),
    StableHlo.binary main_v480 main_v145 main_v481 (addf : (⟨S800000x100, .f32⟩ : BufTy).Contents (Elt F) → (⟨S800000x100, .f32⟩ : BufTy).Contents (Elt F) → (⟨S800000x100, .f32⟩ : BufTy).Contents (Elt F)),
    StableHlo.nullary main_cst_74 (constant S_ .f32 0x00000000#32),
    StableHlo.unary main_cst_74 main_v482 (broadcastInDim S50000x100 ![] bcast_S_S50000x100 : (⟨S_, .f32⟩ : BufTy).Contents (Elt F) → (⟨S50000x100, .f32⟩ : BufTy).Contents (Elt F)),
    StableHlo.unary main_v149 main_v483 (broadcastInDim S800000x1 ![0] bcast_S800000_S800000x1_0 : (⟨S800000, .i32⟩ : BufTy).Contents (Elt F) → (⟨S800000x1, .i32⟩ : BufTy).Contents (Elt F)),
    StableHlo.ternary main_v482 main_v483 main_v481 main_v484 ((fun x i u => Host.scatterAdd scatter_S50000x100_S800000x1_S800000x100_1_0_0_1 x i u) : (⟨S50000x100, .f32⟩ : BufTy).Contents (Elt F) → (⟨S800000x1, .i32⟩ : BufTy).Contents (Elt F) → (⟨S800000x100, .f32⟩ : BufTy).Contents (Elt F) → (⟨S50000x100, .f32⟩ : BufTy).Contents (Elt F)),
    StableHlo.unary main_arg6 main_v485 ((extractStridedSlice S1 ![4] · slices_S5_S1_4) : (⟨S5, .f32⟩ : BufTy).Contents (Elt F) → (⟨S1, .f32⟩ : BufTy).Contents (Elt F)),
    StableHlo.reshape main_v485 main_v486 rfl shapeCasts_S1_S_,
    StableHlo.nullary main_cst_75 (constant S_ .f32 0x3F800000#32),
    StableHlo.binary main_cst_75 main_v486 main_v487 (addf : (⟨S_, .f32⟩ : BufTy).Contents (Elt F) → (⟨S_, .f32⟩ : BufTy).Contents (Elt F) → (⟨S_, .f32⟩ : BufTy).Contents (Elt F)),
    StableHlo.unary main_v487 main_v488 (broadcastInDim S50000x100 ![] bcast_S_S50000x100 : (⟨S_, .f32⟩ : BufTy).Contents (Elt F) → (⟨S50000x100, .f32⟩ : BufTy).Contents (Elt F)),
    StableHlo.binary main_v488 main_v473 main_v489 (mulf : (⟨S50000x100, .f32⟩ : BufTy).Contents (Elt F) → (⟨S50000x100, .f32⟩ : BufTy).Contents (Elt F) → (⟨S50000x100, .f32⟩ : BufTy).Contents (Elt F)),
    StableHlo.binary main_v489 main_v484 main_v490 (addf : (⟨S50000x100, .f32⟩ : BufTy).Contents (Elt F) → (⟨S50000x100, .f32⟩ : BufTy).Contents (Elt F) → (⟨S50000x100, .f32⟩ : BufTy).Contents (Elt F)),
    StableHlo.unary main_arg7 main_v491 ((extractStridedSlice S1x100x200 ![4, 0, 0] · slices_S5x100x200_S1x100x200_4_0_0) : (⟨S5x100x200, .f32⟩ : BufTy).Contents (Elt F) → (⟨S1x100x200, .f32⟩ : BufTy).Contents (Elt F)),
    StableHlo.reshape main_v491 main_v492 rfl shapeCasts_S1x100x200_S100x200,
    StableHlo.binary main_v490 main_v492 main_v493 ((fun l r => Host.dotGeneral dot_S50000x100_S100x200_S50000x200_1_0_0_1_n_n none l r) : (⟨S50000x100, .f32⟩ : BufTy).Contents (Elt F) → (⟨S100x200, .f32⟩ : BufTy).Contents (Elt F) → (⟨S50000x200, .f32⟩ : BufTy).Contents (Elt F)),
    StableHlo.unary main_arg8 main_v494 ((extractStridedSlice S1x200 ![4, 0] · slices_S5x200_S1x200_4_0) : (⟨S5x200, .f32⟩ : BufTy).Contents (Elt F) → (⟨S1x200, .f32⟩ : BufTy).Contents (Elt F)),
    StableHlo.reshape main_v494 main_v495 rfl shapeCasts_S1x200_S200,
    StableHlo.unary main_v495 main_v496 (broadcastInDim S1x200 ![1] bcast_S200_S1x200_1 : (⟨S200, .f32⟩ : BufTy).Contents (Elt F) → (⟨S1x200, .f32⟩ : BufTy).Contents (Elt F)),
    StableHlo.unary main_v496 main_v497 (broadcastInDim S50000x200 ![0, 1] bcast_S1x200_S50000x200_0_1 : (⟨S1x200, .f32⟩ : BufTy).Contents (Elt F) → (⟨S50000x200, .f32⟩ : BufTy).Contents (Elt F)),
    StableHlo.binary main_v493 main_v497 main_v498 (addf : (⟨S50000x200, .f32⟩ : BufTy).Contents (Elt F) → (⟨S50000x200, .f32⟩ : BufTy).Contents (Elt F) → (⟨S50000x200, .f32⟩ : BufTy).Contents (Elt F)),
    StableHlo.unary main_arg9 main_v499 ((extractStridedSlice S1x200 ![4, 0] · slices_S5x200_S1x200_4_0) : (⟨S5x200, .f32⟩ : BufTy).Contents (Elt F) → (⟨S1x200, .f32⟩ : BufTy).Contents (Elt F)),
    StableHlo.reshape main_v499 main_v500 rfl shapeCasts_S1x200_S200,
    StableHlo.unary main_arg10 main_v501 ((extractStridedSlice S1x200 ![4, 0] · slices_S5x200_S1x200_4_0) : (⟨S5x200, .f32⟩ : BufTy).Contents (Elt F) → (⟨S1x200, .f32⟩ : BufTy).Contents (Elt F)),
    StableHlo.reshape main_v501 main_v502 rfl shapeCasts_S1x200_S200,
    StableHlo.nullary main_cst_76 (constant S_ .f32 0x00000000#32),
    StableHlo.binary main_v498 main_cst_76 main_v503 ((fun x v => Host.reduceAdd x v reducesTo_S50000x200_S200_d0 h_S_) : (⟨S50000x200, .f32⟩ : BufTy).Contents (Elt F) → (⟨S_, .f32⟩ : BufTy).Contents (Elt F) → (⟨S200, .f32⟩ : BufTy).Contents (Elt F)),
    StableHlo.nullary main_cst_77 (constant S_ .f32 0x47435000#32),
    StableHlo.unary main_cst_77 main_v504 (broadcastInDim S200 ![] bcast_S_S200 : (⟨S_, .f32⟩ : BufTy).Contents (Elt F) → (⟨S200, .f32⟩ : BufTy).Contents (Elt F)),
    StableHlo.binary main_v503 main_v504 main_v505 (Host.divf : (⟨S200, .f32⟩ : BufTy).Contents (Elt F) → (⟨S200, .f32⟩ : BufTy).Contents (Elt F) → (⟨S200, .f32⟩ : BufTy).Contents (Elt F)),
    StableHlo.nullary main_c_78 (constantI S_ 32 0#32),
    StableHlo.TRef.nullary (.of main_call16_cst : StableHlo.TRef sig ⟨S_, .f32⟩) (constant S_ .f32 0x00000000#32),
    StableHlo.TRef.binary (.of main_v498 : StableHlo.TRef sig ⟨S50000x200, .f32⟩) (.of main_call16_cst : StableHlo.TRef sig ⟨S_, .f32⟩) (.of main_call16_v0 : StableHlo.TRef sig ⟨S200, .f32⟩) (fun x v => Host.reduceAdd x v reducesTo_S50000x200_S200_d0 h_S_),
    StableHlo.TRef.unary (.of main_call16_v0 : StableHlo.TRef sig ⟨S200, .f32⟩) (.of main_call16_v1 : StableHlo.TRef sig ⟨S1x200, .f32⟩) (broadcastInDim S1x200 ![1] bcast_S200_S1x200_1),
    StableHlo.TRef.nullary (.of main_call16_cst_0 : StableHlo.TRef sig ⟨S_, .f32⟩) (constant S_ .f32 0x47435000#32),
    StableHlo.TRef.unary (.of main_call16_cst_0 : StableHlo.TRef sig ⟨S_, .f32⟩) (.of main_call16_v2 : StableHlo.TRef sig ⟨S1x200, .f32⟩) (broadcastInDim S1x200 ![] bcast_S_S1x200),
    StableHlo.TRef.binary (.of main_call16_v1 : StableHlo.TRef sig ⟨S1x200, .f32⟩) (.of main_call16_v2 : StableHlo.TRef sig ⟨S1x200, .f32⟩) (.of main_call16_v3 : StableHlo.TRef sig ⟨S1x200, .f32⟩) Host.divf,
    StableHlo.TRef.unary (.of main_call16_v3 : StableHlo.TRef sig ⟨S1x200, .f32⟩) (.of main_call16_v4 : StableHlo.TRef sig ⟨S50000x200, .f32⟩) (broadcastInDim S50000x200 ![0, 1] bcast_S1x200_S50000x200_0_1),
    StableHlo.TRef.binary (.of main_v498 : StableHlo.TRef sig ⟨S50000x200, .f32⟩) (.of main_call16_v4 : StableHlo.TRef sig ⟨S50000x200, .f32⟩) (.of main_call16_v5 : StableHlo.TRef sig ⟨S50000x200, .f32⟩) subf,
    StableHlo.TRef.binary (.of main_call16_v5 : StableHlo.TRef sig ⟨S50000x200, .f32⟩) (.of main_call16_v5 : StableHlo.TRef sig ⟨S50000x200, .f32⟩) (.of main_call16_v6 : StableHlo.TRef sig ⟨S50000x200, .f32⟩) mulf,
    StableHlo.TRef.unary (.of main_c_78 : StableHlo.TRef sig ⟨S_, .i32⟩) (.of main_call16_v7 : StableHlo.TRef sig ⟨S_, .f32⟩) (sitofp .f32),
    StableHlo.TRef.nullary (.of main_call16_cst_1 : StableHlo.TRef sig ⟨S_, .f32⟩) (constant S_ .f32 0x47435000#32),
    StableHlo.TRef.binary (.of main_call16_cst_1 : StableHlo.TRef sig ⟨S_, .f32⟩) (.of main_call16_v7 : StableHlo.TRef sig ⟨S_, .f32⟩) (.of main_call16_v8 : StableHlo.TRef sig ⟨S_, .f32⟩) subf,
    StableHlo.TRef.nullary (.of main_call16_cst_2 : StableHlo.TRef sig ⟨S_, .f32⟩) (constant S_ .f32 0x00000000#32),
    StableHlo.TRef.binary (.of main_call16_v6 : StableHlo.TRef sig ⟨S50000x200, .f32⟩) (.of main_call16_cst_2 : StableHlo.TRef sig ⟨S_, .f32⟩) (.of main_call16_v9 : StableHlo.TRef sig ⟨S200, .f32⟩) (fun x v => Host.reduceAdd x v reducesTo_S50000x200_S200_d0 h_S_),
    StableHlo.TRef.unary (.of main_call16_v8 : StableHlo.TRef sig ⟨S_, .f32⟩) (.of main_call16_v10 : StableHlo.TRef sig ⟨S200, .f32⟩) (broadcastInDim S200 ![] bcast_S_S200),
    StableHlo.TRef.binary (.of main_call16_v9 : StableHlo.TRef sig ⟨S200, .f32⟩) (.of main_call16_v10 : StableHlo.TRef sig ⟨S200, .f32⟩) (.of main_call16_v11 : StableHlo.TRef sig ⟨S200, .f32⟩) Host.divf,
    StableHlo.TRef.nullary (.of main_call16_cst_3 : StableHlo.TRef sig ⟨S_, .f32⟩) (constant S_ .f32 0x00000000#32),
    StableHlo.TRef.binary (.of main_call16_v8 : StableHlo.TRef sig ⟨S_, .f32⟩) (.of main_call16_cst_3 : StableHlo.TRef sig ⟨S_, .f32⟩) (.of main_call16_v12 : StableHlo.TRef sig ⟨S_, .i1⟩) (cmpf .ogt),
    StableHlo.TRef.nullary (.of main_call16_cst_4 : StableHlo.TRef sig ⟨S_, .f32⟩) (constant S_ .f32 0x7FC00000#32),
    StableHlo.TRef.unary (.of main_call16_cst_4 : StableHlo.TRef sig ⟨S_, .f32⟩) (.of main_call16_call0_v0 : StableHlo.TRef sig ⟨S_, .f32⟩) id,
    StableHlo.TRef.unary (.of main_call16_call0_v0 : StableHlo.TRef sig ⟨S_, .f32⟩) (.of main_call16_call0_v1 : StableHlo.TRef sig ⟨S200, .f32⟩) (broadcastInDim S200 ![] bcast_S_S200),
    StableHlo.TRef.ternary (.of main_call16_v12 : StableHlo.TRef sig ⟨S_, .i1⟩) (.of main_call16_v11 : StableHlo.TRef sig ⟨S200, .f32⟩) (.of main_call16_call0_v1 : StableHlo.TRef sig ⟨S200, .f32⟩) (.of main_v506 : StableHlo.TRef sig ⟨S200, .f32⟩) (fun p a b => select (broadcastInDim S200 ![] bcast_S_S200 p) a b),
    StableHlo.unary main_v505 main_v507 (broadcastInDim S1x200 ![1] bcast_S200_S1x200_1 : (⟨S200, .f32⟩ : BufTy).Contents (Elt F) → (⟨S1x200, .f32⟩ : BufTy).Contents (Elt F)),
    StableHlo.unary main_v507 main_v508 (broadcastInDim S50000x200 ![0, 1] bcast_S1x200_S50000x200_0_1 : (⟨S1x200, .f32⟩ : BufTy).Contents (Elt F) → (⟨S50000x200, .f32⟩ : BufTy).Contents (Elt F)),
    StableHlo.binary main_v498 main_v508 main_v509 (subf : (⟨S50000x200, .f32⟩ : BufTy).Contents (Elt F) → (⟨S50000x200, .f32⟩ : BufTy).Contents (Elt F) → (⟨S50000x200, .f32⟩ : BufTy).Contents (Elt F)),
    StableHlo.nullary main_cst_79 (constant S_ .f32 0x3727C5AC#32),
    StableHlo.unary main_cst_79 main_v510 (broadcastInDim S200 ![] bcast_S_S200 : (⟨S_, .f32⟩ : BufTy).Contents (Elt F) → (⟨S200, .f32⟩ : BufTy).Contents (Elt F)),
    StableHlo.binary main_v506 main_v510 main_v511 (addf : (⟨S200, .f32⟩ : BufTy).Contents (Elt F) → (⟨S200, .f32⟩ : BufTy).Contents (Elt F) → (⟨S200, .f32⟩ : BufTy).Contents (Elt F)),
    StableHlo.unary main_v511 main_v512 (Host.rsqrt : (⟨S200, .f32⟩ : BufTy).Contents (Elt F) → (⟨S200, .f32⟩ : BufTy).Contents (Elt F)),
    StableHlo.unary main_v512 main_v513 (broadcastInDim S1x200 ![1] bcast_S200_S1x200_1 : (⟨S200, .f32⟩ : BufTy).Contents (Elt F) → (⟨S1x200, .f32⟩ : BufTy).Contents (Elt F)),
    StableHlo.unary main_v513 main_v514 (broadcastInDim S50000x200 ![0, 1] bcast_S1x200_S50000x200_0_1 : (⟨S1x200, .f32⟩ : BufTy).Contents (Elt F) → (⟨S50000x200, .f32⟩ : BufTy).Contents (Elt F)),
    StableHlo.binary main_v509 main_v514 main_v515 (mulf : (⟨S50000x200, .f32⟩ : BufTy).Contents (Elt F) → (⟨S50000x200, .f32⟩ : BufTy).Contents (Elt F) → (⟨S50000x200, .f32⟩ : BufTy).Contents (Elt F)),
    StableHlo.unary main_v500 main_v516 (broadcastInDim S1x200 ![1] bcast_S200_S1x200_1 : (⟨S200, .f32⟩ : BufTy).Contents (Elt F) → (⟨S1x200, .f32⟩ : BufTy).Contents (Elt F)),
    StableHlo.unary main_v516 main_v517 (broadcastInDim S50000x200 ![0, 1] bcast_S1x200_S50000x200_0_1 : (⟨S1x200, .f32⟩ : BufTy).Contents (Elt F) → (⟨S50000x200, .f32⟩ : BufTy).Contents (Elt F)),
    StableHlo.binary main_v515 main_v517 main_v518 (mulf : (⟨S50000x200, .f32⟩ : BufTy).Contents (Elt F) → (⟨S50000x200, .f32⟩ : BufTy).Contents (Elt F) → (⟨S50000x200, .f32⟩ : BufTy).Contents (Elt F)),
    StableHlo.unary main_v502 main_v519 (broadcastInDim S1x200 ![1] bcast_S200_S1x200_1 : (⟨S200, .f32⟩ : BufTy).Contents (Elt F) → (⟨S1x200, .f32⟩ : BufTy).Contents (Elt F)),
    StableHlo.unary main_v519 main_v520 (broadcastInDim S50000x200 ![0, 1] bcast_S1x200_S50000x200_0_1 : (⟨S1x200, .f32⟩ : BufTy).Contents (Elt F) → (⟨S50000x200, .f32⟩ : BufTy).Contents (Elt F)),
    StableHlo.binary main_v518 main_v520 main_v521 (addf : (⟨S50000x200, .f32⟩ : BufTy).Contents (Elt F) → (⟨S50000x200, .f32⟩ : BufTy).Contents (Elt F) → (⟨S50000x200, .f32⟩ : BufTy).Contents (Elt F)),
    StableHlo.TRef.nullary (.of main_call17_cst : StableHlo.TRef sig ⟨S_, .f32⟩) (constant S_ .f32 0x00000000#32),
    StableHlo.TRef.unary (.of main_call17_cst : StableHlo.TRef sig ⟨S_, .f32⟩) (.of main_call17_v0 : StableHlo.TRef sig ⟨S50000x200, .f32⟩) (broadcastInDim S50000x200 ![] bcast_S_S50000x200),
    StableHlo.TRef.binary (.of main_v521 : StableHlo.TRef sig ⟨S50000x200, .f32⟩) (.of main_call17_v0 : StableHlo.TRef sig ⟨S50000x200, .f32⟩) (.of main_v522 : StableHlo.TRef sig ⟨S50000x200, .f32⟩) maximumf,
    StableHlo.unary main_arg11 main_v523 ((extractStridedSlice S1x200x100 ![4, 0, 0] · slices_S5x200x100_S1x200x100_4_0_0) : (⟨S5x200x100, .f32⟩ : BufTy).Contents (Elt F) → (⟨S1x200x100, .f32⟩ : BufTy).Contents (Elt F)),
    StableHlo.reshape main_v523 main_v524 rfl shapeCasts_S1x200x100_S200x100,
    StableHlo.binary main_v522 main_v524 main_v525 ((fun l r => Host.dotGeneral dot_S50000x200_S200x100_S50000x100_1_0_0_1_n_n none l r) : (⟨S50000x200, .f32⟩ : BufTy).Contents (Elt F) → (⟨S200x100, .f32⟩ : BufTy).Contents (Elt F) → (⟨S50000x100, .f32⟩ : BufTy).Contents (Elt F)),
    StableHlo.unary main_arg12 main_v526 ((extractStridedSlice S1x100 ![4, 0] · slices_S5x100_S1x100_4_0) : (⟨S5x100, .f32⟩ : BufTy).Contents (Elt F) → (⟨S1x100, .f32⟩ : BufTy).Contents (Elt F)),
    StableHlo.reshape main_v526 main_v527 rfl shapeCasts_S1x100_S100,
    StableHlo.unary main_v527 main_v528 (broadcastInDim S1x100 ![1] bcast_S100_S1x100_1 : (⟨S100, .f32⟩ : BufTy).Contents (Elt F) → (⟨S1x100, .f32⟩ : BufTy).Contents (Elt F)),
    StableHlo.unary main_v528 main_v529 (broadcastInDim S50000x100 ![0, 1] bcast_S1x100_S50000x100_0_1 : (⟨S1x100, .f32⟩ : BufTy).Contents (Elt F) → (⟨S50000x100, .f32⟩ : BufTy).Contents (Elt F)),
    StableHlo.binary main_v525 main_v529 main_v530 (addf : (⟨S50000x100, .f32⟩ : BufTy).Contents (Elt F) → (⟨S50000x100, .f32⟩ : BufTy).Contents (Elt F) → (⟨S50000x100, .f32⟩ : BufTy).Contents (Elt F)),
    StableHlo.unary main_arg13 main_v531 ((extractStridedSlice S1x100 ![4, 0] · slices_S5x100_S1x100_4_0) : (⟨S5x100, .f32⟩ : BufTy).Contents (Elt F) → (⟨S1x100, .f32⟩ : BufTy).Contents (Elt F)),
    StableHlo.reshape main_v531 main_v532 rfl shapeCasts_S1x100_S100,
    StableHlo.unary main_arg14 main_v533 ((extractStridedSlice S1x100 ![4, 0] · slices_S5x100_S1x100_4_0) : (⟨S5x100, .f32⟩ : BufTy).Contents (Elt F) → (⟨S1x100, .f32⟩ : BufTy).Contents (Elt F)),
    StableHlo.reshape main_v533 main_v534 rfl shapeCasts_S1x100_S100,
    StableHlo.nullary main_cst_80 (constant S_ .f32 0x00000000#32),
    StableHlo.binary main_v530 main_cst_80 main_v535 ((fun x v => Host.reduceAdd x v reducesTo_S50000x100_S100_d0 h_S_) : (⟨S50000x100, .f32⟩ : BufTy).Contents (Elt F) → (⟨S_, .f32⟩ : BufTy).Contents (Elt F) → (⟨S100, .f32⟩ : BufTy).Contents (Elt F)),
    StableHlo.nullary main_cst_81 (constant S_ .f32 0x47435000#32),
    StableHlo.unary main_cst_81 main_v536 (broadcastInDim S100 ![] bcast_S_S100 : (⟨S_, .f32⟩ : BufTy).Contents (Elt F) → (⟨S100, .f32⟩ : BufTy).Contents (Elt F)),
    StableHlo.binary main_v535 main_v536 main_v537 (Host.divf : (⟨S100, .f32⟩ : BufTy).Contents (Elt F) → (⟨S100, .f32⟩ : BufTy).Contents (Elt F) → (⟨S100, .f32⟩ : BufTy).Contents (Elt F)),
    StableHlo.nullary main_c_82 (constantI S_ 32 0#32),
    StableHlo.TRef.nullary (.of main_call18_cst : StableHlo.TRef sig ⟨S_, .f32⟩) (constant S_ .f32 0x00000000#32),
    StableHlo.TRef.binary (.of main_v530 : StableHlo.TRef sig ⟨S50000x100, .f32⟩) (.of main_call18_cst : StableHlo.TRef sig ⟨S_, .f32⟩) (.of main_call18_v0 : StableHlo.TRef sig ⟨S100, .f32⟩) (fun x v => Host.reduceAdd x v reducesTo_S50000x100_S100_d0 h_S_),
    StableHlo.TRef.unary (.of main_call18_v0 : StableHlo.TRef sig ⟨S100, .f32⟩) (.of main_call18_v1 : StableHlo.TRef sig ⟨S1x100, .f32⟩) (broadcastInDim S1x100 ![1] bcast_S100_S1x100_1),
    StableHlo.TRef.nullary (.of main_call18_cst_0 : StableHlo.TRef sig ⟨S_, .f32⟩) (constant S_ .f32 0x47435000#32),
    StableHlo.TRef.unary (.of main_call18_cst_0 : StableHlo.TRef sig ⟨S_, .f32⟩) (.of main_call18_v2 : StableHlo.TRef sig ⟨S1x100, .f32⟩) (broadcastInDim S1x100 ![] bcast_S_S1x100),
    StableHlo.TRef.binary (.of main_call18_v1 : StableHlo.TRef sig ⟨S1x100, .f32⟩) (.of main_call18_v2 : StableHlo.TRef sig ⟨S1x100, .f32⟩) (.of main_call18_v3 : StableHlo.TRef sig ⟨S1x100, .f32⟩) Host.divf,
    StableHlo.TRef.unary (.of main_call18_v3 : StableHlo.TRef sig ⟨S1x100, .f32⟩) (.of main_call18_v4 : StableHlo.TRef sig ⟨S50000x100, .f32⟩) (broadcastInDim S50000x100 ![0, 1] bcast_S1x100_S50000x100_0_1),
    StableHlo.TRef.binary (.of main_v530 : StableHlo.TRef sig ⟨S50000x100, .f32⟩) (.of main_call18_v4 : StableHlo.TRef sig ⟨S50000x100, .f32⟩) (.of main_call18_v5 : StableHlo.TRef sig ⟨S50000x100, .f32⟩) subf,
    StableHlo.TRef.binary (.of main_call18_v5 : StableHlo.TRef sig ⟨S50000x100, .f32⟩) (.of main_call18_v5 : StableHlo.TRef sig ⟨S50000x100, .f32⟩) (.of main_call18_v6 : StableHlo.TRef sig ⟨S50000x100, .f32⟩) mulf,
    StableHlo.TRef.unary (.of main_c_82 : StableHlo.TRef sig ⟨S_, .i32⟩) (.of main_call18_v7 : StableHlo.TRef sig ⟨S_, .f32⟩) (sitofp .f32),
    StableHlo.TRef.nullary (.of main_call18_cst_1 : StableHlo.TRef sig ⟨S_, .f32⟩) (constant S_ .f32 0x47435000#32),
    StableHlo.TRef.binary (.of main_call18_cst_1 : StableHlo.TRef sig ⟨S_, .f32⟩) (.of main_call18_v7 : StableHlo.TRef sig ⟨S_, .f32⟩) (.of main_call18_v8 : StableHlo.TRef sig ⟨S_, .f32⟩) subf,
    StableHlo.TRef.nullary (.of main_call18_cst_2 : StableHlo.TRef sig ⟨S_, .f32⟩) (constant S_ .f32 0x00000000#32),
    StableHlo.TRef.binary (.of main_call18_v6 : StableHlo.TRef sig ⟨S50000x100, .f32⟩) (.of main_call18_cst_2 : StableHlo.TRef sig ⟨S_, .f32⟩) (.of main_call18_v9 : StableHlo.TRef sig ⟨S100, .f32⟩) (fun x v => Host.reduceAdd x v reducesTo_S50000x100_S100_d0 h_S_),
    StableHlo.TRef.unary (.of main_call18_v8 : StableHlo.TRef sig ⟨S_, .f32⟩) (.of main_call18_v10 : StableHlo.TRef sig ⟨S100, .f32⟩) (broadcastInDim S100 ![] bcast_S_S100),
    StableHlo.TRef.binary (.of main_call18_v9 : StableHlo.TRef sig ⟨S100, .f32⟩) (.of main_call18_v10 : StableHlo.TRef sig ⟨S100, .f32⟩) (.of main_call18_v11 : StableHlo.TRef sig ⟨S100, .f32⟩) Host.divf,
    StableHlo.TRef.nullary (.of main_call18_cst_3 : StableHlo.TRef sig ⟨S_, .f32⟩) (constant S_ .f32 0x00000000#32),
    StableHlo.TRef.binary (.of main_call18_v8 : StableHlo.TRef sig ⟨S_, .f32⟩) (.of main_call18_cst_3 : StableHlo.TRef sig ⟨S_, .f32⟩) (.of main_call18_v12 : StableHlo.TRef sig ⟨S_, .i1⟩) (cmpf .ogt),
    StableHlo.TRef.nullary (.of main_call18_cst_4 : StableHlo.TRef sig ⟨S_, .f32⟩) (constant S_ .f32 0x7FC00000#32),
    StableHlo.TRef.unary (.of main_call18_cst_4 : StableHlo.TRef sig ⟨S_, .f32⟩) (.of main_call18_call0_v0 : StableHlo.TRef sig ⟨S_, .f32⟩) id,
    StableHlo.TRef.unary (.of main_call18_call0_v0 : StableHlo.TRef sig ⟨S_, .f32⟩) (.of main_call18_call0_v1 : StableHlo.TRef sig ⟨S100, .f32⟩) (broadcastInDim S100 ![] bcast_S_S100),
    StableHlo.TRef.ternary (.of main_call18_v12 : StableHlo.TRef sig ⟨S_, .i1⟩) (.of main_call18_v11 : StableHlo.TRef sig ⟨S100, .f32⟩) (.of main_call18_call0_v1 : StableHlo.TRef sig ⟨S100, .f32⟩) (.of main_v538 : StableHlo.TRef sig ⟨S100, .f32⟩) (fun p a b => select (broadcastInDim S100 ![] bcast_S_S100 p) a b),
    StableHlo.unary main_v537 main_v539 (broadcastInDim S1x100 ![1] bcast_S100_S1x100_1 : (⟨S100, .f32⟩ : BufTy).Contents (Elt F) → (⟨S1x100, .f32⟩ : BufTy).Contents (Elt F)),
    StableHlo.unary main_v539 main_v540 (broadcastInDim S50000x100 ![0, 1] bcast_S1x100_S50000x100_0_1 : (⟨S1x100, .f32⟩ : BufTy).Contents (Elt F) → (⟨S50000x100, .f32⟩ : BufTy).Contents (Elt F)),
    StableHlo.binary main_v530 main_v540 main_v541 (subf : (⟨S50000x100, .f32⟩ : BufTy).Contents (Elt F) → (⟨S50000x100, .f32⟩ : BufTy).Contents (Elt F) → (⟨S50000x100, .f32⟩ : BufTy).Contents (Elt F)),
    StableHlo.nullary main_cst_83 (constant S_ .f32 0x3727C5AC#32),
    StableHlo.unary main_cst_83 main_v542 (broadcastInDim S100 ![] bcast_S_S100 : (⟨S_, .f32⟩ : BufTy).Contents (Elt F) → (⟨S100, .f32⟩ : BufTy).Contents (Elt F)),
    StableHlo.binary main_v538 main_v542 main_v543 (addf : (⟨S100, .f32⟩ : BufTy).Contents (Elt F) → (⟨S100, .f32⟩ : BufTy).Contents (Elt F) → (⟨S100, .f32⟩ : BufTy).Contents (Elt F)),
    StableHlo.unary main_v543 main_v544 (Host.rsqrt : (⟨S100, .f32⟩ : BufTy).Contents (Elt F) → (⟨S100, .f32⟩ : BufTy).Contents (Elt F)),
    StableHlo.unary main_v544 main_v545 (broadcastInDim S1x100 ![1] bcast_S100_S1x100_1 : (⟨S100, .f32⟩ : BufTy).Contents (Elt F) → (⟨S1x100, .f32⟩ : BufTy).Contents (Elt F)),
    StableHlo.unary main_v545 main_v546 (broadcastInDim S50000x100 ![0, 1] bcast_S1x100_S50000x100_0_1 : (⟨S1x100, .f32⟩ : BufTy).Contents (Elt F) → (⟨S50000x100, .f32⟩ : BufTy).Contents (Elt F)),
    StableHlo.binary main_v541 main_v546 main_v547 (mulf : (⟨S50000x100, .f32⟩ : BufTy).Contents (Elt F) → (⟨S50000x100, .f32⟩ : BufTy).Contents (Elt F) → (⟨S50000x100, .f32⟩ : BufTy).Contents (Elt F)),
    StableHlo.unary main_v532 main_v548 (broadcastInDim S1x100 ![1] bcast_S100_S1x100_1 : (⟨S100, .f32⟩ : BufTy).Contents (Elt F) → (⟨S1x100, .f32⟩ : BufTy).Contents (Elt F)),
    StableHlo.unary main_v548 main_v549 (broadcastInDim S50000x100 ![0, 1] bcast_S1x100_S50000x100_0_1 : (⟨S1x100, .f32⟩ : BufTy).Contents (Elt F) → (⟨S50000x100, .f32⟩ : BufTy).Contents (Elt F)),
    StableHlo.binary main_v547 main_v549 main_v550 (mulf : (⟨S50000x100, .f32⟩ : BufTy).Contents (Elt F) → (⟨S50000x100, .f32⟩ : BufTy).Contents (Elt F) → (⟨S50000x100, .f32⟩ : BufTy).Contents (Elt F)),
    StableHlo.unary main_v534 main_v551 (broadcastInDim S1x100 ![1] bcast_S100_S1x100_1 : (⟨S100, .f32⟩ : BufTy).Contents (Elt F) → (⟨S1x100, .f32⟩ : BufTy).Contents (Elt F)),
    StableHlo.unary main_v551 main_v552 (broadcastInDim S50000x100 ![0, 1] bcast_S1x100_S50000x100_0_1 : (⟨S1x100, .f32⟩ : BufTy).Contents (Elt F) → (⟨S50000x100, .f32⟩ : BufTy).Contents (Elt F)),
    StableHlo.binary main_v550 main_v552 main_v553 (addf : (⟨S50000x100, .f32⟩ : BufTy).Contents (Elt F) → (⟨S50000x100, .f32⟩ : BufTy).Contents (Elt F) → (⟨S50000x100, .f32⟩ : BufTy).Contents (Elt F)),
    StableHlo.TRef.nullary (.of main_call19_cst : StableHlo.TRef sig ⟨S_, .f32⟩) (constant S_ .f32 0x00000000#32),
    StableHlo.TRef.unary (.of main_call19_cst : StableHlo.TRef sig ⟨S_, .f32⟩) (.of main_call19_v0 : StableHlo.TRef sig ⟨S50000x100, .f32⟩) (broadcastInDim S50000x100 ![] bcast_S_S50000x100),
    StableHlo.TRef.binary (.of main_v553 : StableHlo.TRef sig ⟨S50000x100, .f32⟩) (.of main_call19_v0 : StableHlo.TRef sig ⟨S50000x100, .f32⟩) (.of main_v554 : StableHlo.TRef sig ⟨S50000x100, .f32⟩) maximumf ]
theorem opsL4_sub : (opsL4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.binary_bufs_sub .., StableHlo.unary_bufs_sub .., StableHlo.binary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- Operations 872 … 891 of the whole run: from the one writing `main_cst_84` through the one writing `main_v570`. -/
abbrev opsHead : List (HloOp τ sig (Elt F)) :=
  [ StableHlo.nullary main_cst_84 (constant S_ .f32 0x00000000#32),
    StableHlo.unary main_cst_84 main_v555 (broadcastInDim S512x100 ![] bcast_S_S512x100 : (⟨S_, .f32⟩ : BufTy).Contents (Elt F) → (⟨S512x100, .f32⟩ : BufTy).Contents (Elt F)),
    StableHlo.unary main_arg3 main_v556 (broadcastInDim S50000x1 ![0] bcast_S50000_S50000x1_0 : (⟨S50000, .i32⟩ : BufTy).Contents (Elt F) → (⟨S50000x1, .i32⟩ : BufTy).Contents (Elt F)),
    StableHlo.ternary main_v555 main_v556 main_v554 main_v557 ((fun x i u => Host.scatterAdd scatter_S512x100_S50000x1_S50000x100_1_0_0_1 x i u) : (⟨S512x100, .f32⟩ : BufTy).Contents (Elt F) → (⟨S50000x1, .i32⟩ : BufTy).Contents (Elt F) → (⟨S50000x100, .f32⟩ : BufTy).Contents (Elt F) → (⟨S512x100, .f32⟩ : BufTy).Contents (Elt F)),
    StableHlo.nullary main_cst_85 (constant S_ .f32 0x3F800000#32),
    StableHlo.unary main_cst_85 main_v558 (broadcastInDim S50000 ![] bcast_S_S50000 : (⟨S_, .f32⟩ : BufTy).Contents (Elt F) → (⟨S50000, .f32⟩ : BufTy).Contents (Elt F)),
    StableHlo.nullary main_cst_86 (constant S_ .f32 0x00000000#32),
    StableHlo.unary main_cst_86 main_v559 (broadcastInDim S512 ![] bcast_S_S512 : (⟨S_, .f32⟩ : BufTy).Contents (Elt F) → (⟨S512, .f32⟩ : BufTy).Contents (Elt F)),
    StableHlo.unary main_arg3 main_v560 (broadcastInDim S50000x1 ![0] bcast_S50000_S50000x1_0 : (⟨S50000, .i32⟩ : BufTy).Contents (Elt F) → (⟨S50000x1, .i32⟩ : BufTy).Contents (Elt F)),
    StableHlo.ternary main_v559 main_v560 main_v558 main_v561 ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)),
    StableHlo.nullary main_cst_87 (constant S_ .f32 0x3F800000#32),
    StableHlo.unary main_cst_87 main_v562 (broadcastInDim S512 ![] bcast_S_S512 : (⟨S_, .f32⟩ : BufTy).Contents (Elt F) → (⟨S512, .f32⟩ : BufTy).Contents (Elt F)),
    StableHlo.binary main_v561 main_v562 main_v563 (maximumf : (⟨S512, .f32⟩ : BufTy).Contents (Elt F) → (⟨S512, .f32⟩ : BufTy).Contents (Elt F) → (⟨S512, .f32⟩ : BufTy).Contents (Elt F)),
    StableHlo.unary main_v563 main_v564 (broadcastInDim S512x1 ![0] bcast_S512_S512x1_0 : (⟨S512, .f32⟩ : BufTy).Contents (Elt F) → (⟨S512x1, .f32⟩ : BufTy).Contents (Elt F)),
    StableHlo.unary main_v564 main_v565 (broadcastInDim S512x100 ![0, 1] bcast_S512x1_S512x100_0_1 : (⟨S512x1, .f32⟩ : BufTy).Contents (Elt F) → (⟨S512x100, .f32⟩ : BufTy).Contents (Elt F)),
    StableHlo.binary main_v557 main_v565 main_v566 (Host.divf : (⟨S512x100, .f32⟩ : BufTy).Contents (Elt F) → (⟨S512x100, .f32⟩ : BufTy).Contents (Elt F) → (⟨S512x100, .f32⟩ : BufTy).Contents (Elt F)),
    StableHlo.binary main_v566 main_arg15 main_v567 ((fun l r => Host.dotGeneral dot_S512x100_S100x2_S512x2_1_0_0_1_n_n none l r) : (⟨S512x100, .f32⟩ : BufTy).Contents (Elt F) → (⟨S100x2, .f32⟩ : BufTy).Contents (Elt F) → (⟨S512x2, .f32⟩ : BufTy).Contents (Elt F)),
    StableHlo.unary main_arg16 main_v568 (broadcastInDim S1x2 ![1] bcast_S2_S1x2_1 : (⟨S2, .f32⟩ : BufTy).Contents (Elt F) → (⟨S1x2, .f32⟩ : BufTy).Contents (Elt F)),
    StableHlo.unary main_v568 main_v569 (broadcastInDim S512x2 ![0, 1] bcast_S1x2_S512x2_0_1 : (⟨S1x2, .f32⟩ : BufTy).Contents (Elt F) → (⟨S512x2, .f32⟩ : BufTy).Contents (Elt F)),
    StableHlo.binary main_v567 main_v569 main_v570 (addf : (⟨S512x2, .f32⟩ : BufTy).Contents (Elt F) → (⟨S512x2, .f32⟩ : BufTy).Contents (Elt F) → (⟨S512x2, .f32⟩ : BufTy).Contents (Elt F)) ]
theorem opsHead_sub : (opsHead : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩

/-- The whole run again: the stages' lists one after the other. -/
abbrev opsSeams : List (HloOp τ sig (Elt F)) := opsInit ++ (opsL0 ++ (opsL1 ++ (opsL2 ++ (opsL3 ++ (opsL4 ++ (opsHead))))))

end Cert.ReferenceIdeal.Hand

end
-- ==== Proof.RefRun.lean ====
/-
  The reference program's run, read off its operations.

  @main is printed as twelve windows run one after the other. Each window is a straight line of host operations, a
  call of a module-local function being the callee's own straight line over the call's buffers; so, window by
  window, the program is the sequence of the listed operations (`partK_eq`), and @main is the sequence of the
  twelve lists one after the other (`main_eq`). None of the operations leaves a buffer it writes undetermined, and
  each touches TensorCore buffers only; hence every weakly fair execution terminates with each buffer at the fold of
  the operations' results over the launch contents (`run_main`). The fold of a concatenation is the fold of its
  pieces in turn: by windows (`after_windows`), and, the same 891 operations being cut at the network's stages
  instead (`ops_eq_seams`), stage by stage (`after_seams`).
-/
import proofs.«403201_j40475771797954_1_alg».proof.Proof.RefOps
import proofs.«403201_j40475771797954_1_alg».proof.Proof.RefSeams
import Idealize.ShloMosaic.Lib.Pipeline.Frame

set_option maxRecDepth 16384

noncomputable section

namespace Cert.ReferenceIdeal.Hand

open Cert.ReferenceIdeal Cert.ReferenceIdeal.Gen Idealize.ShloMosaic Idealize.ShloMosaic.TcCoe Idealize.SL.Sem
open Idealize.ShloMosaic.StableHlo

variable {F : FTy → Type} [FloatOps F]

/-! ## Each window is the sequence of its operations

A window without a call is, statement for statement, the chain `seq` unfolds to. In a window with calls the callees'
bodies are unfolded at the calls and the sequencing reassociated; what is left on both sides is one chain of the same
steps, a record's field at a call being the literal buffer the list names. -/

theorem part0_eq (c : Dev nD) : main_part0 (F := F) c = seq part0 := rfl
theorem part1_eq (c : Dev nD) : main_part1 (F := F) c = seq part1 := rfl
theorem part2_eq (c : Dev nD) : main_part2 (F := F) c = seq part2 := rfl
theorem part3_eq (c : Dev nD) : main_part3 (F := F) c = seq part3 := by
  simp only [main_part3, fn_var.body, fn_where.body, fn_relu.body, seq, bind_assoc, pure_bind]
  rfl
theorem part4_eq (c : Dev nD) : main_part4 (F := F) c = seq part4 := by
  simp only [main_part4, fn_var_0.body, fn_where_1.body, fn_relu_2.body, seq, bind_assoc, pure_bind]
  rfl
theorem part5_eq (c : Dev nD) : main_part5 (F := F) c = seq part5 := by
  simp only [main_part5, fn_var.body, fn_where.body, fn_relu.body, fn_var_0.body, fn_where_1.body, seq, bind_assoc, pure_bind]
  rfl
theorem part6_eq (c : Dev nD) : main_part6 (F := F) c = seq part6 := by
  simp only [main_part6, fn_relu_2.body, fn_var.body, fn_where.body, fn_relu.body, seq, bind_assoc, pure_bind]
  rfl
theorem part7_eq (c : Dev nD) : main_part7 (F := F) c = seq part7 := by
  simp only [main_part7, fn_var_0.body, fn_where_1.body, fn_relu_2.body, seq, bind_assoc, pure_bind]
  rfl
theorem part8_eq (c : Dev nD) : main_part8 (F := F) c = seq part8 := by
  simp only [main_part8, fn_var.body, fn_where.body, fn_relu.body, fn_var_0.body, fn_where_1.body, seq, bind_assoc, pure_bind]
  rfl
theorem part9_eq (c : Dev nD) : main_part9 (F := F) c = seq part9 := by
  simp only [main_part9, fn_relu_2.body, fn_var.body, fn_where.body, seq, bind_assoc, pure_bind]
  rfl
theorem part10_eq (c : Dev nD) : main_part10 (F := F) c = seq part10 := by
  simp only [main_part10, fn_relu.body, fn_var_0.body, fn_where_1.body, fn_relu_2.body, seq, bind_assoc, pure_bind]
  rfl
theorem part11_eq (c : Dev nD) : main_part11 (F := F) c = seq part11 := rfl

/-! ## @main is the sequence of all of them -/

/-- The twelve windows in order are the twelve lists in order, and a concatenation runs as its pieces in turn. -/
theorem main_eq (c : Dev nD) : main (F := F) c = seq ops := by
  simp only [main, part0_eq, part1_eq, part2_eq, part3_eq, part4_eq, part5_eq, part6_eq, part7_eq, part8_eq, part9_eq,
    part10_eq, part11_eq, ops, seq_append]

/-! ## What `run_seq` asks of the list -/

/-- No buffer of the program is scoped. -/
theorem scopedRefs_eq : (Finset.univ.filter fun b : Ref sig .tc => b.isScoped) = ∅ := by decide
/-- The program has no semaphore, so none is scoped. -/
theorem scopedSems_eq : (Finset.univ.filter fun sm : SemLoc sig => sm.isScoped .tc) = ∅ := by decide

/-- Every operation touches TensorCore references only: window by window. -/
theorem ops_sub : (ops : List (HloOp τ sig (Elt F))).Forall fun op => op.bufs ⊆ tcRefs τ sig :=
  List.forall_append.2 ⟨part0_sub, List.forall_append.2 ⟨part1_sub, List.forall_append.2 ⟨part2_sub, List.forall_append.2 ⟨part3_sub, List.forall_append.2 ⟨part4_sub, List.forall_append.2 ⟨part5_sub, List.forall_append.2 ⟨part6_sub, List.forall_append.2 ⟨part7_sub, List.forall_append.2 ⟨part8_sub, List.forall_append.2 ⟨part9_sub, List.forall_append.2 ⟨part10_sub, part11_sub⟩⟩⟩⟩⟩⟩⟩⟩⟩⟩⟩

/-- Every operation of a literal list determines what it writes: member by member, by computation. -/
local macro "no_fresh" : tactic =>
  `(tactic| (intro _ h; (repeat (cases h with | head => rfl | tail _ h => ?_)); exact nomatch h))

theorem part0_fresh : ∀ op ∈ (part0 : List (HloOp τ sig (Elt F))), op.fresh = ∅ := by no_fresh
theorem part1_fresh : ∀ op ∈ (part1 : List (HloOp τ sig (Elt F))), op.fresh = ∅ := by no_fresh
theorem part2_fresh : ∀ op ∈ (part2 : List (HloOp τ sig (Elt F))), op.fresh = ∅ := by no_fresh
theorem part3_fresh : ∀ op ∈ (part3 : List (HloOp τ sig (Elt F))), op.fresh = ∅ := by no_fresh
theorem part4_fresh : ∀ op ∈ (part4 : List (HloOp τ sig (Elt F))), op.fresh = ∅ := by no_fresh
theorem part5_fresh : ∀ op ∈ (part5 : List (HloOp τ sig (Elt F))), op.fresh = ∅ := by no_fresh
theorem part6_fresh : ∀ op ∈ (part6 : List (HloOp τ sig (Elt F))), op.fresh = ∅ := by no_fresh
theorem part7_fresh : ∀ op ∈ (part7 : List (HloOp τ sig (Elt F))), op.fresh = ∅ := by no_fresh
theorem part8_fresh : ∀ op ∈ (part8 : List (HloOp τ sig (Elt F))), op.fresh = ∅ := by no_fresh
theorem part9_fresh : ∀ op ∈ (part9 : List (HloOp τ sig (Elt F))), op.fresh = ∅ := by no_fresh
theorem part10_fresh : ∀ op ∈ (part10 : List (HloOp τ sig (Elt F))), op.fresh = ∅ := by no_fresh
theorem part11_fresh : ∀ op ∈ (part11 : List (HloOp τ sig (Elt F))), op.fresh = ∅ := by no_fresh

/-- No operation of the run leaves a buffer undetermined. -/
theorem ops_fresh : ∀ op ∈ (ops : List (HloOp τ sig (Elt F))), op.fresh = ∅ := by
  intro op h
  simp only [ops, List.mem_append] at h
  rcases h with h | h | h | h | h | h | h | h | h | h | h | h
  exacts [part0_fresh op h, part1_fresh op h, part2_fresh op h, part3_fresh op h, part4_fresh op h, part5_fresh op h,
    part6_fresh op h, part7_fresh op h, part8_fresh op h, part9_fresh op h, part10_fresh op h, part11_fresh op h]

/-! ## The run -/

/-- On every device, for any float values, from any memory with zero counters: every weakly fair execution of @main
    terminates, and every final state has each TensorCore buffer at the fold of the 891 operations' results over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (launchContents m c) (Proc.devRef .tc b) :=
  run_seq scopedRefs_eq scopedSems_eq defs main (fun _ => ops) main_eq (fun _ => ops_sub) m ρ (fun _ => ops_fresh)

/-! ## The fold, piece by piece -/

/-- The fold over the whole run is the fold over the windows in turn. -/
theorem after_windows (V : Valuation τ sig (Elt F)) :
    after ops V = after part11 (after part10 (after part9 (after part8 (after part7 (after part6 (after part5 (after part4 (after part3 (after part2 (after part1 (after part0 (V)))))))))))) := by
  simp only [ops, after_append]

/-- Cut at the network's stages the run is the same list of operations. -/
theorem ops_eq_seams : (ops : List (HloOp τ sig (Elt F))) = opsSeams := rfl

/-- The fold over the whole run is the fold over the stages in turn: the embeddings, the five layers, the readout. -/
theorem after_seams (V : Valuation τ sig (Elt F)) :
    after ops V = after opsHead (after opsL4 (after opsL3 (after opsL2 (after opsL1 (after opsL0 (after opsInit V)))))) := by
  rw [ops_eq_seams]
  simp only [opsSeams, after_append]

end Cert.ReferenceIdeal.Hand

end
-- ==== Proof.RefWrites.lean ====
/- For each list of host operations of the reference program (the printed windows `partK`, the network's stages
   `opsInit` … `opsHead`): the buffers its operations write, one per operation, in the list's order. A buffer
   that is not in a list's table is written by none of its operations. -/
import proofs.«403201_j40475771797954_1_alg».proof.ReferenceIdeal

namespace Cert.ReferenceIdeal.Hand

open Cert.ReferenceIdeal Idealize.ShloMosaic

/-- What `part0`'s 60 operations write. -/
abbrev part0_writes : List (Ref sig .tc) :=
  [main_v0, main_v1, main_v2, main_v3, main_c, main_v4, main_v5, main_c_0, main_v6, main_v7,
   main_v8, main_v9, main_v10, main_cst, main_v11, main_v12, main_v13, main_v14, main_v15, main_v16,
   main_c_1, main_v17, main_v18, main_c_2, main_v19, main_v20, main_v21, main_v22, main_v23, main_v24,
   main_v25, main_v26, main_v27, main_v28, main_c_3, main_v29, main_v30, main_c_4, main_v31, main_v32,
   main_v33, main_v34, main_v35, main_v36, main_v37, main_v38, main_v39, main_v40, main_c_5, main_v41,
   main_v42, main_c_6, main_v43, main_v44, main_v45, main_v46, main_v47, main_v48, main_v49, main_v50]

/-- What `part1`'s 60 operations write. -/
abbrev part1_writes : List (Ref sig .tc) :=
  [main_v51, main_v52, main_c_7, main_v53, main_v54, main_c_8, main_v55, main_v56, main_v57, main_v58,
   main_v59, main_v60, main_v61, main_v62, main_v63, main_v64, main_c_9, main_v65, main_v66, main_c_10,
   main_v67, main_v68, main_v69, main_v70, main_v71, main_v72, main_v73, main_v74, main_v75, main_v76,
   main_c_11, main_v77, main_v78, main_c_12, main_v79, main_v80, main_v81, main_v82, main_v83, main_v84,
   main_v85, main_v86, main_v87, main_v88, main_c_13, main_v89, main_v90, main_c_14, main_v91, main_v92,
   main_v93, main_v94, main_v95, main_v96, main_v97, main_v98, main_v99, main_v100, main_c_15, main_v101]

/-- What `part2`'s 60 operations write. -/
abbrev part2_writes : List (Ref sig .tc) :=
  [main_v102, main_c_16, main_v103, main_v104, main_v105, main_v106, main_v107, main_v108, main_v109, main_v110,
   main_v111, main_v112, main_c_17, main_v113, main_v114, main_c_18, main_v115, main_v116, main_v117, main_v118,
   main_v119, main_cst_19, main_v120, main_v121, main_v122, main_v123, main_v124, main_v125, main_c_20, main_v126,
   main_v127, main_c_21, main_v128, main_v129, main_v130, main_v131, main_v132, main_v133, main_v134, main_v135,
   main_v136, main_v137, main_c_22, main_v138, main_v139, main_c_23, main_v140, main_v141, main_v142, main_v143,
   main_v144, main_v145, main_v146, main_v147, main_v148, main_v149, main_c_24, main_v150, main_v151, main_c_25]

/-- What `part3`'s 83 operations write. -/
abbrev part3_writes : List (Ref sig .tc) :=
  [main_v152, main_v153, main_v154, main_v155, main_v156, main_v157, main_cst_26, main_v158, main_v159, main_v160,
   main_v161, main_v162, main_cst_27, main_v163, main_v164, main_v165, main_v166, main_v167, main_v168, main_v169,
   main_v170, main_v171, main_v172, main_v173, main_v174, main_v175, main_v176, main_v177, main_v178, main_cst_28,
   main_v179, main_cst_29, main_v180, main_v181, main_c_30, main_call0_cst, main_call0_v0, main_call0_v1, main_call0_cst_0, main_call0_v2,
   main_call0_v3, main_call0_v4, main_call0_v5, main_call0_v6, main_call0_v7, main_call0_cst_1, main_call0_v8, main_call0_cst_2, main_call0_v9, main_call0_v10,
   main_call0_v11, main_call0_cst_3, main_call0_v12, main_call0_cst_4, main_call0_call0_v0, main_call0_call0_v1, main_v182, main_v183, main_v184, main_v185,
   main_cst_31, main_v186, main_v187, main_v188, main_v189, main_v190, main_v191, main_v192, main_v193, main_v194,
   main_v195, main_v196, main_v197, main_call1_cst, main_call1_v0, main_v198, main_v199, main_v200, main_v201, main_v202,
   main_v203, main_v204, main_v205]

/-- What `part4`'s 83 operations write. -/
abbrev part4_writes : List (Ref sig .tc) :=
  [main_v206, main_v207, main_v208, main_v209, main_v210, main_cst_32, main_v211, main_cst_33, main_v212, main_v213,
   main_c_34, main_call2_cst, main_call2_v0, main_call2_v1, main_call2_cst_0, main_call2_v2, main_call2_v3, main_call2_v4, main_call2_v5, main_call2_v6,
   main_call2_v7, main_call2_cst_1, main_call2_v8, main_call2_cst_2, main_call2_v9, main_call2_v10, main_call2_v11, main_call2_cst_3, main_call2_v12, main_call2_cst_4,
   main_call2_call0_v0, main_call2_call0_v1, main_v214, main_v215, main_v216, main_v217, main_cst_35, main_v218, main_v219, main_v220,
   main_v221, main_v222, main_v223, main_v224, main_v225, main_v226, main_v227, main_v228, main_v229, main_call3_cst,
   main_call3_v0, main_v230, main_c_36, main_v231, main_v232, main_c_37, main_v233, main_v234, main_v235, main_v236,
   main_v237, main_v238, main_cst_38, main_v239, main_v240, main_v241, main_v242, main_v243, main_cst_39, main_v244,
   main_v245, main_v246, main_v247, main_v248, main_v249, main_v250, main_v251, main_v252, main_v253, main_v254,
   main_v255, main_v256, main_v257]

/-- What `part5`'s 104 operations write. -/
abbrev part5_writes : List (Ref sig .tc) :=
  [main_v258, main_v259, main_cst_40, main_v260, main_cst_41, main_v261, main_v262, main_c_42, main_call4_cst, main_call4_v0,
   main_call4_v1, main_call4_cst_0, main_call4_v2, main_call4_v3, main_call4_v4, main_call4_v5, main_call4_v6, main_call4_v7, main_call4_cst_1, main_call4_v8,
   main_call4_cst_2, main_call4_v9, main_call4_v10, main_call4_v11, main_call4_cst_3, main_call4_v12, main_call4_cst_4, main_call4_call0_v0, main_call4_call0_v1, main_v263,
   main_v264, main_v265, main_v266, main_cst_43, main_v267, main_v268, main_v269, main_v270, main_v271, main_v272,
   main_v273, main_v274, main_v275, main_v276, main_v277, main_v278, main_call5_cst, main_call5_v0, main_v279, main_v280,
   main_v281, main_v282, main_v283, main_v284, main_v285, main_v286, main_v287, main_v288, main_v289, main_v290,
   main_v291, main_cst_44, main_v292, main_cst_45, main_v293, main_v294, main_c_46, main_call6_cst, main_call6_v0, main_call6_v1,
   main_call6_cst_0, main_call6_v2, main_call6_v3, main_call6_v4, main_call6_v5, main_call6_v6, main_call6_v7, main_call6_cst_1, main_call6_v8, main_call6_cst_2,
   main_call6_v9, main_call6_v10, main_call6_v11, main_call6_cst_3, main_call6_v12, main_call6_cst_4, main_call6_call0_v0, main_call6_call0_v1, main_v295, main_v296,
   main_v297, main_v298, main_cst_47, main_v299, main_v300, main_v301, main_v302, main_v303, main_v304, main_v305,
   main_v306, main_v307, main_v308, main_v309]

/-- What `part6`'s 85 operations write. -/
abbrev part6_writes : List (Ref sig .tc) :=
  [main_v310, main_call7_cst, main_call7_v0, main_v311, main_c_48, main_v312, main_v313, main_c_49, main_v314, main_v315,
   main_v316, main_v317, main_v318, main_v319, main_cst_50, main_v320, main_v321, main_v322, main_v323, main_v324,
   main_cst_51, main_v325, main_v326, main_v327, main_v328, main_v329, main_v330, main_v331, main_v332, main_v333,
   main_v334, main_v335, main_v336, main_v337, main_v338, main_v339, main_v340, main_cst_52, main_v341, main_cst_53,
   main_v342, main_v343, main_c_54, main_call8_cst, main_call8_v0, main_call8_v1, main_call8_cst_0, main_call8_v2, main_call8_v3, main_call8_v4,
   main_call8_v5, main_call8_v6, main_call8_v7, main_call8_cst_1, main_call8_v8, main_call8_cst_2, main_call8_v9, main_call8_v10, main_call8_v11, main_call8_cst_3,
   main_call8_v12, main_call8_cst_4, main_call8_call0_v0, main_call8_call0_v1, main_v344, main_v345, main_v346, main_v347, main_cst_55, main_v348,
   main_v349, main_v350, main_v351, main_v352, main_v353, main_v354, main_v355, main_v356, main_v357, main_v358,
   main_v359, main_call9_cst, main_call9_v0, main_v360, main_v361]

/-- What `part7`'s 83 operations write. -/
abbrev part7_writes : List (Ref sig .tc) :=
  [main_v362, main_v363, main_v364, main_v365, main_v366, main_v367, main_v368, main_v369, main_v370, main_v371,
   main_v372, main_cst_56, main_v373, main_cst_57, main_v374, main_v375, main_c_58, main_call10_cst, main_call10_v0, main_call10_v1,
   main_call10_cst_0, main_call10_v2, main_call10_v3, main_call10_v4, main_call10_v5, main_call10_v6, main_call10_v7, main_call10_cst_1, main_call10_v8, main_call10_cst_2,
   main_call10_v9, main_call10_v10, main_call10_v11, main_call10_cst_3, main_call10_v12, main_call10_cst_4, main_call10_call0_v0, main_call10_call0_v1, main_v376, main_v377,
   main_v378, main_v379, main_cst_59, main_v380, main_v381, main_v382, main_v383, main_v384, main_v385, main_v386,
   main_v387, main_v388, main_v389, main_v390, main_v391, main_call11_cst, main_call11_v0, main_v392, main_c_60, main_v393,
   main_v394, main_c_61, main_v395, main_v396, main_v397, main_v398, main_v399, main_v400, main_cst_62, main_v401,
   main_v402, main_v403, main_v404, main_v405, main_cst_63, main_v406, main_v407, main_v408, main_v409, main_v410,
   main_v411, main_v412, main_v413]

/-- What `part8`'s 104 operations write. -/
abbrev part8_writes : List (Ref sig .tc) :=
  [main_v414, main_v415, main_v416, main_v417, main_v418, main_v419, main_v420, main_v421, main_cst_64, main_v422,
   main_cst_65, main_v423, main_v424, main_c_66, main_call12_cst, main_call12_v0, main_call12_v1, main_call12_cst_0, main_call12_v2, main_call12_v3,
   main_call12_v4, main_call12_v5, main_call12_v6, main_call12_v7, main_call12_cst_1, main_call12_v8, main_call12_cst_2, main_call12_v9, main_call12_v10, main_call12_v11,
   main_call12_cst_3, main_call12_v12, main_call12_cst_4, main_call12_call0_v0, main_call12_call0_v1, main_v425, main_v426, main_v427, main_v428, main_cst_67,
   main_v429, main_v430, main_v431, main_v432, main_v433, main_v434, main_v435, main_v436, main_v437, main_v438,
   main_v439, main_v440, main_call13_cst, main_call13_v0, main_v441, main_v442, main_v443, main_v444, main_v445, main_v446,
   main_v447, main_v448, main_v449, main_v450, main_v451, main_v452, main_v453, main_cst_68, main_v454, main_cst_69,
   main_v455, main_v456, main_c_70, main_call14_cst, main_call14_v0, main_call14_v1, main_call14_cst_0, main_call14_v2, main_call14_v3, main_call14_v4,
   main_call14_v5, main_call14_v6, main_call14_v7, main_call14_cst_1, main_call14_v8, main_call14_cst_2, main_call14_v9, main_call14_v10, main_call14_v11, main_call14_cst_3,
   main_call14_v12, main_call14_cst_4, main_call14_call0_v0, main_call14_call0_v1, main_v457, main_v458, main_v459, main_v460, main_cst_71, main_v461,
   main_v462, main_v463, main_v464, main_v465]

/-- What `part9`'s 83 operations write. -/
abbrev part9_writes : List (Ref sig .tc) :=
  [main_v466, main_v467, main_v468, main_v469, main_v470, main_v471, main_v472, main_call15_cst, main_call15_v0, main_v473,
   main_c_72, main_v474, main_v475, main_c_73, main_v476, main_v477, main_v478, main_v479, main_v480, main_v481,
   main_cst_74, main_v482, main_v483, main_v484, main_v485, main_v486, main_cst_75, main_v487, main_v488, main_v489,
   main_v490, main_v491, main_v492, main_v493, main_v494, main_v495, main_v496, main_v497, main_v498, main_v499,
   main_v500, main_v501, main_v502, main_cst_76, main_v503, main_cst_77, main_v504, main_v505, main_c_78, main_call16_cst,
   main_call16_v0, main_call16_v1, main_call16_cst_0, main_call16_v2, main_call16_v3, main_call16_v4, main_call16_v5, main_call16_v6, main_call16_v7, main_call16_cst_1,
   main_call16_v8, main_call16_cst_2, main_call16_v9, main_call16_v10, main_call16_v11, main_call16_cst_3, main_call16_v12, main_call16_cst_4, main_call16_call0_v0, main_call16_call0_v1,
   main_v506, main_v507, main_v508, main_v509, main_cst_79, main_v510, main_v511, main_v512, main_v513, main_v514,
   main_v515, main_v516, main_v517]

/-- What `part10`'s 85 operations write. -/
abbrev part10_writes : List (Ref sig .tc) :=
  [main_v518, main_v519, main_v520, main_v521, main_call17_cst, main_call17_v0, main_v522, main_v523, main_v524, main_v525,
   main_v526, main_v527, main_v528, main_v529, main_v530, main_v531, main_v532, main_v533, main_v534, main_cst_80,
   main_v535, main_cst_81, main_v536, main_v537, main_c_82, main_call18_cst, main_call18_v0, main_call18_v1, main_call18_cst_0, main_call18_v2,
   main_call18_v3, main_call18_v4, main_call18_v5, main_call18_v6, main_call18_v7, main_call18_cst_1, main_call18_v8, main_call18_cst_2, main_call18_v9, main_call18_v10,
   main_call18_v11, main_call18_cst_3, main_call18_v12, main_call18_cst_4, main_call18_call0_v0, main_call18_call0_v1, main_v538, main_v539, main_v540, main_v541,
   main_cst_83, main_v542, main_v543, main_v544, main_v545, main_v546, main_v547, main_v548, main_v549, main_v550,
   main_v551, main_v552, main_v553, main_call19_cst, main_call19_v0, main_v554, main_cst_84, main_v555, main_v556, main_v557,
   main_cst_85, main_v558, main_cst_86, main_v559, main_v560, main_v561, main_cst_87, main_v562, main_v563, main_v564,
   main_v565, main_v566, main_v567, main_v568, main_v569]

/-- What `part11`'s 1 operation writes. -/
abbrev part11_writes : List (Ref sig .tc) :=
  [main_v570]

/-- What `opsInit`'s 176 operations write. -/
abbrev opsInit_writes : List (Ref sig .tc) :=
  [main_v0, main_v1, main_v2, main_v3, main_c, main_v4, main_v5, main_c_0, main_v6, main_v7,
   main_v8, main_v9, main_v10, main_cst, main_v11, main_v12, main_v13, main_v14, main_v15, main_v16,
   main_c_1, main_v17, main_v18, main_c_2, main_v19, main_v20, main_v21, main_v22, main_v23, main_v24,
   main_v25, main_v26, main_v27, main_v28, main_c_3, main_v29, main_v30, main_c_4, main_v31, main_v32,
   main_v33, main_v34, main_v35, main_v36, main_v37, main_v38, main_v39, main_v40, main_c_5, main_v41,
   main_v42, main_c_6, main_v43, main_v44, main_v45, main_v46, main_v47, main_v48, main_v49, main_v50,
   main_v51, main_v52, main_c_7, main_v53, main_v54, main_c_8, main_v55, main_v56, main_v57, main_v58,
   main_v59, main_v60, main_v61, main_v62, main_v63, main_v64, main_c_9, main_v65, main_v66, main_c_10,
   main_v67, main_v68, main_v69, main_v70, main_v71, main_v72, main_v73, main_v74, main_v75, main_v76,
   main_c_11, main_v77, main_v78, main_c_12, main_v79, main_v80, main_v81, main_v82, main_v83, main_v84,
   main_v85, main_v86, main_v87, main_v88, main_c_13, main_v89, main_v90, main_c_14, main_v91, main_v92,
   main_v93, main_v94, main_v95, main_v96, main_v97, main_v98, main_v99, main_v100, main_c_15, main_v101,
   main_v102, main_c_16, main_v103, main_v104, main_v105, main_v106, main_v107, main_v108, main_v109, main_v110,
   main_v111, main_v112, main_c_17, main_v113, main_v114, main_c_18, main_v115, main_v116, main_v117, main_v118,
   main_v119, main_cst_19, main_v120, main_v121, main_v122, main_v123, main_v124, main_v125, main_c_20, main_v126,
   main_v127, main_c_21, main_v128, main_v129, main_v130, main_v131, main_v132, main_v133, main_v134, main_v135,
   main_v136, main_v137, main_c_22, main_v138, main_v139, main_c_23, main_v140, main_v141, main_v142, main_v143,
   main_v144, main_v145, main_v146, main_v147, main_v148, main_v149]

/-- What `opsL0`'s 139 operations write. -/
abbrev opsL0_writes : List (Ref sig .tc) :=
  [main_c_24, main_v150, main_v151, main_c_25, main_v152, main_v153, main_v154, main_v155, main_v156, main_v157,
   main_cst_26, main_v158, main_v159, main_v160, main_v161, main_v162, main_cst_27, main_v163, main_v164, main_v165,
   main_v166, main_v167, main_v168, main_v169, main_v170, main_v171, main_v172, main_v173, main_v174, main_v175,
   main_v176, main_v177, main_v178, main_cst_28, main_v179, main_cst_29, main_v180, main_v181, main_c_30, main_call0_cst,
   main_call0_v0, main_call0_v1, main_call0_cst_0, main_call0_v2, main_call0_v3, main_call0_v4, main_call0_v5, main_call0_v6, main_call0_v7, main_call0_cst_1,
   main_call0_v8, main_call0_cst_2, main_call0_v9, main_call0_v10, main_call0_v11, main_call0_cst_3, main_call0_v12, main_call0_cst_4, main_call0_call0_v0, main_call0_call0_v1,
   main_v182, main_v183, main_v184, main_v185, main_cst_31, main_v186, main_v187, main_v188, main_v189, main_v190,
   main_v191, main_v192, main_v193, main_v194, main_v195, main_v196, main_v197, main_call1_cst, main_call1_v0, main_v198,
   main_v199, main_v200, main_v201, main_v202, main_v203, main_v204, main_v205, main_v206, main_v207, main_v208,
   main_v209, main_v210, main_cst_32, main_v211, main_cst_33, main_v212, main_v213, main_c_34, main_call2_cst, main_call2_v0,
   main_call2_v1, main_call2_cst_0, main_call2_v2, main_call2_v3, main_call2_v4, main_call2_v5, main_call2_v6, main_call2_v7, main_call2_cst_1, main_call2_v8,
   main_call2_cst_2, main_call2_v9, main_call2_v10, main_call2_v11, main_call2_cst_3, main_call2_v12, main_call2_cst_4, main_call2_call0_v0, main_call2_call0_v1, main_v214,
   main_v215, main_v216, main_v217, main_cst_35, main_v218, main_v219, main_v220, main_v221, main_v222, main_v223,
   main_v224, main_v225, main_v226, main_v227, main_v228, main_v229, main_call3_cst, main_call3_v0, main_v230]

/-- What `opsL1`'s 139 operations write. -/
abbrev opsL1_writes : List (Ref sig .tc) :=
  [main_c_36, main_v231, main_v232, main_c_37, main_v233, main_v234, main_v235, main_v236, main_v237, main_v238,
   main_cst_38, main_v239, main_v240, main_v241, main_v242, main_v243, main_cst_39, main_v244, main_v245, main_v246,
   main_v247, main_v248, main_v249, main_v250, main_v251, main_v252, main_v253, main_v254, main_v255, main_v256,
   main_v257, main_v258, main_v259, main_cst_40, main_v260, main_cst_41, main_v261, main_v262, main_c_42, main_call4_cst,
   main_call4_v0, main_call4_v1, main_call4_cst_0, main_call4_v2, main_call4_v3, main_call4_v4, main_call4_v5, main_call4_v6, main_call4_v7, main_call4_cst_1,
   main_call4_v8, main_call4_cst_2, main_call4_v9, main_call4_v10, main_call4_v11, main_call4_cst_3, main_call4_v12, main_call4_cst_4, main_call4_call0_v0, main_call4_call0_v1,
   main_v263, main_v264, main_v265, main_v266, main_cst_43, main_v267, main_v268, main_v269, main_v270, main_v271,
   main_v272, main_v273, main_v274, main_v275, main_v276, main_v277, main_v278, main_call5_cst, main_call5_v0, main_v279,
   main_v280, main_v281, main_v282, main_v283, main_v284, main_v285, main_v286, main_v287, main_v288, main_v289,
   main_v290, main_v291, main_cst_44, main_v292, main_cst_45, main_v293, main_v294, main_c_46, main_call6_cst, main_call6_v0,
   main_call6_v1, main_call6_cst_0, main_call6_v2, main_call6_v3, main_call6_v4, main_call6_v5, main_call6_v6, main_call6_v7, main_call6_cst_1, main_call6_v8,
   main_call6_cst_2, main_call6_v9, main_call6_v10, main_call6_v11, main_call6_cst_3, main_call6_v12, main_call6_cst_4, main_call6_call0_v0, main_call6_call0_v1, main_v295,
   main_v296, main_v297, main_v298, main_cst_47, main_v299, main_v300, main_v301, main_v302, main_v303, main_v304,
   main_v305, main_v306, main_v307, main_v308, main_v309, main_v310, main_call7_cst, main_call7_v0, main_v311]

/-- What `opsL2`'s 139 operations write. -/
abbrev opsL2_writes : List (Ref sig .tc) :=
  [main_c_48, main_v312, main_v313, main_c_49, main_v314, main_v315, main_v316, main_v317, main_v318, main_v319,
   main_cst_50, main_v320, main_v321, main_v322, main_v323, main_v324, main_cst_51, main_v325, main_v326, main_v327,
   main_v328, main_v329, main_v330, main_v331, main_v332, main_v333, main_v334, main_v335, main_v336, main_v337,
   main_v338, main_v339, main_v340, main_cst_52, main_v341, main_cst_53, main_v342, main_v343, main_c_54, main_call8_cst,
   main_call8_v0, main_call8_v1, main_call8_cst_0, main_call8_v2, main_call8_v3, main_call8_v4, main_call8_v5, main_call8_v6, main_call8_v7, main_call8_cst_1,
   main_call8_v8, main_call8_cst_2, main_call8_v9, main_call8_v10, main_call8_v11, main_call8_cst_3, main_call8_v12, main_call8_cst_4, main_call8_call0_v0, main_call8_call0_v1,
   main_v344, main_v345, main_v346, main_v347, main_cst_55, main_v348, main_v349, main_v350, main_v351, main_v352,
   main_v353, main_v354, main_v355, main_v356, main_v357, main_v358, main_v359, main_call9_cst, main_call9_v0, main_v360,
   main_v361, main_v362, main_v363, main_v364, main_v365, main_v366, main_v367, main_v368, main_v369, main_v370,
   main_v371, main_v372, main_cst_56, main_v373, main_cst_57, main_v374, main_v375, main_c_58, main_call10_cst, main_call10_v0,
   main_call10_v1, main_call10_cst_0, main_call10_v2, main_call10_v3, main_call10_v4, main_call10_v5, main_call10_v6, main_call10_v7, main_call10_cst_1, main_call10_v8,
   main_call10_cst_2, main_call10_v9, main_call10_v10, main_call10_v11, main_call10_cst_3, main_call10_v12, main_call10_cst_4, main_call10_call0_v0, main_call10_call0_v1, main_v376,
   main_v377, main_v378, main_v379, main_cst_59, main_v380, main_v381, main_v382, main_v383, main_v384, main_v385,
   main_v386, main_v387, main_v388, main_v389, main_v390, main_v391, main_call11_cst, main_call11_v0, main_v392]

/-- What `opsL3`'s 139 operations write. -/
abbrev opsL3_writes : List (Ref sig .tc) :=
  [main_c_60, main_v393, main_v394, main_c_61, main_v395, main_v396, main_v397, main_v398, main_v399, main_v400,
   main_cst_62, main_v401, main_v402, main_v403, main_v404, main_v405, main_cst_63, main_v406, main_v407, main_v408,
   main_v409, main_v410, main_v411, main_v412, main_v413, main_v414, main_v415, main_v416, main_v417, main_v418,
   main_v419, main_v420, main_v421, main_cst_64, main_v422, main_cst_65, main_v423, main_v424, main_c_66, main_call12_cst,
   main_call12_v0, main_call12_v1, main_call12_cst_0, main_call12_v2, main_call12_v3, main_call12_v4, main_call12_v5, main_call12_v6, main_call12_v7, main_call12_cst_1,
   main_call12_v8, main_call12_cst_2, main_call12_v9, main_call12_v10, main_call12_v11, main_call12_cst_3, main_call12_v12, main_call12_cst_4, main_call12_call0_v0, main_call12_call0_v1,
   main_v425, main_v426, main_v427, main_v428, main_cst_67, main_v429, main_v430, main_v431, main_v432, main_v433,
   main_v434, main_v435, main_v436, main_v437, main_v438, main_v439, main_v440, main_call13_cst, main_call13_v0, main_v441,
   main_v442, main_v443, main_v444, main_v445, main_v446, main_v447, main_v448, main_v449, main_v450, main_v451,
   main_v452, main_v453, main_cst_68, main_v454, main_cst_69, main_v455, main_v456, main_c_70, main_call14_cst, main_call14_v0,
   main_call14_v1, main_call14_cst_0, main_call14_v2, main_call14_v3, main_call14_v4, main_call14_v5, main_call14_v6, main_call14_v7, main_call14_cst_1, main_call14_v8,
   main_call14_cst_2, main_call14_v9, main_call14_v10, main_call14_v11, main_call14_cst_3, main_call14_v12, main_call14_cst_4, main_call14_call0_v0, main_call14_call0_v1, main_v457,
   main_v458, main_v459, main_v460, main_cst_71, main_v461, main_v462, main_v463, main_v464, main_v465, main_v466,
   main_v467, main_v468, main_v469, main_v470, main_v471, main_v472, main_call15_cst, main_call15_v0, main_v473]

/-- What `opsL4`'s 139 operations write. -/
abbrev opsL4_writes : List (Ref sig .tc) :=
  [main_c_72, main_v474, main_v475, main_c_73, main_v476, main_v477, main_v478, main_v479, main_v480, main_v481,
   main_cst_74, main_v482, main_v483, main_v484, main_v485, main_v486, main_cst_75, main_v487, main_v488, main_v489,
   main_v490, main_v491, main_v492, main_v493, main_v494, main_v495, main_v496, main_v497, main_v498, main_v499,
   main_v500, main_v501, main_v502, main_cst_76, main_v503, main_cst_77, main_v504, main_v505, main_c_78, main_call16_cst,
   main_call16_v0, main_call16_v1, main_call16_cst_0, main_call16_v2, main_call16_v3, main_call16_v4, main_call16_v5, main_call16_v6, main_call16_v7, main_call16_cst_1,
   main_call16_v8, main_call16_cst_2, main_call16_v9, main_call16_v10, main_call16_v11, main_call16_cst_3, main_call16_v12, main_call16_cst_4, main_call16_call0_v0, main_call16_call0_v1,
   main_v506, main_v507, main_v508, main_v509, main_cst_79, main_v510, main_v511, main_v512, main_v513, main_v514,
   main_v515, main_v516, main_v517, main_v518, main_v519, main_v520, main_v521, main_call17_cst, main_call17_v0, main_v522,
   main_v523, main_v524, main_v525, main_v526, main_v527, main_v528, main_v529, main_v530, main_v531, main_v532,
   main_v533, main_v534, main_cst_80, main_v535, main_cst_81, main_v536, main_v537, main_c_82, main_call18_cst, main_call18_v0,
   main_call18_v1, main_call18_cst_0, main_call18_v2, main_call18_v3, main_call18_v4, main_call18_v5, main_call18_v6, main_call18_v7, main_call18_cst_1, main_call18_v8,
   main_call18_cst_2, main_call18_v9, main_call18_v10, main_call18_v11, main_call18_cst_3, main_call18_v12, main_call18_cst_4, main_call18_call0_v0, main_call18_call0_v1, main_v538,
   main_v539, main_v540, main_v541, main_cst_83, main_v542, main_v543, main_v544, main_v545, main_v546, main_v547,
   main_v548, main_v549, main_v550, main_v551, main_v552, main_v553, main_call19_cst, main_call19_v0, main_v554]

/-- What `opsHead`'s 20 operations write. -/
abbrev opsHead_writes : List (Ref sig .tc) :=
  [main_cst_84, main_v555, main_v556, main_v557, main_cst_85, main_v558, main_cst_86, main_v559, main_v560, main_v561,
   main_cst_87, main_v562, main_v563, main_v564, main_v565, main_v566, main_v567, main_v568, main_v569, main_v570]

end Cert.ReferenceIdeal.Hand
-- ==== Proof.RArgs.lean ====
/-
  The reference program's arguments end as launched.

  Each operation of the run writes exactly one buffer, its result, and the results are the program's own values: no
  operation's result is one of the seventeen arguments. So the fold of the run's results, read at an argument's
  buffer, is what the launch put there. The fact is stated once for any list of operations whose written buffers are
  tabulated (`after_keep_of_writes`: a buffer outside the table keeps its contents), instantiated at each stage's
  list (`opsInit_keep` … `opsHead_keep`, for ANY buffer the stage does not write, the side condition decidable)
  and at each window's, and then chained over the stages for the arguments (`arg_keep`). With the run's
  termination (`run_main`) this is the program's frame: every execution ends with the arguments unchanged
  (`run_args`).
-/
import proofs.«403201_j40475771797954_1_alg».proof.Proof.RefRun
import proofs.«403201_j40475771797954_1_alg».proof.Proof.RefWrites

set_option maxRecDepth 16384

noncomputable section

namespace Cert.ReferenceIdeal.Hand

open Cert.ReferenceIdeal Cert.ReferenceIdeal.Gen Idealize.ShloMosaic Idealize.ShloMosaic.TcCoe Idealize.SL.Sem
open Idealize.ShloMosaic.StableHlo

variable {F : FTy → Type} [FloatOps F]

/-! ## A buffer outside the table of written buffers keeps its contents -/

/-- If the operations of `l` write, one each and in order, the buffers listed in `W`, then a reference that is not in
    `W` holds after `l` what it held before: an operation writing it would be one of `W`'s (references are told
    apart before they are read as device buffers, `Proc.devRef` being injective). -/
theorem after_keep_of_writes {l : List (HloOp τ sig (Elt F))} {W : List (Ref sig .tc)}
    (hW : l.map (fun op => op.writes) = W.map fun y => ({Proc.devRef (τ := τ) .tc y} : Finset (DevRef τ sig)))
    {r : Ref sig .tc} (hr : r ∉ W) (V : Valuation τ sig (Elt F)) :
    after l V (Proc.devRef .tc r) = V (Proc.devRef .tc r) :=
  after_of_forall_not_mem l V fun op hop hb => by
    have hmem : op.writes ∈ l.map (fun op => op.writes) := List.mem_map.mpr ⟨op, hop, rfl⟩
    rw [hW] at hmem
    obtain ⟨y, hy, he⟩ := List.mem_map.mp hmem
    rw [← he, Finset.mem_singleton] at hb
    exact hr (by rw [Proc.devRef_injective _ hb]; exact hy)

/-! ## The tables are the lists' written buffers

Each builder's `writes` is by definition the singleton of its result buffer, and a typed reference made of a literal
one is that literal: the two lists agree entry by entry, by computation. -/

theorem opsInit_writes_eq : (opsInit : List (HloOp τ sig (Elt F))).map (fun op => op.writes)
    = opsInit_writes.map fun y => ({Proc.devRef (τ := τ) .tc y} : Finset (DevRef τ sig)) := rfl
theorem opsL0_writes_eq : (opsL0 : List (HloOp τ sig (Elt F))).map (fun op => op.writes)
    = opsL0_writes.map fun y => ({Proc.devRef (τ := τ) .tc y} : Finset (DevRef τ sig)) := rfl
theorem opsL1_writes_eq : (opsL1 : List (HloOp τ sig (Elt F))).map (fun op => op.writes)
    = opsL1_writes.map fun y => ({Proc.devRef (τ := τ) .tc y} : Finset (DevRef τ sig)) := rfl
theorem opsL2_writes_eq : (opsL2 : List (HloOp τ sig (Elt F))).map (fun op => op.writes)
    = opsL2_writes.map fun y => ({Proc.devRef (τ := τ) .tc y} : Finset (DevRef τ sig)) := rfl
theorem opsL3_writes_eq : (opsL3 : List (HloOp τ sig (Elt F))).map (fun op => op.writes)
    = opsL3_writes.map fun y => ({Proc.devRef (τ := τ) .tc y} : Finset (DevRef τ sig)) := rfl
theorem opsL4_writes_eq : (opsL4 : List (HloOp τ sig (Elt F))).map (fun op => op.writes)
    = opsL4_writes.map fun y => ({Proc.devRef (τ := τ) .tc y} : Finset (DevRef τ sig)) := rfl
theorem opsHead_writes_eq : (opsHead : List (HloOp τ sig (Elt F))).map (fun op => op.writes)
    = opsHead_writes.map fun y => ({Proc.devRef (τ := τ) .tc y} : Finset (DevRef τ sig)) := rfl

theorem part0_writes_eq : (part0 : List (HloOp τ sig (Elt F))).map (fun op => op.writes)
    = part0_writes.map fun y => ({Proc.devRef (τ := τ) .tc y} : Finset (DevRef τ sig)) := rfl
theorem part1_writes_eq : (part1 : List (HloOp τ sig (Elt F))).map (fun op => op.writes)
    = part1_writes.map fun y => ({Proc.devRef (τ := τ) .tc y} : Finset (DevRef τ sig)) := rfl
theorem part2_writes_eq : (part2 : List (HloOp τ sig (Elt F))).map (fun op => op.writes)
    = part2_writes.map fun y => ({Proc.devRef (τ := τ) .tc y} : Finset (DevRef τ sig)) := rfl
theorem part3_writes_eq : (part3 : List (HloOp τ sig (Elt F))).map (fun op => op.writes)
    = part3_writes.map fun y => ({Proc.devRef (τ := τ) .tc y} : Finset (DevRef τ sig)) := rfl
theorem part4_writes_eq : (part4 : List (HloOp τ sig (Elt F))).map (fun op => op.writes)
    = part4_writes.map fun y => ({Proc.devRef (τ := τ) .tc y} : Finset (DevRef τ sig)) := rfl
theorem part5_writes_eq : (part5 : List (HloOp τ sig (Elt F))).map (fun op => op.writes)
    = part5_writes.map fun y => ({Proc.devRef (τ := τ) .tc y} : Finset (DevRef τ sig)) := rfl
theorem part6_writes_eq : (part6 : List (HloOp τ sig (Elt F))).map (fun op => op.writes)
    = part6_writes.map fun y => ({Proc.devRef (τ := τ) .tc y} : Finset (DevRef τ sig)) := rfl
theorem part7_writes_eq : (part7 : List (HloOp τ sig (Elt F))).map (fun op => op.writes)
    = part7_writes.map fun y => ({Proc.devRef (τ := τ) .tc y} : Finset (DevRef τ sig)) := rfl
theorem part8_writes_eq : (part8 : List (HloOp τ sig (Elt F))).map (fun op => op.writes)
    = part8_writes.map fun y => ({Proc.devRef (τ := τ) .tc y} : Finset (DevRef τ sig)) := rfl
theorem part9_writes_eq : (part9 : List (HloOp τ sig (Elt F))).map (fun op => op.writes)
    = part9_writes.map fun y => ({Proc.devRef (τ := τ) .tc y} : Finset (DevRef τ sig)) := rfl
theorem part10_writes_eq : (part10 : List (HloOp τ sig (Elt F))).map (fun op => op.writes)
    = part10_writes.map fun y => ({Proc.devRef (τ := τ) .tc y} : Finset (DevRef τ sig)) := rfl
theorem part11_writes_eq : (part11 : List (HloOp τ sig (Elt F))).map (fun op => op.writes)
    = part11_writes.map fun y => ({Proc.devRef (τ := τ) .tc y} : Finset (DevRef τ sig)) := rfl

/-! ## Stage by stage and window by window: a buffer the list does not write is kept

The side condition `r ∉ …_writes` is a decidable statement about literal references (`by decide`). -/

theorem opsInit_keep {r : Ref sig .tc} (hr : r ∉ opsInit_writes) (V : Valuation τ sig (Elt F)) :
    after opsInit V (Proc.devRef .tc r) = V (Proc.devRef .tc r) := after_keep_of_writes opsInit_writes_eq hr V
theorem opsL0_keep {r : Ref sig .tc} (hr : r ∉ opsL0_writes) (V : Valuation τ sig (Elt F)) :
    after opsL0 V (Proc.devRef .tc r) = V (Proc.devRef .tc r) := after_keep_of_writes opsL0_writes_eq hr V
theorem opsL1_keep {r : Ref sig .tc} (hr : r ∉ opsL1_writes) (V : Valuation τ sig (Elt F)) :
    after opsL1 V (Proc.devRef .tc r) = V (Proc.devRef .tc r) := after_keep_of_writes opsL1_writes_eq hr V
theorem opsL2_keep {r : Ref sig .tc} (hr : r ∉ opsL2_writes) (V : Valuation τ sig (Elt F)) :
    after opsL2 V (Proc.devRef .tc r) = V (Proc.devRef .tc r) := after_keep_of_writes opsL2_writes_eq hr V
theorem opsL3_keep {r : Ref sig .tc} (hr : r ∉ opsL3_writes) (V : Valuation τ sig (Elt F)) :
    after opsL3 V (Proc.devRef .tc r) = V (Proc.devRef .tc r) := after_keep_of_writes opsL3_writes_eq hr V
theorem opsL4_keep {r : Ref sig .tc} (hr : r ∉ opsL4_writes) (V : Valuation τ sig (Elt F)) :
    after opsL4 V (Proc.devRef .tc r) = V (Proc.devRef .tc r) := after_keep_of_writes opsL4_writes_eq hr V
theorem opsHead_keep {r : Ref sig .tc} (hr : r ∉ opsHead_writes) (V : Valuation τ sig (Elt F)) :
    after opsHead V (Proc.devRef .tc r) = V (Proc.devRef .tc r) := after_keep_of_writes opsHead_writes_eq hr V

theorem part0_keep {r : Ref sig .tc} (hr : r ∉ part0_writes) (V : Valuation τ sig (Elt F)) :
    after part0 V (Proc.devRef .tc r) = V (Proc.devRef .tc r) := after_keep_of_writes part0_writes_eq hr V
theorem part1_keep {r : Ref sig .tc} (hr : r ∉ part1_writes) (V : Valuation τ sig (Elt F)) :
    after part1 V (Proc.devRef .tc r) = V (Proc.devRef .tc r) := after_keep_of_writes part1_writes_eq hr V
theorem part2_keep {r : Ref sig .tc} (hr : r ∉ part2_writes) (V : Valuation τ sig (Elt F)) :
    after part2 V (Proc.devRef .tc r) = V (Proc.devRef .tc r) := after_keep_of_writes part2_writes_eq hr V
theorem part3_keep {r : Ref sig .tc} (hr : r ∉ part3_writes) (V : Valuation τ sig (Elt F)) :
    after part3 V (Proc.devRef .tc r) = V (Proc.devRef .tc r) := after_keep_of_writes part3_writes_eq hr V
theorem part4_keep {r : Ref sig .tc} (hr : r ∉ part4_writes) (V : Valuation τ sig (Elt F)) :
    after part4 V (Proc.devRef .tc r) = V (Proc.devRef .tc r) := after_keep_of_writes part4_writes_eq hr V
theorem part5_keep {r : Ref sig .tc} (hr : r ∉ part5_writes) (V : Valuation τ sig (Elt F)) :
    after part5 V (Proc.devRef .tc r) = V (Proc.devRef .tc r) := after_keep_of_writes part5_writes_eq hr V
theorem part6_keep {r : Ref sig .tc} (hr : r ∉ part6_writes) (V : Valuation τ sig (Elt F)) :
    after part6 V (Proc.devRef .tc r) = V (Proc.devRef .tc r) := after_keep_of_writes part6_writes_eq hr V
theorem part7_keep {r : Ref sig .tc} (hr : r ∉ part7_writes) (V : Valuation τ sig (Elt F)) :
    after part7 V (Proc.devRef .tc r) = V (Proc.devRef .tc r) := after_keep_of_writes part7_writes_eq hr V
theorem part8_keep {r : Ref sig .tc} (hr : r ∉ part8_writes) (V : Valuation τ sig (Elt F)) :
    after part8 V (Proc.devRef .tc r) = V (Proc.devRef .tc r) := after_keep_of_writes part8_writes_eq hr V
theorem part9_keep {r : Ref sig .tc} (hr : r ∉ part9_writes) (V : Valuation τ sig (Elt F)) :
    after part9 V (Proc.devRef .tc r) = V (Proc.devRef .tc r) := after_keep_of_writes part9_writes_eq hr V
theorem part10_keep {r : Ref sig .tc} (hr : r ∉ part10_writes) (V : Valuation τ sig (Elt F)) :
    after part10 V (Proc.devRef .tc r) = V (Proc.devRef .tc r) := after_keep_of_writes part10_writes_eq hr V
theorem part11_keep {r : Ref sig .tc} (hr : r ∉ part11_writes) (V : Valuation τ sig (Elt F)) :
    after part11 V (Proc.devRef .tc r) = V (Proc.devRef .tc r) := after_keep_of_writes part11_writes_eq hr V

/-! ## The arguments -/

/-- The program's seventeen arguments. -/
abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16]

/-- No stage writes an argument: every written buffer is a value of the program's own. -/
theorem opsInit_args : ∀ r ∈ argRefs, r ∉ opsInit_writes := by decide
theorem opsL0_args : ∀ r ∈ argRefs, r ∉ opsL0_writes := by decide
theorem opsL1_args : ∀ r ∈ argRefs, r ∉ opsL1_writes := by decide
theorem opsL2_args : ∀ r ∈ argRefs, r ∉ opsL2_writes := by decide
theorem opsL3_args : ∀ r ∈ argRefs, r ∉ opsL3_writes := by decide
theorem opsL4_args : ∀ r ∈ argRefs, r ∉ opsL4_writes := by decide
theorem opsHead_args : ∀ r ∈ argRefs, r ∉ opsHead_writes := by decide

/-- Through the whole run an argument's buffer keeps its contents: stage by stage none writes it. -/
theorem arg_keep {r : Ref sig .tc} (hr : r ∈ argRefs) (V : Valuation τ sig (Elt F)) :
    after ops V (Proc.devRef .tc r) = V (Proc.devRef .tc r) := by
  rw [after_seams, opsHead_keep (opsHead_args r hr), opsL4_keep (opsL4_args r hr), opsL3_keep (opsL3_args r hr),
    opsL2_keep (opsL2_args r hr), opsL1_keep (opsL1_args r hr), opsL0_keep (opsL0_args r hr),
    opsInit_keep (opsInit_args r hr)]

theorem arg_keep_0 (V : Valuation τ sig (Elt F)) :
    StableHlo.after ops V (Proc.devRef .tc main_arg0) = V (Proc.devRef .tc main_arg0) := arg_keep (by decide) V
theorem arg_keep_1 (V : Valuation τ sig (Elt F)) :
    StableHlo.after ops V (Proc.devRef .tc main_arg1) = V (Proc.devRef .tc main_arg1) := arg_keep (by decide) V
theorem arg_keep_2 (V : Valuation τ sig (Elt F)) :
    StableHlo.after ops V (Proc.devRef .tc main_arg2) = V (Proc.devRef .tc main_arg2) := arg_keep (by decide) V
theorem arg_keep_3 (V : Valuation τ sig (Elt F)) :
    StableHlo.after ops V (Proc.devRef .tc main_arg3) = V (Proc.devRef .tc main_arg3) := arg_keep (by decide) V
theorem arg_keep_4 (V : Valuation τ sig (Elt F)) :
    StableHlo.after ops V (Proc.devRef .tc main_arg4) = V (Proc.devRef .tc main_arg4) := arg_keep (by decide) V
theorem arg_keep_5 (V : Valuation τ sig (Elt F)) :
    StableHlo.after ops V (Proc.devRef .tc main_arg5) = V (Proc.devRef .tc main_arg5) := arg_keep (by decide) V
theorem arg_keep_6 (V : Valuation τ sig (Elt F)) :
    StableHlo.after ops V (Proc.devRef .tc main_arg6) = V (Proc.devRef .tc main_arg6) := arg_keep (by decide) V
theorem arg_keep_7 (V : Valuation τ sig (Elt F)) :
    StableHlo.after ops V (Proc.devRef .tc main_arg7) = V (Proc.devRef .tc main_arg7) := arg_keep (by decide) V
theorem arg_keep_8 (V : Valuation τ sig (Elt F)) :
    StableHlo.after ops V (Proc.devRef .tc main_arg8) = V (Proc.devRef .tc main_arg8) := arg_keep (by decide) V
theorem arg_keep_9 (V : Valuation τ sig (Elt F)) :
    StableHlo.after ops V (Proc.devRef .tc main_arg9) = V (Proc.devRef .tc main_arg9) := arg_keep (by decide) V
theorem arg_keep_10 (V : Valuation τ sig (Elt F)) :
    StableHlo.after ops V (Proc.devRef .tc main_arg10) = V (Proc.devRef .tc main_arg10) := arg_keep (by decide) V
theorem arg_keep_11 (V : Valuation τ sig (Elt F)) :
    StableHlo.after ops V (Proc.devRef .tc main_arg11) = V (Proc.devRef .tc main_arg11) := arg_keep (by decide) V
theorem arg_keep_12 (V : Valuation τ sig (Elt F)) :
    StableHlo.after ops V (Proc.devRef .tc main_arg12) = V (Proc.devRef .tc main_arg12) := arg_keep (by decide) V
theorem arg_keep_13 (V : Valuation τ sig (Elt F)) :
    StableHlo.after ops V (Proc.devRef .tc main_arg13) = V (Proc.devRef .tc main_arg13) := arg_keep (by decide) V
theorem arg_keep_14 (V : Valuation τ sig (Elt F)) :
    StableHlo.after ops V (Proc.devRef .tc main_arg14) = V (Proc.devRef .tc main_arg14) := arg_keep (by decide) V
theorem arg_keep_15 (V : Valuation τ sig (Elt F)) :
    StableHlo.after ops V (Proc.devRef .tc main_arg15) = V (Proc.devRef .tc main_arg15) := arg_keep (by decide) V
theorem arg_keep_16 (V : Valuation τ sig (Elt F)) :
    StableHlo.after ops V (Proc.devRef .tc main_arg16) = V (Proc.devRef .tc main_arg16) := arg_keep (by decide) V

/-! ## The frame: the arguments end as launched -/

/-- On every device, for any float values, from any memory with zero counters: every weakly fair execution of @main
    terminates with each of the seventeen arguments holding what the launch put there. -/
theorem run_args (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_arg0).trans (arg_keep_0 _),
      (h c main_arg1).trans (arg_keep_1 _),
      (h c main_arg2).trans (arg_keep_2 _),
      (h c main_arg3).trans (arg_keep_3 _),
      (h c main_arg4).trans (arg_keep_4 _),
      (h c main_arg5).trans (arg_keep_5 _),
      (h c main_arg6).trans (arg_keep_6 _),
      (h c main_arg7).trans (arg_keep_7 _),
      (h c main_arg8).trans (arg_keep_8 _),
      (h c main_arg9).trans (arg_keep_9 _),
      (h c main_arg10).trans (arg_keep_10 _),
      (h c main_arg11).trans (arg_keep_11 _),
      (h c main_arg12).trans (arg_keep_12 _),
      (h c main_arg13).trans (arg_keep_13 _),
      (h c main_arg14).trans (arg_keep_14 _),
      (h c main_arg15).trans (arg_keep_15 _),
      (h c main_arg16).trans (arg_keep_16 _)⟩)
    (run_main m ρ)

end Cert.ReferenceIdeal.Hand

end
-- ==== Proof.RInit.lean ====
/-
  The reference program's first stretch: the embedding sums and the two rows of the edge list.

  The stretch is 176 host operations: nine table lookups for the node features and three for the edge features — each
  a slice of the stacked tables, a slice of the feature column, the index normalisation and a row gather, added to a
  running sum that starts from a zero array — and then the two rows of the edge list. Running a concatenation is running
  its parts in turn, so the stretch is read one lookup at a time: each running sum is the sum before it plus the lookup
  the neutral definitions name, the same operations on the same operands in the same order, and the nine (three) steps
  compose to the neutral sums. No operation of the stretch writes an argument of the program.
-/
import proofs.«403201_j40475771797954_1_alg».proof.Proof.RefSeams
import proofs.«403201_j40475771797954_1_alg».proof.Proof.SpecInit

set_option maxRecDepth 16384

noncomputable section

namespace Cert.ReferenceIdeal.Init

open Cert.ReferenceIdeal Cert.ReferenceIdeal.Gen Cert.ReferenceIdeal.Hand Idealize.ShloMosaic Idealize.ShloMosaic.TcCoe Idealize.SL.Sem

/-- The stretch's operations, over the extended reals. -/
abbrev ops0 : List (HloOp τ sig (Elt Ideal)) := opsInit (F := Ideal)

/-- `n` operations of the stretch, from the `i`-th on. -/
def seg (i n : ℕ) : List (HloOp τ sig (Elt Ideal)) := (ops0.drop i).take n

/-! ## Running the stretch a piece at a time -/

/-- Running a concatenation is running its parts in turn. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => rw [List.cons_append, StableHlo.after_cons, StableHlo.after_cons, ih]

/-- The stretch from the `i`-th operation on: its first `n` operations, then the rest. -/
theorem after_drop (i n : ℕ) (V : Valuation τ sig (Elt Ideal)) :
    StableHlo.after (ops0.drop i) V = StableHlo.after (ops0.drop (i + n)) (StableHlo.after (seg i n) V) := by
  have h : ops0.drop i = seg i n ++ ops0.drop (i + n) := by
    have h' := (List.take_append_drop n (ops0.drop i)).symm
    rw [List.drop_drop] at h'
    exact h'
  rw [h, after_append]

/-- The whole stretch as its thirteen pieces: nine node-feature lookups, three edge-feature lookups, the edge list's rows. -/
theorem after_init (V : Valuation τ sig (Elt Ideal)) :
    StableHlo.after ops0 V =
      StableHlo.after (seg 172 4) (StableHlo.after (seg 158 14) (StableHlo.after (seg 144 14) (
        StableHlo.after (seg 128 16) (StableHlo.after (seg 114 14) (StableHlo.after (seg 100 14) (
        StableHlo.after (seg 86 14) (StableHlo.after (seg 72 14) (StableHlo.after (seg 58 14) (
        StableHlo.after (seg 44 14) (StableHlo.after (seg 30 14) (StableHlo.after (seg 16 14) (
        StableHlo.after (seg 0 16) (V))))))))))))) := by
  have hend : ops0.drop 176 = [] := List.drop_eq_nil_of_le (Nat.le_of_eq rfl)
  calc StableHlo.after ops0 V = StableHlo.after (ops0.drop 0) V := rfl
    _ = StableHlo.after (ops0.drop 16) (StableHlo.after (seg 0 16) _) := after_drop 0 16 _
    _ = StableHlo.after (ops0.drop 30) (StableHlo.after (seg 16 14) _) := after_drop 16 14 _
    _ = StableHlo.after (ops0.drop 44) (StableHlo.after (seg 30 14) _) := after_drop 30 14 _
    _ = StableHlo.after (ops0.drop 58) (StableHlo.after (seg 44 14) _) := after_drop 44 14 _
    _ = StableHlo.after (ops0.drop 72) (StableHlo.after (seg 58 14) _) := after_drop 58 14 _
    _ = StableHlo.after (ops0.drop 86) (StableHlo.after (seg 72 14) _) := after_drop 72 14 _
    _ = StableHlo.after (ops0.drop 100) (StableHlo.after (seg 86 14) _) := after_drop 86 14 _
    _ = StableHlo.after (ops0.drop 114) (StableHlo.after (seg 100 14) _) := after_drop 100 14 _
    _ = StableHlo.after (ops0.drop 128) (StableHlo.after (seg 114 14) _) := after_drop 114 14 _
    _ = StableHlo.after (ops0.drop 144) (StableHlo.after (seg 128 16) _) := after_drop 128 16 _
    _ = StableHlo.after (ops0.drop 158) (StableHlo.after (seg 144 14) _) := after_drop 144 14 _
    _ = StableHlo.after (ops0.drop 172) (StableHlo.after (seg 158 14) _) := after_drop 158 14 _
    _ = StableHlo.after (ops0.drop 176) (StableHlo.after (seg 172 4) _) := after_drop 172 4 _
    _ = _ := by rw [hend]; rfl

/-- Opens a piece to the literal list of its operations. -/
macro "open_seg" : tactic =>
  `(tactic| simp only [seg, ops0, opsInit, List.drop_succ_cons, List.drop_zero, List.take_succ_cons, List.take_zero])

/-! ## What no operation of the stretch writes -/

/-- Every reference the stretch writes: its 150 values and 26 constants. -/
abbrev written : List (Ref sig .tc) :=
  [main_v0, main_v1, main_v2, main_v3, main_v4, main_v5, main_v6, main_v7, main_v8, main_v9, main_v10, main_v11,
   main_v12, main_v13, main_v14, main_v15, main_v16, main_v17, main_v18, main_v19, main_v20, main_v21, main_v22,
   main_v23, main_v24, main_v25, main_v26, main_v27, main_v28, main_v29, main_v30, main_v31, main_v32, main_v33,
   main_v34, main_v35, main_v36, main_v37, main_v38, main_v39, main_v40, main_v41, main_v42, main_v43, main_v44,
   main_v45, main_v46, main_v47, main_v48, main_v49, main_v50, main_v51, main_v52, main_v53, main_v54, main_v55,
   main_v56, main_v57, main_v58, main_v59, main_v60, main_v61, main_v62, main_v63, main_v64, main_v65, main_v66,
   main_v67, main_v68, main_v69, main_v70, main_v71, main_v72, main_v73, main_v74, main_v75, main_v76, main_v77,
   main_v78, main_v79, main_v80, main_v81, main_v82, main_v83, main_v84, main_v85, main_v86, main_v87, main_v88,
   main_v89, main_v90, main_v91, main_v92, main_v93, main_v94, main_v95, main_v96, main_v97, main_v98, main_v99,
   main_v100, main_v101, main_v102, main_v103, main_v104, main_v105, main_v106, main_v107, main_v108, main_v109,
   main_v110, main_v111, main_v112, main_v113, main_v114, main_v115, main_v116, main_v117, main_v118, main_v119,
   main_v120, main_v121, main_v122, main_v123, main_v124, main_v125, main_v126, main_v127, main_v128, main_v129,
   main_v130, main_v131, main_v132, main_v133, main_v134, main_v135, main_v136, main_v137, main_v138, main_v139,
   main_v140, main_v141, main_v142, main_v143, main_v144, main_v145, main_v146, main_v147, main_v148, main_v149,
   main_c, main_c_0, main_c_1, main_c_2, main_c_3, main_c_4, main_c_5, main_c_6, main_c_7, main_c_8, main_c_9,
   main_c_10, main_c_11, main_c_12, main_c_13, main_c_14, main_c_15, main_c_16, main_c_17, main_c_18, main_c_20,
   main_c_21, main_c_22, main_c_23, main_cst, main_cst_19]

theorem ops0_writes : ops0.Forall fun op => op.writes ⊆ (written.map (Proc.devRef (τ := τ) .tc)).toFinset := by
  simp only [ops0, opsInit, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem seg_writes (i n : ℕ) : (seg i n).Forall fun op => op.writes ⊆ (written.map (Proc.devRef (τ := τ) .tc)).toFinset :=
  List.forall_iff_forall_mem.mpr fun op hop =>
    List.forall_iff_forall_mem.mp ops0_writes op (List.mem_of_mem_drop (List.mem_of_mem_take hop))

/-- A piece of the stretch leaves a reference the stretch never writes as it was. -/
theorem seg_keep (i n : ℕ) (W : Valuation τ sig (Elt Ideal)) {r : Ref sig .tc} (hr : r ∉ written) :
    StableHlo.after (seg i n) W (Proc.devRef .tc r) = W (Proc.devRef .tc r) :=
  StableHlo.after_of_writes_sub (seg i n) W (seg_writes i n) hr

/-- `seg_keep` as a rewrite rule whose side condition is decided where it is used. -/
theorem seg_keep' (i n : ℕ) (W : Valuation τ sig (Elt Ideal)) {r : Ref sig .tc} (hr : r ∉ written) :
    StableHlo.after (seg i n) W (no_index (Proc.devRef .tc r)) = W (Proc.devRef .tc r) := seg_keep i n W hr

/-! ## The node features' lookups -/

/-- Node feature 0: the zero array plus the feature's lookup. -/
theorem atom0 (W : Valuation τ sig (Elt Ideal)) :
    StableHlo.after (seg 0 16) W (Proc.devRef .tc main_v12) =
      (addf (F := Ideal) (broadcastInDim GIN.SNxD ![] GIN.bcast_S_SNxD (constant (F := Ideal) GIN.S_ .f32 0x00000000#32))
        (GIN.atomLookup (W (Proc.devRef .tc main_arg0)) (W (Proc.devRef .tc main_arg4)) 0 (by decide) (by decide)) : FVec Ideal GIN.SNxD .f32) := by
  open_seg; after_results_simp; rfl

/-- Node feature 1: the running sum plus the feature's lookup. -/
theorem atom1 (W : Valuation τ sig (Elt Ideal)) :
    StableHlo.after (seg 16 14) W (Proc.devRef .tc main_v24) =
      (addf (F := Ideal) (W (Proc.devRef .tc main_v12))
        (GIN.atomLookup (W (Proc.devRef .tc main_arg0)) (W (Proc.devRef .tc main_arg4)) 1 (by decide) (by decide)) : FVec Ideal GIN.SNxD .f32) := by
  open_seg; after_results_simp; rfl

/-- Node feature 2: the running sum plus the feature's lookup. -/
theorem atom2 (W : Valuation τ sig (Elt Ideal)) :
    StableHlo.after (seg 30 14) W (Proc.devRef .tc main_v36) =
      (addf (F := Ideal) (W (Proc.devRef .tc main_v24))
        (GIN.atomLookup (W (Proc.devRef .tc main_arg0)) (W (Proc.devRef .tc main_arg4)) 2 (by decide) (by decide)) : FVec Ideal GIN.SNxD .f32) := by
  open_seg; after_results_simp; rfl

/-- Node feature 3: the running sum plus the feature's lookup. -/
theorem atom3 (W : Valuation τ sig (Elt Ideal)) :
    StableHlo.after (seg 44 14) W (Proc.devRef .tc main_v48) =
      (addf (F := Ideal) (W (Proc.devRef .tc main_v36))
        (GIN.atomLookup (W (Proc.devRef .tc main_arg0)) (W (Proc.devRef .tc main_arg4)) 3 (by decide) (by decide)) : FVec Ideal GIN.SNxD .f32) := by
  open_seg; after_results_simp; rfl

/-- Node feature 4: the running sum plus the feature's lookup. -/
theorem atom4 (W : Valuation τ sig (Elt Ideal)) :
    StableHlo.after (seg 58 14) W (Proc.devRef .tc main_v60) =
      (addf (F := Ideal) (W (Proc.devRef .tc main_v48))
        (GIN.atomLookup (W (Proc.devRef .tc main_arg0)) (W (Proc.devRef .tc main_arg4)) 4 (by decide) (by decide)) : FVec Ideal GIN.SNxD .f32) := by
  open_seg; after_results_simp; rfl

/-- Node feature 5: the running sum plus the feature's lookup. -/
theorem atom5 (W : Valuation τ sig (Elt Ideal)) :
    StableHlo.after (seg 72 14) W (Proc.devRef .tc main_v72) =
      (addf (F := Ideal) (W (Proc.devRef .tc main_v60))
        (GIN.atomLookup (W (Proc.devRef .tc main_arg0)) (W (Proc.devRef .tc main_arg4)) 5 (by decide) (by decide)) : FVec Ideal GIN.SNxD .f32) := by
  open_seg; after_results_simp; rfl

/-- Node feature 6: the running sum plus the feature's lookup. -/
theorem atom6 (W : Valuation τ sig (Elt Ideal)) :
    StableHlo.after (seg 86 14) W (Proc.devRef .tc main_v84) =
      (addf (F := Ideal) (W (Proc.devRef .tc main_v72))
        (GIN.atomLookup (W (Proc.devRef .tc main_arg0)) (W (Proc.devRef .tc main_arg4)) 6 (by decide) (by decide)) : FVec Ideal GIN.SNxD .f32) := by
  open_seg; after_results_simp; rfl

/-- Node feature 7: the running sum plus the feature's lookup. -/
theorem atom7 (W : Valuation τ sig (Elt Ideal)) :
    StableHlo.after (seg 100 14) W (Proc.devRef .tc main_v96) =
      (addf (F := Ideal) (W (Proc.devRef .tc main_v84))
        (GIN.atomLookup (W (Proc.devRef .tc main_arg0)) (W (Proc.devRef .tc main_arg4)) 7 (by decide) (by decide)) : FVec Ideal GIN.SNxD .f32) := by
  open_seg; after_results_simp; rfl

/-- Node feature 8: the running sum plus the feature's lookup. -/
theorem atom8 (W : Valuation τ sig (Elt Ideal)) :
    StableHlo.after (seg 114 14) W (Proc.devRef .tc main_v108) =
      (addf (F := Ideal) (W (Proc.devRef .tc main_v96))
        (GIN.atomLookup (W (Proc.devRef .tc main_arg0)) (W (Proc.devRef .tc main_arg4)) 8 (by decide) (by decide)) : FVec Ideal GIN.SNxD .f32) := by
  open_seg; after_results_simp; rfl

/-! ## The edge features' lookups -/

/-- Edge feature 0: the zero array plus the feature's lookup. -/
theorem bond0 (W : Valuation τ sig (Elt Ideal)) :
    StableHlo.after (seg 128 16) W (Proc.devRef .tc main_v121) =
      (addf (F := Ideal) (broadcastInDim GIN.SExD ![] GIN.bcast_S_SExD (constant (F := Ideal) GIN.S_ .f32 0x00000000#32))
        (GIN.bondLookup (W (Proc.devRef .tc main_arg2)) (W (Proc.devRef .tc main_arg5)) 0 (by decide) (by decide)) : FVec Ideal GIN.SExD .f32) := by
  open_seg; after_results_simp; rfl

/-- Edge feature 1: the running sum plus the feature's lookup. -/
theorem bond1 (W : Valuation τ sig (Elt Ideal)) :
    StableHlo.after (seg 144 14) W (Proc.devRef .tc main_v133) =
      (addf (F := Ideal) (W (Proc.devRef .tc main_v121))
        (GIN.bondLookup (W (Proc.devRef .tc main_arg2)) (W (Proc.devRef .tc main_arg5)) 1 (by decide) (by decide)) : FVec Ideal GIN.SExD .f32) := by
  open_seg; after_results_simp; rfl

/-- Edge feature 2: the running sum plus the feature's lookup. -/
theorem bond2 (W : Valuation τ sig (Elt Ideal)) :
    StableHlo.after (seg 158 14) W (Proc.devRef .tc main_v145) =
      (addf (F := Ideal) (W (Proc.devRef .tc main_v133))
        (GIN.bondLookup (W (Proc.devRef .tc main_arg2)) (W (Proc.devRef .tc main_arg5)) 2 (by decide) (by decide)) : FVec Ideal GIN.SExD .f32) := by
  open_seg; after_results_simp; rfl

/-! ## The edge list's rows -/

theorem src_seg (W : Valuation τ sig (Elt Ideal)) :
    StableHlo.after (seg 172 4) W (Proc.devRef .tc main_v147) = GIN.srcOf (W (Proc.devRef .tc main_arg1)) := by
  open_seg; after_results_simp; rfl

theorem dst_seg (W : Valuation τ sig (Elt Ideal)) :
    StableHlo.after (seg 172 4) W (Proc.devRef .tc main_v149) = GIN.dstOf (W (Proc.devRef .tc main_arg1)) := by
  open_seg; after_results_simp; rfl

/-! ## The later pieces leave the finished sums as they are -/

theorem h0_keep9 (W : Valuation τ sig (Elt Ideal)) : StableHlo.after (seg 128 16) W (Proc.devRef .tc main_v108) = W (Proc.devRef .tc main_v108) := by
  open_seg; after_results_simp

theorem h0_keep10 (W : Valuation τ sig (Elt Ideal)) : StableHlo.after (seg 144 14) W (Proc.devRef .tc main_v108) = W (Proc.devRef .tc main_v108) := by
  open_seg; after_results_simp

theorem h0_keep11 (W : Valuation τ sig (Elt Ideal)) : StableHlo.after (seg 158 14) W (Proc.devRef .tc main_v108) = W (Proc.devRef .tc main_v108) := by
  open_seg; after_results_simp

theorem h0_keep12 (W : Valuation τ sig (Elt Ideal)) : StableHlo.after (seg 172 4) W (Proc.devRef .tc main_v108) = W (Proc.devRef .tc main_v108) := by
  open_seg; after_results_simp

theorem e_keep12 (W : Valuation τ sig (Elt Ideal)) : StableHlo.after (seg 172 4) W (Proc.devRef .tc main_v145) = W (Proc.devRef .tc main_v145) := by
  open_seg; after_results_simp

/-! ## The stretch's four results, and its arguments -/

/-- The nodes' initial vectors are the neutral embedding sum of the node features. -/
theorem h0_eq (V : Valuation τ sig (Elt Ideal)) :
    StableHlo.after (opsInit (F := Ideal)) V (Proc.devRef .tc main_v108) = GIN.atomSum (V (Proc.devRef .tc main_arg0)) (V (Proc.devRef .tc main_arg4)) := by
  show StableHlo.after ops0 V _ = _
  rw [after_init V, h0_keep12, h0_keep11, h0_keep10, h0_keep9, atom8, atom7, atom6, atom5, atom4, atom3, atom2, atom1, atom0]
  simp (disch := decide) only [seg_keep']
  rfl

/-- The edges' feature vectors are the neutral embedding sum of the edge features. -/
theorem e_eq (V : Valuation τ sig (Elt Ideal)) :
    StableHlo.after (opsInit (F := Ideal)) V (Proc.devRef .tc main_v145) = GIN.bondSum (V (Proc.devRef .tc main_arg2)) (V (Proc.devRef .tc main_arg5)) := by
  show StableHlo.after ops0 V _ = _
  rw [after_init V, e_keep12, bond2, bond1, bond0]
  simp (disch := decide) only [seg_keep']
  rfl

/-- The edges' source nodes are row 0 of the edge list. -/
theorem src_eq (V : Valuation τ sig (Elt Ideal)) :
    StableHlo.after (opsInit (F := Ideal)) V (Proc.devRef .tc main_v147) = GIN.srcOf (V (Proc.devRef .tc main_arg1)) := by
  show StableHlo.after ops0 V _ = _
  rw [after_init V, src_seg]
  simp (disch := decide) only [seg_keep']

/-- The edges' destination nodes are row 1 of the edge list. -/
theorem dst_eq (V : Valuation τ sig (Elt Ideal)) :
    StableHlo.after (opsInit (F := Ideal)) V (Proc.devRef .tc main_v149) = GIN.dstOf (V (Proc.devRef .tc main_arg1)) := by
  show StableHlo.after ops0 V _ = _
  rw [after_init V, dst_seg]
  simp (disch := decide) only [seg_keep']

/-- The stretch writes none of the program's seventeen arguments. -/
theorem arg_keep (V : Valuation τ sig (Elt Ideal)) {r : Ref sig .tc} (hr : r ∉ written) :
    StableHlo.after (opsInit (F := Ideal)) V (Proc.devRef .tc r) = V (Proc.devRef .tc r) :=
  StableHlo.after_of_writes_sub ops0 V ops0_writes hr

theorem arg_keep0 (V : Valuation τ sig (Elt Ideal)) :
    StableHlo.after (opsInit (F := Ideal)) V (Proc.devRef .tc main_arg0) = V (Proc.devRef .tc main_arg0) := arg_keep V (by decide)
theorem arg_keep1 (V : Valuation τ sig (Elt Ideal)) :
    StableHlo.after (opsInit (F := Ideal)) V (Proc.devRef .tc main_arg1) = V (Proc.devRef .tc main_arg1) := arg_keep V (by decide)
theorem arg_keep2 (V : Valuation τ sig (Elt Ideal)) :
    StableHlo.after (opsInit (F := Ideal)) V (Proc.devRef .tc main_arg2) = V (Proc.devRef .tc main_arg2) := arg_keep V (by decide)
theorem arg_keep3 (V : Valuation τ sig (Elt Ideal)) :
    StableHlo.after (opsInit (F := Ideal)) V (Proc.devRef .tc main_arg3) = V (Proc.devRef .tc main_arg3) := arg_keep V (by decide)
theorem arg_keep4 (V : Valuation τ sig (Elt Ideal)) :
    StableHlo.after (opsInit (F := Ideal)) V (Proc.devRef .tc main_arg4) = V (Proc.devRef .tc main_arg4) := arg_keep V (by decide)
theorem arg_keep5 (V : Valuation τ sig (Elt Ideal)) :
    StableHlo.after (opsInit (F := Ideal)) V (Proc.devRef .tc main_arg5) = V (Proc.devRef .tc main_arg5) := arg_keep V (by decide)
theorem arg_keep6 (V : Valuation τ sig (Elt Ideal)) :
    StableHlo.after (opsInit (F := Ideal)) V (Proc.devRef .tc main_arg6) = V (Proc.devRef .tc main_arg6) := arg_keep V (by decide)
theorem arg_keep7 (V : Valuation τ sig (Elt Ideal)) :
    StableHlo.after (opsInit (F := Ideal)) V (Proc.devRef .tc main_arg7) = V (Proc.devRef .tc main_arg7) := arg_keep V (by decide)
theorem arg_keep8 (V : Valuation τ sig (Elt Ideal)) :
    StableHlo.after (opsInit (F := Ideal)) V (Proc.devRef .tc main_arg8) = V (Proc.devRef .tc main_arg8) := arg_keep V (by decide)
theorem arg_keep9 (V : Valuation τ sig (Elt Ideal)) :
    StableHlo.after (opsInit (F := Ideal)) V (Proc.devRef .tc main_arg9) = V (Proc.devRef .tc main_arg9) := arg_keep V (by decide)
theorem arg_keep10 (V : Valuation τ sig (Elt Ideal)) :
    StableHlo.after (opsInit (F := Ideal)) V (Proc.devRef .tc main_arg10) = V (Proc.devRef .tc main_arg10) := arg_keep V (by decide)
theorem arg_keep11 (V : Valuation τ sig (Elt Ideal)) :
    StableHlo.after (opsInit (F := Ideal)) V (Proc.devRef .tc main_arg11) = V (Proc.devRef .tc main_arg11) := arg_keep V (by decide)
theorem arg_keep12 (V : Valuation τ sig (Elt Ideal)) :
    StableHlo.after (opsInit (F := Ideal)) V (Proc.devRef .tc main_arg12) = V (Proc.devRef .tc main_arg12) := arg_keep V (by decide)
theorem arg_keep13 (V : Valuation τ sig (Elt Ideal)) :
    StableHlo.after (opsInit (F := Ideal)) V (Proc.devRef .tc main_arg13) = V (Proc.devRef .tc main_arg13) := arg_keep V (by decide)
theorem arg_keep14 (V : Valuation τ sig (Elt Ideal)) :
    StableHlo.after (opsInit (F := Ideal)) V (Proc.devRef .tc main_arg14) = V (Proc.devRef .tc main_arg14) := arg_keep V (by decide)
theorem arg_keep15 (V : Valuation τ sig (Elt Ideal)) :
    StableHlo.after (opsInit (F := Ideal)) V (Proc.devRef .tc main_arg15) = V (Proc.devRef .tc main_arg15) := arg_keep V (by decide)
theorem arg_keep16 (V : Valuation τ sig (Elt Ideal)) :
    StableHlo.after (opsInit (F := Ideal)) V (Proc.devRef .tc main_arg16) = V (Proc.devRef .tc main_arg16) := arg_keep V (by decide)

end Cert.ReferenceIdeal.Init

end
-- ==== Proof.SpecRef.lean ====
/-
  The dense part of a GIN layer with the column statistics and the per-layer parameter rows held as VECTORS
  [200] / [100] rather than as rows [1, 200] / [1, 100], and the proof that nothing changes.

  In the vector form a parameter's row is the `[1, n]` slice with its unit axis dropped; a vector enters the
  arithmetic on the `[50000, n]` array by being made a `[1, n]` row again and then copied into every one of the 50000
  rows; the matrix products are the whole-array products; the column mean is the column sum over 50000, and the
  column variance the column sum of the squared distances from the mean over the count, both as vectors; the ramp
  is the maximum with the zero splat.

  Entry `(r, j)` of a vector copied into the rows is the vector's entry `j`, which is the row form's entry `(0, j)`;
  entry `j` of a vector statistic and entry `(0, j)` of the row statistic are the same scalar computation on column
  `j` (the same column sum, the same divisor); and entry `(r, j)` of a whole-array product is the sum over the
  contracted coordinate. So each dense step in vector form is, entry by entry, the step in row form.
-/
import Idealize.ShloMosaic.PureOps.Ideal
import Idealize.ShloMosaic.Lib.ValueIdx
import Idealize.ShloMosaic.Lib.IdealHost
import Idealize.ShloMosaic.Lib.ValueLayout
import Idealize.ShloMosaic.Lib.StackMember
import proofs.«403201_j40475771797954_1_alg».proof.Proof.Spec
import proofs.«403201_j40475771797954_1_alg».proof.Proof.SpecGraph
import proofs.«403201_j40475771797954_1_alg».proof.Proof.SpecStats

set_option maxRecDepth 16384

noncomputable section

namespace Cert.GIN

open Idealize.ShloMosaic Idealize.ShloMosaic.ValueIdx Idealize.ShloMosaic.StackMember

/-! ## Side conditions of the vector forms -/

theorem rv_cast_H : S1xH.ShapeCasts SH := by decide
theorem rv_cast_D : S1xD.ShapeCasts SD := by decide
theorem rv_bc_S_SH : S_.BroadcastsInDim SH (![] : Fin 0 → Fin SH.rank) := by decide
theorem rv_bc_S_SD : S_.BroadcastsInDim SD (![] : Fin 0 → Fin SD.rank) := by decide
theorem rv_bc_S_SNxH : S_.BroadcastsInDim SNxH (![] : Fin 0 → Fin SNxH.rank) := by decide

/-! ## The vector forms: parameters and statistics held as `[200]` / `[100]` vectors -/

/-- Row `l` of a stacked `[5, 200]` parameter as a vector: the `[1, 200]` slice with its unit axis dropped. -/
def vecH (p : FVec Ideal S5xH .f32) (l : ℕ) (hs : S5xH.Slices ![l, 0] S1xH) : FVec Ideal SH .f32 :=
  shapeCast SH (extractStridedSlice S1xH ![l, 0] p hs) rv_cast_H

/-- Row `l` of a stacked `[5, 100]` parameter as a vector. -/
def vecD (p : FVec Ideal S5xD .f32) (l : ℕ) (hs : S5xD.Slices ![l, 0] S1xD) : FVec Ideal SD .f32 :=
  shapeCast SD (extractStridedSlice S1xD ![l, 0] p hs) rv_cast_D

/-- A `[200]` vector copied into every one of the 50000 rows: first made a `[1, 200]` row, then spread down. -/
def rowsH {α : Type} (v : SH.Idx → α) : SNxH.Idx → α :=
  broadcastInDim SNxH ![0, 1] bcast_S1xH_SNxH_01 (broadcastInDim S1xH ![1] bcast_SH_S1xH_1 v)

/-- A `[100]` vector copied into every one of the 50000 rows. -/
def rowsD {α : Type} (v : SD.Idx → α) : SNxD.Idx → α :=
  broadcastInDim SNxD ![0, 1] bcast_S1xD_SNxD_01 (broadcastInDim S1xD ![1] bcast_SD_S1xD_1 v)

/-- `hh · W1 + b1` with the bias a vector: the whole-array product, plus the bias copied into every row. -/
def linR (hh : FVec Ideal SNxD .f32) (w1 : FVec Ideal SDxH .f32) (b1v : FVec Ideal SH .f32) : FVec Ideal SNxH .f32 :=
  addf (Host.dotGeneral (DotDims.plain 50000 100 200) none hh w1) (rowsH b1v)

/-- The column sums of a `[50000, 200]` array, from zero, as a vector. -/
def colSumH (y : FVec Ideal SNxH .f32) : FVec Ideal SH .f32 :=
  Host.reduceAdd y (constant (F := Ideal) S_ .f32 0x00000000#32) reduces_SNxH_SH_0 h_S_

/-- The column sums of a `[50000, 100]` array, from zero, as a vector. -/
def colSumD (y : FVec Ideal SNxD .f32) : FVec Ideal SD .f32 :=
  Host.reduceAdd y (constant (F := Ideal) S_ .f32 0x00000000#32) reduces_SNxD_SD_0 h_S_

/-- The column means as a vector: the column sums over the splat of 50000. -/
def meanVecH (y : FVec Ideal SNxH .f32) : FVec Ideal SH .f32 :=
  Host.divf (colSumH y) (broadcastInDim SH ![] rv_bc_S_SH (constant (F := Ideal) S_ .f32 0x47435000#32))

/-- The column means of a `[50000, 100]` array as a vector. -/
def meanVecD (y : FVec Ideal SNxD .f32) : FVec Ideal SD .f32 :=
  Host.divf (colSumD y) (broadcastInDim SD ![] rv_bc_S_SD (constant (F := Ideal) S_ .f32 0x47435000#32))

/-- The squared distances from the column means; inside the variance the means are held as a `[1, 200]` row and
    spread over the rows, whichever form the variance itself comes out in. -/
def devSqH (y : FVec Ideal SNxH .f32) : FVec Ideal SNxH .f32 :=
  mulf (subf y (broadcastInDim SNxH ![0, 1] bcast_S1xH_SNxH_01 (meanRowH y)))
    (subf y (broadcastInDim SNxH ![0, 1] bcast_S1xH_SNxH_01 (meanRowH y)))

/-- The squared distances from the column means of a `[50000, 100]` array. -/
def devSqD (y : FVec Ideal SNxD .f32) : FVec Ideal SNxD .f32 :=
  mulf (subf y (broadcastInDim SNxD ![0, 1] bcast_S1xD_SNxD_01 (meanRowD y)))
    (subf y (broadcastInDim SNxD ![0, 1] bcast_S1xD_SNxD_01 (meanRowD y)))

/-- The column variances as a vector: the column sums of the squared distances over the count where the count is
    positive, the not-a-number word elsewhere. -/
def varVecH (y : FVec Ideal SNxH .f32) : FVec Ideal SH .f32 :=
  select (broadcastInDim SH ![] rv_bc_S_SH (cmpf .ogt varCount (constant (F := Ideal) S_ .f32 0x00000000#32)))
    (Host.divf (colSumH (devSqH y)) (broadcastInDim SH ![] rv_bc_S_SH varCount))
    (broadcastInDim SH ![] rv_bc_S_SH (constant (F := Ideal) S_ .f32 0x7FC00000#32))

/-- The column variances of a `[50000, 100]` array as a vector. -/
def varVecD (y : FVec Ideal SNxD .f32) : FVec Ideal SD .f32 :=
  select (broadcastInDim SD ![] rv_bc_S_SD (cmpf .ogt varCount (constant (F := Ideal) S_ .f32 0x00000000#32)))
    (Host.divf (colSumD (devSqD y)) (broadcastInDim SD ![] rv_bc_S_SD varCount))
    (broadcastInDim SD ![] rv_bc_S_SD (constant (F := Ideal) S_ .f32 0x7FC00000#32))

/-- Batch normalisation by vector statistics, then the ramp: each vector is copied into all rows first, and the
    ramp is the maximum with the zero splat. -/
def normReluH (y : FVec Ideal SNxH .f32) (m v g be : FVec Ideal SH .f32) : FVec Ideal SNxH .f32 :=
  maximumf
    (addf
      (mulf
        (mulf (subf y (rowsH m))
          (rowsH (Host.rsqrt (addf v (broadcastInDim SH ![] rv_bc_S_SH (constant (F := Ideal) S_ .f32 0x3727C5AC#32))))))
        (rowsH g))
      (rowsH be))
    (broadcastInDim SNxH ![] rv_bc_S_SNxH (constant (F := Ideal) S_ .f32 0x00000000#32))

/-- The same over a `[50000, 100]` array. -/
def normReluD (y : FVec Ideal SNxD .f32) (m v g be : FVec Ideal SD .f32) : FVec Ideal SNxD .f32 :=
  maximumf
    (addf
      (mulf
        (mulf (subf y (rowsD m))
          (rowsD (Host.rsqrt (addf v (broadcastInDim SD ![] rv_bc_S_SD (constant (F := Ideal) S_ .f32 0x3727C5AC#32))))))
        (rowsD g))
      (rowsD be))
    (broadcastInDim SNxD ![] bcast_S_SNxD (constant (F := Ideal) S_ .f32 0x00000000#32))

/-- The second dense step over ANY vector statistics: normalise and ramp `y1`, then `· W2 + b2`. -/
def bnLinVec (y1 : FVec Ideal SNxH .f32) (m v g1v be1v : FVec Ideal SH .f32) (w2 : FVec Ideal SHxD .f32)
    (b2v : FVec Ideal SD .f32) : FVec Ideal SNxD .f32 :=
  addf (Host.dotGeneral (DotDims.plain 50000 200 100) none (normReluH y1 m v g1v be1v) w2) (rowsD b2v)

/-- The second dense step by `y1`'s own column statistics, held as vectors. -/
def bnLinR (y1 : FVec Ideal SNxH .f32) (g1v be1v : FVec Ideal SH .f32) (w2 : FVec Ideal SHxD .f32)
    (b2v : FVec Ideal SD .f32) : FVec Ideal SNxD .f32 :=
  bnLinVec y1 (meanVecH y1) (varVecH y1) g1v be1v w2 b2v

/-- The layer's output by `y2`'s own column statistics, held as vectors. -/
def bnReluR (y2 : FVec Ideal SNxD .f32) (gov bov : FVec Ideal SD .f32) : FVec Ideal SNxD .f32 :=
  normReluD y2 (meanVecD y2) (varVecD y2) gov bov

/-! ## The layout operations read at an index -/

/-- A `[200]` vector made a `[1, 200]` row reads, at `(u, k)`, the vector at `k`. -/
theorem asRowH_apply {α : Type} (v : SH.Idx → α) (u : Fin 1) (k : Fin 200) :
    broadcastInDim S1xH ![1] bcast_SH_S1xH_1 v (ix2 u k) = v (ix1 k) :=
  broadcastInDim_apply _ bcast_SH_S1xH_1 v (ix2 u k) (ix1 k) fun a => match a with | ⟨0, _⟩ => rfl

/-- A `[100]` vector made a `[1, 100]` row reads, at `(u, k)`, the vector at `k`. -/
theorem asRowD_apply {α : Type} (v : SD.Idx → α) (u : Fin 1) (k : Fin 100) :
    broadcastInDim S1xD ![1] bcast_SD_S1xD_1 v (ix2 u k) = v (ix1 k) :=
  broadcastInDim_apply _ bcast_SD_S1xD_1 v (ix2 u k) (ix1 k) fun a => match a with | ⟨0, _⟩ => rfl

/-- A `[1, 200]` row spread over the 50000 rows reads, at `(r, k)`, the row at `(0, k)`. -/
theorem spreadH_apply {α : Type} (x : S1xH.Idx → α) (r : Fin 50000) (k : Fin 200) :
    broadcastInDim SNxH ![0, 1] bcast_S1xH_SNxH_01 x (ix2 r k) = x (ix2 (0 : Fin 1) k) :=
  broadcastInDim_apply _ bcast_S1xH_SNxH_01 x (ix2 r k) (ix2 (0 : Fin 1) k) fun a => match a with
    | ⟨0, _⟩ => rfl
    | ⟨1, _⟩ => rfl

/-- A `[1, 100]` row spread over the 50000 rows reads, at `(r, k)`, the row at `(0, k)`. -/
theorem spreadD_apply {α : Type} (x : S1xD.Idx → α) (r : Fin 50000) (k : Fin 100) :
    broadcastInDim SNxD ![0, 1] bcast_S1xD_SNxD_01 x (ix2 r k) = x (ix2 (0 : Fin 1) k) :=
  broadcastInDim_apply _ bcast_S1xD_SNxD_01 x (ix2 r k) (ix2 (0 : Fin 1) k) fun a => match a with
    | ⟨0, _⟩ => rfl
    | ⟨1, _⟩ => rfl

/-- A vector copied into every row reads, at `(r, k)`, the vector at `k`. -/
theorem rowsH_apply {α : Type} (v : SH.Idx → α) (r : Fin 50000) (k : Fin 200) : rowsH v (ix2 r k) = v (ix1 k) :=
  (spreadH_apply _ r k).trans (asRowH_apply v 0 k)

theorem rowsD_apply {α : Type} (v : SD.Idx → α) (r : Fin 50000) (k : Fin 100) : rowsD v (ix2 r k) = v (ix1 k) :=
  (spreadD_apply _ r k).trans (asRowD_apply v 0 k)

/-- The vector form of a parameter's row `l` reads, at `k`, the row form at `(0, k)`. -/
theorem vecH_apply (p : FVec Ideal S5xH .f32) (l : ℕ) (hs : S5xH.Slices ![l, 0] S1xH) (k : Fin 200) :
    vecH p l hs (ix1 k) = rowHOf p l hs (ix2 0 k) :=
  shapeCast_1a_a_apply _ rv_cast_H k

theorem vecD_apply (p : FVec Ideal S5xD .f32) (l : ℕ) (hs : S5xD.Slices ![l, 0] S1xD) (k : Fin 100) :
    vecD p l hs (ix1 k) = rowDOf p l hs (ix2 0 k) :=
  shapeCast_1a_a_apply _ rv_cast_D k

/-! ## The statistics: a row's entry `(0, k)` and a vector's entry `k` are the same scalar computation -/

/-- Column `k`'s mean, read off the row form and off the vector form: the same column sum over the same 50000. -/
theorem meanRowH_eq_vec (y : FVec Ideal SNxH .f32) (k : Fin 200) : meanRowH y (ix2 0 k) = meanVecH y (ix1 k) := by
  unfold meanRowH meanVecH
  rw [hostDivf_apply, hostDivf_apply, asRowH_apply, broadcastInDim_scalar_apply, broadcastInDim_scalar_apply]
  rfl

theorem meanRowD_eq_vec (y : FVec Ideal SNxD .f32) (k : Fin 100) : meanRowD y (ix2 0 k) = meanVecD y (ix1 k) := by
  unfold meanRowD meanVecD
  rw [hostDivf_apply, hostDivf_apply, asRowD_apply, broadcastInDim_scalar_apply, broadcastInDim_scalar_apply]
  rfl

/-- Column `k`'s variance, read off the row form and off the vector form: the same column sum of squared distances
    over the same count, under the same test of the count. -/
theorem varRowH_eq_vec (y : FVec Ideal SNxH .f32) (k : Fin 200) : varRowH y (ix2 0 k) = varVecH y (ix1 k) := by
  unfold varRowH varVecH
  rw [select_apply, select_apply, hostDivf_apply, hostDivf_apply, asRowH_apply]
  simp only [broadcastInDim_scalar_apply]
  rfl

theorem varRowD_eq_vec (y : FVec Ideal SNxD .f32) (k : Fin 100) : varRowD y (ix2 0 k) = varVecD y (ix1 k) := by
  unfold varRowD varVecD
  rw [select_apply, select_apply, hostDivf_apply, hostDivf_apply, asRowD_apply]
  simp only [broadcastInDim_scalar_apply]
  rfl

/-! ## The dense steps: vector forms against row forms -/

/-- Normalisation and ramp with vector statistics, at `(r, k)`: the one-entry function at column `k`'s numbers. -/
theorem normReluH_apply (y : FVec Ideal SNxH .f32) (m v g be : FVec Ideal SH .f32) (r : Fin 50000) (k : Fin 200) :
    normReluH y m v g be (ix2 r k) = bnAct (y (ix2 r k)) (m (ix1 k)) (v (ix1 k)) (g (ix1 k)) (be (ix1 k)) := by
  unfold normReluH bnAct
  rw [maximumf_apply, addf_apply, mulf_apply, mulf_apply, subf_apply, rowsH_apply, rowsH_apply, rowsH_apply, rowsH_apply]
  rfl

theorem normReluD_apply (y : FVec Ideal SNxD .f32) (m v g be : FVec Ideal SD .f32) (r : Fin 50000) (k : Fin 100) :
    normReluD y m v g be (ix2 r k) = bnAct (y (ix2 r k)) (m (ix1 k)) (v (ix1 k)) (g (ix1 k)) (be (ix1 k)) := by
  unfold normReluD bnAct
  rw [maximumf_apply, addf_apply, mulf_apply, mulf_apply, subf_apply, rowsD_apply, rowsD_apply, rowsD_apply, rowsD_apply]
  rfl

/-- The first dense step: the bias vector copied into the rows is the bias row read at `(0, j)`, and the whole-array
    product at `(r, j)` is the sum over the 100 contracted coordinates. -/
theorem linR_eq (hh : FVec Ideal SNxD .f32) (w1 : FVec Ideal SDxH .f32) (p : FVec Ideal S5xH .f32) (l : ℕ)
    (hs : S5xH.Slices ![l, 0] S1xH) : linR hh w1 (vecH p l hs) = linH hh w1 (rowHOf p l hs) := by
  funext i
  obtain ⟨r, j, rfl⟩ : ∃ (r : Fin 50000) (j : Fin 200), i = ix2 r j := ⟨i 0, i 1, eq_ix2 i⟩
  unfold linR linH
  rw [addf_apply, dotGeneral_plain_apply, rowsH_apply, vecH_apply]

/-- The second dense step over ANY vector statistics that agree, column by column, with row statistics. -/
theorem bnLinVec_eq (y1 : FVec Ideal SNxH .f32) (mv vv : FVec Ideal SH .f32) (mr vr : FVec Ideal S1xH .f32)
    (hm : ∀ k : Fin 200, mr (ix2 0 k) = mv (ix1 k)) (hv : ∀ k : Fin 200, vr (ix2 0 k) = vv (ix1 k))
    (g1 be1 : FVec Ideal S5xH .f32) (w2 : FVec Ideal SHxD .f32) (b2 : FVec Ideal S5xD .f32) (l : ℕ)
    (hsH : S5xH.Slices ![l, 0] S1xH) (hsD : S5xD.Slices ![l, 0] S1xD) :
    bnLinVec y1 mv vv (vecH g1 l hsH) (vecH be1 l hsH) w2 (vecD b2 l hsD)
      = bnLinD y1 mr vr (rowHOf g1 l hsH) (rowHOf be1 l hsH) w2 (rowDOf b2 l hsD) := by
  funext i
  obtain ⟨r, j, rfl⟩ : ∃ (r : Fin 50000) (j : Fin 100), i = ix2 r j := ⟨i 0, i 1, eq_ix2 i⟩
  unfold bnLinVec bnLinD
  rw [addf_apply, dotGeneral_plain_apply, rowsD_apply, vecD_apply]
  refine congrArg (· + rowDOf b2 l hsD (ix2 0 j)) (Finset.sum_congr rfl fun k _ => ?_)
  rw [normReluH_apply, vecH_apply, vecH_apply, hm k, hv k]

/-- The second dense step by `y1`'s own statistics: vectors on one side, rows on the other. -/
theorem bnLinR_eq (y1 : FVec Ideal SNxH .f32) (g1 be1 : FVec Ideal S5xH .f32) (w2 : FVec Ideal SHxD .f32)
    (b2 : FVec Ideal S5xD .f32) (l : ℕ) (hsH : S5xH.Slices ![l, 0] S1xH) (hsD : S5xD.Slices ![l, 0] S1xD) :
    bnLinR y1 (vecH g1 l hsH) (vecH be1 l hsH) w2 (vecD b2 l hsD)
      = bnLinD y1 (meanRowH y1) (varRowH y1) (rowHOf g1 l hsH) (rowHOf be1 l hsH) w2 (rowDOf b2 l hsD) :=
  bnLinVec_eq y1 (meanVecH y1) (varVecH y1) (meanRowH y1) (varRowH y1) (meanRowH_eq_vec y1) (varRowH_eq_vec y1)
    g1 be1 w2 b2 l hsH hsD

/-- The layer's output over ANY vector statistics that agree, column by column, with row statistics. -/
theorem normReluD_eq (y2 : FVec Ideal SNxD .f32) (mv vv : FVec Ideal SD .f32) (mr vr : FVec Ideal S1xD .f32)
    (hm : ∀ k : Fin 100, mr (ix2 0 k) = mv (ix1 k)) (hv : ∀ k : Fin 100, vr (ix2 0 k) = vv (ix1 k))
    (go bo : FVec Ideal S5xD .f32) (l : ℕ) (hsD : S5xD.Slices ![l, 0] S1xD) :
    normReluD y2 mv vv (vecD go l hsD) (vecD bo l hsD) = bnReluD y2 mr vr (rowDOf go l hsD) (rowDOf bo l hsD) := by
  funext i
  obtain ⟨r, j, rfl⟩ : ∃ (r : Fin 50000) (j : Fin 100), i = ix2 r j := ⟨i 0, i 1, eq_ix2 i⟩
  unfold bnReluD
  rw [normReluD_apply, vecD_apply, vecD_apply, hm j, hv j]

/-- The layer's output by `y2`'s own statistics: vectors on one side, rows on the other. -/
theorem bnReluR_eq (y2 : FVec Ideal SNxD .f32) (go bo : FVec Ideal S5xD .f32) (l : ℕ) (hsD : S5xD.Slices ![l, 0] S1xD) :
    bnReluR y2 (vecD go l hsD) (vecD bo l hsD)
      = bnReluD y2 (meanRowD y2) (varRowD y2) (rowDOf go l hsD) (rowDOf bo l hsD) :=
  normReluD_eq y2 (meanVecD y2) (varVecD y2) (meanRowD y2) (varRowD y2) (meanRowD_eq_vec y2) (varRowD_eq_vec y2)
    go bo l hsD

end Cert.GIN

end
-- ==== Proof.RLayer0.lean ====
/-
  The first layer of the reference network, read off its operations.

  The layer is 139 host operations in four stretches:
     1 …  21   hh = (1 + eps) · h + Σ over the edges into a node of (h[src] + e)      (gather, add, scatter-add)
    22 …  29   y1 = hh · W1 + b1
    30 …  88   y2 = max (normalise y1) 0 · W2 + b2, by y1's own column mean and variance
    89 … 139   h' = max (normalise y2) 0, by y2's own column mean and variance
  the parameter rows and the column statistics held as vectors [200] / [100]. From ANY contents, a stretch leaves
  its last buffer at one whole-array function of what the contents had at the stretch's inputs: the results of the
  stretch's operations, composed in the order they run, ARE that function's definition, so nothing is computed and no
  entry of an array is looked at. A buffer that a stretch does not write keeps what it had. Chained, the four facts
  give the layer's output as a function of the layer's inputs and parameters; the vector forms equal the row forms
  step by step, which makes that function the specification's `layer`.
-/
import proofs.«403201_j40475771797954_1_alg».proof.Proof.RefSeams
import proofs.«403201_j40475771797954_1_alg».proof.Proof.SpecRef
import proofs.«403201_j40475771797954_1_alg».proof.Proof.Model
import Idealize.ShloMosaic.Lib.Pipeline.Frame

set_option maxRecDepth 16384

noncomputable section

namespace Cert.ReferenceIdeal.Layer0

open Cert Cert.ReferenceIdeal Cert.ReferenceIdeal.Gen Cert.ReferenceIdeal.Hand
open Idealize.ShloMosaic Idealize.ShloMosaic.TcCoe Idealize.SL.Sem

/-- Contents of every buffer of the device, over the extended reals. -/
abbrev Val := Valuation τ sig (Elt Ideal)

/-! ## The four stretches -/

/-- Operations 1 … 21: the aggregation, through `hh`. -/
abbrev opsAgg : List (HloOp τ sig (Elt Ideal)) := List.take 21 opsL0
/-- Operations 22 … 29: the first dense step, through `y1`. -/
abbrev opsLin : List (HloOp τ sig (Elt Ideal)) := List.take 8 (List.drop 21 opsL0)
/-- Operations 30 … 88: normalisation of `y1`, ramp, second dense step, through `y2`. -/
abbrev opsMid : List (HloOp τ sig (Elt Ideal)) := List.take 59 (List.drop 29 opsL0)
/-- Operations 89 … 139: normalisation of `y2` and ramp, through the layer's output. -/
abbrev opsOut : List (HloOp τ sig (Elt Ideal)) := List.drop 88 opsL0

/-- The layer's operations are the four stretches one after the other, so their fold is the four folds in turn. -/
theorem after_cut (V : Val) :
    StableHlo.after opsL0 V = StableHlo.after opsOut (StableHlo.after opsMid (StableHlo.after opsLin (StableHlo.after opsAgg V))) := by
  have h : (opsL0 (F := Ideal)) = opsAgg ++ (opsLin ++ (opsMid ++ opsOut)) := rfl
  calc StableHlo.after opsL0 V
      = StableHlo.after (opsAgg ++ (opsLin ++ (opsMid ++ opsOut))) V := congrArg (fun l => StableHlo.after l V) h
    _ = _ := by simp only [StableHlo.after_append]

/-! ## What each stretch writes, and so what it keeps -/

/-- The buffers the aggregation writes. -/
abbrev wAgg : List (Ref sig .tc) :=
  [main_c_24, main_v150, main_v151, main_c_25, main_v152, main_v153, main_v154, main_v155, main_v156,
   main_v157, main_cst_26, main_v158, main_v159, main_v160, main_v161, main_v162, main_cst_27, main_v163,
   main_v164, main_v165, main_v166]
/-- The buffers the first dense step writes. -/
abbrev wLin : List (Ref sig .tc) :=
  [main_v167, main_v168, main_v169, main_v170, main_v171, main_v172, main_v173, main_v174]
/-- The buffers the second stretch of dense arithmetic writes. -/
abbrev wMid : List (Ref sig .tc) :=
  [main_v175, main_v176, main_v177, main_v178, main_cst_28, main_v179, main_cst_29, main_v180, main_v181,
   main_c_30, main_call0_cst, main_call0_v0, main_call0_v1, main_call0_cst_0, main_call0_v2, main_call0_v3,
   main_call0_v4, main_call0_v5, main_call0_v6, main_call0_v7, main_call0_cst_1, main_call0_v8,
   main_call0_cst_2, main_call0_v9, main_call0_v10, main_call0_v11, main_call0_cst_3, main_call0_v12,
   main_call0_cst_4, main_call0_call0_v0, main_call0_call0_v1, main_v182, main_v183, main_v184, main_v185,
   main_cst_31, main_v186, main_v187, main_v188, main_v189, main_v190, main_v191, main_v192, main_v193,
   main_v194, main_v195, main_v196, main_v197, main_call1_cst, main_call1_v0, main_v198, main_v199, main_v200,
   main_v201, main_v202, main_v203, main_v204, main_v205, main_v206]
/-- The buffers the last stretch writes. -/
abbrev wOut : List (Ref sig .tc) :=
  [main_v207, main_v208, main_v209, main_v210, main_cst_32, main_v211, main_cst_33, main_v212, main_v213,
   main_c_34, main_call2_cst, main_call2_v0, main_call2_v1, main_call2_cst_0, main_call2_v2, main_call2_v3,
   main_call2_v4, main_call2_v5, main_call2_v6, main_call2_v7, main_call2_cst_1, main_call2_v8,
   main_call2_cst_2, main_call2_v9, main_call2_v10, main_call2_v11, main_call2_cst_3, main_call2_v12,
   main_call2_cst_4, main_call2_call0_v0, main_call2_call0_v1, main_v214, main_v215, main_v216, main_v217,
   main_cst_35, main_v218, main_v219, main_v220, main_v221, main_v222, main_v223, main_v224, main_v225,
   main_v226, main_v227, main_v228, main_v229, main_call3_cst, main_call3_v0, main_v230]

theorem opsAgg_writes : opsAgg.Forall fun op => op.writes ⊆ (wAgg.map (Proc.devRef (τ := τ) .tc)).toFinset := by
  simp only [opsAgg, opsL0, List.take_succ_cons, List.take_zero, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem opsLin_writes : opsLin.Forall fun op => op.writes ⊆ (wLin.map (Proc.devRef (τ := τ) .tc)).toFinset := by
  simp only [opsLin, opsL0, List.drop_succ_cons, List.drop_zero, List.take_succ_cons, List.take_zero, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem opsMid_writes : opsMid.Forall fun op => op.writes ⊆ (wMid.map (Proc.devRef (τ := τ) .tc)).toFinset := by
  simp only [opsMid, opsL0, List.drop_succ_cons, List.drop_zero, List.take_succ_cons, List.take_zero, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem opsOut_writes : opsOut.Forall fun op => op.writes ⊆ (wOut.map (Proc.devRef (τ := τ) .tc)).toFinset := by
  simp only [opsOut, opsL0, List.drop_succ_cons, List.drop_zero, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer the aggregation does not write keeps its contents. -/
theorem keepAgg (W : Val) (r : Ref sig .tc) (hr : r ∉ wAgg) :
    StableHlo.after opsAgg W (Proc.devRef .tc r) = W (Proc.devRef .tc r) := StableHlo.after_of_writes_sub _ W opsAgg_writes hr
theorem keepLin (W : Val) (r : Ref sig .tc) (hr : r ∉ wLin) :
    StableHlo.after opsLin W (Proc.devRef .tc r) = W (Proc.devRef .tc r) := StableHlo.after_of_writes_sub _ W opsLin_writes hr
theorem keepMid (W : Val) (r : Ref sig .tc) (hr : r ∉ wMid) :
    StableHlo.after opsMid W (Proc.devRef .tc r) = W (Proc.devRef .tc r) := StableHlo.after_of_writes_sub _ W opsMid_writes hr
theorem keepOut (W : Val) (r : Ref sig .tc) (hr : r ∉ wOut) :
    StableHlo.after opsOut W (Proc.devRef .tc r) = W (Proc.devRef .tc r) := StableHlo.after_of_writes_sub _ W opsOut_writes hr

/-- A buffer none of the four stretches writes is, after the layer, as it was before. -/
theorem keep (V : Val) (r : Ref sig .tc) (h1 : r ∉ wAgg) (h2 : r ∉ wLin) (h3 : r ∉ wMid) (h4 : r ∉ wOut) :
    StableHlo.after opsL0 V (Proc.devRef .tc r) = V (Proc.devRef .tc r) := by
  rw [after_cut, keepOut _ r h4, keepMid _ r h3, keepLin _ r h2, keepAgg _ r h1]

/-! ## Each stretch's last buffer, from any contents -/

/-- The aggregation: scale `h` by `1 + eps`, gather the source rows, add the edge features, scatter-add by destination. -/
theorem agg_read (W : Val) :
    StableHlo.after opsAgg W (Proc.devRef .tc main_v166)
      = GIN.agg (GIN.epsOf (W (Proc.devRef .tc main_arg6)) 0 (by decide)) (W (Proc.devRef .tc main_v108)) (W (Proc.devRef .tc main_v145))
          (W (Proc.devRef .tc main_v147)) (W (Proc.devRef .tc main_v149)) := by
  simp only [opsAgg, opsL0, List.take_succ_cons, List.take_zero]
  after_results_simp
  rfl

/-- The first dense step: the layer's slice of `W1`, the whole-array product, the bias vector copied into the rows. -/
theorem lin_read (W : Val) :
    StableHlo.after opsLin W (Proc.devRef .tc main_v174)
      = GIN.linR (W (Proc.devRef .tc main_v166)) (GIN.w1Of (W (Proc.devRef .tc main_arg7)) 0 (by decide))
          (GIN.vecH (W (Proc.devRef .tc main_arg8)) 0 (by decide)) := by
  simp only [opsLin, opsL0, List.drop_succ_cons, List.drop_zero, List.take_succ_cons, List.take_zero]
  after_results_simp
  rfl

/-- Normalisation of `y1` by its own column mean and variance (vectors), scale and shift, ramp, then `· W2 + b2`. -/
theorem mid_read (W : Val) :
    StableHlo.after opsMid W (Proc.devRef .tc main_v206)
      = GIN.bnLinR (W (Proc.devRef .tc main_v174)) (GIN.vecH (W (Proc.devRef .tc main_arg9)) 0 (by decide))
          (GIN.vecH (W (Proc.devRef .tc main_arg10)) 0 (by decide)) (GIN.w2Of (W (Proc.devRef .tc main_arg11)) 0 (by decide))
          (GIN.vecD (W (Proc.devRef .tc main_arg12)) 0 (by decide)) := by
  simp only [opsMid, opsL0, List.drop_succ_cons, List.drop_zero, List.take_succ_cons, List.take_zero]
  after_results_simp
  rfl

/-- Normalisation of `y2` by its own column mean and variance (vectors), scale and shift, ramp. -/
theorem out_read (W : Val) :
    StableHlo.after opsOut W (Proc.devRef .tc main_v230)
      = GIN.bnReluR (W (Proc.devRef .tc main_v206)) (GIN.vecD (W (Proc.devRef .tc main_arg13)) 0 (by decide))
          (GIN.vecD (W (Proc.devRef .tc main_arg14)) 0 (by decide)) := by
  simp only [opsOut, opsL0, List.drop_succ_cons, List.drop_zero]
  after_results_simp
  rfl

/-! ## The layer's buffers as functions of its inputs -/

/-- The aggregated features. -/
theorem hh_eq (V : Val) :
    StableHlo.after opsL0 V (Proc.devRef .tc main_v166)
      = GIN.agg (GIN.epsOf (V (Proc.devRef .tc main_arg6)) 0 (by decide)) (V (Proc.devRef .tc main_v108)) (V (Proc.devRef .tc main_v145))
          (V (Proc.devRef .tc main_v147)) (V (Proc.devRef .tc main_v149)) := by
  rw [after_cut, keepOut _ main_v166 (by decide), keepMid _ main_v166 (by decide), keepLin _ main_v166 (by decide), agg_read]

/-- The first dense step's result. -/
theorem y1_eq (V : Val) :
    StableHlo.after opsL0 V (Proc.devRef .tc main_v174)
      = GIN.linR
        (GIN.agg (GIN.epsOf (V (Proc.devRef .tc main_arg6)) 0 (by decide)) (V (Proc.devRef .tc main_v108)) (V (Proc.devRef .tc main_v145))
          (V (Proc.devRef .tc main_v147)) (V (Proc.devRef .tc main_v149)))
        (GIN.w1Of (V (Proc.devRef .tc main_arg7)) 0 (by decide)) (GIN.vecH (V (Proc.devRef .tc main_arg8)) 0 (by decide)) := by
  rw [after_cut, keepOut _ main_v174 (by decide), keepMid _ main_v174 (by decide), lin_read, agg_read,
    keepAgg _ main_arg7 (by decide), keepAgg _ main_arg8 (by decide)]

/-- The second dense step's result. -/
theorem y2_eq (V : Val) :
    StableHlo.after opsL0 V (Proc.devRef .tc main_v206)
  = GIN.bnLinR
      (GIN.linR
        (GIN.agg (GIN.epsOf (V (Proc.devRef .tc main_arg6)) 0 (by decide)) (V (Proc.devRef .tc main_v108)) (V (Proc.devRef .tc main_v145))
          (V (Proc.devRef .tc main_v147)) (V (Proc.devRef .tc main_v149)))
        (GIN.w1Of (V (Proc.devRef .tc main_arg7)) 0 (by decide)) (GIN.vecH (V (Proc.devRef .tc main_arg8)) 0 (by decide)))
      (GIN.vecH (V (Proc.devRef .tc main_arg9)) 0 (by decide)) (GIN.vecH (V (Proc.devRef .tc main_arg10)) 0 (by decide))
      (GIN.w2Of (V (Proc.devRef .tc main_arg11)) 0 (by decide)) (GIN.vecD (V (Proc.devRef .tc main_arg12)) 0 (by decide)) := by
  rw [after_cut, keepOut _ main_v206 (by decide), mid_read, lin_read, agg_read,
    keepAgg _ main_arg7 (by decide), keepAgg _ main_arg8 (by decide),
    keepLin _ main_arg9 (by decide), keepAgg _ main_arg9 (by decide),
    keepLin _ main_arg10 (by decide), keepAgg _ main_arg10 (by decide),
    keepLin _ main_arg11 (by decide), keepAgg _ main_arg11 (by decide),
    keepLin _ main_arg12 (by decide), keepAgg _ main_arg12 (by decide)]

/-- The layer's output, in vector form. -/
theorem out_eq (V : Val) :
    StableHlo.after opsL0 V (Proc.devRef .tc main_v230)
  = GIN.bnReluR
    (GIN.bnLinR
      (GIN.linR
        (GIN.agg (GIN.epsOf (V (Proc.devRef .tc main_arg6)) 0 (by decide)) (V (Proc.devRef .tc main_v108)) (V (Proc.devRef .tc main_v145))
          (V (Proc.devRef .tc main_v147)) (V (Proc.devRef .tc main_v149)))
        (GIN.w1Of (V (Proc.devRef .tc main_arg7)) 0 (by decide)) (GIN.vecH (V (Proc.devRef .tc main_arg8)) 0 (by decide)))
      (GIN.vecH (V (Proc.devRef .tc main_arg9)) 0 (by decide)) (GIN.vecH (V (Proc.devRef .tc main_arg10)) 0 (by decide))
      (GIN.w2Of (V (Proc.devRef .tc main_arg11)) 0 (by decide)) (GIN.vecD (V (Proc.devRef .tc main_arg12)) 0 (by decide)))
    (GIN.vecD (V (Proc.devRef .tc main_arg13)) 0 (by decide)) (GIN.vecD (V (Proc.devRef .tc main_arg14)) 0 (by decide)) := by
  rw [after_cut, out_read, mid_read, lin_read, agg_read,
    keepAgg _ main_arg7 (by decide), keepAgg _ main_arg8 (by decide),
    keepLin _ main_arg9 (by decide), keepAgg _ main_arg9 (by decide),
    keepLin _ main_arg10 (by decide), keepAgg _ main_arg10 (by decide),
    keepLin _ main_arg11 (by decide), keepAgg _ main_arg11 (by decide),
    keepLin _ main_arg12 (by decide), keepAgg _ main_arg12 (by decide),
    keepMid _ main_arg13 (by decide), keepLin _ main_arg13 (by decide), keepAgg _ main_arg13 (by decide),
    keepMid _ main_arg14 (by decide), keepLin _ main_arg14 (by decide), keepAgg _ main_arg14 (by decide)]

/-- The layer's output is the specification's layer of the layer's inputs: each vector form is its row form. -/
theorem layer_eq (V : Val) :
    StableHlo.after opsL0 V (Proc.devRef .tc main_v230)
      = GIN.layer (GIN.epsOf (V (Proc.devRef .tc main_arg6)) 0 (by decide)) (GIN.w1Of (V (Proc.devRef .tc main_arg7)) 0 (by decide))
          (GIN.rowHOf (V (Proc.devRef .tc main_arg8)) 0 (by decide)) (GIN.rowHOf (V (Proc.devRef .tc main_arg9)) 0 (by decide))
          (GIN.rowHOf (V (Proc.devRef .tc main_arg10)) 0 (by decide)) (GIN.w2Of (V (Proc.devRef .tc main_arg11)) 0 (by decide))
          (GIN.rowDOf (V (Proc.devRef .tc main_arg12)) 0 (by decide)) (GIN.rowDOf (V (Proc.devRef .tc main_arg13)) 0 (by decide))
          (GIN.rowDOf (V (Proc.devRef .tc main_arg14)) 0 (by decide))
          (V (Proc.devRef .tc main_v145)) (V (Proc.devRef .tc main_v147)) (V (Proc.devRef .tc main_v149)) (V (Proc.devRef .tc main_v108)) := by
  rw [out_eq, GIN.bnReluR_eq, GIN.bnLinR_eq, GIN.linR_eq]
  rfl

/-! ## What the layer leaves alone: the edge features, the edge endpoints and the program's arguments -/

theorem keep_main_v145 (V : Val) : StableHlo.after opsL0 V (Proc.devRef .tc main_v145) = V (Proc.devRef .tc main_v145) :=
  keep V main_v145 (by decide) (by decide) (by decide) (by decide)
theorem keep_main_v147 (V : Val) : StableHlo.after opsL0 V (Proc.devRef .tc main_v147) = V (Proc.devRef .tc main_v147) :=
  keep V main_v147 (by decide) (by decide) (by decide) (by decide)
theorem keep_main_v149 (V : Val) : StableHlo.after opsL0 V (Proc.devRef .tc main_v149) = V (Proc.devRef .tc main_v149) :=
  keep V main_v149 (by decide) (by decide) (by decide) (by decide)
theorem keep_main_arg0 (V : Val) : StableHlo.after opsL0 V (Proc.devRef .tc main_arg0) = V (Proc.devRef .tc main_arg0) :=
  keep V main_arg0 (by decide) (by decide) (by decide) (by decide)
theorem keep_main_arg1 (V : Val) : StableHlo.after opsL0 V (Proc.devRef .tc main_arg1) = V (Proc.devRef .tc main_arg1) :=
  keep V main_arg1 (by decide) (by decide) (by decide) (by decide)
theorem keep_main_arg2 (V : Val) : StableHlo.after opsL0 V (Proc.devRef .tc main_arg2) = V (Proc.devRef .tc main_arg2) :=
  keep V main_arg2 (by decide) (by decide) (by decide) (by decide)
theorem keep_main_arg3 (V : Val) : StableHlo.after opsL0 V (Proc.devRef .tc main_arg3) = V (Proc.devRef .tc main_arg3) :=
  keep V main_arg3 (by decide) (by decide) (by decide) (by decide)
theorem keep_main_arg4 (V : Val) : StableHlo.after opsL0 V (Proc.devRef .tc main_arg4) = V (Proc.devRef .tc main_arg4) :=
  keep V main_arg4 (by decide) (by decide) (by decide) (by decide)
theorem keep_main_arg5 (V : Val) : StableHlo.after opsL0 V (Proc.devRef .tc main_arg5) = V (Proc.devRef .tc main_arg5) :=
  keep V main_arg5 (by decide) (by decide) (by decide) (by decide)
theorem keep_main_arg6 (V : Val) : StableHlo.after opsL0 V (Proc.devRef .tc main_arg6) = V (Proc.devRef .tc main_arg6) :=
  keep V main_arg6 (by decide) (by decide) (by decide) (by decide)
theorem keep_main_arg7 (V : Val) : StableHlo.after opsL0 V (Proc.devRef .tc main_arg7) = V (Proc.devRef .tc main_arg7) :=
  keep V main_arg7 (by decide) (by decide) (by decide) (by decide)
theorem keep_main_arg8 (V : Val) : StableHlo.after opsL0 V (Proc.devRef .tc main_arg8) = V (Proc.devRef .tc main_arg8) :=
  keep V main_arg8 (by decide) (by decide) (by decide) (by decide)
theorem keep_main_arg9 (V : Val) : StableHlo.after opsL0 V (Proc.devRef .tc main_arg9) = V (Proc.devRef .tc main_arg9) :=
  keep V main_arg9 (by decide) (by decide) (by decide) (by decide)
theorem keep_main_arg10 (V : Val) : StableHlo.after opsL0 V (Proc.devRef .tc main_arg10) = V (Proc.devRef .tc main_arg10) :=
  keep V main_arg10 (by decide) (by decide) (by decide) (by decide)
theorem keep_main_arg11 (V : Val) : StableHlo.after opsL0 V (Proc.devRef .tc main_arg11) = V (Proc.devRef .tc main_arg11) :=
  keep V main_arg11 (by decide) (by decide) (by decide) (by decide)
theorem keep_main_arg12 (V : Val) : StableHlo.after opsL0 V (Proc.devRef .tc main_arg12) = V (Proc.devRef .tc main_arg12) :=
  keep V main_arg12 (by decide) (by decide) (by decide) (by decide)
theorem keep_main_arg13 (V : Val) : StableHlo.after opsL0 V (Proc.devRef .tc main_arg13) = V (Proc.devRef .tc main_arg13) :=
  keep V main_arg13 (by decide) (by decide) (by decide) (by decide)
theorem keep_main_arg14 (V : Val) : StableHlo.after opsL0 V (Proc.devRef .tc main_arg14) = V (Proc.devRef .tc main_arg14) :=
  keep V main_arg14 (by decide) (by decide) (by decide) (by decide)
theorem keep_main_arg15 (V : Val) : StableHlo.after opsL0 V (Proc.devRef .tc main_arg15) = V (Proc.devRef .tc main_arg15) :=
  keep V main_arg15 (by decide) (by decide) (by decide) (by decide)
theorem keep_main_arg16 (V : Val) : StableHlo.after opsL0 V (Proc.devRef .tc main_arg16) = V (Proc.devRef .tc main_arg16) :=
  keep V main_arg16 (by decide) (by decide) (by decide) (by decide)

end Cert.ReferenceIdeal.Layer0

end
-- ==== Proof.RLayer1.lean ====
/-
  The second layer of the reference network, read off its operations.

  The layer is 139 host operations in four stretches:
     1 …  21   hh = (1 + eps) · h + Σ over the edges into a node of (h[src] + e)      (gather, add, scatter-add)
    22 …  29   y1 = hh · W1 + b1
    30 …  88   y2 = max (normalise y1) 0 · W2 + b2, by y1's own column mean and variance
    89 … 139   h' = max (normalise y2) 0, by y2's own column mean and variance
  the parameter rows and the column statistics held as vectors [200] / [100]. From ANY contents, a stretch leaves
  its last buffer at one whole-array function of what the contents had at the stretch's inputs: the results of the
  stretch's operations, composed in the order they run, ARE that function's definition, so nothing is computed and no
  entry of an array is looked at. A buffer that a stretch does not write keeps what it had. Chained, the four facts
  give the layer's output as a function of the layer's inputs and parameters; the vector forms equal the row forms
  step by step, which makes that function the specification's `layer`.
-/
import proofs.«403201_j40475771797954_1_alg».proof.Proof.RefSeams
import proofs.«403201_j40475771797954_1_alg».proof.Proof.SpecRef
import proofs.«403201_j40475771797954_1_alg».proof.Proof.Model
import Idealize.ShloMosaic.Lib.Pipeline.Frame

set_option maxRecDepth 16384

noncomputable section

namespace Cert.ReferenceIdeal.Layer1

open Cert Cert.ReferenceIdeal Cert.ReferenceIdeal.Gen Cert.ReferenceIdeal.Hand
open Idealize.ShloMosaic Idealize.ShloMosaic.TcCoe Idealize.SL.Sem

/-- Contents of every buffer of the device, over the extended reals. -/
abbrev Val := Valuation τ sig (Elt Ideal)

/-! ## The four stretches -/

/-- Operations 1 … 21: the aggregation, through `hh`. -/
abbrev opsAgg : List (HloOp τ sig (Elt Ideal)) := List.take 21 opsL1
/-- Operations 22 … 29: the first dense step, through `y1`. -/
abbrev opsLin : List (HloOp τ sig (Elt Ideal)) := List.take 8 (List.drop 21 opsL1)
/-- Operations 30 … 88: normalisation of `y1`, ramp, second dense step, through `y2`. -/
abbrev opsMid : List (HloOp τ sig (Elt Ideal)) := List.take 59 (List.drop 29 opsL1)
/-- Operations 89 … 139: normalisation of `y2` and ramp, through the layer's output. -/
abbrev opsOut : List (HloOp τ sig (Elt Ideal)) := List.drop 88 opsL1

/-- The layer's operations are the four stretches one after the other, so their fold is the four folds in turn. -/
theorem after_cut (V : Val) :
    StableHlo.after opsL1 V = StableHlo.after opsOut (StableHlo.after opsMid (StableHlo.after opsLin (StableHlo.after opsAgg V))) := by
  have h : (opsL1 (F := Ideal)) = opsAgg ++ (opsLin ++ (opsMid ++ opsOut)) := rfl
  calc StableHlo.after opsL1 V
      = StableHlo.after (opsAgg ++ (opsLin ++ (opsMid ++ opsOut))) V := congrArg (fun l => StableHlo.after l V) h
    _ = _ := by simp only [StableHlo.after_append]

/-! ## What each stretch writes, and so what it keeps -/

/-- The buffers the aggregation writes. -/
abbrev wAgg : List (Ref sig .tc) :=
  [main_c_36, main_v231, main_v232, main_c_37, main_v233, main_v234, main_v235, main_v236, main_v237,
   main_v238, main_cst_38, main_v239, main_v240, main_v241, main_v242, main_v243, main_cst_39, main_v244,
   main_v245, main_v246, main_v247]
/-- The buffers the first dense step writes. -/
abbrev wLin : List (Ref sig .tc) :=
  [main_v248, main_v249, main_v250, main_v251, main_v252, main_v253, main_v254, main_v255]
/-- The buffers the second stretch of dense arithmetic writes. -/
abbrev wMid : List (Ref sig .tc) :=
  [main_v256, main_v257, main_v258, main_v259, main_cst_40, main_v260, main_cst_41, main_v261, main_v262,
   main_c_42, main_call4_cst, main_call4_v0, main_call4_v1, main_call4_cst_0, main_call4_v2, main_call4_v3,
   main_call4_v4, main_call4_v5, main_call4_v6, main_call4_v7, main_call4_cst_1, main_call4_v8,
   main_call4_cst_2, main_call4_v9, main_call4_v10, main_call4_v11, main_call4_cst_3, main_call4_v12,
   main_call4_cst_4, main_call4_call0_v0, main_call4_call0_v1, main_v263, main_v264, main_v265, main_v266,
   main_cst_43, main_v267, main_v268, main_v269, main_v270, main_v271, main_v272, main_v273, main_v274,
   main_v275, main_v276, main_v277, main_v278, main_call5_cst, main_call5_v0, main_v279, main_v280, main_v281,
   main_v282, main_v283, main_v284, main_v285, main_v286, main_v287]
/-- The buffers the last stretch writes. -/
abbrev wOut : List (Ref sig .tc) :=
  [main_v288, main_v289, main_v290, main_v291, main_cst_44, main_v292, main_cst_45, main_v293, main_v294,
   main_c_46, main_call6_cst, main_call6_v0, main_call6_v1, main_call6_cst_0, main_call6_v2, main_call6_v3,
   main_call6_v4, main_call6_v5, main_call6_v6, main_call6_v7, main_call6_cst_1, main_call6_v8,
   main_call6_cst_2, main_call6_v9, main_call6_v10, main_call6_v11, main_call6_cst_3, main_call6_v12,
   main_call6_cst_4, main_call6_call0_v0, main_call6_call0_v1, main_v295, main_v296, main_v297, main_v298,
   main_cst_47, main_v299, main_v300, main_v301, main_v302, main_v303, main_v304, main_v305, main_v306,
   main_v307, main_v308, main_v309, main_v310, main_call7_cst, main_call7_v0, main_v311]

theorem opsAgg_writes : opsAgg.Forall fun op => op.writes ⊆ (wAgg.map (Proc.devRef (τ := τ) .tc)).toFinset := by
  simp only [opsAgg, opsL1, List.take_succ_cons, List.take_zero, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem opsLin_writes : opsLin.Forall fun op => op.writes ⊆ (wLin.map (Proc.devRef (τ := τ) .tc)).toFinset := by
  simp only [opsLin, opsL1, List.drop_succ_cons, List.drop_zero, List.take_succ_cons, List.take_zero, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem opsMid_writes : opsMid.Forall fun op => op.writes ⊆ (wMid.map (Proc.devRef (τ := τ) .tc)).toFinset := by
  simp only [opsMid, opsL1, List.drop_succ_cons, List.drop_zero, List.take_succ_cons, List.take_zero, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem opsOut_writes : opsOut.Forall fun op => op.writes ⊆ (wOut.map (Proc.devRef (τ := τ) .tc)).toFinset := by
  simp only [opsOut, opsL1, List.drop_succ_cons, List.drop_zero, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer the aggregation does not write keeps its contents. -/
theorem keepAgg (W : Val) (r : Ref sig .tc) (hr : r ∉ wAgg) :
    StableHlo.after opsAgg W (Proc.devRef .tc r) = W (Proc.devRef .tc r) := StableHlo.after_of_writes_sub _ W opsAgg_writes hr
theorem keepLin (W : Val) (r : Ref sig .tc) (hr : r ∉ wLin) :
    StableHlo.after opsLin W (Proc.devRef .tc r) = W (Proc.devRef .tc r) := StableHlo.after_of_writes_sub _ W opsLin_writes hr
theorem keepMid (W : Val) (r : Ref sig .tc) (hr : r ∉ wMid) :
    StableHlo.after opsMid W (Proc.devRef .tc r) = W (Proc.devRef .tc r) := StableHlo.after_of_writes_sub _ W opsMid_writes hr
theorem keepOut (W : Val) (r : Ref sig .tc) (hr : r ∉ wOut) :
    StableHlo.after opsOut W (Proc.devRef .tc r) = W (Proc.devRef .tc r) := StableHlo.after_of_writes_sub _ W opsOut_writes hr

/-- A buffer none of the four stretches writes is, after the layer, as it was before. -/
theorem keep (V : Val) (r : Ref sig .tc) (h1 : r ∉ wAgg) (h2 : r ∉ wLin) (h3 : r ∉ wMid) (h4 : r ∉ wOut) :
    StableHlo.after opsL1 V (Proc.devRef .tc r) = V (Proc.devRef .tc r) := by
  rw [after_cut, keepOut _ r h4, keepMid _ r h3, keepLin _ r h2, keepAgg _ r h1]

/-! ## Each stretch's last buffer, from any contents -/

/-- The aggregation: scale `h` by `1 + eps`, gather the source rows, add the edge features, scatter-add by destination. -/
theorem agg_read (W : Val) :
    StableHlo.after opsAgg W (Proc.devRef .tc main_v247)
      = GIN.agg (GIN.epsOf (W (Proc.devRef .tc main_arg6)) 1 (by decide)) (W (Proc.devRef .tc main_v230)) (W (Proc.devRef .tc main_v145))
          (W (Proc.devRef .tc main_v147)) (W (Proc.devRef .tc main_v149)) := by
  simp only [opsAgg, opsL1, List.take_succ_cons, List.take_zero]
  after_results_simp
  rfl

/-- The first dense step: the layer's slice of `W1`, the whole-array product, the bias vector copied into the rows. -/
theorem lin_read (W : Val) :
    StableHlo.after opsLin W (Proc.devRef .tc main_v255)
      = GIN.linR (W (Proc.devRef .tc main_v247)) (GIN.w1Of (W (Proc.devRef .tc main_arg7)) 1 (by decide))
          (GIN.vecH (W (Proc.devRef .tc main_arg8)) 1 (by decide)) := by
  simp only [opsLin, opsL1, List.drop_succ_cons, List.drop_zero, List.take_succ_cons, List.take_zero]
  after_results_simp
  rfl

/-- Normalisation of `y1` by its own column mean and variance (vectors), scale and shift, ramp, then `· W2 + b2`. -/
theorem mid_read (W : Val) :
    StableHlo.after opsMid W (Proc.devRef .tc main_v287)
      = GIN.bnLinR (W (Proc.devRef .tc main_v255)) (GIN.vecH (W (Proc.devRef .tc main_arg9)) 1 (by decide))
          (GIN.vecH (W (Proc.devRef .tc main_arg10)) 1 (by decide)) (GIN.w2Of (W (Proc.devRef .tc main_arg11)) 1 (by decide))
          (GIN.vecD (W (Proc.devRef .tc main_arg12)) 1 (by decide)) := by
  simp only [opsMid, opsL1, List.drop_succ_cons, List.drop_zero, List.take_succ_cons, List.take_zero]
  after_results_simp
  rfl

/-- Normalisation of `y2` by its own column mean and variance (vectors), scale and shift, ramp. -/
theorem out_read (W : Val) :
    StableHlo.after opsOut W (Proc.devRef .tc main_v311)
      = GIN.bnReluR (W (Proc.devRef .tc main_v287)) (GIN.vecD (W (Proc.devRef .tc main_arg13)) 1 (by decide))
          (GIN.vecD (W (Proc.devRef .tc main_arg14)) 1 (by decide)) := by
  simp only [opsOut, opsL1, List.drop_succ_cons, List.drop_zero]
  after_results_simp
  rfl

/-! ## The layer's buffers as functions of its inputs -/

/-- The aggregated features. -/
theorem hh_eq (V : Val) :
    StableHlo.after opsL1 V (Proc.devRef .tc main_v247)
      = GIN.agg (GIN.epsOf (V (Proc.devRef .tc main_arg6)) 1 (by decide)) (V (Proc.devRef .tc main_v230)) (V (Proc.devRef .tc main_v145))
          (V (Proc.devRef .tc main_v147)) (V (Proc.devRef .tc main_v149)) := by
  rw [after_cut, keepOut _ main_v247 (by decide), keepMid _ main_v247 (by decide), keepLin _ main_v247 (by decide), agg_read]

/-- The first dense step's result. -/
theorem y1_eq (V : Val) :
    StableHlo.after opsL1 V (Proc.devRef .tc main_v255)
      = GIN.linR
        (GIN.agg (GIN.epsOf (V (Proc.devRef .tc main_arg6)) 1 (by decide)) (V (Proc.devRef .tc main_v230)) (V (Proc.devRef .tc main_v145))
          (V (Proc.devRef .tc main_v147)) (V (Proc.devRef .tc main_v149)))
        (GIN.w1Of (V (Proc.devRef .tc main_arg7)) 1 (by decide)) (GIN.vecH (V (Proc.devRef .tc main_arg8)) 1 (by decide)) := by
  rw [after_cut, keepOut _ main_v255 (by decide), keepMid _ main_v255 (by decide), lin_read, agg_read,
    keepAgg _ main_arg7 (by decide), keepAgg _ main_arg8 (by decide)]

/-- The second dense step's result. -/
theorem y2_eq (V : Val) :
    StableHlo.after opsL1 V (Proc.devRef .tc main_v287)
  = GIN.bnLinR
      (GIN.linR
        (GIN.agg (GIN.epsOf (V (Proc.devRef .tc main_arg6)) 1 (by decide)) (V (Proc.devRef .tc main_v230)) (V (Proc.devRef .tc main_v145))
          (V (Proc.devRef .tc main_v147)) (V (Proc.devRef .tc main_v149)))
        (GIN.w1Of (V (Proc.devRef .tc main_arg7)) 1 (by decide)) (GIN.vecH (V (Proc.devRef .tc main_arg8)) 1 (by decide)))
      (GIN.vecH (V (Proc.devRef .tc main_arg9)) 1 (by decide)) (GIN.vecH (V (Proc.devRef .tc main_arg10)) 1 (by decide))
      (GIN.w2Of (V (Proc.devRef .tc main_arg11)) 1 (by decide)) (GIN.vecD (V (Proc.devRef .tc main_arg12)) 1 (by decide)) := by
  rw [after_cut, keepOut _ main_v287 (by decide), mid_read, lin_read, agg_read,
    keepAgg _ main_arg7 (by decide), keepAgg _ main_arg8 (by decide),
    keepLin _ main_arg9 (by decide), keepAgg _ main_arg9 (by decide),
    keepLin _ main_arg10 (by decide), keepAgg _ main_arg10 (by decide),
    keepLin _ main_arg11 (by decide), keepAgg _ main_arg11 (by decide),
    keepLin _ main_arg12 (by decide), keepAgg _ main_arg12 (by decide)]

/-- The layer's output, in vector form. -/
theorem out_eq (V : Val) :
    StableHlo.after opsL1 V (Proc.devRef .tc main_v311)
  = GIN.bnReluR
    (GIN.bnLinR
      (GIN.linR
        (GIN.agg (GIN.epsOf (V (Proc.devRef .tc main_arg6)) 1 (by decide)) (V (Proc.devRef .tc main_v230)) (V (Proc.devRef .tc main_v145))
          (V (Proc.devRef .tc main_v147)) (V (Proc.devRef .tc main_v149)))
        (GIN.w1Of (V (Proc.devRef .tc main_arg7)) 1 (by decide)) (GIN.vecH (V (Proc.devRef .tc main_arg8)) 1 (by decide)))
      (GIN.vecH (V (Proc.devRef .tc main_arg9)) 1 (by decide)) (GIN.vecH (V (Proc.devRef .tc main_arg10)) 1 (by decide))
      (GIN.w2Of (V (Proc.devRef .tc main_arg11)) 1 (by decide)) (GIN.vecD (V (Proc.devRef .tc main_arg12)) 1 (by decide)))
    (GIN.vecD (V (Proc.devRef .tc main_arg13)) 1 (by decide)) (GIN.vecD (V (Proc.devRef .tc main_arg14)) 1 (by decide)) := by
  rw [after_cut, out_read, mid_read, lin_read, agg_read,
    keepAgg _ main_arg7 (by decide), keepAgg _ main_arg8 (by decide),
    keepLin _ main_arg9 (by decide), keepAgg _ main_arg9 (by decide),
    keepLin _ main_arg10 (by decide), keepAgg _ main_arg10 (by decide),
    keepLin _ main_arg11 (by decide), keepAgg _ main_arg11 (by decide),
    keepLin _ main_arg12 (by decide), keepAgg _ main_arg12 (by decide),
    keepMid _ main_arg13 (by decide), keepLin _ main_arg13 (by decide), keepAgg _ main_arg13 (by decide),
    keepMid _ main_arg14 (by decide), keepLin _ main_arg14 (by decide), keepAgg _ main_arg14 (by decide)]

/-- The layer's output is the specification's layer of the layer's inputs: each vector form is its row form. -/
theorem layer_eq (V : Val) :
    StableHlo.after opsL1 V (Proc.devRef .tc main_v311)
      = GIN.layer (GIN.epsOf (V (Proc.devRef .tc main_arg6)) 1 (by decide)) (GIN.w1Of (V (Proc.devRef .tc main_arg7)) 1 (by decide))
          (GIN.rowHOf (V (Proc.devRef .tc main_arg8)) 1 (by decide)) (GIN.rowHOf (V (Proc.devRef .tc main_arg9)) 1 (by decide))
          (GIN.rowHOf (V (Proc.devRef .tc main_arg10)) 1 (by decide)) (GIN.w2Of (V (Proc.devRef .tc main_arg11)) 1 (by decide))
          (GIN.rowDOf (V (Proc.devRef .tc main_arg12)) 1 (by decide)) (GIN.rowDOf (V (Proc.devRef .tc main_arg13)) 1 (by decide))
          (GIN.rowDOf (V (Proc.devRef .tc main_arg14)) 1 (by decide))
          (V (Proc.devRef .tc main_v145)) (V (Proc.devRef .tc main_v147)) (V (Proc.devRef .tc main_v149)) (V (Proc.devRef .tc main_v230)) := by
  rw [out_eq, GIN.bnReluR_eq, GIN.bnLinR_eq, GIN.linR_eq]
  rfl

/-! ## What the layer leaves alone: the edge features, the edge endpoints and the program's arguments -/

theorem keep_main_v145 (V : Val) : StableHlo.after opsL1 V (Proc.devRef .tc main_v145) = V (Proc.devRef .tc main_v145) :=
  keep V main_v145 (by decide) (by decide) (by decide) (by decide)
theorem keep_main_v147 (V : Val) : StableHlo.after opsL1 V (Proc.devRef .tc main_v147) = V (Proc.devRef .tc main_v147) :=
  keep V main_v147 (by decide) (by decide) (by decide) (by decide)
theorem keep_main_v149 (V : Val) : StableHlo.after opsL1 V (Proc.devRef .tc main_v149) = V (Proc.devRef .tc main_v149) :=
  keep V main_v149 (by decide) (by decide) (by decide) (by decide)
theorem keep_main_arg0 (V : Val) : StableHlo.after opsL1 V (Proc.devRef .tc main_arg0) = V (Proc.devRef .tc main_arg0) :=
  keep V main_arg0 (by decide) (by decide) (by decide) (by decide)
theorem keep_main_arg1 (V : Val) : StableHlo.after opsL1 V (Proc.devRef .tc main_arg1) = V (Proc.devRef .tc main_arg1) :=
  keep V main_arg1 (by decide) (by decide) (by decide) (by decide)
theorem keep_main_arg2 (V : Val) : StableHlo.after opsL1 V (Proc.devRef .tc main_arg2) = V (Proc.devRef .tc main_arg2) :=
  keep V main_arg2 (by decide) (by decide) (by decide) (by decide)
theorem keep_main_arg3 (V : Val) : StableHlo.after opsL1 V (Proc.devRef .tc main_arg3) = V (Proc.devRef .tc main_arg3) :=
  keep V main_arg3 (by decide) (by decide) (by decide) (by decide)
theorem keep_main_arg4 (V : Val) : StableHlo.after opsL1 V (Proc.devRef .tc main_arg4) = V (Proc.devRef .tc main_arg4) :=
  keep V main_arg4 (by decide) (by decide) (by decide) (by decide)
theorem keep_main_arg5 (V : Val) : StableHlo.after opsL1 V (Proc.devRef .tc main_arg5) = V (Proc.devRef .tc main_arg5) :=
  keep V main_arg5 (by decide) (by decide) (by decide) (by decide)
theorem keep_main_arg6 (V : Val) : StableHlo.after opsL1 V (Proc.devRef .tc main_arg6) = V (Proc.devRef .tc main_arg6) :=
  keep V main_arg6 (by decide) (by decide) (by decide) (by decide)
theorem keep_main_arg7 (V : Val) : StableHlo.after opsL1 V (Proc.devRef .tc main_arg7) = V (Proc.devRef .tc main_arg7) :=
  keep V main_arg7 (by decide) (by decide) (by decide) (by decide)
theorem keep_main_arg8 (V : Val) : StableHlo.after opsL1 V (Proc.devRef .tc main_arg8) = V (Proc.devRef .tc main_arg8) :=
  keep V main_arg8 (by decide) (by decide) (by decide) (by decide)
theorem keep_main_arg9 (V : Val) : StableHlo.after opsL1 V (Proc.devRef .tc main_arg9) = V (Proc.devRef .tc main_arg9) :=
  keep V main_arg9 (by decide) (by decide) (by decide) (by decide)
theorem keep_main_arg10 (V : Val) : StableHlo.after opsL1 V (Proc.devRef .tc main_arg10) = V (Proc.devRef .tc main_arg10) :=
  keep V main_arg10 (by decide) (by decide) (by decide) (by decide)
theorem keep_main_arg11 (V : Val) : StableHlo.after opsL1 V (Proc.devRef .tc main_arg11) = V (Proc.devRef .tc main_arg11) :=
  keep V main_arg11 (by decide) (by decide) (by decide) (by decide)
theorem keep_main_arg12 (V : Val) : StableHlo.after opsL1 V (Proc.devRef .tc main_arg12) = V (Proc.devRef .tc main_arg12) :=
  keep V main_arg12 (by decide) (by decide) (by decide) (by decide)
theorem keep_main_arg13 (V : Val) : StableHlo.after opsL1 V (Proc.devRef .tc main_arg13) = V (Proc.devRef .tc main_arg13) :=
  keep V main_arg13 (by decide) (by decide) (by decide) (by decide)
theorem keep_main_arg14 (V : Val) : StableHlo.after opsL1 V (Proc.devRef .tc main_arg14) = V (Proc.devRef .tc main_arg14) :=
  keep V main_arg14 (by decide) (by decide) (by decide) (by decide)
theorem keep_main_arg15 (V : Val) : StableHlo.after opsL1 V (Proc.devRef .tc main_arg15) = V (Proc.devRef .tc main_arg15) :=
  keep V main_arg15 (by decide) (by decide) (by decide) (by decide)
theorem keep_main_arg16 (V : Val) : StableHlo.after opsL1 V (Proc.devRef .tc main_arg16) = V (Proc.devRef .tc main_arg16) :=
  keep V main_arg16 (by decide) (by decide) (by decide) (by decide)

end Cert.ReferenceIdeal.Layer1

end
-- ==== Proof.RLayer2.lean ====
/-
  The third layer of the reference network, read off its operations.

  The layer is 139 host operations in four stretches:
     1 …  21   hh = (1 + eps) · h + Σ over the edges into a node of (h[src] + e)      (gather, add, scatter-add)
    22 …  29   y1 = hh · W1 + b1
    30 …  88   y2 = max (normalise y1) 0 · W2 + b2, by y1's own column mean and variance
    89 … 139   h' = max (normalise y2) 0, by y2's own column mean and variance
  the parameter rows and the column statistics held as vectors [200] / [100]. From ANY contents, a stretch leaves
  its last buffer at one whole-array function of what the contents had at the stretch's inputs: the results of the
  stretch's operations, composed in the order they run, ARE that function's definition, so nothing is computed and no
  entry of an array is looked at. A buffer that a stretch does not write keeps what it had. Chained, the four facts
  give the layer's output as a function of the layer's inputs and parameters; the vector forms equal the row forms
  step by step, which makes that function the specification's `layer`.
-/
import proofs.«403201_j40475771797954_1_alg».proof.Proof.RefSeams
import proofs.«403201_j40475771797954_1_alg».proof.Proof.SpecRef
import proofs.«403201_j40475771797954_1_alg».proof.Proof.Model
import Idealize.ShloMosaic.Lib.Pipeline.Frame

set_option maxRecDepth 16384

noncomputable section

namespace Cert.ReferenceIdeal.Layer2

open Cert Cert.ReferenceIdeal Cert.ReferenceIdeal.Gen Cert.ReferenceIdeal.Hand
open Idealize.ShloMosaic Idealize.ShloMosaic.TcCoe Idealize.SL.Sem

/-- Contents of every buffer of the device, over the extended reals. -/
abbrev Val := Valuation τ sig (Elt Ideal)

/-! ## The four stretches -/

/-- Operations 1 … 21: the aggregation, through `hh`. -/
abbrev opsAgg : List (HloOp τ sig (Elt Ideal)) := List.take 21 opsL2
/-- Operations 22 … 29: the first dense step, through `y1`. -/
abbrev opsLin : List (HloOp τ sig (Elt Ideal)) := List.take 8 (List.drop 21 opsL2)
/-- Operations 30 … 88: normalisation of `y1`, ramp, second dense step, through `y2`. -/
abbrev opsMid : List (HloOp τ sig (Elt Ideal)) := List.take 59 (List.drop 29 opsL2)
/-- Operations 89 … 139: normalisation of `y2` and ramp, through the layer's output. -/
abbrev opsOut : List (HloOp τ sig (Elt Ideal)) := List.drop 88 opsL2

/-- The layer's operations are the four stretches one after the other, so their fold is the four folds in turn. -/
theorem after_cut (V : Val) :
    StableHlo.after opsL2 V = StableHlo.after opsOut (StableHlo.after opsMid (StableHlo.after opsLin (StableHlo.after opsAgg V))) := by
  have h : (opsL2 (F := Ideal)) = opsAgg ++ (opsLin ++ (opsMid ++ opsOut)) := rfl
  calc StableHlo.after opsL2 V
      = StableHlo.after (opsAgg ++ (opsLin ++ (opsMid ++ opsOut))) V := congrArg (fun l => StableHlo.after l V) h
    _ = _ := by simp only [StableHlo.after_append]

/-! ## What each stretch writes, and so what it keeps -/

/-- The buffers the aggregation writes. -/
abbrev wAgg : List (Ref sig .tc) :=
  [main_c_48, main_v312, main_v313, main_c_49, main_v314, main_v315, main_v316, main_v317, main_v318,
   main_v319, main_cst_50, main_v320, main_v321, main_v322, main_v323, main_v324, main_cst_51, main_v325,
   main_v326, main_v327, main_v328]
/-- The buffers the first dense step writes. -/
abbrev wLin : List (Ref sig .tc) :=
  [main_v329, main_v330, main_v331, main_v332, main_v333, main_v334, main_v335, main_v336]
/-- The buffers the second stretch of dense arithmetic writes. -/
abbrev wMid : List (Ref sig .tc) :=
  [main_v337, main_v338, main_v339, main_v340, main_cst_52, main_v341, main_cst_53, main_v342, main_v343,
   main_c_54, main_call8_cst, main_call8_v0, main_call8_v1, main_call8_cst_0, main_call8_v2, main_call8_v3,
   main_call8_v4, main_call8_v5, main_call8_v6, main_call8_v7, main_call8_cst_1, main_call8_v8,
   main_call8_cst_2, main_call8_v9, main_call8_v10, main_call8_v11, main_call8_cst_3, main_call8_v12,
   main_call8_cst_4, main_call8_call0_v0, main_call8_call0_v1, main_v344, main_v345, main_v346, main_v347,
   main_cst_55, main_v348, main_v349, main_v350, main_v351, main_v352, main_v353, main_v354, main_v355,
   main_v356, main_v357, main_v358, main_v359, main_call9_cst, main_call9_v0, main_v360, main_v361, main_v362,
   main_v363, main_v364, main_v365, main_v366, main_v367, main_v368]
/-- The buffers the last stretch writes. -/
abbrev wOut : List (Ref sig .tc) :=
  [main_v369, main_v370, main_v371, main_v372, main_cst_56, main_v373, main_cst_57, main_v374, main_v375,
   main_c_58, main_call10_cst, main_call10_v0, main_call10_v1, main_call10_cst_0, main_call10_v2, main_call10_v3,
   main_call10_v4, main_call10_v5, main_call10_v6, main_call10_v7, main_call10_cst_1, main_call10_v8,
   main_call10_cst_2, main_call10_v9, main_call10_v10, main_call10_v11, main_call10_cst_3, main_call10_v12,
   main_call10_cst_4, main_call10_call0_v0, main_call10_call0_v1, main_v376, main_v377, main_v378, main_v379,
   main_cst_59, main_v380, main_v381, main_v382, main_v383, main_v384, main_v385, main_v386, main_v387,
   main_v388, main_v389, main_v390, main_v391, main_call11_cst, main_call11_v0, main_v392]

theorem opsAgg_writes : opsAgg.Forall fun op => op.writes ⊆ (wAgg.map (Proc.devRef (τ := τ) .tc)).toFinset := by
  simp only [opsAgg, opsL2, List.take_succ_cons, List.take_zero, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem opsLin_writes : opsLin.Forall fun op => op.writes ⊆ (wLin.map (Proc.devRef (τ := τ) .tc)).toFinset := by
  simp only [opsLin, opsL2, List.drop_succ_cons, List.drop_zero, List.take_succ_cons, List.take_zero, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem opsMid_writes : opsMid.Forall fun op => op.writes ⊆ (wMid.map (Proc.devRef (τ := τ) .tc)).toFinset := by
  simp only [opsMid, opsL2, List.drop_succ_cons, List.drop_zero, List.take_succ_cons, List.take_zero, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem opsOut_writes : opsOut.Forall fun op => op.writes ⊆ (wOut.map (Proc.devRef (τ := τ) .tc)).toFinset := by
  simp only [opsOut, opsL2, List.drop_succ_cons, List.drop_zero, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer the aggregation does not write keeps its contents. -/
theorem keepAgg (W : Val) (r : Ref sig .tc) (hr : r ∉ wAgg) :
    StableHlo.after opsAgg W (Proc.devRef .tc r) = W (Proc.devRef .tc r) := StableHlo.after_of_writes_sub _ W opsAgg_writes hr
theorem keepLin (W : Val) (r : Ref sig .tc) (hr : r ∉ wLin) :
    StableHlo.after opsLin W (Proc.devRef .tc r) = W (Proc.devRef .tc r) := StableHlo.after_of_writes_sub _ W opsLin_writes hr
theorem keepMid (W : Val) (r : Ref sig .tc) (hr : r ∉ wMid) :
    StableHlo.after opsMid W (Proc.devRef .tc r) = W (Proc.devRef .tc r) := StableHlo.after_of_writes_sub _ W opsMid_writes hr
theorem keepOut (W : Val) (r : Ref sig .tc) (hr : r ∉ wOut) :
    StableHlo.after opsOut W (Proc.devRef .tc r) = W (Proc.devRef .tc r) := StableHlo.after_of_writes_sub _ W opsOut_writes hr

/-- A buffer none of the four stretches writes is, after the layer, as it was before. -/
theorem keep (V : Val) (r : Ref sig .tc) (h1 : r ∉ wAgg) (h2 : r ∉ wLin) (h3 : r ∉ wMid) (h4 : r ∉ wOut) :
    StableHlo.after opsL2 V (Proc.devRef .tc r) = V (Proc.devRef .tc r) := by
  rw [after_cut, keepOut _ r h4, keepMid _ r h3, keepLin _ r h2, keepAgg _ r h1]

/-! ## Each stretch's last buffer, from any contents -/

/-- The aggregation: scale `h` by `1 + eps`, gather the source rows, add the edge features, scatter-add by destination. -/
theorem agg_read (W : Val) :
    StableHlo.after opsAgg W (Proc.devRef .tc main_v328)
      = GIN.agg (GIN.epsOf (W (Proc.devRef .tc main_arg6)) 2 (by decide)) (W (Proc.devRef .tc main_v311)) (W (Proc.devRef .tc main_v145))
          (W (Proc.devRef .tc main_v147)) (W (Proc.devRef .tc main_v149)) := by
  simp only [opsAgg, opsL2, List.take_succ_cons, List.take_zero]
  after_results_simp
  rfl

/-- The first dense step: the layer's slice of `W1`, the whole-array product, the bias vector copied into the rows. -/
theorem lin_read (W : Val) :
    StableHlo.after opsLin W (Proc.devRef .tc main_v336)
      = GIN.linR (W (Proc.devRef .tc main_v328)) (GIN.w1Of (W (Proc.devRef .tc main_arg7)) 2 (by decide))
          (GIN.vecH (W (Proc.devRef .tc main_arg8)) 2 (by decide)) := by
  simp only [opsLin, opsL2, List.drop_succ_cons, List.drop_zero, List.take_succ_cons, List.take_zero]
  after_results_simp
  rfl

/-- Normalisation of `y1` by its own column mean and variance (vectors), scale and shift, ramp, then `· W2 + b2`. -/
theorem mid_read (W : Val) :
    StableHlo.after opsMid W (Proc.devRef .tc main_v368)
      = GIN.bnLinR (W (Proc.devRef .tc main_v336)) (GIN.vecH (W (Proc.devRef .tc main_arg9)) 2 (by decide))
          (GIN.vecH (W (Proc.devRef .tc main_arg10)) 2 (by decide)) (GIN.w2Of (W (Proc.devRef .tc main_arg11)) 2 (by decide))
          (GIN.vecD (W (Proc.devRef .tc main_arg12)) 2 (by decide)) := by
  simp only [opsMid, opsL2, List.drop_succ_cons, List.drop_zero, List.take_succ_cons, List.take_zero]
  after_results_simp
  rfl

/-- Normalisation of `y2` by its own column mean and variance (vectors), scale and shift, ramp. -/
theorem out_read (W : Val) :
    StableHlo.after opsOut W (Proc.devRef .tc main_v392)
      = GIN.bnReluR (W (Proc.devRef .tc main_v368)) (GIN.vecD (W (Proc.devRef .tc main_arg13)) 2 (by decide))
          (GIN.vecD (W (Proc.devRef .tc main_arg14)) 2 (by decide)) := by
  simp only [opsOut, opsL2, List.drop_succ_cons, List.drop_zero]
  after_results_simp
  rfl

/-! ## The layer's buffers as functions of its inputs -/

/-- The aggregated features. -/
theorem hh_eq (V : Val) :
    StableHlo.after opsL2 V (Proc.devRef .tc main_v328)
      = GIN.agg (GIN.epsOf (V (Proc.devRef .tc main_arg6)) 2 (by decide)) (V (Proc.devRef .tc main_v311)) (V (Proc.devRef .tc main_v145))
          (V (Proc.devRef .tc main_v147)) (V (Proc.devRef .tc main_v149)) := by
  rw [after_cut, keepOut _ main_v328 (by decide), keepMid _ main_v328 (by decide), keepLin _ main_v328 (by decide), agg_read]

/-- The first dense step's result. -/
theorem y1_eq (V : Val) :
    StableHlo.after opsL2 V (Proc.devRef .tc main_v336)
      = GIN.linR
        (GIN.agg (GIN.epsOf (V (Proc.devRef .tc main_arg6)) 2 (by decide)) (V (Proc.devRef .tc main_v311)) (V (Proc.devRef .tc main_v145))
          (V (Proc.devRef .tc main_v147)) (V (Proc.devRef .tc main_v149)))
        (GIN.w1Of (V (Proc.devRef .tc main_arg7)) 2 (by decide)) (GIN.vecH (V (Proc.devRef .tc main_arg8)) 2 (by decide)) := by
  rw [after_cut, keepOut _ main_v336 (by decide), keepMid _ main_v336 (by decide), lin_read, agg_read,
    keepAgg _ main_arg7 (by decide), keepAgg _ main_arg8 (by decide)]

/-- The second dense step's result. -/
theorem y2_eq (V : Val) :
    StableHlo.after opsL2 V (Proc.devRef .tc main_v368)
  = GIN.bnLinR
      (GIN.linR
        (GIN.agg (GIN.epsOf (V (Proc.devRef .tc main_arg6)) 2 (by decide)) (V (Proc.devRef .tc main_v311)) (V (Proc.devRef .tc main_v145))
          (V (Proc.devRef .tc main_v147)) (V (Proc.devRef .tc main_v149)))
        (GIN.w1Of (V (Proc.devRef .tc main_arg7)) 2 (by decide)) (GIN.vecH (V (Proc.devRef .tc main_arg8)) 2 (by decide)))
      (GIN.vecH (V (Proc.devRef .tc main_arg9)) 2 (by decide)) (GIN.vecH (V (Proc.devRef .tc main_arg10)) 2 (by decide))
      (GIN.w2Of (V (Proc.devRef .tc main_arg11)) 2 (by decide)) (GIN.vecD (V (Proc.devRef .tc main_arg12)) 2 (by decide)) := by
  rw [after_cut, keepOut _ main_v368 (by decide), mid_read, lin_read, agg_read,
    keepAgg _ main_arg7 (by decide), keepAgg _ main_arg8 (by decide),
    keepLin _ main_arg9 (by decide), keepAgg _ main_arg9 (by decide),
    keepLin _ main_arg10 (by decide), keepAgg _ main_arg10 (by decide),
    keepLin _ main_arg11 (by decide), keepAgg _ main_arg11 (by decide),
    keepLin _ main_arg12 (by decide), keepAgg _ main_arg12 (by decide)]

/-- The layer's output, in vector form. -/
theorem out_eq (V : Val) :
    StableHlo.after opsL2 V (Proc.devRef .tc main_v392)
  = GIN.bnReluR
    (GIN.bnLinR
      (GIN.linR
        (GIN.agg (GIN.epsOf (V (Proc.devRef .tc main_arg6)) 2 (by decide)) (V (Proc.devRef .tc main_v311)) (V (Proc.devRef .tc main_v145))
          (V (Proc.devRef .tc main_v147)) (V (Proc.devRef .tc main_v149)))
        (GIN.w1Of (V (Proc.devRef .tc main_arg7)) 2 (by decide)) (GIN.vecH (V (Proc.devRef .tc main_arg8)) 2 (by decide)))
      (GIN.vecH (V (Proc.devRef .tc main_arg9)) 2 (by decide)) (GIN.vecH (V (Proc.devRef .tc main_arg10)) 2 (by decide))
      (GIN.w2Of (V (Proc.devRef .tc main_arg11)) 2 (by decide)) (GIN.vecD (V (Proc.devRef .tc main_arg12)) 2 (by decide)))
    (GIN.vecD (V (Proc.devRef .tc main_arg13)) 2 (by decide)) (GIN.vecD (V (Proc.devRef .tc main_arg14)) 2 (by decide)) := by
  rw [after_cut, out_read, mid_read, lin_read, agg_read,
    keepAgg _ main_arg7 (by decide), keepAgg _ main_arg8 (by decide),
    keepLin _ main_arg9 (by decide), keepAgg _ main_arg9 (by decide),
    keepLin _ main_arg10 (by decide), keepAgg _ main_arg10 (by decide),
    keepLin _ main_arg11 (by decide), keepAgg _ main_arg11 (by decide),
    keepLin _ main_arg12 (by decide), keepAgg _ main_arg12 (by decide),
    keepMid _ main_arg13 (by decide), keepLin _ main_arg13 (by decide), keepAgg _ main_arg13 (by decide),
    keepMid _ main_arg14 (by decide), keepLin _ main_arg14 (by decide), keepAgg _ main_arg14 (by decide)]

/-- The layer's output is the specification's layer of the layer's inputs: each vector form is its row form. -/
theorem layer_eq (V : Val) :
    StableHlo.after opsL2 V (Proc.devRef .tc main_v392)
      = GIN.layer (GIN.epsOf (V (Proc.devRef .tc main_arg6)) 2 (by decide)) (GIN.w1Of (V (Proc.devRef .tc main_arg7)) 2 (by decide))
          (GIN.rowHOf (V (Proc.devRef .tc main_arg8)) 2 (by decide)) (GIN.rowHOf (V (Proc.devRef .tc main_arg9)) 2 (by decide))
          (GIN.rowHOf (V (Proc.devRef .tc main_arg10)) 2 (by decide)) (GIN.w2Of (V (Proc.devRef .tc main_arg11)) 2 (by decide))
          (GIN.rowDOf (V (Proc.devRef .tc main_arg12)) 2 (by decide)) (GIN.rowDOf (V (Proc.devRef .tc main_arg13)) 2 (by decide))
          (GIN.rowDOf (V (Proc.devRef .tc main_arg14)) 2 (by decide))
          (V (Proc.devRef .tc main_v145)) (V (Proc.devRef .tc main_v147)) (V (Proc.devRef .tc main_v149)) (V (Proc.devRef .tc main_v311)) := by
  rw [out_eq, GIN.bnReluR_eq, GIN.bnLinR_eq, GIN.linR_eq]
  rfl

/-! ## What the layer leaves alone: the edge features, the edge endpoints and the program's arguments -/

theorem keep_main_v145 (V : Val) : StableHlo.after opsL2 V (Proc.devRef .tc main_v145) = V (Proc.devRef .tc main_v145) :=
  keep V main_v145 (by decide) (by decide) (by decide) (by decide)
theorem keep_main_v147 (V : Val) : StableHlo.after opsL2 V (Proc.devRef .tc main_v147) = V (Proc.devRef .tc main_v147) :=
  keep V main_v147 (by decide) (by decide) (by decide) (by decide)
theorem keep_main_v149 (V : Val) : StableHlo.after opsL2 V (Proc.devRef .tc main_v149) = V (Proc.devRef .tc main_v149) :=
  keep V main_v149 (by decide) (by decide) (by decide) (by decide)
theorem keep_main_arg0 (V : Val) : StableHlo.after opsL2 V (Proc.devRef .tc main_arg0) = V (Proc.devRef .tc main_arg0) :=
  keep V main_arg0 (by decide) (by decide) (by decide) (by decide)
theorem keep_main_arg1 (V : Val) : StableHlo.after opsL2 V (Proc.devRef .tc main_arg1) = V (Proc.devRef .tc main_arg1) :=
  keep V main_arg1 (by decide) (by decide) (by decide) (by decide)
theorem keep_main_arg2 (V : Val) : StableHlo.after opsL2 V (Proc.devRef .tc main_arg2) = V (Proc.devRef .tc main_arg2) :=
  keep V main_arg2 (by decide) (by decide) (by decide) (by decide)
theorem keep_main_arg3 (V : Val) : StableHlo.after opsL2 V (Proc.devRef .tc main_arg3) = V (Proc.devRef .tc main_arg3) :=
  keep V main_arg3 (by decide) (by decide) (by decide) (by decide)
theorem keep_main_arg4 (V : Val) : StableHlo.after opsL2 V (Proc.devRef .tc main_arg4) = V (Proc.devRef .tc main_arg4) :=
  keep V main_arg4 (by decide) (by decide) (by decide) (by decide)
theorem keep_main_arg5 (V : Val) : StableHlo.after opsL2 V (Proc.devRef .tc main_arg5) = V (Proc.devRef .tc main_arg5) :=
  keep V main_arg5 (by decide) (by decide) (by decide) (by decide)
theorem keep_main_arg6 (V : Val) : StableHlo.after opsL2 V (Proc.devRef .tc main_arg6) = V (Proc.devRef .tc main_arg6) :=
  keep V main_arg6 (by decide) (by decide) (by decide) (by decide)
theorem keep_main_arg7 (V : Val) : StableHlo.after opsL2 V (Proc.devRef .tc main_arg7) = V (Proc.devRef .tc main_arg7) :=
  keep V main_arg7 (by decide) (by decide) (by decide) (by decide)
theorem keep_main_arg8 (V : Val) : StableHlo.after opsL2 V (Proc.devRef .tc main_arg8) = V (Proc.devRef .tc main_arg8) :=
  keep V main_arg8 (by decide) (by decide) (by decide) (by decide)
theorem keep_main_arg9 (V : Val) : StableHlo.after opsL2 V (Proc.devRef .tc main_arg9) = V (Proc.devRef .tc main_arg9) :=
  keep V main_arg9 (by decide) (by decide) (by decide) (by decide)
theorem keep_main_arg10 (V : Val) : StableHlo.after opsL2 V (Proc.devRef .tc main_arg10) = V (Proc.devRef .tc main_arg10) :=
  keep V main_arg10 (by decide) (by decide) (by decide) (by decide)
theorem keep_main_arg11 (V : Val) : StableHlo.after opsL2 V (Proc.devRef .tc main_arg11) = V (Proc.devRef .tc main_arg11) :=
  keep V main_arg11 (by decide) (by decide) (by decide) (by decide)
theorem keep_main_arg12 (V : Val) : StableHlo.after opsL2 V (Proc.devRef .tc main_arg12) = V (Proc.devRef .tc main_arg12) :=
  keep V main_arg12 (by decide) (by decide) (by decide) (by decide)
theorem keep_main_arg13 (V : Val) : StableHlo.after opsL2 V (Proc.devRef .tc main_arg13) = V (Proc.devRef .tc main_arg13) :=
  keep V main_arg13 (by decide) (by decide) (by decide) (by decide)
theorem keep_main_arg14 (V : Val) : StableHlo.after opsL2 V (Proc.devRef .tc main_arg14) = V (Proc.devRef .tc main_arg14) :=
  keep V main_arg14 (by decide) (by decide) (by decide) (by decide)
theorem keep_main_arg15 (V : Val) : StableHlo.after opsL2 V (Proc.devRef .tc main_arg15) = V (Proc.devRef .tc main_arg15) :=
  keep V main_arg15 (by decide) (by decide) (by decide) (by decide)
theorem keep_main_arg16 (V : Val) : StableHlo.after opsL2 V (Proc.devRef .tc main_arg16) = V (Proc.devRef .tc main_arg16) :=
  keep V main_arg16 (by decide) (by decide) (by decide) (by decide)

end Cert.ReferenceIdeal.Layer2

end
-- ==== Proof.RLayer3.lean ====
/-
  The fourth layer of the reference network, read off its operations.

  The layer is 139 host operations in four stretches:
     1 …  21   hh = (1 + eps) · h + Σ over the edges into a node of (h[src] + e)      (gather, add, scatter-add)
    22 …  29   y1 = hh · W1 + b1
    30 …  88   y2 = max (normalise y1) 0 · W2 + b2, by y1's own column mean and variance
    89 … 139   h' = max (normalise y2) 0, by y2's own column mean and variance
  the parameter rows and the column statistics held as vectors [200] / [100]. From ANY contents, a stretch leaves
  its last buffer at one whole-array function of what the contents had at the stretch's inputs: the results of the
  stretch's operations, composed in the order they run, ARE that function's definition, so nothing is computed and no
  entry of an array is looked at. A buffer that a stretch does not write keeps what it had. Chained, the four facts
  give the layer's output as a function of the layer's inputs and parameters; the vector forms equal the row forms
  step by step, which makes that function the specification's `layer`.
-/
import proofs.«403201_j40475771797954_1_alg».proof.Proof.RefSeams
import proofs.«403201_j40475771797954_1_alg».proof.Proof.SpecRef
import proofs.«403201_j40475771797954_1_alg».proof.Proof.Model
import Idealize.ShloMosaic.Lib.Pipeline.Frame

set_option maxRecDepth 16384

noncomputable section

namespace Cert.ReferenceIdeal.Layer3

open Cert Cert.ReferenceIdeal Cert.ReferenceIdeal.Gen Cert.ReferenceIdeal.Hand
open Idealize.ShloMosaic Idealize.ShloMosaic.TcCoe Idealize.SL.Sem

/-- Contents of every buffer of the device, over the extended reals. -/
abbrev Val := Valuation τ sig (Elt Ideal)

/-! ## The four stretches -/

/-- Operations 1 … 21: the aggregation, through `hh`. -/
abbrev opsAgg : List (HloOp τ sig (Elt Ideal)) := List.take 21 opsL3
/-- Operations 22 … 29: the first dense step, through `y1`. -/
abbrev opsLin : List (HloOp τ sig (Elt Ideal)) := List.take 8 (List.drop 21 opsL3)
/-- Operations 30 … 88: normalisation of `y1`, ramp, second dense step, through `y2`. -/
abbrev opsMid : List (HloOp τ sig (Elt Ideal)) := List.take 59 (List.drop 29 opsL3)
/-- Operations 89 … 139: normalisation of `y2` and ramp, through the layer's output. -/
abbrev opsOut : List (HloOp τ sig (Elt Ideal)) := List.drop 88 opsL3

/-- The layer's operations are the four stretches one after the other, so their fold is the four folds in turn. -/
theorem after_cut (V : Val) :
    StableHlo.after opsL3 V = StableHlo.after opsOut (StableHlo.after opsMid (StableHlo.after opsLin (StableHlo.after opsAgg V))) := by
  have h : (opsL3 (F := Ideal)) = opsAgg ++ (opsLin ++ (opsMid ++ opsOut)) := rfl
  calc StableHlo.after opsL3 V
      = StableHlo.after (opsAgg ++ (opsLin ++ (opsMid ++ opsOut))) V := congrArg (fun l => StableHlo.after l V) h
    _ = _ := by simp only [StableHlo.after_append]

/-! ## What each stretch writes, and so what it keeps -/

/-- The buffers the aggregation writes. -/
abbrev wAgg : List (Ref sig .tc) :=
  [main_c_60, main_v393, main_v394, main_c_61, main_v395, main_v396, main_v397, main_v398, main_v399,
   main_v400, main_cst_62, main_v401, main_v402, main_v403, main_v404, main_v405, main_cst_63, main_v406,
   main_v407, main_v408, main_v409]
/-- The buffers the first dense step writes. -/
abbrev wLin : List (Ref sig .tc) :=
  [main_v410, main_v411, main_v412, main_v413, main_v414, main_v415, main_v416, main_v417]
/-- The buffers the second stretch of dense arithmetic writes. -/
abbrev wMid : List (Ref sig .tc) :=
  [main_v418, main_v419, main_v420, main_v421, main_cst_64, main_v422, main_cst_65, main_v423, main_v424,
   main_c_66, main_call12_cst, main_call12_v0, main_call12_v1, main_call12_cst_0, main_call12_v2, main_call12_v3,
   main_call12_v4, main_call12_v5, main_call12_v6, main_call12_v7, main_call12_cst_1, main_call12_v8,
   main_call12_cst_2, main_call12_v9, main_call12_v10, main_call12_v11, main_call12_cst_3, main_call12_v12,
   main_call12_cst_4, main_call12_call0_v0, main_call12_call0_v1, main_v425, main_v426, main_v427, main_v428,
   main_cst_67, main_v429, main_v430, main_v431, main_v432, main_v433, main_v434, main_v435, main_v436,
   main_v437, main_v438, main_v439, main_v440, main_call13_cst, main_call13_v0, main_v441, main_v442, main_v443,
   main_v444, main_v445, main_v446, main_v447, main_v448, main_v449]
/-- The buffers the last stretch writes. -/
abbrev wOut : List (Ref sig .tc) :=
  [main_v450, main_v451, main_v452, main_v453, main_cst_68, main_v454, main_cst_69, main_v455, main_v456,
   main_c_70, main_call14_cst, main_call14_v0, main_call14_v1, main_call14_cst_0, main_call14_v2, main_call14_v3,
   main_call14_v4, main_call14_v5, main_call14_v6, main_call14_v7, main_call14_cst_1, main_call14_v8,
   main_call14_cst_2, main_call14_v9, main_call14_v10, main_call14_v11, main_call14_cst_3, main_call14_v12,
   main_call14_cst_4, main_call14_call0_v0, main_call14_call0_v1, main_v457, main_v458, main_v459, main_v460,
   main_cst_71, main_v461, main_v462, main_v463, main_v464, main_v465, main_v466, main_v467, main_v468,
   main_v469, main_v470, main_v471, main_v472, main_call15_cst, main_call15_v0, main_v473]

theorem opsAgg_writes : opsAgg.Forall fun op => op.writes ⊆ (wAgg.map (Proc.devRef (τ := τ) .tc)).toFinset := by
  simp only [opsAgg, opsL3, List.take_succ_cons, List.take_zero, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem opsLin_writes : opsLin.Forall fun op => op.writes ⊆ (wLin.map (Proc.devRef (τ := τ) .tc)).toFinset := by
  simp only [opsLin, opsL3, List.drop_succ_cons, List.drop_zero, List.take_succ_cons, List.take_zero, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem opsMid_writes : opsMid.Forall fun op => op.writes ⊆ (wMid.map (Proc.devRef (τ := τ) .tc)).toFinset := by
  simp only [opsMid, opsL3, List.drop_succ_cons, List.drop_zero, List.take_succ_cons, List.take_zero, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem opsOut_writes : opsOut.Forall fun op => op.writes ⊆ (wOut.map (Proc.devRef (τ := τ) .tc)).toFinset := by
  simp only [opsOut, opsL3, List.drop_succ_cons, List.drop_zero, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer the aggregation does not write keeps its contents. -/
theorem keepAgg (W : Val) (r : Ref sig .tc) (hr : r ∉ wAgg) :
    StableHlo.after opsAgg W (Proc.devRef .tc r) = W (Proc.devRef .tc r) := StableHlo.after_of_writes_sub _ W opsAgg_writes hr
theorem keepLin (W : Val) (r : Ref sig .tc) (hr : r ∉ wLin) :
    StableHlo.after opsLin W (Proc.devRef .tc r) = W (Proc.devRef .tc r) := StableHlo.after_of_writes_sub _ W opsLin_writes hr
theorem keepMid (W : Val) (r : Ref sig .tc) (hr : r ∉ wMid) :
    StableHlo.after opsMid W (Proc.devRef .tc r) = W (Proc.devRef .tc r) := StableHlo.after_of_writes_sub _ W opsMid_writes hr
theorem keepOut (W : Val) (r : Ref sig .tc) (hr : r ∉ wOut) :
    StableHlo.after opsOut W (Proc.devRef .tc r) = W (Proc.devRef .tc r) := StableHlo.after_of_writes_sub _ W opsOut_writes hr

/-- A buffer none of the four stretches writes is, after the layer, as it was before. -/
theorem keep (V : Val) (r : Ref sig .tc) (h1 : r ∉ wAgg) (h2 : r ∉ wLin) (h3 : r ∉ wMid) (h4 : r ∉ wOut) :
    StableHlo.after opsL3 V (Proc.devRef .tc r) = V (Proc.devRef .tc r) := by
  rw [after_cut, keepOut _ r h4, keepMid _ r h3, keepLin _ r h2, keepAgg _ r h1]

/-! ## Each stretch's last buffer, from any contents -/

/-- The aggregation: scale `h` by `1 + eps`, gather the source rows, add the edge features, scatter-add by destination. -/
theorem agg_read (W : Val) :
    StableHlo.after opsAgg W (Proc.devRef .tc main_v409)
      = GIN.agg (GIN.epsOf (W (Proc.devRef .tc main_arg6)) 3 (by decide)) (W (Proc.devRef .tc main_v392)) (W (Proc.devRef .tc main_v145))
          (W (Proc.devRef .tc main_v147)) (W (Proc.devRef .tc main_v149)) := by
  simp only [opsAgg, opsL3, List.take_succ_cons, List.take_zero]
  after_results_simp
  rfl

/-- The first dense step: the layer's slice of `W1`, the whole-array product, the bias vector copied into the rows. -/
theorem lin_read (W : Val) :
    StableHlo.after opsLin W (Proc.devRef .tc main_v417)
      = GIN.linR (W (Proc.devRef .tc main_v409)) (GIN.w1Of (W (Proc.devRef .tc main_arg7)) 3 (by decide))
          (GIN.vecH (W (Proc.devRef .tc main_arg8)) 3 (by decide)) := by
  simp only [opsLin, opsL3, List.drop_succ_cons, List.drop_zero, List.take_succ_cons, List.take_zero]
  after_results_simp
  rfl

/-- Normalisation of `y1` by its own column mean and variance (vectors), scale and shift, ramp, then `· W2 + b2`. -/
theorem mid_read (W : Val) :
    StableHlo.after opsMid W (Proc.devRef .tc main_v449)
      = GIN.bnLinR (W (Proc.devRef .tc main_v417)) (GIN.vecH (W (Proc.devRef .tc main_arg9)) 3 (by decide))
          (GIN.vecH (W (Proc.devRef .tc main_arg10)) 3 (by decide)) (GIN.w2Of (W (Proc.devRef .tc main_arg11)) 3 (by decide))
          (GIN.vecD (W (Proc.devRef .tc main_arg12)) 3 (by decide)) := by
  simp only [opsMid, opsL3, List.drop_succ_cons, List.drop_zero, List.take_succ_cons, List.take_zero]
  after_results_simp
  rfl

/-- Normalisation of `y2` by its own column mean and variance (vectors), scale and shift, ramp. -/
theorem out_read (W : Val) :
    StableHlo.after opsOut W (Proc.devRef .tc main_v473)
      = GIN.bnReluR (W (Proc.devRef .tc main_v449)) (GIN.vecD (W (Proc.devRef .tc main_arg13)) 3 (by decide))
          (GIN.vecD (W (Proc.devRef .tc main_arg14)) 3 (by decide)) := by
  simp only [opsOut, opsL3, List.drop_succ_cons, List.drop_zero]
  after_results_simp
  rfl

/-! ## The layer's buffers as functions of its inputs -/

/-- The aggregated features. -/
theorem hh_eq (V : Val) :
    StableHlo.after opsL3 V (Proc.devRef .tc main_v409)
      = GIN.agg (GIN.epsOf (V (Proc.devRef .tc main_arg6)) 3 (by decide)) (V (Proc.devRef .tc main_v392)) (V (Proc.devRef .tc main_v145))
          (V (Proc.devRef .tc main_v147)) (V (Proc.devRef .tc main_v149)) := by
  rw [after_cut, keepOut _ main_v409 (by decide), keepMid _ main_v409 (by decide), keepLin _ main_v409 (by decide), agg_read]

/-- The first dense step's result. -/
theorem y1_eq (V : Val) :
    StableHlo.after opsL3 V (Proc.devRef .tc main_v417)
      = GIN.linR
        (GIN.agg (GIN.epsOf (V (Proc.devRef .tc main_arg6)) 3 (by decide)) (V (Proc.devRef .tc main_v392)) (V (Proc.devRef .tc main_v145))
          (V (Proc.devRef .tc main_v147)) (V (Proc.devRef .tc main_v149)))
        (GIN.w1Of (V (Proc.devRef .tc main_arg7)) 3 (by decide)) (GIN.vecH (V (Proc.devRef .tc main_arg8)) 3 (by decide)) := by
  rw [after_cut, keepOut _ main_v417 (by decide), keepMid _ main_v417 (by decide), lin_read, agg_read,
    keepAgg _ main_arg7 (by decide), keepAgg _ main_arg8 (by decide)]

/-- The second dense step's result. -/
theorem y2_eq (V : Val) :
    StableHlo.after opsL3 V (Proc.devRef .tc main_v449)
  = GIN.bnLinR
      (GIN.linR
        (GIN.agg (GIN.epsOf (V (Proc.devRef .tc main_arg6)) 3 (by decide)) (V (Proc.devRef .tc main_v392)) (V (Proc.devRef .tc main_v145))
          (V (Proc.devRef .tc main_v147)) (V (Proc.devRef .tc main_v149)))
        (GIN.w1Of (V (Proc.devRef .tc main_arg7)) 3 (by decide)) (GIN.vecH (V (Proc.devRef .tc main_arg8)) 3 (by decide)))
      (GIN.vecH (V (Proc.devRef .tc main_arg9)) 3 (by decide)) (GIN.vecH (V (Proc.devRef .tc main_arg10)) 3 (by decide))
      (GIN.w2Of (V (Proc.devRef .tc main_arg11)) 3 (by decide)) (GIN.vecD (V (Proc.devRef .tc main_arg12)) 3 (by decide)) := by
  rw [after_cut, keepOut _ main_v449 (by decide), mid_read, lin_read, agg_read,
    keepAgg _ main_arg7 (by decide), keepAgg _ main_arg8 (by decide),
    keepLin _ main_arg9 (by decide), keepAgg _ main_arg9 (by decide),
    keepLin _ main_arg10 (by decide), keepAgg _ main_arg10 (by decide),
    keepLin _ main_arg11 (by decide), keepAgg _ main_arg11 (by decide),
    keepLin _ main_arg12 (by decide), keepAgg _ main_arg12 (by decide)]

/-- The layer's output, in vector form. -/
theorem out_eq (V : Val) :
    StableHlo.after opsL3 V (Proc.devRef .tc main_v473)
  = GIN.bnReluR
    (GIN.bnLinR
      (GIN.linR
        (GIN.agg (GIN.epsOf (V (Proc.devRef .tc main_arg6)) 3 (by decide)) (V (Proc.devRef .tc main_v392)) (V (Proc.devRef .tc main_v145))
          (V (Proc.devRef .tc main_v147)) (V (Proc.devRef .tc main_v149)))
        (GIN.w1Of (V (Proc.devRef .tc main_arg7)) 3 (by decide)) (GIN.vecH (V (Proc.devRef .tc main_arg8)) 3 (by decide)))
      (GIN.vecH (V (Proc.devRef .tc main_arg9)) 3 (by decide)) (GIN.vecH (V (Proc.devRef .tc main_arg10)) 3 (by decide))
      (GIN.w2Of (V (Proc.devRef .tc main_arg11)) 3 (by decide)) (GIN.vecD (V (Proc.devRef .tc main_arg12)) 3 (by decide)))
    (GIN.vecD (V (Proc.devRef .tc main_arg13)) 3 (by decide)) (GIN.vecD (V (Proc.devRef .tc main_arg14)) 3 (by decide)) := by
  rw [after_cut, out_read, mid_read, lin_read, agg_read,
    keepAgg _ main_arg7 (by decide), keepAgg _ main_arg8 (by decide),
    keepLin _ main_arg9 (by decide), keepAgg _ main_arg9 (by decide),
    keepLin _ main_arg10 (by decide), keepAgg _ main_arg10 (by decide),
    keepLin _ main_arg11 (by decide), keepAgg _ main_arg11 (by decide),
    keepLin _ main_arg12 (by decide), keepAgg _ main_arg12 (by decide),
    keepMid _ main_arg13 (by decide), keepLin _ main_arg13 (by decide), keepAgg _ main_arg13 (by decide),
    keepMid _ main_arg14 (by decide), keepLin _ main_arg14 (by decide), keepAgg _ main_arg14 (by decide)]

/-- The layer's output is the specification's layer of the layer's inputs: each vector form is its row form. -/
theorem layer_eq (V : Val) :
    StableHlo.after opsL3 V (Proc.devRef .tc main_v473)
      = GIN.layer (GIN.epsOf (V (Proc.devRef .tc main_arg6)) 3 (by decide)) (GIN.w1Of (V (Proc.devRef .tc main_arg7)) 3 (by decide))
          (GIN.rowHOf (V (Proc.devRef .tc main_arg8)) 3 (by decide)) (GIN.rowHOf (V (Proc.devRef .tc main_arg9)) 3 (by decide))
          (GIN.rowHOf (V (Proc.devRef .tc main_arg10)) 3 (by decide)) (GIN.w2Of (V (Proc.devRef .tc main_arg11)) 3 (by decide))
          (GIN.rowDOf (V (Proc.devRef .tc main_arg12)) 3 (by decide)) (GIN.rowDOf (V (Proc.devRef .tc main_arg13)) 3 (by decide))
          (GIN.rowDOf (V (Proc.devRef .tc main_arg14)) 3 (by decide))
          (V (Proc.devRef .tc main_v145)) (V (Proc.devRef .tc main_v147)) (V (Proc.devRef .tc main_v149)) (V (Proc.devRef .tc main_v392)) := by
  rw [out_eq, GIN.bnReluR_eq, GIN.bnLinR_eq, GIN.linR_eq]
  rfl

/-! ## What the layer leaves alone: the edge features, the edge endpoints and the program's arguments -/

theorem keep_main_v145 (V : Val) : StableHlo.after opsL3 V (Proc.devRef .tc main_v145) = V (Proc.devRef .tc main_v145) :=
  keep V main_v145 (by decide) (by decide) (by decide) (by decide)
theorem keep_main_v147 (V : Val) : StableHlo.after opsL3 V (Proc.devRef .tc main_v147) = V (Proc.devRef .tc main_v147) :=
  keep V main_v147 (by decide) (by decide) (by decide) (by decide)
theorem keep_main_v149 (V : Val) : StableHlo.after opsL3 V (Proc.devRef .tc main_v149) = V (Proc.devRef .tc main_v149) :=
  keep V main_v149 (by decide) (by decide) (by decide) (by decide)
theorem keep_main_arg0 (V : Val) : StableHlo.after opsL3 V (Proc.devRef .tc main_arg0) = V (Proc.devRef .tc main_arg0) :=
  keep V main_arg0 (by decide) (by decide) (by decide) (by decide)
theorem keep_main_arg1 (V : Val) : StableHlo.after opsL3 V (Proc.devRef .tc main_arg1) = V (Proc.devRef .tc main_arg1) :=
  keep V main_arg1 (by decide) (by decide) (by decide) (by decide)
theorem keep_main_arg2 (V : Val) : StableHlo.after opsL3 V (Proc.devRef .tc main_arg2) = V (Proc.devRef .tc main_arg2) :=
  keep V main_arg2 (by decide) (by decide) (by decide) (by decide)
theorem keep_main_arg3 (V : Val) : StableHlo.after opsL3 V (Proc.devRef .tc main_arg3) = V (Proc.devRef .tc main_arg3) :=
  keep V main_arg3 (by decide) (by decide) (by decide) (by decide)
theorem keep_main_arg4 (V : Val) : StableHlo.after opsL3 V (Proc.devRef .tc main_arg4) = V (Proc.devRef .tc main_arg4) :=
  keep V main_arg4 (by decide) (by decide) (by decide) (by decide)
theorem keep_main_arg5 (V : Val) : StableHlo.after opsL3 V (Proc.devRef .tc main_arg5) = V (Proc.devRef .tc main_arg5) :=
  keep V main_arg5 (by decide) (by decide) (by decide) (by decide)
theorem keep_main_arg6 (V : Val) : StableHlo.after opsL3 V (Proc.devRef .tc main_arg6) = V (Proc.devRef .tc main_arg6) :=
  keep V main_arg6 (by decide) (by decide) (by decide) (by decide)
theorem keep_main_arg7 (V : Val) : StableHlo.after opsL3 V (Proc.devRef .tc main_arg7) = V (Proc.devRef .tc main_arg7) :=
  keep V main_arg7 (by decide) (by decide) (by decide) (by decide)
theorem keep_main_arg8 (V : Val) : StableHlo.after opsL3 V (Proc.devRef .tc main_arg8) = V (Proc.devRef .tc main_arg8) :=
  keep V main_arg8 (by decide) (by decide) (by decide) (by decide)
theorem keep_main_arg9 (V : Val) : StableHlo.after opsL3 V (Proc.devRef .tc main_arg9) = V (Proc.devRef .tc main_arg9) :=
  keep V main_arg9 (by decide) (by decide) (by decide) (by decide)
theorem keep_main_arg10 (V : Val) : StableHlo.after opsL3 V (Proc.devRef .tc main_arg10) = V (Proc.devRef .tc main_arg10) :=
  keep V main_arg10 (by decide) (by decide) (by decide) (by decide)
theorem keep_main_arg11 (V : Val) : StableHlo.after opsL3 V (Proc.devRef .tc main_arg11) = V (Proc.devRef .tc main_arg11) :=
  keep V main_arg11 (by decide) (by decide) (by decide) (by decide)
theorem keep_main_arg12 (V : Val) : StableHlo.after opsL3 V (Proc.devRef .tc main_arg12) = V (Proc.devRef .tc main_arg12) :=
  keep V main_arg12 (by decide) (by decide) (by decide) (by decide)
theorem keep_main_arg13 (V : Val) : StableHlo.after opsL3 V (Proc.devRef .tc main_arg13) = V (Proc.devRef .tc main_arg13) :=
  keep V main_arg13 (by decide) (by decide) (by decide) (by decide)
theorem keep_main_arg14 (V : Val) : StableHlo.after opsL3 V (Proc.devRef .tc main_arg14) = V (Proc.devRef .tc main_arg14) :=
  keep V main_arg14 (by decide) (by decide) (by decide) (by decide)
theorem keep_main_arg15 (V : Val) : StableHlo.after opsL3 V (Proc.devRef .tc main_arg15) = V (Proc.devRef .tc main_arg15) :=
  keep V main_arg15 (by decide) (by decide) (by decide) (by decide)
theorem keep_main_arg16 (V : Val) : StableHlo.after opsL3 V (Proc.devRef .tc main_arg16) = V (Proc.devRef .tc main_arg16) :=
  keep V main_arg16 (by decide) (by decide) (by decide) (by decide)

end Cert.ReferenceIdeal.Layer3

end
-- ==== Proof.RLayer4.lean ====
/-
  The fifth layer of the reference network, read off its operations.

  The layer is 139 host operations in four stretches:
     1 …  21   hh = (1 + eps) · h + Σ over the edges into a node of (h[src] + e)      (gather, add, scatter-add)
    22 …  29   y1 = hh · W1 + b1
    30 …  88   y2 = max (normalise y1) 0 · W2 + b2, by y1's own column mean and variance
    89 … 139   h' = max (normalise y2) 0, by y2's own column mean and variance
  the parameter rows and the column statistics held as vectors [200] / [100]. From ANY contents, a stretch leaves
  its last buffer at one whole-array function of what the contents had at the stretch's inputs: the results of the
  stretch's operations, composed in the order they run, ARE that function's definition, so nothing is computed and no
  entry of an array is looked at. A buffer that a stretch does not write keeps what it had. Chained, the four facts
  give the layer's output as a function of the layer's inputs and parameters; the vector forms equal the row forms
  step by step, which makes that function the specification's `layer`.
-/
import proofs.«403201_j40475771797954_1_alg».proof.Proof.RefSeams
import proofs.«403201_j40475771797954_1_alg».proof.Proof.SpecRef
import proofs.«403201_j40475771797954_1_alg».proof.Proof.Model
import Idealize.ShloMosaic.Lib.Pipeline.Frame

set_option maxRecDepth 16384

noncomputable section

namespace Cert.ReferenceIdeal.Layer4

open Cert Cert.ReferenceIdeal Cert.ReferenceIdeal.Gen Cert.ReferenceIdeal.Hand
open Idealize.ShloMosaic Idealize.ShloMosaic.TcCoe Idealize.SL.Sem

/-- Contents of every buffer of the device, over the extended reals. -/
abbrev Val := Valuation τ sig (Elt Ideal)

/-! ## The four stretches -/

/-- Operations 1 … 21: the aggregation, through `hh`. -/
abbrev opsAgg : List (HloOp τ sig (Elt Ideal)) := List.take 21 opsL4
/-- Operations 22 … 29: the first dense step, through `y1`. -/
abbrev opsLin : List (HloOp τ sig (Elt Ideal)) := List.take 8 (List.drop 21 opsL4)
/-- Operations 30 … 88: normalisation of `y1`, ramp, second dense step, through `y2`. -/
abbrev opsMid : List (HloOp τ sig (Elt Ideal)) := List.take 59 (List.drop 29 opsL4)
/-- Operations 89 … 139: normalisation of `y2` and ramp, through the layer's output. -/
abbrev opsOut : List (HloOp τ sig (Elt Ideal)) := List.drop 88 opsL4

/-- The layer's operations are the four stretches one after the other, so their fold is the four folds in turn. -/
theorem after_cut (V : Val) :
    StableHlo.after opsL4 V = StableHlo.after opsOut (StableHlo.after opsMid (StableHlo.after opsLin (StableHlo.after opsAgg V))) := by
  have h : (opsL4 (F := Ideal)) = opsAgg ++ (opsLin ++ (opsMid ++ opsOut)) := rfl
  calc StableHlo.after opsL4 V
      = StableHlo.after (opsAgg ++ (opsLin ++ (opsMid ++ opsOut))) V := congrArg (fun l => StableHlo.after l V) h
    _ = _ := by simp only [StableHlo.after_append]

/-! ## What each stretch writes, and so what it keeps -/

/-- The buffers the aggregation writes. -/
abbrev wAgg : List (Ref sig .tc) :=
  [main_c_72, main_v474, main_v475, main_c_73, main_v476, main_v477, main_v478, main_v479, main_v480,
   main_v481, main_cst_74, main_v482, main_v483, main_v484, main_v485, main_v486, main_cst_75, main_v487,
   main_v488, main_v489, main_v490]
/-- The buffers the first dense step writes. -/
abbrev wLin : List (Ref sig .tc) :=
  [main_v491, main_v492, main_v493, main_v494, main_v495, main_v496, main_v497, main_v498]
/-- The buffers the second stretch of dense arithmetic writes. -/
abbrev wMid : List (Ref sig .tc) :=
  [main_v499, main_v500, main_v501, main_v502, main_cst_76, main_v503, main_cst_77, main_v504, main_v505,
   main_c_78, main_call16_cst, main_call16_v0, main_call16_v1, main_call16_cst_0, main_call16_v2, main_call16_v3,
   main_call16_v4, main_call16_v5, main_call16_v6, main_call16_v7, main_call16_cst_1, main_call16_v8,
   main_call16_cst_2, main_call16_v9, main_call16_v10, main_call16_v11, main_call16_cst_3, main_call16_v12,
   main_call16_cst_4, main_call16_call0_v0, main_call16_call0_v1, main_v506, main_v507, main_v508, main_v509,
   main_cst_79, main_v510, main_v511, main_v512, main_v513, main_v514, main_v515, main_v516, main_v517,
   main_v518, main_v519, main_v520, main_v521, main_call17_cst, main_call17_v0, main_v522, main_v523, main_v524,
   main_v525, main_v526, main_v527, main_v528, main_v529, main_v530]
/-- The buffers the last stretch writes. -/
abbrev wOut : List (Ref sig .tc) :=
  [main_v531, main_v532, main_v533, main_v534, main_cst_80, main_v535, main_cst_81, main_v536, main_v537,
   main_c_82, main_call18_cst, main_call18_v0, main_call18_v1, main_call18_cst_0, main_call18_v2, main_call18_v3,
   main_call18_v4, main_call18_v5, main_call18_v6, main_call18_v7, main_call18_cst_1, main_call18_v8,
   main_call18_cst_2, main_call18_v9, main_call18_v10, main_call18_v11, main_call18_cst_3, main_call18_v12,
   main_call18_cst_4, main_call18_call0_v0, main_call18_call0_v1, main_v538, main_v539, main_v540, main_v541,
   main_cst_83, main_v542, main_v543, main_v544, main_v545, main_v546, main_v547, main_v548, main_v549,
   main_v550, main_v551, main_v552, main_v553, main_call19_cst, main_call19_v0, main_v554]

theorem opsAgg_writes : opsAgg.Forall fun op => op.writes ⊆ (wAgg.map (Proc.devRef (τ := τ) .tc)).toFinset := by
  simp only [opsAgg, opsL4, List.take_succ_cons, List.take_zero, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem opsLin_writes : opsLin.Forall fun op => op.writes ⊆ (wLin.map (Proc.devRef (τ := τ) .tc)).toFinset := by
  simp only [opsLin, opsL4, List.drop_succ_cons, List.drop_zero, List.take_succ_cons, List.take_zero, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem opsMid_writes : opsMid.Forall fun op => op.writes ⊆ (wMid.map (Proc.devRef (τ := τ) .tc)).toFinset := by
  simp only [opsMid, opsL4, List.drop_succ_cons, List.drop_zero, List.take_succ_cons, List.take_zero, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem opsOut_writes : opsOut.Forall fun op => op.writes ⊆ (wOut.map (Proc.devRef (τ := τ) .tc)).toFinset := by
  simp only [opsOut, opsL4, List.drop_succ_cons, List.drop_zero, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer the aggregation does not write keeps its contents. -/
theorem keepAgg (W : Val) (r : Ref sig .tc) (hr : r ∉ wAgg) :
    StableHlo.after opsAgg W (Proc.devRef .tc r) = W (Proc.devRef .tc r) := StableHlo.after_of_writes_sub _ W opsAgg_writes hr
theorem keepLin (W : Val) (r : Ref sig .tc) (hr : r ∉ wLin) :
    StableHlo.after opsLin W (Proc.devRef .tc r) = W (Proc.devRef .tc r) := StableHlo.after_of_writes_sub _ W opsLin_writes hr
theorem keepMid (W : Val) (r : Ref sig .tc) (hr : r ∉ wMid) :
    StableHlo.after opsMid W (Proc.devRef .tc r) = W (Proc.devRef .tc r) := StableHlo.after_of_writes_sub _ W opsMid_writes hr
theorem keepOut (W : Val) (r : Ref sig .tc) (hr : r ∉ wOut) :
    StableHlo.after opsOut W (Proc.devRef .tc r) = W (Proc.devRef .tc r) := StableHlo.after_of_writes_sub _ W opsOut_writes hr

/-- A buffer none of the four stretches writes is, after the layer, as it was before. -/
theorem keep (V : Val) (r : Ref sig .tc) (h1 : r ∉ wAgg) (h2 : r ∉ wLin) (h3 : r ∉ wMid) (h4 : r ∉ wOut) :
    StableHlo.after opsL4 V (Proc.devRef .tc r) = V (Proc.devRef .tc r) := by
  rw [after_cut, keepOut _ r h4, keepMid _ r h3, keepLin _ r h2, keepAgg _ r h1]

/-! ## Each stretch's last buffer, from any contents -/

/-- The aggregation: scale `h` by `1 + eps`, gather the source rows, add the edge features, scatter-add by destination. -/
theorem agg_read (W : Val) :
    StableHlo.after opsAgg W (Proc.devRef .tc main_v490)
      = GIN.agg (GIN.epsOf (W (Proc.devRef .tc main_arg6)) 4 (by decide)) (W (Proc.devRef .tc main_v473)) (W (Proc.devRef .tc main_v145))
          (W (Proc.devRef .tc main_v147)) (W (Proc.devRef .tc main_v149)) := by
  simp only [opsAgg, opsL4, List.take_succ_cons, List.take_zero]
  after_results_simp
  rfl

/-- The first dense step: the layer's slice of `W1`, the whole-array product, the bias vector copied into the rows. -/
theorem lin_read (W : Val) :
    StableHlo.after opsLin W (Proc.devRef .tc main_v498)
      = GIN.linR (W (Proc.devRef .tc main_v490)) (GIN.w1Of (W (Proc.devRef .tc main_arg7)) 4 (by decide))
          (GIN.vecH (W (Proc.devRef .tc main_arg8)) 4 (by decide)) := by
  simp only [opsLin, opsL4, List.drop_succ_cons, List.drop_zero, List.take_succ_cons, List.take_zero]
  after_results_simp
  rfl

/-- Normalisation of `y1` by its own column mean and variance (vectors), scale and shift, ramp, then `· W2 + b2`. -/
theorem mid_read (W : Val) :
    StableHlo.after opsMid W (Proc.devRef .tc main_v530)
      = GIN.bnLinR (W (Proc.devRef .tc main_v498)) (GIN.vecH (W (Proc.devRef .tc main_arg9)) 4 (by decide))
          (GIN.vecH (W (Proc.devRef .tc main_arg10)) 4 (by decide)) (GIN.w2Of (W (Proc.devRef .tc main_arg11)) 4 (by decide))
          (GIN.vecD (W (Proc.devRef .tc main_arg12)) 4 (by decide)) := by
  simp only [opsMid, opsL4, List.drop_succ_cons, List.drop_zero, List.take_succ_cons, List.take_zero]
  after_results_simp
  rfl

/-- Normalisation of `y2` by its own column mean and variance (vectors), scale and shift, ramp. -/
theorem out_read (W : Val) :
    StableHlo.after opsOut W (Proc.devRef .tc main_v554)
      = GIN.bnReluR (W (Proc.devRef .tc main_v530)) (GIN.vecD (W (Proc.devRef .tc main_arg13)) 4 (by decide))
          (GIN.vecD (W (Proc.devRef .tc main_arg14)) 4 (by decide)) := by
  simp only [opsOut, opsL4, List.drop_succ_cons, List.drop_zero]
  after_results_simp
  rfl

/-! ## The layer's buffers as functions of its inputs -/

/-- The aggregated features. -/
theorem hh_eq (V : Val) :
    StableHlo.after opsL4 V (Proc.devRef .tc main_v490)
      = GIN.agg (GIN.epsOf (V (Proc.devRef .tc main_arg6)) 4 (by decide)) (V (Proc.devRef .tc main_v473)) (V (Proc.devRef .tc main_v145))
          (V (Proc.devRef .tc main_v147)) (V (Proc.devRef .tc main_v149)) := by
  rw [after_cut, keepOut _ main_v490 (by decide), keepMid _ main_v490 (by decide), keepLin _ main_v490 (by decide), agg_read]

/-- The first dense step's result. -/
theorem y1_eq (V : Val) :
    StableHlo.after opsL4 V (Proc.devRef .tc main_v498)
      = GIN.linR
        (GIN.agg (GIN.epsOf (V (Proc.devRef .tc main_arg6)) 4 (by decide)) (V (Proc.devRef .tc main_v473)) (V (Proc.devRef .tc main_v145))
          (V (Proc.devRef .tc main_v147)) (V (Proc.devRef .tc main_v149)))
        (GIN.w1Of (V (Proc.devRef .tc main_arg7)) 4 (by decide)) (GIN.vecH (V (Proc.devRef .tc main_arg8)) 4 (by decide)) := by
  rw [after_cut, keepOut _ main_v498 (by decide), keepMid _ main_v498 (by decide), lin_read, agg_read,
    keepAgg _ main_arg7 (by decide), keepAgg _ main_arg8 (by decide)]

/-- The second dense step's result. -/
theorem y2_eq (V : Val) :
    StableHlo.after opsL4 V (Proc.devRef .tc main_v530)
  = GIN.bnLinR
      (GIN.linR
        (GIN.agg (GIN.epsOf (V (Proc.devRef .tc main_arg6)) 4 (by decide)) (V (Proc.devRef .tc main_v473)) (V (Proc.devRef .tc main_v145))
          (V (Proc.devRef .tc main_v147)) (V (Proc.devRef .tc main_v149)))
        (GIN.w1Of (V (Proc.devRef .tc main_arg7)) 4 (by decide)) (GIN.vecH (V (Proc.devRef .tc main_arg8)) 4 (by decide)))
      (GIN.vecH (V (Proc.devRef .tc main_arg9)) 4 (by decide)) (GIN.vecH (V (Proc.devRef .tc main_arg10)) 4 (by decide))
      (GIN.w2Of (V (Proc.devRef .tc main_arg11)) 4 (by decide)) (GIN.vecD (V (Proc.devRef .tc main_arg12)) 4 (by decide)) := by
  rw [after_cut, keepOut _ main_v530 (by decide), mid_read, lin_read, agg_read,
    keepAgg _ main_arg7 (by decide), keepAgg _ main_arg8 (by decide),
    keepLin _ main_arg9 (by decide), keepAgg _ main_arg9 (by decide),
    keepLin _ main_arg10 (by decide), keepAgg _ main_arg10 (by decide),
    keepLin _ main_arg11 (by decide), keepAgg _ main_arg11 (by decide),
    keepLin _ main_arg12 (by decide), keepAgg _ main_arg12 (by decide)]

/-- The layer's output, in vector form. -/
theorem out_eq (V : Val) :
    StableHlo.after opsL4 V (Proc.devRef .tc main_v554)
  = GIN.bnReluR
    (GIN.bnLinR
      (GIN.linR
        (GIN.agg (GIN.epsOf (V (Proc.devRef .tc main_arg6)) 4 (by decide)) (V (Proc.devRef .tc main_v473)) (V (Proc.devRef .tc main_v145))
          (V (Proc.devRef .tc main_v147)) (V (Proc.devRef .tc main_v149)))
        (GIN.w1Of (V (Proc.devRef .tc main_arg7)) 4 (by decide)) (GIN.vecH (V (Proc.devRef .tc main_arg8)) 4 (by decide)))
      (GIN.vecH (V (Proc.devRef .tc main_arg9)) 4 (by decide)) (GIN.vecH (V (Proc.devRef .tc main_arg10)) 4 (by decide))
      (GIN.w2Of (V (Proc.devRef .tc main_arg11)) 4 (by decide)) (GIN.vecD (V (Proc.devRef .tc main_arg12)) 4 (by decide)))
    (GIN.vecD (V (Proc.devRef .tc main_arg13)) 4 (by decide)) (GIN.vecD (V (Proc.devRef .tc main_arg14)) 4 (by decide)) := by
  rw [after_cut, out_read, mid_read, lin_read, agg_read,
    keepAgg _ main_arg7 (by decide), keepAgg _ main_arg8 (by decide),
    keepLin _ main_arg9 (by decide), keepAgg _ main_arg9 (by decide),
    keepLin _ main_arg10 (by decide), keepAgg _ main_arg10 (by decide),
    keepLin _ main_arg11 (by decide), keepAgg _ main_arg11 (by decide),
    keepLin _ main_arg12 (by decide), keepAgg _ main_arg12 (by decide),
    keepMid _ main_arg13 (by decide), keepLin _ main_arg13 (by decide), keepAgg _ main_arg13 (by decide),
    keepMid _ main_arg14 (by decide), keepLin _ main_arg14 (by decide), keepAgg _ main_arg14 (by decide)]

/-- The layer's output is the specification's layer of the layer's inputs: each vector form is its row form. -/
theorem layer_eq (V : Val) :
    StableHlo.after opsL4 V (Proc.devRef .tc main_v554)
      = GIN.layer (GIN.epsOf (V (Proc.devRef .tc main_arg6)) 4 (by decide)) (GIN.w1Of (V (Proc.devRef .tc main_arg7)) 4 (by decide))
          (GIN.rowHOf (V (Proc.devRef .tc main_arg8)) 4 (by decide)) (GIN.rowHOf (V (Proc.devRef .tc main_arg9)) 4 (by decide))
          (GIN.rowHOf (V (Proc.devRef .tc main_arg10)) 4 (by decide)) (GIN.w2Of (V (Proc.devRef .tc main_arg11)) 4 (by decide))
          (GIN.rowDOf (V (Proc.devRef .tc main_arg12)) 4 (by decide)) (GIN.rowDOf (V (Proc.devRef .tc main_arg13)) 4 (by decide))
          (GIN.rowDOf (V (Proc.devRef .tc main_arg14)) 4 (by decide))
          (V (Proc.devRef .tc main_v145)) (V (Proc.devRef .tc main_v147)) (V (Proc.devRef .tc main_v149)) (V (Proc.devRef .tc main_v473)) := by
  rw [out_eq, GIN.bnReluR_eq, GIN.bnLinR_eq, GIN.linR_eq]
  rfl

/-! ## What the layer leaves alone: the edge features, the edge endpoints and the program's arguments -/

theorem keep_main_v145 (V : Val) : StableHlo.after opsL4 V (Proc.devRef .tc main_v145) = V (Proc.devRef .tc main_v145) :=
  keep V main_v145 (by decide) (by decide) (by decide) (by decide)
theorem keep_main_v147 (V : Val) : StableHlo.after opsL4 V (Proc.devRef .tc main_v147) = V (Proc.devRef .tc main_v147) :=
  keep V main_v147 (by decide) (by decide) (by decide) (by decide)
theorem keep_main_v149 (V : Val) : StableHlo.after opsL4 V (Proc.devRef .tc main_v149) = V (Proc.devRef .tc main_v149) :=
  keep V main_v149 (by decide) (by decide) (by decide) (by decide)
theorem keep_main_arg0 (V : Val) : StableHlo.after opsL4 V (Proc.devRef .tc main_arg0) = V (Proc.devRef .tc main_arg0) :=
  keep V main_arg0 (by decide) (by decide) (by decide) (by decide)
theorem keep_main_arg1 (V : Val) : StableHlo.after opsL4 V (Proc.devRef .tc main_arg1) = V (Proc.devRef .tc main_arg1) :=
  keep V main_arg1 (by decide) (by decide) (by decide) (by decide)
theorem keep_main_arg2 (V : Val) : StableHlo.after opsL4 V (Proc.devRef .tc main_arg2) = V (Proc.devRef .tc main_arg2) :=
  keep V main_arg2 (by decide) (by decide) (by decide) (by decide)
theorem keep_main_arg3 (V : Val) : StableHlo.after opsL4 V (Proc.devRef .tc main_arg3) = V (Proc.devRef .tc main_arg3) :=
  keep V main_arg3 (by decide) (by decide) (by decide) (by decide)
theorem keep_main_arg4 (V : Val) : StableHlo.after opsL4 V (Proc.devRef .tc main_arg4) = V (Proc.devRef .tc main_arg4) :=
  keep V main_arg4 (by decide) (by decide) (by decide) (by decide)
theorem keep_main_arg5 (V : Val) : StableHlo.after opsL4 V (Proc.devRef .tc main_arg5) = V (Proc.devRef .tc main_arg5) :=
  keep V main_arg5 (by decide) (by decide) (by decide) (by decide)
theorem keep_main_arg6 (V : Val) : StableHlo.after opsL4 V (Proc.devRef .tc main_arg6) = V (Proc.devRef .tc main_arg6) :=
  keep V main_arg6 (by decide) (by decide) (by decide) (by decide)
theorem keep_main_arg7 (V : Val) : StableHlo.after opsL4 V (Proc.devRef .tc main_arg7) = V (Proc.devRef .tc main_arg7) :=
  keep V main_arg7 (by decide) (by decide) (by decide) (by decide)
theorem keep_main_arg8 (V : Val) : StableHlo.after opsL4 V (Proc.devRef .tc main_arg8) = V (Proc.devRef .tc main_arg8) :=
  keep V main_arg8 (by decide) (by decide) (by decide) (by decide)
theorem keep_main_arg9 (V : Val) : StableHlo.after opsL4 V (Proc.devRef .tc main_arg9) = V (Proc.devRef .tc main_arg9) :=
  keep V main_arg9 (by decide) (by decide) (by decide) (by decide)
theorem keep_main_arg10 (V : Val) : StableHlo.after opsL4 V (Proc.devRef .tc main_arg10) = V (Proc.devRef .tc main_arg10) :=
  keep V main_arg10 (by decide) (by decide) (by decide) (by decide)
theorem keep_main_arg11 (V : Val) : StableHlo.after opsL4 V (Proc.devRef .tc main_arg11) = V (Proc.devRef .tc main_arg11) :=
  keep V main_arg11 (by decide) (by decide) (by decide) (by decide)
theorem keep_main_arg12 (V : Val) : StableHlo.after opsL4 V (Proc.devRef .tc main_arg12) = V (Proc.devRef .tc main_arg12) :=
  keep V main_arg12 (by decide) (by decide) (by decide) (by decide)
theorem keep_main_arg13 (V : Val) : StableHlo.after opsL4 V (Proc.devRef .tc main_arg13) = V (Proc.devRef .tc main_arg13) :=
  keep V main_arg13 (by decide) (by decide) (by decide) (by decide)
theorem keep_main_arg14 (V : Val) : StableHlo.after opsL4 V (Proc.devRef .tc main_arg14) = V (Proc.devRef .tc main_arg14) :=
  keep V main_arg14 (by decide) (by decide) (by decide) (by decide)
theorem keep_main_arg15 (V : Val) : StableHlo.after opsL4 V (Proc.devRef .tc main_arg15) = V (Proc.devRef .tc main_arg15) :=
  keep V main_arg15 (by decide) (by decide) (by decide) (by decide)
theorem keep_main_arg16 (V : Val) : StableHlo.after opsL4 V (Proc.devRef .tc main_arg16) = V (Proc.devRef .tc main_arg16) :=
  keep V main_arg16 (by decide) (by decide) (by decide) (by decide)

end Cert.ReferenceIdeal.Layer4

end
-- ==== Proof.RHead.lean ====
/-
  The reference network's readout, read off its operations.

  The last twenty host operations take the fifth layer's node features, sum them over the nodes of each of the 512
  graphs (a scatter-add by the graph index), divide by the number of the graph's nodes (a scatter-add of ones, made
  at least 1), multiply by the head's matrix and add its bias row. Composed in the order the program runs them, the
  operations' results are the specification's readout function term for term: no entry of any array is looked at.
-/
import proofs.«403201_j40475771797954_1_alg».proof.Proof.RefSeams
import proofs.«403201_j40475771797954_1_alg».proof.Proof.SpecStats

set_option maxRecDepth 16384

noncomputable section

namespace Cert.ReferenceIdeal.Head

open Cert Cert.ReferenceIdeal Cert.ReferenceIdeal.Gen Cert.ReferenceIdeal.Hand
open Idealize.ShloMosaic Idealize.ShloMosaic.TcCoe Idealize.SL.Sem

/-- From any contents, after the readout's operations the result buffer holds the readout of what the contents had at
    the last layer's output, at the graph index, at the head's matrix and at its bias. -/
theorem head_eq (V : Valuation τ sig (Elt Ideal)) :
    StableHlo.after (opsHead (F := Ideal)) V (Proc.devRef .tc main_v570)
      = GIN.head (V (Proc.devRef .tc main_v554)) (V (Proc.devRef .tc main_arg3)) (V (Proc.devRef .tc main_arg15))
          (V (Proc.devRef .tc main_arg16)) := by
  after_results_simp
  rfl

end Cert.ReferenceIdeal.Head

end
-- ==== Proof.RValue.lean ====
/-
  The reference program computes the network.

  The run's 891 operations are seven stretches one after the other: the embedding sums and the edge endpoints, the five
  layers, the readout. The readout's result is the specification's readout of the fifth layer's output; each layer's
  output is the specification's layer of the layer before it, of the edge features and endpoints, and of the layer's own
  slices of the parameters; no stretch after the first writes the edge features, the endpoints or an argument, so each
  reads them as the first stretch left them: the embedding sums of the arguments, and the arguments themselves. Put
  together this is the specification's network of the seventeen arguments.
-/
import proofs.«403201_j40475771797954_1_alg».proof.Proof.RefRun
import proofs.«403201_j40475771797954_1_alg».proof.Proof.RInit
import proofs.«403201_j40475771797954_1_alg».proof.Proof.RLayer0
import proofs.«403201_j40475771797954_1_alg».proof.Proof.RLayer1
import proofs.«403201_j40475771797954_1_alg».proof.Proof.RLayer2
import proofs.«403201_j40475771797954_1_alg».proof.Proof.RLayer3
import proofs.«403201_j40475771797954_1_alg».proof.Proof.RLayer4
import proofs.«403201_j40475771797954_1_alg».proof.Proof.RHead
import proofs.«403201_j40475771797954_1_alg».proof.Proof.Model

set_option maxRecDepth 16384

noncomputable section

namespace Cert.ReferenceIdeal.Whole

open Cert Cert.ReferenceIdeal Cert.ReferenceIdeal.Gen Cert.ReferenceIdeal.Hand
open Idealize.ShloMosaic Idealize.ShloMosaic.TcCoe Idealize.SL.Sem

/-- From any contents, after the whole run the result buffer holds the network of what the contents had at the
    seventeen arguments. -/
theorem value (V : Valuation τ sig (Elt Ideal)) :
    StableHlo.after (Hand.ops (F := Ideal)) V (Proc.devRef .tc main_v570)
      = GIN.model (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11))
          (V (Proc.devRef .tc main_arg12)) (V (Proc.devRef .tc main_arg13)) (V (Proc.devRef .tc main_arg14))
          (V (Proc.devRef .tc main_arg15)) (V (Proc.devRef .tc main_arg16)) := by
  rw [Hand.after_seams, Head.head_eq]
  rw [Layer4.layer_eq,
    Layer4.keep_main_arg3, Layer4.keep_main_arg15, Layer4.keep_main_arg16]
  rw [Layer3.layer_eq,
    Layer3.keep_main_arg3, Layer3.keep_main_arg15, Layer3.keep_main_arg16, Layer3.keep_main_arg6,
    Layer3.keep_main_arg7, Layer3.keep_main_arg8, Layer3.keep_main_arg9, Layer3.keep_main_arg10,
    Layer3.keep_main_arg11, Layer3.keep_main_arg12, Layer3.keep_main_arg13, Layer3.keep_main_arg14,
    Layer3.keep_main_v145, Layer3.keep_main_v147, Layer3.keep_main_v149]
  rw [Layer2.layer_eq,
    Layer2.keep_main_arg3, Layer2.keep_main_arg15, Layer2.keep_main_arg16, Layer2.keep_main_arg6,
    Layer2.keep_main_arg7, Layer2.keep_main_arg8, Layer2.keep_main_arg9, Layer2.keep_main_arg10,
    Layer2.keep_main_arg11, Layer2.keep_main_arg12, Layer2.keep_main_arg13, Layer2.keep_main_arg14,
    Layer2.keep_main_v145, Layer2.keep_main_v147, Layer2.keep_main_v149]
  rw [Layer1.layer_eq,
    Layer1.keep_main_arg3, Layer1.keep_main_arg15, Layer1.keep_main_arg16, Layer1.keep_main_arg6,
    Layer1.keep_main_arg7, Layer1.keep_main_arg8, Layer1.keep_main_arg9, Layer1.keep_main_arg10,
    Layer1.keep_main_arg11, Layer1.keep_main_arg12, Layer1.keep_main_arg13, Layer1.keep_main_arg14,
    Layer1.keep_main_v145, Layer1.keep_main_v147, Layer1.keep_main_v149]
  rw [Layer0.layer_eq,
    Layer0.keep_main_arg3, Layer0.keep_main_arg15, Layer0.keep_main_arg16, Layer0.keep_main_arg6,
    Layer0.keep_main_arg7, Layer0.keep_main_arg8, Layer0.keep_main_arg9, Layer0.keep_main_arg10,
    Layer0.keep_main_arg11, Layer0.keep_main_arg12, Layer0.keep_main_arg13, Layer0.keep_main_arg14,
    Layer0.keep_main_v145, Layer0.keep_main_v147, Layer0.keep_main_v149]
  rw [Init.h0_eq, Init.e_eq, Init.src_eq, Init.dst_eq,
    Init.arg_keep3, Init.arg_keep15, Init.arg_keep16, Init.arg_keep6, Init.arg_keep7,
    Init.arg_keep8, Init.arg_keep9, Init.arg_keep10, Init.arg_keep11, Init.arg_keep12,
    Init.arg_keep13, Init.arg_keep14]
  rfl

end Cert.ReferenceIdeal.Whole

end
-- ==== Proof.RWhole.lean ====
/-
  The reference program's run with its result named.

  The fold of the run's operations, read at the result buffer, is the network `GIN.model` of the contents the
  valuation gives the seventeen arguments (`Whole.value`), and read at an argument's buffer it is what the valuation
  gave it (`arg_keep_K`). At the launch contents, with the run's termination (`run_main`): every execution ends
  with the result buffer holding the network of the launched arguments and the arguments unchanged.
-/
import proofs.«403201_j40475771797954_1_alg».proof.Proof.RArgs
import proofs.«403201_j40475771797954_1_alg».proof.Proof.RValue

noncomputable section

namespace Cert.ReferenceIdeal.Hand

open Cert Cert.ReferenceIdeal Cert.ReferenceIdeal.Gen Idealize.ShloMosaic Idealize.ShloMosaic.TcCoe Idealize.SL.Sem
open Idealize.ShloMosaic.StableHlo

/-- On every device, over the extended reals, from any memory with zero counters: every weakly fair execution of
    @main terminates with the result `main_v570` at the network of the launched arguments, and each argument as
    launched. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v570)
        = GIN.model (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v570).trans (Whole.value (launchContents m c)),
      (h c main_arg0).trans (arg_keep_0 _),
      (h c main_arg1).trans (arg_keep_1 _),
      (h c main_arg2).trans (arg_keep_2 _),
      (h c main_arg3).trans (arg_keep_3 _),
      (h c main_arg4).trans (arg_keep_4 _),
      (h c main_arg5).trans (arg_keep_5 _),
      (h c main_arg6).trans (arg_keep_6 _),
      (h c main_arg7).trans (arg_keep_7 _),
      (h c main_arg8).trans (arg_keep_8 _),
      (h c main_arg9).trans (arg_keep_9 _),
      (h c main_arg10).trans (arg_keep_10 _),
      (h c main_arg11).trans (arg_keep_11 _),
      (h c main_arg12).trans (arg_keep_12 _),
      (h c main_arg13).trans (arg_keep_13 _),
      (h c main_arg14).trans (arg_keep_14 _),
      (h c main_arg15).trans (arg_keep_15 _),
      (h c main_arg16).trans (arg_keep_16 _)⟩)
    (run_main m ρ)

end Cert.ReferenceIdeal.Hand

end
-- ==== Proof.lean ====
/-
  A five-layer graph isomorphism network, the kernel's three dense steps per layer tiled 5000 rows at a time against
  the reference's whole-array host operations. Over the extended reals both programs compute ONE function of the
  seventeen inputs (`GIN.model`): the embedding sums, per layer the neighbourhood aggregation (the same gather and
  scatter-add on both sides), then `· W1 + b1`, batch normalisation over the 50000 rows and the ramp, `· W2 + b2`,
  batch normalisation and the ramp again, and at the end the mean pool over graphs and the linear head. A row of a
  dense step's result depends on that row of its input only, and the column statistics are computed on the host from the
  whole array on both sides, so the tiling changes nothing; a change of float format is the identity; the kernel's
  row-shaped statistics and parameters [1, n] hold the same numbers as the reference's vectors [n].
  The kernel's value is read off its run boundary by boundary, the reference's off its list of host operations cut at
  the layers; the three frames are the kernel's runs with the results dropped and the reference's run at its arguments.
-/
import proofs.«403201_j40475771797954_1_alg».proof.Defs
import proofs.«403201_j40475771797954_1_alg».proof.Proof.Gen.Kernel
import proofs.«403201_j40475771797954_1_alg».proof.Proof.BFrameC
import proofs.«403201_j40475771797954_1_alg».proof.Proof.Gen.KernelIdeal
import proofs.«403201_j40475771797954_1_alg».proof.Proof.KFrameC
import proofs.«403201_j40475771797954_1_alg».proof.Proof.Gen.ReferenceIdeal
import proofs.«403201_j40475771797954_1_alg».proof.Proof.Gen.Pre_finite_inputs
import proofs.«403201_j40475771797954_1_alg».proof.Proof.KRun
import proofs.«403201_j40475771797954_1_alg».proof.Proof.KValue
import proofs.«403201_j40475771797954_1_alg».proof.Proof.RArgs
import proofs.«403201_j40475771797954_1_alg».proof.Proof.RWhole
import Idealize.ShloMosaic.Adequacy
import Idealize.ShloMosaic.Init

noncomputable section

namespace Cert.Proof

open Idealize.ShloMosaic Idealize.SL.Sem

/-- The word-level kernel terminates without a fault and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a list of host operations none of which writes an argument. -/
theorem frame_referenceIdeal : Cert.frame_ReferenceIdeal := fun m ρ _ =>
  Cert.ReferenceIdeal.Hand.run_args (F := Ideal) m ρ

/-- Both programs end with `GIN.model` of the inputs in their result buffer. -/
theorem algebraic : Cert.algebraic_KernelIdeal_ReferenceIdeal := by
  intro m ρ m' ρ' _ hagree
  refine ⟨fun c => GIN.model
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.Whole.value m ρ c), (h c).2⟩)
      (Cert.KernelIdeal.Run.run_main (F := Ideal) m ρ)
  · refine (θ_run Cert.ReferenceIdeal.defs _ _).mono (fun r h c => ⟨(h c).1.trans ?_, (h c).2⟩)
      (Cert.ReferenceIdeal.Hand.run_value m' ρ')
    obtain ⟨e0, e1, e2, e3, e4, e5, e6, e7, e8, e9, e10, e11, e12, e13, e14, e15, e16⟩ := hagree c
    rw [e0, e1, e2, e3, e4, e5, e6, e7, e8, e9, e10, e11, e12, e13, e14, e15, e16]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
